-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v245)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v245) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v250) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x512x512 : Shape := ⟨4, ![4, 8, 512, 512]⟩
abbrev S4x3x512x512 : Shape := ⟨4, ![4, 3, 512, 512]⟩
abbrev S107811x8 : Shape := ⟨2, ![107811, 8]⟩
abbrev S_ : Shape := ⟨0, ![]⟩

class Facts : Prop where
  bcast_S_S4x8x512x512 : S_.BroadcastsInDim S4x8x512x512 (![] : Fin 0 → Fin S4x8x512x512.rank)
  reducesTo_S4x8x512x512_S_d0_1_2_3 : S4x8x512x512.ReducesTo [0, 1, 2, 3] S_
  h_S_ : 0 < S_.numel
  bcast_S_S4x3x512x512 : S_.BroadcastsInDim S4x3x512x512 (![] : Fin 0 → Fin S4x3x512x512.rank)
  reducesTo_S4x3x512x512_S_d0_1_2_3 : S4x3x512x512.ReducesTo [0, 1, 2, 3] S_
  bcast_S_S107811x8 : S_.BroadcastsInDim S107811x8 (![] : Fin 0 → Fin S107811x8.rank)
  reducesTo_S107811x8_S_d0_1 : S107811x8.ReducesTo [0, 1] S_

variable [Facts]

def fn_part1 {F : FTy → Type} [FloatOps F] (main_v13 : IVec S_ 1) (main_v16 : IVec S107811x8 1) : IVec S_ 1 :=
  let main_c_5 : IVec S_ 1 := constantI S_ 1 1#1
  let main_v17 : IVec S_ 1 := (fun x v => Host.reduce IntOp.andi x v reducesTo_S107811x8_S_d0_1 h_S_) main_v16 main_c_5
  let main_v18 : IVec S_ 1 := andi main_v13 main_v17
  main_v18

def fn {F : FTy → Type} [FloatOps F] (main_arg0 : FVec F S4x8x512x512 .f32) (main_arg1 : FVec F S4x8x512x512 .f32) (main_arg2 : FVec F S4x3x512x512 .f32) (main_arg3 : FVec F S107811x8 .f32) : IVec S_ 1 :=
  let main_v0 : FVec F S4x8x512x512 .f32 := Host.absf main_arg0
  let main_cst : FVec F S_ .f32 := constant S_ .f32 0x7F800000#32
  let main_v1 : FVec F S4x8x512x512 .f32 := broadcastInDim S4x8x512x512 ![] bcast_S_S4x8x512x512 main_cst
  let main_v2 : IVec S4x8x512x512 1 := cmpf .olt main_v0 main_v1
  let main_c : IVec S_ 1 := constantI S_ 1 1#1
  let main_v3 : IVec S_ 1 := (fun x v => Host.reduce IntOp.andi x v reducesTo_S4x8x512x512_S_d0_1_2_3 h_S_) main_v2 main_c
  let main_v4 : FVec F S4x8x512x512 .f32 := Host.absf main_arg1
  let main_cst_0 : FVec F S_ .f32 := constant S_ .f32 0x7F800000#32
  let main_v5 : FVec F S4x8x512x512 .f32 := broadcastInDim S4x8x512x512 ![] bcast_S_S4x8x512x512 main_cst_0
  let main_v6 : IVec S4x8x512x512 1 := cmpf .olt main_v4 main_v5
  let main_c_1 : IVec S_ 1 := constantI S_ 1 1#1
  let main_v7 : IVec S_ 1 := (fun x v => Host.reduce IntOp.andi x v reducesTo_S4x8x512x512_S_d0_1_2_3 h_S_) main_v6 main_c_1
  let main_v8 : IVec S_ 1 := andi main_v3 main_v7
  let main_v9 : FVec F S4x3x512x512 .f32 := Host.absf main_arg2
  let main_cst_2 : FVec F S_ .f32 := constant S_ .f32 0x7F800000#32
  let main_v10 : FVec F S4x3x512x512 .f32 := broadcastInDim S4x3x512x512 ![] bcast_S_S4x3x512x512 main_cst_2
  let main_v11 : IVec S4x3x512x512 1 := cmpf .olt main_v9 main_v10
  let main_c_3 : IVec S_ 1 := constantI S_ 1 1#1
  let main_v12 : IVec S_ 1 := (fun x v => Host.reduce IntOp.andi x v reducesTo_S4x3x512x512_S_d0_1_2_3 h_S_) main_v11 main_c_3
  let main_v13 : IVec S_ 1 := andi main_v8 main_v12
  let main_v14 : FVec F S107811x8 .f32 := Host.absf main_arg3
  let main_cst_4 : FVec F S_ .f32 := constant S_ .f32 0x7F800000#32
  let main_v15 : FVec F S107811x8 .f32 := broadcastInDim S107811x8 ![] bcast_S_S107811x8 main_cst_4
  let main_v16 : IVec S107811x8 1 := cmpf .olt main_v14 main_v15
  fn_part1 (F := F) main_v13 main_v16
-- ==== Kernel.lean ====
abbrev S4x8x512x512 : Shape := ⟨4, ![4, 8, 512, 512]⟩
abbrev S4x3x512x512 : Shape := ⟨4, ![4, 3, 512, 512]⟩
abbrev S107811x8 : Shape := ⟨2, ![107811, 8]⟩
abbrev S8x107811 : Shape := ⟨2, ![8, 107811]⟩
abbrev S8x3x33x33x33 : Shape := ⟨5, ![8, 3, 33, 33, 33]⟩
abbrev S_ : Shape := ⟨0, ![]⟩
abbrev S4x1x512x512 : Shape := ⟨4, ![4, 1, 512, 512]⟩
abbrev S4x512x512 : Shape := ⟨3, ![4, 512, 512]⟩
abbrev S4x512x512x1 : Shape := ⟨4, ![4, 512, 512, 1]⟩
abbrev S4x512x512x3 : Shape := ⟨4, ![4, 512, 512, 3]⟩
abbrev S8x3x4x512x512 : Shape := ⟨5, ![8, 3, 4, 512, 512]⟩
abbrev S1x1x4x512x512 : Shape := ⟨5, ![1, 1, 4, 512, 512]⟩
abbrev S1x8x128x512 : Shape := ⟨4, ![1, 8, 128, 512]⟩
abbrev S8x3x1x128x512 : Shape := ⟨5, ![8, 3, 1, 128, 512]⟩
abbrev S1x3x128x512 : Shape := ⟨4, ![1, 3, 128, 512]⟩
abbrev S8x128x512 : Shape := ⟨3, ![8, 128, 512]⟩
abbrev S8x1x128x512 : Shape := ⟨4, ![8, 1, 128, 512]⟩
abbrev S8x3x128x512 : Shape := ⟨4, ![8, 3, 128, 512]⟩
abbrev S3x128x512 : Shape := ⟨3, ![3, 128, 512]⟩

abbrev nBuf : Space → Nat
  | .hbm => 333
  | .vmem => 8
  | .smem => 0
  | _ => 0

abbrev hbmTy0_0 (i : Nat) : BufTy := match i % 128 with
  | 0 => ⟨S4x8x512x512, .f32⟩
  | 1 => ⟨S4x8x512x512, .f32⟩
  | 2 => ⟨S4x3x512x512, .f32⟩
  | 3 => ⟨S107811x8, .f32⟩
  | 4 => ⟨S8x107811, .f32⟩
  | 5 => ⟨S8x3x33x33x33, .f32⟩
  | 6 => ⟨S_, .f32⟩
  | 7 => ⟨S4x3x512x512, .f32⟩
  | 8 => ⟨S4x3x512x512, .f32⟩
  | 9 => ⟨S_, .f32⟩
  | 10 => ⟨S_, .f32⟩
  | 11 => ⟨S_, .f32⟩
  | 12 => ⟨S4x3x512x512, .f32⟩
  | 13 => ⟨S4x3x512x512, .f32⟩
  | 14 => ⟨S_, .f32⟩
  | 15 => ⟨S4x3x512x512, .f32⟩
  | 16 => ⟨S4x3x512x512, .f32⟩
  | 17 => ⟨S4x1x512x512, .f32⟩
  | 18 => ⟨S4x512x512, .f32⟩
  | 19 => ⟨S4x1x512x512, .f32⟩
  | 20 => ⟨S4x512x512, .f32⟩
  | 21 => ⟨S4x1x512x512, .f32⟩
  | 22 => ⟨S4x512x512, .f32⟩
  | 23 => ⟨S4x512x512, .f32⟩
  | 24 => ⟨S4x512x512, .i32⟩
  | 25 => ⟨S_, .i32⟩
  | 26 => ⟨S_, .i32⟩
  | 27 => ⟨S_, .i32⟩
  | 28 => ⟨S4x512x512, .i32⟩
  | 29 => ⟨S4x512x512, .i32⟩
  | 30 => ⟨S_, .i32⟩
  | 31 => ⟨S4x512x512, .i32⟩
  | 32 => ⟨S4x512x512, .i32⟩
  | 33 => ⟨S4x512x512, .f32⟩
  | 34 => ⟨S4x512x512, .f32⟩
  | 35 => ⟨S4x512x512, .f32⟩
  | 36 => ⟨S4x512x512, .i32⟩
  | 37 => ⟨S_, .i32⟩
  | 38 => ⟨S_, .i32⟩
  | 39 => ⟨S_, .i32⟩
  | 40 => ⟨S4x512x512, .i32⟩
  | 41 => ⟨S4x512x512, .i32⟩
  | 42 => ⟨S_, .i32⟩
  | 43 => ⟨S4x512x512, .i32⟩
  | 44 => ⟨S4x512x512, .i32⟩
  | 45 => ⟨S4x512x512, .f32⟩
  | 46 => ⟨S4x512x512, .f32⟩
  | 47 => ⟨S4x512x512, .f32⟩
  | 48 => ⟨S4x512x512, .i32⟩
  | 49 => ⟨S_, .i32⟩
  | 50 => ⟨S_, .i32⟩
  | 51 => ⟨S_, .i32⟩
  | 52 => ⟨S4x512x512, .i32⟩
  | 53 => ⟨S4x512x512, .i32⟩
  | 54 => ⟨S_, .i32⟩
  | 55 => ⟨S4x512x512, .i32⟩
  | 56 => ⟨S4x512x512, .i32⟩
  | 57 => ⟨S4x512x512, .f32⟩
  | 58 => ⟨S4x512x512, .f32⟩
  | 59 => ⟨S_, .i32⟩
  | 60 => ⟨S4x512x512, .i32⟩
  | 61 => ⟨S4x512x512, .i32⟩
  | 62 => ⟨S_, .i32⟩
  | 63 => ⟨S4x512x512, .i32⟩
  | 64 => ⟨S4x512x512, .i32⟩
  | 65 => ⟨S_, .i32⟩
  | 66 => ⟨S4x512x512, .i32⟩
  | 67 => ⟨S4x512x512, .i32⟩
  | 68 => ⟨S_, .f32⟩
  | 69 => ⟨S4x512x512, .f32⟩
  | 70 => ⟨S4x512x512, .f32⟩
  | 71 => ⟨S_, .f32⟩
  | 72 => ⟨S4x512x512, .f32⟩
  | 73 => ⟨S4x512x512, .f32⟩
  | 74 => ⟨S_, .f32⟩
  | 75 => ⟨S4x512x512, .f32⟩
  | 76 => ⟨S4x512x512, .f32⟩
  | 77 => ⟨S_, .i32⟩
  | 78 => ⟨S4x512x512, .i32⟩
  | 79 => ⟨S4x512x512, .i1⟩
  | 80 => ⟨S_, .i32⟩
  | 81 => ⟨S4x512x512, .i32⟩
  | 82 => ⟨S4x512x512, .i32⟩
  | 83 => ⟨S4x512x512, .i32⟩
  | 84 => ⟨S_, .i32⟩
  | 85 => ⟨S4x512x512, .i32⟩
  | 86 => ⟨S4x512x512, .i1⟩
  | 87 => ⟨S_, .i32⟩
  | 88 => ⟨S4x512x512, .i32⟩
  | 89 => ⟨S4x512x512, .i32⟩
  | 90 => ⟨S4x512x512, .i32⟩
  | 91 => ⟨S_, .i32⟩
  | 92 => ⟨S4x512x512, .i32⟩
  | 93 => ⟨S4x512x512, .i1⟩
  | 94 => ⟨S_, .i32⟩
  | 95 => ⟨S4x512x512, .i32⟩
  | 96 => ⟨S4x512x512, .i32⟩
  | 97 => ⟨S4x512x512, .i32⟩
  | 98 => ⟨S4x512x512x1, .i32⟩
  | 99 => ⟨S4x512x512x1, .i32⟩
  | 100 => ⟨S4x512x512x1, .i32⟩
  | 101 => ⟨S4x512x512x3, .i32⟩
  | 102 => ⟨S8x3x4x512x512, .f32⟩
  | 103 => ⟨S4x512x512, .f32⟩
  | 104 => ⟨S4x512x512, .f32⟩
  | 105 => ⟨S1x1x4x512x512, .f32⟩
  | 106 => ⟨S8x3x4x512x512, .f32⟩
  | 107 => ⟨S8x3x4x512x512, .f32⟩
  | 108 => ⟨S_, .i32⟩
  | 109 => ⟨S4x512x512, .i32⟩
  | 110 => ⟨S4x512x512, .i1⟩
  | 111 => ⟨S_, .i32⟩
  | 112 => ⟨S4x512x512, .i32⟩
  | 113 => ⟨S4x512x512, .i32⟩
  | 114 => ⟨S4x512x512, .i32⟩
  | 115 => ⟨S_, .i32⟩
  | 116 => ⟨S4x512x512, .i32⟩
  | 117 => ⟨S4x512x512, .i1⟩
  | 118 => ⟨S_, .i32⟩
  | 119 => ⟨S4x512x512, .i32⟩
  | 120 => ⟨S4x512x512, .i32⟩
  | 121 => ⟨S4x512x512, .i32⟩
  | 122 => ⟨S_, .i32⟩
  | 123 => ⟨S4x512x512, .i32⟩
  | 124 => ⟨S4x512x512, .i1⟩
  | 125 => ⟨S_, .i32⟩
  | 126 => ⟨S4x512x512, .i32⟩
  | 127 => ⟨S4x512x512, .i32⟩
  | _ => ⟨S4x8x512x512, .f32⟩

abbrev hbmTy0_1 (i : Nat) : BufTy := match i % 128 with
  | 0 => ⟨S4x512x512, .i32⟩
  | 1 => ⟨S4x512x512x1, .i32⟩
  | 2 => ⟨S4x512x512x1, .i32⟩
  | 3 => ⟨S4x512x512x1, .i32⟩
  | 4 => ⟨S4x512x512x3, .i32⟩
  | 5 => ⟨S8x3x4x512x512, .f32⟩
  | 6 => ⟨S4x512x512, .f32⟩
  | 7 => ⟨S4x512x512, .f32⟩
  | 8 => ⟨S1x1x4x512x512, .f32⟩
  | 9 => ⟨S8x3x4x512x512, .f32⟩
  | 10 => ⟨S8x3x4x512x512, .f32⟩
  | 11 => ⟨S8x3x4x512x512, .f32⟩
  | 12 => ⟨S_, .i32⟩
  | 13 => ⟨S4x512x512, .i32⟩
  | 14 => ⟨S4x512x512, .i1⟩
  | 15 => ⟨S_, .i32⟩
  | 16 => ⟨S4x512x512, .i32⟩
  | 17 => ⟨S4x512x512, .i32⟩
  | 18 => ⟨S4x512x512, .i32⟩
  | 19 => ⟨S_, .i32⟩
  | 20 => ⟨S4x512x512, .i32⟩
  | 21 => ⟨S4x512x512, .i1⟩
  | 22 => ⟨S_, .i32⟩
  | 23 => ⟨S4x512x512, .i32⟩
  | 24 => ⟨S4x512x512, .i32⟩
  | 25 => ⟨S4x512x512, .i32⟩
  | 26 => ⟨S_, .i32⟩
  | 27 => ⟨S4x512x512, .i32⟩
  | 28 => ⟨S4x512x512, .i1⟩
  | 29 => ⟨S_, .i32⟩
  | 30 => ⟨S4x512x512, .i32⟩
  | 31 => ⟨S4x512x512, .i32⟩
  | 32 => ⟨S4x512x512, .i32⟩
  | 33 => ⟨S4x512x512x1, .i32⟩
  | 34 => ⟨S4x512x512x1, .i32⟩
  | 35 => ⟨S4x512x512x1, .i32⟩
  | 36 => ⟨S4x512x512x3, .i32⟩
  | 37 => ⟨S8x3x4x512x512, .f32⟩
  | 38 => ⟨S4x512x512, .f32⟩
  | 39 => ⟨S4x512x512, .f32⟩
  | 40 => ⟨S1x1x4x512x512, .f32⟩
  | 41 => ⟨S8x3x4x512x512, .f32⟩
  | 42 => ⟨S8x3x4x512x512, .f32⟩
  | 43 => ⟨S8x3x4x512x512, .f32⟩
  | 44 => ⟨S_, .i32⟩
  | 45 => ⟨S4x512x512, .i32⟩
  | 46 => ⟨S4x512x512, .i1⟩
  | 47 => ⟨S_, .i32⟩
  | 48 => ⟨S4x512x512, .i32⟩
  | 49 => ⟨S4x512x512, .i32⟩
  | 50 => ⟨S4x512x512, .i32⟩
  | 51 => ⟨S_, .i32⟩
  | 52 => ⟨S4x512x512, .i32⟩
  | 53 => ⟨S4x512x512, .i1⟩
  | 54 => ⟨S_, .i32⟩
  | 55 => ⟨S4x512x512, .i32⟩
  | 56 => ⟨S4x512x512, .i32⟩
  | 57 => ⟨S4x512x512, .i32⟩
  | 58 => ⟨S_, .i32⟩
  | 59 => ⟨S4x512x512, .i32⟩
  | 60 => ⟨S4x512x512, .i1⟩
  | 61 => ⟨S_, .i32⟩
  | 62 => ⟨S4x512x512, .i32⟩
  | 63 => ⟨S4x512x512, .i32⟩
  | 64 => ⟨S4x512x512, .i32⟩
  | 65 => ⟨S4x512x512x1, .i32⟩
  | 66 => ⟨S4x512x512x1, .i32⟩
  | 67 => ⟨S4x512x512x1, .i32⟩
  | 68 => ⟨S4x512x512x3, .i32⟩
  | 69 => ⟨S8x3x4x512x512, .f32⟩
  | 70 => ⟨S4x512x512, .f32⟩
  | 71 => ⟨S4x512x512, .f32⟩
  | 72 => ⟨S1x1x4x512x512, .f32⟩
  | 73 => ⟨S8x3x4x512x512, .f32⟩
  | 74 => ⟨S8x3x4x512x512, .f32⟩
  | 75 => ⟨S8x3x4x512x512, .f32⟩
  | 76 => ⟨S_, .i32⟩
  | 77 => ⟨S4x512x512, .i32⟩
  | 78 => ⟨S4x512x512, .i1⟩
  | 79 => ⟨S_, .i32⟩
  | 80 => ⟨S4x512x512, .i32⟩
  | 81 => ⟨S4x512x512, .i32⟩
  | 82 => ⟨S4x512x512, .i32⟩
  | 83 => ⟨S_, .i32⟩
  | 84 => ⟨S4x512x512, .i32⟩
  | 85 => ⟨S4x512x512, .i1⟩
  | 86 => ⟨S_, .i32⟩
  | 87 => ⟨S4x512x512, .i32⟩
  | 88 => ⟨S4x512x512, .i32⟩
  | 89 => ⟨S4x512x512, .i32⟩
  | 90 => ⟨S_, .i32⟩
  | 91 => ⟨S4x512x512, .i32⟩
  | 92 => ⟨S4x512x512, .i1⟩
  | 93 => ⟨S_, .i32⟩
  | 94 => ⟨S4x512x512, .i32⟩
  | 95 => ⟨S4x512x512, .i32⟩
  | 96 => ⟨S4x512x512, .i32⟩
  | 97 => ⟨S4x512x512x1, .i32⟩
  | 98 => ⟨S4x512x512x1, .i32⟩
  | 99 => ⟨S4x512x512x1, .i32⟩
  | 100 => ⟨S4x512x512x3, .i32⟩
  | 101 => ⟨S8x3x4x512x512, .f32⟩
  | 102 => ⟨S4x512x512, .f32⟩
  | 103 => ⟨S4x512x512, .f32⟩
  | 104 => ⟨S1x1x4x512x512, .f32⟩
  | 105 => ⟨S8x3x4x512x512, .f32⟩
  | 106 => ⟨S8x3x4x512x512, .f32⟩
  | 107 => ⟨S8x3x4x512x512, .f32⟩
  | 108 => ⟨S_, .i32⟩
  | 109 => ⟨S4x512x512, .i32⟩
  | 110 => ⟨S4x512x512, .i1⟩
  | 111 => ⟨S_, .i32⟩
  | 112 => ⟨S4x512x512, .i32⟩
  | 113 => ⟨S4x512x512, .i32⟩
  | 114 => ⟨S4x512x512, .i32⟩
  | 115 => ⟨S_, .i32⟩
  | 116 => ⟨S4x512x512, .i32⟩
  | 117 => ⟨S4x512x512, .i1⟩
  | 118 => ⟨S_, .i32⟩
  | 119 => ⟨S4x512x512, .i32⟩
  | 120 => ⟨S4x512x512, .i32⟩
  | 121 => ⟨S4x512x512, .i32⟩
  | 122 => ⟨S_, .i32⟩
  | 123 => ⟨S4x512x512, .i32⟩
  | 124 => ⟨S4x512x512, .i1⟩
  | 125 => ⟨S_, .i32⟩
  | 126 => ⟨S4x512x512, .i32⟩
  | 127 => ⟨S4x512x512, .i32⟩
  | _ => ⟨S4x8x512x512, .f32⟩

abbrev hbmTy0_2 (i : Nat) : BufTy := match i % 128 with
  | 0 => ⟨S4x512x512, .i32⟩
  | 1 => ⟨S4x512x512x1, .i32⟩
  | 2 => ⟨S4x512x512x1, .i32⟩
  | 3 => ⟨S4x512x512x1, .i32⟩
  | 4 => ⟨S4x512x512x3, .i32⟩
  | 5 => ⟨S8x3x4x512x512, .f32⟩
  | 6 => ⟨S4x512x512, .f32⟩
  | 7 => ⟨S4x512x512, .f32⟩
  | 8 => ⟨S1x1x4x512x512, .f32⟩
  | 9 => ⟨S8x3x4x512x512, .f32⟩
  | 10 => ⟨S8x3x4x512x512, .f32⟩
  | 11 => ⟨S8x3x4x512x512, .f32⟩
  | 12 => ⟨S_, .i32⟩
  | 13 => ⟨S4x512x512, .i32⟩
  | 14 => ⟨S4x512x512, .i1⟩
  | 15 => ⟨S_, .i32⟩
  | 16 => ⟨S4x512x512, .i32⟩
  | 17 => ⟨S4x512x512, .i32⟩
  | 18 => ⟨S4x512x512, .i32⟩
  | 19 => ⟨S_, .i32⟩
  | 20 => ⟨S4x512x512, .i32⟩
  | 21 => ⟨S4x512x512, .i1⟩
  | 22 => ⟨S_, .i32⟩
  | 23 => ⟨S4x512x512, .i32⟩
  | 24 => ⟨S4x512x512, .i32⟩
  | 25 => ⟨S4x512x512, .i32⟩
  | 26 => ⟨S_, .i32⟩
  | 27 => ⟨S4x512x512, .i32⟩
  | 28 => ⟨S4x512x512, .i1⟩
  | 29 => ⟨S_, .i32⟩
  | 30 => ⟨S4x512x512, .i32⟩
  | 31 => ⟨S4x512x512, .i32⟩
  | 32 => ⟨S4x512x512, .i32⟩
  | 33 => ⟨S4x512x512x1, .i32⟩
  | 34 => ⟨S4x512x512x1, .i32⟩
  | 35 => ⟨S4x512x512x1, .i32⟩
  | 36 => ⟨S4x512x512x3, .i32⟩
  | 37 => ⟨S8x3x4x512x512, .f32⟩
  | 38 => ⟨S4x512x512, .f32⟩
  | 39 => ⟨S4x512x512, .f32⟩
  | 40 => ⟨S1x1x4x512x512, .f32⟩
  | 41 => ⟨S8x3x4x512x512, .f32⟩
  | 42 => ⟨S8x3x4x512x512, .f32⟩
  | 43 => ⟨S8x3x4x512x512, .f32⟩
  | 44 => ⟨S_, .i32⟩
  | 45 => ⟨S4x512x512, .i32⟩
  | 46 => ⟨S4x512x512, .i1⟩
  | 47 => ⟨S_, .i32⟩
  | 48 => ⟨S4x512x512, .i32⟩
  | 49 => ⟨S4x512x512, .i32⟩
  | 50 => ⟨S4x512x512, .i32⟩
  | 51 => ⟨S_, .i32⟩
  | 52 => ⟨S4x512x512, .i32⟩
  | 53 => ⟨S4x512x512, .i1⟩
  | 54 => ⟨S_, .i32⟩
  | 55 => ⟨S4x512x512, .i32⟩
  | 56 => ⟨S4x512x512, .i32⟩
  | 57 => ⟨S4x512x512, .i32⟩
  | 58 => ⟨S_, .i32⟩
  | 59 => ⟨S4x512x512, .i32⟩
  | 60 => ⟨S4x512x512, .i1⟩
  | 61 => ⟨S_, .i32⟩
  | 62 => ⟨S4x512x512, .i32⟩
  | 63 => ⟨S4x512x512, .i32⟩
  | 64 => ⟨S4x512x512, .i32⟩
  | 65 => ⟨S4x512x512x1, .i32⟩
  | 66 => ⟨S4x512x512x1, .i32⟩
  | 67 => ⟨S4x512x512x1, .i32⟩
  | 68 => ⟨S4x512x512x3, .i32⟩
  | 69 => ⟨S8x3x4x512x512, .f32⟩
  | 70 => ⟨S4x512x512, .f32⟩
  | 71 => ⟨S4x512x512, .f32⟩
  | 72 => ⟨S1x1x4x512x512, .f32⟩
  | 73 => ⟨S8x3x4x512x512, .f32⟩
  | 74 => ⟨S8x3x4x512x512, .f32⟩
  | 75 => ⟨S8x3x4x512x512, .f32⟩
  | 76 => ⟨S4x3x512x512, .f32⟩
  | _ => ⟨S4x8x512x512, .f32⟩

abbrev hbmTy (i : Nat) : BufTy := match i / 128 with
  | 0 => hbmTy0_0 i
  | 1 => hbmTy0_1 i
  | 2 => hbmTy0_2 i
  | _ => ⟨S4x8x512x512, .f32⟩

abbrev bufTy : (tb : Table) → Fin (tcTables nBuf tb) → BufTy
  | .hbm, ⟨i, _⟩ => hbmTy i
  | .local _ .vmem, ⟨0, _⟩ => ⟨S1x8x128x512, .f32⟩
  | .local _ .vmem, ⟨1, _⟩ => ⟨S1x8x128x512, .f32⟩
  | .local _ .vmem, ⟨2, _⟩ => ⟨S1x8x128x512, .f32⟩
  | .local _ .vmem, ⟨3, _⟩ => ⟨S1x8x128x512, .f32⟩
  | .local _ .vmem, ⟨4, _⟩ => ⟨S8x3x1x128x512, .f32⟩
  | .local _ .vmem, ⟨5, _⟩ => ⟨S8x3x1x128x512, .f32⟩
  | .local _ .vmem, ⟨6, _⟩ => ⟨S1x3x128x512, .f32⟩
  | .local _ .vmem, ⟨7, _⟩ => ⟨S1x3x128x512, .f32⟩
  | _, _ => ⟨S4x8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_c_2 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_c_4 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c_5 : Ref sig .tc := ⟨.hbm, 49, rfl⟩
abbrev main_c_6 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_c_7 : Ref sig .tc := ⟨.hbm, 59, rfl⟩
abbrev main_v26 : Ref sig .tc := ⟨.hbm, 60, rfl⟩
abbrev main_v27 : Ref sig .tc := ⟨.hbm, 61, rfl⟩
abbrev main_c_8 : Ref sig .tc := ⟨.hbm, 62, rfl⟩
abbrev main_v28 : Ref sig .tc := ⟨.hbm, 63, rfl⟩
abbrev main_v29 : Ref sig .tc := ⟨.hbm, 64, rfl⟩
abbrev main_c_9 : Ref sig .tc := ⟨.hbm, 65, rfl⟩
abbrev main_v30 : Ref sig .tc := ⟨.hbm, 66, rfl⟩
abbrev main_v31 : Ref sig .tc := ⟨.hbm, 67, rfl⟩
abbrev main_cst_10 : Ref sig .tc := ⟨.hbm, 68, rfl⟩
abbrev main_v32 : Ref sig .tc := ⟨.hbm, 69, rfl⟩
abbrev main_v33 : Ref sig .tc := ⟨.hbm, 70, rfl⟩
abbrev main_cst_11 : Ref sig .tc := ⟨.hbm, 71, rfl⟩
abbrev main_v34 : Ref sig .tc := ⟨.hbm, 72, rfl⟩
abbrev main_v35 : Ref sig .tc := ⟨.hbm, 73, rfl⟩
abbrev main_cst_12 : Ref sig .tc := ⟨.hbm, 74, rfl⟩
abbrev main_v36 : Ref sig .tc := ⟨.hbm, 75, rfl⟩
abbrev main_v37 : Ref sig .tc := ⟨.hbm, 76, rfl⟩
abbrev main_c_13 : Ref sig .tc := ⟨.hbm, 77, rfl⟩
abbrev main_v38 : Ref sig .tc := ⟨.hbm, 78, rfl⟩
abbrev main_v39 : Ref sig .tc := ⟨.hbm, 79, rfl⟩
abbrev main_c_14 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_c_15 : Ref sig .tc := ⟨.hbm, 84, rfl⟩
abbrev main_v43 : Ref sig .tc := ⟨.hbm, 85, rfl⟩
abbrev main_v44 : Ref sig .tc := ⟨.hbm, 86, rfl⟩
abbrev main_c_16 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_c_17 : Ref sig .tc := ⟨.hbm, 91, rfl⟩
abbrev main_v48 : Ref sig .tc := ⟨.hbm, 92, rfl⟩
abbrev main_v49 : Ref sig .tc := ⟨.hbm, 93, rfl⟩
abbrev main_c_18 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_c_19 : Ref sig .tc := ⟨.hbm, 108, rfl⟩
abbrev main_v63 : Ref sig .tc := ⟨.hbm, 109, rfl⟩
abbrev main_v64 : Ref sig .tc := ⟨.hbm, 110, rfl⟩
abbrev main_c_20 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_c_21 : Ref sig .tc := ⟨.hbm, 115, rfl⟩
abbrev main_v68 : Ref sig .tc := ⟨.hbm, 116, rfl⟩
abbrev main_v69 : Ref sig .tc := ⟨.hbm, 117, rfl⟩
abbrev main_c_22 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_c_23 : Ref sig .tc := ⟨.hbm, 122, rfl⟩
abbrev main_v73 : Ref sig .tc := ⟨.hbm, 123, rfl⟩
abbrev main_v74 : Ref sig .tc := ⟨.hbm, 124, rfl⟩
abbrev main_c_24 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_c_25 : Ref sig .tc := ⟨.hbm, 140, rfl⟩
abbrev main_v89 : Ref sig .tc := ⟨.hbm, 141, rfl⟩
abbrev main_v90 : Ref sig .tc := ⟨.hbm, 142, rfl⟩
abbrev main_c_26 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_c_27 : Ref sig .tc := ⟨.hbm, 147, rfl⟩
abbrev main_v94 : Ref sig .tc := ⟨.hbm, 148, rfl⟩
abbrev main_v95 : Ref sig .tc := ⟨.hbm, 149, rfl⟩
abbrev main_c_28 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_c_29 : Ref sig .tc := ⟨.hbm, 154, rfl⟩
abbrev main_v99 : Ref sig .tc := ⟨.hbm, 155, rfl⟩
abbrev main_v100 : Ref sig .tc := ⟨.hbm, 156, rfl⟩
abbrev main_c_30 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_c_31 : Ref sig .tc := ⟨.hbm, 172, rfl⟩
abbrev main_v115 : Ref sig .tc := ⟨.hbm, 173, rfl⟩
abbrev main_v116 : Ref sig .tc := ⟨.hbm, 174, rfl⟩
abbrev main_c_32 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_c_33 : Ref sig .tc := ⟨.hbm, 179, rfl⟩
abbrev main_v120 : Ref sig .tc := ⟨.hbm, 180, rfl⟩
abbrev main_v121 : Ref sig .tc := ⟨.hbm, 181, rfl⟩
abbrev main_c_34 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_c_35 : Ref sig .tc := ⟨.hbm, 186, rfl⟩
abbrev main_v125 : Ref sig .tc := ⟨.hbm, 187, rfl⟩
abbrev main_v126 : Ref sig .tc := ⟨.hbm, 188, rfl⟩
abbrev main_c_36 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_c_37 : Ref sig .tc := ⟨.hbm, 204, rfl⟩
abbrev main_v141 : Ref sig .tc := ⟨.hbm, 205, rfl⟩
abbrev main_v142 : Ref sig .tc := ⟨.hbm, 206, rfl⟩
abbrev main_c_38 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_c_39 : Ref sig .tc := ⟨.hbm, 211, rfl⟩
abbrev main_v146 : Ref sig .tc := ⟨.hbm, 212, rfl⟩
abbrev main_v147 : Ref sig .tc := ⟨.hbm, 213, rfl⟩
abbrev main_c_40 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_c_41 : Ref sig .tc := ⟨.hbm, 218, rfl⟩
abbrev main_v151 : Ref sig .tc := ⟨.hbm, 219, rfl⟩
abbrev main_v152 : Ref sig .tc := ⟨.hbm, 220, rfl⟩
abbrev main_c_42 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_c_43 : Ref sig .tc := ⟨.hbm, 236, rfl⟩
abbrev main_v167 : Ref sig .tc := ⟨.hbm, 237, rfl⟩
abbrev main_v168 : Ref sig .tc := ⟨.hbm, 238, rfl⟩
abbrev main_c_44 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_c_45 : Ref sig .tc := ⟨.hbm, 243, rfl⟩
abbrev main_v172 : Ref sig .tc := ⟨.hbm, 244, rfl⟩
abbrev main_v173 : Ref sig .tc := ⟨.hbm, 245, rfl⟩
abbrev main_c_46 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_c_47 : Ref sig .tc := ⟨.hbm, 250, rfl⟩
abbrev main_v177 : Ref sig .tc := ⟨.hbm, 251, rfl⟩
abbrev main_v178 : Ref sig .tc := ⟨.hbm, 252, rfl⟩
abbrev main_c_48 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_c_49 : Ref sig .tc := ⟨.hbm, 268, rfl⟩
abbrev main_v193 : Ref sig .tc := ⟨.hbm, 269, rfl⟩
abbrev main_v194 : Ref sig .tc := ⟨.hbm, 270, rfl⟩
abbrev main_c_50 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_c_51 : Ref sig .tc := ⟨.hbm, 275, rfl⟩
abbrev main_v198 : Ref sig .tc := ⟨.hbm, 276, rfl⟩
abbrev main_v199 : Ref sig .tc := ⟨.hbm, 277, rfl⟩
abbrev main_c_52 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_c_53 : Ref sig .tc := ⟨.hbm, 282, rfl⟩
abbrev main_v203 : Ref sig .tc := ⟨.hbm, 283, rfl⟩
abbrev main_v204 : Ref sig .tc := ⟨.hbm, 284, rfl⟩
abbrev main_c_54 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_v208 : Ref sig .tc := ⟨.hbm, 289, rfl⟩
abbrev main_v209 : Ref sig .tc := ⟨.hbm, 290, rfl⟩
abbrev main_v210 : Ref sig .tc := ⟨.hbm, 291, rfl⟩
abbrev main_v211 : Ref sig .tc := ⟨.hbm, 292, rfl⟩
abbrev main_v212 : Ref sig .tc := ⟨.hbm, 293, rfl⟩
abbrev main_v213 : Ref sig .tc := ⟨.hbm, 294, rfl⟩
abbrev main_v214 : Ref sig .tc := ⟨.hbm, 295, rfl⟩
abbrev main_v215 : Ref sig .tc := ⟨.hbm, 296, rfl⟩
abbrev main_v216 : Ref sig .tc := ⟨.hbm, 297, rfl⟩
abbrev main_v217 : Ref sig .tc := ⟨.hbm, 298, rfl⟩
abbrev main_v218 : Ref sig .tc := ⟨.hbm, 299, rfl⟩
abbrev main_c_55 : Ref sig .tc := ⟨.hbm, 300, rfl⟩
abbrev main_v219 : Ref sig .tc := ⟨.hbm, 301, rfl⟩
abbrev main_v220 : Ref sig .tc := ⟨.hbm, 302, rfl⟩
abbrev main_c_56 : Ref sig .tc := ⟨.hbm, 303, rfl⟩
abbrev main_v221 : Ref sig .tc := ⟨.hbm, 304, rfl⟩
abbrev main_v222 : Ref sig .tc := ⟨.hbm, 305, rfl⟩
abbrev main_v223 : Ref sig .tc := ⟨.hbm, 306, rfl⟩
abbrev main_c_57 : Ref sig .tc := ⟨.hbm, 307, rfl⟩
abbrev main_v224 : Ref sig .tc := ⟨.hbm, 308, rfl⟩
abbrev main_v225 : Ref sig .tc := ⟨.hbm, 309, rfl⟩
abbrev main_c_58 : Ref sig .tc := ⟨.hbm, 310, rfl⟩
abbrev main_v226 : Ref sig .tc := ⟨.hbm, 311, rfl⟩
abbrev main_v227 : Ref sig .tc := ⟨.hbm, 312, rfl⟩
abbrev main_v228 : Ref sig .tc := ⟨.hbm, 313, rfl⟩
abbrev main_c_59 : Ref sig .tc := ⟨.hbm, 314, rfl⟩
abbrev main_v229 : Ref sig .tc := ⟨.hbm, 315, rfl⟩
abbrev main_v230 : Ref sig .tc := ⟨.hbm, 316, rfl⟩
abbrev main_c_60 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_v235 : Ref sig .tc := ⟨.hbm, 322, rfl⟩
abbrev main_v236 : Ref sig .tc := ⟨.hbm, 323, rfl⟩
abbrev main_v237 : Ref sig .tc := ⟨.hbm, 324, rfl⟩
abbrev main_v238 : Ref sig .tc := ⟨.hbm, 325, rfl⟩
abbrev main_v239 : Ref sig .tc := ⟨.hbm, 326, rfl⟩
abbrev main_v240 : Ref sig .tc := ⟨.hbm, 327, rfl⟩
abbrev main_v241 : Ref sig .tc := ⟨.hbm, 328, rfl⟩
abbrev main_v242 : Ref sig .tc := ⟨.hbm, 329, rfl⟩
abbrev main_v243 : Ref sig .tc := ⟨.hbm, 330, rfl⟩
abbrev main_v244 : Ref sig .tc := ⟨.hbm, 331, rfl⟩
abbrev main_v245 : Ref sig .tc := ⟨.hbm, 332, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, arg1.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x3x1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S107811x8_S8x107811_1_0 : S107811x8.Transposes [1, 0] S8x107811
  shapeCasts_S8x107811_S8x3x33x33x33 : S8x107811.ShapeCasts S8x3x33x33x33
  bcast_S_S4x3x512x512 : S_.BroadcastsInDim S4x3x512x512 (![] : Fin 0 → Fin S4x3x512x512.rank)
  slices_S4x3x512x512_S4x1x512x512_0_0_0_0 : S4x3x512x512.Slices ![0, 0, 0, 0] S4x1x512x512
  shapeCasts_S4x1x512x512_S4x512x512 : S4x1x512x512.ShapeCasts S4x512x512
  slices_S4x3x512x512_S4x1x512x512_0_1_0_0 : S4x3x512x512.Slices ![0, 1, 0, 0] S4x1x512x512
  slices_S4x3x512x512_S4x1x512x512_0_2_0_0 : S4x3x512x512.Slices ![0, 2, 0, 0] S4x1x512x512
  bcast_S_S4x512x512 : S_.BroadcastsInDim S4x512x512 (![] : Fin 0 → Fin S4x512x512.rank)
  bcast_S4x512x512_S4x512x512x1_0_1_2 : S4x512x512.BroadcastsInDim S4x512x512x1 (![0, 1, 2] : Fin 3 → Fin S4x512x512x1.rank)
  concatenates_S4x512x512x1_S4x512x512x1_S4x512x512x1_S4x512x512x3_d3 : Shape.Concatenates [S4x512x512x1, S4x512x512x1, S4x512x512x1] S4x512x512x3 3
  bcast_S4x512x512_S1x1x4x512x512_2_3_4 : S4x512x512.BroadcastsInDim S1x1x4x512x512 (![2, 3, 4] : Fin 3 → Fin S1x1x4x512x512.rank)
  bcast_S1x1x4x512x512_S8x3x4x512x512_0_1_2_3_4 : S1x1x4x512x512.BroadcastsInDim S8x3x4x512x512 (![0, 1, 2, 3, 4] : Fin 5 → Fin S8x3x4x512x512.rank)
  inb_S1x8x128x512_S1x8x128x512_0_0_0_0 : ∀ a, (![0, 0, 0, 0] : Fin 4 → Nat) a + S1x8x128x512.size a ≤ S1x8x128x512.size a
  h_S1x8x128x512 : 0 < S1x8x128x512.numel
  shapeCasts_S1x8x128x512_S8x128x512 : S1x8x128x512.ShapeCasts S8x128x512
  shapeCasts_S8x128x512_S8x1x128x512 : S8x128x512.ShapeCasts S8x1x128x512
  inb_S8x3x1x128x512_S8x3x1x128x512_0_0_0_0_0 : ∀ a, (![0, 0, 0, 0, 0] : Fin 5 → Nat) a + S8x3x1x128x512.size a ≤ S8x3x1x128x512.size a
  h_S8x3x1x128x512 : 0 < S8x3x1x128x512.numel
  shapeCasts_S8x3x1x128x512_S8x3x128x512 : S8x3x1x128x512.ShapeCasts S8x3x128x512
  broadcasts_S8x1x128x512_S8x3x128x512 : S8x1x128x512.Broadcasts S8x3x128x512
  reduces_S8x3x128x512_S3x128x512 : S8x3x128x512.Reduces [0] S3x128x512
  shapeCasts_S3x128x512_S1x3x128x512 : S3x128x512.ShapeCasts S1x3x128x512
  inb_S1x3x128x512_S1x3x128x512_0_0_0_0 : ∀ a, (![0, 0, 0, 0] : Fin 4 → Nat) a + S1x3x128x512.size a ≤ S1x3x128x512.size a
  h_S1x3x128x512 : 0 < S1x3x128x512.numel
  gather_S8x3x33x33x33_S4x512x512x3_S8x3x4x512x512_01_234_n_n_234_3_83111_wf : GatherDims.WF S8x3x33x33x33 S4x512x512x3 S8x3x4x512x512 [0, 1] [2, 3, 4] [] [2, 3, 4] [] 3 ![8, 3, 1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x128x512.size a ≤ S4x8x512x512.size a
  hwx0_0 : ∀ i : grid0.Coords, EltTy.bits .f32 = 32 ∨ (Rect.block (s := S4x8x512x512) S1x8x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128x512.size a ≤ S4x8x512x512.size a
  hwx0_1 : ∀ i : grid0.Coords, EltTy.bits .f32 = 32 ∨ (Rect.block (s := S4x8x512x512) S1x8x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x3x1x128x512.size a ≤ S8x3x4x512x512.size a
  hwx0_2 : ∀ i : grid0.Coords, EltTy.bits .f32 = 32 ∨ (Rect.block (s := S8x3x4x512x512) S8x3x1x128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x128x512.size a ≤ S4x3x512x512.size a
  hwx0_3 : ∀ i : grid0.Coords, EltTy.bits .f32 = 32 ∨ (Rect.block (s := S4x3x512x512) S1x3x128x512.size (cc0_transform_3 i) (hinb0_3 i)).WholeWords (EltTy.packing .f32)

variable [Facts₀]

def gather_S8x3x33x33x33_S4x512x512x3_S8x3x4x512x512_01_234_n_n_234_3_83111 : GatherDims S8x3x33x33x33 S4x512x512x3 S8x3x4x512x512 where
  offsetDims := [0, 1]
  collapsedSliceDims := [2, 3, 4]
  operandBatchingDims := []
  startIndicesBatchingDims := []
  startIndexMap := [2, 3, 4]
  indexVectorDim := 3
  sliceSizes := ![8, 3, 1, 1, 1]
  wf := gather_S8x3x33x33x33_S4x512x512x3_S8x3x4x512x512_01_234_n_n_234_3_83111_wf

abbrev win0_0 : Pipeline.Window sig grid0 :=
  Pipeline.Window.ofSpec (Memref.whole main_arg0) S1x8x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v244) S8x3x1x128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v245) S1x3x128x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8x512x512 : Shape := ⟨4, ![4, 8, 512, 512]⟩
abbrev S4x3x512x512 : Shape := ⟨4, ![4, 3, 512, 512]⟩
abbrev S107811x8 : Shape := ⟨2, ![107811, 8]⟩
abbrev S8x107811 : Shape := ⟨2, ![8, 107811]⟩
abbrev S8x3x33x33x33 : Shape := ⟨5, ![8, 3, 33, 33, 33]⟩
abbrev S_ : Shape := ⟨0, ![]⟩
abbrev S4x1x512x512 : Shape := ⟨4, ![4, 1, 512, 512]⟩
abbrev S4x512x512 : Shape := ⟨3, ![4, 512, 512]⟩
abbrev S4x512x512x1 : Shape := ⟨4, ![4, 512, 512, 1]⟩
abbrev S4x512x512x3 : Shape := ⟨4, ![4, 512, 512, 3]⟩
abbrev S8x3x4x512x512 : Shape := ⟨5, ![8, 3, 4, 512, 512]⟩
abbrev S1x1x4x512x512 : Shape := ⟨5, ![1, 1, 4, 512, 512]⟩
abbrev S4x8x3x512x512 : Shape := ⟨5, ![4, 8, 3, 512, 512]⟩
abbrev S4x8x1x512x512 : Shape := ⟨5, ![4, 8, 1, 512, 512]⟩

abbrev nBuf : Space → Nat
  | .hbm => 339
  | .vmem => 0
  | .smem => 0
  | _ => 0

abbrev hbmTy0_0 (i : Nat) : BufTy := match i % 128 with
  | 0 => ⟨S4x8x512x512, .f32⟩
  | 1 => ⟨S4x8x512x512, .f32⟩
  | 2 => ⟨S4x3x512x512, .f32⟩
  | 3 => ⟨S107811x8, .f32⟩
  | 4 => ⟨S8x107811, .f32⟩
  | 5 => ⟨S8x3x33x33x33, .f32⟩
  | 6 => ⟨S_, .f32⟩
  | 7 => ⟨S4x3x512x512, .f32⟩
  | 8 => ⟨S4x3x512x512, .f32⟩
  | 9 => ⟨S_, .f32⟩
  | 10 => ⟨S_, .f32⟩
  | 11 => ⟨S_, .f32⟩
  | 12 => ⟨S4x3x512x512, .f32⟩
  | 13 => ⟨S4x3x512x512, .f32⟩
  | 14 => ⟨S_, .f32⟩
  | 15 => ⟨S4x3x512x512, .f32⟩
  | 16 => ⟨S4x3x512x512, .f32⟩
  | 17 => ⟨S4x1x512x512, .f32⟩
  | 18 => ⟨S4x512x512, .f32⟩
  | 19 => ⟨S4x1x512x512, .f32⟩
  | 20 => ⟨S4x512x512, .f32⟩
  | 21 => ⟨S4x1x512x512, .f32⟩
  | 22 => ⟨S4x512x512, .f32⟩
  | 23 => ⟨S4x512x512, .f32⟩
  | 24 => ⟨S4x512x512, .i32⟩
  | 25 => ⟨S_, .i32⟩
  | 26 => ⟨S_, .i32⟩
  | 27 => ⟨S_, .i32⟩
  | 28 => ⟨S4x512x512, .i32⟩
  | 29 => ⟨S4x512x512, .i32⟩
  | 30 => ⟨S_, .i32⟩
  | 31 => ⟨S4x512x512, .i32⟩
  | 32 => ⟨S4x512x512, .i32⟩
  | 33 => ⟨S4x512x512, .f32⟩
  | 34 => ⟨S4x512x512, .f32⟩
  | 35 => ⟨S4x512x512, .f32⟩
  | 36 => ⟨S4x512x512, .i32⟩
  | 37 => ⟨S_, .i32⟩
  | 38 => ⟨S_, .i32⟩
  | 39 => ⟨S_, .i32⟩
  | 40 => ⟨S4x512x512, .i32⟩
  | 41 => ⟨S4x512x512, .i32⟩
  | 42 => ⟨S_, .i32⟩
  | 43 => ⟨S4x512x512, .i32⟩
  | 44 => ⟨S4x512x512, .i32⟩
  | 45 => ⟨S4x512x512, .f32⟩
  | 46 => ⟨S4x512x512, .f32⟩
  | 47 => ⟨S4x512x512, .f32⟩
  | 48 => ⟨S4x512x512, .i32⟩
  | 49 => ⟨S_, .i32⟩
  | 50 => ⟨S_, .i32⟩
  | 51 => ⟨S_, .i32⟩
  | 52 => ⟨S4x512x512, .i32⟩
  | 53 => ⟨S4x512x512, .i32⟩
  | 54 => ⟨S_, .i32⟩
  | 55 => ⟨S4x512x512, .i32⟩
  | 56 => ⟨S4x512x512, .i32⟩
  | 57 => ⟨S4x512x512, .f32⟩
  | 58 => ⟨S4x512x512, .f32⟩
  | 59 => ⟨S_, .i32⟩
  | 60 => ⟨S4x512x512, .i32⟩
  | 61 => ⟨S4x512x512, .i32⟩
  | 62 => ⟨S_, .i32⟩
  | 63 => ⟨S4x512x512, .i32⟩
  | 64 => ⟨S4x512x512, .i32⟩
  | 65 => ⟨S_, .i32⟩
  | 66 => ⟨S4x512x512, .i32⟩
  | 67 => ⟨S4x512x512, .i32⟩
  | 68 => ⟨S_, .f32⟩
  | 69 => ⟨S4x512x512, .f32⟩
  | 70 => ⟨S4x512x512, .f32⟩
  | 71 => ⟨S_, .f32⟩
  | 72 => ⟨S4x512x512, .f32⟩
  | 73 => ⟨S4x512x512, .f32⟩
  | 74 => ⟨S_, .f32⟩
  | 75 => ⟨S4x512x512, .f32⟩
  | 76 => ⟨S4x512x512, .f32⟩
  | 77 => ⟨S_, .i32⟩
  | 78 => ⟨S4x512x512, .i32⟩
  | 79 => ⟨S4x512x512, .i1⟩
  | 80 => ⟨S_, .i32⟩
  | 81 => ⟨S4x512x512, .i32⟩
  | 82 => ⟨S4x512x512, .i32⟩
  | 83 => ⟨S4x512x512, .i32⟩
  | 84 => ⟨S_, .i32⟩
  | 85 => ⟨S4x512x512, .i32⟩
  | 86 => ⟨S4x512x512, .i1⟩
  | 87 => ⟨S_, .i32⟩
  | 88 => ⟨S4x512x512, .i32⟩
  | 89 => ⟨S4x512x512, .i32⟩
  | 90 => ⟨S4x512x512, .i32⟩
  | 91 => ⟨S_, .i32⟩
  | 92 => ⟨S4x512x512, .i32⟩
  | 93 => ⟨S4x512x512, .i1⟩
  | 94 => ⟨S_, .i32⟩
  | 95 => ⟨S4x512x512, .i32⟩
  | 96 => ⟨S4x512x512, .i32⟩
  | 97 => ⟨S4x512x512, .i32⟩
  | 98 => ⟨S4x512x512x1, .i32⟩
  | 99 => ⟨S4x512x512x1, .i32⟩
  | 100 => ⟨S4x512x512x1, .i32⟩
  | 101 => ⟨S4x512x512x3, .i32⟩
  | 102 => ⟨S8x3x4x512x512, .f32⟩
  | 103 => ⟨S4x512x512, .f32⟩
  | 104 => ⟨S4x512x512, .f32⟩
  | 105 => ⟨S1x1x4x512x512, .f32⟩
  | 106 => ⟨S8x3x4x512x512, .f32⟩
  | 107 => ⟨S8x3x4x512x512, .f32⟩
  | 108 => ⟨S_, .i32⟩
  | 109 => ⟨S4x512x512, .i32⟩
  | 110 => ⟨S4x512x512, .i1⟩
  | 111 => ⟨S_, .i32⟩
  | 112 => ⟨S4x512x512, .i32⟩
  | 113 => ⟨S4x512x512, .i32⟩
  | 114 => ⟨S4x512x512, .i32⟩
  | 115 => ⟨S_, .i32⟩
  | 116 => ⟨S4x512x512, .i32⟩
  | 117 => ⟨S4x512x512, .i1⟩
  | 118 => ⟨S_, .i32⟩
  | 119 => ⟨S4x512x512, .i32⟩
  | 120 => ⟨S4x512x512, .i32⟩
  | 121 => ⟨S4x512x512, .i32⟩
  | 122 => ⟨S_, .i32⟩
  | 123 => ⟨S4x512x512, .i32⟩
  | 124 => ⟨S4x512x512, .i1⟩
  | 125 => ⟨S_, .i32⟩
  | 126 => ⟨S4x512x512, .i32⟩
  | 127 => ⟨S4x512x512, .i32⟩
  | _ => ⟨S4x8x512x512, .f32⟩

abbrev hbmTy0_1 (i : Nat) : BufTy := match i % 128 with
  | 0 => ⟨S4x512x512, .i32⟩
  | 1 => ⟨S4x512x512x1, .i32⟩
  | 2 => ⟨S4x512x512x1, .i32⟩
  | 3 => ⟨S4x512x512x1, .i32⟩
  | 4 => ⟨S4x512x512x3, .i32⟩
  | 5 => ⟨S8x3x4x512x512, .f32⟩
  | 6 => ⟨S4x512x512, .f32⟩
  | 7 => ⟨S4x512x512, .f32⟩
  | 8 => ⟨S1x1x4x512x512, .f32⟩
  | 9 => ⟨S8x3x4x512x512, .f32⟩
  | 10 => ⟨S8x3x4x512x512, .f32⟩
  | 11 => ⟨S8x3x4x512x512, .f32⟩
  | 12 => ⟨S_, .i32⟩
  | 13 => ⟨S4x512x512, .i32⟩
  | 14 => ⟨S4x512x512, .i1⟩
  | 15 => ⟨S_, .i32⟩
  | 16 => ⟨S4x512x512, .i32⟩
  | 17 => ⟨S4x512x512, .i32⟩
  | 18 => ⟨S4x512x512, .i32⟩
  | 19 => ⟨S_, .i32⟩
  | 20 => ⟨S4x512x512, .i32⟩
  | 21 => ⟨S4x512x512, .i1⟩
  | 22 => ⟨S_, .i32⟩
  | 23 => ⟨S4x512x512, .i32⟩
  | 24 => ⟨S4x512x512, .i32⟩
  | 25 => ⟨S4x512x512, .i32⟩
  | 26 => ⟨S_, .i32⟩
  | 27 => ⟨S4x512x512, .i32⟩
  | 28 => ⟨S4x512x512, .i1⟩
  | 29 => ⟨S_, .i32⟩
  | 30 => ⟨S4x512x512, .i32⟩
  | 31 => ⟨S4x512x512, .i32⟩
  | 32 => ⟨S4x512x512, .i32⟩
  | 33 => ⟨S4x512x512x1, .i32⟩
  | 34 => ⟨S4x512x512x1, .i32⟩
  | 35 => ⟨S4x512x512x1, .i32⟩
  | 36 => ⟨S4x512x512x3, .i32⟩
  | 37 => ⟨S8x3x4x512x512, .f32⟩
  | 38 => ⟨S4x512x512, .f32⟩
  | 39 => ⟨S4x512x512, .f32⟩
  | 40 => ⟨S1x1x4x512x512, .f32⟩
  | 41 => ⟨S8x3x4x512x512, .f32⟩
  | 42 => ⟨S8x3x4x512x512, .f32⟩
  | 43 => ⟨S8x3x4x512x512, .f32⟩
  | 44 => ⟨S_, .i32⟩
  | 45 => ⟨S4x512x512, .i32⟩
  | 46 => ⟨S4x512x512, .i1⟩
  | 47 => ⟨S_, .i32⟩
  | 48 => ⟨S4x512x512, .i32⟩
  | 49 => ⟨S4x512x512, .i32⟩
  | 50 => ⟨S4x512x512, .i32⟩
  | 51 => ⟨S_, .i32⟩
  | 52 => ⟨S4x512x512, .i32⟩
  | 53 => ⟨S4x512x512, .i1⟩
  | 54 => ⟨S_, .i32⟩
  | 55 => ⟨S4x512x512, .i32⟩
  | 56 => ⟨S4x512x512, .i32⟩
  | 57 => ⟨S4x512x512, .i32⟩
  | 58 => ⟨S_, .i32⟩
  | 59 => ⟨S4x512x512, .i32⟩
  | 60 => ⟨S4x512x512, .i1⟩
  | 61 => ⟨S_, .i32⟩
  | 62 => ⟨S4x512x512, .i32⟩
  | 63 => ⟨S4x512x512, .i32⟩
  | 64 => ⟨S4x512x512, .i32⟩
  | 65 => ⟨S4x512x512x1, .i32⟩
  | 66 => ⟨S4x512x512x1, .i32⟩
  | 67 => ⟨S4x512x512x1, .i32⟩
  | 68 => ⟨S4x512x512x3, .i32⟩
  | 69 => ⟨S8x3x4x512x512, .f32⟩
  | 70 => ⟨S4x512x512, .f32⟩
  | 71 => ⟨S4x512x512, .f32⟩
  | 72 => ⟨S1x1x4x512x512, .f32⟩
  | 73 => ⟨S8x3x4x512x512, .f32⟩
  | 74 => ⟨S8x3x4x512x512, .f32⟩
  | 75 => ⟨S8x3x4x512x512, .f32⟩
  | 76 => ⟨S_, .i32⟩
  | 77 => ⟨S4x512x512, .i32⟩
  | 78 => ⟨S4x512x512, .i1⟩
  | 79 => ⟨S_, .i32⟩
  | 80 => ⟨S4x512x512, .i32⟩
  | 81 => ⟨S4x512x512, .i32⟩
  | 82 => ⟨S4x512x512, .i32⟩
  | 83 => ⟨S_, .i32⟩
  | 84 => ⟨S4x512x512, .i32⟩
  | 85 => ⟨S4x512x512, .i1⟩
  | 86 => ⟨S_, .i32⟩
  | 87 => ⟨S4x512x512, .i32⟩
  | 88 => ⟨S4x512x512, .i32⟩
  | 89 => ⟨S4x512x512, .i32⟩
  | 90 => ⟨S_, .i32⟩
  | 91 => ⟨S4x512x512, .i32⟩
  | 92 => ⟨S4x512x512, .i1⟩
  | 93 => ⟨S_, .i32⟩
  | 94 => ⟨S4x512x512, .i32⟩
  | 95 => ⟨S4x512x512, .i32⟩
  | 96 => ⟨S4x512x512, .i32⟩
  | 97 => ⟨S4x512x512x1, .i32⟩
  | 98 => ⟨S4x512x512x1, .i32⟩
  | 99 => ⟨S4x512x512x1, .i32⟩
  | 100 => ⟨S4x512x512x3, .i32⟩
  | 101 => ⟨S8x3x4x512x512, .f32⟩
  | 102 => ⟨S4x512x512, .f32⟩
  | 103 => ⟨S4x512x512, .f32⟩
  | 104 => ⟨S1x1x4x512x512, .f32⟩
  | 105 => ⟨S8x3x4x512x512, .f32⟩
  | 106 => ⟨S8x3x4x512x512, .f32⟩
  | 107 => ⟨S8x3x4x512x512, .f32⟩
  | 108 => ⟨S_, .i32⟩
  | 109 => ⟨S4x512x512, .i32⟩
  | 110 => ⟨S4x512x512, .i1⟩
  | 111 => ⟨S_, .i32⟩
  | 112 => ⟨S4x512x512, .i32⟩
  | 113 => ⟨S4x512x512, .i32⟩
  | 114 => ⟨S4x512x512, .i32⟩
  | 115 => ⟨S_, .i32⟩
  | 116 => ⟨S4x512x512, .i32⟩
  | 117 => ⟨S4x512x512, .i1⟩
  | 118 => ⟨S_, .i32⟩
  | 119 => ⟨S4x512x512, .i32⟩
  | 120 => ⟨S4x512x512, .i32⟩
  | 121 => ⟨S4x512x512, .i32⟩
  | 122 => ⟨S_, .i32⟩
  | 123 => ⟨S4x512x512, .i32⟩
  | 124 => ⟨S4x512x512, .i1⟩
  | 125 => ⟨S_, .i32⟩
  | 126 => ⟨S4x512x512, .i32⟩
  | 127 => ⟨S4x512x512, .i32⟩
  | _ => ⟨S4x8x512x512, .f32⟩

abbrev hbmTy0_2 (i : Nat) : BufTy := match i % 128 with
  | 0 => ⟨S4x512x512, .i32⟩
  | 1 => ⟨S4x512x512x1, .i32⟩
  | 2 => ⟨S4x512x512x1, .i32⟩
  | 3 => ⟨S4x512x512x1, .i32⟩
  | 4 => ⟨S4x512x512x3, .i32⟩
  | 5 => ⟨S8x3x4x512x512, .f32⟩
  | 6 => ⟨S4x512x512, .f32⟩
  | 7 => ⟨S4x512x512, .f32⟩
  | 8 => ⟨S1x1x4x512x512, .f32⟩
  | 9 => ⟨S8x3x4x512x512, .f32⟩
  | 10 => ⟨S8x3x4x512x512, .f32⟩
  | 11 => ⟨S8x3x4x512x512, .f32⟩
  | 12 => ⟨S_, .i32⟩
  | 13 => ⟨S4x512x512, .i32⟩
  | 14 => ⟨S4x512x512, .i1⟩
  | 15 => ⟨S_, .i32⟩
  | 16 => ⟨S4x512x512, .i32⟩
  | 17 => ⟨S4x512x512, .i32⟩
  | 18 => ⟨S4x512x512, .i32⟩
  | 19 => ⟨S_, .i32⟩
  | 20 => ⟨S4x512x512, .i32⟩
  | 21 => ⟨S4x512x512, .i1⟩
  | 22 => ⟨S_, .i32⟩
  | 23 => ⟨S4x512x512, .i32⟩
  | 24 => ⟨S4x512x512, .i32⟩
  | 25 => ⟨S4x512x512, .i32⟩
  | 26 => ⟨S_, .i32⟩
  | 27 => ⟨S4x512x512, .i32⟩
  | 28 => ⟨S4x512x512, .i1⟩
  | 29 => ⟨S_, .i32⟩
  | 30 => ⟨S4x512x512, .i32⟩
  | 31 => ⟨S4x512x512, .i32⟩
  | 32 => ⟨S4x512x512, .i32⟩
  | 33 => ⟨S4x512x512x1, .i32⟩
  | 34 => ⟨S4x512x512x1, .i32⟩
  | 35 => ⟨S4x512x512x1, .i32⟩
  | 36 => ⟨S4x512x512x3, .i32⟩
  | 37 => ⟨S8x3x4x512x512, .f32⟩
  | 38 => ⟨S4x512x512, .f32⟩
  | 39 => ⟨S4x512x512, .f32⟩
  | 40 => ⟨S1x1x4x512x512, .f32⟩
  | 41 => ⟨S8x3x4x512x512, .f32⟩
  | 42 => ⟨S8x3x4x512x512, .f32⟩
  | 43 => ⟨S8x3x4x512x512, .f32⟩
  | 44 => ⟨S_, .i32⟩
  | 45 => ⟨S4x512x512, .i32⟩
  | 46 => ⟨S4x512x512, .i1⟩
  | 47 => ⟨S_, .i32⟩
  | 48 => ⟨S4x512x512, .i32⟩
  | 49 => ⟨S4x512x512, .i32⟩
  | 50 => ⟨S4x512x512, .i32⟩
  | 51 => ⟨S_, .i32⟩
  | 52 => ⟨S4x512x512, .i32⟩
  | 53 => ⟨S4x512x512, .i1⟩
  | 54 => ⟨S_, .i32⟩
  | 55 => ⟨S4x512x512, .i32⟩
  | 56 => ⟨S4x512x512, .i32⟩
  | 57 => ⟨S4x512x512, .i32⟩
  | 58 => ⟨S_, .i32⟩
  | 59 => ⟨S4x512x512, .i32⟩
  | 60 => ⟨S4x512x512, .i1⟩
  | 61 => ⟨S_, .i32⟩
  | 62 => ⟨S4x512x512, .i32⟩
  | 63 => ⟨S4x512x512, .i32⟩
  | 64 => ⟨S4x512x512, .i32⟩
  | 65 => ⟨S4x512x512x1, .i32⟩
  | 66 => ⟨S4x512x512x1, .i32⟩
  | 67 => ⟨S4x512x512x1, .i32⟩
  | 68 => ⟨S4x512x512x3, .i32⟩
  | 69 => ⟨S8x3x4x512x512, .f32⟩
  | 70 => ⟨S4x512x512, .f32⟩
  | 71 => ⟨S4x512x512, .f32⟩
  | 72 => ⟨S1x1x4x512x512, .f32⟩
  | 73 => ⟨S8x3x4x512x512, .f32⟩
  | 74 => ⟨S8x3x4x512x512, .f32⟩
  | 75 => ⟨S8x3x4x512x512, .f32⟩
  | 76 => ⟨S4x8x3x512x512, .f32⟩
  | 77 => ⟨S4x8x512x512, .f32⟩
  | 78 => ⟨S4x8x1x512x512, .f32⟩
  | 79 => ⟨S4x8x3x512x512, .f32⟩
  | 80 => ⟨S4x8x3x512x512, .f32⟩
  | 81 => ⟨S_, .f32⟩
  | 82 => ⟨S4x3x512x512, .f32⟩
  | _ => ⟨S4x8x512x512, .f32⟩

abbrev hbmTy (i : Nat) : BufTy := match i / 128 with
  | 0 => hbmTy0_0 i
  | 1 => hbmTy0_1 i
  | 2 => hbmTy0_2 i
  | _ => ⟨S4x8x512x512, .f32⟩

abbrev bufTy : (tb : Table) → Fin (tcTables nBuf tb) → BufTy
  | .hbm, ⟨i, _⟩ => hbmTy i
  | _, _ => ⟨S4x8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_c_2 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_c_4 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c_5 : Ref sig .tc := ⟨.hbm, 49, rfl⟩
abbrev main_c_6 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_c_7 : Ref sig .tc := ⟨.hbm, 59, rfl⟩
abbrev main_v26 : Ref sig .tc := ⟨.hbm, 60, rfl⟩
abbrev main_v27 : Ref sig .tc := ⟨.hbm, 61, rfl⟩
abbrev main_c_8 : Ref sig .tc := ⟨.hbm, 62, rfl⟩
abbrev main_v28 : Ref sig .tc := ⟨.hbm, 63, rfl⟩
abbrev main_v29 : Ref sig .tc := ⟨.hbm, 64, rfl⟩
abbrev main_c_9 : Ref sig .tc := ⟨.hbm, 65, rfl⟩
abbrev main_v30 : Ref sig .tc := ⟨.hbm, 66, rfl⟩
abbrev main_v31 : Ref sig .tc := ⟨.hbm, 67, rfl⟩
abbrev main_cst_10 : Ref sig .tc := ⟨.hbm, 68, rfl⟩
abbrev main_v32 : Ref sig .tc := ⟨.hbm, 69, rfl⟩
abbrev main_v33 : Ref sig .tc := ⟨.hbm, 70, rfl⟩
abbrev main_cst_11 : Ref sig .tc := ⟨.hbm, 71, rfl⟩
abbrev main_v34 : Ref sig .tc := ⟨.hbm, 72, rfl⟩
abbrev main_v35 : Ref sig .tc := ⟨.hbm, 73, rfl⟩
abbrev main_cst_12 : Ref sig .tc := ⟨.hbm, 74, rfl⟩
abbrev main_v36 : Ref sig .tc := ⟨.hbm, 75, rfl⟩
abbrev main_v37 : Ref sig .tc := ⟨.hbm, 76, rfl⟩
abbrev main_c_13 : Ref sig .tc := ⟨.hbm, 77, rfl⟩
abbrev main_v38 : Ref sig .tc := ⟨.hbm, 78, rfl⟩
abbrev main_v39 : Ref sig .tc := ⟨.hbm, 79, rfl⟩
abbrev main_c_14 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_c_15 : Ref sig .tc := ⟨.hbm, 84, rfl⟩
abbrev main_v43 : Ref sig .tc := ⟨.hbm, 85, rfl⟩
abbrev main_v44 : Ref sig .tc := ⟨.hbm, 86, rfl⟩
abbrev main_c_16 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_c_17 : Ref sig .tc := ⟨.hbm, 91, rfl⟩
abbrev main_v48 : Ref sig .tc := ⟨.hbm, 92, rfl⟩
abbrev main_v49 : Ref sig .tc := ⟨.hbm, 93, rfl⟩
abbrev main_c_18 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_c_19 : Ref sig .tc := ⟨.hbm, 108, rfl⟩
abbrev main_v63 : Ref sig .tc := ⟨.hbm, 109, rfl⟩
abbrev main_v64 : Ref sig .tc := ⟨.hbm, 110, rfl⟩
abbrev main_c_20 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_c_21 : Ref sig .tc := ⟨.hbm, 115, rfl⟩
abbrev main_v68 : Ref sig .tc := ⟨.hbm, 116, rfl⟩
abbrev main_v69 : Ref sig .tc := ⟨.hbm, 117, rfl⟩
abbrev main_c_22 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_c_23 : Ref sig .tc := ⟨.hbm, 122, rfl⟩
abbrev main_v73 : Ref sig .tc := ⟨.hbm, 123, rfl⟩
abbrev main_v74 : Ref sig .tc := ⟨.hbm, 124, rfl⟩
abbrev main_c_24 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_c_25 : Ref sig .tc := ⟨.hbm, 140, rfl⟩
abbrev main_v89 : Ref sig .tc := ⟨.hbm, 141, rfl⟩
abbrev main_v90 : Ref sig .tc := ⟨.hbm, 142, rfl⟩
abbrev main_c_26 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_c_27 : Ref sig .tc := ⟨.hbm, 147, rfl⟩
abbrev main_v94 : Ref sig .tc := ⟨.hbm, 148, rfl⟩
abbrev main_v95 : Ref sig .tc := ⟨.hbm, 149, rfl⟩
abbrev main_c_28 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_c_29 : Ref sig .tc := ⟨.hbm, 154, rfl⟩
abbrev main_v99 : Ref sig .tc := ⟨.hbm, 155, rfl⟩
abbrev main_v100 : Ref sig .tc := ⟨.hbm, 156, rfl⟩
abbrev main_c_30 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_c_31 : Ref sig .tc := ⟨.hbm, 172, rfl⟩
abbrev main_v115 : Ref sig .tc := ⟨.hbm, 173, rfl⟩
abbrev main_v116 : Ref sig .tc := ⟨.hbm, 174, rfl⟩
abbrev main_c_32 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_c_33 : Ref sig .tc := ⟨.hbm, 179, rfl⟩
abbrev main_v120 : Ref sig .tc := ⟨.hbm, 180, rfl⟩
abbrev main_v121 : Ref sig .tc := ⟨.hbm, 181, rfl⟩
abbrev main_c_34 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_c_35 : Ref sig .tc := ⟨.hbm, 186, rfl⟩
abbrev main_v125 : Ref sig .tc := ⟨.hbm, 187, rfl⟩
abbrev main_v126 : Ref sig .tc := ⟨.hbm, 188, rfl⟩
abbrev main_c_36 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_c_37 : Ref sig .tc := ⟨.hbm, 204, rfl⟩
abbrev main_v141 : Ref sig .tc := ⟨.hbm, 205, rfl⟩
abbrev main_v142 : Ref sig .tc := ⟨.hbm, 206, rfl⟩
abbrev main_c_38 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_c_39 : Ref sig .tc := ⟨.hbm, 211, rfl⟩
abbrev main_v146 : Ref sig .tc := ⟨.hbm, 212, rfl⟩
abbrev main_v147 : Ref sig .tc := ⟨.hbm, 213, rfl⟩
abbrev main_c_40 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_c_41 : Ref sig .tc := ⟨.hbm, 218, rfl⟩
abbrev main_v151 : Ref sig .tc := ⟨.hbm, 219, rfl⟩
abbrev main_v152 : Ref sig .tc := ⟨.hbm, 220, rfl⟩
abbrev main_c_42 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_c_43 : Ref sig .tc := ⟨.hbm, 236, rfl⟩
abbrev main_v167 : Ref sig .tc := ⟨.hbm, 237, rfl⟩
abbrev main_v168 : Ref sig .tc := ⟨.hbm, 238, rfl⟩
abbrev main_c_44 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_c_45 : Ref sig .tc := ⟨.hbm, 243, rfl⟩
abbrev main_v172 : Ref sig .tc := ⟨.hbm, 244, rfl⟩
abbrev main_v173 : Ref sig .tc := ⟨.hbm, 245, rfl⟩
abbrev main_c_46 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_c_47 : Ref sig .tc := ⟨.hbm, 250, rfl⟩
abbrev main_v177 : Ref sig .tc := ⟨.hbm, 251, rfl⟩
abbrev main_v178 : Ref sig .tc := ⟨.hbm, 252, rfl⟩
abbrev main_c_48 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_c_49 : Ref sig .tc := ⟨.hbm, 268, rfl⟩
abbrev main_v193 : Ref sig .tc := ⟨.hbm, 269, rfl⟩
abbrev main_v194 : Ref sig .tc := ⟨.hbm, 270, rfl⟩
abbrev main_c_50 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_c_51 : Ref sig .tc := ⟨.hbm, 275, rfl⟩
abbrev main_v198 : Ref sig .tc := ⟨.hbm, 276, rfl⟩
abbrev main_v199 : Ref sig .tc := ⟨.hbm, 277, rfl⟩
abbrev main_c_52 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_c_53 : Ref sig .tc := ⟨.hbm, 282, rfl⟩
abbrev main_v203 : Ref sig .tc := ⟨.hbm, 283, rfl⟩
abbrev main_v204 : Ref sig .tc := ⟨.hbm, 284, rfl⟩
abbrev main_c_54 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_v208 : Ref sig .tc := ⟨.hbm, 289, rfl⟩
abbrev main_v209 : Ref sig .tc := ⟨.hbm, 290, rfl⟩
abbrev main_v210 : Ref sig .tc := ⟨.hbm, 291, rfl⟩
abbrev main_v211 : Ref sig .tc := ⟨.hbm, 292, rfl⟩
abbrev main_v212 : Ref sig .tc := ⟨.hbm, 293, rfl⟩
abbrev main_v213 : Ref sig .tc := ⟨.hbm, 294, rfl⟩
abbrev main_v214 : Ref sig .tc := ⟨.hbm, 295, rfl⟩
abbrev main_v215 : Ref sig .tc := ⟨.hbm, 296, rfl⟩
abbrev main_v216 : Ref sig .tc := ⟨.hbm, 297, rfl⟩
abbrev main_v217 : Ref sig .tc := ⟨.hbm, 298, rfl⟩
abbrev main_v218 : Ref sig .tc := ⟨.hbm, 299, rfl⟩
abbrev main_c_55 : Ref sig .tc := ⟨.hbm, 300, rfl⟩
abbrev main_v219 : Ref sig .tc := ⟨.hbm, 301, rfl⟩
abbrev main_v220 : Ref sig .tc := ⟨.hbm, 302, rfl⟩
abbrev main_c_56 : Ref sig .tc := ⟨.hbm, 303, rfl⟩
abbrev main_v221 : Ref sig .tc := ⟨.hbm, 304, rfl⟩
abbrev main_v222 : Ref sig .tc := ⟨.hbm, 305, rfl⟩
abbrev main_v223 : Ref sig .tc := ⟨.hbm, 306, rfl⟩
abbrev main_c_57 : Ref sig .tc := ⟨.hbm, 307, rfl⟩
abbrev main_v224 : Ref sig .tc := ⟨.hbm, 308, rfl⟩
abbrev main_v225 : Ref sig .tc := ⟨.hbm, 309, rfl⟩
abbrev main_c_58 : Ref sig .tc := ⟨.hbm, 310, rfl⟩
abbrev main_v226 : Ref sig .tc := ⟨.hbm, 311, rfl⟩
abbrev main_v227 : Ref sig .tc := ⟨.hbm, 312, rfl⟩
abbrev main_v228 : Ref sig .tc := ⟨.hbm, 313, rfl⟩
abbrev main_c_59 : Ref sig .tc := ⟨.hbm, 314, rfl⟩
abbrev main_v229 : Ref sig .tc := ⟨.hbm, 315, rfl⟩
abbrev main_v230 : Ref sig .tc := ⟨.hbm, 316, rfl⟩
abbrev main_c_60 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_v235 : Ref sig .tc := ⟨.hbm, 322, rfl⟩
abbrev main_v236 : Ref sig .tc := ⟨.hbm, 323, rfl⟩
abbrev main_v237 : Ref sig .tc := ⟨.hbm, 324, rfl⟩
abbrev main_v238 : Ref sig .tc := ⟨.hbm, 325, rfl⟩
abbrev main_v239 : Ref sig .tc := ⟨.hbm, 326, rfl⟩
abbrev main_v240 : Ref sig .tc := ⟨.hbm, 327, rfl⟩
abbrev main_v241 : Ref sig .tc := ⟨.hbm, 328, rfl⟩
abbrev main_v242 : Ref sig .tc := ⟨.hbm, 329, rfl⟩
abbrev main_v243 : Ref sig .tc := ⟨.hbm, 330, rfl⟩
abbrev main_v244 : Ref sig .tc := ⟨.hbm, 331, rfl⟩
abbrev main_v245 : Ref sig .tc := ⟨.hbm, 332, rfl⟩
abbrev main_v246 : Ref sig .tc := ⟨.hbm, 333, rfl⟩
abbrev main_v247 : Ref sig .tc := ⟨.hbm, 334, rfl⟩
abbrev main_v248 : Ref sig .tc := ⟨.hbm, 335, rfl⟩
abbrev main_v249 : Ref sig .tc := ⟨.hbm, 336, rfl⟩
abbrev main_cst_61 : Ref sig .tc := ⟨.hbm, 337, rfl⟩
abbrev main_v250 : Ref sig .tc := ⟨.hbm, 338, rfl⟩

abbrev nD : Nat := 1
abbrev τ : Topo := Topo.v7x

variable {F : FTy → Type} [FloatOps F]

class Facts₀ : Prop where
  transposes_S107811x8_S8x107811_1_0 : S107811x8.Transposes [1, 0] S8x107811
  shapeCasts_S8x107811_S8x3x33x33x33 : S8x107811.ShapeCasts S8x3x33x33x33
  bcast_S_S4x3x512x512 : S_.BroadcastsInDim S4x3x512x512 (![] : Fin 0 → Fin S4x3x512x512.rank)
  slices_S4x3x512x512_S4x1x512x512_0_0_0_0 : S4x3x512x512.Slices ![0, 0, 0, 0] S4x1x512x512
  shapeCasts_S4x1x512x512_S4x512x512 : S4x1x512x512.ShapeCasts S4x512x512
  slices_S4x3x512x512_S4x1x512x512_0_1_0_0 : S4x3x512x512.Slices ![0, 1, 0, 0] S4x1x512x512
  slices_S4x3x512x512_S4x1x512x512_0_2_0_0 : S4x3x512x512.Slices ![0, 2, 0, 0] S4x1x512x512
  bcast_S_S4x512x512 : S_.BroadcastsInDim S4x512x512 (![] : Fin 0 → Fin S4x512x512.rank)
  bcast_S4x512x512_S4x512x512x1_0_1_2 : S4x512x512.BroadcastsInDim S4x512x512x1 (![0, 1, 2] : Fin 3 → Fin S4x512x512x1.rank)
  concatenates_S4x512x512x1_S4x512x512x1_S4x512x512x1_S4x512x512x3_d3 : Shape.Concatenates [S4x512x512x1, S4x512x512x1, S4x512x512x1] S4x512x512x3 3
  bcast_S4x512x512_S1x1x4x512x512_2_3_4 : S4x512x512.BroadcastsInDim S1x1x4x512x512 (![2, 3, 4] : Fin 3 → Fin S1x1x4x512x512.rank)
  bcast_S1x1x4x512x512_S8x3x4x512x512_0_1_2_3_4 : S1x1x4x512x512.BroadcastsInDim S8x3x4x512x512 (![0, 1, 2, 3, 4] : Fin 5 → Fin S8x3x4x512x512.rank)
  transposes_S8x3x4x512x512_S4x8x3x512x512_2_0_1_3_4 : S8x3x4x512x512.Transposes [2, 0, 1, 3, 4] S4x8x3x512x512
  bcast_S4x8x512x512_S4x8x1x512x512_0_1_3_4 : S4x8x512x512.BroadcastsInDim S4x8x1x512x512 (![0, 1, 3, 4] : Fin 4 → Fin S4x8x1x512x512.rank)
  bcast_S4x8x1x512x512_S4x8x3x512x512_0_1_2_3_4 : S4x8x1x512x512.BroadcastsInDim S4x8x3x512x512 (![0, 1, 2, 3, 4] : Fin 5 → Fin S4x8x3x512x512.rank)
  reducesTo_S4x8x3x512x512_S4x3x512x512_d1 : S4x8x3x512x512.ReducesTo [1] S4x3x512x512
  h_S_ : 0 < S_.numel
  gather_S8x3x33x33x33_S4x512x512x3_S8x3x4x512x512_01_234_n_n_234_3_83111_wf : GatherDims.WF S8x3x33x33x33 S4x512x512x3 S8x3x4x512x512 [0, 1] [2, 3, 4] [] [2, 3, 4] [] 3 ![8, 3, 1, 1, 1]

variable [Facts₀]

def gather_S8x3x33x33x33_S4x512x512x3_S8x3x4x512x512_01_234_n_n_234_3_83111 : GatherDims S8x3x33x33x33 S4x512x512x3 S8x3x4x512x512 where
  offsetDims := [0, 1]
  collapsedSliceDims := [2, 3, 4]
  operandBatchingDims := []
  startIndicesBatchingDims := []
  startIndexMap := [2, 3, 4]
  indexVectorDim := 3
  sliceSizes := ![8, 3, 1, 1, 1]
  wf := gather_S8x3x33x33x33_S4x512x512x3_S8x3x4x512x512_01_234_n_n_234_3_83111_wf

class Facts : Prop extends Facts₀ where

variable [Facts]
-- ==== Proof.KHost.lean ====
/-
  The host side of `Kernel` up to its one kernel launch.

  Before the launch the program computes, by host operations alone, the sampled tensor of shape
  [8, 3, 4, 512, 512]: the lookup table transposed and reshaped to [8, 3, 33, 33, 33], the image scaled by 32 and
  clipped to [0, 32], its integer corner (clipped to [0, 31]) and fractional part per colour channel, the eight
  corner gathers and their trilinear weights, summed. Every one of these operations writes exactly one buffer, its
  result, which is never an argument array, and none allocates. Stated here: what every buffer of a core holds when
  the launch is reached (`V`: the fold of the host operations, stretch by stretch, over the launch memory), that @main
  is those operations followed by the launch, and that the four argument arrays are found there as launched.
-/
import proofs.«180827_j9612136808561_2_alg».proof.Proof.Gen.Kernel.Launch
import Idealize.ShloMosaic.Lib.Pipeline.FrameBody

set_option maxRecDepth 16384

noncomputable section

namespace Cert.Kernel.Host

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

/-- The four argument arrays. -/
abbrev argRefs : List (Ref sig .tc) := [main_arg0, main_arg1, main_arg2, main_arg3]

/-- An operation whose written set is the one buffer `y`, not an argument, writes no argument. -/
theorem keeps_of_writes {y : Ref sig .tc} {W : Finset (DevRef τ sig)} (hW : W = {Proc.devRef .tc y}) (hy : y ∉ argRefs) :
    ∀ r ∈ argRefs, Proc.devRef (τ := τ) .tc r ∉ W := fun r hr hm => by
  rw [hW, Finset.mem_singleton] at hm
  exact hy (Proc.devRef_injective _ hm ▸ hr)

/-- No operation of this stretch allocates, and none writes an argument: each writes its one result buffer. -/
theorem main_part0_ops0_facts : (main_part0_ops0 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩
theorem main_part0_ops0_fresh : (main_part0_ops0 : List (HloOp τ sig (Elt F))).Forall fun op => op.fresh = ∅ :=
  List.forall_iff_forall_mem.mpr fun op h => (List.forall_iff_forall_mem.mp main_part0_ops0_facts op h).1
/-- No operation of this stretch allocates, and none writes an argument: each writes its one result buffer. -/
theorem main_part0_ops1_facts : (main_part0_ops1 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩
theorem main_part0_ops1_fresh : (main_part0_ops1 : List (HloOp τ sig (Elt F))).Forall fun op => op.fresh = ∅ :=
  List.forall_iff_forall_mem.mpr fun op h => (List.forall_iff_forall_mem.mp main_part0_ops1_facts op h).1
/-- No operation of this stretch allocates, and none writes an argument: each writes its one result buffer. -/
theorem main_part0_ops2_facts : (main_part0_ops2 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩
theorem main_part0_ops2_fresh : (main_part0_ops2 : List (HloOp τ sig (Elt F))).Forall fun op => op.fresh = ∅ :=
  List.forall_iff_forall_mem.mpr fun op h => (List.forall_iff_forall_mem.mp main_part0_ops2_facts op h).1
/-- No operation of this stretch allocates, and none writes an argument: each writes its one result buffer. -/
theorem main_part0_ops3_facts : (main_part0_ops3 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩
theorem main_part0_ops3_fresh : (main_part0_ops3 : List (HloOp τ sig (Elt F))).Forall fun op => op.fresh = ∅ :=
  List.forall_iff_forall_mem.mpr fun op h => (List.forall_iff_forall_mem.mp main_part0_ops3_facts op h).1
/-- No operation of this stretch allocates, and none writes an argument: each writes its one result buffer. -/
theorem main_part0_ops4_facts : (main_part0_ops4 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩
theorem main_part0_ops4_fresh : (main_part0_ops4 : List (HloOp τ sig (Elt F))).Forall fun op => op.fresh = ∅ :=
  List.forall_iff_forall_mem.mpr fun op h => (List.forall_iff_forall_mem.mp main_part0_ops4_facts op h).1
/-- No operation of this stretch allocates, and none writes an argument: each writes its one result buffer. -/
theorem main_part0_ops5_facts : (main_part0_ops5 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩
theorem main_part0_ops5_fresh : (main_part0_ops5 : List (HloOp τ sig (Elt F))).Forall fun op => op.fresh = ∅ :=
  List.forall_iff_forall_mem.mpr fun op h => (List.forall_iff_forall_mem.mp main_part0_ops5_facts op h).1
/-- No operation of this stretch allocates, and none writes an argument: each writes its one result buffer. -/
theorem main_part0_ops6_facts : (main_part0_ops6 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩
theorem main_part0_ops6_fresh : (main_part0_ops6 : List (HloOp τ sig (Elt F))).Forall fun op => op.fresh = ∅ :=
  List.forall_iff_forall_mem.mpr fun op h => (List.forall_iff_forall_mem.mp main_part0_ops6_facts op h).1
/-- No operation of this stretch allocates, and none writes an argument: each writes its one result buffer. -/
theorem main_part0_ops7_facts : (main_part0_ops7 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩
theorem main_part0_ops7_fresh : (main_part0_ops7 : List (HloOp τ sig (Elt F))).Forall fun op => op.fresh = ∅ :=
  List.forall_iff_forall_mem.mpr fun op h => (List.forall_iff_forall_mem.mp main_part0_ops7_facts op h).1
/-- No operation of this stretch allocates, and none writes an argument: each writes its one result buffer. -/
theorem main_part0_ops8_facts : (main_part0_ops8 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩
theorem main_part0_ops8_fresh : (main_part0_ops8 : List (HloOp τ sig (Elt F))).Forall fun op => op.fresh = ∅ :=
  List.forall_iff_forall_mem.mpr fun op h => (List.forall_iff_forall_mem.mp main_part0_ops8_facts op h).1
set_option maxHeartbeats 40000000 in
/-- No operation of this stretch allocates, and none writes an argument: each writes its one result buffer. -/
theorem main_part1_ops0_facts : (main_part1_ops0 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩
theorem main_part1_ops0_fresh : (main_part1_ops0 : List (HloOp τ sig (Elt F))).Forall fun op => op.fresh = ∅ :=
  List.forall_iff_forall_mem.mpr fun op h => (List.forall_iff_forall_mem.mp main_part1_ops0_facts op h).1
set_option maxHeartbeats 40000000 in
/-- No operation of this stretch allocates, and none writes an argument: each writes its one result buffer. -/
theorem main_part2_ops0_facts : (main_part2_ops0 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩
theorem main_part2_ops0_fresh : (main_part2_ops0 : List (HloOp τ sig (Elt F))).Forall fun op => op.fresh = ∅ :=
  List.forall_iff_forall_mem.mpr fun op h => (List.forall_iff_forall_mem.mp main_part2_ops0_facts op h).1
set_option maxHeartbeats 40000000 in
/-- No operation of this stretch allocates, and none writes an argument: each writes its one result buffer. -/
theorem main_part3_ops0_facts : (main_part3_ops0 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩
theorem main_part3_ops0_fresh : (main_part3_ops0 : List (HloOp τ sig (Elt F))).Forall fun op => op.fresh = ∅ :=
  List.forall_iff_forall_mem.mpr fun op h => (List.forall_iff_forall_mem.mp main_part3_ops0_facts op h).1
set_option maxHeartbeats 40000000 in
/-- No operation of this stretch allocates, and none writes an argument: each writes its one result buffer. -/
theorem main_part4_ops0_facts : (main_part4_ops0 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩
theorem main_part4_ops0_fresh : (main_part4_ops0 : List (HloOp τ sig (Elt F))).Forall fun op => op.fresh = ∅ :=
  List.forall_iff_forall_mem.mpr fun op h => (List.forall_iff_forall_mem.mp main_part4_ops0_facts op h).1
/-- No operation of this stretch allocates, and none writes an argument: each writes its one result buffer. -/
theorem main_part5_ops0_facts : (main_part5_ops0 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩
theorem main_part5_ops0_fresh : (main_part5_ops0 : List (HloOp τ sig (Elt F))).Forall fun op => op.fresh = ∅ :=
  List.forall_iff_forall_mem.mpr fun op h => (List.forall_iff_forall_mem.mp main_part5_ops0_facts op h).1

/-- No host operation before the launch writes an argument. -/
theorem keeps_all : ∀ op ∈ (List.flatten [main_part0_ops0, main_part0_ops1, main_part0_ops2, main_part0_ops3, main_part0_ops4, main_part0_ops5, main_part0_ops6, main_part0_ops7, main_part0_ops8, main_part1_ops0, main_part2_ops0, main_part3_ops0, main_part4_ops0, main_part5_ops0] : List (HloOp τ sig (Elt F))),
    ∀ r ∈ argRefs, Proc.devRef (τ := τ) .tc r ∉ op.writes := by
  intro op hop
  obtain ⟨l, hl, hopl⟩ := List.mem_flatten.mp hop
  simp only [List.mem_cons, List.not_mem_nil, or_false] at hl
  rcases hl with rfl | rfl | rfl | rfl | rfl | rfl | rfl | rfl | rfl | rfl | rfl | rfl | rfl | rfl
  · exact (List.forall_iff_forall_mem.mp main_part0_ops0_facts op hopl).2
  · exact (List.forall_iff_forall_mem.mp main_part0_ops1_facts op hopl).2
  · exact (List.forall_iff_forall_mem.mp main_part0_ops2_facts op hopl).2
  · exact (List.forall_iff_forall_mem.mp main_part0_ops3_facts op hopl).2
  · exact (List.forall_iff_forall_mem.mp main_part0_ops4_facts op hopl).2
  · exact (List.forall_iff_forall_mem.mp main_part0_ops5_facts op hopl).2
  · exact (List.forall_iff_forall_mem.mp main_part0_ops6_facts op hopl).2
  · exact (List.forall_iff_forall_mem.mp main_part0_ops7_facts op hopl).2
  · exact (List.forall_iff_forall_mem.mp main_part0_ops8_facts op hopl).2
  · exact (List.forall_iff_forall_mem.mp main_part1_ops0_facts op hopl).2
  · exact (List.forall_iff_forall_mem.mp main_part2_ops0_facts op hopl).2
  · exact (List.forall_iff_forall_mem.mp main_part3_ops0_facts op hopl).2
  · exact (List.forall_iff_forall_mem.mp main_part4_ops0_facts op hopl).2
  · exact (List.forall_iff_forall_mem.mp main_part5_ops0_facts op hopl).2

variable (m : (ℓ : Loc nD τ sig) → Buf (Elt F) ℓ)

/-- Core `c`'s buffers when the launch is reached: the launch memory after the host operations, in order. -/
abbrev V (c : Dev nD) (b : Ref sig .tc) : Buf (Elt F) ((c : Thread nD τ).loc b) :=
  StableHlo.after (List.flatten [main_part0_ops0, main_part0_ops1, main_part0_ops2, main_part0_ops3, main_part0_ops4, main_part0_ops5, main_part0_ops6, main_part0_ops7, main_part0_ops8, main_part1_ops0, main_part2_ops0, main_part3_ops0, main_part4_ops0, main_part5_ops0]) (fun b => m (c, b)) b

/-- @main is the host operations, stretch by stretch, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [main_part0_ops0, main_part0_ops1, main_part0_ops2, main_part0_ops3, main_part0_ops4, main_part0_ops5, main_part0_ops6, main_part0_ops7, main_part0_ops8, main_part1_ops0, main_part2_ops0, main_part3_ops0, main_part4_ops0, main_part5_ops0]
    (by simp only [List.Forall]; exact ⟨main_part0_ops0_sub, main_part0_ops1_sub, main_part0_ops2_sub, main_part0_ops3_sub, main_part0_ops4_sub, main_part0_ops5_sub, main_part0_ops6_sub, main_part0_ops7_sub, main_part0_ops8_sub, main_part1_ops0_sub, main_part2_ops0_sub, main_part3_ops0_sub, main_part4_ops0_sub, main_part5_ops0_sub⟩)
    (by simp only [List.Forall]; exact ⟨main_part0_ops0_fresh, main_part0_ops1_fresh, main_part0_ops2_fresh, main_part0_ops3_fresh, main_part0_ops4_fresh, main_part0_ops5_fresh, main_part0_ops6_fresh, main_part0_ops7_fresh, main_part0_ops8_fresh, main_part1_ops0_fresh, main_part2_ops0_fresh, main_part3_ops0_fresh, main_part4_ops0_fresh, main_part5_ops0_fresh⟩) main_chain_windows

/-- The launch finds argument 0 as launched. -/
theorem V_main_arg0 (c : Dev nD) : V m c main_arg0 = m ((c : Thread nD τ).loc main_arg0) :=
  StableHlo.after_of_forall_not_mem (b := Proc.devRef .tc main_arg0) _ _ (fun op hop => keeps_all op hop main_arg0 (by decide))
/-- The launch finds argument 1 as launched. -/
theorem V_main_arg1 (c : Dev nD) : V m c main_arg1 = m ((c : Thread nD τ).loc main_arg1) :=
  StableHlo.after_of_forall_not_mem (b := Proc.devRef .tc main_arg1) _ _ (fun op hop => keeps_all op hop main_arg1 (by decide))
/-- The launch finds argument 2 as launched. -/
theorem V_main_arg2 (c : Dev nD) : V m c main_arg2 = m ((c : Thread nD τ).loc main_arg2) :=
  StableHlo.after_of_forall_not_mem (b := Proc.devRef .tc main_arg2) _ _ (fun op hop => keeps_all op hop main_arg2 (by decide))
/-- The launch finds argument 3 as launched. -/
theorem V_main_arg3 (c : Dev nD) : V m c main_arg3 = m ((c : Thread nD τ).loc main_arg3) :=
  StableHlo.after_of_forall_not_mem (b := Proc.devRef .tc main_arg3) _ _ (fun op hop => keeps_all op hop main_arg3 (by decide))

end Cert.Kernel.Host

end
-- ==== Proof.KBody.lean ====
/-
  The body of the weighted-sum kernel at one grid point, for the program `Kernel`.

  One grid point (b, h) holds a block of the two weight arrays, of shape [1, 8, 128, 512] each, a block of
  the sampled tensor of shape [8, 3, 1, 128, 512], and a block of the result of shape [1, 3, 128, 512].
  The body reads the three input blocks whole, forms for every rank r the product of the two weights,
  multiplies it with the sampled values of every colour and adds over the eight ranks; it then writes
  the whole result block. It also reads the result block before writing it, and uses nothing of what it read.

  Stated here: the result block after the body is the one stored piece, a function of the three input
  blocks alone (`outBlock`), whatever the block held before; the input blocks are left as they were.
-/
import proofs.«180827_j9612136808561_2_alg».proof.Proof.Gen.Kernel.Launch
import proofs.«180827_j9612136808561_2_alg».proof.Proof.Gen.Kernel.Skeleton
import proofs.«180827_j9612136808561_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole block of a weight window. -/
abbrev rW : Rect S1x8x128x512 := Rect.unit (s := S1x8x128x512) ![0, 0, 0, 0] S1x8x128x512.size inb_S1x8x128x512_S1x8x128x512_0_0_0_0
/-- The whole block of the sampled tensor's window. -/
abbrev rS : Rect S8x3x1x128x512 := Rect.unit (s := S8x3x1x128x512) ![0, 0, 0, 0, 0] S8x3x1x128x512.size inb_S8x3x1x128x512_S8x3x1x128x512_0_0_0_0_0
/-- The whole block of the result's window. -/
abbrev rO : Rect S1x3x128x512 := Rect.unit (s := S1x3x128x512) ![0, 0, 0, 0] S1x3x128x512.size inb_S1x3x128x512_S1x3x128x512_0_0_0_0

/-- What the body leaves in the result block: its one store, the sum over the ranks of weight product
    times sampled value, computed from the three input blocks. -/
def outBlock (x0 : Vec F S1x8x128x512 .f32) (x1 : Vec F S1x8x128x512 .f32) (x2 : Vec F S8x3x1x128x512 .f32) : Vec F S1x3x128x512 .f32 :=
  View.canon [⟨rO, k0_pay1 (View.ld x0 rW) (View.ld x1 rW) (View.ld x2 rS)⟩]

/-- The one store covers the whole result block. -/
theorem cover (p0 : Vec F S1x3x128x512 .f32) (y : S1x3x128x512.Idx) :
    ∃ pc ∈ ([⟨rO, p0⟩] : List (View.Piece (Elt F) S1x3x128x512 .f32)), y ∈ pc.1.set :=
  View.cover_of_tiled [⟨rO, p0⟩] S1x3x128x512.size (by rfl) y

set_option maxHeartbeats 1000000 in
/-- The body on whole staging buffers: the three inputs at contents `x0 x1 x2`, the result buffer at anything,
    run to the continuation with the inputs unchanged and the result buffer at `outBlock x0 x1 x2`. -/
theorem sound_kernel (c : Dev nD) (E : Set ℕ) (i : grid0.Coords)
    (arg2 : Memref sig .tc .vmem S1x8x128x512 .f32) (harg2 : arg2.IsWhole)
    (arg3 : Memref sig .tc .vmem S1x8x128x512 .f32) (harg3 : arg3.IsWhole)
    (arg4 : Memref sig .tc .vmem S8x3x1x128x512 .f32) (harg4 : arg4.IsWhole)
    (arg5 : Memref sig .tc .vmem S1x3x128x512 .f32) (harg5 : arg5.IsWhole)
    (x0 : Vec F S1x8x128x512 .f32) (x1 : Vec F S1x8x128x512 .f32) (x2 : Vec F S8x3x1x128x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlock x0 x1 x2)) -∗ K ⟨⟩))
      ⊢ wp frame (wpE (defs₀ (F := F)) Variants.none c none) E (cc0__weighted_sum_kernel i arg2 harg2 arg3 harg3 arg4 harg4 arg5 harg5) K := by
  simp only [cc0__weighted_sum_kernel_eq_skeleton]; unfold cc0__weighted_sum_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

end Cert.Kernel.Body

end
-- ==== Proof.KFrame.lean ====
/-
  The frame of `Kernel`: the program runs to its end, faults nowhere, and leaves its four argument arrays unchanged;
  and the result array after the run is named.

  The launch walks a 4 × 4 grid. At point (b, h) the two weight windows hold rows h·128 … h·128+127 of batch b of
  their arrays, all eight ranks; the sampled tensor's window holds the same rows of batch b for all ranks and colours;
  the result window holds those rows of batch b for the three colours. Every input block is fetched at every point and
  the result block is written back at every point. The proof data says: after the body each input's staging buffer still
  holds its block, and the result's holds the body's store (`outBlock`) of the three input blocks. With the body's
  triple this is the launch's obligation at every point, and the library's frame run gives the post: every window's array
  at what the write-backs make of it, every other buffer as the launch found it.
-/
import proofs.«180827_j9612136808561_2_alg».proof.Proof.KHost
import proofs.«180827_j9612136808561_2_alg».proof.Proof.KBody

set_option maxRecDepth 16384

noncomputable section

namespace Cert.Kernel.Fr

open Cert.Kernel Cert.Kernel.Gen Cert.Kernel.Host Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The frame claim's post from the frame run's: the two weight arrays are staged inputs, never written back; the
    image and the lookup table are staged by no window and keep their launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-- The proof data of the launch on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outBlock (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch's obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, and every final state has every window's array at what the
    write-backs make of it and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The run with the result array named: what the write-backs make of it; the arguments unchanged. -/
theorem run_named : θ_run defs (onTc (τ := τ) (main (F := F))) ⟨m, fun _ => 0, ρ⟩ (fun r => ∀ c : Dev nD,
      r.2.mem ((c.tc : Thread nD τ).loc main_v245) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 3,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.Kernel.Fr

end
-- ==== Proof.KIHost.lean ====
/-
  The host side of `KernelIdeal` up to its one kernel launch.

  Before the launch the program computes, by host operations alone, the sampled tensor of shape
  [8, 3, 4, 512, 512]: the lookup table transposed and reshaped to [8, 3, 33, 33, 33], the image scaled by 32 and
  clipped to [0, 32], its integer corner (clipped to [0, 31]) and fractional part per colour channel, the eight
  corner gathers and their trilinear weights, summed. Every one of these operations writes exactly one buffer, its
  result, which is never an argument array, and none allocates. Stated here: what every buffer of a core holds when
  the launch is reached (`V`: the fold of the host operations, stretch by stretch, over the launch memory), that @main
  is those operations followed by the launch, and that the four argument arrays are found there as launched.
-/
import proofs.«180827_j9612136808561_2_alg».proof.Proof.Gen.KernelIdeal.Launch
import Idealize.ShloMosaic.Lib.Pipeline.FrameBody

set_option maxRecDepth 16384

noncomputable section

namespace Cert.KernelIdeal.Host

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

/-- The four argument arrays. -/
abbrev argRefs : List (Ref sig .tc) := [main_arg0, main_arg1, main_arg2, main_arg3]

/-- An operation whose written set is the one buffer `y`, not an argument, writes no argument. -/
theorem keeps_of_writes {y : Ref sig .tc} {W : Finset (DevRef τ sig)} (hW : W = {Proc.devRef .tc y}) (hy : y ∉ argRefs) :
    ∀ r ∈ argRefs, Proc.devRef (τ := τ) .tc r ∉ W := fun r hr hm => by
  rw [hW, Finset.mem_singleton] at hm
  exact hy (Proc.devRef_injective _ hm ▸ hr)

/-- No operation of this stretch allocates, and none writes an argument: each writes its one result buffer. -/
theorem main_part0_ops0_facts : (main_part0_ops0 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩
theorem main_part0_ops0_fresh : (main_part0_ops0 : List (HloOp τ sig (Elt F))).Forall fun op => op.fresh = ∅ :=
  List.forall_iff_forall_mem.mpr fun op h => (List.forall_iff_forall_mem.mp main_part0_ops0_facts op h).1
/-- No operation of this stretch allocates, and none writes an argument: each writes its one result buffer. -/
theorem main_part0_ops1_facts : (main_part0_ops1 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩
theorem main_part0_ops1_fresh : (main_part0_ops1 : List (HloOp τ sig (Elt F))).Forall fun op => op.fresh = ∅ :=
  List.forall_iff_forall_mem.mpr fun op h => (List.forall_iff_forall_mem.mp main_part0_ops1_facts op h).1
/-- No operation of this stretch allocates, and none writes an argument: each writes its one result buffer. -/
theorem main_part0_ops2_facts : (main_part0_ops2 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩
theorem main_part0_ops2_fresh : (main_part0_ops2 : List (HloOp τ sig (Elt F))).Forall fun op => op.fresh = ∅ :=
  List.forall_iff_forall_mem.mpr fun op h => (List.forall_iff_forall_mem.mp main_part0_ops2_facts op h).1
/-- No operation of this stretch allocates, and none writes an argument: each writes its one result buffer. -/
theorem main_part0_ops3_facts : (main_part0_ops3 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩
theorem main_part0_ops3_fresh : (main_part0_ops3 : List (HloOp τ sig (Elt F))).Forall fun op => op.fresh = ∅ :=
  List.forall_iff_forall_mem.mpr fun op h => (List.forall_iff_forall_mem.mp main_part0_ops3_facts op h).1
/-- No operation of this stretch allocates, and none writes an argument: each writes its one result buffer. -/
theorem main_part0_ops4_facts : (main_part0_ops4 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩
theorem main_part0_ops4_fresh : (main_part0_ops4 : List (HloOp τ sig (Elt F))).Forall fun op => op.fresh = ∅ :=
  List.forall_iff_forall_mem.mpr fun op h => (List.forall_iff_forall_mem.mp main_part0_ops4_facts op h).1
/-- No operation of this stretch allocates, and none writes an argument: each writes its one result buffer. -/
theorem main_part0_ops5_facts : (main_part0_ops5 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩
theorem main_part0_ops5_fresh : (main_part0_ops5 : List (HloOp τ sig (Elt F))).Forall fun op => op.fresh = ∅ :=
  List.forall_iff_forall_mem.mpr fun op h => (List.forall_iff_forall_mem.mp main_part0_ops5_facts op h).1
/-- No operation of this stretch allocates, and none writes an argument: each writes its one result buffer. -/
theorem main_part0_ops6_facts : (main_part0_ops6 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩
theorem main_part0_ops6_fresh : (main_part0_ops6 : List (HloOp τ sig (Elt F))).Forall fun op => op.fresh = ∅ :=
  List.forall_iff_forall_mem.mpr fun op h => (List.forall_iff_forall_mem.mp main_part0_ops6_facts op h).1
/-- No operation of this stretch allocates, and none writes an argument: each writes its one result buffer. -/
theorem main_part0_ops7_facts : (main_part0_ops7 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩
theorem main_part0_ops7_fresh : (main_part0_ops7 : List (HloOp τ sig (Elt F))).Forall fun op => op.fresh = ∅ :=
  List.forall_iff_forall_mem.mpr fun op h => (List.forall_iff_forall_mem.mp main_part0_ops7_facts op h).1
/-- No operation of this stretch allocates, and none writes an argument: each writes its one result buffer. -/
theorem main_part0_ops8_facts : (main_part0_ops8 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩
theorem main_part0_ops8_fresh : (main_part0_ops8 : List (HloOp τ sig (Elt F))).Forall fun op => op.fresh = ∅ :=
  List.forall_iff_forall_mem.mpr fun op h => (List.forall_iff_forall_mem.mp main_part0_ops8_facts op h).1
set_option maxHeartbeats 40000000 in
/-- No operation of this stretch allocates, and none writes an argument: each writes its one result buffer. -/
theorem main_part1_ops0_facts : (main_part1_ops0 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩
theorem main_part1_ops0_fresh : (main_part1_ops0 : List (HloOp τ sig (Elt F))).Forall fun op => op.fresh = ∅ :=
  List.forall_iff_forall_mem.mpr fun op h => (List.forall_iff_forall_mem.mp main_part1_ops0_facts op h).1
set_option maxHeartbeats 40000000 in
/-- No operation of this stretch allocates, and none writes an argument: each writes its one result buffer. -/
theorem main_part2_ops0_facts : (main_part2_ops0 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩
theorem main_part2_ops0_fresh : (main_part2_ops0 : List (HloOp τ sig (Elt F))).Forall fun op => op.fresh = ∅ :=
  List.forall_iff_forall_mem.mpr fun op h => (List.forall_iff_forall_mem.mp main_part2_ops0_facts op h).1
set_option maxHeartbeats 40000000 in
/-- No operation of this stretch allocates, and none writes an argument: each writes its one result buffer. -/
theorem main_part3_ops0_facts : (main_part3_ops0 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩
theorem main_part3_ops0_fresh : (main_part3_ops0 : List (HloOp τ sig (Elt F))).Forall fun op => op.fresh = ∅ :=
  List.forall_iff_forall_mem.mpr fun op h => (List.forall_iff_forall_mem.mp main_part3_ops0_facts op h).1
set_option maxHeartbeats 40000000 in
/-- No operation of this stretch allocates, and none writes an argument: each writes its one result buffer. -/
theorem main_part4_ops0_facts : (main_part4_ops0 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩
theorem main_part4_ops0_fresh : (main_part4_ops0 : List (HloOp τ sig (Elt F))).Forall fun op => op.fresh = ∅ :=
  List.forall_iff_forall_mem.mpr fun op h => (List.forall_iff_forall_mem.mp main_part4_ops0_facts op h).1
/-- No operation of this stretch allocates, and none writes an argument: each writes its one result buffer. -/
theorem main_part5_ops0_facts : (main_part5_ops0 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩
theorem main_part5_ops0_fresh : (main_part5_ops0 : List (HloOp τ sig (Elt F))).Forall fun op => op.fresh = ∅ :=
  List.forall_iff_forall_mem.mpr fun op h => (List.forall_iff_forall_mem.mp main_part5_ops0_facts op h).1

/-- No host operation before the launch writes an argument. -/
theorem keeps_all : ∀ op ∈ (List.flatten [main_part0_ops0, main_part0_ops1, main_part0_ops2, main_part0_ops3, main_part0_ops4, main_part0_ops5, main_part0_ops6, main_part0_ops7, main_part0_ops8, main_part1_ops0, main_part2_ops0, main_part3_ops0, main_part4_ops0, main_part5_ops0] : List (HloOp τ sig (Elt F))),
    ∀ r ∈ argRefs, Proc.devRef (τ := τ) .tc r ∉ op.writes := by
  intro op hop
  obtain ⟨l, hl, hopl⟩ := List.mem_flatten.mp hop
  simp only [List.mem_cons, List.not_mem_nil, or_false] at hl
  rcases hl with rfl | rfl | rfl | rfl | rfl | rfl | rfl | rfl | rfl | rfl | rfl | rfl | rfl | rfl
  · exact (List.forall_iff_forall_mem.mp main_part0_ops0_facts op hopl).2
  · exact (List.forall_iff_forall_mem.mp main_part0_ops1_facts op hopl).2
  · exact (List.forall_iff_forall_mem.mp main_part0_ops2_facts op hopl).2
  · exact (List.forall_iff_forall_mem.mp main_part0_ops3_facts op hopl).2
  · exact (List.forall_iff_forall_mem.mp main_part0_ops4_facts op hopl).2
  · exact (List.forall_iff_forall_mem.mp main_part0_ops5_facts op hopl).2
  · exact (List.forall_iff_forall_mem.mp main_part0_ops6_facts op hopl).2
  · exact (List.forall_iff_forall_mem.mp main_part0_ops7_facts op hopl).2
  · exact (List.forall_iff_forall_mem.mp main_part0_ops8_facts op hopl).2
  · exact (List.forall_iff_forall_mem.mp main_part1_ops0_facts op hopl).2
  · exact (List.forall_iff_forall_mem.mp main_part2_ops0_facts op hopl).2
  · exact (List.forall_iff_forall_mem.mp main_part3_ops0_facts op hopl).2
  · exact (List.forall_iff_forall_mem.mp main_part4_ops0_facts op hopl).2
  · exact (List.forall_iff_forall_mem.mp main_part5_ops0_facts op hopl).2

variable (m : (ℓ : Loc nD τ sig) → Buf (Elt F) ℓ)

/-- Core `c`'s buffers when the launch is reached: the launch memory after the host operations, in order. -/
abbrev V (c : Dev nD) (b : Ref sig .tc) : Buf (Elt F) ((c : Thread nD τ).loc b) :=
  StableHlo.after (List.flatten [main_part0_ops0, main_part0_ops1, main_part0_ops2, main_part0_ops3, main_part0_ops4, main_part0_ops5, main_part0_ops6, main_part0_ops7, main_part0_ops8, main_part1_ops0, main_part2_ops0, main_part3_ops0, main_part4_ops0, main_part5_ops0]) (fun b => m (c, b)) b

/-- @main is the host operations, stretch by stretch, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [main_part0_ops0, main_part0_ops1, main_part0_ops2, main_part0_ops3, main_part0_ops4, main_part0_ops5, main_part0_ops6, main_part0_ops7, main_part0_ops8, main_part1_ops0, main_part2_ops0, main_part3_ops0, main_part4_ops0, main_part5_ops0]
    (by simp only [List.Forall]; exact ⟨main_part0_ops0_sub, main_part0_ops1_sub, main_part0_ops2_sub, main_part0_ops3_sub, main_part0_ops4_sub, main_part0_ops5_sub, main_part0_ops6_sub, main_part0_ops7_sub, main_part0_ops8_sub, main_part1_ops0_sub, main_part2_ops0_sub, main_part3_ops0_sub, main_part4_ops0_sub, main_part5_ops0_sub⟩)
    (by simp only [List.Forall]; exact ⟨main_part0_ops0_fresh, main_part0_ops1_fresh, main_part0_ops2_fresh, main_part0_ops3_fresh, main_part0_ops4_fresh, main_part0_ops5_fresh, main_part0_ops6_fresh, main_part0_ops7_fresh, main_part0_ops8_fresh, main_part1_ops0_fresh, main_part2_ops0_fresh, main_part3_ops0_fresh, main_part4_ops0_fresh, main_part5_ops0_fresh⟩) main_chain_windows

/-- The launch finds argument 0 as launched. -/
theorem V_main_arg0 (c : Dev nD) : V m c main_arg0 = m ((c : Thread nD τ).loc main_arg0) :=
  StableHlo.after_of_forall_not_mem (b := Proc.devRef .tc main_arg0) _ _ (fun op hop => keeps_all op hop main_arg0 (by decide))
/-- The launch finds argument 1 as launched. -/
theorem V_main_arg1 (c : Dev nD) : V m c main_arg1 = m ((c : Thread nD τ).loc main_arg1) :=
  StableHlo.after_of_forall_not_mem (b := Proc.devRef .tc main_arg1) _ _ (fun op hop => keeps_all op hop main_arg1 (by decide))
/-- The launch finds argument 2 as launched. -/
theorem V_main_arg2 (c : Dev nD) : V m c main_arg2 = m ((c : Thread nD τ).loc main_arg2) :=
  StableHlo.after_of_forall_not_mem (b := Proc.devRef .tc main_arg2) _ _ (fun op hop => keeps_all op hop main_arg2 (by decide))
/-- The launch finds argument 3 as launched. -/
theorem V_main_arg3 (c : Dev nD) : V m c main_arg3 = m ((c : Thread nD τ).loc main_arg3) :=
  StableHlo.after_of_forall_not_mem (b := Proc.devRef .tc main_arg3) _ _ (fun op hop => keeps_all op hop main_arg3 (by decide))

end Cert.KernelIdeal.Host

end
-- ==== Proof.KIBody.lean ====
/-
  The body of the weighted-sum kernel at one grid point, for the program `KernelIdeal`.

  One grid point (b, h) holds a block of the two weight arrays, of shape [1, 8, 128, 512] each, a block of
  the sampled tensor of shape [8, 3, 1, 128, 512], and a block of the result of shape [1, 3, 128, 512].
  The body reads the three input blocks whole, forms for every rank r the product of the two weights,
  multiplies it with the sampled values of every colour and adds over the eight ranks; it then writes
  the whole result block. It also reads the result block before writing it, and uses nothing of what it read.

  Stated here: the result block after the body is the one stored piece, a function of the three input
  blocks alone (`outBlock`), whatever the block held before; the input blocks are left as they were.
-/
import proofs.«180827_j9612136808561_2_alg».proof.Proof.Gen.KernelIdeal.Launch
import proofs.«180827_j9612136808561_2_alg».proof.Proof.Gen.KernelIdeal.Skeleton
import proofs.«180827_j9612136808561_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole block of a weight window. -/
abbrev rW : Rect S1x8x128x512 := Rect.unit (s := S1x8x128x512) ![0, 0, 0, 0] S1x8x128x512.size inb_S1x8x128x512_S1x8x128x512_0_0_0_0
/-- The whole block of the sampled tensor's window. -/
abbrev rS : Rect S8x3x1x128x512 := Rect.unit (s := S8x3x1x128x512) ![0, 0, 0, 0, 0] S8x3x1x128x512.size inb_S8x3x1x128x512_S8x3x1x128x512_0_0_0_0_0
/-- The whole block of the result's window. -/
abbrev rO : Rect S1x3x128x512 := Rect.unit (s := S1x3x128x512) ![0, 0, 0, 0] S1x3x128x512.size inb_S1x3x128x512_S1x3x128x512_0_0_0_0

/-- What the body leaves in the result block: its one store, the sum over the ranks of weight product
    times sampled value, computed from the three input blocks. -/
def outBlock (x0 : Vec F S1x8x128x512 .f32) (x1 : Vec F S1x8x128x512 .f32) (x2 : Vec F S8x3x1x128x512 .f32) : Vec F S1x3x128x512 .f32 :=
  View.canon [⟨rO, k0_pay1 (View.ld x0 rW) (View.ld x1 rW) (View.ld x2 rS)⟩]

/-- The one store covers the whole result block. -/
theorem cover (p0 : Vec F S1x3x128x512 .f32) (y : S1x3x128x512.Idx) :
    ∃ pc ∈ ([⟨rO, p0⟩] : List (View.Piece (Elt F) S1x3x128x512 .f32)), y ∈ pc.1.set :=
  View.cover_of_tiled [⟨rO, p0⟩] S1x3x128x512.size (by rfl) y

set_option maxHeartbeats 1000000 in
/-- The body on whole staging buffers: the three inputs at contents `x0 x1 x2`, the result buffer at anything,
    run to the continuation with the inputs unchanged and the result buffer at `outBlock x0 x1 x2`. -/
theorem sound_kernel (c : Dev nD) (E : Set ℕ) (i : grid0.Coords)
    (arg2 : Memref sig .tc .vmem S1x8x128x512 .f32) (harg2 : arg2.IsWhole)
    (arg3 : Memref sig .tc .vmem S1x8x128x512 .f32) (harg3 : arg3.IsWhole)
    (arg4 : Memref sig .tc .vmem S8x3x1x128x512 .f32) (harg4 : arg4.IsWhole)
    (arg5 : Memref sig .tc .vmem S1x3x128x512 .f32) (harg5 : arg5.IsWhole)
    (x0 : Vec F S1x8x128x512 .f32) (x1 : Vec F S1x8x128x512 .f32) (x2 : Vec F S8x3x1x128x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlock x0 x1 x2)) -∗ K ⟨⟩))
      ⊢ wp frame (wpE (defs₀ (F := F)) Variants.none c none) E (cc0__weighted_sum_kernel i arg2 harg2 arg3 harg3 arg4 harg4 arg5 harg5) K := by
  simp only [cc0__weighted_sum_kernel_eq_skeleton]; unfold cc0__weighted_sum_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

end Cert.KernelIdeal.Body

end
-- ==== Proof.KIFrame.lean ====
/-
  The frame of `KernelIdeal`: the program runs to its end, faults nowhere, and leaves its four argument arrays unchanged;
  and the result array after the run is named.

  The launch walks a 4 × 4 grid. At point (b, h) the two weight windows hold rows h·128 … h·128+127 of batch b of
  their arrays, all eight ranks; the sampled tensor's window holds the same rows of batch b for all ranks and colours;
  the result window holds those rows of batch b for the three colours. Every input block is fetched at every point and
  the result block is written back at every point. The proof data says: after the body each input's staging buffer still
  holds its block, and the result's holds the body's store (`outBlock`) of the three input blocks. With the body's
  triple this is the launch's obligation at every point, and the library's frame run gives the post: every window's array
  at what the write-backs make of it, every other buffer as the launch found it.
-/
import proofs.«180827_j9612136808561_2_alg».proof.Proof.KIHost
import proofs.«180827_j9612136808561_2_alg».proof.Proof.KIBody

set_option maxRecDepth 16384

noncomputable section

namespace Cert.KernelIdeal.Fr

open Cert.KernelIdeal Cert.KernelIdeal.Gen Cert.KernelIdeal.Host Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The frame claim's post from the frame run's: the two weight arrays are staged inputs, never written back; the
    image and the lookup table are staged by no window and keep their launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-- The proof data of the launch on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outBlock (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch's obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, and every final state has every window's array at what the
    write-backs make of it and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The run with the result array named: what the write-backs make of it; the arguments unchanged. -/
theorem run_named : θ_run defs (onTc (τ := τ) (main (F := F))) ⟨m, fun _ => 0, ρ⟩ (fun r => ∀ c : Dev nD,
      r.2.mem ((c.tc : Thread nD τ).loc main_v245) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 3,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.Fr

end
-- ==== Proof.Spec.lean ====
/-
  The function both programs compute, stated once over the argument arrays.

  For a batch b, a colour c and a pixel (h, w), the result is the sum over the eight ranks r of the product of the
  two weights at (b, r, h, w) with the sampled value at (r, c, b, h, w). Nothing else is said here: the sampled tensor
  is whatever array the caller passes.
-/
import Idealize.ShloMosaic.PureOps.Ideal
import Idealize.ShloMosaic.Lib.ValueIdx

noncomputable section

open scoped BigOperators

namespace Cert.Spec

open Idealize.ShloMosaic Idealize.ShloMosaic.ValueIdx

/-- The weight arrays' shape, [batch, rank, height, width]. -/
abbrev SW : Shape := ⟨4, ![4, 8, 512, 512]⟩
/-- The sampled tensor's shape, [rank, colour, batch, height, width]. -/
abbrev SX : Shape := ⟨5, ![8, 3, 4, 512, 512]⟩
/-- The result's shape, [batch, colour, height, width]. -/
abbrev SO : Shape := ⟨4, ![4, 3, 512, 512]⟩

/-- The weighted sum over the ranks at one batch, colour and pixel. -/
def wsumAt (a0 a1 : SW.Idx → EReal) (x : SX.Idx → EReal) (b : Fin 4) (c : Fin 3) (h w : Fin 512) : EReal :=
  ∑ r : Fin 8, (a0 (ix4 b r h w) * a1 (ix4 b r h w)) * x (ix5 r c b h w)

/-- The whole result array. -/
def wsum (a0 a1 : SW.Idx → EReal) (x : SX.Idx → EReal) : SO.Idx → EReal :=
  fun i => wsumAt a0 a1 x (i 0) (i 1) (i 2) (i 3)

theorem wsum_ix4 (a0 a1 : SW.Idx → EReal) (x : SX.Idx → EReal) (b : Fin 4) (c : Fin 3) (h w : Fin 512) :
    wsum a0 a1 x (ix4 b c h w) = wsumAt a0 a1 x b c h w := rfl

end Cert.Spec

end
-- ==== Proof.KIPay.lean ====
/-
  The kernel body's stored value read at one element, at the ideal instance.

  The body's arithmetic is: drop the unit batch axis of the two weight blocks and multiply them; give the product a unit
  colour axis and repeat it over the three colours; drop the unit batch axis of the sampled block; multiply; add over the
  rank axis; put a unit batch axis in front. Read at the element (·, c, p, q) of the stored block this is the sum over the
  eight ranks r of weight(0, r, p, q) · weight'(0, r, p, q) · sampled(r, c, 0, p, q): each reshaping reads one element of its
  operand (same row-major position), the repetition reads the unit colour, and the addition over one axis is the finite sum
  over that axis's coordinates.
-/
import proofs.«180827_j9612136808561_2_alg».proof.Proof.Gen.KernelIdeal.Skeleton
import proofs.«180827_j9612136808561_2_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen
open Idealize.ShloMosaic Idealize.ShloMosaic.ValueIdx

variable {α : Type}

/-- The index of the [8, 3, 128, 512] product that the sum over ranks reads at rank r for the reduced index (c, p, q). -/
theorem lift_eq (c : Fin 3) (p : Fin 128) (q : Fin 512) (r : Fin 8) :
    reduces_S8x3x128x512_S3x128x512.lift (ix3 c p q) r = ix4 r c p q := by
  funext a
  apply Fin.ext
  match a with
  | ⟨0, _⟩ => rfl
  | ⟨1, _⟩ => rfl
  | ⟨2, _⟩ => rfl
  | ⟨3, _⟩ => rfl

/-- The addition over the rank axis, at the ideal instance, is the sum over the eight ranks. -/
theorem red_at (v : FVec Ideal S8x3x128x512 .f32) (hφ : FKind.Formats .f32)
    (hacc : (0x00000000#32 : BitVec FTy.f32.bits) = FKind.add.neutral .f32 hφ) (c : Fin 3) (p : Fin 128) (q : Fin 512) :
    multiReduction .add [0] S3x128x512 v 0x00000000#32 reduces_S8x3x128x512_S3x128x512 hφ hacc (ix3 c p q)
      = ∑ r : Fin 8, v (ix4 r c p q) :=
  (Ideal.multiReduction_add_single v _ reduces_S8x3x128x512_S3x128x512 hφ hacc (ix3 c p q)).trans
    (Finset.sum_congr rfl fun r _ => congrArg v (lift_eq c p q r))

/-- A unit colour axis put between rank and rows: (r, ·, p, q) reads (r, p, q). -/
theorem addMid_at (x : S8x128x512.Idx → α) (h : S8x128x512.ShapeCasts S8x1x128x512) (r : Fin 8) (u : Fin 1) (p : Fin 128) (q : Fin 512) :
    shapeCast S8x1x128x512 x h (ix4 r u p q) = x (ix3 r p q) :=
  shapeCast_apply x h _ _ (by
    have hu : u.val = 0 := by omega
    rw [Shape.rowMajor_val_three, Shape.rowMajor_val_four]
    show (r.val * 128 + p.val) * 512 + q.val = ((r.val * 1 + u.val) * 128 + p.val) * 512 + q.val
    rw [hu]; omega)

/-- The unit batch axis of the sampled block dropped: (r, c, p, q) reads (r, c, 0, p, q). -/
theorem dropMid_at (x : S8x3x1x128x512.Idx → α) (h : S8x3x1x128x512.ShapeCasts S8x3x128x512) (r : Fin 8) (c : Fin 3) (p : Fin 128) (q : Fin 512) :
    shapeCast S8x3x128x512 x h (ix4 r c p q) = x (ix5 r c (0 : Fin 1) p q) :=
  shapeCast_apply x h _ _ (by
    rw [Shape.rowMajor_val_five, Shape.rowMajor_val_four]
    show (((r.val * 3 + c.val) * 1 + 0) * 128 + p.val) * 512 + q.val = ((r.val * 3 + c.val) * 128 + p.val) * 512 + q.val
    omega)

/-- The weight product repeated over the colours: (r, c, p, q) reads (r, 0, p, q). -/
theorem bcast_at (x : S8x1x128x512.Idx → α) (h : S8x1x128x512.Broadcasts S8x3x128x512) (r : Fin 8) (c : Fin 3) (p : Fin 128) (q : Fin 512) :
    broadcastTo S8x3x128x512 x h (ix4 r c p q) = x (ix4 r (0 : Fin 1) p q) :=
  broadcastTo_apply x h _ _ (fun a => by
    match a with
    | ⟨0, _⟩ => rfl
    | ⟨1, _⟩ => rfl
    | ⟨2, _⟩ => rfl
    | ⟨3, _⟩ => rfl)

/-- The stored value at (u, c, p, q): the sum over the ranks of weight · weight' · sampled. -/
theorem pay_at (x0 x1 : Vec Ideal S1x8x128x512 .f32) (x2 : Vec Ideal S8x3x1x128x512 .f32)
    (u : Fin 1) (c : Fin 3) (p : Fin 128) (q : Fin 512) :
    k0_pay1 (F := Ideal) x0 x1 x2 (ix4 u c p q)
      = ∑ r : Fin 8, (x0 (ix4 (0 : Fin 1) r p q) * x1 (ix4 (0 : Fin 1) r p q)) * x2 (ix5 r c (0 : Fin 1) p q) := by
  unfold k0_pay1
  refine (shapeCast_abc_1abc_apply _ _ u c p q).trans ?_
  refine (red_at _ _ _ c p q).trans ?_
  refine Finset.sum_congr rfl fun r _ => ?_
  refine (mulf_apply _ _ (ix4 r c p q)).trans ?_
  refine congrArg₂ (· * ·) ?_ ?_
  · refine (bcast_at _ _ r c p q).trans ?_
    refine (addMid_at _ _ r 0 p q).trans ?_
    refine (mulf_apply _ _ (ix3 r p q)).trans ?_
    exact congrArg₂ (· * ·) (shapeCast_1abc_abc_apply _ _ r p q) (shapeCast_1abc_abc_apply _ _ r p q)
  · exact dropMid_at _ _ r c p q

end Cert.KernelIdeal.Pay

end
-- ==== Proof.KIValue.lean ====
/-
  The result array of `KernelIdeal` after its run, as one function of the arrays the launch finds.

  At grid point (b, h) the result window's block is rows h·128 … h·128+127 of batch b, all three colours; the weight
  windows' blocks are the same rows of batch b for all ranks, and the sampled tensor's block the same rows of batch b for
  all ranks and colours. So element (·, c, p, q) of what the point writes back is the weighted sum over the ranks at
  batch b, colour c, pixel (h·128 + p, q) of the arrays themselves. The sixteen blocks tile the result array, so after the
  run the array is that weighted sum everywhere.
-/
import proofs.«180827_j9612136808561_2_alg».proof.Proof.KIFrame
import proofs.«180827_j9612136808561_2_alg».proof.Proof.KIPay
import Idealize.ShloMosaic.Lib.Pipeline.Value

set_option maxRecDepth 16384

noncomputable section

open scoped BigOperators

namespace Cert.KernelIdeal.Val

open Cert.KernelIdeal Cert.KernelIdeal.Gen Cert.KernelIdeal.Host Cert.KernelIdeal.Body Cert.KernelIdeal.Fr Cert.KernelIdeal.Pay Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- The windows' block indices at a grid point, decided over the sixteen points: the weight windows and the result
    window sit at (b, 0, h, 0), the sampled tensor's at (0, 0, b, h, 0), with b and h at most 3. -/
theorem idx_facts : ∀ t : Fin cfg0.N,
    win0_0.index t (0 : Fin 4) = win0_3.index t (0 : Fin 4) ∧ win0_0.index t (1 : Fin 4) = 0
    ∧ win0_0.index t (2 : Fin 4) = win0_3.index t (2 : Fin 4) ∧ win0_0.index t (3 : Fin 4) = 0
    ∧ win0_1.index t (0 : Fin 4) = win0_3.index t (0 : Fin 4) ∧ win0_1.index t (1 : Fin 4) = 0
    ∧ win0_1.index t (2 : Fin 4) = win0_3.index t (2 : Fin 4) ∧ win0_1.index t (3 : Fin 4) = 0
    ∧ win0_2.index t (0 : Fin 5) = 0 ∧ win0_2.index t (1 : Fin 5) = 0
    ∧ win0_2.index t (2 : Fin 5) = win0_3.index t (0 : Fin 4) ∧ win0_2.index t (3 : Fin 5) = win0_3.index t (2 : Fin 4)
    ∧ win0_2.index t (4 : Fin 5) = 0
    ∧ win0_3.index t (1 : Fin 4) = 0 ∧ win0_3.index t (3 : Fin 4) = 0
    ∧ win0_3.index t (0 : Fin 4) ≤ 3 ∧ win0_3.index t (2 : Fin 4) ≤ 3 :=
  (by decide +kernel : ∀ t : Fin grid0.N, _)

/-- Every (batch, row block) is some grid point's. -/
theorem idx_onto : ∀ (q0 : Fin 4) (q2 : Fin 4), ∃ t : Fin cfg0.N, win0_3.index t = ![q0.val, 0, q2.val, 0] :=
  (by decide +kernel : ∀ (q0 : Fin 4) (q2 : Fin 4), ∃ t : Fin grid0.N, win0_3.index t = ![q0.val, 0, q2.val, 0])

/-- The first weight block at (0, r, p, q) is the first weight array at (b, r, h·128 + p, q). -/
theorem read0 (c : Dev nD) (t : Fin cfg0.N) (r : Fin 8) (p : Fin 128) (q : Fin 512) (k : S4x8x512x512.Idx)
    (h0 : (k 0).val = win0_3.index t (0 : Fin 4)) (h1 : (k 1).val = r.val)
    (h2 : (k 2).val = win0_3.index t (2 : Fin 4) * 128 + p.val) (h3 : (k 3).val = q.val) :
    (iblk m c 0 t : Vec Ideal S1x8x128x512 .f32) (ix4 (0 : Fin 1) r p q) = (V m c main_arg0 : S4x8x512x512.Idx → EReal) k := by
  obtain ⟨e0, e1, e2, e3, -⟩ := idx_facts t
  unfold iblk
  rw [View.read_apply]
  show (V m c main_arg0 : S4x8x512x512.Idx → EReal) _ = (V m c main_arg0 : S4x8x512x512.Idx → EReal) k
  refine congrArg (V m c main_arg0 : S4x8x512x512.Idx → EReal) ?_
  funext a
  apply Fin.ext
  match a with
  | ⟨0, _⟩ => show win0_0.index t (0 : Fin 4) * 1 + 1 * (0 : Fin 1).val = (k 0).val; rw [e0, h0]; simp
  | ⟨1, _⟩ => show win0_0.index t (1 : Fin 4) * 8 + 1 * r.val = (k 1).val; rw [e1, h1]; omega
  | ⟨2, _⟩ => show win0_0.index t (2 : Fin 4) * 128 + 1 * p.val = (k 2).val; rw [e2, h2]; omega
  | ⟨3, _⟩ => show win0_0.index t (3 : Fin 4) * 512 + 1 * q.val = (k 3).val; rw [e3, h3]; omega

/-- The second weight block likewise. -/
theorem read1 (c : Dev nD) (t : Fin cfg0.N) (r : Fin 8) (p : Fin 128) (q : Fin 512) (k : S4x8x512x512.Idx)
    (h0 : (k 0).val = win0_3.index t (0 : Fin 4)) (h1 : (k 1).val = r.val)
    (h2 : (k 2).val = win0_3.index t (2 : Fin 4) * 128 + p.val) (h3 : (k 3).val = q.val) :
    (iblk m c 1 t : Vec Ideal S1x8x128x512 .f32) (ix4 (0 : Fin 1) r p q) = (V m c main_arg1 : S4x8x512x512.Idx → EReal) k := by
  obtain ⟨-, -, -, -, e0, e1, e2, e3, -⟩ := idx_facts t
  unfold iblk
  rw [View.read_apply]
  show (V m c main_arg1 : S4x8x512x512.Idx → EReal) _ = (V m c main_arg1 : S4x8x512x512.Idx → EReal) k
  refine congrArg (V m c main_arg1 : S4x8x512x512.Idx → EReal) ?_
  funext a
  apply Fin.ext
  match a with
  | ⟨0, _⟩ => show win0_1.index t (0 : Fin 4) * 1 + 1 * (0 : Fin 1).val = (k 0).val; rw [e0, h0]; simp
  | ⟨1, _⟩ => show win0_1.index t (1 : Fin 4) * 8 + 1 * r.val = (k 1).val; rw [e1, h1]; omega
  | ⟨2, _⟩ => show win0_1.index t (2 : Fin 4) * 128 + 1 * p.val = (k 2).val; rw [e2, h2]; omega
  | ⟨3, _⟩ => show win0_1.index t (3 : Fin 4) * 512 + 1 * q.val = (k 3).val; rw [e3, h3]; omega

/-- The sampled tensor's block at (r, c, 0, p, q) is the sampled tensor at (r, c, b, h·128 + p, q). -/
theorem read2 (c : Dev nD) (t : Fin cfg0.N) (r : Fin 8) (cc : Fin 3) (p : Fin 128) (q : Fin 512) (k : S8x3x4x512x512.Idx)
    (h0 : (k 0).val = r.val) (h1 : (k 1).val = cc.val) (h2 : (k 2).val = win0_3.index t (0 : Fin 4))
    (h3 : (k 3).val = win0_3.index t (2 : Fin 4) * 128 + p.val) (h4 : (k 4).val = q.val) :
    (iblk m c 2 t : Vec Ideal S8x3x1x128x512 .f32) (ix5 r cc (0 : Fin 1) p q) = (V m c main_v244 : S8x3x4x512x512.Idx → EReal) k := by
  obtain ⟨-, -, -, -, -, -, -, -, e0, e1, e2, e3, e4, -⟩ := idx_facts t
  unfold iblk
  rw [View.read_apply]
  show (V m c main_v244 : S8x3x4x512x512.Idx → EReal) _ = (V m c main_v244 : S8x3x4x512x512.Idx → EReal) k
  refine congrArg (V m c main_v244 : S8x3x4x512x512.Idx → EReal) ?_
  funext a
  apply Fin.ext
  match a with
  | ⟨0, _⟩ => show win0_2.index t (0 : Fin 5) * 8 + 1 * r.val = (k 0).val; rw [e0, h0]; omega
  | ⟨1, _⟩ => show win0_2.index t (1 : Fin 5) * 3 + 1 * cc.val = (k 1).val; rw [e1, h1]; omega
  | ⟨2, _⟩ => show win0_2.index t (2 : Fin 5) * 1 + 1 * (0 : Fin 1).val = (k 2).val; rw [e2, h2]; simp
  | ⟨3, _⟩ => show win0_2.index t (3 : Fin 5) * 128 + 1 * p.val = (k 3).val; rw [e3, h3]; omega
  | ⟨4, _⟩ => show win0_2.index t (4 : Fin 5) * 512 + 1 * q.val = (k 4).val; rw [e4, h4]; omega

/-- What point `t` writes back is its block of the weighted sum of the arrays the launch finds. -/
theorem flushed_eq (c : Dev nD) (t : Fin cfg0.N) :
    (dats m 0 c).flushed 3 t = ((cfg0.win 3).blk t).view.read (Elt Ideal)
      (wsum (V m c main_arg0) (V m c main_arg1) (V m c main_v244)) := by
  show (cfg0.win 3).cut (grid0.coords t) ((dats m 0 c).after 3 t) = _
  rw [after3]
  unfold outBlock
  rw [View.canon_unit_zero hz4]
  simp only [View.ld_unit_zero (S := S1x8x128x512) hz4, View.ld_unit_zero (S := S8x3x1x128x512) hz5]
  funext j
  revert j
  intro (j : S1x3x128x512.Idx)
  obtain ⟨u, cc, p, q, rfl⟩ : ∃ (u : Fin 1) (cc : Fin 3) (p : Fin 128) (q : Fin 512), j = ix4 u cc p q :=
    ⟨j 0, j 1, j 2, j 3, eq_ix4 j⟩
  obtain ⟨-, -, -, -, -, -, -, -, -, -, -, -, -, f1, f3, -⟩ := idx_facts t
  have hu : u.val = 0 := by omega
  have E0 : ((((cfg0.win 3).blk t).view.emb (ix4 u cc p q) : S4x3x512x512.Idx) 0).val = win0_3.index t (0 : Fin 4) := by
    show win0_3.index t (0 : Fin 4) * 1 + 1 * u.val = _; omega
  have E1 : ((((cfg0.win 3).blk t).view.emb (ix4 u cc p q) : S4x3x512x512.Idx) 1).val = cc.val := by
    show win0_3.index t (1 : Fin 4) * 3 + 1 * cc.val = _; omega
  have E2 : ((((cfg0.win 3).blk t).view.emb (ix4 u cc p q) : S4x3x512x512.Idx) 2).val = win0_3.index t (2 : Fin 4) * 128 + p.val := by
    show win0_3.index t (2 : Fin 4) * 128 + 1 * p.val = _; omega
  have E3 : ((((cfg0.win 3).blk t).view.emb (ix4 u cc p q) : S4x3x512x512.Idx) 3).val = q.val := by
    show win0_3.index t (3 : Fin 4) * 512 + 1 * q.val = _; omega
  show k0_pay1 (F := Ideal) (iblk m c 0 t) (iblk m c 1 t) (iblk m c 2 t) (ix4 u cc p q)
    = wsum (V m c main_arg0) (V m c main_arg1) (V m c main_v244) (((cfg0.win 3).blk t).view.emb (ix4 u cc p q))
  refine (pay_at (iblk m c 0 t) (iblk m c 1 t) (iblk m c 2 t) u cc p q).trans ?_
  unfold wsum wsumAt
  refine Finset.sum_congr rfl fun r _ => ?_
  exact congrArg₂ (· * ·)
    (congrArg₂ (· * ·) (read0 m c t r p q _ E0 rfl E2 E3) (read1 m c t r p q _ E0 rfl E2 E3))
    (read2 m c t r cc p q _ rfl E1 E0 E2 E3)

/-- An index of the result array is in point `t`'s block iff each coordinate is in the block's range on its axis. -/
theorem mem_blk (t : Fin cfg0.N) (i : S4x3x512x512.Idx) :
    i ∈ ((cfg0.win 3).blk t).view.set ↔ ∀ a : Fin 4, win0_3.index t a * S1x3x128x512.size a ≤ (i a).val
      ∧ (i a).val < win0_3.index t a * S1x3x128x512.size a + S1x3x128x512.size a := by
  show i ∈ ((View.whole main_v245).slice (win0_3.rect t)).set ↔ _
  rw [View.set_slice_whole, Rect.mem_set_unit]
  exact Iff.rfl

/-- Every index of the result array lies in the block of the point (batch, row / 128). -/
theorem cover (i : S4x3x512x512.Idx) : ∃ t : Fin cfg0.N, (cfg0.win 3).flush t = true ∧ i ∈ ((cfg0.win 3).blk t).view.set := by
  have hi0 : (i 0).val < 4 := (i 0).isLt
  have hi1 : (i 1).val < 3 := (i 1).isLt
  have hi2 : (i 2).val < 512 := (i 2).isLt
  have hi3 : (i 3).val < 512 := (i 3).isLt
  obtain ⟨t, ht⟩ := idx_onto ⟨(i 0).val, hi0⟩ ⟨(i 2).val / 128, by omega⟩
  have q0 : win0_3.index t (0 : Fin 4) = (i 0).val := congrFun ht 0
  have q1 : win0_3.index t (1 : Fin 4) = 0 := congrFun ht 1
  have q2 : win0_3.index t (2 : Fin 4) = (i 2).val / 128 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 3 ≤ (i 1).val ∧ (i 1).val < win0_3.index t (1 : Fin 4) * 3 + 3; omega
  | ⟨2, _⟩ => show win0_3.index t (2 : Fin 4) * 128 ≤ (i 2).val ∧ (i 2).val < win0_3.index t (2 : Fin 4) * 128 + 128; omega
  | ⟨3, _⟩ => show win0_3.index t (3 : Fin 4) * 512 ≤ (i 3).val ∧ (i 3).val < win0_3.index t (3 : Fin 4) * 512 + 512; omega

/-- The result array after the run: the weighted sum of the arrays the launch finds. -/
theorem final (c : Dev nD) :
    (dats m 0 c).arrAt 3 cfg0.N = wsum (V m c main_arg0) (V m c main_arg1) (V m c main_v244) :=
  (dats m 0 c).arrAt_eq_of_cover 3 _ (fun t _ => flushed_eq m c t) cover

/-- The run, read: the result array is the weighted sum of the two weight arguments and of the sampled tensor the host
    operations computed; the arguments are unchanged. -/
theorem run_value : θ_run defs (onTc (τ := τ) (main (F := Ideal))) ⟨m, fun _ => 0, ρ⟩ (fun r => ∀ c : Dev nD,
      r.2.mem ((c.tc : Thread nD τ).loc main_v245)
        = wsum (m ((c.tc : Thread nD τ).loc main_arg0)) (m ((c.tc : Thread nD τ).loc main_arg1)) (V m c main_v244)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans ((final m c).trans (by rw [V_main_arg0, V_main_arg1])), (h c).2⟩)
    (run_named m ρ)

end Cert.KernelIdeal.Val

end
-- ==== Proof.LibNary3.lean ====
/-
  A host operation with three operands, read at its result.

  A concatenation of three arrays prints as one operation over the family of its three operand references. Its result,
  read at the result reference, is the operation's function of the three operands' contents, each taken at its own
  reference (not at the family indexed by a bound variable), so that the contents of the operands can in turn be read
  where they were written. The three contents are handed over as the selector `tri`, which at the literal indices
  0, 1, 2 is its first, second and third argument by computation. The primed form leaves the result reference out of
  the simplifier's index, like the library's lemmas for the other arities. Last, a small fact for telling which buffers a list of operations writes.
-/
import Idealize.ShloMosaic.Lib.StableHlo.Run

noncomputable section

namespace Idealize.ShloMosaic.StableHlo

universe u

/-- The family over three indices with the given three members. -/
def tri {α : Fin 3 → Sort u} (a : α 0) (b : α 1) (c : α 2) : (k : Fin 3) → α k
  | ⟨0, _⟩ => a
  | ⟨1, _⟩ => b
  | ⟨2, _⟩ => c

theorem tri_zero {α : Fin 3 → Sort u} (a : α 0) (b : α 1) (c : α 2) : tri a b c 0 = a := rfl
theorem tri_one {α : Fin 3 → Sort u} (a : α 0) (b : α 1) (c : α 2) : tri a b c 1 = b := rfl
theorem tri_two {α : Fin 3 → Sort u} (a : α 0) (b : α 1) (c : α 2) : tri a b c 2 = c := rfl

variable {τ : Topo} {sig : RefSig} {Val : EltTy → Type}
variable {x a b y : Ref sig .tc}

/-- The result of a three-operand operation at its result reference: its function of the three operands' contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (tri (α := fun k => ((![x, a, b] : Fin 3 → Ref sig .tc) k).ty.Contents Val)
            (F (Proc.devRef .tc x)) (F (Proc.devRef .tc a)) (F (Proc.devRef .tc b))) := by
  rw [nary_result]; congr 1; funext k; fin_cases k <;> rfl

/-- The same, with the result reference left out of the simplifier's index. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (tri (α := fun k => ((![x, a, b] : Fin 3 → Ref sig .tc) k).ty.Contents Val)
            (F (Proc.devRef .tc x)) (F (Proc.devRef .tc a)) (F (Proc.devRef .tc b))) :=
  nary3_result f hxs hy F

/-- An operation whose written set is the one buffer `y` of a list of references writes within that list. -/
theorem writes_sub_of {y : Ref sig .tc} {S : Finset (DevRef τ sig)} {Ws : List (Ref sig .tc)}
    (hS : S = {Proc.devRef .tc y}) (hy : y ∈ Ws) : S ⊆ (Ws.map (Proc.devRef (τ := τ) .tc)).toFinset := by
  rw [hS, Finset.singleton_subset_iff, List.mem_toFinset]
  exact List.mem_map.mpr ⟨y, hy, rfl⟩

end Idealize.ShloMosaic.StableHlo

end
-- ==== Proof.KIStages.lean ====
/- The host operations of KernelIdeal before its launch, list by list: the sampled tensor's buffer ends at the reference's stage of the image and the table.
   The operations are single-assignment: each reads buffers written before it (or arguments) and writes a new one. Every list is
   cut into pieces, a concatenation always alone in its piece. For each piece, over ANY contents W before it: if every buffer still
   read later holds its stage of the arguments, then after the piece every buffer still read later does — a buffer the piece does
   not write keeps its contents; one it writes is read off the piece's operations. The table of those buffers at each cut is
   computed from the operations' operands; the lemmas are chained through the fold of a concatenation being the folds in turn. -/
import proofs.«180827_j9612136808561_2_alg».proof.Proof.Gen.KernelIdeal.Launch
import proofs.«180827_j9612136808561_2_alg».proof.Proof.RefRead
import proofs.«180827_j9612136808561_2_alg».proof.Proof.LibNary3
import Idealize.ShloMosaic.Lib.Pipeline.Frame

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]

/-- One piece's fold read at a buffer: each operation's result at its own buffer, any other buffer as it was. -/
macro "read_results" : tactic =>
  `(tactic| (simp (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne']))

/-- A piece of `main_part0_ops0`. -/
abbrev main_part0_ops0_p0 : List (HloOp τ sig (Elt F)) :=
  [ StableHlo.unary main_arg3 main_v0 ((transpose S8x107811 [1, 0] · transposes_S107811x8_S8x107811_1_0) : (⟨S107811x8, .f32⟩ : BufTy).Contents (Elt F) → (⟨S8x107811, .f32⟩ : BufTy).Contents (Elt F)),
    StableHlo.reshape main_v0 main_v1 rfl shapeCasts_S8x107811_S8x3x33x33x33,
    StableHlo.nullary main_cst (constant S_ .f32 0x42000000#32),
    StableHlo.unary main_cst main_v2 (broadcastInDim S4x3x512x512 ![] bcast_S_S4x3x512x512 : (⟨S_, .f32⟩ : BufTy).Contents (Elt F) → (⟨S4x3x512x512, .f32⟩ : BufTy).Contents (Elt F)),
    StableHlo.binary main_arg2 main_v2 main_v3 (mulf : (⟨S4x3x512x512, .f32⟩ : BufTy).Contents (Elt F) → (⟨S4x3x512x512, .f32⟩ : BufTy).Contents (Elt F) → (⟨S4x3x512x512, .f32⟩ : BufTy).Contents (Elt F)),
    StableHlo.nullary main_cst_0 (constant S_ .f32 0x00000000#32),
    StableHlo.nullary main_cst_1 (constant S_ .f32 0x42000000#32) ]
abbrev wr_main_part0_ops0_p0 : List (Ref sig .tc) := [main_v0, main_v1, main_cst, main_v2, main_v3, main_cst_0, main_cst_1]
set_option maxRecDepth 16384 in
set_option maxHeartbeats 40000000 in
theorem main_part0_ops0_p0_writes : (main_part0_ops0_p0 : List (HloOp τ sig (Elt F))).Forall fun op =>
    op.writes ⊆ (wr_main_part0_ops0_p0.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_main_part0_ops0_p0 (W : Valuation τ sig (Elt F)) (x2 : (⟨S4x3x512x512, .f32⟩ : BufTy).Contents (Elt F)) (x3 : (⟨S107811x8, .f32⟩ : BufTy).Contents (Elt F))
    (h_main_arg2 : W (Proc.devRef .tc main_arg2) = x2)
    (h_main_arg3 : W (Proc.devRef .tc main_arg3) = x3)
    : (after main_part0_ops0_p0 W (Proc.devRef .tc main_cst_0) = Cert.ReferenceIdeal.ReadP.val_main_cst_0 (F := F))
      ∧ (after main_part0_ops0_p0 W (Proc.devRef .tc main_cst_1) = Cert.ReferenceIdeal.ReadP.val_main_cst_1 (F := F))
      ∧ (after main_part0_ops0_p0 W (Proc.devRef .tc main_v1) = Cert.ReferenceIdeal.ReadP.val_main_v1 (F := F) x3)
      ∧ (after main_part0_ops0_p0 W (Proc.devRef .tc main_v3) = Cert.ReferenceIdeal.ReadP.val_main_v3 (F := F) x2) := by
  refine ⟨?_, ?_, ?_, ?_⟩
  · (simp only [main_part0_ops0_p0]; read_results; (try simp only [h_main_arg2, h_main_arg3, TRef.ofBuf, TRef.toBuf, cast_eq]);
     (try simp only [Cert.ReferenceIdeal.ReadP.val_main_v0, Cert.ReferenceIdeal.ReadP.val_main_v1, Cert.ReferenceIdeal.ReadP.val_main_cst, Cert.ReferenceIdeal.ReadP.val_main_v2, Cert.ReferenceIdeal.ReadP.val_main_v3, Cert.ReferenceIdeal.ReadP.val_main_cst_0, Cert.ReferenceIdeal.ReadP.val_main_cst_1]); (try rfl))
  · (simp only [main_part0_ops0_p0]; read_results; (try simp only [h_main_arg2, h_main_arg3, TRef.ofBuf, TRef.toBuf, cast_eq]);
     (try simp only [Cert.ReferenceIdeal.ReadP.val_main_v0, Cert.ReferenceIdeal.ReadP.val_main_v1, Cert.ReferenceIdeal.ReadP.val_main_cst, Cert.ReferenceIdeal.ReadP.val_main_v2, Cert.ReferenceIdeal.ReadP.val_main_v3, Cert.ReferenceIdeal.ReadP.val_main_cst_0, Cert.ReferenceIdeal.ReadP.val_main_cst_1]); (try rfl))
  · (simp only [main_part0_ops0_p0]; read_results; (try simp only [h_main_arg2, h_main_arg3, TRef.ofBuf, TRef.toBuf, cast_eq]);
     (try simp only [Cert.ReferenceIdeal.ReadP.val_main_v0, Cert.ReferenceIdeal.ReadP.val_main_v1, Cert.ReferenceIdeal.ReadP.val_main_cst, Cert.ReferenceIdeal.ReadP.val_main_v2, Cert.ReferenceIdeal.ReadP.val_main_v3, Cert.ReferenceIdeal.ReadP.val_main_cst_0, Cert.ReferenceIdeal.ReadP.val_main_cst_1]); (try rfl))
  · (simp only [main_part0_ops0_p0]; read_results; (try simp only [h_main_arg2, h_main_arg3, TRef.ofBuf, TRef.toBuf, cast_eq]);
     (try simp only [Cert.ReferenceIdeal.ReadP.val_main_v0, Cert.ReferenceIdeal.ReadP.val_main_v1, Cert.ReferenceIdeal.ReadP.val_main_cst, Cert.ReferenceIdeal.ReadP.val_main_v2, Cert.ReferenceIdeal.ReadP.val_main_v3, Cert.ReferenceIdeal.ReadP.val_main_cst_0, Cert.ReferenceIdeal.ReadP.val_main_cst_1]); (try rfl))

/-- A piece of `main_part0_ops1`. -/
abbrev main_part0_ops1_p0 : List (HloOp τ sig (Elt F)) :=
  [ StableHlo.TRef.unary (.of main_cst_0 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S4x3x512x512, .f32⟩) (broadcastInDim S4x3x512x512 ![] bcast_S_S4x3x512x512),
    StableHlo.TRef.binary (.of main_call0_v1 : StableHlo.TRef sig ⟨S4x3x512x512, .f32⟩) (.of main_v3 : StableHlo.TRef sig ⟨S4x3x512x512, .f32⟩) (.of main_call0_v2 : StableHlo.TRef sig ⟨S4x3x512x512, .f32⟩) maximumf,
    StableHlo.TRef.unary (.of main_cst_1 : StableHlo.TRef sig ⟨S_, .f32⟩) (.of main_call0_v3 : StableHlo.TRef sig ⟨S_, .f32⟩) id,
    StableHlo.TRef.unary (.of main_call0_v3 : StableHlo.TRef sig ⟨S_, .f32⟩) (.of main_call0_v4 : StableHlo.TRef sig ⟨S4x3x512x512, .f32⟩) (broadcastInDim S4x3x512x512 ![] bcast_S_S4x3x512x512),
    StableHlo.TRef.binary (.of main_call0_v4 : StableHlo.TRef sig ⟨S4x3x512x512, .f32⟩) (.of main_call0_v2 : StableHlo.TRef sig ⟨S4x3x512x512, .f32⟩) (.of main_v4 : StableHlo.TRef sig ⟨S4x3x512x512, .f32⟩) minimumf ]
abbrev wr_main_part0_ops1_p0 : List (Ref sig .tc) := [main_call0_v0, main_call0_v1, main_call0_v2, main_call0_v3, main_call0_v4, main_v4]
set_option maxRecDepth 16384 in
set_option maxHeartbeats 40000000 in
theorem main_part0_ops1_p0_writes : (main_part0_ops1_p0 : List (HloOp τ sig (Elt F))).Forall fun op =>
    op.writes ⊆ (wr_main_part0_ops1_p0.map (Proc.devRef (τ := τ) .tc)).toFinset :=
  ⟨writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_main_part0_ops1_p0 (W : Valuation τ sig (Elt F)) (x2 : (⟨S4x3x512x512, .f32⟩ : BufTy).Contents (Elt F)) (x3 : (⟨S107811x8, .f32⟩ : BufTy).Contents (Elt F))
    (h_main_cst_0 : W (Proc.devRef .tc main_cst_0) = Cert.ReferenceIdeal.ReadP.val_main_cst_0 (F := F))
    (h_main_cst_1 : W (Proc.devRef .tc main_cst_1) = Cert.ReferenceIdeal.ReadP.val_main_cst_1 (F := F))
    (h_main_v1 : W (Proc.devRef .tc main_v1) = Cert.ReferenceIdeal.ReadP.val_main_v1 (F := F) x3)
    (h_main_v3 : W (Proc.devRef .tc main_v3) = Cert.ReferenceIdeal.ReadP.val_main_v3 (F := F) x2)
    : (after main_part0_ops1_p0 W (Proc.devRef .tc main_v1) = Cert.ReferenceIdeal.ReadP.val_main_v1 (F := F) x3)
      ∧ (after main_part0_ops1_p0 W (Proc.devRef .tc main_v4) = Cert.ReferenceIdeal.ReadP.val_main_v4 (F := F) x2) := by
  refine ⟨?_, ?_⟩
  · exact (after_of_writes_sub _ W main_part0_ops1_p0_writes (by decide)).trans h_main_v1
  · (simp only [main_part0_ops1_p0]; read_results; (try simp only [h_main_cst_0, h_main_cst_1, h_main_v1, h_main_v3, TRef.ofBuf, TRef.toBuf, cast_eq]);
     (try simp only [Cert.ReferenceIdeal.ReadP.val_main_call0_v0, Cert.ReferenceIdeal.ReadP.val_main_call0_v1, Cert.ReferenceIdeal.ReadP.val_main_call0_v2, Cert.ReferenceIdeal.ReadP.val_main_call0_v3, Cert.ReferenceIdeal.ReadP.val_main_call0_v4, Cert.ReferenceIdeal.ReadP.val_main_v4]); (try rfl))

/-- A piece of `main_part0_ops2`. -/
abbrev main_part0_ops2_p0 : List (HloOp τ sig (Elt F)) :=
  [ StableHlo.unary main_v4 main_v5 ((extractStridedSlice S4x1x512x512 ![0, 0, 0, 0] · slices_S4x3x512x512_S4x1x512x512_0_0_0_0) : (⟨S4x3x512x512, .f32⟩ : BufTy).Contents (Elt F) → (⟨S4x1x512x512, .f32⟩ : BufTy).Contents (Elt F)),
    StableHlo.reshape main_v5 main_v6 rfl shapeCasts_S4x1x512x512_S4x512x512,
    StableHlo.unary main_v4 main_v7 ((extractStridedSlice S4x1x512x512 ![0, 1, 0, 0] · slices_S4x3x512x512_S4x1x512x512_0_1_0_0) : (⟨S4x3x512x512, .f32⟩ : BufTy).Contents (Elt F) → (⟨S4x1x512x512, .f32⟩ : BufTy).Contents (Elt F)),
    StableHlo.reshape main_v7 main_v8 rfl shapeCasts_S4x1x512x512_S4x512x512,
    StableHlo.unary main_v4 main_v9 ((extractStridedSlice S4x1x512x512 ![0, 2, 0, 0] · slices_S4x3x512x512_S4x1x512x512_0_2_0_0) : (⟨S4x3x512x512, .f32⟩ : BufTy).Contents (Elt F) → (⟨S4x1x512x512, .f32⟩ : BufTy).Contents (Elt F)),
    StableHlo.reshape main_v9 main_v10 rfl shapeCasts_S4x1x512x512_S4x512x512,
    StableHlo.unary main_v6 main_v11 (Host.floor : (⟨S4x512x512, .f32⟩ : BufTy).Contents (Elt F) → (⟨S4x512x512, .f32⟩ : BufTy).Contents (Elt F)),
    StableHlo.unary main_v11 main_v12 (fptosi 32 : (⟨S4x512x512, .f32⟩ : BufTy).Contents (Elt F) → (⟨S4x512x512, .i32⟩ : BufTy).Contents (Elt F)),
    StableHlo.nullary main_c (constantI S_ 32 0#32),
    StableHlo.nullary main_c_2 (constantI S_ 32 31#32) ]
abbrev wr_main_part0_ops2_p0 : List (Ref sig .tc) := [main_v5, main_v6, main_v7, main_v8, main_v9, main_v10, main_v11, main_v12, main_c, main_c_2]
set_option maxRecDepth 16384 in
set_option maxHeartbeats 40000000 in
theorem main_part0_ops2_p0_writes : (main_part0_ops2_p0 : List (HloOp τ sig (Elt F))).Forall fun op =>
    op.writes ⊆ (wr_main_part0_ops2_p0.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_main_part0_ops2_p0 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v4 : W (Proc.devRef .tc main_v4) = Cert.ReferenceIdeal.ReadP.val_main_v4 (F := F) x2)
    : (after main_part0_ops2_p0 W (Proc.devRef .tc main_c) = Cert.ReferenceIdeal.ReadP.val_main_c (F := F))
      ∧ (after main_part0_ops2_p0 W (Proc.devRef .tc main_c_2) = Cert.ReferenceIdeal.ReadP.val_main_c_2 (F := F))
      ∧ (after main_part0_ops2_p0 W (Proc.devRef .tc main_v1) = Cert.ReferenceIdeal.ReadP.val_main_v1 (F := F) x3)
      ∧ (after main_part0_ops2_p0 W (Proc.devRef .tc main_v10) = Cert.ReferenceIdeal.ReadP.val_main_v10 (F := F) x2)
      ∧ (after main_part0_ops2_p0 W (Proc.devRef .tc main_v12) = Cert.ReferenceIdeal.ReadP.val_main_v12 (F := F) x2)
      ∧ (after main_part0_ops2_p0 W (Proc.devRef .tc main_v6) = Cert.ReferenceIdeal.ReadP.val_main_v6 (F := F) x2)
      ∧ (after main_part0_ops2_p0 W (Proc.devRef .tc main_v8) = Cert.ReferenceIdeal.ReadP.val_main_v8 (F := F) x2) := by
  refine ⟨?_, ?_, ?_, ?_, ?_, ?_, ?_⟩
  · (simp only [main_part0_ops2_p0]; read_results; (try simp only [h_main_v1, h_main_v4, TRef.ofBuf, TRef.toBuf, cast_eq]);
     (try simp only [Cert.ReferenceIdeal.ReadP.val_main_v5, Cert.ReferenceIdeal.ReadP.val_main_v6, Cert.ReferenceIdeal.ReadP.val_main_v7, Cert.ReferenceIdeal.ReadP.val_main_v8, Cert.ReferenceIdeal.ReadP.val_main_v9, Cert.ReferenceIdeal.ReadP.val_main_v10, Cert.ReferenceIdeal.ReadP.val_main_v11, Cert.ReferenceIdeal.ReadP.val_main_v12, Cert.ReferenceIdeal.ReadP.val_main_c, Cert.ReferenceIdeal.ReadP.val_main_c_2]); (try rfl))
  · (simp only [main_part0_ops2_p0]; read_results; (try simp only [h_main_v1, h_main_v4, TRef.ofBuf, TRef.toBuf, cast_eq]);
     (try simp only [Cert.ReferenceIdeal.ReadP.val_main_v5, Cert.ReferenceIdeal.ReadP.val_main_v6, Cert.ReferenceIdeal.ReadP.val_main_v7, Cert.ReferenceIdeal.ReadP.val_main_v8, Cert.ReferenceIdeal.ReadP.val_main_v9, Cert.ReferenceIdeal.ReadP.val_main_v10, Cert.ReferenceIdeal.ReadP.val_main_v11, Cert.ReferenceIdeal.ReadP.val_main_v12, Cert.ReferenceIdeal.ReadP.val_main_c, Cert.ReferenceIdeal.ReadP.val_main_c_2]); (try rfl))
  · exact (after_of_writes_sub _ W main_part0_ops2_p0_writes (by decide)).trans h_main_v1
  · (simp only [main_part0_ops2_p0]; read_results; (try simp only [h_main_v1, h_main_v4, TRef.ofBuf, TRef.toBuf, cast_eq]);
     (try simp only [Cert.ReferenceIdeal.ReadP.val_main_v5, Cert.ReferenceIdeal.ReadP.val_main_v6, Cert.ReferenceIdeal.ReadP.val_main_v7, Cert.ReferenceIdeal.ReadP.val_main_v8, Cert.ReferenceIdeal.ReadP.val_main_v9, Cert.ReferenceIdeal.ReadP.val_main_v10, Cert.ReferenceIdeal.ReadP.val_main_v11, Cert.ReferenceIdeal.ReadP.val_main_v12, Cert.ReferenceIdeal.ReadP.val_main_c, Cert.ReferenceIdeal.ReadP.val_main_c_2]); (try rfl))
  · (simp only [main_part0_ops2_p0]; read_results; (try simp only [h_main_v1, h_main_v4, TRef.ofBuf, TRef.toBuf, cast_eq]);
     (try simp only [Cert.ReferenceIdeal.ReadP.val_main_v5, Cert.ReferenceIdeal.ReadP.val_main_v6, Cert.ReferenceIdeal.ReadP.val_main_v7, Cert.ReferenceIdeal.ReadP.val_main_v8, Cert.ReferenceIdeal.ReadP.val_main_v9, Cert.ReferenceIdeal.ReadP.val_main_v10, Cert.ReferenceIdeal.ReadP.val_main_v11, Cert.ReferenceIdeal.ReadP.val_main_v12, Cert.ReferenceIdeal.ReadP.val_main_c, Cert.ReferenceIdeal.ReadP.val_main_c_2]); (try rfl))
  · (simp only [main_part0_ops2_p0]; read_results; (try simp only [h_main_v1, h_main_v4, TRef.ofBuf, TRef.toBuf, cast_eq]);
     (try simp only [Cert.ReferenceIdeal.ReadP.val_main_v5, Cert.ReferenceIdeal.ReadP.val_main_v6, Cert.ReferenceIdeal.ReadP.val_main_v7, Cert.ReferenceIdeal.ReadP.val_main_v8, Cert.ReferenceIdeal.ReadP.val_main_v9, Cert.ReferenceIdeal.ReadP.val_main_v10, Cert.ReferenceIdeal.ReadP.val_main_v11, Cert.ReferenceIdeal.ReadP.val_main_v12, Cert.ReferenceIdeal.ReadP.val_main_c, Cert.ReferenceIdeal.ReadP.val_main_c_2]); (try rfl))
  · (simp only [main_part0_ops2_p0]; read_results; (try simp only [h_main_v1, h_main_v4, TRef.ofBuf, TRef.toBuf, cast_eq]);
     (try simp only [Cert.ReferenceIdeal.ReadP.val_main_v5, Cert.ReferenceIdeal.ReadP.val_main_v6, Cert.ReferenceIdeal.ReadP.val_main_v7, Cert.ReferenceIdeal.ReadP.val_main_v8, Cert.ReferenceIdeal.ReadP.val_main_v9, Cert.ReferenceIdeal.ReadP.val_main_v10, Cert.ReferenceIdeal.ReadP.val_main_v11, Cert.ReferenceIdeal.ReadP.val_main_v12, Cert.ReferenceIdeal.ReadP.val_main_c, Cert.ReferenceIdeal.ReadP.val_main_c_2]); (try rfl))

/-- A piece of `main_part0_ops3`. -/
abbrev main_part0_ops3_p0 : List (HloOp τ sig (Elt F)) :=
  [ StableHlo.TRef.unary (.of main_c : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S4x512x512, .i32⟩) (broadcastInDim S4x512x512 ![] bcast_S_S4x512x512),
    StableHlo.TRef.binary (.of main_call1_v1 : StableHlo.TRef sig ⟨S4x512x512, .i32⟩) (.of main_v12 : StableHlo.TRef sig ⟨S4x512x512, .i32⟩) (.of main_call1_v2 : StableHlo.TRef sig ⟨S4x512x512, .i32⟩) maxsi,
    StableHlo.TRef.unary (.of main_c_2 : StableHlo.TRef sig ⟨S_, .i32⟩) (.of main_call1_v3 : StableHlo.TRef sig ⟨S_, .i32⟩) id,
    StableHlo.TRef.unary (.of main_call1_v3 : StableHlo.TRef sig ⟨S_, .i32⟩) (.of main_call1_v4 : StableHlo.TRef sig ⟨S4x512x512, .i32⟩) (broadcastInDim S4x512x512 ![] bcast_S_S4x512x512),
    StableHlo.TRef.binary (.of main_call1_v4 : StableHlo.TRef sig ⟨S4x512x512, .i32⟩) (.of main_call1_v2 : StableHlo.TRef sig ⟨S4x512x512, .i32⟩) (.of main_v13 : StableHlo.TRef sig ⟨S4x512x512, .i32⟩) minsi ]
abbrev wr_main_part0_ops3_p0 : List (Ref sig .tc) := [main_call1_v0, main_call1_v1, main_call1_v2, main_call1_v3, main_call1_v4, main_v13]
set_option maxRecDepth 16384 in
set_option maxHeartbeats 40000000 in
theorem main_part0_ops3_p0_writes : (main_part0_ops3_p0 : List (HloOp τ sig (Elt F))).Forall fun op =>
    op.writes ⊆ (wr_main_part0_ops3_p0.map (Proc.devRef (τ := τ) .tc)).toFinset :=
  ⟨writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_main_part0_ops3_p0 (W : Valuation τ sig (Elt F)) (x2 : (⟨S4x3x512x512, .f32⟩ : BufTy).Contents (Elt F)) (x3 : (⟨S107811x8, .f32⟩ : BufTy).Contents (Elt F))
    (h_main_c : W (Proc.devRef .tc main_c) = Cert.ReferenceIdeal.ReadP.val_main_c (F := F))
    (h_main_c_2 : W (Proc.devRef .tc main_c_2) = Cert.ReferenceIdeal.ReadP.val_main_c_2 (F := F))
    (h_main_v1 : W (Proc.devRef .tc main_v1) = Cert.ReferenceIdeal.ReadP.val_main_v1 (F := F) x3)
    (h_main_v10 : W (Proc.devRef .tc main_v10) = Cert.ReferenceIdeal.ReadP.val_main_v10 (F := F) x2)
    (h_main_v12 : W (Proc.devRef .tc main_v12) = Cert.ReferenceIdeal.ReadP.val_main_v12 (F := F) x2)
    (h_main_v6 : W (Proc.devRef .tc main_v6) = Cert.ReferenceIdeal.ReadP.val_main_v6 (F := F) x2)
    (h_main_v8 : W (Proc.devRef .tc main_v8) = Cert.ReferenceIdeal.ReadP.val_main_v8 (F := F) x2)
    : (after main_part0_ops3_p0 W (Proc.devRef .tc main_v1) = Cert.ReferenceIdeal.ReadP.val_main_v1 (F := F) x3)
      ∧ (after main_part0_ops3_p0 W (Proc.devRef .tc main_v10) = Cert.ReferenceIdeal.ReadP.val_main_v10 (F := F) x2)
      ∧ (after main_part0_ops3_p0 W (Proc.devRef .tc main_v13) = Cert.ReferenceIdeal.ReadP.val_main_v13 (F := F) x2)
      ∧ (after main_part0_ops3_p0 W (Proc.devRef .tc main_v6) = Cert.ReferenceIdeal.ReadP.val_main_v6 (F := F) x2)
      ∧ (after main_part0_ops3_p0 W (Proc.devRef .tc main_v8) = Cert.ReferenceIdeal.ReadP.val_main_v8 (F := F) x2) := by
  refine ⟨?_, ?_, ?_, ?_, ?_⟩
  · exact (after_of_writes_sub _ W main_part0_ops3_p0_writes (by decide)).trans h_main_v1
  · exact (after_of_writes_sub _ W main_part0_ops3_p0_writes (by decide)).trans h_main_v10
  · (simp only [main_part0_ops3_p0]; read_results; (try simp only [h_main_c, h_main_c_2, h_main_v1, h_main_v10, h_main_v12, h_main_v6, h_main_v8, TRef.ofBuf, TRef.toBuf, cast_eq]);
     (try simp only [Cert.ReferenceIdeal.ReadP.val_main_call1_v0, Cert.ReferenceIdeal.ReadP.val_main_call1_v1, Cert.ReferenceIdeal.ReadP.val_main_call1_v2, Cert.ReferenceIdeal.ReadP.val_main_call1_v3, Cert.ReferenceIdeal.ReadP.val_main_call1_v4, Cert.ReferenceIdeal.ReadP.val_main_v13]); (try rfl))
  · exact (after_of_writes_sub _ W main_part0_ops3_p0_writes (by decide)).trans h_main_v6
  · exact (after_of_writes_sub _ W main_part0_ops3_p0_writes (by decide)).trans h_main_v8

/-- A piece of `main_part0_ops4`. -/
abbrev main_part0_ops4_p0 : List (HloOp τ sig (Elt F)) :=
  [ StableHlo.unary main_v13 main_v14 (sitofp .f32 : (⟨S4x512x512, .i32⟩ : BufTy).Contents (Elt F) → (⟨S4x512x512, .f32⟩ : BufTy).Contents (Elt F)),
    StableHlo.binary main_v6 main_v14 main_v15 (subf : (⟨S4x512x512, .f32⟩ : BufTy).Contents (Elt F) → (⟨S4x512x512, .f32⟩ : BufTy).Contents (Elt F) → (⟨S4x512x512, .f32⟩ : BufTy).Contents (Elt F)),
    StableHlo.unary main_v8 main_v16 (Host.floor : (⟨S4x512x512, .f32⟩ : BufTy).Contents (Elt F) → (⟨S4x512x512, .f32⟩ : BufTy).Contents (Elt F)),
    StableHlo.unary main_v16 main_v17 (fptosi 32 : (⟨S4x512x512, .f32⟩ : BufTy).Contents (Elt F) → (⟨S4x512x512, .i32⟩ : BufTy).Contents (Elt F)),
    StableHlo.nullary main_c_3 (constantI S_ 32 0#32),
    StableHlo.nullary main_c_4 (constantI S_ 32 31#32) ]
abbrev wr_main_part0_ops4_p0 : List (Ref sig .tc) := [main_v14, main_v15, main_v16, main_v17, main_c_3, main_c_4]
set_option maxRecDepth 16384 in
set_option maxHeartbeats 40000000 in
theorem main_part0_ops4_p0_writes : (main_part0_ops4_p0 : List (HloOp τ sig (Elt F))).Forall fun op =>
    op.writes ⊆ (wr_main_part0_ops4_p0.map (Proc.devRef (τ := τ) .tc)).toFinset :=
  ⟨writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_main_part0_ops4_p0 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v10 : W (Proc.devRef .tc main_v10) = Cert.ReferenceIdeal.ReadP.val_main_v10 (F := F) x2)
    (h_main_v13 : W (Proc.devRef .tc main_v13) = Cert.ReferenceIdeal.ReadP.val_main_v13 (F := F) x2)
    (h_main_v6 : W (Proc.devRef .tc main_v6) = Cert.ReferenceIdeal.ReadP.val_main_v6 (F := F) x2)
    (h_main_v8 : W (Proc.devRef .tc main_v8) = Cert.ReferenceIdeal.ReadP.val_main_v8 (F := F) x2)
    : (after main_part0_ops4_p0 W (Proc.devRef .tc main_c_3) = Cert.ReferenceIdeal.ReadP.val_main_c_3 (F := F))
      ∧ (after main_part0_ops4_p0 W (Proc.devRef .tc main_c_4) = Cert.ReferenceIdeal.ReadP.val_main_c_4 (F := F))
      ∧ (after main_part0_ops4_p0 W (Proc.devRef .tc main_v1) = Cert.ReferenceIdeal.ReadP.val_main_v1 (F := F) x3)
      ∧ (after main_part0_ops4_p0 W (Proc.devRef .tc main_v10) = Cert.ReferenceIdeal.ReadP.val_main_v10 (F := F) x2)
      ∧ (after main_part0_ops4_p0 W (Proc.devRef .tc main_v13) = Cert.ReferenceIdeal.ReadP.val_main_v13 (F := F) x2)
      ∧ (after main_part0_ops4_p0 W (Proc.devRef .tc main_v15) = Cert.ReferenceIdeal.ReadP.val_main_v15 (F := F) x2)
      ∧ (after main_part0_ops4_p0 W (Proc.devRef .tc main_v17) = Cert.ReferenceIdeal.ReadP.val_main_v17 (F := F) x2)
      ∧ (after main_part0_ops4_p0 W (Proc.devRef .tc main_v8) = Cert.ReferenceIdeal.ReadP.val_main_v8 (F := F) x2) := by
  refine ⟨?_, ?_, ?_, ?_, ?_, ?_, ?_, ?_⟩
  · (simp only [main_part0_ops4_p0]; read_results; (try simp only [h_main_v1, h_main_v10, h_main_v13, h_main_v6, h_main_v8, TRef.ofBuf, TRef.toBuf, cast_eq]);
     (try simp only [Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_c_3, Cert.ReferenceIdeal.ReadP.val_main_c_4]); (try rfl))
  · (simp only [main_part0_ops4_p0]; read_results; (try simp only [h_main_v1, h_main_v10, h_main_v13, h_main_v6, h_main_v8, TRef.ofBuf, TRef.toBuf, cast_eq]);
     (try simp only [Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_c_3, Cert.ReferenceIdeal.ReadP.val_main_c_4]); (try rfl))
  · exact (after_of_writes_sub _ W main_part0_ops4_p0_writes (by decide)).trans h_main_v1
  · exact (after_of_writes_sub _ W main_part0_ops4_p0_writes (by decide)).trans h_main_v10
  · exact (after_of_writes_sub _ W main_part0_ops4_p0_writes (by decide)).trans h_main_v13
  · (simp only [main_part0_ops4_p0]; read_results; (try simp only [h_main_v1, h_main_v10, h_main_v13, h_main_v6, h_main_v8, TRef.ofBuf, TRef.toBuf, cast_eq]);
     (try simp only [Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_c_3, Cert.ReferenceIdeal.ReadP.val_main_c_4]); (try rfl))
  · (simp only [main_part0_ops4_p0]; read_results; (try simp only [h_main_v1, h_main_v10, h_main_v13, h_main_v6, h_main_v8, TRef.ofBuf, TRef.toBuf, cast_eq]);
     (try simp only [Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_c_3, Cert.ReferenceIdeal.ReadP.val_main_c_4]); (try rfl))
  · exact (after_of_writes_sub _ W main_part0_ops4_p0_writes (by decide)).trans h_main_v8

/-- A piece of `main_part0_ops5`. -/
abbrev main_part0_ops5_p0 : List (HloOp τ sig (Elt F)) :=
  [ StableHlo.TRef.unary (.of main_c_3 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S4x512x512, .i32⟩) (broadcastInDim S4x512x512 ![] bcast_S_S4x512x512),
    StableHlo.TRef.binary (.of main_call2_v1 : StableHlo.TRef sig ⟨S4x512x512, .i32⟩) (.of main_v17 : StableHlo.TRef sig ⟨S4x512x512, .i32⟩) (.of main_call2_v2 : StableHlo.TRef sig ⟨S4x512x512, .i32⟩) maxsi,
    StableHlo.TRef.unary (.of main_c_4 : StableHlo.TRef sig ⟨S_, .i32⟩) (.of main_call2_v3 : StableHlo.TRef sig ⟨S_, .i32⟩) id,
    StableHlo.TRef.unary (.of main_call2_v3 : StableHlo.TRef sig ⟨S_, .i32⟩) (.of main_call2_v4 : StableHlo.TRef sig ⟨S4x512x512, .i32⟩) (broadcastInDim S4x512x512 ![] bcast_S_S4x512x512),
    StableHlo.TRef.binary (.of main_call2_v4 : StableHlo.TRef sig ⟨S4x512x512, .i32⟩) (.of main_call2_v2 : StableHlo.TRef sig ⟨S4x512x512, .i32⟩) (.of main_v18 : StableHlo.TRef sig ⟨S4x512x512, .i32⟩) minsi ]
abbrev wr_main_part0_ops5_p0 : List (Ref sig .tc) := [main_call2_v0, main_call2_v1, main_call2_v2, main_call2_v3, main_call2_v4, main_v18]
set_option maxRecDepth 16384 in
set_option maxHeartbeats 40000000 in
theorem main_part0_ops5_p0_writes : (main_part0_ops5_p0 : List (HloOp τ sig (Elt F))).Forall fun op =>
    op.writes ⊆ (wr_main_part0_ops5_p0.map (Proc.devRef (τ := τ) .tc)).toFinset :=
  ⟨writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_main_part0_ops5_p0 (W : Valuation τ sig (Elt F)) (x2 : (⟨S4x3x512x512, .f32⟩ : BufTy).Contents (Elt F)) (x3 : (⟨S107811x8, .f32⟩ : BufTy).Contents (Elt F))
    (h_main_c_3 : W (Proc.devRef .tc main_c_3) = Cert.ReferenceIdeal.ReadP.val_main_c_3 (F := F))
    (h_main_c_4 : W (Proc.devRef .tc main_c_4) = Cert.ReferenceIdeal.ReadP.val_main_c_4 (F := F))
    (h_main_v1 : W (Proc.devRef .tc main_v1) = Cert.ReferenceIdeal.ReadP.val_main_v1 (F := F) x3)
    (h_main_v10 : W (Proc.devRef .tc main_v10) = Cert.ReferenceIdeal.ReadP.val_main_v10 (F := F) x2)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v17 : W (Proc.devRef .tc main_v17) = Cert.ReferenceIdeal.ReadP.val_main_v17 (F := F) x2)
    (h_main_v8 : W (Proc.devRef .tc main_v8) = Cert.ReferenceIdeal.ReadP.val_main_v8 (F := F) x2)
    : (after main_part0_ops5_p0 W (Proc.devRef .tc main_v1) = Cert.ReferenceIdeal.ReadP.val_main_v1 (F := F) x3)
      ∧ (after main_part0_ops5_p0 W (Proc.devRef .tc main_v10) = Cert.ReferenceIdeal.ReadP.val_main_v10 (F := F) x2)
      ∧ (after main_part0_ops5_p0 W (Proc.devRef .tc main_v13) = Cert.ReferenceIdeal.ReadP.val_main_v13 (F := F) x2)
      ∧ (after main_part0_ops5_p0 W (Proc.devRef .tc main_v15) = Cert.ReferenceIdeal.ReadP.val_main_v15 (F := F) x2)
      ∧ (after main_part0_ops5_p0 W (Proc.devRef .tc main_v18) = Cert.ReferenceIdeal.ReadP.val_main_v18 (F := F) x2)
      ∧ (after main_part0_ops5_p0 W (Proc.devRef .tc main_v8) = Cert.ReferenceIdeal.ReadP.val_main_v8 (F := F) x2) := by
  refine ⟨?_, ?_, ?_, ?_, ?_, ?_⟩
  · exact (after_of_writes_sub _ W main_part0_ops5_p0_writes (by decide)).trans h_main_v1
  · exact (after_of_writes_sub _ W main_part0_ops5_p0_writes (by decide)).trans h_main_v10
  · exact (after_of_writes_sub _ W main_part0_ops5_p0_writes (by decide)).trans h_main_v13
  · exact (after_of_writes_sub _ W main_part0_ops5_p0_writes (by decide)).trans h_main_v15
  · (simp only [main_part0_ops5_p0]; read_results; (try simp only [h_main_c_3, h_main_c_4, h_main_v1, h_main_v10, h_main_v13, h_main_v15, h_main_v17, h_main_v8, TRef.ofBuf, TRef.toBuf, cast_eq]);
     (try simp only [Cert.ReferenceIdeal.ReadP.val_main_call2_v0, Cert.ReferenceIdeal.ReadP.val_main_call2_v1, Cert.ReferenceIdeal.ReadP.val_main_call2_v2, Cert.ReferenceIdeal.ReadP.val_main_call2_v3, Cert.ReferenceIdeal.ReadP.val_main_call2_v4, Cert.ReferenceIdeal.ReadP.val_main_v18]); (try rfl))
  · exact (after_of_writes_sub _ W main_part0_ops5_p0_writes (by decide)).trans h_main_v8

/-- A piece of `main_part0_ops6`. -/
abbrev main_part0_ops6_p0 : List (HloOp τ sig (Elt F)) :=
  [ StableHlo.unary main_v18 main_v19 (sitofp .f32 : (⟨S4x512x512, .i32⟩ : BufTy).Contents (Elt F) → (⟨S4x512x512, .f32⟩ : BufTy).Contents (Elt F)),
    StableHlo.binary main_v8 main_v19 main_v20 (subf : (⟨S4x512x512, .f32⟩ : BufTy).Contents (Elt F) → (⟨S4x512x512, .f32⟩ : BufTy).Contents (Elt F) → (⟨S4x512x512, .f32⟩ : BufTy).Contents (Elt F)),
    StableHlo.unary main_v10 main_v21 (Host.floor : (⟨S4x512x512, .f32⟩ : BufTy).Contents (Elt F) → (⟨S4x512x512, .f32⟩ : BufTy).Contents (Elt F)),
    StableHlo.unary main_v21 main_v22 (fptosi 32 : (⟨S4x512x512, .f32⟩ : BufTy).Contents (Elt F) → (⟨S4x512x512, .i32⟩ : BufTy).Contents (Elt F)),
    StableHlo.nullary main_c_5 (constantI S_ 32 0#32),
    StableHlo.nullary main_c_6 (constantI S_ 32 31#32) ]
abbrev wr_main_part0_ops6_p0 : List (Ref sig .tc) := [main_v19, main_v20, main_v21, main_v22, main_c_5, main_c_6]
set_option maxRecDepth 16384 in
set_option maxHeartbeats 40000000 in
theorem main_part0_ops6_p0_writes : (main_part0_ops6_p0 : List (HloOp τ sig (Elt F))).Forall fun op =>
    op.writes ⊆ (wr_main_part0_ops6_p0.map (Proc.devRef (τ := τ) .tc)).toFinset :=
  ⟨writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_main_part0_ops6_p0 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v10 : W (Proc.devRef .tc main_v10) = Cert.ReferenceIdeal.ReadP.val_main_v10 (F := F) x2)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v8 : W (Proc.devRef .tc main_v8) = Cert.ReferenceIdeal.ReadP.val_main_v8 (F := F) x2)
    : (after main_part0_ops6_p0 W (Proc.devRef .tc main_c_5) = Cert.ReferenceIdeal.ReadP.val_main_c_5 (F := F))
      ∧ (after main_part0_ops6_p0 W (Proc.devRef .tc main_c_6) = Cert.ReferenceIdeal.ReadP.val_main_c_6 (F := F))
      ∧ (after main_part0_ops6_p0 W (Proc.devRef .tc main_v1) = Cert.ReferenceIdeal.ReadP.val_main_v1 (F := F) x3)
      ∧ (after main_part0_ops6_p0 W (Proc.devRef .tc main_v10) = Cert.ReferenceIdeal.ReadP.val_main_v10 (F := F) x2)
      ∧ (after main_part0_ops6_p0 W (Proc.devRef .tc main_v13) = Cert.ReferenceIdeal.ReadP.val_main_v13 (F := F) x2)
      ∧ (after main_part0_ops6_p0 W (Proc.devRef .tc main_v15) = Cert.ReferenceIdeal.ReadP.val_main_v15 (F := F) x2)
      ∧ (after main_part0_ops6_p0 W (Proc.devRef .tc main_v18) = Cert.ReferenceIdeal.ReadP.val_main_v18 (F := F) x2)
      ∧ (after main_part0_ops6_p0 W (Proc.devRef .tc main_v20) = Cert.ReferenceIdeal.ReadP.val_main_v20 (F := F) x2)
      ∧ (after main_part0_ops6_p0 W (Proc.devRef .tc main_v22) = Cert.ReferenceIdeal.ReadP.val_main_v22 (F := F) x2) := by
  refine ⟨?_, ?_, ?_, ?_, ?_, ?_, ?_, ?_, ?_⟩
  · (simp only [main_part0_ops6_p0]; read_results; (try simp only [h_main_v1, h_main_v10, h_main_v13, h_main_v15, h_main_v18, h_main_v8, TRef.ofBuf, TRef.toBuf, cast_eq]);
     (try simp only [Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_c_5, Cert.ReferenceIdeal.ReadP.val_main_c_6]); (try rfl))
  · (simp only [main_part0_ops6_p0]; read_results; (try simp only [h_main_v1, h_main_v10, h_main_v13, h_main_v15, h_main_v18, h_main_v8, TRef.ofBuf, TRef.toBuf, cast_eq]);
     (try simp only [Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_c_5, Cert.ReferenceIdeal.ReadP.val_main_c_6]); (try rfl))
  · exact (after_of_writes_sub _ W main_part0_ops6_p0_writes (by decide)).trans h_main_v1
  · exact (after_of_writes_sub _ W main_part0_ops6_p0_writes (by decide)).trans h_main_v10
  · exact (after_of_writes_sub _ W main_part0_ops6_p0_writes (by decide)).trans h_main_v13
  · exact (after_of_writes_sub _ W main_part0_ops6_p0_writes (by decide)).trans h_main_v15
  · exact (after_of_writes_sub _ W main_part0_ops6_p0_writes (by decide)).trans h_main_v18
  · (simp only [main_part0_ops6_p0]; read_results; (try simp only [h_main_v1, h_main_v10, h_main_v13, h_main_v15, h_main_v18, h_main_v8, TRef.ofBuf, TRef.toBuf, cast_eq]);
     (try simp only [Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_c_5, Cert.ReferenceIdeal.ReadP.val_main_c_6]); (try rfl))
  · (simp only [main_part0_ops6_p0]; read_results; (try simp only [h_main_v1, h_main_v10, h_main_v13, h_main_v15, h_main_v18, h_main_v8, TRef.ofBuf, TRef.toBuf, cast_eq]);
     (try simp only [Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_c_5, Cert.ReferenceIdeal.ReadP.val_main_c_6]); (try rfl))

/-- A piece of `main_part0_ops7`. -/
abbrev main_part0_ops7_p0 : List (HloOp τ sig (Elt F)) :=
  [ StableHlo.TRef.unary (.of main_c_5 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S4x512x512, .i32⟩) (broadcastInDim S4x512x512 ![] bcast_S_S4x512x512),
    StableHlo.TRef.binary (.of main_call3_v1 : StableHlo.TRef sig ⟨S4x512x512, .i32⟩) (.of main_v22 : StableHlo.TRef sig ⟨S4x512x512, .i32⟩) (.of main_call3_v2 : StableHlo.TRef sig ⟨S4x512x512, .i32⟩) maxsi,
    StableHlo.TRef.unary (.of main_c_6 : StableHlo.TRef sig ⟨S_, .i32⟩) (.of main_call3_v3 : StableHlo.TRef sig ⟨S_, .i32⟩) id,
    StableHlo.TRef.unary (.of main_call3_v3 : StableHlo.TRef sig ⟨S_, .i32⟩) (.of main_call3_v4 : StableHlo.TRef sig ⟨S4x512x512, .i32⟩) (broadcastInDim S4x512x512 ![] bcast_S_S4x512x512),
    StableHlo.TRef.binary (.of main_call3_v4 : StableHlo.TRef sig ⟨S4x512x512, .i32⟩) (.of main_call3_v2 : StableHlo.TRef sig ⟨S4x512x512, .i32⟩) (.of main_v23 : StableHlo.TRef sig ⟨S4x512x512, .i32⟩) minsi ]
abbrev wr_main_part0_ops7_p0 : List (Ref sig .tc) := [main_call3_v0, main_call3_v1, main_call3_v2, main_call3_v3, main_call3_v4, main_v23]
set_option maxRecDepth 16384 in
set_option maxHeartbeats 40000000 in
theorem main_part0_ops7_p0_writes : (main_part0_ops7_p0 : List (HloOp τ sig (Elt F))).Forall fun op =>
    op.writes ⊆ (wr_main_part0_ops7_p0.map (Proc.devRef (τ := τ) .tc)).toFinset :=
  ⟨writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_main_part0_ops7_p0 (W : Valuation τ sig (Elt F)) (x2 : (⟨S4x3x512x512, .f32⟩ : BufTy).Contents (Elt F)) (x3 : (⟨S107811x8, .f32⟩ : BufTy).Contents (Elt F))
    (h_main_c_5 : W (Proc.devRef .tc main_c_5) = Cert.ReferenceIdeal.ReadP.val_main_c_5 (F := F))
    (h_main_c_6 : W (Proc.devRef .tc main_c_6) = Cert.ReferenceIdeal.ReadP.val_main_c_6 (F := F))
    (h_main_v1 : W (Proc.devRef .tc main_v1) = Cert.ReferenceIdeal.ReadP.val_main_v1 (F := F) x3)
    (h_main_v10 : W (Proc.devRef .tc main_v10) = Cert.ReferenceIdeal.ReadP.val_main_v10 (F := F) x2)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v22 : W (Proc.devRef .tc main_v22) = Cert.ReferenceIdeal.ReadP.val_main_v22 (F := F) x2)
    : (after main_part0_ops7_p0 W (Proc.devRef .tc main_v1) = Cert.ReferenceIdeal.ReadP.val_main_v1 (F := F) x3)
      ∧ (after main_part0_ops7_p0 W (Proc.devRef .tc main_v10) = Cert.ReferenceIdeal.ReadP.val_main_v10 (F := F) x2)
      ∧ (after main_part0_ops7_p0 W (Proc.devRef .tc main_v13) = Cert.ReferenceIdeal.ReadP.val_main_v13 (F := F) x2)
      ∧ (after main_part0_ops7_p0 W (Proc.devRef .tc main_v15) = Cert.ReferenceIdeal.ReadP.val_main_v15 (F := F) x2)
      ∧ (after main_part0_ops7_p0 W (Proc.devRef .tc main_v18) = Cert.ReferenceIdeal.ReadP.val_main_v18 (F := F) x2)
      ∧ (after main_part0_ops7_p0 W (Proc.devRef .tc main_v20) = Cert.ReferenceIdeal.ReadP.val_main_v20 (F := F) x2)
      ∧ (after main_part0_ops7_p0 W (Proc.devRef .tc main_v23) = Cert.ReferenceIdeal.ReadP.val_main_v23 (F := F) x2) := by
  refine ⟨?_, ?_, ?_, ?_, ?_, ?_, ?_⟩
  · exact (after_of_writes_sub _ W main_part0_ops7_p0_writes (by decide)).trans h_main_v1
  · exact (after_of_writes_sub _ W main_part0_ops7_p0_writes (by decide)).trans h_main_v10
  · exact (after_of_writes_sub _ W main_part0_ops7_p0_writes (by decide)).trans h_main_v13
  · exact (after_of_writes_sub _ W main_part0_ops7_p0_writes (by decide)).trans h_main_v15
  · exact (after_of_writes_sub _ W main_part0_ops7_p0_writes (by decide)).trans h_main_v18
  · exact (after_of_writes_sub _ W main_part0_ops7_p0_writes (by decide)).trans h_main_v20
  · (simp only [main_part0_ops7_p0]; read_results; (try simp only [h_main_c_5, h_main_c_6, h_main_v1, h_main_v10, h_main_v13, h_main_v15, h_main_v18, h_main_v20, h_main_v22, TRef.ofBuf, TRef.toBuf, cast_eq]);
     (try simp only [Cert.ReferenceIdeal.ReadP.val_main_call3_v0, Cert.ReferenceIdeal.ReadP.val_main_call3_v1, Cert.ReferenceIdeal.ReadP.val_main_call3_v2, Cert.ReferenceIdeal.ReadP.val_main_call3_v3, Cert.ReferenceIdeal.ReadP.val_main_call3_v4, Cert.ReferenceIdeal.ReadP.val_main_v23]); (try rfl))

/-- A piece of `main_part0_ops8`. -/
abbrev main_part0_ops8_p0 : List (HloOp τ sig (Elt F)) :=
  [ StableHlo.unary main_v23 main_v24 (sitofp .f32 : (⟨S4x512x512, .i32⟩ : BufTy).Contents (Elt F) → (⟨S4x512x512, .f32⟩ : BufTy).Contents (Elt F)),
    StableHlo.binary main_v10 main_v24 main_v25 (subf : (⟨S4x512x512, .f32⟩ : BufTy).Contents (Elt F) → (⟨S4x512x512, .f32⟩ : BufTy).Contents (Elt F) → (⟨S4x512x512, .f32⟩ : BufTy).Contents (Elt F)),
    StableHlo.nullary main_c_7 (constantI S_ 32 1#32),
    StableHlo.unary main_c_7 main_v26 (broadcastInDim S4x512x512 ![] bcast_S_S4x512x512 : (⟨S_, .i32⟩ : BufTy).Contents (Elt F) → (⟨S4x512x512, .i32⟩ : BufTy).Contents (Elt F)),
    StableHlo.binary main_v13 main_v26 main_v27 (addi : (⟨S4x512x512, .i32⟩ : BufTy).Contents (Elt F) → (⟨S4x512x512, .i32⟩ : BufTy).Contents (Elt F) → (⟨S4x512x512, .i32⟩ : BufTy).Contents (Elt F)),
    StableHlo.nullary main_c_8 (constantI S_ 32 1#32),
    StableHlo.unary main_c_8 main_v28 (broadcastInDim S4x512x512 ![] bcast_S_S4x512x512 : (⟨S_, .i32⟩ : BufTy).Contents (Elt F) → (⟨S4x512x512, .i32⟩ : BufTy).Contents (Elt F)),
    StableHlo.binary main_v18 main_v28 main_v29 (addi : (⟨S4x512x512, .i32⟩ : BufTy).Contents (Elt F) → (⟨S4x512x512, .i32⟩ : BufTy).Contents (Elt F) → (⟨S4x512x512, .i32⟩ : BufTy).Contents (Elt F)),
    StableHlo.nullary main_c_9 (constantI S_ 32 1#32),
    StableHlo.unary main_c_9 main_v30 (broadcastInDim S4x512x512 ![] bcast_S_S4x512x512 : (⟨S_, .i32⟩ : BufTy).Contents (Elt F) → (⟨S4x512x512, .i32⟩ : BufTy).Contents (Elt F)),
    StableHlo.binary main_v23 main_v30 main_v31 (addi : (⟨S4x512x512, .i32⟩ : BufTy).Contents (Elt F) → (⟨S4x512x512, .i32⟩ : BufTy).Contents (Elt F) → (⟨S4x512x512, .i32⟩ : BufTy).Contents (Elt F)),
    StableHlo.nullary main_cst_10 (constant S_ .f32 0x3F800000#32),
    StableHlo.unary main_cst_10 main_v32 (broadcastInDim S4x512x512 ![] bcast_S_S4x512x512 : (⟨S_, .f32⟩ : BufTy).Contents (Elt F) → (⟨S4x512x512, .f32⟩ : BufTy).Contents (Elt F)),
    StableHlo.binary main_v32 main_v15 main_v33 (subf : (⟨S4x512x512, .f32⟩ : BufTy).Contents (Elt F) → (⟨S4x512x512, .f32⟩ : BufTy).Contents (Elt F) → (⟨S4x512x512, .f32⟩ : BufTy).Contents (Elt F)),
    StableHlo.nullary main_cst_11 (constant S_ .f32 0x3F800000#32),
    StableHlo.unary main_cst_11 main_v34 (broadcastInDim S4x512x512 ![] bcast_S_S4x512x512 : (⟨S_, .f32⟩ : BufTy).Contents (Elt F) → (⟨S4x512x512, .f32⟩ : BufTy).Contents (Elt F)),
    StableHlo.binary main_v34 main_v20 main_v35 (subf : (⟨S4x512x512, .f32⟩ : BufTy).Contents (Elt F) → (⟨S4x512x512, .f32⟩ : BufTy).Contents (Elt F) → (⟨S4x512x512, .f32⟩ : BufTy).Contents (Elt F)),
    StableHlo.nullary main_cst_12 (constant S_ .f32 0x3F800000#32),
    StableHlo.unary main_cst_12 main_v36 (broadcastInDim S4x512x512 ![] bcast_S_S4x512x512 : (⟨S_, .f32⟩ : BufTy).Contents (Elt F) → (⟨S4x512x512, .f32⟩ : BufTy).Contents (Elt F)),
    StableHlo.binary main_v36 main_v25 main_v37 (subf : (⟨S4x512x512, .f32⟩ : BufTy).Contents (Elt F) → (⟨S4x512x512, .f32⟩ : BufTy).Contents (Elt F) → (⟨S4x512x512, .f32⟩ : BufTy).Contents (Elt F)),
    StableHlo.nullary main_c_13 (constantI S_ 32 0#32),
    StableHlo.unary main_c_13 main_v38 (broadcastInDim S4x512x512 ![] bcast_S_S4x512x512 : (⟨S_, .i32⟩ : BufTy).Contents (Elt F) → (⟨S4x512x512, .i32⟩ : BufTy).Contents (Elt F)),
    StableHlo.binary main_v23 main_v38 main_v39 (cmpi .slt : (⟨S4x512x512, .i32⟩ : BufTy).Contents (Elt F) → (⟨S4x512x512, .i32⟩ : BufTy).Contents (Elt F) → (⟨S4x512x512, .i1⟩ : BufTy).Contents (Elt F)),
    StableHlo.nullary main_c_14 (constantI S_ 32 33#32) ]
abbrev wr_main_part0_ops8_p0 : List (Ref sig .tc) := [main_v24, main_v25, main_c_7, main_v26, main_v27, main_c_8, main_v28, main_v29, main_c_9, main_v30, main_v31, main_cst_10, main_v32, main_v33, main_cst_11, main_v34, main_v35, main_cst_12, main_v36, main_v37, main_c_13, main_v38, main_v39, main_c_14]
set_option maxRecDepth 16384 in
set_option maxHeartbeats 40000000 in
theorem main_part0_ops8_p0_writes : (main_part0_ops8_p0 : List (HloOp τ sig (Elt F))).Forall fun op =>
    op.writes ⊆ (wr_main_part0_ops8_p0.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_main_part0_ops8_p0 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v10 : W (Proc.devRef .tc main_v10) = Cert.ReferenceIdeal.ReadP.val_main_v10 (F := F) x2)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v23 : W (Proc.devRef .tc main_v23) = Cert.ReferenceIdeal.ReadP.val_main_v23 (F := F) x2)
    : (after main_part0_ops8_p0 W (Proc.devRef .tc main_c_14) = Cert.ReferenceIdeal.ReadP.val_main_c_14 (F := F))
      ∧ (after main_part0_ops8_p0 W (Proc.devRef .tc main_v1) = Cert.ReferenceIdeal.ReadP.val_main_v1 (F := F) x3)
      ∧ (after main_part0_ops8_p0 W (Proc.devRef .tc main_v13) = Cert.ReferenceIdeal.ReadP.val_main_v13 (F := F) x2)
      ∧ (after main_part0_ops8_p0 W (Proc.devRef .tc main_v15) = Cert.ReferenceIdeal.ReadP.val_main_v15 (F := F) x2)
      ∧ (after main_part0_ops8_p0 W (Proc.devRef .tc main_v18) = Cert.ReferenceIdeal.ReadP.val_main_v18 (F := F) x2)
      ∧ (after main_part0_ops8_p0 W (Proc.devRef .tc main_v20) = Cert.ReferenceIdeal.ReadP.val_main_v20 (F := F) x2)
      ∧ (after main_part0_ops8_p0 W (Proc.devRef .tc main_v23) = Cert.ReferenceIdeal.ReadP.val_main_v23 (F := F) x2)
      ∧ (after main_part0_ops8_p0 W (Proc.devRef .tc main_v25) = Cert.ReferenceIdeal.ReadP.val_main_v25 (F := F) x2)
      ∧ (after main_part0_ops8_p0 W (Proc.devRef .tc main_v27) = Cert.ReferenceIdeal.ReadP.val_main_v27 (F := F) x2)
      ∧ (after main_part0_ops8_p0 W (Proc.devRef .tc main_v29) = Cert.ReferenceIdeal.ReadP.val_main_v29 (F := F) x2)
      ∧ (after main_part0_ops8_p0 W (Proc.devRef .tc main_v31) = Cert.ReferenceIdeal.ReadP.val_main_v31 (F := F) x2)
      ∧ (after main_part0_ops8_p0 W (Proc.devRef .tc main_v33) = Cert.ReferenceIdeal.ReadP.val_main_v33 (F := F) x2)
      ∧ (after main_part0_ops8_p0 W (Proc.devRef .tc main_v35) = Cert.ReferenceIdeal.ReadP.val_main_v35 (F := F) x2)
      ∧ (after main_part0_ops8_p0 W (Proc.devRef .tc main_v37) = Cert.ReferenceIdeal.ReadP.val_main_v37 (F := F) x2)
      ∧ (after main_part0_ops8_p0 W (Proc.devRef .tc main_v39) = Cert.ReferenceIdeal.ReadP.val_main_v39 (F := F) x2) := by
  refine ⟨?_, ?_, ?_, ?_, ?_, ?_, ?_, ?_, ?_, ?_, ?_, ?_, ?_, ?_, ?_⟩
  · (simp only [main_part0_ops8_p0]; read_results; (try simp only [h_main_v1, h_main_v10, h_main_v13, h_main_v15, h_main_v18, h_main_v20, h_main_v23, TRef.ofBuf, TRef.toBuf, cast_eq]);
     (try simp only [Cert.ReferenceIdeal.ReadP.val_main_v24, Cert.ReferenceIdeal.ReadP.val_main_v25, Cert.ReferenceIdeal.ReadP.val_main_c_7, Cert.ReferenceIdeal.ReadP.val_main_v26, Cert.ReferenceIdeal.ReadP.val_main_v27, Cert.ReferenceIdeal.ReadP.val_main_c_8, Cert.ReferenceIdeal.ReadP.val_main_v28, Cert.ReferenceIdeal.ReadP.val_main_v29, Cert.ReferenceIdeal.ReadP.val_main_c_9, Cert.ReferenceIdeal.ReadP.val_main_v30, Cert.ReferenceIdeal.ReadP.val_main_v31, Cert.ReferenceIdeal.ReadP.val_main_cst_10, Cert.ReferenceIdeal.ReadP.val_main_v32, Cert.ReferenceIdeal.ReadP.val_main_v33, Cert.ReferenceIdeal.ReadP.val_main_cst_11, Cert.ReferenceIdeal.ReadP.val_main_v34, Cert.ReferenceIdeal.ReadP.val_main_v35, Cert.ReferenceIdeal.ReadP.val_main_cst_12, Cert.ReferenceIdeal.ReadP.val_main_v36, Cert.ReferenceIdeal.ReadP.val_main_v37, Cert.ReferenceIdeal.ReadP.val_main_c_13, Cert.ReferenceIdeal.ReadP.val_main_v38, Cert.ReferenceIdeal.ReadP.val_main_v39, Cert.ReferenceIdeal.ReadP.val_main_c_14]); (try rfl))
  · exact (after_of_writes_sub _ W main_part0_ops8_p0_writes (by decide)).trans h_main_v1
  · exact (after_of_writes_sub _ W main_part0_ops8_p0_writes (by decide)).trans h_main_v13
  · exact (after_of_writes_sub _ W main_part0_ops8_p0_writes (by decide)).trans h_main_v15
  · exact (after_of_writes_sub _ W main_part0_ops8_p0_writes (by decide)).trans h_main_v18
  · exact (after_of_writes_sub _ W main_part0_ops8_p0_writes (by decide)).trans h_main_v20
  · exact (after_of_writes_sub _ W main_part0_ops8_p0_writes (by decide)).trans h_main_v23
  · (simp only [main_part0_ops8_p0]; read_results; (try simp only [h_main_v1, h_main_v10, h_main_v13, h_main_v15, h_main_v18, h_main_v20, h_main_v23, TRef.ofBuf, TRef.toBuf, cast_eq]);
     (try simp only [Cert.ReferenceIdeal.ReadP.val_main_v24, Cert.ReferenceIdeal.ReadP.val_main_v25, Cert.ReferenceIdeal.ReadP.val_main_c_7, Cert.ReferenceIdeal.ReadP.val_main_v26, Cert.ReferenceIdeal.ReadP.val_main_v27, Cert.ReferenceIdeal.ReadP.val_main_c_8, Cert.ReferenceIdeal.ReadP.val_main_v28, Cert.ReferenceIdeal.ReadP.val_main_v29, Cert.ReferenceIdeal.ReadP.val_main_c_9, Cert.ReferenceIdeal.ReadP.val_main_v30, Cert.ReferenceIdeal.ReadP.val_main_v31, Cert.ReferenceIdeal.ReadP.val_main_cst_10, Cert.ReferenceIdeal.ReadP.val_main_v32, Cert.ReferenceIdeal.ReadP.val_main_v33, Cert.ReferenceIdeal.ReadP.val_main_cst_11, Cert.ReferenceIdeal.ReadP.val_main_v34, Cert.ReferenceIdeal.ReadP.val_main_v35, Cert.ReferenceIdeal.ReadP.val_main_cst_12, Cert.ReferenceIdeal.ReadP.val_main_v36, Cert.ReferenceIdeal.ReadP.val_main_v37, Cert.ReferenceIdeal.ReadP.val_main_c_13, Cert.ReferenceIdeal.ReadP.val_main_v38, Cert.ReferenceIdeal.ReadP.val_main_v39, Cert.ReferenceIdeal.ReadP.val_main_c_14]); (try rfl))
  · (simp only [main_part0_ops8_p0]; read_results; (try simp only [h_main_v1, h_main_v10, h_main_v13, h_main_v15, h_main_v18, h_main_v20, h_main_v23, TRef.ofBuf, TRef.toBuf, cast_eq]);
     (try simp only [Cert.ReferenceIdeal.ReadP.val_main_v24, Cert.ReferenceIdeal.ReadP.val_main_v25, Cert.ReferenceIdeal.ReadP.val_main_c_7, Cert.ReferenceIdeal.ReadP.val_main_v26, Cert.ReferenceIdeal.ReadP.val_main_v27, Cert.ReferenceIdeal.ReadP.val_main_c_8, Cert.ReferenceIdeal.ReadP.val_main_v28, Cert.ReferenceIdeal.ReadP.val_main_v29, Cert.ReferenceIdeal.ReadP.val_main_c_9, Cert.ReferenceIdeal.ReadP.val_main_v30, Cert.ReferenceIdeal.ReadP.val_main_v31, Cert.ReferenceIdeal.ReadP.val_main_cst_10, Cert.ReferenceIdeal.ReadP.val_main_v32, Cert.ReferenceIdeal.ReadP.val_main_v33, Cert.ReferenceIdeal.ReadP.val_main_cst_11, Cert.ReferenceIdeal.ReadP.val_main_v34, Cert.ReferenceIdeal.ReadP.val_main_v35, Cert.ReferenceIdeal.ReadP.val_main_cst_12, Cert.ReferenceIdeal.ReadP.val_main_v36, Cert.ReferenceIdeal.ReadP.val_main_v37, Cert.ReferenceIdeal.ReadP.val_main_c_13, Cert.ReferenceIdeal.ReadP.val_main_v38, Cert.ReferenceIdeal.ReadP.val_main_v39, Cert.ReferenceIdeal.ReadP.val_main_c_14]); (try rfl))
  · (simp only [main_part0_ops8_p0]; read_results; (try simp only [h_main_v1, h_main_v10, h_main_v13, h_main_v15, h_main_v18, h_main_v20, h_main_v23, TRef.ofBuf, TRef.toBuf, cast_eq]);
     (try simp only [Cert.ReferenceIdeal.ReadP.val_main_v24, Cert.ReferenceIdeal.ReadP.val_main_v25, Cert.ReferenceIdeal.ReadP.val_main_c_7, Cert.ReferenceIdeal.ReadP.val_main_v26, Cert.ReferenceIdeal.ReadP.val_main_v27, Cert.ReferenceIdeal.ReadP.val_main_c_8, Cert.ReferenceIdeal.ReadP.val_main_v28, Cert.ReferenceIdeal.ReadP.val_main_v29, Cert.ReferenceIdeal.ReadP.val_main_c_9, Cert.ReferenceIdeal.ReadP.val_main_v30, Cert.ReferenceIdeal.ReadP.val_main_v31, Cert.ReferenceIdeal.ReadP.val_main_cst_10, Cert.ReferenceIdeal.ReadP.val_main_v32, Cert.ReferenceIdeal.ReadP.val_main_v33, Cert.ReferenceIdeal.ReadP.val_main_cst_11, Cert.ReferenceIdeal.ReadP.val_main_v34, Cert.ReferenceIdeal.ReadP.val_main_v35, Cert.ReferenceIdeal.ReadP.val_main_cst_12, Cert.ReferenceIdeal.ReadP.val_main_v36, Cert.ReferenceIdeal.ReadP.val_main_v37, Cert.ReferenceIdeal.ReadP.val_main_c_13, Cert.ReferenceIdeal.ReadP.val_main_v38, Cert.ReferenceIdeal.ReadP.val_main_v39, Cert.ReferenceIdeal.ReadP.val_main_c_14]); (try rfl))
  · (simp only [main_part0_ops8_p0]; read_results; (try simp only [h_main_v1, h_main_v10, h_main_v13, h_main_v15, h_main_v18, h_main_v20, h_main_v23, TRef.ofBuf, TRef.toBuf, cast_eq]);
     (try simp only [Cert.ReferenceIdeal.ReadP.val_main_v24, Cert.ReferenceIdeal.ReadP.val_main_v25, Cert.ReferenceIdeal.ReadP.val_main_c_7, Cert.ReferenceIdeal.ReadP.val_main_v26, Cert.ReferenceIdeal.ReadP.val_main_v27, Cert.ReferenceIdeal.ReadP.val_main_c_8, Cert.ReferenceIdeal.ReadP.val_main_v28, Cert.ReferenceIdeal.ReadP.val_main_v29, Cert.ReferenceIdeal.ReadP.val_main_c_9, Cert.ReferenceIdeal.ReadP.val_main_v30, Cert.ReferenceIdeal.ReadP.val_main_v31, Cert.ReferenceIdeal.ReadP.val_main_cst_10, Cert.ReferenceIdeal.ReadP.val_main_v32, Cert.ReferenceIdeal.ReadP.val_main_v33, Cert.ReferenceIdeal.ReadP.val_main_cst_11, Cert.ReferenceIdeal.ReadP.val_main_v34, Cert.ReferenceIdeal.ReadP.val_main_v35, Cert.ReferenceIdeal.ReadP.val_main_cst_12, Cert.ReferenceIdeal.ReadP.val_main_v36, Cert.ReferenceIdeal.ReadP.val_main_v37, Cert.ReferenceIdeal.ReadP.val_main_c_13, Cert.ReferenceIdeal.ReadP.val_main_v38, Cert.ReferenceIdeal.ReadP.val_main_v39, Cert.ReferenceIdeal.ReadP.val_main_c_14]); (try rfl))
  · (simp only [main_part0_ops8_p0]; read_results; (try simp only [h_main_v1, h_main_v10, h_main_v13, h_main_v15, h_main_v18, h_main_v20, h_main_v23, TRef.ofBuf, TRef.toBuf, cast_eq]);
     (try simp only [Cert.ReferenceIdeal.ReadP.val_main_v24, Cert.ReferenceIdeal.ReadP.val_main_v25, Cert.ReferenceIdeal.ReadP.val_main_c_7, Cert.ReferenceIdeal.ReadP.val_main_v26, Cert.ReferenceIdeal.ReadP.val_main_v27, Cert.ReferenceIdeal.ReadP.val_main_c_8, Cert.ReferenceIdeal.ReadP.val_main_v28, Cert.ReferenceIdeal.ReadP.val_main_v29, Cert.ReferenceIdeal.ReadP.val_main_c_9, Cert.ReferenceIdeal.ReadP.val_main_v30, Cert.ReferenceIdeal.ReadP.val_main_v31, Cert.ReferenceIdeal.ReadP.val_main_cst_10, Cert.ReferenceIdeal.ReadP.val_main_v32, Cert.ReferenceIdeal.ReadP.val_main_v33, Cert.ReferenceIdeal.ReadP.val_main_cst_11, Cert.ReferenceIdeal.ReadP.val_main_v34, Cert.ReferenceIdeal.ReadP.val_main_v35, Cert.ReferenceIdeal.ReadP.val_main_cst_12, Cert.ReferenceIdeal.ReadP.val_main_v36, Cert.ReferenceIdeal.ReadP.val_main_v37, Cert.ReferenceIdeal.ReadP.val_main_c_13, Cert.ReferenceIdeal.ReadP.val_main_v38, Cert.ReferenceIdeal.ReadP.val_main_v39, Cert.ReferenceIdeal.ReadP.val_main_c_14]); (try rfl))
  · (simp only [main_part0_ops8_p0]; read_results; (try simp only [h_main_v1, h_main_v10, h_main_v13, h_main_v15, h_main_v18, h_main_v20, h_main_v23, TRef.ofBuf, TRef.toBuf, cast_eq]);
     (try simp only [Cert.ReferenceIdeal.ReadP.val_main_v24, Cert.ReferenceIdeal.ReadP.val_main_v25, Cert.ReferenceIdeal.ReadP.val_main_c_7, Cert.ReferenceIdeal.ReadP.val_main_v26, Cert.ReferenceIdeal.ReadP.val_main_v27, Cert.ReferenceIdeal.ReadP.val_main_c_8, Cert.ReferenceIdeal.ReadP.val_main_v28, Cert.ReferenceIdeal.ReadP.val_main_v29, Cert.ReferenceIdeal.ReadP.val_main_c_9, Cert.ReferenceIdeal.ReadP.val_main_v30, Cert.ReferenceIdeal.ReadP.val_main_v31, Cert.ReferenceIdeal.ReadP.val_main_cst_10, Cert.ReferenceIdeal.ReadP.val_main_v32, Cert.ReferenceIdeal.ReadP.val_main_v33, Cert.ReferenceIdeal.ReadP.val_main_cst_11, Cert.ReferenceIdeal.ReadP.val_main_v34, Cert.ReferenceIdeal.ReadP.val_main_v35, Cert.ReferenceIdeal.ReadP.val_main_cst_12, Cert.ReferenceIdeal.ReadP.val_main_v36, Cert.ReferenceIdeal.ReadP.val_main_v37, Cert.ReferenceIdeal.ReadP.val_main_c_13, Cert.ReferenceIdeal.ReadP.val_main_v38, Cert.ReferenceIdeal.ReadP.val_main_v39, Cert.ReferenceIdeal.ReadP.val_main_c_14]); (try rfl))
  · (simp only [main_part0_ops8_p0]; read_results; (try simp only [h_main_v1, h_main_v10, h_main_v13, h_main_v15, h_main_v18, h_main_v20, h_main_v23, TRef.ofBuf, TRef.toBuf, cast_eq]);
     (try simp only [Cert.ReferenceIdeal.ReadP.val_main_v24, Cert.ReferenceIdeal.ReadP.val_main_v25, Cert.ReferenceIdeal.ReadP.val_main_c_7, Cert.ReferenceIdeal.ReadP.val_main_v26, Cert.ReferenceIdeal.ReadP.val_main_v27, Cert.ReferenceIdeal.ReadP.val_main_c_8, Cert.ReferenceIdeal.ReadP.val_main_v28, Cert.ReferenceIdeal.ReadP.val_main_v29, Cert.ReferenceIdeal.ReadP.val_main_c_9, Cert.ReferenceIdeal.ReadP.val_main_v30, Cert.ReferenceIdeal.ReadP.val_main_v31, Cert.ReferenceIdeal.ReadP.val_main_cst_10, Cert.ReferenceIdeal.ReadP.val_main_v32, Cert.ReferenceIdeal.ReadP.val_main_v33, Cert.ReferenceIdeal.ReadP.val_main_cst_11, Cert.ReferenceIdeal.ReadP.val_main_v34, Cert.ReferenceIdeal.ReadP.val_main_v35, Cert.ReferenceIdeal.ReadP.val_main_cst_12, Cert.ReferenceIdeal.ReadP.val_main_v36, Cert.ReferenceIdeal.ReadP.val_main_v37, Cert.ReferenceIdeal.ReadP.val_main_c_13, Cert.ReferenceIdeal.ReadP.val_main_v38, Cert.ReferenceIdeal.ReadP.val_main_v39, Cert.ReferenceIdeal.ReadP.val_main_c_14]); (try rfl))
  · (simp only [main_part0_ops8_p0]; read_results; (try simp only [h_main_v1, h_main_v10, h_main_v13, h_main_v15, h_main_v18, h_main_v20, h_main_v23, TRef.ofBuf, TRef.toBuf, cast_eq]);
     (try simp only [Cert.ReferenceIdeal.ReadP.val_main_v24, Cert.ReferenceIdeal.ReadP.val_main_v25, Cert.ReferenceIdeal.ReadP.val_main_c_7, Cert.ReferenceIdeal.ReadP.val_main_v26, Cert.ReferenceIdeal.ReadP.val_main_v27, Cert.ReferenceIdeal.ReadP.val_main_c_8, Cert.ReferenceIdeal.ReadP.val_main_v28, Cert.ReferenceIdeal.ReadP.val_main_v29, Cert.ReferenceIdeal.ReadP.val_main_c_9, Cert.ReferenceIdeal.ReadP.val_main_v30, Cert.ReferenceIdeal.ReadP.val_main_v31, Cert.ReferenceIdeal.ReadP.val_main_cst_10, Cert.ReferenceIdeal.ReadP.val_main_v32, Cert.ReferenceIdeal.ReadP.val_main_v33, Cert.ReferenceIdeal.ReadP.val_main_cst_11, Cert.ReferenceIdeal.ReadP.val_main_v34, Cert.ReferenceIdeal.ReadP.val_main_v35, Cert.ReferenceIdeal.ReadP.val_main_cst_12, Cert.ReferenceIdeal.ReadP.val_main_v36, Cert.ReferenceIdeal.ReadP.val_main_v37, Cert.ReferenceIdeal.ReadP.val_main_c_13, Cert.ReferenceIdeal.ReadP.val_main_v38, Cert.ReferenceIdeal.ReadP.val_main_v39, Cert.ReferenceIdeal.ReadP.val_main_c_14]); (try rfl))

/-- A piece of `main_part0_ops8`. -/
abbrev main_part0_ops8_p1 : List (HloOp τ sig (Elt F)) :=
  [ StableHlo.unary main_c_14 main_v40 (broadcastInDim S4x512x512 ![] bcast_S_S4x512x512 : (⟨S_, .i32⟩ : BufTy).Contents (Elt F) → (⟨S4x512x512, .i32⟩ : BufTy).Contents (Elt F)),
    StableHlo.binary main_v23 main_v40 main_v41 (addi : (⟨S4x512x512, .i32⟩ : BufTy).Contents (Elt F) → (⟨S4x512x512, .i32⟩ : BufTy).Contents (Elt F) → (⟨S4x512x512, .i32⟩ : BufTy).Contents (Elt F)),
    StableHlo.ternary main_v39 main_v41 main_v23 main_v42 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)) ]
abbrev wr_main_part0_ops8_p1 : List (Ref sig .tc) := [main_v40, main_v41, main_v42]
set_option maxRecDepth 16384 in
set_option maxHeartbeats 40000000 in
theorem main_part0_ops8_p1_writes : (main_part0_ops8_p1 : List (HloOp τ sig (Elt F))).Forall fun op =>
    op.writes ⊆ (wr_main_part0_ops8_p1.map (Proc.devRef (τ := τ) .tc)).toFinset :=
  ⟨writes_sub_of rfl (by decide), writes_sub_of rfl (by decide), writes_sub_of rfl (by decide)⟩
set_option maxRecDepth 16384 in
set_option maxHeartbeats 40000000 in
theorem stage_main_part0_ops8_p1 (W : Valuation τ sig (Elt F)) (x2 : (⟨S4x3x512x512, .f32⟩ : BufTy).Contents (Elt F)) (x3 : (⟨S107811x8, .f32⟩ : BufTy).Contents (Elt F))
    (h_main_c_14 : W (Proc.devRef .tc main_c_14) = Cert.ReferenceIdeal.ReadP.val_main_c_14 (F := F))
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v23 : W (Proc.devRef .tc main_v23) = Cert.ReferenceIdeal.ReadP.val_main_v23 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    (h_main_v39 : W (Proc.devRef .tc main_v39) = Cert.ReferenceIdeal.ReadP.val_main_v39 (F := F) x2)
    : (after main_part0_ops8_p1 W (Proc.devRef .tc main_v1) = Cert.ReferenceIdeal.ReadP.val_main_v1 (F := F) x3)
      ∧ (after main_part0_ops8_p1 W (Proc.devRef .tc main_v13) = Cert.ReferenceIdeal.ReadP.val_main_v13 (F := F) x2)
      ∧ (after main_part0_ops8_p1 W (Proc.devRef .tc main_v15) = Cert.ReferenceIdeal.ReadP.val_main_v15 (F := F) x2)
      ∧ (after main_part0_ops8_p1 W (Proc.devRef .tc main_v18) = Cert.ReferenceIdeal.ReadP.val_main_v18 (F := F) x2)
      ∧ (after main_part0_ops8_p1 W (Proc.devRef .tc main_v20) = Cert.ReferenceIdeal.ReadP.val_main_v20 (F := F) x2)
      ∧ (after main_part0_ops8_p1 W (Proc.devRef .tc main_v23) = Cert.ReferenceIdeal.ReadP.val_main_v23 (F := F) x2)
      ∧ (after main_part0_ops8_p1 W (Proc.devRef .tc main_v25) = Cert.ReferenceIdeal.ReadP.val_main_v25 (F := F) x2)
      ∧ (after main_part0_ops8_p1 W (Proc.devRef .tc main_v27) = Cert.ReferenceIdeal.ReadP.val_main_v27 (F := F) x2)
      ∧ (after main_part0_ops8_p1 W (Proc.devRef .tc main_v29) = Cert.ReferenceIdeal.ReadP.val_main_v29 (F := F) x2)
      ∧ (after main_part0_ops8_p1 W (Proc.devRef .tc main_v31) = Cert.ReferenceIdeal.ReadP.val_main_v31 (F := F) x2)
      ∧ (after main_part0_ops8_p1 W (Proc.devRef .tc main_v33) = Cert.ReferenceIdeal.ReadP.val_main_v33 (F := F) x2)
      ∧ (after main_part0_ops8_p1 W (Proc.devRef .tc main_v35) = Cert.ReferenceIdeal.ReadP.val_main_v35 (F := F) x2)
      ∧ (after main_part0_ops8_p1 W (Proc.devRef .tc main_v37) = Cert.ReferenceIdeal.ReadP.val_main_v37 (F := F) x2)
      ∧ (after main_part0_ops8_p1 W (Proc.devRef .tc main_v42) = Cert.ReferenceIdeal.ReadP.val_main_v42 (F := F) x2) := by
  refine ⟨?_, ?_, ?_, ?_, ?_, ?_, ?_, ?_, ?_, ?_, ?_, ?_, ?_, ?_⟩
  · exact (after_of_writes_sub _ W main_part0_ops8_p1_writes (by decide)).trans h_main_v1
  · exact (after_of_writes_sub _ W main_part0_ops8_p1_writes (by decide)).trans h_main_v13
  · exact (after_of_writes_sub _ W main_part0_ops8_p1_writes (by decide)).trans h_main_v15
  · exact (after_of_writes_sub _ W main_part0_ops8_p1_writes (by decide)).trans h_main_v18
  · exact (after_of_writes_sub _ W main_part0_ops8_p1_writes (by decide)).trans h_main_v20
  · exact (after_of_writes_sub _ W main_part0_ops8_p1_writes (by decide)).trans h_main_v23
  · exact (after_of_writes_sub _ W main_part0_ops8_p1_writes (by decide)).trans h_main_v25
  · exact (after_of_writes_sub _ W main_part0_ops8_p1_writes (by decide)).trans h_main_v27
  · exact (after_of_writes_sub _ W main_part0_ops8_p1_writes (by decide)).trans h_main_v29
  · exact (after_of_writes_sub _ W main_part0_ops8_p1_writes (by decide)).trans h_main_v31
  · exact (after_of_writes_sub _ W main_part0_ops8_p1_writes (by decide)).trans h_main_v33
  · exact (after_of_writes_sub _ W main_part0_ops8_p1_writes (by decide)).trans h_main_v35
  · exact (after_of_writes_sub _ W main_part0_ops8_p1_writes (by decide)).trans h_main_v37
  · (simp only [main_part0_ops8_p1]; read_results; (try simp only [h_main_c_14, h_main_v1, h_main_v13, h_main_v15, h_main_v18, h_main_v20, h_main_v23, h_main_v25, h_main_v27, h_main_v29, h_main_v31, h_main_v33, h_main_v35, h_main_v37, h_main_v39, TRef.ofBuf, TRef.toBuf, cast_eq]);
     (try simp only [Cert.ReferenceIdeal.ReadP.val_main_v40, Cert.ReferenceIdeal.ReadP.val_main_v41, Cert.ReferenceIdeal.ReadP.val_main_v42]); (try rfl))

/-- A piece of `main_part1_ops0`. -/
abbrev main_part1_ops0_p0 : List (HloOp τ sig (Elt F)) :=
  [ StableHlo.nullary main_c_15 (constantI S_ 32 0#32),
    StableHlo.unary main_c_15 main_v43 (broadcastInDim S4x512x512 ![] bcast_S_S4x512x512 : (⟨S_, .i32⟩ : BufTy).Contents (Elt F) → (⟨S4x512x512, .i32⟩ : BufTy).Contents (Elt F)),
    StableHlo.binary main_v18 main_v43 main_v44 (cmpi .slt : (⟨S4x512x512, .i32⟩ : BufTy).Contents (Elt F) → (⟨S4x512x512, .i32⟩ : BufTy).Contents (Elt F) → (⟨S4x512x512, .i1⟩ : BufTy).Contents (Elt F)),
    StableHlo.nullary main_c_16 (constantI S_ 32 33#32),
    StableHlo.unary main_c_16 main_v45 (broadcastInDim S4x512x512 ![] bcast_S_S4x512x512 : (⟨S_, .i32⟩ : BufTy).Contents (Elt F) → (⟨S4x512x512, .i32⟩ : BufTy).Contents (Elt F)),
    StableHlo.binary main_v18 main_v45 main_v46 (addi : (⟨S4x512x512, .i32⟩ : BufTy).Contents (Elt F) → (⟨S4x512x512, .i32⟩ : BufTy).Contents (Elt F) → (⟨S4x512x512, .i32⟩ : BufTy).Contents (Elt F)),
    StableHlo.ternary main_v44 main_v46 main_v18 main_v47 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    StableHlo.nullary main_c_17 (constantI S_ 32 0#32),
    StableHlo.unary main_c_17 main_v48 (broadcastInDim S4x512x512 ![] bcast_S_S4x512x512 : (⟨S_, .i32⟩ : BufTy).Contents (Elt F) → (⟨S4x512x512, .i32⟩ : BufTy).Contents (Elt F)),
    StableHlo.binary main_v13 main_v48 main_v49 (cmpi .slt : (⟨S4x512x512, .i32⟩ : BufTy).Contents (Elt F) → (⟨S4x512x512, .i32⟩ : BufTy).Contents (Elt F) → (⟨S4x512x512, .i1⟩ : BufTy).Contents (Elt F)),
    StableHlo.nullary main_c_18 (constantI S_ 32 33#32),
    StableHlo.unary main_c_18 main_v50 (broadcastInDim S4x512x512 ![] bcast_S_S4x512x512 : (⟨S_, .i32⟩ : BufTy).Contents (Elt F) → (⟨S4x512x512, .i32⟩ : BufTy).Contents (Elt F)),
    StableHlo.binary main_v13 main_v50 main_v51 (addi : (⟨S4x512x512, .i32⟩ : BufTy).Contents (Elt F) → (⟨S4x512x512, .i32⟩ : BufTy).Contents (Elt F) → (⟨S4x512x512, .i32⟩ : BufTy).Contents (Elt F)),
    StableHlo.ternary main_v49 main_v51 main_v13 main_v52 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    StableHlo.unary main_v42 main_v53 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    StableHlo.unary main_v47 main_v54 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    StableHlo.unary main_v52 main_v55 (broadcastInDim S4x512x512x1 ![0, 1, 2] bcast_S4x512x512_S4x512x512x1_0_1_2 : (⟨S4x512x512, .i32⟩ : BufTy).Contents (Elt F) → (⟨S4x512x512x1, .i32⟩ : BufTy).Contents (Elt F)) ]
abbrev wr_main_part1_ops0_p0 : List (Ref sig .tc) := [main_c_15, main_v43, main_v44, main_c_16, main_v45, main_v46, main_v47, main_c_17, main_v48, main_v49, main_c_18, main_v50, main_v51, main_v52, main_v53, main_v54, main_v55]
set_option maxRecDepth 16384 in
set_option maxHeartbeats 40000000 in
theorem main_part1_ops0_p0_writes : (main_part1_ops0_p0 : List (HloOp τ sig (Elt F))).Forall fun op =>
    op.writes ⊆ (wr_main_part1_ops0_p0.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_main_part1_ops0_p0 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v23 : W (Proc.devRef .tc main_v23) = Cert.ReferenceIdeal.ReadP.val_main_v23 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    (h_main_v42 : W (Proc.devRef .tc main_v42) = Cert.ReferenceIdeal.ReadP.val_main_v42 (F := F) x2)
    : (after main_part1_ops0_p0 W (Proc.devRef .tc main_v1) = Cert.ReferenceIdeal.ReadP.val_main_v1 (F := F) x3)
      ∧ (after main_part1_ops0_p0 W (Proc.devRef .tc main_v13) = Cert.ReferenceIdeal.ReadP.val_main_v13 (F := F) x2)
      ∧ (after main_part1_ops0_p0 W (Proc.devRef .tc main_v15) = Cert.ReferenceIdeal.ReadP.val_main_v15 (F := F) x2)
      ∧ (after main_part1_ops0_p0 W (Proc.devRef .tc main_v18) = Cert.ReferenceIdeal.ReadP.val_main_v18 (F := F) x2)
      ∧ (after main_part1_ops0_p0 W (Proc.devRef .tc main_v20) = Cert.ReferenceIdeal.ReadP.val_main_v20 (F := F) x2)
      ∧ (after main_part1_ops0_p0 W (Proc.devRef .tc main_v23) = Cert.ReferenceIdeal.ReadP.val_main_v23 (F := F) x2)
      ∧ (after main_part1_ops0_p0 W (Proc.devRef .tc main_v25) = Cert.ReferenceIdeal.ReadP.val_main_v25 (F := F) x2)
      ∧ (after main_part1_ops0_p0 W (Proc.devRef .tc main_v27) = Cert.ReferenceIdeal.ReadP.val_main_v27 (F := F) x2)
      ∧ (after main_part1_ops0_p0 W (Proc.devRef .tc main_v29) = Cert.ReferenceIdeal.ReadP.val_main_v29 (F := F) x2)
      ∧ (after main_part1_ops0_p0 W (Proc.devRef .tc main_v31) = Cert.ReferenceIdeal.ReadP.val_main_v31 (F := F) x2)
      ∧ (after main_part1_ops0_p0 W (Proc.devRef .tc main_v33) = Cert.ReferenceIdeal.ReadP.val_main_v33 (F := F) x2)
      ∧ (after main_part1_ops0_p0 W (Proc.devRef .tc main_v35) = Cert.ReferenceIdeal.ReadP.val_main_v35 (F := F) x2)
      ∧ (after main_part1_ops0_p0 W (Proc.devRef .tc main_v37) = Cert.ReferenceIdeal.ReadP.val_main_v37 (F := F) x2)
      ∧ (after main_part1_ops0_p0 W (Proc.devRef .tc main_v53) = Cert.ReferenceIdeal.ReadP.val_main_v53 (F := F) x2)
      ∧ (after main_part1_ops0_p0 W (Proc.devRef .tc main_v54) = Cert.ReferenceIdeal.ReadP.val_main_v54 (F := F) x2)
      ∧ (after main_part1_ops0_p0 W (Proc.devRef .tc main_v55) = Cert.ReferenceIdeal.ReadP.val_main_v55 (F := F) x2) := by
  refine ⟨?_, ?_, ?_, ?_, ?_, ?_, ?_, ?_, ?_, ?_, ?_, ?_, ?_, ?_, ?_, ?_⟩
  · exact (after_of_writes_sub _ W main_part1_ops0_p0_writes (by decide)).trans h_main_v1
  · exact (after_of_writes_sub _ W main_part1_ops0_p0_writes (by decide)).trans h_main_v13
  · exact (after_of_writes_sub _ W main_part1_ops0_p0_writes (by decide)).trans h_main_v15
  · exact (after_of_writes_sub _ W main_part1_ops0_p0_writes (by decide)).trans h_main_v18
  · exact (after_of_writes_sub _ W main_part1_ops0_p0_writes (by decide)).trans h_main_v20
  · exact (after_of_writes_sub _ W main_part1_ops0_p0_writes (by decide)).trans h_main_v23
  · exact (after_of_writes_sub _ W main_part1_ops0_p0_writes (by decide)).trans h_main_v25
  · exact (after_of_writes_sub _ W main_part1_ops0_p0_writes (by decide)).trans h_main_v27
  · exact (after_of_writes_sub _ W main_part1_ops0_p0_writes (by decide)).trans h_main_v29
  · exact (after_of_writes_sub _ W main_part1_ops0_p0_writes (by decide)).trans h_main_v31
  · exact (after_of_writes_sub _ W main_part1_ops0_p0_writes (by decide)).trans h_main_v33
  · exact (after_of_writes_sub _ W main_part1_ops0_p0_writes (by decide)).trans h_main_v35
  · exact (after_of_writes_sub _ W main_part1_ops0_p0_writes (by decide)).trans h_main_v37
  · (simp only [main_part1_ops0_p0]; read_results; (try simp only [h_main_v1, h_main_v13, h_main_v15, h_main_v18, h_main_v20, h_main_v23, h_main_v25, h_main_v27, h_main_v29, h_main_v31, h_main_v33, h_main_v35, h_main_v37, h_main_v42, TRef.ofBuf, TRef.toBuf, cast_eq]);
     (try simp only [Cert.ReferenceIdeal.ReadP.val_main_c_15, Cert.ReferenceIdeal.ReadP.val_main_v43, Cert.ReferenceIdeal.ReadP.val_main_v44, Cert.ReferenceIdeal.ReadP.val_main_c_16, Cert.ReferenceIdeal.ReadP.val_main_v45, Cert.ReferenceIdeal.ReadP.val_main_v46, Cert.ReferenceIdeal.ReadP.val_main_v47, Cert.ReferenceIdeal.ReadP.val_main_c_17, Cert.ReferenceIdeal.ReadP.val_main_v48, Cert.ReferenceIdeal.ReadP.val_main_v49, Cert.ReferenceIdeal.ReadP.val_main_c_18, Cert.ReferenceIdeal.ReadP.val_main_v50, Cert.ReferenceIdeal.ReadP.val_main_v51, Cert.ReferenceIdeal.ReadP.val_main_v52, Cert.ReferenceIdeal.ReadP.val_main_v53, Cert.ReferenceIdeal.ReadP.val_main_v54, Cert.ReferenceIdeal.ReadP.val_main_v55]); (try rfl))
  · (simp only [main_part1_ops0_p0]; read_results; (try simp only [h_main_v1, h_main_v13, h_main_v15, h_main_v18, h_main_v20, h_main_v23, h_main_v25, h_main_v27, h_main_v29, h_main_v31, h_main_v33, h_main_v35, h_main_v37, h_main_v42, TRef.ofBuf, TRef.toBuf, cast_eq]);
     (try simp only [Cert.ReferenceIdeal.ReadP.val_main_c_15, Cert.ReferenceIdeal.ReadP.val_main_v43, Cert.ReferenceIdeal.ReadP.val_main_v44, Cert.ReferenceIdeal.ReadP.val_main_c_16, Cert.ReferenceIdeal.ReadP.val_main_v45, Cert.ReferenceIdeal.ReadP.val_main_v46, Cert.ReferenceIdeal.ReadP.val_main_v47, Cert.ReferenceIdeal.ReadP.val_main_c_17, Cert.ReferenceIdeal.ReadP.val_main_v48, Cert.ReferenceIdeal.ReadP.val_main_v49, Cert.ReferenceIdeal.ReadP.val_main_c_18, Cert.ReferenceIdeal.ReadP.val_main_v50, Cert.ReferenceIdeal.ReadP.val_main_v51, Cert.ReferenceIdeal.ReadP.val_main_v52, Cert.ReferenceIdeal.ReadP.val_main_v53, Cert.ReferenceIdeal.ReadP.val_main_v54, Cert.ReferenceIdeal.ReadP.val_main_v55]); (try rfl))
  · (simp only [main_part1_ops0_p0]; read_results; (try simp only [h_main_v1, h_main_v13, h_main_v15, h_main_v18, h_main_v20, h_main_v23, h_main_v25, h_main_v27, h_main_v29, h_main_v31, h_main_v33, h_main_v35, h_main_v37, h_main_v42, TRef.ofBuf, TRef.toBuf, cast_eq]);
     (try simp only [Cert.ReferenceIdeal.ReadP.val_main_c_15, Cert.ReferenceIdeal.ReadP.val_main_v43, Cert.ReferenceIdeal.ReadP.val_main_v44, Cert.ReferenceIdeal.ReadP.val_main_c_16, Cert.ReferenceIdeal.ReadP.val_main_v45, Cert.ReferenceIdeal.ReadP.val_main_v46, Cert.ReferenceIdeal.ReadP.val_main_v47, Cert.ReferenceIdeal.ReadP.val_main_c_17, Cert.ReferenceIdeal.ReadP.val_main_v48, Cert.ReferenceIdeal.ReadP.val_main_v49, Cert.ReferenceIdeal.ReadP.val_main_c_18, Cert.ReferenceIdeal.ReadP.val_main_v50, Cert.ReferenceIdeal.ReadP.val_main_v51, Cert.ReferenceIdeal.ReadP.val_main_v52, Cert.ReferenceIdeal.ReadP.val_main_v53, Cert.ReferenceIdeal.ReadP.val_main_v54, Cert.ReferenceIdeal.ReadP.val_main_v55]); (try rfl))

/-- A piece of `main_part1_ops0`. -/
abbrev main_part1_ops0_p1 : List (HloOp τ sig (Elt F)) :=
  [ StableHlo.nary ![main_v53, main_v54, main_v55] main_v56 (fun u => concatenate S4x512x512x3 3 [⟨S4x512x512x1, u 0⟩, ⟨S4x512x512x1, u 1⟩, ⟨S4x512x512x1, u 2⟩] concatenates_S4x512x512x1_S4x512x512x1_S4x512x512x1_S4x512x512x3_d3) ]
abbrev wr_main_part1_ops0_p1 : List (Ref sig .tc) := [main_v56]
set_option maxRecDepth 16384 in
set_option maxHeartbeats 40000000 in
theorem main_part1_ops0_p1_writes : (main_part1_ops0_p1 : List (HloOp τ sig (Elt F))).Forall fun op =>
    op.writes ⊆ (wr_main_part1_ops0_p1.map (Proc.devRef (τ := τ) .tc)).toFinset :=
  by simp only [List.Forall]; exact writes_sub_of rfl (by decide)
set_option maxRecDepth 16384 in
set_option maxHeartbeats 40000000 in
theorem stage_main_part1_ops0_p1 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v23 : W (Proc.devRef .tc main_v23) = Cert.ReferenceIdeal.ReadP.val_main_v23 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    (h_main_v53 : W (Proc.devRef .tc main_v53) = Cert.ReferenceIdeal.ReadP.val_main_v53 (F := F) x2)
    (h_main_v54 : W (Proc.devRef .tc main_v54) = Cert.ReferenceIdeal.ReadP.val_main_v54 (F := F) x2)
    (h_main_v55 : W (Proc.devRef .tc main_v55) = Cert.ReferenceIdeal.ReadP.val_main_v55 (F := F) x2)
    : (after main_part1_ops0_p1 W (Proc.devRef .tc main_v1) = Cert.ReferenceIdeal.ReadP.val_main_v1 (F := F) x3)
      ∧ (after main_part1_ops0_p1 W (Proc.devRef .tc main_v13) = Cert.ReferenceIdeal.ReadP.val_main_v13 (F := F) x2)
      ∧ (after main_part1_ops0_p1 W (Proc.devRef .tc main_v15) = Cert.ReferenceIdeal.ReadP.val_main_v15 (F := F) x2)
      ∧ (after main_part1_ops0_p1 W (Proc.devRef .tc main_v18) = Cert.ReferenceIdeal.ReadP.val_main_v18 (F := F) x2)
      ∧ (after main_part1_ops0_p1 W (Proc.devRef .tc main_v20) = Cert.ReferenceIdeal.ReadP.val_main_v20 (F := F) x2)
      ∧ (after main_part1_ops0_p1 W (Proc.devRef .tc main_v23) = Cert.ReferenceIdeal.ReadP.val_main_v23 (F := F) x2)
      ∧ (after main_part1_ops0_p1 W (Proc.devRef .tc main_v25) = Cert.ReferenceIdeal.ReadP.val_main_v25 (F := F) x2)
      ∧ (after main_part1_ops0_p1 W (Proc.devRef .tc main_v27) = Cert.ReferenceIdeal.ReadP.val_main_v27 (F := F) x2)
      ∧ (after main_part1_ops0_p1 W (Proc.devRef .tc main_v29) = Cert.ReferenceIdeal.ReadP.val_main_v29 (F := F) x2)
      ∧ (after main_part1_ops0_p1 W (Proc.devRef .tc main_v31) = Cert.ReferenceIdeal.ReadP.val_main_v31 (F := F) x2)
      ∧ (after main_part1_ops0_p1 W (Proc.devRef .tc main_v33) = Cert.ReferenceIdeal.ReadP.val_main_v33 (F := F) x2)
      ∧ (after main_part1_ops0_p1 W (Proc.devRef .tc main_v35) = Cert.ReferenceIdeal.ReadP.val_main_v35 (F := F) x2)
      ∧ (after main_part1_ops0_p1 W (Proc.devRef .tc main_v37) = Cert.ReferenceIdeal.ReadP.val_main_v37 (F := F) x2)
      ∧ (after main_part1_ops0_p1 W (Proc.devRef .tc main_v56) = Cert.ReferenceIdeal.ReadP.val_main_v56 (F := F) x2) := by
  refine ⟨?_, ?_, ?_, ?_, ?_, ?_, ?_, ?_, ?_, ?_, ?_, ?_, ?_, ?_⟩
  · exact (after_of_writes_sub _ W main_part1_ops0_p1_writes (by decide)).trans h_main_v1
  · exact (after_of_writes_sub _ W main_part1_ops0_p1_writes (by decide)).trans h_main_v13
  · exact (after_of_writes_sub _ W main_part1_ops0_p1_writes (by decide)).trans h_main_v15
  · exact (after_of_writes_sub _ W main_part1_ops0_p1_writes (by decide)).trans h_main_v18
  · exact (after_of_writes_sub _ W main_part1_ops0_p1_writes (by decide)).trans h_main_v20
  · exact (after_of_writes_sub _ W main_part1_ops0_p1_writes (by decide)).trans h_main_v23
  · exact (after_of_writes_sub _ W main_part1_ops0_p1_writes (by decide)).trans h_main_v25
  · exact (after_of_writes_sub _ W main_part1_ops0_p1_writes (by decide)).trans h_main_v27
  · exact (after_of_writes_sub _ W main_part1_ops0_p1_writes (by decide)).trans h_main_v29
  · exact (after_of_writes_sub _ W main_part1_ops0_p1_writes (by decide)).trans h_main_v31
  · exact (after_of_writes_sub _ W main_part1_ops0_p1_writes (by decide)).trans h_main_v33
  · exact (after_of_writes_sub _ W main_part1_ops0_p1_writes (by decide)).trans h_main_v35
  · exact (after_of_writes_sub _ W main_part1_ops0_p1_writes (by decide)).trans h_main_v37
  · simp only [main_part1_ops0_p1, after_cons, after_nil]
    rw [nary_result]
    show concatenate S4x512x512x3 3 [⟨S4x512x512x1, (W (Proc.devRef .tc main_v53))⟩, ⟨S4x512x512x1, (W (Proc.devRef .tc main_v54))⟩, ⟨S4x512x512x1, (W (Proc.devRef .tc main_v55))⟩] concatenates_S4x512x512x1_S4x512x512x1_S4x512x512x1_S4x512x512x3_d3 = _
    rw [h_main_v53, h_main_v54, h_main_v55]
    (try simp only [Cert.ReferenceIdeal.ReadP.val_main_v56])
    (try rfl)

/-- A piece of `main_part1_ops0`. -/
abbrev main_part1_ops0_p2 : List (HloOp τ sig (Elt F)) :=
  [ StableHlo.binary main_v1 main_v56 main_v57 ((fun x i => Host.gather gather_S8x3x33x33x33_S4x512x512x3_S8x3x4x512x512_01_234_n_n_234_3_83111 x i) : (⟨S8x3x33x33x33, .f32⟩ : BufTy).Contents (Elt F) → (⟨S4x512x512x3, .i32⟩ : BufTy).Contents (Elt F) → (⟨S8x3x4x512x512, .f32⟩ : BufTy).Contents (Elt F)),
    StableHlo.binary main_v37 main_v35 main_v58 (mulf : (⟨S4x512x512, .f32⟩ : BufTy).Contents (Elt F) → (⟨S4x512x512, .f32⟩ : BufTy).Contents (Elt F) → (⟨S4x512x512, .f32⟩ : BufTy).Contents (Elt F)),
    StableHlo.binary main_v58 main_v33 main_v59 (mulf : (⟨S4x512x512, .f32⟩ : BufTy).Contents (Elt F) → (⟨S4x512x512, .f32⟩ : BufTy).Contents (Elt F) → (⟨S4x512x512, .f32⟩ : BufTy).Contents (Elt F)),
    StableHlo.unary main_v59 main_v60 (broadcastInDim S1x1x4x512x512 ![2, 3, 4] bcast_S4x512x512_S1x1x4x512x512_2_3_4 : (⟨S4x512x512, .f32⟩ : BufTy).Contents (Elt F) → (⟨S1x1x4x512x512, .f32⟩ : BufTy).Contents (Elt F)),
    StableHlo.unary main_v60 main_v61 (broadcastInDim S8x3x4x512x512 ![0, 1, 2, 3, 4] bcast_S1x1x4x512x512_S8x3x4x512x512_0_1_2_3_4 : (⟨S1x1x4x512x512, .f32⟩ : BufTy).Contents (Elt F) → (⟨S8x3x4x512x512, .f32⟩ : BufTy).Contents (Elt F)),
    StableHlo.binary main_v57 main_v61 main_v62 (mulf : (⟨S8x3x4x512x512, .f32⟩ : BufTy).Contents (Elt F) → (⟨S8x3x4x512x512, .f32⟩ : BufTy).Contents (Elt F) → (⟨S8x3x4x512x512, .f32⟩ : BufTy).Contents (Elt F)),
    StableHlo.nullary main_c_19 (constantI S_ 32 0#32),
    StableHlo.unary main_c_19 main_v63 (broadcastInDim S4x512x512 ![] bcast_S_S4x512x512 : (⟨S_, .i32⟩ : BufTy).Contents (Elt F) → (⟨S4x512x512, .i32⟩ : BufTy).Contents (Elt F)),
    StableHlo.binary main_v23 main_v63 main_v64 (cmpi .slt : (⟨S4x512x512, .i32⟩ : BufTy).Contents (Elt F) → (⟨S4x512x512, .i32⟩ : BufTy).Contents (Elt F) → (⟨S4x512x512, .i1⟩ : BufTy).Contents (Elt F)),
    StableHlo.nullary main_c_20 (constantI S_ 32 33#32),
    StableHlo.unary main_c_20 main_v65 (broadcastInDim S4x512x512 ![] bcast_S_S4x512x512 : (⟨S_, .i32⟩ : BufTy).Contents (Elt F) → (⟨S4x512x512, .i32⟩ : BufTy).Contents (Elt F)),
    StableHlo.binary main_v23 main_v65 main_v66 (addi : (⟨S4x512x512, .i32⟩ : BufTy).Contents (Elt F) → (⟨S4x512x512, .i32⟩ : BufTy).Contents (Elt F) → (⟨S4x512x512, .i32⟩ : BufTy).Contents (Elt F)),
    StableHlo.ternary main_v64 main_v66 main_v23 main_v67 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    StableHlo.nullary main_c_21 (constantI S_ 32 0#32),
    StableHlo.unary main_c_21 main_v68 (broadcastInDim S4x512x512 ![] bcast_S_S4x512x512 : (⟨S_, .i32⟩ : BufTy).Contents (Elt F) → (⟨S4x512x512, .i32⟩ : BufTy).Contents (Elt F)),
    StableHlo.binary main_v18 main_v68 main_v69 (cmpi .slt : (⟨S4x512x512, .i32⟩ : BufTy).Contents (Elt F) → (⟨S4x512x512, .i32⟩ : BufTy).Contents (Elt F) → (⟨S4x512x512, .i1⟩ : BufTy).Contents (Elt F)),
    StableHlo.nullary main_c_22 (constantI S_ 32 33#32),
    StableHlo.unary main_c_22 main_v70 (broadcastInDim S4x512x512 ![] bcast_S_S4x512x512 : (⟨S_, .i32⟩ : BufTy).Contents (Elt F) → (⟨S4x512x512, .i32⟩ : BufTy).Contents (Elt F)),
    StableHlo.binary main_v18 main_v70 main_v71 (addi : (⟨S4x512x512, .i32⟩ : BufTy).Contents (Elt F) → (⟨S4x512x512, .i32⟩ : BufTy).Contents (Elt F) → (⟨S4x512x512, .i32⟩ : BufTy).Contents (Elt F)),
    StableHlo.ternary main_v69 main_v71 main_v18 main_v72 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    StableHlo.nullary main_c_23 (constantI S_ 32 0#32),
    StableHlo.unary main_c_23 main_v73 (broadcastInDim S4x512x512 ![] bcast_S_S4x512x512 : (⟨S_, .i32⟩ : BufTy).Contents (Elt F) → (⟨S4x512x512, .i32⟩ : BufTy).Contents (Elt F)),
    StableHlo.binary main_v27 main_v73 main_v74 (cmpi .slt : (⟨S4x512x512, .i32⟩ : BufTy).Contents (Elt F) → (⟨S4x512x512, .i32⟩ : BufTy).Contents (Elt F) → (⟨S4x512x512, .i1⟩ : BufTy).Contents (Elt F)),
    StableHlo.nullary main_c_24 (constantI S_ 32 33#32) ]
abbrev wr_main_part1_ops0_p2 : List (Ref sig .tc) := [main_v57, main_v58, main_v59, main_v60, main_v61, main_v62, main_c_19, main_v63, main_v64, main_c_20, main_v65, main_v66, main_v67, main_c_21, main_v68, main_v69, main_c_22, main_v70, main_v71, main_v72, main_c_23, main_v73, main_v74, main_c_24]
set_option maxRecDepth 16384 in
set_option maxHeartbeats 40000000 in
theorem main_part1_ops0_p2_writes : (main_part1_ops0_p2 : List (HloOp τ sig (Elt F))).Forall fun op =>
    op.writes ⊆ (wr_main_part1_ops0_p2.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_main_part1_ops0_p2 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v23 : W (Proc.devRef .tc main_v23) = Cert.ReferenceIdeal.ReadP.val_main_v23 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    (h_main_v56 : W (Proc.devRef .tc main_v56) = Cert.ReferenceIdeal.ReadP.val_main_v56 (F := F) x2)
    : (after main_part1_ops0_p2 W (Proc.devRef .tc main_c_24) = Cert.ReferenceIdeal.ReadP.val_main_c_24 (F := F))
      ∧ (after main_part1_ops0_p2 W (Proc.devRef .tc main_v1) = Cert.ReferenceIdeal.ReadP.val_main_v1 (F := F) x3)
      ∧ (after main_part1_ops0_p2 W (Proc.devRef .tc main_v13) = Cert.ReferenceIdeal.ReadP.val_main_v13 (F := F) x2)
      ∧ (after main_part1_ops0_p2 W (Proc.devRef .tc main_v15) = Cert.ReferenceIdeal.ReadP.val_main_v15 (F := F) x2)
      ∧ (after main_part1_ops0_p2 W (Proc.devRef .tc main_v18) = Cert.ReferenceIdeal.ReadP.val_main_v18 (F := F) x2)
      ∧ (after main_part1_ops0_p2 W (Proc.devRef .tc main_v20) = Cert.ReferenceIdeal.ReadP.val_main_v20 (F := F) x2)
      ∧ (after main_part1_ops0_p2 W (Proc.devRef .tc main_v23) = Cert.ReferenceIdeal.ReadP.val_main_v23 (F := F) x2)
      ∧ (after main_part1_ops0_p2 W (Proc.devRef .tc main_v25) = Cert.ReferenceIdeal.ReadP.val_main_v25 (F := F) x2)
      ∧ (after main_part1_ops0_p2 W (Proc.devRef .tc main_v27) = Cert.ReferenceIdeal.ReadP.val_main_v27 (F := F) x2)
      ∧ (after main_part1_ops0_p2 W (Proc.devRef .tc main_v29) = Cert.ReferenceIdeal.ReadP.val_main_v29 (F := F) x2)
      ∧ (after main_part1_ops0_p2 W (Proc.devRef .tc main_v31) = Cert.ReferenceIdeal.ReadP.val_main_v31 (F := F) x2)
      ∧ (after main_part1_ops0_p2 W (Proc.devRef .tc main_v33) = Cert.ReferenceIdeal.ReadP.val_main_v33 (F := F) x2)
      ∧ (after main_part1_ops0_p2 W (Proc.devRef .tc main_v35) = Cert.ReferenceIdeal.ReadP.val_main_v35 (F := F) x2)
      ∧ (after main_part1_ops0_p2 W (Proc.devRef .tc main_v37) = Cert.ReferenceIdeal.ReadP.val_main_v37 (F := F) x2)
      ∧ (after main_part1_ops0_p2 W (Proc.devRef .tc main_v62) = Cert.ReferenceIdeal.ReadP.val_main_v62 (F := F) x2 x3)
      ∧ (after main_part1_ops0_p2 W (Proc.devRef .tc main_v67) = Cert.ReferenceIdeal.ReadP.val_main_v67 (F := F) x2)
      ∧ (after main_part1_ops0_p2 W (Proc.devRef .tc main_v72) = Cert.ReferenceIdeal.ReadP.val_main_v72 (F := F) x2)
      ∧ (after main_part1_ops0_p2 W (Proc.devRef .tc main_v74) = Cert.ReferenceIdeal.ReadP.val_main_v74 (F := F) x2) := by
  refine ⟨?_, ?_, ?_, ?_, ?_, ?_, ?_, ?_, ?_, ?_, ?_, ?_, ?_, ?_, ?_, ?_, ?_, ?_⟩
  · (simp only [main_part1_ops0_p2]; read_results; (try simp only [h_main_v1, h_main_v13, h_main_v15, h_main_v18, h_main_v20, h_main_v23, h_main_v25, h_main_v27, h_main_v29, h_main_v31, h_main_v33, h_main_v35, h_main_v37, h_main_v56, TRef.ofBuf, TRef.toBuf, cast_eq]);
     (try simp only [Cert.ReferenceIdeal.ReadP.val_main_v57, Cert.ReferenceIdeal.ReadP.val_main_v58, Cert.ReferenceIdeal.ReadP.val_main_v59, Cert.ReferenceIdeal.ReadP.val_main_v60, Cert.ReferenceIdeal.ReadP.val_main_v61, Cert.ReferenceIdeal.ReadP.val_main_v62, Cert.ReferenceIdeal.ReadP.val_main_c_19, Cert.ReferenceIdeal.ReadP.val_main_v63, Cert.ReferenceIdeal.ReadP.val_main_v64, Cert.ReferenceIdeal.ReadP.val_main_c_20, Cert.ReferenceIdeal.ReadP.val_main_v65, Cert.ReferenceIdeal.ReadP.val_main_v66, Cert.ReferenceIdeal.ReadP.val_main_v67, Cert.ReferenceIdeal.ReadP.val_main_c_21, Cert.ReferenceIdeal.ReadP.val_main_v68, Cert.ReferenceIdeal.ReadP.val_main_v69, Cert.ReferenceIdeal.ReadP.val_main_c_22, Cert.ReferenceIdeal.ReadP.val_main_v70, Cert.ReferenceIdeal.ReadP.val_main_v71, Cert.ReferenceIdeal.ReadP.val_main_v72, Cert.ReferenceIdeal.ReadP.val_main_c_23, Cert.ReferenceIdeal.ReadP.val_main_v73, Cert.ReferenceIdeal.ReadP.val_main_v74, Cert.ReferenceIdeal.ReadP.val_main_c_24]); (try rfl))
  · exact (after_of_writes_sub _ W main_part1_ops0_p2_writes (by decide)).trans h_main_v1
  · exact (after_of_writes_sub _ W main_part1_ops0_p2_writes (by decide)).trans h_main_v13
  · exact (after_of_writes_sub _ W main_part1_ops0_p2_writes (by decide)).trans h_main_v15
  · exact (after_of_writes_sub _ W main_part1_ops0_p2_writes (by decide)).trans h_main_v18
  · exact (after_of_writes_sub _ W main_part1_ops0_p2_writes (by decide)).trans h_main_v20
  · exact (after_of_writes_sub _ W main_part1_ops0_p2_writes (by decide)).trans h_main_v23
  · exact (after_of_writes_sub _ W main_part1_ops0_p2_writes (by decide)).trans h_main_v25
  · exact (after_of_writes_sub _ W main_part1_ops0_p2_writes (by decide)).trans h_main_v27
  · exact (after_of_writes_sub _ W main_part1_ops0_p2_writes (by decide)).trans h_main_v29
  · exact (after_of_writes_sub _ W main_part1_ops0_p2_writes (by decide)).trans h_main_v31
  · exact (after_of_writes_sub _ W main_part1_ops0_p2_writes (by decide)).trans h_main_v33
  · exact (after_of_writes_sub _ W main_part1_ops0_p2_writes (by decide)).trans h_main_v35
  · exact (after_of_writes_sub _ W main_part1_ops0_p2_writes (by decide)).trans h_main_v37
  · (simp only [main_part1_ops0_p2]; read_results; (try simp only [h_main_v1, h_main_v13, h_main_v15, h_main_v18, h_main_v20, h_main_v23, h_main_v25, h_main_v27, h_main_v29, h_main_v31, h_main_v33, h_main_v35, h_main_v37, h_main_v56, TRef.ofBuf, TRef.toBuf, cast_eq]);
     (try simp only [Cert.ReferenceIdeal.ReadP.val_main_v57, Cert.ReferenceIdeal.ReadP.val_main_v58, Cert.ReferenceIdeal.ReadP.val_main_v59, Cert.ReferenceIdeal.ReadP.val_main_v60, Cert.ReferenceIdeal.ReadP.val_main_v61, Cert.ReferenceIdeal.ReadP.val_main_v62, Cert.ReferenceIdeal.ReadP.val_main_c_19, Cert.ReferenceIdeal.ReadP.val_main_v63, Cert.ReferenceIdeal.ReadP.val_main_v64, Cert.ReferenceIdeal.ReadP.val_main_c_20, Cert.ReferenceIdeal.ReadP.val_main_v65, Cert.ReferenceIdeal.ReadP.val_main_v66, Cert.ReferenceIdeal.ReadP.val_main_v67, Cert.ReferenceIdeal.ReadP.val_main_c_21, Cert.ReferenceIdeal.ReadP.val_main_v68, Cert.ReferenceIdeal.ReadP.val_main_v69, Cert.ReferenceIdeal.ReadP.val_main_c_22, Cert.ReferenceIdeal.ReadP.val_main_v70, Cert.ReferenceIdeal.ReadP.val_main_v71, Cert.ReferenceIdeal.ReadP.val_main_v72, Cert.ReferenceIdeal.ReadP.val_main_c_23, Cert.ReferenceIdeal.ReadP.val_main_v73, Cert.ReferenceIdeal.ReadP.val_main_v74, Cert.ReferenceIdeal.ReadP.val_main_c_24]); (try rfl))
  · (simp only [main_part1_ops0_p2]; read_results; (try simp only [h_main_v1, h_main_v13, h_main_v15, h_main_v18, h_main_v20, h_main_v23, h_main_v25, h_main_v27, h_main_v29, h_main_v31, h_main_v33, h_main_v35, h_main_v37, h_main_v56, TRef.ofBuf, TRef.toBuf, cast_eq]);
     (try simp only [Cert.ReferenceIdeal.ReadP.val_main_v57, Cert.ReferenceIdeal.ReadP.val_main_v58, Cert.ReferenceIdeal.ReadP.val_main_v59, Cert.ReferenceIdeal.ReadP.val_main_v60, Cert.ReferenceIdeal.ReadP.val_main_v61, Cert.ReferenceIdeal.ReadP.val_main_v62, Cert.ReferenceIdeal.ReadP.val_main_c_19, Cert.ReferenceIdeal.ReadP.val_main_v63, Cert.ReferenceIdeal.ReadP.val_main_v64, Cert.ReferenceIdeal.ReadP.val_main_c_20, Cert.ReferenceIdeal.ReadP.val_main_v65, Cert.ReferenceIdeal.ReadP.val_main_v66, Cert.ReferenceIdeal.ReadP.val_main_v67, Cert.ReferenceIdeal.ReadP.val_main_c_21, Cert.ReferenceIdeal.ReadP.val_main_v68, Cert.ReferenceIdeal.ReadP.val_main_v69, Cert.ReferenceIdeal.ReadP.val_main_c_22, Cert.ReferenceIdeal.ReadP.val_main_v70, Cert.ReferenceIdeal.ReadP.val_main_v71, Cert.ReferenceIdeal.ReadP.val_main_v72, Cert.ReferenceIdeal.ReadP.val_main_c_23, Cert.ReferenceIdeal.ReadP.val_main_v73, Cert.ReferenceIdeal.ReadP.val_main_v74, Cert.ReferenceIdeal.ReadP.val_main_c_24]); (try rfl))
  · (simp only [main_part1_ops0_p2]; read_results; (try simp only [h_main_v1, h_main_v13, h_main_v15, h_main_v18, h_main_v20, h_main_v23, h_main_v25, h_main_v27, h_main_v29, h_main_v31, h_main_v33, h_main_v35, h_main_v37, h_main_v56, TRef.ofBuf, TRef.toBuf, cast_eq]);
     (try simp only [Cert.ReferenceIdeal.ReadP.val_main_v57, Cert.ReferenceIdeal.ReadP.val_main_v58, Cert.ReferenceIdeal.ReadP.val_main_v59, Cert.ReferenceIdeal.ReadP.val_main_v60, Cert.ReferenceIdeal.ReadP.val_main_v61, Cert.ReferenceIdeal.ReadP.val_main_v62, Cert.ReferenceIdeal.ReadP.val_main_c_19, Cert.ReferenceIdeal.ReadP.val_main_v63, Cert.ReferenceIdeal.ReadP.val_main_v64, Cert.ReferenceIdeal.ReadP.val_main_c_20, Cert.ReferenceIdeal.ReadP.val_main_v65, Cert.ReferenceIdeal.ReadP.val_main_v66, Cert.ReferenceIdeal.ReadP.val_main_v67, Cert.ReferenceIdeal.ReadP.val_main_c_21, Cert.ReferenceIdeal.ReadP.val_main_v68, Cert.ReferenceIdeal.ReadP.val_main_v69, Cert.ReferenceIdeal.ReadP.val_main_c_22, Cert.ReferenceIdeal.ReadP.val_main_v70, Cert.ReferenceIdeal.ReadP.val_main_v71, Cert.ReferenceIdeal.ReadP.val_main_v72, Cert.ReferenceIdeal.ReadP.val_main_c_23, Cert.ReferenceIdeal.ReadP.val_main_v73, Cert.ReferenceIdeal.ReadP.val_main_v74, Cert.ReferenceIdeal.ReadP.val_main_c_24]); (try rfl))
  · (simp only [main_part1_ops0_p2]; read_results; (try simp only [h_main_v1, h_main_v13, h_main_v15, h_main_v18, h_main_v20, h_main_v23, h_main_v25, h_main_v27, h_main_v29, h_main_v31, h_main_v33, h_main_v35, h_main_v37, h_main_v56, TRef.ofBuf, TRef.toBuf, cast_eq]);
     (try simp only [Cert.ReferenceIdeal.ReadP.val_main_v57, Cert.ReferenceIdeal.ReadP.val_main_v58, Cert.ReferenceIdeal.ReadP.val_main_v59, Cert.ReferenceIdeal.ReadP.val_main_v60, Cert.ReferenceIdeal.ReadP.val_main_v61, Cert.ReferenceIdeal.ReadP.val_main_v62, Cert.ReferenceIdeal.ReadP.val_main_c_19, Cert.ReferenceIdeal.ReadP.val_main_v63, Cert.ReferenceIdeal.ReadP.val_main_v64, Cert.ReferenceIdeal.ReadP.val_main_c_20, Cert.ReferenceIdeal.ReadP.val_main_v65, Cert.ReferenceIdeal.ReadP.val_main_v66, Cert.ReferenceIdeal.ReadP.val_main_v67, Cert.ReferenceIdeal.ReadP.val_main_c_21, Cert.ReferenceIdeal.ReadP.val_main_v68, Cert.ReferenceIdeal.ReadP.val_main_v69, Cert.ReferenceIdeal.ReadP.val_main_c_22, Cert.ReferenceIdeal.ReadP.val_main_v70, Cert.ReferenceIdeal.ReadP.val_main_v71, Cert.ReferenceIdeal.ReadP.val_main_v72, Cert.ReferenceIdeal.ReadP.val_main_c_23, Cert.ReferenceIdeal.ReadP.val_main_v73, Cert.ReferenceIdeal.ReadP.val_main_v74, Cert.ReferenceIdeal.ReadP.val_main_c_24]); (try rfl))

/-- A piece of `main_part1_ops0`. -/
abbrev main_part1_ops0_p3 : List (HloOp τ sig (Elt F)) :=
  [ StableHlo.unary main_c_24 main_v75 (broadcastInDim S4x512x512 ![] bcast_S_S4x512x512 : (⟨S_, .i32⟩ : BufTy).Contents (Elt F) → (⟨S4x512x512, .i32⟩ : BufTy).Contents (Elt F)),
    StableHlo.binary main_v27 main_v75 main_v76 (addi : (⟨S4x512x512, .i32⟩ : BufTy).Contents (Elt F) → (⟨S4x512x512, .i32⟩ : BufTy).Contents (Elt F) → (⟨S4x512x512, .i32⟩ : BufTy).Contents (Elt F)),
    StableHlo.ternary main_v74 main_v76 main_v27 main_v77 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    StableHlo.unary main_v67 main_v78 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    StableHlo.unary main_v72 main_v79 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    StableHlo.unary main_v77 main_v80 (broadcastInDim S4x512x512x1 ![0, 1, 2] bcast_S4x512x512_S4x512x512x1_0_1_2 : (⟨S4x512x512, .i32⟩ : BufTy).Contents (Elt F) → (⟨S4x512x512x1, .i32⟩ : BufTy).Contents (Elt F)) ]
abbrev wr_main_part1_ops0_p3 : List (Ref sig .tc) := [main_v75, main_v76, main_v77, main_v78, main_v79, main_v80]
set_option maxRecDepth 16384 in
set_option maxHeartbeats 40000000 in
theorem main_part1_ops0_p3_writes : (main_part1_ops0_p3 : List (HloOp τ sig (Elt F))).Forall fun op =>
    op.writes ⊆ (wr_main_part1_ops0_p3.map (Proc.devRef (τ := τ) .tc)).toFinset :=
  ⟨writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_main_part1_ops0_p3 (W : Valuation τ sig (Elt F)) (x2 : (⟨S4x3x512x512, .f32⟩ : BufTy).Contents (Elt F)) (x3 : (⟨S107811x8, .f32⟩ : BufTy).Contents (Elt F))
    (h_main_c_24 : W (Proc.devRef .tc main_c_24) = Cert.ReferenceIdeal.ReadP.val_main_c_24 (F := F))
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v23 : W (Proc.devRef .tc main_v23) = Cert.ReferenceIdeal.ReadP.val_main_v23 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    (h_main_v62 : W (Proc.devRef .tc main_v62) = Cert.ReferenceIdeal.ReadP.val_main_v62 (F := F) x2 x3)
    (h_main_v67 : W (Proc.devRef .tc main_v67) = Cert.ReferenceIdeal.ReadP.val_main_v67 (F := F) x2)
    (h_main_v72 : W (Proc.devRef .tc main_v72) = Cert.ReferenceIdeal.ReadP.val_main_v72 (F := F) x2)
    (h_main_v74 : W (Proc.devRef .tc main_v74) = Cert.ReferenceIdeal.ReadP.val_main_v74 (F := F) x2)
    : (after main_part1_ops0_p3 W (Proc.devRef .tc main_v1) = Cert.ReferenceIdeal.ReadP.val_main_v1 (F := F) x3)
      ∧ (after main_part1_ops0_p3 W (Proc.devRef .tc main_v13) = Cert.ReferenceIdeal.ReadP.val_main_v13 (F := F) x2)
      ∧ (after main_part1_ops0_p3 W (Proc.devRef .tc main_v15) = Cert.ReferenceIdeal.ReadP.val_main_v15 (F := F) x2)
      ∧ (after main_part1_ops0_p3 W (Proc.devRef .tc main_v18) = Cert.ReferenceIdeal.ReadP.val_main_v18 (F := F) x2)
      ∧ (after main_part1_ops0_p3 W (Proc.devRef .tc main_v20) = Cert.ReferenceIdeal.ReadP.val_main_v20 (F := F) x2)
      ∧ (after main_part1_ops0_p3 W (Proc.devRef .tc main_v23) = Cert.ReferenceIdeal.ReadP.val_main_v23 (F := F) x2)
      ∧ (after main_part1_ops0_p3 W (Proc.devRef .tc main_v25) = Cert.ReferenceIdeal.ReadP.val_main_v25 (F := F) x2)
      ∧ (after main_part1_ops0_p3 W (Proc.devRef .tc main_v27) = Cert.ReferenceIdeal.ReadP.val_main_v27 (F := F) x2)
      ∧ (after main_part1_ops0_p3 W (Proc.devRef .tc main_v29) = Cert.ReferenceIdeal.ReadP.val_main_v29 (F := F) x2)
      ∧ (after main_part1_ops0_p3 W (Proc.devRef .tc main_v31) = Cert.ReferenceIdeal.ReadP.val_main_v31 (F := F) x2)
      ∧ (after main_part1_ops0_p3 W (Proc.devRef .tc main_v33) = Cert.ReferenceIdeal.ReadP.val_main_v33 (F := F) x2)
      ∧ (after main_part1_ops0_p3 W (Proc.devRef .tc main_v35) = Cert.ReferenceIdeal.ReadP.val_main_v35 (F := F) x2)
      ∧ (after main_part1_ops0_p3 W (Proc.devRef .tc main_v37) = Cert.ReferenceIdeal.ReadP.val_main_v37 (F := F) x2)
      ∧ (after main_part1_ops0_p3 W (Proc.devRef .tc main_v62) = Cert.ReferenceIdeal.ReadP.val_main_v62 (F := F) x2 x3)
      ∧ (after main_part1_ops0_p3 W (Proc.devRef .tc main_v78) = Cert.ReferenceIdeal.ReadP.val_main_v78 (F := F) x2)
      ∧ (after main_part1_ops0_p3 W (Proc.devRef .tc main_v79) = Cert.ReferenceIdeal.ReadP.val_main_v79 (F := F) x2)
      ∧ (after main_part1_ops0_p3 W (Proc.devRef .tc main_v80) = Cert.ReferenceIdeal.ReadP.val_main_v80 (F := F) x2) := by
  refine ⟨?_, ?_, ?_, ?_, ?_, ?_, ?_, ?_, ?_, ?_, ?_, ?_, ?_, ?_, ?_, ?_, ?_⟩
  · exact (after_of_writes_sub _ W main_part1_ops0_p3_writes (by decide)).trans h_main_v1
  · exact (after_of_writes_sub _ W main_part1_ops0_p3_writes (by decide)).trans h_main_v13
  · exact (after_of_writes_sub _ W main_part1_ops0_p3_writes (by decide)).trans h_main_v15
  · exact (after_of_writes_sub _ W main_part1_ops0_p3_writes (by decide)).trans h_main_v18
  · exact (after_of_writes_sub _ W main_part1_ops0_p3_writes (by decide)).trans h_main_v20
  · exact (after_of_writes_sub _ W main_part1_ops0_p3_writes (by decide)).trans h_main_v23
  · exact (after_of_writes_sub _ W main_part1_ops0_p3_writes (by decide)).trans h_main_v25
  · exact (after_of_writes_sub _ W main_part1_ops0_p3_writes (by decide)).trans h_main_v27
  · exact (after_of_writes_sub _ W main_part1_ops0_p3_writes (by decide)).trans h_main_v29
  · exact (after_of_writes_sub _ W main_part1_ops0_p3_writes (by decide)).trans h_main_v31
  · exact (after_of_writes_sub _ W main_part1_ops0_p3_writes (by decide)).trans h_main_v33
  · exact (after_of_writes_sub _ W main_part1_ops0_p3_writes (by decide)).trans h_main_v35
  · exact (after_of_writes_sub _ W main_part1_ops0_p3_writes (by decide)).trans h_main_v37
  · exact (after_of_writes_sub _ W main_part1_ops0_p3_writes (by decide)).trans h_main_v62
  · (simp only [main_part1_ops0_p3]; read_results; (try simp only [h_main_c_24, h_main_v1, h_main_v13, h_main_v15, h_main_v18, h_main_v20, h_main_v23, h_main_v25, h_main_v27, h_main_v29, h_main_v31, h_main_v33, h_main_v35, h_main_v37, h_main_v62, h_main_v67, h_main_v72, h_main_v74, TRef.ofBuf, TRef.toBuf, cast_eq]);
     (try simp only [Cert.ReferenceIdeal.ReadP.val_main_v75, Cert.ReferenceIdeal.ReadP.val_main_v76, Cert.ReferenceIdeal.ReadP.val_main_v77, Cert.ReferenceIdeal.ReadP.val_main_v78, Cert.ReferenceIdeal.ReadP.val_main_v79, Cert.ReferenceIdeal.ReadP.val_main_v80]); (try rfl))
  · (simp only [main_part1_ops0_p3]; read_results; (try simp only [h_main_c_24, h_main_v1, h_main_v13, h_main_v15, h_main_v18, h_main_v20, h_main_v23, h_main_v25, h_main_v27, h_main_v29, h_main_v31, h_main_v33, h_main_v35, h_main_v37, h_main_v62, h_main_v67, h_main_v72, h_main_v74, TRef.ofBuf, TRef.toBuf, cast_eq]);
     (try simp only [Cert.ReferenceIdeal.ReadP.val_main_v75, Cert.ReferenceIdeal.ReadP.val_main_v76, Cert.ReferenceIdeal.ReadP.val_main_v77, Cert.ReferenceIdeal.ReadP.val_main_v78, Cert.ReferenceIdeal.ReadP.val_main_v79, Cert.ReferenceIdeal.ReadP.val_main_v80]); (try rfl))
  · (simp only [main_part1_ops0_p3]; read_results; (try simp only [h_main_c_24, h_main_v1, h_main_v13, h_main_v15, h_main_v18, h_main_v20, h_main_v23, h_main_v25, h_main_v27, h_main_v29, h_main_v31, h_main_v33, h_main_v35, h_main_v37, h_main_v62, h_main_v67, h_main_v72, h_main_v74, TRef.ofBuf, TRef.toBuf, cast_eq]);
     (try simp only [Cert.ReferenceIdeal.ReadP.val_main_v75, Cert.ReferenceIdeal.ReadP.val_main_v76, Cert.ReferenceIdeal.ReadP.val_main_v77, Cert.ReferenceIdeal.ReadP.val_main_v78, Cert.ReferenceIdeal.ReadP.val_main_v79, Cert.ReferenceIdeal.ReadP.val_main_v80]); (try rfl))

/-- A piece of `main_part1_ops0`. -/
abbrev main_part1_ops0_p4 : List (HloOp τ sig (Elt F)) :=
  [ StableHlo.nary ![main_v78, main_v79, main_v80] main_v81 (fun u => concatenate S4x512x512x3 3 [⟨S4x512x512x1, u 0⟩, ⟨S4x512x512x1, u 1⟩, ⟨S4x512x512x1, u 2⟩] concatenates_S4x512x512x1_S4x512x512x1_S4x512x512x1_S4x512x512x3_d3) ]
abbrev wr_main_part1_ops0_p4 : List (Ref sig .tc) := [main_v81]
set_option maxRecDepth 16384 in
set_option maxHeartbeats 40000000 in
theorem main_part1_ops0_p4_writes : (main_part1_ops0_p4 : List (HloOp τ sig (Elt F))).Forall fun op =>
    op.writes ⊆ (wr_main_part1_ops0_p4.map (Proc.devRef (τ := τ) .tc)).toFinset :=
  by simp only [List.Forall]; exact writes_sub_of rfl (by decide)
set_option maxRecDepth 16384 in
set_option maxHeartbeats 40000000 in
theorem stage_main_part1_ops0_p4 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v23 : W (Proc.devRef .tc main_v23) = Cert.ReferenceIdeal.ReadP.val_main_v23 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    (h_main_v62 : W (Proc.devRef .tc main_v62) = Cert.ReferenceIdeal.ReadP.val_main_v62 (F := F) x2 x3)
    (h_main_v78 : W (Proc.devRef .tc main_v78) = Cert.ReferenceIdeal.ReadP.val_main_v78 (F := F) x2)
    (h_main_v79 : W (Proc.devRef .tc main_v79) = Cert.ReferenceIdeal.ReadP.val_main_v79 (F := F) x2)
    (h_main_v80 : W (Proc.devRef .tc main_v80) = Cert.ReferenceIdeal.ReadP.val_main_v80 (F := F) x2)
    : (after main_part1_ops0_p4 W (Proc.devRef .tc main_v1) = Cert.ReferenceIdeal.ReadP.val_main_v1 (F := F) x3)
      ∧ (after main_part1_ops0_p4 W (Proc.devRef .tc main_v13) = Cert.ReferenceIdeal.ReadP.val_main_v13 (F := F) x2)
      ∧ (after main_part1_ops0_p4 W (Proc.devRef .tc main_v15) = Cert.ReferenceIdeal.ReadP.val_main_v15 (F := F) x2)
      ∧ (after main_part1_ops0_p4 W (Proc.devRef .tc main_v18) = Cert.ReferenceIdeal.ReadP.val_main_v18 (F := F) x2)
      ∧ (after main_part1_ops0_p4 W (Proc.devRef .tc main_v20) = Cert.ReferenceIdeal.ReadP.val_main_v20 (F := F) x2)
      ∧ (after main_part1_ops0_p4 W (Proc.devRef .tc main_v23) = Cert.ReferenceIdeal.ReadP.val_main_v23 (F := F) x2)
      ∧ (after main_part1_ops0_p4 W (Proc.devRef .tc main_v25) = Cert.ReferenceIdeal.ReadP.val_main_v25 (F := F) x2)
      ∧ (after main_part1_ops0_p4 W (Proc.devRef .tc main_v27) = Cert.ReferenceIdeal.ReadP.val_main_v27 (F := F) x2)
      ∧ (after main_part1_ops0_p4 W (Proc.devRef .tc main_v29) = Cert.ReferenceIdeal.ReadP.val_main_v29 (F := F) x2)
      ∧ (after main_part1_ops0_p4 W (Proc.devRef .tc main_v31) = Cert.ReferenceIdeal.ReadP.val_main_v31 (F := F) x2)
      ∧ (after main_part1_ops0_p4 W (Proc.devRef .tc main_v33) = Cert.ReferenceIdeal.ReadP.val_main_v33 (F := F) x2)
      ∧ (after main_part1_ops0_p4 W (Proc.devRef .tc main_v35) = Cert.ReferenceIdeal.ReadP.val_main_v35 (F := F) x2)
      ∧ (after main_part1_ops0_p4 W (Proc.devRef .tc main_v37) = Cert.ReferenceIdeal.ReadP.val_main_v37 (F := F) x2)
      ∧ (after main_part1_ops0_p4 W (Proc.devRef .tc main_v62) = Cert.ReferenceIdeal.ReadP.val_main_v62 (F := F) x2 x3)
      ∧ (after main_part1_ops0_p4 W (Proc.devRef .tc main_v81) = Cert.ReferenceIdeal.ReadP.val_main_v81 (F := F) x2) := by
  refine ⟨?_, ?_, ?_, ?_, ?_, ?_, ?_, ?_, ?_, ?_, ?_, ?_, ?_, ?_, ?_⟩
  · exact (after_of_writes_sub _ W main_part1_ops0_p4_writes (by decide)).trans h_main_v1
  · exact (after_of_writes_sub _ W main_part1_ops0_p4_writes (by decide)).trans h_main_v13
  · exact (after_of_writes_sub _ W main_part1_ops0_p4_writes (by decide)).trans h_main_v15
  · exact (after_of_writes_sub _ W main_part1_ops0_p4_writes (by decide)).trans h_main_v18
  · exact (after_of_writes_sub _ W main_part1_ops0_p4_writes (by decide)).trans h_main_v20
  · exact (after_of_writes_sub _ W main_part1_ops0_p4_writes (by decide)).trans h_main_v23
  · exact (after_of_writes_sub _ W main_part1_ops0_p4_writes (by decide)).trans h_main_v25
  · exact (after_of_writes_sub _ W main_part1_ops0_p4_writes (by decide)).trans h_main_v27
  · exact (after_of_writes_sub _ W main_part1_ops0_p4_writes (by decide)).trans h_main_v29
  · exact (after_of_writes_sub _ W main_part1_ops0_p4_writes (by decide)).trans h_main_v31
  · exact (after_of_writes_sub _ W main_part1_ops0_p4_writes (by decide)).trans h_main_v33
  · exact (after_of_writes_sub _ W main_part1_ops0_p4_writes (by decide)).trans h_main_v35
  · exact (after_of_writes_sub _ W main_part1_ops0_p4_writes (by decide)).trans h_main_v37
  · exact (after_of_writes_sub _ W main_part1_ops0_p4_writes (by decide)).trans h_main_v62
  · simp only [main_part1_ops0_p4, after_cons, after_nil]
    rw [nary_result]
    show concatenate S4x512x512x3 3 [⟨S4x512x512x1, (W (Proc.devRef .tc main_v78))⟩, ⟨S4x512x512x1, (W (Proc.devRef .tc main_v79))⟩, ⟨S4x512x512x1, (W (Proc.devRef .tc main_v80))⟩] concatenates_S4x512x512x1_S4x512x512x1_S4x512x512x1_S4x512x512x3_d3 = _
    rw [h_main_v78, h_main_v79, h_main_v80]
    (try simp only [Cert.ReferenceIdeal.ReadP.val_main_v81])
    (try rfl)

/-- A piece of `main_part1_ops0`. -/
abbrev main_part1_ops0_p5 : List (HloOp τ sig (Elt F)) :=
  [ StableHlo.binary main_v1 main_v81 main_v82 ((fun x i => Host.gather gather_S8x3x33x33x33_S4x512x512x3_S8x3x4x512x512_01_234_n_n_234_3_83111 x i) : (⟨S8x3x33x33x33, .f32⟩ : BufTy).Contents (Elt F) → (⟨S4x512x512x3, .i32⟩ : BufTy).Contents (Elt F) → (⟨S8x3x4x512x512, .f32⟩ : BufTy).Contents (Elt F)),
    StableHlo.binary main_v37 main_v35 main_v83 (mulf : (⟨S4x512x512, .f32⟩ : BufTy).Contents (Elt F) → (⟨S4x512x512, .f32⟩ : BufTy).Contents (Elt F) → (⟨S4x512x512, .f32⟩ : BufTy).Contents (Elt F)),
    StableHlo.binary main_v83 main_v15 main_v84 (mulf : (⟨S4x512x512, .f32⟩ : BufTy).Contents (Elt F) → (⟨S4x512x512, .f32⟩ : BufTy).Contents (Elt F) → (⟨S4x512x512, .f32⟩ : BufTy).Contents (Elt F)),
    StableHlo.unary main_v84 main_v85 (broadcastInDim S1x1x4x512x512 ![2, 3, 4] bcast_S4x512x512_S1x1x4x512x512_2_3_4 : (⟨S4x512x512, .f32⟩ : BufTy).Contents (Elt F) → (⟨S1x1x4x512x512, .f32⟩ : BufTy).Contents (Elt F)),
    StableHlo.unary main_v85 main_v86 (broadcastInDim S8x3x4x512x512 ![0, 1, 2, 3, 4] bcast_S1x1x4x512x512_S8x3x4x512x512_0_1_2_3_4 : (⟨S1x1x4x512x512, .f32⟩ : BufTy).Contents (Elt F) → (⟨S8x3x4x512x512, .f32⟩ : BufTy).Contents (Elt F)),
    StableHlo.binary main_v82 main_v86 main_v87 (mulf : (⟨S8x3x4x512x512, .f32⟩ : BufTy).Contents (Elt F) → (⟨S8x3x4x512x512, .f32⟩ : BufTy).Contents (Elt F) → (⟨S8x3x4x512x512, .f32⟩ : BufTy).Contents (Elt F)),
    StableHlo.binary main_v62 main_v87 main_v88 (addf : (⟨S8x3x4x512x512, .f32⟩ : BufTy).Contents (Elt F) → (⟨S8x3x4x512x512, .f32⟩ : BufTy).Contents (Elt F) → (⟨S8x3x4x512x512, .f32⟩ : BufTy).Contents (Elt F)),
    StableHlo.nullary main_c_25 (constantI S_ 32 0#32),
    StableHlo.unary main_c_25 main_v89 (broadcastInDim S4x512x512 ![] bcast_S_S4x512x512 : (⟨S_, .i32⟩ : BufTy).Contents (Elt F) → (⟨S4x512x512, .i32⟩ : BufTy).Contents (Elt F)),
    StableHlo.binary main_v23 main_v89 main_v90 (cmpi .slt : (⟨S4x512x512, .i32⟩ : BufTy).Contents (Elt F) → (⟨S4x512x512, .i32⟩ : BufTy).Contents (Elt F) → (⟨S4x512x512, .i1⟩ : BufTy).Contents (Elt F)),
    StableHlo.nullary main_c_26 (constantI S_ 32 33#32) ]
abbrev wr_main_part1_ops0_p5 : List (Ref sig .tc) := [main_v82, main_v83, main_v84, main_v85, main_v86, main_v87, main_v88, main_c_25, main_v89, main_v90, main_c_26]
set_option maxRecDepth 16384 in
set_option maxHeartbeats 40000000 in
theorem main_part1_ops0_p5_writes : (main_part1_ops0_p5 : List (HloOp τ sig (Elt F))).Forall fun op =>
    op.writes ⊆ (wr_main_part1_ops0_p5.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_main_part1_ops0_p5 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v23 : W (Proc.devRef .tc main_v23) = Cert.ReferenceIdeal.ReadP.val_main_v23 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    (h_main_v62 : W (Proc.devRef .tc main_v62) = Cert.ReferenceIdeal.ReadP.val_main_v62 (F := F) x2 x3)
    (h_main_v81 : W (Proc.devRef .tc main_v81) = Cert.ReferenceIdeal.ReadP.val_main_v81 (F := F) x2)
    : (after main_part1_ops0_p5 W (Proc.devRef .tc main_c_26) = Cert.ReferenceIdeal.ReadP.val_main_c_26 (F := F))
      ∧ (after main_part1_ops0_p5 W (Proc.devRef .tc main_v1) = Cert.ReferenceIdeal.ReadP.val_main_v1 (F := F) x3)
      ∧ (after main_part1_ops0_p5 W (Proc.devRef .tc main_v13) = Cert.ReferenceIdeal.ReadP.val_main_v13 (F := F) x2)
      ∧ (after main_part1_ops0_p5 W (Proc.devRef .tc main_v15) = Cert.ReferenceIdeal.ReadP.val_main_v15 (F := F) x2)
      ∧ (after main_part1_ops0_p5 W (Proc.devRef .tc main_v18) = Cert.ReferenceIdeal.ReadP.val_main_v18 (F := F) x2)
      ∧ (after main_part1_ops0_p5 W (Proc.devRef .tc main_v20) = Cert.ReferenceIdeal.ReadP.val_main_v20 (F := F) x2)
      ∧ (after main_part1_ops0_p5 W (Proc.devRef .tc main_v23) = Cert.ReferenceIdeal.ReadP.val_main_v23 (F := F) x2)
      ∧ (after main_part1_ops0_p5 W (Proc.devRef .tc main_v25) = Cert.ReferenceIdeal.ReadP.val_main_v25 (F := F) x2)
      ∧ (after main_part1_ops0_p5 W (Proc.devRef .tc main_v27) = Cert.ReferenceIdeal.ReadP.val_main_v27 (F := F) x2)
      ∧ (after main_part1_ops0_p5 W (Proc.devRef .tc main_v29) = Cert.ReferenceIdeal.ReadP.val_main_v29 (F := F) x2)
      ∧ (after main_part1_ops0_p5 W (Proc.devRef .tc main_v31) = Cert.ReferenceIdeal.ReadP.val_main_v31 (F := F) x2)
      ∧ (after main_part1_ops0_p5 W (Proc.devRef .tc main_v33) = Cert.ReferenceIdeal.ReadP.val_main_v33 (F := F) x2)
      ∧ (after main_part1_ops0_p5 W (Proc.devRef .tc main_v35) = Cert.ReferenceIdeal.ReadP.val_main_v35 (F := F) x2)
      ∧ (after main_part1_ops0_p5 W (Proc.devRef .tc main_v37) = Cert.ReferenceIdeal.ReadP.val_main_v37 (F := F) x2)
      ∧ (after main_part1_ops0_p5 W (Proc.devRef .tc main_v88) = Cert.ReferenceIdeal.ReadP.val_main_v88 (F := F) x2 x3)
      ∧ (after main_part1_ops0_p5 W (Proc.devRef .tc main_v90) = Cert.ReferenceIdeal.ReadP.val_main_v90 (F := F) x2) := by
  refine ⟨?_, ?_, ?_, ?_, ?_, ?_, ?_, ?_, ?_, ?_, ?_, ?_, ?_, ?_, ?_, ?_⟩
  · (simp only [main_part1_ops0_p5]; read_results; (try simp only [h_main_v1, h_main_v13, h_main_v15, h_main_v18, h_main_v20, h_main_v23, h_main_v25, h_main_v27, h_main_v29, h_main_v31, h_main_v33, h_main_v35, h_main_v37, h_main_v62, h_main_v81, TRef.ofBuf, TRef.toBuf, cast_eq]);
     (try simp only [Cert.ReferenceIdeal.ReadP.val_main_v82, Cert.ReferenceIdeal.ReadP.val_main_v83, Cert.ReferenceIdeal.ReadP.val_main_v84, Cert.ReferenceIdeal.ReadP.val_main_v85, Cert.ReferenceIdeal.ReadP.val_main_v86, Cert.ReferenceIdeal.ReadP.val_main_v87, Cert.ReferenceIdeal.ReadP.val_main_v88, Cert.ReferenceIdeal.ReadP.val_main_c_25, Cert.ReferenceIdeal.ReadP.val_main_v89, Cert.ReferenceIdeal.ReadP.val_main_v90, Cert.ReferenceIdeal.ReadP.val_main_c_26]); (try rfl))
  · exact (after_of_writes_sub _ W main_part1_ops0_p5_writes (by decide)).trans h_main_v1
  · exact (after_of_writes_sub _ W main_part1_ops0_p5_writes (by decide)).trans h_main_v13
  · exact (after_of_writes_sub _ W main_part1_ops0_p5_writes (by decide)).trans h_main_v15
  · exact (after_of_writes_sub _ W main_part1_ops0_p5_writes (by decide)).trans h_main_v18
  · exact (after_of_writes_sub _ W main_part1_ops0_p5_writes (by decide)).trans h_main_v20
  · exact (after_of_writes_sub _ W main_part1_ops0_p5_writes (by decide)).trans h_main_v23
  · exact (after_of_writes_sub _ W main_part1_ops0_p5_writes (by decide)).trans h_main_v25
  · exact (after_of_writes_sub _ W main_part1_ops0_p5_writes (by decide)).trans h_main_v27
  · exact (after_of_writes_sub _ W main_part1_ops0_p5_writes (by decide)).trans h_main_v29
  · exact (after_of_writes_sub _ W main_part1_ops0_p5_writes (by decide)).trans h_main_v31
  · exact (after_of_writes_sub _ W main_part1_ops0_p5_writes (by decide)).trans h_main_v33
  · exact (after_of_writes_sub _ W main_part1_ops0_p5_writes (by decide)).trans h_main_v35
  · exact (after_of_writes_sub _ W main_part1_ops0_p5_writes (by decide)).trans h_main_v37
  · (simp only [main_part1_ops0_p5]; read_results; (try simp only [h_main_v1, h_main_v13, h_main_v15, h_main_v18, h_main_v20, h_main_v23, h_main_v25, h_main_v27, h_main_v29, h_main_v31, h_main_v33, h_main_v35, h_main_v37, h_main_v62, h_main_v81, TRef.ofBuf, TRef.toBuf, cast_eq]);
     (try simp only [Cert.ReferenceIdeal.ReadP.val_main_v82, Cert.ReferenceIdeal.ReadP.val_main_v83, Cert.ReferenceIdeal.ReadP.val_main_v84, Cert.ReferenceIdeal.ReadP.val_main_v85, Cert.ReferenceIdeal.ReadP.val_main_v86, Cert.ReferenceIdeal.ReadP.val_main_v87, Cert.ReferenceIdeal.ReadP.val_main_v88, Cert.ReferenceIdeal.ReadP.val_main_c_25, Cert.ReferenceIdeal.ReadP.val_main_v89, Cert.ReferenceIdeal.ReadP.val_main_v90, Cert.ReferenceIdeal.ReadP.val_main_c_26]); (try rfl))
  · (simp only [main_part1_ops0_p5]; read_results; (try simp only [h_main_v1, h_main_v13, h_main_v15, h_main_v18, h_main_v20, h_main_v23, h_main_v25, h_main_v27, h_main_v29, h_main_v31, h_main_v33, h_main_v35, h_main_v37, h_main_v62, h_main_v81, TRef.ofBuf, TRef.toBuf, cast_eq]);
     (try simp only [Cert.ReferenceIdeal.ReadP.val_main_v82, Cert.ReferenceIdeal.ReadP.val_main_v83, Cert.ReferenceIdeal.ReadP.val_main_v84, Cert.ReferenceIdeal.ReadP.val_main_v85, Cert.ReferenceIdeal.ReadP.val_main_v86, Cert.ReferenceIdeal.ReadP.val_main_v87, Cert.ReferenceIdeal.ReadP.val_main_v88, Cert.ReferenceIdeal.ReadP.val_main_c_25, Cert.ReferenceIdeal.ReadP.val_main_v89, Cert.ReferenceIdeal.ReadP.val_main_v90, Cert.ReferenceIdeal.ReadP.val_main_c_26]); (try rfl))

/-- A piece of `main_part2_ops0`. -/
abbrev main_part2_ops0_p0 : List (HloOp τ sig (Elt F)) :=
  [ StableHlo.unary main_c_26 main_v91 (broadcastInDim S4x512x512 ![] bcast_S_S4x512x512 : (⟨S_, .i32⟩ : BufTy).Contents (Elt F) → (⟨S4x512x512, .i32⟩ : BufTy).Contents (Elt F)),
    StableHlo.binary main_v23 main_v91 main_v92 (addi : (⟨S4x512x512, .i32⟩ : BufTy).Contents (Elt F) → (⟨S4x512x512, .i32⟩ : BufTy).Contents (Elt F) → (⟨S4x512x512, .i32⟩ : BufTy).Contents (Elt F)),
    StableHlo.ternary main_v90 main_v92 main_v23 main_v93 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    StableHlo.nullary main_c_27 (constantI S_ 32 0#32),
    StableHlo.unary main_c_27 main_v94 (broadcastInDim S4x512x512 ![] bcast_S_S4x512x512 : (⟨S_, .i32⟩ : BufTy).Contents (Elt F) → (⟨S4x512x512, .i32⟩ : BufTy).Contents (Elt F)),
    StableHlo.binary main_v29 main_v94 main_v95 (cmpi .slt : (⟨S4x512x512, .i32⟩ : BufTy).Contents (Elt F) → (⟨S4x512x512, .i32⟩ : BufTy).Contents (Elt F) → (⟨S4x512x512, .i1⟩ : BufTy).Contents (Elt F)),
    StableHlo.nullary main_c_28 (constantI S_ 32 33#32),
    StableHlo.unary main_c_28 main_v96 (broadcastInDim S4x512x512 ![] bcast_S_S4x512x512 : (⟨S_, .i32⟩ : BufTy).Contents (Elt F) → (⟨S4x512x512, .i32⟩ : BufTy).Contents (Elt F)),
    StableHlo.binary main_v29 main_v96 main_v97 (addi : (⟨S4x512x512, .i32⟩ : BufTy).Contents (Elt F) → (⟨S4x512x512, .i32⟩ : BufTy).Contents (Elt F) → (⟨S4x512x512, .i32⟩ : BufTy).Contents (Elt F)),
    StableHlo.ternary main_v95 main_v97 main_v29 main_v98 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    StableHlo.nullary main_c_29 (constantI S_ 32 0#32),
    StableHlo.unary main_c_29 main_v99 (broadcastInDim S4x512x512 ![] bcast_S_S4x512x512 : (⟨S_, .i32⟩ : BufTy).Contents (Elt F) → (⟨S4x512x512, .i32⟩ : BufTy).Contents (Elt F)),
    StableHlo.binary main_v13 main_v99 main_v100 (cmpi .slt : (⟨S4x512x512, .i32⟩ : BufTy).Contents (Elt F) → (⟨S4x512x512, .i32⟩ : BufTy).Contents (Elt F) → (⟨S4x512x512, .i1⟩ : BufTy).Contents (Elt F)),
    StableHlo.nullary main_c_30 (constantI S_ 32 33#32),
    StableHlo.unary main_c_30 main_v101 (broadcastInDim S4x512x512 ![] bcast_S_S4x512x512 : (⟨S_, .i32⟩ : BufTy).Contents (Elt F) → (⟨S4x512x512, .i32⟩ : BufTy).Contents (Elt F)),
    StableHlo.binary main_v13 main_v101 main_v102 (addi : (⟨S4x512x512, .i32⟩ : BufTy).Contents (Elt F) → (⟨S4x512x512, .i32⟩ : BufTy).Contents (Elt F) → (⟨S4x512x512, .i32⟩ : BufTy).Contents (Elt F)),
    StableHlo.ternary main_v100 main_v102 main_v13 main_v103 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    StableHlo.unary main_v93 main_v104 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    StableHlo.unary main_v98 main_v105 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    StableHlo.unary main_v103 main_v106 (broadcastInDim S4x512x512x1 ![0, 1, 2] bcast_S4x512x512_S4x512x512x1_0_1_2 : (⟨S4x512x512, .i32⟩ : BufTy).Contents (Elt F) → (⟨S4x512x512x1, .i32⟩ : BufTy).Contents (Elt F)) ]
abbrev wr_main_part2_ops0_p0 : List (Ref sig .tc) := [main_v91, main_v92, main_v93, main_c_27, main_v94, main_v95, main_c_28, main_v96, main_v97, main_v98, main_c_29, main_v99, main_v100, main_c_30, main_v101, main_v102, main_v103, main_v104, main_v105, main_v106]
set_option maxRecDepth 16384 in
set_option maxHeartbeats 40000000 in
theorem main_part2_ops0_p0_writes : (main_part2_ops0_p0 : List (HloOp τ sig (Elt F))).Forall fun op =>
    op.writes ⊆ (wr_main_part2_ops0_p0.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_main_part2_ops0_p0 (W : Valuation τ sig (Elt F)) (x2 : (⟨S4x3x512x512, .f32⟩ : BufTy).Contents (Elt F)) (x3 : (⟨S107811x8, .f32⟩ : BufTy).Contents (Elt F))
    (h_main_c_26 : W (Proc.devRef .tc main_c_26) = Cert.ReferenceIdeal.ReadP.val_main_c_26 (F := F))
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v23 : W (Proc.devRef .tc main_v23) = Cert.ReferenceIdeal.ReadP.val_main_v23 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    (h_main_v88 : W (Proc.devRef .tc main_v88) = Cert.ReferenceIdeal.ReadP.val_main_v88 (F := F) x2 x3)
    (h_main_v90 : W (Proc.devRef .tc main_v90) = Cert.ReferenceIdeal.ReadP.val_main_v90 (F := F) x2)
    : (after main_part2_ops0_p0 W (Proc.devRef .tc main_v1) = Cert.ReferenceIdeal.ReadP.val_main_v1 (F := F) x3)
      ∧ (after main_part2_ops0_p0 W (Proc.devRef .tc main_v104) = Cert.ReferenceIdeal.ReadP.val_main_v104 (F := F) x2)
      ∧ (after main_part2_ops0_p0 W (Proc.devRef .tc main_v105) = Cert.ReferenceIdeal.ReadP.val_main_v105 (F := F) x2)
      ∧ (after main_part2_ops0_p0 W (Proc.devRef .tc main_v106) = Cert.ReferenceIdeal.ReadP.val_main_v106 (F := F) x2)
      ∧ (after main_part2_ops0_p0 W (Proc.devRef .tc main_v13) = Cert.ReferenceIdeal.ReadP.val_main_v13 (F := F) x2)
      ∧ (after main_part2_ops0_p0 W (Proc.devRef .tc main_v15) = Cert.ReferenceIdeal.ReadP.val_main_v15 (F := F) x2)
      ∧ (after main_part2_ops0_p0 W (Proc.devRef .tc main_v18) = Cert.ReferenceIdeal.ReadP.val_main_v18 (F := F) x2)
      ∧ (after main_part2_ops0_p0 W (Proc.devRef .tc main_v20) = Cert.ReferenceIdeal.ReadP.val_main_v20 (F := F) x2)
      ∧ (after main_part2_ops0_p0 W (Proc.devRef .tc main_v23) = Cert.ReferenceIdeal.ReadP.val_main_v23 (F := F) x2)
      ∧ (after main_part2_ops0_p0 W (Proc.devRef .tc main_v25) = Cert.ReferenceIdeal.ReadP.val_main_v25 (F := F) x2)
      ∧ (after main_part2_ops0_p0 W (Proc.devRef .tc main_v27) = Cert.ReferenceIdeal.ReadP.val_main_v27 (F := F) x2)
      ∧ (after main_part2_ops0_p0 W (Proc.devRef .tc main_v29) = Cert.ReferenceIdeal.ReadP.val_main_v29 (F := F) x2)
      ∧ (after main_part2_ops0_p0 W (Proc.devRef .tc main_v31) = Cert.ReferenceIdeal.ReadP.val_main_v31 (F := F) x2)
      ∧ (after main_part2_ops0_p0 W (Proc.devRef .tc main_v33) = Cert.ReferenceIdeal.ReadP.val_main_v33 (F := F) x2)
      ∧ (after main_part2_ops0_p0 W (Proc.devRef .tc main_v35) = Cert.ReferenceIdeal.ReadP.val_main_v35 (F := F) x2)
      ∧ (after main_part2_ops0_p0 W (Proc.devRef .tc main_v37) = Cert.ReferenceIdeal.ReadP.val_main_v37 (F := F) x2)
      ∧ (after main_part2_ops0_p0 W (Proc.devRef .tc main_v88) = Cert.ReferenceIdeal.ReadP.val_main_v88 (F := F) x2 x3) := by
  refine ⟨?_, ?_, ?_, ?_, ?_, ?_, ?_, ?_, ?_, ?_, ?_, ?_, ?_, ?_, ?_, ?_, ?_⟩
  · exact (after_of_writes_sub _ W main_part2_ops0_p0_writes (by decide)).trans h_main_v1
  · (simp only [main_part2_ops0_p0]; read_results; (try simp only [h_main_c_26, h_main_v1, h_main_v13, h_main_v15, h_main_v18, h_main_v20, h_main_v23, h_main_v25, h_main_v27, h_main_v29, h_main_v31, h_main_v33, h_main_v35, h_main_v37, h_main_v88, h_main_v90, TRef.ofBuf, TRef.toBuf, cast_eq]);
     (try simp only [Cert.ReferenceIdeal.ReadP.val_main_v91, Cert.ReferenceIdeal.ReadP.val_main_v92, Cert.ReferenceIdeal.ReadP.val_main_v93, Cert.ReferenceIdeal.ReadP.val_main_c_27, Cert.ReferenceIdeal.ReadP.val_main_v94, Cert.ReferenceIdeal.ReadP.val_main_v95, Cert.ReferenceIdeal.ReadP.val_main_c_28, Cert.ReferenceIdeal.ReadP.val_main_v96, Cert.ReferenceIdeal.ReadP.val_main_v97, Cert.ReferenceIdeal.ReadP.val_main_v98, Cert.ReferenceIdeal.ReadP.val_main_c_29, Cert.ReferenceIdeal.ReadP.val_main_v99, Cert.ReferenceIdeal.ReadP.val_main_v100, Cert.ReferenceIdeal.ReadP.val_main_c_30, Cert.ReferenceIdeal.ReadP.val_main_v101, Cert.ReferenceIdeal.ReadP.val_main_v102, Cert.ReferenceIdeal.ReadP.val_main_v103, Cert.ReferenceIdeal.ReadP.val_main_v104, Cert.ReferenceIdeal.ReadP.val_main_v105, Cert.ReferenceIdeal.ReadP.val_main_v106]); (try rfl))
  · (simp only [main_part2_ops0_p0]; read_results; (try simp only [h_main_c_26, h_main_v1, h_main_v13, h_main_v15, h_main_v18, h_main_v20, h_main_v23, h_main_v25, h_main_v27, h_main_v29, h_main_v31, h_main_v33, h_main_v35, h_main_v37, h_main_v88, h_main_v90, TRef.ofBuf, TRef.toBuf, cast_eq]);
     (try simp only [Cert.ReferenceIdeal.ReadP.val_main_v91, Cert.ReferenceIdeal.ReadP.val_main_v92, Cert.ReferenceIdeal.ReadP.val_main_v93, Cert.ReferenceIdeal.ReadP.val_main_c_27, Cert.ReferenceIdeal.ReadP.val_main_v94, Cert.ReferenceIdeal.ReadP.val_main_v95, Cert.ReferenceIdeal.ReadP.val_main_c_28, Cert.ReferenceIdeal.ReadP.val_main_v96, Cert.ReferenceIdeal.ReadP.val_main_v97, Cert.ReferenceIdeal.ReadP.val_main_v98, Cert.ReferenceIdeal.ReadP.val_main_c_29, Cert.ReferenceIdeal.ReadP.val_main_v99, Cert.ReferenceIdeal.ReadP.val_main_v100, Cert.ReferenceIdeal.ReadP.val_main_c_30, Cert.ReferenceIdeal.ReadP.val_main_v101, Cert.ReferenceIdeal.ReadP.val_main_v102, Cert.ReferenceIdeal.ReadP.val_main_v103, Cert.ReferenceIdeal.ReadP.val_main_v104, Cert.ReferenceIdeal.ReadP.val_main_v105, Cert.ReferenceIdeal.ReadP.val_main_v106]); (try rfl))
  · (simp only [main_part2_ops0_p0]; read_results; (try simp only [h_main_c_26, h_main_v1, h_main_v13, h_main_v15, h_main_v18, h_main_v20, h_main_v23, h_main_v25, h_main_v27, h_main_v29, h_main_v31, h_main_v33, h_main_v35, h_main_v37, h_main_v88, h_main_v90, TRef.ofBuf, TRef.toBuf, cast_eq]);
     (try simp only [Cert.ReferenceIdeal.ReadP.val_main_v91, Cert.ReferenceIdeal.ReadP.val_main_v92, Cert.ReferenceIdeal.ReadP.val_main_v93, Cert.ReferenceIdeal.ReadP.val_main_c_27, Cert.ReferenceIdeal.ReadP.val_main_v94, Cert.ReferenceIdeal.ReadP.val_main_v95, Cert.ReferenceIdeal.ReadP.val_main_c_28, Cert.ReferenceIdeal.ReadP.val_main_v96, Cert.ReferenceIdeal.ReadP.val_main_v97, Cert.ReferenceIdeal.ReadP.val_main_v98, Cert.ReferenceIdeal.ReadP.val_main_c_29, Cert.ReferenceIdeal.ReadP.val_main_v99, Cert.ReferenceIdeal.ReadP.val_main_v100, Cert.ReferenceIdeal.ReadP.val_main_c_30, Cert.ReferenceIdeal.ReadP.val_main_v101, Cert.ReferenceIdeal.ReadP.val_main_v102, Cert.ReferenceIdeal.ReadP.val_main_v103, Cert.ReferenceIdeal.ReadP.val_main_v104, Cert.ReferenceIdeal.ReadP.val_main_v105, Cert.ReferenceIdeal.ReadP.val_main_v106]); (try rfl))
  · exact (after_of_writes_sub _ W main_part2_ops0_p0_writes (by decide)).trans h_main_v13
  · exact (after_of_writes_sub _ W main_part2_ops0_p0_writes (by decide)).trans h_main_v15
  · exact (after_of_writes_sub _ W main_part2_ops0_p0_writes (by decide)).trans h_main_v18
  · exact (after_of_writes_sub _ W main_part2_ops0_p0_writes (by decide)).trans h_main_v20
  · exact (after_of_writes_sub _ W main_part2_ops0_p0_writes (by decide)).trans h_main_v23
  · exact (after_of_writes_sub _ W main_part2_ops0_p0_writes (by decide)).trans h_main_v25
  · exact (after_of_writes_sub _ W main_part2_ops0_p0_writes (by decide)).trans h_main_v27
  · exact (after_of_writes_sub _ W main_part2_ops0_p0_writes (by decide)).trans h_main_v29
  · exact (after_of_writes_sub _ W main_part2_ops0_p0_writes (by decide)).trans h_main_v31
  · exact (after_of_writes_sub _ W main_part2_ops0_p0_writes (by decide)).trans h_main_v33
  · exact (after_of_writes_sub _ W main_part2_ops0_p0_writes (by decide)).trans h_main_v35
  · exact (after_of_writes_sub _ W main_part2_ops0_p0_writes (by decide)).trans h_main_v37
  · exact (after_of_writes_sub _ W main_part2_ops0_p0_writes (by decide)).trans h_main_v88

/-- A piece of `main_part2_ops0`. -/
abbrev main_part2_ops0_p1 : List (HloOp τ sig (Elt F)) :=
  [ StableHlo.nary ![main_v104, main_v105, main_v106] main_v107 (fun u => concatenate S4x512x512x3 3 [⟨S4x512x512x1, u 0⟩, ⟨S4x512x512x1, u 1⟩, ⟨S4x512x512x1, u 2⟩] concatenates_S4x512x512x1_S4x512x512x1_S4x512x512x1_S4x512x512x3_d3) ]
abbrev wr_main_part2_ops0_p1 : List (Ref sig .tc) := [main_v107]
set_option maxRecDepth 16384 in
set_option maxHeartbeats 40000000 in
theorem main_part2_ops0_p1_writes : (main_part2_ops0_p1 : List (HloOp τ sig (Elt F))).Forall fun op =>
    op.writes ⊆ (wr_main_part2_ops0_p1.map (Proc.devRef (τ := τ) .tc)).toFinset :=
  by simp only [List.Forall]; exact writes_sub_of rfl (by decide)
set_option maxRecDepth 16384 in
set_option maxHeartbeats 40000000 in
theorem stage_main_part2_ops0_p1 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v104 : W (Proc.devRef .tc main_v104) = Cert.ReferenceIdeal.ReadP.val_main_v104 (F := F) x2)
    (h_main_v105 : W (Proc.devRef .tc main_v105) = Cert.ReferenceIdeal.ReadP.val_main_v105 (F := F) x2)
    (h_main_v106 : W (Proc.devRef .tc main_v106) = Cert.ReferenceIdeal.ReadP.val_main_v106 (F := F) x2)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v23 : W (Proc.devRef .tc main_v23) = Cert.ReferenceIdeal.ReadP.val_main_v23 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    (h_main_v88 : W (Proc.devRef .tc main_v88) = Cert.ReferenceIdeal.ReadP.val_main_v88 (F := F) x2 x3)
    : (after main_part2_ops0_p1 W (Proc.devRef .tc main_v1) = Cert.ReferenceIdeal.ReadP.val_main_v1 (F := F) x3)
      ∧ (after main_part2_ops0_p1 W (Proc.devRef .tc main_v107) = Cert.ReferenceIdeal.ReadP.val_main_v107 (F := F) x2)
      ∧ (after main_part2_ops0_p1 W (Proc.devRef .tc main_v13) = Cert.ReferenceIdeal.ReadP.val_main_v13 (F := F) x2)
      ∧ (after main_part2_ops0_p1 W (Proc.devRef .tc main_v15) = Cert.ReferenceIdeal.ReadP.val_main_v15 (F := F) x2)
      ∧ (after main_part2_ops0_p1 W (Proc.devRef .tc main_v18) = Cert.ReferenceIdeal.ReadP.val_main_v18 (F := F) x2)
      ∧ (after main_part2_ops0_p1 W (Proc.devRef .tc main_v20) = Cert.ReferenceIdeal.ReadP.val_main_v20 (F := F) x2)
      ∧ (after main_part2_ops0_p1 W (Proc.devRef .tc main_v23) = Cert.ReferenceIdeal.ReadP.val_main_v23 (F := F) x2)
      ∧ (after main_part2_ops0_p1 W (Proc.devRef .tc main_v25) = Cert.ReferenceIdeal.ReadP.val_main_v25 (F := F) x2)
      ∧ (after main_part2_ops0_p1 W (Proc.devRef .tc main_v27) = Cert.ReferenceIdeal.ReadP.val_main_v27 (F := F) x2)
      ∧ (after main_part2_ops0_p1 W (Proc.devRef .tc main_v29) = Cert.ReferenceIdeal.ReadP.val_main_v29 (F := F) x2)
      ∧ (after main_part2_ops0_p1 W (Proc.devRef .tc main_v31) = Cert.ReferenceIdeal.ReadP.val_main_v31 (F := F) x2)
      ∧ (after main_part2_ops0_p1 W (Proc.devRef .tc main_v33) = Cert.ReferenceIdeal.ReadP.val_main_v33 (F := F) x2)
      ∧ (after main_part2_ops0_p1 W (Proc.devRef .tc main_v35) = Cert.ReferenceIdeal.ReadP.val_main_v35 (F := F) x2)
      ∧ (after main_part2_ops0_p1 W (Proc.devRef .tc main_v37) = Cert.ReferenceIdeal.ReadP.val_main_v37 (F := F) x2)
      ∧ (after main_part2_ops0_p1 W (Proc.devRef .tc main_v88) = Cert.ReferenceIdeal.ReadP.val_main_v88 (F := F) x2 x3) := by
  refine ⟨?_, ?_, ?_, ?_, ?_, ?_, ?_, ?_, ?_, ?_, ?_, ?_, ?_, ?_, ?_⟩
  · exact (after_of_writes_sub _ W main_part2_ops0_p1_writes (by decide)).trans h_main_v1
  · simp only [main_part2_ops0_p1, after_cons, after_nil]
    rw [nary_result]
    show concatenate S4x512x512x3 3 [⟨S4x512x512x1, (W (Proc.devRef .tc main_v104))⟩, ⟨S4x512x512x1, (W (Proc.devRef .tc main_v105))⟩, ⟨S4x512x512x1, (W (Proc.devRef .tc main_v106))⟩] concatenates_S4x512x512x1_S4x512x512x1_S4x512x512x1_S4x512x512x3_d3 = _
    rw [h_main_v104, h_main_v105, h_main_v106]
    (try simp only [Cert.ReferenceIdeal.ReadP.val_main_v107])
    (try rfl)
  · exact (after_of_writes_sub _ W main_part2_ops0_p1_writes (by decide)).trans h_main_v13
  · exact (after_of_writes_sub _ W main_part2_ops0_p1_writes (by decide)).trans h_main_v15
  · exact (after_of_writes_sub _ W main_part2_ops0_p1_writes (by decide)).trans h_main_v18
  · exact (after_of_writes_sub _ W main_part2_ops0_p1_writes (by decide)).trans h_main_v20
  · exact (after_of_writes_sub _ W main_part2_ops0_p1_writes (by decide)).trans h_main_v23
  · exact (after_of_writes_sub _ W main_part2_ops0_p1_writes (by decide)).trans h_main_v25
  · exact (after_of_writes_sub _ W main_part2_ops0_p1_writes (by decide)).trans h_main_v27
  · exact (after_of_writes_sub _ W main_part2_ops0_p1_writes (by decide)).trans h_main_v29
  · exact (after_of_writes_sub _ W main_part2_ops0_p1_writes (by decide)).trans h_main_v31
  · exact (after_of_writes_sub _ W main_part2_ops0_p1_writes (by decide)).trans h_main_v33
  · exact (after_of_writes_sub _ W main_part2_ops0_p1_writes (by decide)).trans h_main_v35
  · exact (after_of_writes_sub _ W main_part2_ops0_p1_writes (by decide)).trans h_main_v37
  · exact (after_of_writes_sub _ W main_part2_ops0_p1_writes (by decide)).trans h_main_v88

/-- A piece of `main_part2_ops0`. -/
abbrev main_part2_ops0_p2 : List (HloOp τ sig (Elt F)) :=
  [ StableHlo.binary main_v1 main_v107 main_v108 ((fun x i => Host.gather gather_S8x3x33x33x33_S4x512x512x3_S8x3x4x512x512_01_234_n_n_234_3_83111 x i) : (⟨S8x3x33x33x33, .f32⟩ : BufTy).Contents (Elt F) → (⟨S4x512x512x3, .i32⟩ : BufTy).Contents (Elt F) → (⟨S8x3x4x512x512, .f32⟩ : BufTy).Contents (Elt F)),
    StableHlo.binary main_v37 main_v20 main_v109 (mulf : (⟨S4x512x512, .f32⟩ : BufTy).Contents (Elt F) → (⟨S4x512x512, .f32⟩ : BufTy).Contents (Elt F) → (⟨S4x512x512, .f32⟩ : BufTy).Contents (Elt F)),
    StableHlo.binary main_v109 main_v33 main_v110 (mulf : (⟨S4x512x512, .f32⟩ : BufTy).Contents (Elt F) → (⟨S4x512x512, .f32⟩ : BufTy).Contents (Elt F) → (⟨S4x512x512, .f32⟩ : BufTy).Contents (Elt F)),
    StableHlo.unary main_v110 main_v111 (broadcastInDim S1x1x4x512x512 ![2, 3, 4] bcast_S4x512x512_S1x1x4x512x512_2_3_4 : (⟨S4x512x512, .f32⟩ : BufTy).Contents (Elt F) → (⟨S1x1x4x512x512, .f32⟩ : BufTy).Contents (Elt F)),
    StableHlo.unary main_v111 main_v112 (broadcastInDim S8x3x4x512x512 ![0, 1, 2, 3, 4] bcast_S1x1x4x512x512_S8x3x4x512x512_0_1_2_3_4 : (⟨S1x1x4x512x512, .f32⟩ : BufTy).Contents (Elt F) → (⟨S8x3x4x512x512, .f32⟩ : BufTy).Contents (Elt F)),
    StableHlo.binary main_v108 main_v112 main_v113 (mulf : (⟨S8x3x4x512x512, .f32⟩ : BufTy).Contents (Elt F) → (⟨S8x3x4x512x512, .f32⟩ : BufTy).Contents (Elt F) → (⟨S8x3x4x512x512, .f32⟩ : BufTy).Contents (Elt F)),
    StableHlo.binary main_v88 main_v113 main_v114 (addf : (⟨S8x3x4x512x512, .f32⟩ : BufTy).Contents (Elt F) → (⟨S8x3x4x512x512, .f32⟩ : BufTy).Contents (Elt F) → (⟨S8x3x4x512x512, .f32⟩ : BufTy).Contents (Elt F)),
    StableHlo.nullary main_c_31 (constantI S_ 32 0#32),
    StableHlo.unary main_c_31 main_v115 (broadcastInDim S4x512x512 ![] bcast_S_S4x512x512 : (⟨S_, .i32⟩ : BufTy).Contents (Elt F) → (⟨S4x512x512, .i32⟩ : BufTy).Contents (Elt F)),
    StableHlo.binary main_v23 main_v115 main_v116 (cmpi .slt : (⟨S4x512x512, .i32⟩ : BufTy).Contents (Elt F) → (⟨S4x512x512, .i32⟩ : BufTy).Contents (Elt F) → (⟨S4x512x512, .i1⟩ : BufTy).Contents (Elt F)),
    StableHlo.nullary main_c_32 (constantI S_ 32 33#32),
    StableHlo.unary main_c_32 main_v117 (broadcastInDim S4x512x512 ![] bcast_S_S4x512x512 : (⟨S_, .i32⟩ : BufTy).Contents (Elt F) → (⟨S4x512x512, .i32⟩ : BufTy).Contents (Elt F)),
    StableHlo.binary main_v23 main_v117 main_v118 (addi : (⟨S4x512x512, .i32⟩ : BufTy).Contents (Elt F) → (⟨S4x512x512, .i32⟩ : BufTy).Contents (Elt F) → (⟨S4x512x512, .i32⟩ : BufTy).Contents (Elt F)),
    StableHlo.ternary main_v116 main_v118 main_v23 main_v119 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    StableHlo.nullary main_c_33 (constantI S_ 32 0#32),
    StableHlo.unary main_c_33 main_v120 (broadcastInDim S4x512x512 ![] bcast_S_S4x512x512 : (⟨S_, .i32⟩ : BufTy).Contents (Elt F) → (⟨S4x512x512, .i32⟩ : BufTy).Contents (Elt F)),
    StableHlo.binary main_v29 main_v120 main_v121 (cmpi .slt : (⟨S4x512x512, .i32⟩ : BufTy).Contents (Elt F) → (⟨S4x512x512, .i32⟩ : BufTy).Contents (Elt F) → (⟨S4x512x512, .i1⟩ : BufTy).Contents (Elt F)),
    StableHlo.nullary main_c_34 (constantI S_ 32 33#32),
    StableHlo.unary main_c_34 main_v122 (broadcastInDim S4x512x512 ![] bcast_S_S4x512x512 : (⟨S_, .i32⟩ : BufTy).Contents (Elt F) → (⟨S4x512x512, .i32⟩ : BufTy).Contents (Elt F)),
    StableHlo.binary main_v29 main_v122 main_v123 (addi : (⟨S4x512x512, .i32⟩ : BufTy).Contents (Elt F) → (⟨S4x512x512, .i32⟩ : BufTy).Contents (Elt F) → (⟨S4x512x512, .i32⟩ : BufTy).Contents (Elt F)),
    StableHlo.ternary main_v121 main_v123 main_v29 main_v124 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    StableHlo.nullary main_c_35 (constantI S_ 32 0#32),
    StableHlo.unary main_c_35 main_v125 (broadcastInDim S4x512x512 ![] bcast_S_S4x512x512 : (⟨S_, .i32⟩ : BufTy).Contents (Elt F) → (⟨S4x512x512, .i32⟩ : BufTy).Contents (Elt F)),
    StableHlo.binary main_v27 main_v125 main_v126 (cmpi .slt : (⟨S4x512x512, .i32⟩ : BufTy).Contents (Elt F) → (⟨S4x512x512, .i32⟩ : BufTy).Contents (Elt F) → (⟨S4x512x512, .i1⟩ : BufTy).Contents (Elt F)) ]
abbrev wr_main_part2_ops0_p2 : List (Ref sig .tc) := [main_v108, main_v109, main_v110, main_v111, main_v112, main_v113, main_v114, main_c_31, main_v115, main_v116, main_c_32, main_v117, main_v118, main_v119, main_c_33, main_v120, main_v121, main_c_34, main_v122, main_v123, main_v124, main_c_35, main_v125, main_v126]
set_option maxRecDepth 16384 in
set_option maxHeartbeats 40000000 in
theorem main_part2_ops0_p2_writes : (main_part2_ops0_p2 : List (HloOp τ sig (Elt F))).Forall fun op =>
    op.writes ⊆ (wr_main_part2_ops0_p2.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_main_part2_ops0_p2 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v107 : W (Proc.devRef .tc main_v107) = Cert.ReferenceIdeal.ReadP.val_main_v107 (F := F) x2)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v23 : W (Proc.devRef .tc main_v23) = Cert.ReferenceIdeal.ReadP.val_main_v23 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    (h_main_v88 : W (Proc.devRef .tc main_v88) = Cert.ReferenceIdeal.ReadP.val_main_v88 (F := F) x2 x3)
    : (after main_part2_ops0_p2 W (Proc.devRef .tc main_v1) = Cert.ReferenceIdeal.ReadP.val_main_v1 (F := F) x3)
      ∧ (after main_part2_ops0_p2 W (Proc.devRef .tc main_v114) = Cert.ReferenceIdeal.ReadP.val_main_v114 (F := F) x2 x3)
      ∧ (after main_part2_ops0_p2 W (Proc.devRef .tc main_v119) = Cert.ReferenceIdeal.ReadP.val_main_v119 (F := F) x2)
      ∧ (after main_part2_ops0_p2 W (Proc.devRef .tc main_v124) = Cert.ReferenceIdeal.ReadP.val_main_v124 (F := F) x2)
      ∧ (after main_part2_ops0_p2 W (Proc.devRef .tc main_v126) = Cert.ReferenceIdeal.ReadP.val_main_v126 (F := F) x2)
      ∧ (after main_part2_ops0_p2 W (Proc.devRef .tc main_v13) = Cert.ReferenceIdeal.ReadP.val_main_v13 (F := F) x2)
      ∧ (after main_part2_ops0_p2 W (Proc.devRef .tc main_v15) = Cert.ReferenceIdeal.ReadP.val_main_v15 (F := F) x2)
      ∧ (after main_part2_ops0_p2 W (Proc.devRef .tc main_v18) = Cert.ReferenceIdeal.ReadP.val_main_v18 (F := F) x2)
      ∧ (after main_part2_ops0_p2 W (Proc.devRef .tc main_v20) = Cert.ReferenceIdeal.ReadP.val_main_v20 (F := F) x2)
      ∧ (after main_part2_ops0_p2 W (Proc.devRef .tc main_v25) = Cert.ReferenceIdeal.ReadP.val_main_v25 (F := F) x2)
      ∧ (after main_part2_ops0_p2 W (Proc.devRef .tc main_v27) = Cert.ReferenceIdeal.ReadP.val_main_v27 (F := F) x2)
      ∧ (after main_part2_ops0_p2 W (Proc.devRef .tc main_v29) = Cert.ReferenceIdeal.ReadP.val_main_v29 (F := F) x2)
      ∧ (after main_part2_ops0_p2 W (Proc.devRef .tc main_v31) = Cert.ReferenceIdeal.ReadP.val_main_v31 (F := F) x2)
      ∧ (after main_part2_ops0_p2 W (Proc.devRef .tc main_v33) = Cert.ReferenceIdeal.ReadP.val_main_v33 (F := F) x2)
      ∧ (after main_part2_ops0_p2 W (Proc.devRef .tc main_v35) = Cert.ReferenceIdeal.ReadP.val_main_v35 (F := F) x2)
      ∧ (after main_part2_ops0_p2 W (Proc.devRef .tc main_v37) = Cert.ReferenceIdeal.ReadP.val_main_v37 (F := F) x2) := by
  refine ⟨?_, ?_, ?_, ?_, ?_, ?_, ?_, ?_, ?_, ?_, ?_, ?_, ?_, ?_, ?_, ?_⟩
  · exact (after_of_writes_sub _ W main_part2_ops0_p2_writes (by decide)).trans h_main_v1
  · (simp only [main_part2_ops0_p2]; read_results; (try simp only [h_main_v1, h_main_v107, h_main_v13, h_main_v15, h_main_v18, h_main_v20, h_main_v23, h_main_v25, h_main_v27, h_main_v29, h_main_v31, h_main_v33, h_main_v35, h_main_v37, h_main_v88, TRef.ofBuf, TRef.toBuf, cast_eq]);
     (try simp only [Cert.ReferenceIdeal.ReadP.val_main_v108, Cert.ReferenceIdeal.ReadP.val_main_v109, Cert.ReferenceIdeal.ReadP.val_main_v110, Cert.ReferenceIdeal.ReadP.val_main_v111, Cert.ReferenceIdeal.ReadP.val_main_v112, Cert.ReferenceIdeal.ReadP.val_main_v113, Cert.ReferenceIdeal.ReadP.val_main_v114, Cert.ReferenceIdeal.ReadP.val_main_c_31, Cert.ReferenceIdeal.ReadP.val_main_v115, Cert.ReferenceIdeal.ReadP.val_main_v116, Cert.ReferenceIdeal.ReadP.val_main_c_32, Cert.ReferenceIdeal.ReadP.val_main_v117, Cert.ReferenceIdeal.ReadP.val_main_v118, Cert.ReferenceIdeal.ReadP.val_main_v119, Cert.ReferenceIdeal.ReadP.val_main_c_33, Cert.ReferenceIdeal.ReadP.val_main_v120, Cert.ReferenceIdeal.ReadP.val_main_v121, Cert.ReferenceIdeal.ReadP.val_main_c_34, Cert.ReferenceIdeal.ReadP.val_main_v122, Cert.ReferenceIdeal.ReadP.val_main_v123, Cert.ReferenceIdeal.ReadP.val_main_v124, Cert.ReferenceIdeal.ReadP.val_main_c_35, Cert.ReferenceIdeal.ReadP.val_main_v125, Cert.ReferenceIdeal.ReadP.val_main_v126]); (try rfl))
  · (simp only [main_part2_ops0_p2]; read_results; (try simp only [h_main_v1, h_main_v107, h_main_v13, h_main_v15, h_main_v18, h_main_v20, h_main_v23, h_main_v25, h_main_v27, h_main_v29, h_main_v31, h_main_v33, h_main_v35, h_main_v37, h_main_v88, TRef.ofBuf, TRef.toBuf, cast_eq]);
     (try simp only [Cert.ReferenceIdeal.ReadP.val_main_v108, Cert.ReferenceIdeal.ReadP.val_main_v109, Cert.ReferenceIdeal.ReadP.val_main_v110, Cert.ReferenceIdeal.ReadP.val_main_v111, Cert.ReferenceIdeal.ReadP.val_main_v112, Cert.ReferenceIdeal.ReadP.val_main_v113, Cert.ReferenceIdeal.ReadP.val_main_v114, Cert.ReferenceIdeal.ReadP.val_main_c_31, Cert.ReferenceIdeal.ReadP.val_main_v115, Cert.ReferenceIdeal.ReadP.val_main_v116, Cert.ReferenceIdeal.ReadP.val_main_c_32, Cert.ReferenceIdeal.ReadP.val_main_v117, Cert.ReferenceIdeal.ReadP.val_main_v118, Cert.ReferenceIdeal.ReadP.val_main_v119, Cert.ReferenceIdeal.ReadP.val_main_c_33, Cert.ReferenceIdeal.ReadP.val_main_v120, Cert.ReferenceIdeal.ReadP.val_main_v121, Cert.ReferenceIdeal.ReadP.val_main_c_34, Cert.ReferenceIdeal.ReadP.val_main_v122, Cert.ReferenceIdeal.ReadP.val_main_v123, Cert.ReferenceIdeal.ReadP.val_main_v124, Cert.ReferenceIdeal.ReadP.val_main_c_35, Cert.ReferenceIdeal.ReadP.val_main_v125, Cert.ReferenceIdeal.ReadP.val_main_v126]); (try rfl))
  · (simp only [main_part2_ops0_p2]; read_results; (try simp only [h_main_v1, h_main_v107, h_main_v13, h_main_v15, h_main_v18, h_main_v20, h_main_v23, h_main_v25, h_main_v27, h_main_v29, h_main_v31, h_main_v33, h_main_v35, h_main_v37, h_main_v88, TRef.ofBuf, TRef.toBuf, cast_eq]);
     (try simp only [Cert.ReferenceIdeal.ReadP.val_main_v108, Cert.ReferenceIdeal.ReadP.val_main_v109, Cert.ReferenceIdeal.ReadP.val_main_v110, Cert.ReferenceIdeal.ReadP.val_main_v111, Cert.ReferenceIdeal.ReadP.val_main_v112, Cert.ReferenceIdeal.ReadP.val_main_v113, Cert.ReferenceIdeal.ReadP.val_main_v114, Cert.ReferenceIdeal.ReadP.val_main_c_31, Cert.ReferenceIdeal.ReadP.val_main_v115, Cert.ReferenceIdeal.ReadP.val_main_v116, Cert.ReferenceIdeal.ReadP.val_main_c_32, Cert.ReferenceIdeal.ReadP.val_main_v117, Cert.ReferenceIdeal.ReadP.val_main_v118, Cert.ReferenceIdeal.ReadP.val_main_v119, Cert.ReferenceIdeal.ReadP.val_main_c_33, Cert.ReferenceIdeal.ReadP.val_main_v120, Cert.ReferenceIdeal.ReadP.val_main_v121, Cert.ReferenceIdeal.ReadP.val_main_c_34, Cert.ReferenceIdeal.ReadP.val_main_v122, Cert.ReferenceIdeal.ReadP.val_main_v123, Cert.ReferenceIdeal.ReadP.val_main_v124, Cert.ReferenceIdeal.ReadP.val_main_c_35, Cert.ReferenceIdeal.ReadP.val_main_v125, Cert.ReferenceIdeal.ReadP.val_main_v126]); (try rfl))
  · (simp only [main_part2_ops0_p2]; read_results; (try simp only [h_main_v1, h_main_v107, h_main_v13, h_main_v15, h_main_v18, h_main_v20, h_main_v23, h_main_v25, h_main_v27, h_main_v29, h_main_v31, h_main_v33, h_main_v35, h_main_v37, h_main_v88, TRef.ofBuf, TRef.toBuf, cast_eq]);
     (try simp only [Cert.ReferenceIdeal.ReadP.val_main_v108, Cert.ReferenceIdeal.ReadP.val_main_v109, Cert.ReferenceIdeal.ReadP.val_main_v110, Cert.ReferenceIdeal.ReadP.val_main_v111, Cert.ReferenceIdeal.ReadP.val_main_v112, Cert.ReferenceIdeal.ReadP.val_main_v113, Cert.ReferenceIdeal.ReadP.val_main_v114, Cert.ReferenceIdeal.ReadP.val_main_c_31, Cert.ReferenceIdeal.ReadP.val_main_v115, Cert.ReferenceIdeal.ReadP.val_main_v116, Cert.ReferenceIdeal.ReadP.val_main_c_32, Cert.ReferenceIdeal.ReadP.val_main_v117, Cert.ReferenceIdeal.ReadP.val_main_v118, Cert.ReferenceIdeal.ReadP.val_main_v119, Cert.ReferenceIdeal.ReadP.val_main_c_33, Cert.ReferenceIdeal.ReadP.val_main_v120, Cert.ReferenceIdeal.ReadP.val_main_v121, Cert.ReferenceIdeal.ReadP.val_main_c_34, Cert.ReferenceIdeal.ReadP.val_main_v122, Cert.ReferenceIdeal.ReadP.val_main_v123, Cert.ReferenceIdeal.ReadP.val_main_v124, Cert.ReferenceIdeal.ReadP.val_main_c_35, Cert.ReferenceIdeal.ReadP.val_main_v125, Cert.ReferenceIdeal.ReadP.val_main_v126]); (try rfl))
  · exact (after_of_writes_sub _ W main_part2_ops0_p2_writes (by decide)).trans h_main_v13
  · exact (after_of_writes_sub _ W main_part2_ops0_p2_writes (by decide)).trans h_main_v15
  · exact (after_of_writes_sub _ W main_part2_ops0_p2_writes (by decide)).trans h_main_v18
  · exact (after_of_writes_sub _ W main_part2_ops0_p2_writes (by decide)).trans h_main_v20
  · exact (after_of_writes_sub _ W main_part2_ops0_p2_writes (by decide)).trans h_main_v25
  · exact (after_of_writes_sub _ W main_part2_ops0_p2_writes (by decide)).trans h_main_v27
  · exact (after_of_writes_sub _ W main_part2_ops0_p2_writes (by decide)).trans h_main_v29
  · exact (after_of_writes_sub _ W main_part2_ops0_p2_writes (by decide)).trans h_main_v31
  · exact (after_of_writes_sub _ W main_part2_ops0_p2_writes (by decide)).trans h_main_v33
  · exact (after_of_writes_sub _ W main_part2_ops0_p2_writes (by decide)).trans h_main_v35
  · exact (after_of_writes_sub _ W main_part2_ops0_p2_writes (by decide)).trans h_main_v37

/-- A piece of `main_part2_ops0`. -/
abbrev main_part2_ops0_p3 : List (HloOp τ sig (Elt F)) :=
  [ StableHlo.nullary main_c_36 (constantI S_ 32 33#32),
    StableHlo.unary main_c_36 main_v127 (broadcastInDim S4x512x512 ![] bcast_S_S4x512x512 : (⟨S_, .i32⟩ : BufTy).Contents (Elt F) → (⟨S4x512x512, .i32⟩ : BufTy).Contents (Elt F)),
    StableHlo.binary main_v27 main_v127 main_v128 (addi : (⟨S4x512x512, .i32⟩ : BufTy).Contents (Elt F) → (⟨S4x512x512, .i32⟩ : BufTy).Contents (Elt F) → (⟨S4x512x512, .i32⟩ : BufTy).Contents (Elt F)),
    StableHlo.ternary main_v126 main_v128 main_v27 main_v129 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    StableHlo.unary main_v119 main_v130 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    StableHlo.unary main_v124 main_v131 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    StableHlo.unary main_v129 main_v132 (broadcastInDim S4x512x512x1 ![0, 1, 2] bcast_S4x512x512_S4x512x512x1_0_1_2 : (⟨S4x512x512, .i32⟩ : BufTy).Contents (Elt F) → (⟨S4x512x512x1, .i32⟩ : BufTy).Contents (Elt F)) ]
abbrev wr_main_part2_ops0_p3 : List (Ref sig .tc) := [main_c_36, main_v127, main_v128, main_v129, main_v130, main_v131, main_v132]
set_option maxRecDepth 16384 in
set_option maxHeartbeats 40000000 in
theorem main_part2_ops0_p3_writes : (main_part2_ops0_p3 : List (HloOp τ sig (Elt F))).Forall fun op =>
    op.writes ⊆ (wr_main_part2_ops0_p3.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_main_part2_ops0_p3 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v114 : W (Proc.devRef .tc main_v114) = Cert.ReferenceIdeal.ReadP.val_main_v114 (F := F) x2 x3)
    (h_main_v119 : W (Proc.devRef .tc main_v119) = Cert.ReferenceIdeal.ReadP.val_main_v119 (F := F) x2)
    (h_main_v124 : W (Proc.devRef .tc main_v124) = Cert.ReferenceIdeal.ReadP.val_main_v124 (F := F) x2)
    (h_main_v126 : W (Proc.devRef .tc main_v126) = Cert.ReferenceIdeal.ReadP.val_main_v126 (F := F) x2)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    : (after main_part2_ops0_p3 W (Proc.devRef .tc main_v1) = Cert.ReferenceIdeal.ReadP.val_main_v1 (F := F) x3)
      ∧ (after main_part2_ops0_p3 W (Proc.devRef .tc main_v114) = Cert.ReferenceIdeal.ReadP.val_main_v114 (F := F) x2 x3)
      ∧ (after main_part2_ops0_p3 W (Proc.devRef .tc main_v13) = Cert.ReferenceIdeal.ReadP.val_main_v13 (F := F) x2)
      ∧ (after main_part2_ops0_p3 W (Proc.devRef .tc main_v130) = Cert.ReferenceIdeal.ReadP.val_main_v130 (F := F) x2)
      ∧ (after main_part2_ops0_p3 W (Proc.devRef .tc main_v131) = Cert.ReferenceIdeal.ReadP.val_main_v131 (F := F) x2)
      ∧ (after main_part2_ops0_p3 W (Proc.devRef .tc main_v132) = Cert.ReferenceIdeal.ReadP.val_main_v132 (F := F) x2)
      ∧ (after main_part2_ops0_p3 W (Proc.devRef .tc main_v15) = Cert.ReferenceIdeal.ReadP.val_main_v15 (F := F) x2)
      ∧ (after main_part2_ops0_p3 W (Proc.devRef .tc main_v18) = Cert.ReferenceIdeal.ReadP.val_main_v18 (F := F) x2)
      ∧ (after main_part2_ops0_p3 W (Proc.devRef .tc main_v20) = Cert.ReferenceIdeal.ReadP.val_main_v20 (F := F) x2)
      ∧ (after main_part2_ops0_p3 W (Proc.devRef .tc main_v25) = Cert.ReferenceIdeal.ReadP.val_main_v25 (F := F) x2)
      ∧ (after main_part2_ops0_p3 W (Proc.devRef .tc main_v27) = Cert.ReferenceIdeal.ReadP.val_main_v27 (F := F) x2)
      ∧ (after main_part2_ops0_p3 W (Proc.devRef .tc main_v29) = Cert.ReferenceIdeal.ReadP.val_main_v29 (F := F) x2)
      ∧ (after main_part2_ops0_p3 W (Proc.devRef .tc main_v31) = Cert.ReferenceIdeal.ReadP.val_main_v31 (F := F) x2)
      ∧ (after main_part2_ops0_p3 W (Proc.devRef .tc main_v33) = Cert.ReferenceIdeal.ReadP.val_main_v33 (F := F) x2)
      ∧ (after main_part2_ops0_p3 W (Proc.devRef .tc main_v35) = Cert.ReferenceIdeal.ReadP.val_main_v35 (F := F) x2)
      ∧ (after main_part2_ops0_p3 W (Proc.devRef .tc main_v37) = Cert.ReferenceIdeal.ReadP.val_main_v37 (F := F) x2) := by
  refine ⟨?_, ?_, ?_, ?_, ?_, ?_, ?_, ?_, ?_, ?_, ?_, ?_, ?_, ?_, ?_, ?_⟩
  · exact (after_of_writes_sub _ W main_part2_ops0_p3_writes (by decide)).trans h_main_v1
  · exact (after_of_writes_sub _ W main_part2_ops0_p3_writes (by decide)).trans h_main_v114
  · exact (after_of_writes_sub _ W main_part2_ops0_p3_writes (by decide)).trans h_main_v13
  · (simp only [main_part2_ops0_p3]; read_results; (try simp only [h_main_v1, h_main_v114, h_main_v119, h_main_v124, h_main_v126, h_main_v13, h_main_v15, h_main_v18, h_main_v20, h_main_v25, h_main_v27, h_main_v29, h_main_v31, h_main_v33, h_main_v35, h_main_v37, TRef.ofBuf, TRef.toBuf, cast_eq]);
     (try simp only [Cert.ReferenceIdeal.ReadP.val_main_c_36, Cert.ReferenceIdeal.ReadP.val_main_v127, Cert.ReferenceIdeal.ReadP.val_main_v128, Cert.ReferenceIdeal.ReadP.val_main_v129, Cert.ReferenceIdeal.ReadP.val_main_v130, Cert.ReferenceIdeal.ReadP.val_main_v131, Cert.ReferenceIdeal.ReadP.val_main_v132]); (try rfl))
  · (simp only [main_part2_ops0_p3]; read_results; (try simp only [h_main_v1, h_main_v114, h_main_v119, h_main_v124, h_main_v126, h_main_v13, h_main_v15, h_main_v18, h_main_v20, h_main_v25, h_main_v27, h_main_v29, h_main_v31, h_main_v33, h_main_v35, h_main_v37, TRef.ofBuf, TRef.toBuf, cast_eq]);
     (try simp only [Cert.ReferenceIdeal.ReadP.val_main_c_36, Cert.ReferenceIdeal.ReadP.val_main_v127, Cert.ReferenceIdeal.ReadP.val_main_v128, Cert.ReferenceIdeal.ReadP.val_main_v129, Cert.ReferenceIdeal.ReadP.val_main_v130, Cert.ReferenceIdeal.ReadP.val_main_v131, Cert.ReferenceIdeal.ReadP.val_main_v132]); (try rfl))
  · (simp only [main_part2_ops0_p3]; read_results; (try simp only [h_main_v1, h_main_v114, h_main_v119, h_main_v124, h_main_v126, h_main_v13, h_main_v15, h_main_v18, h_main_v20, h_main_v25, h_main_v27, h_main_v29, h_main_v31, h_main_v33, h_main_v35, h_main_v37, TRef.ofBuf, TRef.toBuf, cast_eq]);
     (try simp only [Cert.ReferenceIdeal.ReadP.val_main_c_36, Cert.ReferenceIdeal.ReadP.val_main_v127, Cert.ReferenceIdeal.ReadP.val_main_v128, Cert.ReferenceIdeal.ReadP.val_main_v129, Cert.ReferenceIdeal.ReadP.val_main_v130, Cert.ReferenceIdeal.ReadP.val_main_v131, Cert.ReferenceIdeal.ReadP.val_main_v132]); (try rfl))
  · exact (after_of_writes_sub _ W main_part2_ops0_p3_writes (by decide)).trans h_main_v15
  · exact (after_of_writes_sub _ W main_part2_ops0_p3_writes (by decide)).trans h_main_v18
  · exact (after_of_writes_sub _ W main_part2_ops0_p3_writes (by decide)).trans h_main_v20
  · exact (after_of_writes_sub _ W main_part2_ops0_p3_writes (by decide)).trans h_main_v25
  · exact (after_of_writes_sub _ W main_part2_ops0_p3_writes (by decide)).trans h_main_v27
  · exact (after_of_writes_sub _ W main_part2_ops0_p3_writes (by decide)).trans h_main_v29
  · exact (after_of_writes_sub _ W main_part2_ops0_p3_writes (by decide)).trans h_main_v31
  · exact (after_of_writes_sub _ W main_part2_ops0_p3_writes (by decide)).trans h_main_v33
  · exact (after_of_writes_sub _ W main_part2_ops0_p3_writes (by decide)).trans h_main_v35
  · exact (after_of_writes_sub _ W main_part2_ops0_p3_writes (by decide)).trans h_main_v37

/-- A piece of `main_part2_ops0`. -/
abbrev main_part2_ops0_p4 : List (HloOp τ sig (Elt F)) :=
  [ StableHlo.nary ![main_v130, main_v131, main_v132] main_v133 (fun u => concatenate S4x512x512x3 3 [⟨S4x512x512x1, u 0⟩, ⟨S4x512x512x1, u 1⟩, ⟨S4x512x512x1, u 2⟩] concatenates_S4x512x512x1_S4x512x512x1_S4x512x512x1_S4x512x512x3_d3) ]
abbrev wr_main_part2_ops0_p4 : List (Ref sig .tc) := [main_v133]
set_option maxRecDepth 16384 in
set_option maxHeartbeats 40000000 in
theorem main_part2_ops0_p4_writes : (main_part2_ops0_p4 : List (HloOp τ sig (Elt F))).Forall fun op =>
    op.writes ⊆ (wr_main_part2_ops0_p4.map (Proc.devRef (τ := τ) .tc)).toFinset :=
  by simp only [List.Forall]; exact writes_sub_of rfl (by decide)
set_option maxRecDepth 16384 in
set_option maxHeartbeats 40000000 in
theorem stage_main_part2_ops0_p4 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v114 : W (Proc.devRef .tc main_v114) = Cert.ReferenceIdeal.ReadP.val_main_v114 (F := F) x2 x3)
    (h_main_v13 : W (Proc.devRef .tc main_v13) = Cert.ReferenceIdeal.ReadP.val_main_v13 (F := F) x2)
    (h_main_v130 : W (Proc.devRef .tc main_v130) = Cert.ReferenceIdeal.ReadP.val_main_v130 (F := F) x2)
    (h_main_v131 : W (Proc.devRef .tc main_v131) = Cert.ReferenceIdeal.ReadP.val_main_v131 (F := F) x2)
    (h_main_v132 : W (Proc.devRef .tc main_v132) = Cert.ReferenceIdeal.ReadP.val_main_v132 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    : (after main_part2_ops0_p4 W (Proc.devRef .tc main_v1) = Cert.ReferenceIdeal.ReadP.val_main_v1 (F := F) x3)
      ∧ (after main_part2_ops0_p4 W (Proc.devRef .tc main_v114) = Cert.ReferenceIdeal.ReadP.val_main_v114 (F := F) x2 x3)
      ∧ (after main_part2_ops0_p4 W (Proc.devRef .tc main_v13) = Cert.ReferenceIdeal.ReadP.val_main_v13 (F := F) x2)
      ∧ (after main_part2_ops0_p4 W (Proc.devRef .tc main_v133) = Cert.ReferenceIdeal.ReadP.val_main_v133 (F := F) x2)
      ∧ (after main_part2_ops0_p4 W (Proc.devRef .tc main_v15) = Cert.ReferenceIdeal.ReadP.val_main_v15 (F := F) x2)
      ∧ (after main_part2_ops0_p4 W (Proc.devRef .tc main_v18) = Cert.ReferenceIdeal.ReadP.val_main_v18 (F := F) x2)
      ∧ (after main_part2_ops0_p4 W (Proc.devRef .tc main_v20) = Cert.ReferenceIdeal.ReadP.val_main_v20 (F := F) x2)
      ∧ (after main_part2_ops0_p4 W (Proc.devRef .tc main_v25) = Cert.ReferenceIdeal.ReadP.val_main_v25 (F := F) x2)
      ∧ (after main_part2_ops0_p4 W (Proc.devRef .tc main_v27) = Cert.ReferenceIdeal.ReadP.val_main_v27 (F := F) x2)
      ∧ (after main_part2_ops0_p4 W (Proc.devRef .tc main_v29) = Cert.ReferenceIdeal.ReadP.val_main_v29 (F := F) x2)
      ∧ (after main_part2_ops0_p4 W (Proc.devRef .tc main_v31) = Cert.ReferenceIdeal.ReadP.val_main_v31 (F := F) x2)
      ∧ (after main_part2_ops0_p4 W (Proc.devRef .tc main_v33) = Cert.ReferenceIdeal.ReadP.val_main_v33 (F := F) x2)
      ∧ (after main_part2_ops0_p4 W (Proc.devRef .tc main_v35) = Cert.ReferenceIdeal.ReadP.val_main_v35 (F := F) x2)
      ∧ (after main_part2_ops0_p4 W (Proc.devRef .tc main_v37) = Cert.ReferenceIdeal.ReadP.val_main_v37 (F := F) x2) := by
  refine ⟨?_, ?_, ?_, ?_, ?_, ?_, ?_, ?_, ?_, ?_, ?_, ?_, ?_, ?_⟩
  · exact (after_of_writes_sub _ W main_part2_ops0_p4_writes (by decide)).trans h_main_v1
  · exact (after_of_writes_sub _ W main_part2_ops0_p4_writes (by decide)).trans h_main_v114
  · exact (after_of_writes_sub _ W main_part2_ops0_p4_writes (by decide)).trans h_main_v13
  · simp only [main_part2_ops0_p4, after_cons, after_nil]
    rw [nary_result]
    show concatenate S4x512x512x3 3 [⟨S4x512x512x1, (W (Proc.devRef .tc main_v130))⟩, ⟨S4x512x512x1, (W (Proc.devRef .tc main_v131))⟩, ⟨S4x512x512x1, (W (Proc.devRef .tc main_v132))⟩] concatenates_S4x512x512x1_S4x512x512x1_S4x512x512x1_S4x512x512x3_d3 = _
    rw [h_main_v130, h_main_v131, h_main_v132]
    (try simp only [Cert.ReferenceIdeal.ReadP.val_main_v133])
    (try rfl)
  · exact (after_of_writes_sub _ W main_part2_ops0_p4_writes (by decide)).trans h_main_v15
  · exact (after_of_writes_sub _ W main_part2_ops0_p4_writes (by decide)).trans h_main_v18
  · exact (after_of_writes_sub _ W main_part2_ops0_p4_writes (by decide)).trans h_main_v20
  · exact (after_of_writes_sub _ W main_part2_ops0_p4_writes (by decide)).trans h_main_v25
  · exact (after_of_writes_sub _ W main_part2_ops0_p4_writes (by decide)).trans h_main_v27
  · exact (after_of_writes_sub _ W main_part2_ops0_p4_writes (by decide)).trans h_main_v29
  · exact (after_of_writes_sub _ W main_part2_ops0_p4_writes (by decide)).trans h_main_v31
  · exact (after_of_writes_sub _ W main_part2_ops0_p4_writes (by decide)).trans h_main_v33
  · exact (after_of_writes_sub _ W main_part2_ops0_p4_writes (by decide)).trans h_main_v35
  · exact (after_of_writes_sub _ W main_part2_ops0_p4_writes (by decide)).trans h_main_v37

/-- A piece of `main_part2_ops0`. -/
abbrev main_part2_ops0_p5 : List (HloOp τ sig (Elt F)) :=
  [ StableHlo.binary main_v1 main_v133 main_v134 ((fun x i => Host.gather gather_S8x3x33x33x33_S4x512x512x3_S8x3x4x512x512_01_234_n_n_234_3_83111 x i) : (⟨S8x3x33x33x33, .f32⟩ : BufTy).Contents (Elt F) → (⟨S4x512x512x3, .i32⟩ : BufTy).Contents (Elt F) → (⟨S8x3x4x512x512, .f32⟩ : BufTy).Contents (Elt F)),
    StableHlo.binary main_v37 main_v20 main_v135 (mulf : (⟨S4x512x512, .f32⟩ : BufTy).Contents (Elt F) → (⟨S4x512x512, .f32⟩ : BufTy).Contents (Elt F) → (⟨S4x512x512, .f32⟩ : BufTy).Contents (Elt F)),
    StableHlo.binary main_v135 main_v15 main_v136 (mulf : (⟨S4x512x512, .f32⟩ : BufTy).Contents (Elt F) → (⟨S4x512x512, .f32⟩ : BufTy).Contents (Elt F) → (⟨S4x512x512, .f32⟩ : BufTy).Contents (Elt F)),
    StableHlo.unary main_v136 main_v137 (broadcastInDim S1x1x4x512x512 ![2, 3, 4] bcast_S4x512x512_S1x1x4x512x512_2_3_4 : (⟨S4x512x512, .f32⟩ : BufTy).Contents (Elt F) → (⟨S1x1x4x512x512, .f32⟩ : BufTy).Contents (Elt F)),
    StableHlo.unary main_v137 main_v138 (broadcastInDim S8x3x4x512x512 ![0, 1, 2, 3, 4] bcast_S1x1x4x512x512_S8x3x4x512x512_0_1_2_3_4 : (⟨S1x1x4x512x512, .f32⟩ : BufTy).Contents (Elt F) → (⟨S8x3x4x512x512, .f32⟩ : BufTy).Contents (Elt F)),
    StableHlo.binary main_v134 main_v138 main_v139 (mulf : (⟨S8x3x4x512x512, .f32⟩ : BufTy).Contents (Elt F) → (⟨S8x3x4x512x512, .f32⟩ : BufTy).Contents (Elt F) → (⟨S8x3x4x512x512, .f32⟩ : BufTy).Contents (Elt F)),
    StableHlo.binary main_v114 main_v139 main_v140 (addf : (⟨S8x3x4x512x512, .f32⟩ : BufTy).Contents (Elt F) → (⟨S8x3x4x512x512, .f32⟩ : BufTy).Contents (Elt F) → (⟨S8x3x4x512x512, .f32⟩ : BufTy).Contents (Elt F)) ]
abbrev wr_main_part2_ops0_p5 : List (Ref sig .tc) := [main_v134, main_v135, main_v136, main_v137, main_v138, main_v139, main_v140]
set_option maxRecDepth 16384 in
set_option maxHeartbeats 40000000 in
theorem main_part2_ops0_p5_writes : (main_part2_ops0_p5 : List (HloOp τ sig (Elt F))).Forall fun op =>
    op.writes ⊆ (wr_main_part2_ops0_p5.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_main_part2_ops0_p5 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v114 : W (Proc.devRef .tc main_v114) = Cert.ReferenceIdeal.ReadP.val_main_v114 (F := F) x2 x3)
    (h_main_v13 : W (Proc.devRef .tc main_v13) = Cert.ReferenceIdeal.ReadP.val_main_v13 (F := F) x2)
    (h_main_v133 : W (Proc.devRef .tc main_v133) = Cert.ReferenceIdeal.ReadP.val_main_v133 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    : (after main_part2_ops0_p5 W (Proc.devRef .tc main_v1) = Cert.ReferenceIdeal.ReadP.val_main_v1 (F := F) x3)
      ∧ (after main_part2_ops0_p5 W (Proc.devRef .tc main_v13) = Cert.ReferenceIdeal.ReadP.val_main_v13 (F := F) x2)
      ∧ (after main_part2_ops0_p5 W (Proc.devRef .tc main_v140) = Cert.ReferenceIdeal.ReadP.val_main_v140 (F := F) x2 x3)
      ∧ (after main_part2_ops0_p5 W (Proc.devRef .tc main_v15) = Cert.ReferenceIdeal.ReadP.val_main_v15 (F := F) x2)
      ∧ (after main_part2_ops0_p5 W (Proc.devRef .tc main_v18) = Cert.ReferenceIdeal.ReadP.val_main_v18 (F := F) x2)
      ∧ (after main_part2_ops0_p5 W (Proc.devRef .tc main_v20) = Cert.ReferenceIdeal.ReadP.val_main_v20 (F := F) x2)
      ∧ (after main_part2_ops0_p5 W (Proc.devRef .tc main_v25) = Cert.ReferenceIdeal.ReadP.val_main_v25 (F := F) x2)
      ∧ (after main_part2_ops0_p5 W (Proc.devRef .tc main_v27) = Cert.ReferenceIdeal.ReadP.val_main_v27 (F := F) x2)
      ∧ (after main_part2_ops0_p5 W (Proc.devRef .tc main_v29) = Cert.ReferenceIdeal.ReadP.val_main_v29 (F := F) x2)
      ∧ (after main_part2_ops0_p5 W (Proc.devRef .tc main_v31) = Cert.ReferenceIdeal.ReadP.val_main_v31 (F := F) x2)
      ∧ (after main_part2_ops0_p5 W (Proc.devRef .tc main_v33) = Cert.ReferenceIdeal.ReadP.val_main_v33 (F := F) x2)
      ∧ (after main_part2_ops0_p5 W (Proc.devRef .tc main_v35) = Cert.ReferenceIdeal.ReadP.val_main_v35 (F := F) x2) := by
  refine ⟨?_, ?_, ?_, ?_, ?_, ?_, ?_, ?_, ?_, ?_, ?_, ?_⟩
  · exact (after_of_writes_sub _ W main_part2_ops0_p5_writes (by decide)).trans h_main_v1
  · exact (after_of_writes_sub _ W main_part2_ops0_p5_writes (by decide)).trans h_main_v13
  · (simp only [main_part2_ops0_p5]; read_results; (try simp only [h_main_v1, h_main_v114, h_main_v13, h_main_v133, h_main_v15, h_main_v18, h_main_v20, h_main_v25, h_main_v27, h_main_v29, h_main_v31, h_main_v33, h_main_v35, h_main_v37, TRef.ofBuf, TRef.toBuf, cast_eq]);
     (try simp only [Cert.ReferenceIdeal.ReadP.val_main_v134, Cert.ReferenceIdeal.ReadP.val_main_v135, Cert.ReferenceIdeal.ReadP.val_main_v136, Cert.ReferenceIdeal.ReadP.val_main_v137, Cert.ReferenceIdeal.ReadP.val_main_v138, Cert.ReferenceIdeal.ReadP.val_main_v139, Cert.ReferenceIdeal.ReadP.val_main_v140]); (try rfl))
  · exact (after_of_writes_sub _ W main_part2_ops0_p5_writes (by decide)).trans h_main_v15
  · exact (after_of_writes_sub _ W main_part2_ops0_p5_writes (by decide)).trans h_main_v18
  · exact (after_of_writes_sub _ W main_part2_ops0_p5_writes (by decide)).trans h_main_v20
  · exact (after_of_writes_sub _ W main_part2_ops0_p5_writes (by decide)).trans h_main_v25
  · exact (after_of_writes_sub _ W main_part2_ops0_p5_writes (by decide)).trans h_main_v27
  · exact (after_of_writes_sub _ W main_part2_ops0_p5_writes (by decide)).trans h_main_v29
  · exact (after_of_writes_sub _ W main_part2_ops0_p5_writes (by decide)).trans h_main_v31
  · exact (after_of_writes_sub _ W main_part2_ops0_p5_writes (by decide)).trans h_main_v33
  · exact (after_of_writes_sub _ W main_part2_ops0_p5_writes (by decide)).trans h_main_v35

/-- A piece of `main_part3_ops0`. -/
abbrev main_part3_ops0_p0 : List (HloOp τ sig (Elt F)) :=
  [ StableHlo.nullary main_c_37 (constantI S_ 32 0#32),
    StableHlo.unary main_c_37 main_v141 (broadcastInDim S4x512x512 ![] bcast_S_S4x512x512 : (⟨S_, .i32⟩ : BufTy).Contents (Elt F) → (⟨S4x512x512, .i32⟩ : BufTy).Contents (Elt F)),
    StableHlo.binary main_v31 main_v141 main_v142 (cmpi .slt : (⟨S4x512x512, .i32⟩ : BufTy).Contents (Elt F) → (⟨S4x512x512, .i32⟩ : BufTy).Contents (Elt F) → (⟨S4x512x512, .i1⟩ : BufTy).Contents (Elt F)),
    StableHlo.nullary main_c_38 (constantI S_ 32 33#32),
    StableHlo.unary main_c_38 main_v143 (broadcastInDim S4x512x512 ![] bcast_S_S4x512x512 : (⟨S_, .i32⟩ : BufTy).Contents (Elt F) → (⟨S4x512x512, .i32⟩ : BufTy).Contents (Elt F)),
    StableHlo.binary main_v31 main_v143 main_v144 (addi : (⟨S4x512x512, .i32⟩ : BufTy).Contents (Elt F) → (⟨S4x512x512, .i32⟩ : BufTy).Contents (Elt F) → (⟨S4x512x512, .i32⟩ : BufTy).Contents (Elt F)),
    StableHlo.ternary main_v142 main_v144 main_v31 main_v145 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    StableHlo.nullary main_c_39 (constantI S_ 32 0#32),
    StableHlo.unary main_c_39 main_v146 (broadcastInDim S4x512x512 ![] bcast_S_S4x512x512 : (⟨S_, .i32⟩ : BufTy).Contents (Elt F) → (⟨S4x512x512, .i32⟩ : BufTy).Contents (Elt F)),
    StableHlo.binary main_v18 main_v146 main_v147 (cmpi .slt : (⟨S4x512x512, .i32⟩ : BufTy).Contents (Elt F) → (⟨S4x512x512, .i32⟩ : BufTy).Contents (Elt F) → (⟨S4x512x512, .i1⟩ : BufTy).Contents (Elt F)),
    StableHlo.nullary main_c_40 (constantI S_ 32 33#32),
    StableHlo.unary main_c_40 main_v148 (broadcastInDim S4x512x512 ![] bcast_S_S4x512x512 : (⟨S_, .i32⟩ : BufTy).Contents (Elt F) → (⟨S4x512x512, .i32⟩ : BufTy).Contents (Elt F)),
    StableHlo.binary main_v18 main_v148 main_v149 (addi : (⟨S4x512x512, .i32⟩ : BufTy).Contents (Elt F) → (⟨S4x512x512, .i32⟩ : BufTy).Contents (Elt F) → (⟨S4x512x512, .i32⟩ : BufTy).Contents (Elt F)),
    StableHlo.ternary main_v147 main_v149 main_v18 main_v150 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    StableHlo.nullary main_c_41 (constantI S_ 32 0#32),
    StableHlo.unary main_c_41 main_v151 (broadcastInDim S4x512x512 ![] bcast_S_S4x512x512 : (⟨S_, .i32⟩ : BufTy).Contents (Elt F) → (⟨S4x512x512, .i32⟩ : BufTy).Contents (Elt F)),
    StableHlo.binary main_v13 main_v151 main_v152 (cmpi .slt : (⟨S4x512x512, .i32⟩ : BufTy).Contents (Elt F) → (⟨S4x512x512, .i32⟩ : BufTy).Contents (Elt F) → (⟨S4x512x512, .i1⟩ : BufTy).Contents (Elt F)),
    StableHlo.nullary main_c_42 (constantI S_ 32 33#32),
    StableHlo.unary main_c_42 main_v153 (broadcastInDim S4x512x512 ![] bcast_S_S4x512x512 : (⟨S_, .i32⟩ : BufTy).Contents (Elt F) → (⟨S4x512x512, .i32⟩ : BufTy).Contents (Elt F)),
    StableHlo.binary main_v13 main_v153 main_v154 (addi : (⟨S4x512x512, .i32⟩ : BufTy).Contents (Elt F) → (⟨S4x512x512, .i32⟩ : BufTy).Contents (Elt F) → (⟨S4x512x512, .i32⟩ : BufTy).Contents (Elt F)),
    StableHlo.ternary main_v152 main_v154 main_v13 main_v155 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    StableHlo.unary main_v145 main_v156 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    StableHlo.unary main_v150 main_v157 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    StableHlo.unary main_v155 main_v158 (broadcastInDim S4x512x512x1 ![0, 1, 2] bcast_S4x512x512_S4x512x512x1_0_1_2 : (⟨S4x512x512, .i32⟩ : BufTy).Contents (Elt F) → (⟨S4x512x512x1, .i32⟩ : BufTy).Contents (Elt F)) ]
abbrev wr_main_part3_ops0_p0 : List (Ref sig .tc) := [main_c_37, main_v141, main_v142, main_c_38, main_v143, main_v144, main_v145, main_c_39, main_v146, main_v147, main_c_40, main_v148, main_v149, main_v150, main_c_41, main_v151, main_v152, main_c_42, main_v153, main_v154, main_v155, main_v156, main_v157, main_v158]
set_option maxRecDepth 16384 in
set_option maxHeartbeats 40000000 in
theorem main_part3_ops0_p0_writes : (main_part3_ops0_p0 : List (HloOp τ sig (Elt F))).Forall fun op =>
    op.writes ⊆ (wr_main_part3_ops0_p0.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_main_part3_ops0_p0 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v140 : W (Proc.devRef .tc main_v140) = Cert.ReferenceIdeal.ReadP.val_main_v140 (F := F) x2 x3)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    : (after main_part3_ops0_p0 W (Proc.devRef .tc main_v1) = Cert.ReferenceIdeal.ReadP.val_main_v1 (F := F) x3)
      ∧ (after main_part3_ops0_p0 W (Proc.devRef .tc main_v13) = Cert.ReferenceIdeal.ReadP.val_main_v13 (F := F) x2)
      ∧ (after main_part3_ops0_p0 W (Proc.devRef .tc main_v140) = Cert.ReferenceIdeal.ReadP.val_main_v140 (F := F) x2 x3)
      ∧ (after main_part3_ops0_p0 W (Proc.devRef .tc main_v15) = Cert.ReferenceIdeal.ReadP.val_main_v15 (F := F) x2)
      ∧ (after main_part3_ops0_p0 W (Proc.devRef .tc main_v156) = Cert.ReferenceIdeal.ReadP.val_main_v156 (F := F) x2)
      ∧ (after main_part3_ops0_p0 W (Proc.devRef .tc main_v157) = Cert.ReferenceIdeal.ReadP.val_main_v157 (F := F) x2)
      ∧ (after main_part3_ops0_p0 W (Proc.devRef .tc main_v158) = Cert.ReferenceIdeal.ReadP.val_main_v158 (F := F) x2)
      ∧ (after main_part3_ops0_p0 W (Proc.devRef .tc main_v18) = Cert.ReferenceIdeal.ReadP.val_main_v18 (F := F) x2)
      ∧ (after main_part3_ops0_p0 W (Proc.devRef .tc main_v20) = Cert.ReferenceIdeal.ReadP.val_main_v20 (F := F) x2)
      ∧ (after main_part3_ops0_p0 W (Proc.devRef .tc main_v25) = Cert.ReferenceIdeal.ReadP.val_main_v25 (F := F) x2)
      ∧ (after main_part3_ops0_p0 W (Proc.devRef .tc main_v27) = Cert.ReferenceIdeal.ReadP.val_main_v27 (F := F) x2)
      ∧ (after main_part3_ops0_p0 W (Proc.devRef .tc main_v29) = Cert.ReferenceIdeal.ReadP.val_main_v29 (F := F) x2)
      ∧ (after main_part3_ops0_p0 W (Proc.devRef .tc main_v31) = Cert.ReferenceIdeal.ReadP.val_main_v31 (F := F) x2)
      ∧ (after main_part3_ops0_p0 W (Proc.devRef .tc main_v33) = Cert.ReferenceIdeal.ReadP.val_main_v33 (F := F) x2)
      ∧ (after main_part3_ops0_p0 W (Proc.devRef .tc main_v35) = Cert.ReferenceIdeal.ReadP.val_main_v35 (F := F) x2) := by
  refine ⟨?_, ?_, ?_, ?_, ?_, ?_, ?_, ?_, ?_, ?_, ?_, ?_, ?_, ?_, ?_⟩
  · exact (after_of_writes_sub _ W main_part3_ops0_p0_writes (by decide)).trans h_main_v1
  · exact (after_of_writes_sub _ W main_part3_ops0_p0_writes (by decide)).trans h_main_v13
  · exact (after_of_writes_sub _ W main_part3_ops0_p0_writes (by decide)).trans h_main_v140
  · exact (after_of_writes_sub _ W main_part3_ops0_p0_writes (by decide)).trans h_main_v15
  · (simp only [main_part3_ops0_p0]; read_results; (try simp only [h_main_v1, h_main_v13, h_main_v140, h_main_v15, h_main_v18, h_main_v20, h_main_v25, h_main_v27, h_main_v29, h_main_v31, h_main_v33, h_main_v35, TRef.ofBuf, TRef.toBuf, cast_eq]);
     (try simp only [Cert.ReferenceIdeal.ReadP.val_main_c_37, Cert.ReferenceIdeal.ReadP.val_main_v141, Cert.ReferenceIdeal.ReadP.val_main_v142, Cert.ReferenceIdeal.ReadP.val_main_c_38, Cert.ReferenceIdeal.ReadP.val_main_v143, Cert.ReferenceIdeal.ReadP.val_main_v144, Cert.ReferenceIdeal.ReadP.val_main_v145, Cert.ReferenceIdeal.ReadP.val_main_c_39, Cert.ReferenceIdeal.ReadP.val_main_v146, Cert.ReferenceIdeal.ReadP.val_main_v147, Cert.ReferenceIdeal.ReadP.val_main_c_40, Cert.ReferenceIdeal.ReadP.val_main_v148, Cert.ReferenceIdeal.ReadP.val_main_v149, Cert.ReferenceIdeal.ReadP.val_main_v150, Cert.ReferenceIdeal.ReadP.val_main_c_41, Cert.ReferenceIdeal.ReadP.val_main_v151, Cert.ReferenceIdeal.ReadP.val_main_v152, Cert.ReferenceIdeal.ReadP.val_main_c_42, Cert.ReferenceIdeal.ReadP.val_main_v153, Cert.ReferenceIdeal.ReadP.val_main_v154, Cert.ReferenceIdeal.ReadP.val_main_v155, Cert.ReferenceIdeal.ReadP.val_main_v156, Cert.ReferenceIdeal.ReadP.val_main_v157, Cert.ReferenceIdeal.ReadP.val_main_v158]); (try rfl))
  · (simp only [main_part3_ops0_p0]; read_results; (try simp only [h_main_v1, h_main_v13, h_main_v140, h_main_v15, h_main_v18, h_main_v20, h_main_v25, h_main_v27, h_main_v29, h_main_v31, h_main_v33, h_main_v35, TRef.ofBuf, TRef.toBuf, cast_eq]);
     (try simp only [Cert.ReferenceIdeal.ReadP.val_main_c_37, Cert.ReferenceIdeal.ReadP.val_main_v141, Cert.ReferenceIdeal.ReadP.val_main_v142, Cert.ReferenceIdeal.ReadP.val_main_c_38, Cert.ReferenceIdeal.ReadP.val_main_v143, Cert.ReferenceIdeal.ReadP.val_main_v144, Cert.ReferenceIdeal.ReadP.val_main_v145, Cert.ReferenceIdeal.ReadP.val_main_c_39, Cert.ReferenceIdeal.ReadP.val_main_v146, Cert.ReferenceIdeal.ReadP.val_main_v147, Cert.ReferenceIdeal.ReadP.val_main_c_40, Cert.ReferenceIdeal.ReadP.val_main_v148, Cert.ReferenceIdeal.ReadP.val_main_v149, Cert.ReferenceIdeal.ReadP.val_main_v150, Cert.ReferenceIdeal.ReadP.val_main_c_41, Cert.ReferenceIdeal.ReadP.val_main_v151, Cert.ReferenceIdeal.ReadP.val_main_v152, Cert.ReferenceIdeal.ReadP.val_main_c_42, Cert.ReferenceIdeal.ReadP.val_main_v153, Cert.ReferenceIdeal.ReadP.val_main_v154, Cert.ReferenceIdeal.ReadP.val_main_v155, Cert.ReferenceIdeal.ReadP.val_main_v156, Cert.ReferenceIdeal.ReadP.val_main_v157, Cert.ReferenceIdeal.ReadP.val_main_v158]); (try rfl))
  · (simp only [main_part3_ops0_p0]; read_results; (try simp only [h_main_v1, h_main_v13, h_main_v140, h_main_v15, h_main_v18, h_main_v20, h_main_v25, h_main_v27, h_main_v29, h_main_v31, h_main_v33, h_main_v35, TRef.ofBuf, TRef.toBuf, cast_eq]);
     (try simp only [Cert.ReferenceIdeal.ReadP.val_main_c_37, Cert.ReferenceIdeal.ReadP.val_main_v141, Cert.ReferenceIdeal.ReadP.val_main_v142, Cert.ReferenceIdeal.ReadP.val_main_c_38, Cert.ReferenceIdeal.ReadP.val_main_v143, Cert.ReferenceIdeal.ReadP.val_main_v144, Cert.ReferenceIdeal.ReadP.val_main_v145, Cert.ReferenceIdeal.ReadP.val_main_c_39, Cert.ReferenceIdeal.ReadP.val_main_v146, Cert.ReferenceIdeal.ReadP.val_main_v147, Cert.ReferenceIdeal.ReadP.val_main_c_40, Cert.ReferenceIdeal.ReadP.val_main_v148, Cert.ReferenceIdeal.ReadP.val_main_v149, Cert.ReferenceIdeal.ReadP.val_main_v150, Cert.ReferenceIdeal.ReadP.val_main_c_41, Cert.ReferenceIdeal.ReadP.val_main_v151, Cert.ReferenceIdeal.ReadP.val_main_v152, Cert.ReferenceIdeal.ReadP.val_main_c_42, Cert.ReferenceIdeal.ReadP.val_main_v153, Cert.ReferenceIdeal.ReadP.val_main_v154, Cert.ReferenceIdeal.ReadP.val_main_v155, Cert.ReferenceIdeal.ReadP.val_main_v156, Cert.ReferenceIdeal.ReadP.val_main_v157, Cert.ReferenceIdeal.ReadP.val_main_v158]); (try rfl))
  · exact (after_of_writes_sub _ W main_part3_ops0_p0_writes (by decide)).trans h_main_v18
  · exact (after_of_writes_sub _ W main_part3_ops0_p0_writes (by decide)).trans h_main_v20
  · exact (after_of_writes_sub _ W main_part3_ops0_p0_writes (by decide)).trans h_main_v25
  · exact (after_of_writes_sub _ W main_part3_ops0_p0_writes (by decide)).trans h_main_v27
  · exact (after_of_writes_sub _ W main_part3_ops0_p0_writes (by decide)).trans h_main_v29
  · exact (after_of_writes_sub _ W main_part3_ops0_p0_writes (by decide)).trans h_main_v31
  · exact (after_of_writes_sub _ W main_part3_ops0_p0_writes (by decide)).trans h_main_v33
  · exact (after_of_writes_sub _ W main_part3_ops0_p0_writes (by decide)).trans h_main_v35

/-- A piece of `main_part3_ops0`. -/
abbrev main_part3_ops0_p1 : List (HloOp τ sig (Elt F)) :=
  [ StableHlo.nary ![main_v156, main_v157, main_v158] main_v159 (fun u => concatenate S4x512x512x3 3 [⟨S4x512x512x1, u 0⟩, ⟨S4x512x512x1, u 1⟩, ⟨S4x512x512x1, u 2⟩] concatenates_S4x512x512x1_S4x512x512x1_S4x512x512x1_S4x512x512x3_d3) ]
abbrev wr_main_part3_ops0_p1 : List (Ref sig .tc) := [main_v159]
set_option maxRecDepth 16384 in
set_option maxHeartbeats 40000000 in
theorem main_part3_ops0_p1_writes : (main_part3_ops0_p1 : List (HloOp τ sig (Elt F))).Forall fun op =>
    op.writes ⊆ (wr_main_part3_ops0_p1.map (Proc.devRef (τ := τ) .tc)).toFinset :=
  by simp only [List.Forall]; exact writes_sub_of rfl (by decide)
set_option maxRecDepth 16384 in
set_option maxHeartbeats 40000000 in
theorem stage_main_part3_ops0_p1 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v140 : W (Proc.devRef .tc main_v140) = Cert.ReferenceIdeal.ReadP.val_main_v140 (F := F) x2 x3)
    (h_main_v15 : W (Proc.devRef .tc main_v15) = Cert.ReferenceIdeal.ReadP.val_main_v15 (F := F) x2)
    (h_main_v156 : W (Proc.devRef .tc main_v156) = Cert.ReferenceIdeal.ReadP.val_main_v156 (F := F) x2)
    (h_main_v157 : W (Proc.devRef .tc main_v157) = Cert.ReferenceIdeal.ReadP.val_main_v157 (F := F) x2)
    (h_main_v158 : W (Proc.devRef .tc main_v158) = Cert.ReferenceIdeal.ReadP.val_main_v158 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    : (after main_part3_ops0_p1 W (Proc.devRef .tc main_v1) = Cert.ReferenceIdeal.ReadP.val_main_v1 (F := F) x3)
      ∧ (after main_part3_ops0_p1 W (Proc.devRef .tc main_v13) = Cert.ReferenceIdeal.ReadP.val_main_v13 (F := F) x2)
      ∧ (after main_part3_ops0_p1 W (Proc.devRef .tc main_v140) = Cert.ReferenceIdeal.ReadP.val_main_v140 (F := F) x2 x3)
      ∧ (after main_part3_ops0_p1 W (Proc.devRef .tc main_v15) = Cert.ReferenceIdeal.ReadP.val_main_v15 (F := F) x2)
      ∧ (after main_part3_ops0_p1 W (Proc.devRef .tc main_v159) = Cert.ReferenceIdeal.ReadP.val_main_v159 (F := F) x2)
      ∧ (after main_part3_ops0_p1 W (Proc.devRef .tc main_v18) = Cert.ReferenceIdeal.ReadP.val_main_v18 (F := F) x2)
      ∧ (after main_part3_ops0_p1 W (Proc.devRef .tc main_v20) = Cert.ReferenceIdeal.ReadP.val_main_v20 (F := F) x2)
      ∧ (after main_part3_ops0_p1 W (Proc.devRef .tc main_v25) = Cert.ReferenceIdeal.ReadP.val_main_v25 (F := F) x2)
      ∧ (after main_part3_ops0_p1 W (Proc.devRef .tc main_v27) = Cert.ReferenceIdeal.ReadP.val_main_v27 (F := F) x2)
      ∧ (after main_part3_ops0_p1 W (Proc.devRef .tc main_v29) = Cert.ReferenceIdeal.ReadP.val_main_v29 (F := F) x2)
      ∧ (after main_part3_ops0_p1 W (Proc.devRef .tc main_v31) = Cert.ReferenceIdeal.ReadP.val_main_v31 (F := F) x2)
      ∧ (after main_part3_ops0_p1 W (Proc.devRef .tc main_v33) = Cert.ReferenceIdeal.ReadP.val_main_v33 (F := F) x2)
      ∧ (after main_part3_ops0_p1 W (Proc.devRef .tc main_v35) = Cert.ReferenceIdeal.ReadP.val_main_v35 (F := F) x2) := by
  refine ⟨?_, ?_, ?_, ?_, ?_, ?_, ?_, ?_, ?_, ?_, ?_, ?_, ?_⟩
  · exact (after_of_writes_sub _ W main_part3_ops0_p1_writes (by decide)).trans h_main_v1
  · exact (after_of_writes_sub _ W main_part3_ops0_p1_writes (by decide)).trans h_main_v13
  · exact (after_of_writes_sub _ W main_part3_ops0_p1_writes (by decide)).trans h_main_v140
  · exact (after_of_writes_sub _ W main_part3_ops0_p1_writes (by decide)).trans h_main_v15
  · simp only [main_part3_ops0_p1, after_cons, after_nil]
    rw [nary_result]
    show concatenate S4x512x512x3 3 [⟨S4x512x512x1, (W (Proc.devRef .tc main_v156))⟩, ⟨S4x512x512x1, (W (Proc.devRef .tc main_v157))⟩, ⟨S4x512x512x1, (W (Proc.devRef .tc main_v158))⟩] concatenates_S4x512x512x1_S4x512x512x1_S4x512x512x1_S4x512x512x3_d3 = _
    rw [h_main_v156, h_main_v157, h_main_v158]
    (try simp only [Cert.ReferenceIdeal.ReadP.val_main_v159])
    (try rfl)
  · exact (after_of_writes_sub _ W main_part3_ops0_p1_writes (by decide)).trans h_main_v18
  · exact (after_of_writes_sub _ W main_part3_ops0_p1_writes (by decide)).trans h_main_v20
  · exact (after_of_writes_sub _ W main_part3_ops0_p1_writes (by decide)).trans h_main_v25
  · exact (after_of_writes_sub _ W main_part3_ops0_p1_writes (by decide)).trans h_main_v27
  · exact (after_of_writes_sub _ W main_part3_ops0_p1_writes (by decide)).trans h_main_v29
  · exact (after_of_writes_sub _ W main_part3_ops0_p1_writes (by decide)).trans h_main_v31
  · exact (after_of_writes_sub _ W main_part3_ops0_p1_writes (by decide)).trans h_main_v33
  · exact (after_of_writes_sub _ W main_part3_ops0_p1_writes (by decide)).trans h_main_v35

/-- A piece of `main_part3_ops0`. -/
abbrev main_part3_ops0_p2 : List (HloOp τ sig (Elt F)) :=
  [ StableHlo.binary main_v1 main_v159 main_v160 ((fun x i => Host.gather gather_S8x3x33x33x33_S4x512x512x3_S8x3x4x512x512_01_234_n_n_234_3_83111 x i) : (⟨S8x3x33x33x33, .f32⟩ : BufTy).Contents (Elt F) → (⟨S4x512x512x3, .i32⟩ : BufTy).Contents (Elt F) → (⟨S8x3x4x512x512, .f32⟩ : BufTy).Contents (Elt F)),
    StableHlo.binary main_v25 main_v35 main_v161 (mulf : (⟨S4x512x512, .f32⟩ : BufTy).Contents (Elt F) → (⟨S4x512x512, .f32⟩ : BufTy).Contents (Elt F) → (⟨S4x512x512, .f32⟩ : BufTy).Contents (Elt F)),
    StableHlo.binary main_v161 main_v33 main_v162 (mulf : (⟨S4x512x512, .f32⟩ : BufTy).Contents (Elt F) → (⟨S4x512x512, .f32⟩ : BufTy).Contents (Elt F) → (⟨S4x512x512, .f32⟩ : BufTy).Contents (Elt F)),
    StableHlo.unary main_v162 main_v163 (broadcastInDim S1x1x4x512x512 ![2, 3, 4] bcast_S4x512x512_S1x1x4x512x512_2_3_4 : (⟨S4x512x512, .f32⟩ : BufTy).Contents (Elt F) → (⟨S1x1x4x512x512, .f32⟩ : BufTy).Contents (Elt F)),
    StableHlo.unary main_v163 main_v164 (broadcastInDim S8x3x4x512x512 ![0, 1, 2, 3, 4] bcast_S1x1x4x512x512_S8x3x4x512x512_0_1_2_3_4 : (⟨S1x1x4x512x512, .f32⟩ : BufTy).Contents (Elt F) → (⟨S8x3x4x512x512, .f32⟩ : BufTy).Contents (Elt F)),
    StableHlo.binary main_v160 main_v164 main_v165 (mulf : (⟨S8x3x4x512x512, .f32⟩ : BufTy).Contents (Elt F) → (⟨S8x3x4x512x512, .f32⟩ : BufTy).Contents (Elt F) → (⟨S8x3x4x512x512, .f32⟩ : BufTy).Contents (Elt F)),
    StableHlo.binary main_v140 main_v165 main_v166 (addf : (⟨S8x3x4x512x512, .f32⟩ : BufTy).Contents (Elt F) → (⟨S8x3x4x512x512, .f32⟩ : BufTy).Contents (Elt F) → (⟨S8x3x4x512x512, .f32⟩ : BufTy).Contents (Elt F)),
    StableHlo.nullary main_c_43 (constantI S_ 32 0#32),
    StableHlo.unary main_c_43 main_v167 (broadcastInDim S4x512x512 ![] bcast_S_S4x512x512 : (⟨S_, .i32⟩ : BufTy).Contents (Elt F) → (⟨S4x512x512, .i32⟩ : BufTy).Contents (Elt F)),
    StableHlo.binary main_v31 main_v167 main_v168 (cmpi .slt : (⟨S4x512x512, .i32⟩ : BufTy).Contents (Elt F) → (⟨S4x512x512, .i32⟩ : BufTy).Contents (Elt F) → (⟨S4x512x512, .i1⟩ : BufTy).Contents (Elt F)),
    StableHlo.nullary main_c_44 (constantI S_ 32 33#32),
    StableHlo.unary main_c_44 main_v169 (broadcastInDim S4x512x512 ![] bcast_S_S4x512x512 : (⟨S_, .i32⟩ : BufTy).Contents (Elt F) → (⟨S4x512x512, .i32⟩ : BufTy).Contents (Elt F)),
    StableHlo.binary main_v31 main_v169 main_v170 (addi : (⟨S4x512x512, .i32⟩ : BufTy).Contents (Elt F) → (⟨S4x512x512, .i32⟩ : BufTy).Contents (Elt F) → (⟨S4x512x512, .i32⟩ : BufTy).Contents (Elt F)),
    StableHlo.ternary main_v168 main_v170 main_v31 main_v171 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    StableHlo.nullary main_c_45 (constantI S_ 32 0#32),
    StableHlo.unary main_c_45 main_v172 (broadcastInDim S4x512x512 ![] bcast_S_S4x512x512 : (⟨S_, .i32⟩ : BufTy).Contents (Elt F) → (⟨S4x512x512, .i32⟩ : BufTy).Contents (Elt F)),
    StableHlo.binary main_v18 main_v172 main_v173 (cmpi .slt : (⟨S4x512x512, .i32⟩ : BufTy).Contents (Elt F) → (⟨S4x512x512, .i32⟩ : BufTy).Contents (Elt F) → (⟨S4x512x512, .i1⟩ : BufTy).Contents (Elt F)),
    StableHlo.nullary main_c_46 (constantI S_ 32 33#32),
    StableHlo.unary main_c_46 main_v174 (broadcastInDim S4x512x512 ![] bcast_S_S4x512x512 : (⟨S_, .i32⟩ : BufTy).Contents (Elt F) → (⟨S4x512x512, .i32⟩ : BufTy).Contents (Elt F)),
    StableHlo.binary main_v18 main_v174 main_v175 (addi : (⟨S4x512x512, .i32⟩ : BufTy).Contents (Elt F) → (⟨S4x512x512, .i32⟩ : BufTy).Contents (Elt F) → (⟨S4x512x512, .i32⟩ : BufTy).Contents (Elt F)),
    StableHlo.ternary main_v173 main_v175 main_v18 main_v176 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    StableHlo.nullary main_c_47 (constantI S_ 32 0#32),
    StableHlo.unary main_c_47 main_v177 (broadcastInDim S4x512x512 ![] bcast_S_S4x512x512 : (⟨S_, .i32⟩ : BufTy).Contents (Elt F) → (⟨S4x512x512, .i32⟩ : BufTy).Contents (Elt F)),
    StableHlo.binary main_v27 main_v177 main_v178 (cmpi .slt : (⟨S4x512x512, .i32⟩ : BufTy).Contents (Elt F) → (⟨S4x512x512, .i32⟩ : BufTy).Contents (Elt F) → (⟨S4x512x512, .i1⟩ : BufTy).Contents (Elt F)) ]
abbrev wr_main_part3_ops0_p2 : List (Ref sig .tc) := [main_v160, main_v161, main_v162, main_v163, main_v164, main_v165, main_v166, main_c_43, main_v167, main_v168, main_c_44, main_v169, main_v170, main_v171, main_c_45, main_v172, main_v173, main_c_46, main_v174, main_v175, main_v176, main_c_47, main_v177, main_v178]
set_option maxRecDepth 16384 in
set_option maxHeartbeats 40000000 in
theorem main_part3_ops0_p2_writes : (main_part3_ops0_p2 : List (HloOp τ sig (Elt F))).Forall fun op =>
    op.writes ⊆ (wr_main_part3_ops0_p2.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_main_part3_ops0_p2 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v140 : W (Proc.devRef .tc main_v140) = Cert.ReferenceIdeal.ReadP.val_main_v140 (F := F) x2 x3)
    (h_main_v15 : W (Proc.devRef .tc main_v15) = Cert.ReferenceIdeal.ReadP.val_main_v15 (F := F) x2)
    (h_main_v159 : W (Proc.devRef .tc main_v159) = Cert.ReferenceIdeal.ReadP.val_main_v159 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    : (after main_part3_ops0_p2 W (Proc.devRef .tc main_v1) = Cert.ReferenceIdeal.ReadP.val_main_v1 (F := F) x3)
      ∧ (after main_part3_ops0_p2 W (Proc.devRef .tc main_v13) = Cert.ReferenceIdeal.ReadP.val_main_v13 (F := F) x2)
      ∧ (after main_part3_ops0_p2 W (Proc.devRef .tc main_v15) = Cert.ReferenceIdeal.ReadP.val_main_v15 (F := F) x2)
      ∧ (after main_part3_ops0_p2 W (Proc.devRef .tc main_v166) = Cert.ReferenceIdeal.ReadP.val_main_v166 (F := F) x2 x3)
      ∧ (after main_part3_ops0_p2 W (Proc.devRef .tc main_v171) = Cert.ReferenceIdeal.ReadP.val_main_v171 (F := F) x2)
      ∧ (after main_part3_ops0_p2 W (Proc.devRef .tc main_v176) = Cert.ReferenceIdeal.ReadP.val_main_v176 (F := F) x2)
      ∧ (after main_part3_ops0_p2 W (Proc.devRef .tc main_v178) = Cert.ReferenceIdeal.ReadP.val_main_v178 (F := F) x2)
      ∧ (after main_part3_ops0_p2 W (Proc.devRef .tc main_v20) = Cert.ReferenceIdeal.ReadP.val_main_v20 (F := F) x2)
      ∧ (after main_part3_ops0_p2 W (Proc.devRef .tc main_v25) = Cert.ReferenceIdeal.ReadP.val_main_v25 (F := F) x2)
      ∧ (after main_part3_ops0_p2 W (Proc.devRef .tc main_v27) = Cert.ReferenceIdeal.ReadP.val_main_v27 (F := F) x2)
      ∧ (after main_part3_ops0_p2 W (Proc.devRef .tc main_v29) = Cert.ReferenceIdeal.ReadP.val_main_v29 (F := F) x2)
      ∧ (after main_part3_ops0_p2 W (Proc.devRef .tc main_v31) = Cert.ReferenceIdeal.ReadP.val_main_v31 (F := F) x2)
      ∧ (after main_part3_ops0_p2 W (Proc.devRef .tc main_v33) = Cert.ReferenceIdeal.ReadP.val_main_v33 (F := F) x2)
      ∧ (after main_part3_ops0_p2 W (Proc.devRef .tc main_v35) = Cert.ReferenceIdeal.ReadP.val_main_v35 (F := F) x2) := by
  refine ⟨?_, ?_, ?_, ?_, ?_, ?_, ?_, ?_, ?_, ?_, ?_, ?_, ?_, ?_⟩
  · exact (after_of_writes_sub _ W main_part3_ops0_p2_writes (by decide)).trans h_main_v1
  · exact (after_of_writes_sub _ W main_part3_ops0_p2_writes (by decide)).trans h_main_v13
  · exact (after_of_writes_sub _ W main_part3_ops0_p2_writes (by decide)).trans h_main_v15
  · (simp only [main_part3_ops0_p2]; read_results; (try simp only [h_main_v1, h_main_v13, h_main_v140, h_main_v15, h_main_v159, h_main_v18, h_main_v20, h_main_v25, h_main_v27, h_main_v29, h_main_v31, h_main_v33, h_main_v35, TRef.ofBuf, TRef.toBuf, cast_eq]);
     (try simp only [Cert.ReferenceIdeal.ReadP.val_main_v160, Cert.ReferenceIdeal.ReadP.val_main_v161, Cert.ReferenceIdeal.ReadP.val_main_v162, Cert.ReferenceIdeal.ReadP.val_main_v163, Cert.ReferenceIdeal.ReadP.val_main_v164, Cert.ReferenceIdeal.ReadP.val_main_v165, Cert.ReferenceIdeal.ReadP.val_main_v166, Cert.ReferenceIdeal.ReadP.val_main_c_43, Cert.ReferenceIdeal.ReadP.val_main_v167, Cert.ReferenceIdeal.ReadP.val_main_v168, Cert.ReferenceIdeal.ReadP.val_main_c_44, Cert.ReferenceIdeal.ReadP.val_main_v169, Cert.ReferenceIdeal.ReadP.val_main_v170, Cert.ReferenceIdeal.ReadP.val_main_v171, Cert.ReferenceIdeal.ReadP.val_main_c_45, Cert.ReferenceIdeal.ReadP.val_main_v172, Cert.ReferenceIdeal.ReadP.val_main_v173, Cert.ReferenceIdeal.ReadP.val_main_c_46, Cert.ReferenceIdeal.ReadP.val_main_v174, Cert.ReferenceIdeal.ReadP.val_main_v175, Cert.ReferenceIdeal.ReadP.val_main_v176, Cert.ReferenceIdeal.ReadP.val_main_c_47, Cert.ReferenceIdeal.ReadP.val_main_v177, Cert.ReferenceIdeal.ReadP.val_main_v178]); (try rfl))
  · (simp only [main_part3_ops0_p2]; read_results; (try simp only [h_main_v1, h_main_v13, h_main_v140, h_main_v15, h_main_v159, h_main_v18, h_main_v20, h_main_v25, h_main_v27, h_main_v29, h_main_v31, h_main_v33, h_main_v35, TRef.ofBuf, TRef.toBuf, cast_eq]);
     (try simp only [Cert.ReferenceIdeal.ReadP.val_main_v160, Cert.ReferenceIdeal.ReadP.val_main_v161, Cert.ReferenceIdeal.ReadP.val_main_v162, Cert.ReferenceIdeal.ReadP.val_main_v163, Cert.ReferenceIdeal.ReadP.val_main_v164, Cert.ReferenceIdeal.ReadP.val_main_v165, Cert.ReferenceIdeal.ReadP.val_main_v166, Cert.ReferenceIdeal.ReadP.val_main_c_43, Cert.ReferenceIdeal.ReadP.val_main_v167, Cert.ReferenceIdeal.ReadP.val_main_v168, Cert.ReferenceIdeal.ReadP.val_main_c_44, Cert.ReferenceIdeal.ReadP.val_main_v169, Cert.ReferenceIdeal.ReadP.val_main_v170, Cert.ReferenceIdeal.ReadP.val_main_v171, Cert.ReferenceIdeal.ReadP.val_main_c_45, Cert.ReferenceIdeal.ReadP.val_main_v172, Cert.ReferenceIdeal.ReadP.val_main_v173, Cert.ReferenceIdeal.ReadP.val_main_c_46, Cert.ReferenceIdeal.ReadP.val_main_v174, Cert.ReferenceIdeal.ReadP.val_main_v175, Cert.ReferenceIdeal.ReadP.val_main_v176, Cert.ReferenceIdeal.ReadP.val_main_c_47, Cert.ReferenceIdeal.ReadP.val_main_v177, Cert.ReferenceIdeal.ReadP.val_main_v178]); (try rfl))
  · (simp only [main_part3_ops0_p2]; read_results; (try simp only [h_main_v1, h_main_v13, h_main_v140, h_main_v15, h_main_v159, h_main_v18, h_main_v20, h_main_v25, h_main_v27, h_main_v29, h_main_v31, h_main_v33, h_main_v35, TRef.ofBuf, TRef.toBuf, cast_eq]);
     (try simp only [Cert.ReferenceIdeal.ReadP.val_main_v160, Cert.ReferenceIdeal.ReadP.val_main_v161, Cert.ReferenceIdeal.ReadP.val_main_v162, Cert.ReferenceIdeal.ReadP.val_main_v163, Cert.ReferenceIdeal.ReadP.val_main_v164, Cert.ReferenceIdeal.ReadP.val_main_v165, Cert.ReferenceIdeal.ReadP.val_main_v166, Cert.ReferenceIdeal.ReadP.val_main_c_43, Cert.ReferenceIdeal.ReadP.val_main_v167, Cert.ReferenceIdeal.ReadP.val_main_v168, Cert.ReferenceIdeal.ReadP.val_main_c_44, Cert.ReferenceIdeal.ReadP.val_main_v169, Cert.ReferenceIdeal.ReadP.val_main_v170, Cert.ReferenceIdeal.ReadP.val_main_v171, Cert.ReferenceIdeal.ReadP.val_main_c_45, Cert.ReferenceIdeal.ReadP.val_main_v172, Cert.ReferenceIdeal.ReadP.val_main_v173, Cert.ReferenceIdeal.ReadP.val_main_c_46, Cert.ReferenceIdeal.ReadP.val_main_v174, Cert.ReferenceIdeal.ReadP.val_main_v175, Cert.ReferenceIdeal.ReadP.val_main_v176, Cert.ReferenceIdeal.ReadP.val_main_c_47, Cert.ReferenceIdeal.ReadP.val_main_v177, Cert.ReferenceIdeal.ReadP.val_main_v178]); (try rfl))
  · (simp only [main_part3_ops0_p2]; read_results; (try simp only [h_main_v1, h_main_v13, h_main_v140, h_main_v15, h_main_v159, h_main_v18, h_main_v20, h_main_v25, h_main_v27, h_main_v29, h_main_v31, h_main_v33, h_main_v35, TRef.ofBuf, TRef.toBuf, cast_eq]);
     (try simp only [Cert.ReferenceIdeal.ReadP.val_main_v160, Cert.ReferenceIdeal.ReadP.val_main_v161, Cert.ReferenceIdeal.ReadP.val_main_v162, Cert.ReferenceIdeal.ReadP.val_main_v163, Cert.ReferenceIdeal.ReadP.val_main_v164, Cert.ReferenceIdeal.ReadP.val_main_v165, Cert.ReferenceIdeal.ReadP.val_main_v166, Cert.ReferenceIdeal.ReadP.val_main_c_43, Cert.ReferenceIdeal.ReadP.val_main_v167, Cert.ReferenceIdeal.ReadP.val_main_v168, Cert.ReferenceIdeal.ReadP.val_main_c_44, Cert.ReferenceIdeal.ReadP.val_main_v169, Cert.ReferenceIdeal.ReadP.val_main_v170, Cert.ReferenceIdeal.ReadP.val_main_v171, Cert.ReferenceIdeal.ReadP.val_main_c_45, Cert.ReferenceIdeal.ReadP.val_main_v172, Cert.ReferenceIdeal.ReadP.val_main_v173, Cert.ReferenceIdeal.ReadP.val_main_c_46, Cert.ReferenceIdeal.ReadP.val_main_v174, Cert.ReferenceIdeal.ReadP.val_main_v175, Cert.ReferenceIdeal.ReadP.val_main_v176, Cert.ReferenceIdeal.ReadP.val_main_c_47, Cert.ReferenceIdeal.ReadP.val_main_v177, Cert.ReferenceIdeal.ReadP.val_main_v178]); (try rfl))
  · exact (after_of_writes_sub _ W main_part3_ops0_p2_writes (by decide)).trans h_main_v20
  · exact (after_of_writes_sub _ W main_part3_ops0_p2_writes (by decide)).trans h_main_v25
  · exact (after_of_writes_sub _ W main_part3_ops0_p2_writes (by decide)).trans h_main_v27
  · exact (after_of_writes_sub _ W main_part3_ops0_p2_writes (by decide)).trans h_main_v29
  · exact (after_of_writes_sub _ W main_part3_ops0_p2_writes (by decide)).trans h_main_v31
  · exact (after_of_writes_sub _ W main_part3_ops0_p2_writes (by decide)).trans h_main_v33
  · exact (after_of_writes_sub _ W main_part3_ops0_p2_writes (by decide)).trans h_main_v35

/-- A piece of `main_part3_ops0`. -/
abbrev main_part3_ops0_p3 : List (HloOp τ sig (Elt F)) :=
  [ StableHlo.nullary main_c_48 (constantI S_ 32 33#32),
    StableHlo.unary main_c_48 main_v179 (broadcastInDim S4x512x512 ![] bcast_S_S4x512x512 : (⟨S_, .i32⟩ : BufTy).Contents (Elt F) → (⟨S4x512x512, .i32⟩ : BufTy).Contents (Elt F)),
    StableHlo.binary main_v27 main_v179 main_v180 (addi : (⟨S4x512x512, .i32⟩ : BufTy).Contents (Elt F) → (⟨S4x512x512, .i32⟩ : BufTy).Contents (Elt F) → (⟨S4x512x512, .i32⟩ : BufTy).Contents (Elt F)),
    StableHlo.ternary main_v178 main_v180 main_v27 main_v181 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    StableHlo.unary main_v171 main_v182 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    StableHlo.unary main_v176 main_v183 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    StableHlo.unary main_v181 main_v184 (broadcastInDim S4x512x512x1 ![0, 1, 2] bcast_S4x512x512_S4x512x512x1_0_1_2 : (⟨S4x512x512, .i32⟩ : BufTy).Contents (Elt F) → (⟨S4x512x512x1, .i32⟩ : BufTy).Contents (Elt F)) ]
abbrev wr_main_part3_ops0_p3 : List (Ref sig .tc) := [main_c_48, main_v179, main_v180, main_v181, main_v182, main_v183, main_v184]
set_option maxRecDepth 16384 in
set_option maxHeartbeats 40000000 in
theorem main_part3_ops0_p3_writes : (main_part3_ops0_p3 : List (HloOp τ sig (Elt F))).Forall fun op =>
    op.writes ⊆ (wr_main_part3_ops0_p3.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_main_part3_ops0_p3 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v166 : W (Proc.devRef .tc main_v166) = Cert.ReferenceIdeal.ReadP.val_main_v166 (F := F) x2 x3)
    (h_main_v171 : W (Proc.devRef .tc main_v171) = Cert.ReferenceIdeal.ReadP.val_main_v171 (F := F) x2)
    (h_main_v176 : W (Proc.devRef .tc main_v176) = Cert.ReferenceIdeal.ReadP.val_main_v176 (F := F) x2)
    (h_main_v178 : W (Proc.devRef .tc main_v178) = Cert.ReferenceIdeal.ReadP.val_main_v178 (F := F) x2)
    (h_main_v20 : W (Proc.devRef .tc main_v20) = Cert.ReferenceIdeal.ReadP.val_main_v20 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    : (after main_part3_ops0_p3 W (Proc.devRef .tc main_v1) = Cert.ReferenceIdeal.ReadP.val_main_v1 (F := F) x3)
      ∧ (after main_part3_ops0_p3 W (Proc.devRef .tc main_v13) = Cert.ReferenceIdeal.ReadP.val_main_v13 (F := F) x2)
      ∧ (after main_part3_ops0_p3 W (Proc.devRef .tc main_v15) = Cert.ReferenceIdeal.ReadP.val_main_v15 (F := F) x2)
      ∧ (after main_part3_ops0_p3 W (Proc.devRef .tc main_v166) = Cert.ReferenceIdeal.ReadP.val_main_v166 (F := F) x2 x3)
      ∧ (after main_part3_ops0_p3 W (Proc.devRef .tc main_v182) = Cert.ReferenceIdeal.ReadP.val_main_v182 (F := F) x2)
      ∧ (after main_part3_ops0_p3 W (Proc.devRef .tc main_v183) = Cert.ReferenceIdeal.ReadP.val_main_v183 (F := F) x2)
      ∧ (after main_part3_ops0_p3 W (Proc.devRef .tc main_v184) = Cert.ReferenceIdeal.ReadP.val_main_v184 (F := F) x2)
      ∧ (after main_part3_ops0_p3 W (Proc.devRef .tc main_v20) = Cert.ReferenceIdeal.ReadP.val_main_v20 (F := F) x2)
      ∧ (after main_part3_ops0_p3 W (Proc.devRef .tc main_v25) = Cert.ReferenceIdeal.ReadP.val_main_v25 (F := F) x2)
      ∧ (after main_part3_ops0_p3 W (Proc.devRef .tc main_v27) = Cert.ReferenceIdeal.ReadP.val_main_v27 (F := F) x2)
      ∧ (after main_part3_ops0_p3 W (Proc.devRef .tc main_v29) = Cert.ReferenceIdeal.ReadP.val_main_v29 (F := F) x2)
      ∧ (after main_part3_ops0_p3 W (Proc.devRef .tc main_v31) = Cert.ReferenceIdeal.ReadP.val_main_v31 (F := F) x2)
      ∧ (after main_part3_ops0_p3 W (Proc.devRef .tc main_v33) = Cert.ReferenceIdeal.ReadP.val_main_v33 (F := F) x2)
      ∧ (after main_part3_ops0_p3 W (Proc.devRef .tc main_v35) = Cert.ReferenceIdeal.ReadP.val_main_v35 (F := F) x2) := by
  refine ⟨?_, ?_, ?_, ?_, ?_, ?_, ?_, ?_, ?_, ?_, ?_, ?_, ?_, ?_⟩
  · exact (after_of_writes_sub _ W main_part3_ops0_p3_writes (by decide)).trans h_main_v1
  · exact (after_of_writes_sub _ W main_part3_ops0_p3_writes (by decide)).trans h_main_v13
  · exact (after_of_writes_sub _ W main_part3_ops0_p3_writes (by decide)).trans h_main_v15
  · exact (after_of_writes_sub _ W main_part3_ops0_p3_writes (by decide)).trans h_main_v166
  · (simp only [main_part3_ops0_p3]; read_results; (try simp only [h_main_v1, h_main_v13, h_main_v15, h_main_v166, h_main_v171, h_main_v176, h_main_v178, h_main_v20, h_main_v25, h_main_v27, h_main_v29, h_main_v31, h_main_v33, h_main_v35, TRef.ofBuf, TRef.toBuf, cast_eq]);
     (try simp only [Cert.ReferenceIdeal.ReadP.val_main_c_48, Cert.ReferenceIdeal.ReadP.val_main_v179, Cert.ReferenceIdeal.ReadP.val_main_v180, Cert.ReferenceIdeal.ReadP.val_main_v181, Cert.ReferenceIdeal.ReadP.val_main_v182, Cert.ReferenceIdeal.ReadP.val_main_v183, Cert.ReferenceIdeal.ReadP.val_main_v184]); (try rfl))
  · (simp only [main_part3_ops0_p3]; read_results; (try simp only [h_main_v1, h_main_v13, h_main_v15, h_main_v166, h_main_v171, h_main_v176, h_main_v178, h_main_v20, h_main_v25, h_main_v27, h_main_v29, h_main_v31, h_main_v33, h_main_v35, TRef.ofBuf, TRef.toBuf, cast_eq]);
     (try simp only [Cert.ReferenceIdeal.ReadP.val_main_c_48, Cert.ReferenceIdeal.ReadP.val_main_v179, Cert.ReferenceIdeal.ReadP.val_main_v180, Cert.ReferenceIdeal.ReadP.val_main_v181, Cert.ReferenceIdeal.ReadP.val_main_v182, Cert.ReferenceIdeal.ReadP.val_main_v183, Cert.ReferenceIdeal.ReadP.val_main_v184]); (try rfl))
  · (simp only [main_part3_ops0_p3]; read_results; (try simp only [h_main_v1, h_main_v13, h_main_v15, h_main_v166, h_main_v171, h_main_v176, h_main_v178, h_main_v20, h_main_v25, h_main_v27, h_main_v29, h_main_v31, h_main_v33, h_main_v35, TRef.ofBuf, TRef.toBuf, cast_eq]);
     (try simp only [Cert.ReferenceIdeal.ReadP.val_main_c_48, Cert.ReferenceIdeal.ReadP.val_main_v179, Cert.ReferenceIdeal.ReadP.val_main_v180, Cert.ReferenceIdeal.ReadP.val_main_v181, Cert.ReferenceIdeal.ReadP.val_main_v182, Cert.ReferenceIdeal.ReadP.val_main_v183, Cert.ReferenceIdeal.ReadP.val_main_v184]); (try rfl))
  · exact (after_of_writes_sub _ W main_part3_ops0_p3_writes (by decide)).trans h_main_v20
  · exact (after_of_writes_sub _ W main_part3_ops0_p3_writes (by decide)).trans h_main_v25
  · exact (after_of_writes_sub _ W main_part3_ops0_p3_writes (by decide)).trans h_main_v27
  · exact (after_of_writes_sub _ W main_part3_ops0_p3_writes (by decide)).trans h_main_v29
  · exact (after_of_writes_sub _ W main_part3_ops0_p3_writes (by decide)).trans h_main_v31
  · exact (after_of_writes_sub _ W main_part3_ops0_p3_writes (by decide)).trans h_main_v33
  · exact (after_of_writes_sub _ W main_part3_ops0_p3_writes (by decide)).trans h_main_v35

/-- A piece of `main_part3_ops0`. -/
abbrev main_part3_ops0_p4 : List (HloOp τ sig (Elt F)) :=
  [ StableHlo.nary ![main_v182, main_v183, main_v184] main_v185 (fun u => concatenate S4x512x512x3 3 [⟨S4x512x512x1, u 0⟩, ⟨S4x512x512x1, u 1⟩, ⟨S4x512x512x1, u 2⟩] concatenates_S4x512x512x1_S4x512x512x1_S4x512x512x1_S4x512x512x3_d3) ]
abbrev wr_main_part3_ops0_p4 : List (Ref sig .tc) := [main_v185]
set_option maxRecDepth 16384 in
set_option maxHeartbeats 40000000 in
theorem main_part3_ops0_p4_writes : (main_part3_ops0_p4 : List (HloOp τ sig (Elt F))).Forall fun op =>
    op.writes ⊆ (wr_main_part3_ops0_p4.map (Proc.devRef (τ := τ) .tc)).toFinset :=
  by simp only [List.Forall]; exact writes_sub_of rfl (by decide)
set_option maxRecDepth 16384 in
set_option maxHeartbeats 40000000 in
theorem stage_main_part3_ops0_p4 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v166 : W (Proc.devRef .tc main_v166) = Cert.ReferenceIdeal.ReadP.val_main_v166 (F := F) x2 x3)
    (h_main_v182 : W (Proc.devRef .tc main_v182) = Cert.ReferenceIdeal.ReadP.val_main_v182 (F := F) x2)
    (h_main_v183 : W (Proc.devRef .tc main_v183) = Cert.ReferenceIdeal.ReadP.val_main_v183 (F := F) x2)
    (h_main_v184 : W (Proc.devRef .tc main_v184) = Cert.ReferenceIdeal.ReadP.val_main_v184 (F := F) x2)
    (h_main_v20 : W (Proc.devRef .tc main_v20) = Cert.ReferenceIdeal.ReadP.val_main_v20 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    : (after main_part3_ops0_p4 W (Proc.devRef .tc main_v1) = Cert.ReferenceIdeal.ReadP.val_main_v1 (F := F) x3)
      ∧ (after main_part3_ops0_p4 W (Proc.devRef .tc main_v13) = Cert.ReferenceIdeal.ReadP.val_main_v13 (F := F) x2)
      ∧ (after main_part3_ops0_p4 W (Proc.devRef .tc main_v15) = Cert.ReferenceIdeal.ReadP.val_main_v15 (F := F) x2)
      ∧ (after main_part3_ops0_p4 W (Proc.devRef .tc main_v166) = Cert.ReferenceIdeal.ReadP.val_main_v166 (F := F) x2 x3)
      ∧ (after main_part3_ops0_p4 W (Proc.devRef .tc main_v185) = Cert.ReferenceIdeal.ReadP.val_main_v185 (F := F) x2)
      ∧ (after main_part3_ops0_p4 W (Proc.devRef .tc main_v20) = Cert.ReferenceIdeal.ReadP.val_main_v20 (F := F) x2)
      ∧ (after main_part3_ops0_p4 W (Proc.devRef .tc main_v25) = Cert.ReferenceIdeal.ReadP.val_main_v25 (F := F) x2)
      ∧ (after main_part3_ops0_p4 W (Proc.devRef .tc main_v27) = Cert.ReferenceIdeal.ReadP.val_main_v27 (F := F) x2)
      ∧ (after main_part3_ops0_p4 W (Proc.devRef .tc main_v29) = Cert.ReferenceIdeal.ReadP.val_main_v29 (F := F) x2)
      ∧ (after main_part3_ops0_p4 W (Proc.devRef .tc main_v31) = Cert.ReferenceIdeal.ReadP.val_main_v31 (F := F) x2)
      ∧ (after main_part3_ops0_p4 W (Proc.devRef .tc main_v33) = Cert.ReferenceIdeal.ReadP.val_main_v33 (F := F) x2)
      ∧ (after main_part3_ops0_p4 W (Proc.devRef .tc main_v35) = Cert.ReferenceIdeal.ReadP.val_main_v35 (F := F) x2) := by
  refine ⟨?_, ?_, ?_, ?_, ?_, ?_, ?_, ?_, ?_, ?_, ?_, ?_⟩
  · exact (after_of_writes_sub _ W main_part3_ops0_p4_writes (by decide)).trans h_main_v1
  · exact (after_of_writes_sub _ W main_part3_ops0_p4_writes (by decide)).trans h_main_v13
  · exact (after_of_writes_sub _ W main_part3_ops0_p4_writes (by decide)).trans h_main_v15
  · exact (after_of_writes_sub _ W main_part3_ops0_p4_writes (by decide)).trans h_main_v166
  · simp only [main_part3_ops0_p4, after_cons, after_nil]
    rw [nary_result]
    show concatenate S4x512x512x3 3 [⟨S4x512x512x1, (W (Proc.devRef .tc main_v182))⟩, ⟨S4x512x512x1, (W (Proc.devRef .tc main_v183))⟩, ⟨S4x512x512x1, (W (Proc.devRef .tc main_v184))⟩] concatenates_S4x512x512x1_S4x512x512x1_S4x512x512x1_S4x512x512x3_d3 = _
    rw [h_main_v182, h_main_v183, h_main_v184]
    (try simp only [Cert.ReferenceIdeal.ReadP.val_main_v185])
    (try rfl)
  · exact (after_of_writes_sub _ W main_part3_ops0_p4_writes (by decide)).trans h_main_v20
  · exact (after_of_writes_sub _ W main_part3_ops0_p4_writes (by decide)).trans h_main_v25
  · exact (after_of_writes_sub _ W main_part3_ops0_p4_writes (by decide)).trans h_main_v27
  · exact (after_of_writes_sub _ W main_part3_ops0_p4_writes (by decide)).trans h_main_v29
  · exact (after_of_writes_sub _ W main_part3_ops0_p4_writes (by decide)).trans h_main_v31
  · exact (after_of_writes_sub _ W main_part3_ops0_p4_writes (by decide)).trans h_main_v33
  · exact (after_of_writes_sub _ W main_part3_ops0_p4_writes (by decide)).trans h_main_v35

/-- A piece of `main_part3_ops0`. -/
abbrev main_part3_ops0_p5 : List (HloOp τ sig (Elt F)) :=
  [ StableHlo.binary main_v1 main_v185 main_v186 ((fun x i => Host.gather gather_S8x3x33x33x33_S4x512x512x3_S8x3x4x512x512_01_234_n_n_234_3_83111 x i) : (⟨S8x3x33x33x33, .f32⟩ : BufTy).Contents (Elt F) → (⟨S4x512x512x3, .i32⟩ : BufTy).Contents (Elt F) → (⟨S8x3x4x512x512, .f32⟩ : BufTy).Contents (Elt F)),
    StableHlo.binary main_v25 main_v35 main_v187 (mulf : (⟨S4x512x512, .f32⟩ : BufTy).Contents (Elt F) → (⟨S4x512x512, .f32⟩ : BufTy).Contents (Elt F) → (⟨S4x512x512, .f32⟩ : BufTy).Contents (Elt F)),
    StableHlo.binary main_v187 main_v15 main_v188 (mulf : (⟨S4x512x512, .f32⟩ : BufTy).Contents (Elt F) → (⟨S4x512x512, .f32⟩ : BufTy).Contents (Elt F) → (⟨S4x512x512, .f32⟩ : BufTy).Contents (Elt F)) ]
abbrev wr_main_part3_ops0_p5 : List (Ref sig .tc) := [main_v186, main_v187, main_v188]
set_option maxRecDepth 16384 in
set_option maxHeartbeats 40000000 in
theorem main_part3_ops0_p5_writes : (main_part3_ops0_p5 : List (HloOp τ sig (Elt F))).Forall fun op =>
    op.writes ⊆ (wr_main_part3_ops0_p5.map (Proc.devRef (τ := τ) .tc)).toFinset :=
  ⟨writes_sub_of rfl (by decide), writes_sub_of rfl (by decide), writes_sub_of rfl (by decide)⟩
set_option maxRecDepth 16384 in
set_option maxHeartbeats 40000000 in
theorem stage_main_part3_ops0_p5 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v166 : W (Proc.devRef .tc main_v166) = Cert.ReferenceIdeal.ReadP.val_main_v166 (F := F) x2 x3)
    (h_main_v185 : W (Proc.devRef .tc main_v185) = Cert.ReferenceIdeal.ReadP.val_main_v185 (F := F) x2)
    (h_main_v20 : W (Proc.devRef .tc main_v20) = Cert.ReferenceIdeal.ReadP.val_main_v20 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    : (after main_part3_ops0_p5 W (Proc.devRef .tc main_v1) = Cert.ReferenceIdeal.ReadP.val_main_v1 (F := F) x3)
      ∧ (after main_part3_ops0_p5 W (Proc.devRef .tc main_v13) = Cert.ReferenceIdeal.ReadP.val_main_v13 (F := F) x2)
      ∧ (after main_part3_ops0_p5 W (Proc.devRef .tc main_v15) = Cert.ReferenceIdeal.ReadP.val_main_v15 (F := F) x2)
      ∧ (after main_part3_ops0_p5 W (Proc.devRef .tc main_v166) = Cert.ReferenceIdeal.ReadP.val_main_v166 (F := F) x2 x3)
      ∧ (after main_part3_ops0_p5 W (Proc.devRef .tc main_v186) = Cert.ReferenceIdeal.ReadP.val_main_v186 (F := F) x2 x3)
      ∧ (after main_part3_ops0_p5 W (Proc.devRef .tc main_v188) = Cert.ReferenceIdeal.ReadP.val_main_v188 (F := F) x2)
      ∧ (after main_part3_ops0_p5 W (Proc.devRef .tc main_v20) = Cert.ReferenceIdeal.ReadP.val_main_v20 (F := F) x2)
      ∧ (after main_part3_ops0_p5 W (Proc.devRef .tc main_v25) = Cert.ReferenceIdeal.ReadP.val_main_v25 (F := F) x2)
      ∧ (after main_part3_ops0_p5 W (Proc.devRef .tc main_v27) = Cert.ReferenceIdeal.ReadP.val_main_v27 (F := F) x2)
      ∧ (after main_part3_ops0_p5 W (Proc.devRef .tc main_v29) = Cert.ReferenceIdeal.ReadP.val_main_v29 (F := F) x2)
      ∧ (after main_part3_ops0_p5 W (Proc.devRef .tc main_v31) = Cert.ReferenceIdeal.ReadP.val_main_v31 (F := F) x2)
      ∧ (after main_part3_ops0_p5 W (Proc.devRef .tc main_v33) = Cert.ReferenceIdeal.ReadP.val_main_v33 (F := F) x2) := by
  refine ⟨?_, ?_, ?_, ?_, ?_, ?_, ?_, ?_, ?_, ?_, ?_, ?_⟩
  · exact (after_of_writes_sub _ W main_part3_ops0_p5_writes (by decide)).trans h_main_v1
  · exact (after_of_writes_sub _ W main_part3_ops0_p5_writes (by decide)).trans h_main_v13
  · exact (after_of_writes_sub _ W main_part3_ops0_p5_writes (by decide)).trans h_main_v15
  · exact (after_of_writes_sub _ W main_part3_ops0_p5_writes (by decide)).trans h_main_v166
  · (simp only [main_part3_ops0_p5]; read_results; (try simp only [h_main_v1, h_main_v13, h_main_v15, h_main_v166, h_main_v185, h_main_v20, h_main_v25, h_main_v27, h_main_v29, h_main_v31, h_main_v33, h_main_v35, TRef.ofBuf, TRef.toBuf, cast_eq]);
     (try simp only [Cert.ReferenceIdeal.ReadP.val_main_v186, Cert.ReferenceIdeal.ReadP.val_main_v187, Cert.ReferenceIdeal.ReadP.val_main_v188]); (try rfl))
  · (simp only [main_part3_ops0_p5]; read_results; (try simp only [h_main_v1, h_main_v13, h_main_v15, h_main_v166, h_main_v185, h_main_v20, h_main_v25, h_main_v27, h_main_v29, h_main_v31, h_main_v33, h_main_v35, TRef.ofBuf, TRef.toBuf, cast_eq]);
     (try simp only [Cert.ReferenceIdeal.ReadP.val_main_v186, Cert.ReferenceIdeal.ReadP.val_main_v187, Cert.ReferenceIdeal.ReadP.val_main_v188]); (try rfl))
  · exact (after_of_writes_sub _ W main_part3_ops0_p5_writes (by decide)).trans h_main_v20
  · exact (after_of_writes_sub _ W main_part3_ops0_p5_writes (by decide)).trans h_main_v25
  · exact (after_of_writes_sub _ W main_part3_ops0_p5_writes (by decide)).trans h_main_v27
  · exact (after_of_writes_sub _ W main_part3_ops0_p5_writes (by decide)).trans h_main_v29
  · exact (after_of_writes_sub _ W main_part3_ops0_p5_writes (by decide)).trans h_main_v31
  · exact (after_of_writes_sub _ W main_part3_ops0_p5_writes (by decide)).trans h_main_v33

/-- A piece of `main_part4_ops0`. -/
abbrev main_part4_ops0_p0 : List (HloOp τ sig (Elt F)) :=
  [ StableHlo.unary main_v188 main_v189 (broadcastInDim S1x1x4x512x512 ![2, 3, 4] bcast_S4x512x512_S1x1x4x512x512_2_3_4 : (⟨S4x512x512, .f32⟩ : BufTy).Contents (Elt F) → (⟨S1x1x4x512x512, .f32⟩ : BufTy).Contents (Elt F)),
    StableHlo.unary main_v189 main_v190 (broadcastInDim S8x3x4x512x512 ![0, 1, 2, 3, 4] bcast_S1x1x4x512x512_S8x3x4x512x512_0_1_2_3_4 : (⟨S1x1x4x512x512, .f32⟩ : BufTy).Contents (Elt F) → (⟨S8x3x4x512x512, .f32⟩ : BufTy).Contents (Elt F)),
    StableHlo.binary main_v186 main_v190 main_v191 (mulf : (⟨S8x3x4x512x512, .f32⟩ : BufTy).Contents (Elt F) → (⟨S8x3x4x512x512, .f32⟩ : BufTy).Contents (Elt F) → (⟨S8x3x4x512x512, .f32⟩ : BufTy).Contents (Elt F)),
    StableHlo.binary main_v166 main_v191 main_v192 (addf : (⟨S8x3x4x512x512, .f32⟩ : BufTy).Contents (Elt F) → (⟨S8x3x4x512x512, .f32⟩ : BufTy).Contents (Elt F) → (⟨S8x3x4x512x512, .f32⟩ : BufTy).Contents (Elt F)),
    StableHlo.nullary main_c_49 (constantI S_ 32 0#32),
    StableHlo.unary main_c_49 main_v193 (broadcastInDim S4x512x512 ![] bcast_S_S4x512x512 : (⟨S_, .i32⟩ : BufTy).Contents (Elt F) → (⟨S4x512x512, .i32⟩ : BufTy).Contents (Elt F)),
    StableHlo.binary main_v31 main_v193 main_v194 (cmpi .slt : (⟨S4x512x512, .i32⟩ : BufTy).Contents (Elt F) → (⟨S4x512x512, .i32⟩ : BufTy).Contents (Elt F) → (⟨S4x512x512, .i1⟩ : BufTy).Contents (Elt F)),
    StableHlo.nullary main_c_50 (constantI S_ 32 33#32),
    StableHlo.unary main_c_50 main_v195 (broadcastInDim S4x512x512 ![] bcast_S_S4x512x512 : (⟨S_, .i32⟩ : BufTy).Contents (Elt F) → (⟨S4x512x512, .i32⟩ : BufTy).Contents (Elt F)),
    StableHlo.binary main_v31 main_v195 main_v196 (addi : (⟨S4x512x512, .i32⟩ : BufTy).Contents (Elt F) → (⟨S4x512x512, .i32⟩ : BufTy).Contents (Elt F) → (⟨S4x512x512, .i32⟩ : BufTy).Contents (Elt F)),
    StableHlo.ternary main_v194 main_v196 main_v31 main_v197 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    StableHlo.nullary main_c_51 (constantI S_ 32 0#32),
    StableHlo.unary main_c_51 main_v198 (broadcastInDim S4x512x512 ![] bcast_S_S4x512x512 : (⟨S_, .i32⟩ : BufTy).Contents (Elt F) → (⟨S4x512x512, .i32⟩ : BufTy).Contents (Elt F)),
    StableHlo.binary main_v29 main_v198 main_v199 (cmpi .slt : (⟨S4x512x512, .i32⟩ : BufTy).Contents (Elt F) → (⟨S4x512x512, .i32⟩ : BufTy).Contents (Elt F) → (⟨S4x512x512, .i1⟩ : BufTy).Contents (Elt F)),
    StableHlo.nullary main_c_52 (constantI S_ 32 33#32),
    StableHlo.unary main_c_52 main_v200 (broadcastInDim S4x512x512 ![] bcast_S_S4x512x512 : (⟨S_, .i32⟩ : BufTy).Contents (Elt F) → (⟨S4x512x512, .i32⟩ : BufTy).Contents (Elt F)),
    StableHlo.binary main_v29 main_v200 main_v201 (addi : (⟨S4x512x512, .i32⟩ : BufTy).Contents (Elt F) → (⟨S4x512x512, .i32⟩ : BufTy).Contents (Elt F) → (⟨S4x512x512, .i32⟩ : BufTy).Contents (Elt F)),
    StableHlo.ternary main_v199 main_v201 main_v29 main_v202 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    StableHlo.nullary main_c_53 (constantI S_ 32 0#32),
    StableHlo.unary main_c_53 main_v203 (broadcastInDim S4x512x512 ![] bcast_S_S4x512x512 : (⟨S_, .i32⟩ : BufTy).Contents (Elt F) → (⟨S4x512x512, .i32⟩ : BufTy).Contents (Elt F)),
    StableHlo.binary main_v13 main_v203 main_v204 (cmpi .slt : (⟨S4x512x512, .i32⟩ : BufTy).Contents (Elt F) → (⟨S4x512x512, .i32⟩ : BufTy).Contents (Elt F) → (⟨S4x512x512, .i1⟩ : BufTy).Contents (Elt F)),
    StableHlo.nullary main_c_54 (constantI S_ 32 33#32),
    StableHlo.unary main_c_54 main_v205 (broadcastInDim S4x512x512 ![] bcast_S_S4x512x512 : (⟨S_, .i32⟩ : BufTy).Contents (Elt F) → (⟨S4x512x512, .i32⟩ : BufTy).Contents (Elt F)),
    StableHlo.binary main_v13 main_v205 main_v206 (addi : (⟨S4x512x512, .i32⟩ : BufTy).Contents (Elt F) → (⟨S4x512x512, .i32⟩ : BufTy).Contents (Elt F) → (⟨S4x512x512, .i32⟩ : BufTy).Contents (Elt F)) ]
abbrev wr_main_part4_ops0_p0 : List (Ref sig .tc) := [main_v189, main_v190, main_v191, main_v192, main_c_49, main_v193, main_v194, main_c_50, main_v195, main_v196, main_v197, main_c_51, main_v198, main_v199, main_c_52, main_v200, main_v201, main_v202, main_c_53, main_v203, main_v204, main_c_54, main_v205, main_v206]
set_option maxRecDepth 16384 in
set_option maxHeartbeats 40000000 in
theorem main_part4_ops0_p0_writes : (main_part4_ops0_p0 : List (HloOp τ sig (Elt F))).Forall fun op =>
    op.writes ⊆ (wr_main_part4_ops0_p0.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_main_part4_ops0_p0 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v166 : W (Proc.devRef .tc main_v166) = Cert.ReferenceIdeal.ReadP.val_main_v166 (F := F) x2 x3)
    (h_main_v186 : W (Proc.devRef .tc main_v186) = Cert.ReferenceIdeal.ReadP.val_main_v186 (F := F) x2 x3)
    (h_main_v188 : W (Proc.devRef .tc main_v188) = Cert.ReferenceIdeal.ReadP.val_main_v188 (F := F) x2)
    (h_main_v20 : W (Proc.devRef .tc main_v20) = Cert.ReferenceIdeal.ReadP.val_main_v20 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    : (after main_part4_ops0_p0 W (Proc.devRef .tc main_v1) = Cert.ReferenceIdeal.ReadP.val_main_v1 (F := F) x3)
      ∧ (after main_part4_ops0_p0 W (Proc.devRef .tc main_v13) = Cert.ReferenceIdeal.ReadP.val_main_v13 (F := F) x2)
      ∧ (after main_part4_ops0_p0 W (Proc.devRef .tc main_v15) = Cert.ReferenceIdeal.ReadP.val_main_v15 (F := F) x2)
      ∧ (after main_part4_ops0_p0 W (Proc.devRef .tc main_v192) = Cert.ReferenceIdeal.ReadP.val_main_v192 (F := F) x2 x3)
      ∧ (after main_part4_ops0_p0 W (Proc.devRef .tc main_v197) = Cert.ReferenceIdeal.ReadP.val_main_v197 (F := F) x2)
      ∧ (after main_part4_ops0_p0 W (Proc.devRef .tc main_v20) = Cert.ReferenceIdeal.ReadP.val_main_v20 (F := F) x2)
      ∧ (after main_part4_ops0_p0 W (Proc.devRef .tc main_v202) = Cert.ReferenceIdeal.ReadP.val_main_v202 (F := F) x2)
      ∧ (after main_part4_ops0_p0 W (Proc.devRef .tc main_v204) = Cert.ReferenceIdeal.ReadP.val_main_v204 (F := F) x2)
      ∧ (after main_part4_ops0_p0 W (Proc.devRef .tc main_v206) = Cert.ReferenceIdeal.ReadP.val_main_v206 (F := F) x2)
      ∧ (after main_part4_ops0_p0 W (Proc.devRef .tc main_v25) = Cert.ReferenceIdeal.ReadP.val_main_v25 (F := F) x2)
      ∧ (after main_part4_ops0_p0 W (Proc.devRef .tc main_v27) = Cert.ReferenceIdeal.ReadP.val_main_v27 (F := F) x2)
      ∧ (after main_part4_ops0_p0 W (Proc.devRef .tc main_v29) = Cert.ReferenceIdeal.ReadP.val_main_v29 (F := F) x2)
      ∧ (after main_part4_ops0_p0 W (Proc.devRef .tc main_v31) = Cert.ReferenceIdeal.ReadP.val_main_v31 (F := F) x2)
      ∧ (after main_part4_ops0_p0 W (Proc.devRef .tc main_v33) = Cert.ReferenceIdeal.ReadP.val_main_v33 (F := F) x2) := by
  refine ⟨?_, ?_, ?_, ?_, ?_, ?_, ?_, ?_, ?_, ?_, ?_, ?_, ?_, ?_⟩
  · exact (after_of_writes_sub _ W main_part4_ops0_p0_writes (by decide)).trans h_main_v1
  · exact (after_of_writes_sub _ W main_part4_ops0_p0_writes (by decide)).trans h_main_v13
  · exact (after_of_writes_sub _ W main_part4_ops0_p0_writes (by decide)).trans h_main_v15
  · (simp only [main_part4_ops0_p0]; read_results; (try simp only [h_main_v1, h_main_v13, h_main_v15, h_main_v166, h_main_v186, h_main_v188, h_main_v20, h_main_v25, h_main_v27, h_main_v29, h_main_v31, h_main_v33, TRef.ofBuf, TRef.toBuf, cast_eq]);
     (try simp only [Cert.ReferenceIdeal.ReadP.val_main_v189, Cert.ReferenceIdeal.ReadP.val_main_v190, Cert.ReferenceIdeal.ReadP.val_main_v191, Cert.ReferenceIdeal.ReadP.val_main_v192, Cert.ReferenceIdeal.ReadP.val_main_c_49, Cert.ReferenceIdeal.ReadP.val_main_v193, Cert.ReferenceIdeal.ReadP.val_main_v194, Cert.ReferenceIdeal.ReadP.val_main_c_50, Cert.ReferenceIdeal.ReadP.val_main_v195, Cert.ReferenceIdeal.ReadP.val_main_v196, Cert.ReferenceIdeal.ReadP.val_main_v197, Cert.ReferenceIdeal.ReadP.val_main_c_51, Cert.ReferenceIdeal.ReadP.val_main_v198, Cert.ReferenceIdeal.ReadP.val_main_v199, Cert.ReferenceIdeal.ReadP.val_main_c_52, Cert.ReferenceIdeal.ReadP.val_main_v200, Cert.ReferenceIdeal.ReadP.val_main_v201, Cert.ReferenceIdeal.ReadP.val_main_v202, Cert.ReferenceIdeal.ReadP.val_main_c_53, Cert.ReferenceIdeal.ReadP.val_main_v203, Cert.ReferenceIdeal.ReadP.val_main_v204, Cert.ReferenceIdeal.ReadP.val_main_c_54, Cert.ReferenceIdeal.ReadP.val_main_v205, Cert.ReferenceIdeal.ReadP.val_main_v206]); (try rfl))
  · (simp only [main_part4_ops0_p0]; read_results; (try simp only [h_main_v1, h_main_v13, h_main_v15, h_main_v166, h_main_v186, h_main_v188, h_main_v20, h_main_v25, h_main_v27, h_main_v29, h_main_v31, h_main_v33, TRef.ofBuf, TRef.toBuf, cast_eq]);
     (try simp only [Cert.ReferenceIdeal.ReadP.val_main_v189, Cert.ReferenceIdeal.ReadP.val_main_v190, Cert.ReferenceIdeal.ReadP.val_main_v191, Cert.ReferenceIdeal.ReadP.val_main_v192, Cert.ReferenceIdeal.ReadP.val_main_c_49, Cert.ReferenceIdeal.ReadP.val_main_v193, Cert.ReferenceIdeal.ReadP.val_main_v194, Cert.ReferenceIdeal.ReadP.val_main_c_50, Cert.ReferenceIdeal.ReadP.val_main_v195, Cert.ReferenceIdeal.ReadP.val_main_v196, Cert.ReferenceIdeal.ReadP.val_main_v197, Cert.ReferenceIdeal.ReadP.val_main_c_51, Cert.ReferenceIdeal.ReadP.val_main_v198, Cert.ReferenceIdeal.ReadP.val_main_v199, Cert.ReferenceIdeal.ReadP.val_main_c_52, Cert.ReferenceIdeal.ReadP.val_main_v200, Cert.ReferenceIdeal.ReadP.val_main_v201, Cert.ReferenceIdeal.ReadP.val_main_v202, Cert.ReferenceIdeal.ReadP.val_main_c_53, Cert.ReferenceIdeal.ReadP.val_main_v203, Cert.ReferenceIdeal.ReadP.val_main_v204, Cert.ReferenceIdeal.ReadP.val_main_c_54, Cert.ReferenceIdeal.ReadP.val_main_v205, Cert.ReferenceIdeal.ReadP.val_main_v206]); (try rfl))
  · exact (after_of_writes_sub _ W main_part4_ops0_p0_writes (by decide)).trans h_main_v20
  · (simp only [main_part4_ops0_p0]; read_results; (try simp only [h_main_v1, h_main_v13, h_main_v15, h_main_v166, h_main_v186, h_main_v188, h_main_v20, h_main_v25, h_main_v27, h_main_v29, h_main_v31, h_main_v33, TRef.ofBuf, TRef.toBuf, cast_eq]);
     (try simp only [Cert.ReferenceIdeal.ReadP.val_main_v189, Cert.ReferenceIdeal.ReadP.val_main_v190, Cert.ReferenceIdeal.ReadP.val_main_v191, Cert.ReferenceIdeal.ReadP.val_main_v192, Cert.ReferenceIdeal.ReadP.val_main_c_49, Cert.ReferenceIdeal.ReadP.val_main_v193, Cert.ReferenceIdeal.ReadP.val_main_v194, Cert.ReferenceIdeal.ReadP.val_main_c_50, Cert.ReferenceIdeal.ReadP.val_main_v195, Cert.ReferenceIdeal.ReadP.val_main_v196, Cert.ReferenceIdeal.ReadP.val_main_v197, Cert.ReferenceIdeal.ReadP.val_main_c_51, Cert.ReferenceIdeal.ReadP.val_main_v198, Cert.ReferenceIdeal.ReadP.val_main_v199, Cert.ReferenceIdeal.ReadP.val_main_c_52, Cert.ReferenceIdeal.ReadP.val_main_v200, Cert.ReferenceIdeal.ReadP.val_main_v201, Cert.ReferenceIdeal.ReadP.val_main_v202, Cert.ReferenceIdeal.ReadP.val_main_c_53, Cert.ReferenceIdeal.ReadP.val_main_v203, Cert.ReferenceIdeal.ReadP.val_main_v204, Cert.ReferenceIdeal.ReadP.val_main_c_54, Cert.ReferenceIdeal.ReadP.val_main_v205, Cert.ReferenceIdeal.ReadP.val_main_v206]); (try rfl))
  · (simp only [main_part4_ops0_p0]; read_results; (try simp only [h_main_v1, h_main_v13, h_main_v15, h_main_v166, h_main_v186, h_main_v188, h_main_v20, h_main_v25, h_main_v27, h_main_v29, h_main_v31, h_main_v33, TRef.ofBuf, TRef.toBuf, cast_eq]);
     (try simp only [Cert.ReferenceIdeal.ReadP.val_main_v189, Cert.ReferenceIdeal.ReadP.val_main_v190, Cert.ReferenceIdeal.ReadP.val_main_v191, Cert.ReferenceIdeal.ReadP.val_main_v192, Cert.ReferenceIdeal.ReadP.val_main_c_49, Cert.ReferenceIdeal.ReadP.val_main_v193, Cert.ReferenceIdeal.ReadP.val_main_v194, Cert.ReferenceIdeal.ReadP.val_main_c_50, Cert.ReferenceIdeal.ReadP.val_main_v195, Cert.ReferenceIdeal.ReadP.val_main_v196, Cert.ReferenceIdeal.ReadP.val_main_v197, Cert.ReferenceIdeal.ReadP.val_main_c_51, Cert.ReferenceIdeal.ReadP.val_main_v198, Cert.ReferenceIdeal.ReadP.val_main_v199, Cert.ReferenceIdeal.ReadP.val_main_c_52, Cert.ReferenceIdeal.ReadP.val_main_v200, Cert.ReferenceIdeal.ReadP.val_main_v201, Cert.ReferenceIdeal.ReadP.val_main_v202, Cert.ReferenceIdeal.ReadP.val_main_c_53, Cert.ReferenceIdeal.ReadP.val_main_v203, Cert.ReferenceIdeal.ReadP.val_main_v204, Cert.ReferenceIdeal.ReadP.val_main_c_54, Cert.ReferenceIdeal.ReadP.val_main_v205, Cert.ReferenceIdeal.ReadP.val_main_v206]); (try rfl))
  · (simp only [main_part4_ops0_p0]; read_results; (try simp only [h_main_v1, h_main_v13, h_main_v15, h_main_v166, h_main_v186, h_main_v188, h_main_v20, h_main_v25, h_main_v27, h_main_v29, h_main_v31, h_main_v33, TRef.ofBuf, TRef.toBuf, cast_eq]);
     (try simp only [Cert.ReferenceIdeal.ReadP.val_main_v189, Cert.ReferenceIdeal.ReadP.val_main_v190, Cert.ReferenceIdeal.ReadP.val_main_v191, Cert.ReferenceIdeal.ReadP.val_main_v192, Cert.ReferenceIdeal.ReadP.val_main_c_49, Cert.ReferenceIdeal.ReadP.val_main_v193, Cert.ReferenceIdeal.ReadP.val_main_v194, Cert.ReferenceIdeal.ReadP.val_main_c_50, Cert.ReferenceIdeal.ReadP.val_main_v195, Cert.ReferenceIdeal.ReadP.val_main_v196, Cert.ReferenceIdeal.ReadP.val_main_v197, Cert.ReferenceIdeal.ReadP.val_main_c_51, Cert.ReferenceIdeal.ReadP.val_main_v198, Cert.ReferenceIdeal.ReadP.val_main_v199, Cert.ReferenceIdeal.ReadP.val_main_c_52, Cert.ReferenceIdeal.ReadP.val_main_v200, Cert.ReferenceIdeal.ReadP.val_main_v201, Cert.ReferenceIdeal.ReadP.val_main_v202, Cert.ReferenceIdeal.ReadP.val_main_c_53, Cert.ReferenceIdeal.ReadP.val_main_v203, Cert.ReferenceIdeal.ReadP.val_main_v204, Cert.ReferenceIdeal.ReadP.val_main_c_54, Cert.ReferenceIdeal.ReadP.val_main_v205, Cert.ReferenceIdeal.ReadP.val_main_v206]); (try rfl))
  · exact (after_of_writes_sub _ W main_part4_ops0_p0_writes (by decide)).trans h_main_v25
  · exact (after_of_writes_sub _ W main_part4_ops0_p0_writes (by decide)).trans h_main_v27
  · exact (after_of_writes_sub _ W main_part4_ops0_p0_writes (by decide)).trans h_main_v29
  · exact (after_of_writes_sub _ W main_part4_ops0_p0_writes (by decide)).trans h_main_v31
  · exact (after_of_writes_sub _ W main_part4_ops0_p0_writes (by decide)).trans h_main_v33

/-- A piece of `main_part4_ops0`. -/
abbrev main_part4_ops0_p1 : List (HloOp τ sig (Elt F)) :=
  [ StableHlo.ternary main_v204 main_v206 main_v13 main_v207 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    StableHlo.unary main_v197 main_v208 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    StableHlo.unary main_v202 main_v209 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    StableHlo.unary main_v207 main_v210 (broadcastInDim S4x512x512x1 ![0, 1, 2] bcast_S4x512x512_S4x512x512x1_0_1_2 : (⟨S4x512x512, .i32⟩ : BufTy).Contents (Elt F) → (⟨S4x512x512x1, .i32⟩ : BufTy).Contents (Elt F)) ]
abbrev wr_main_part4_ops0_p1 : List (Ref sig .tc) := [main_v207, main_v208, main_v209, main_v210]
set_option maxRecDepth 16384 in
set_option maxHeartbeats 40000000 in
theorem main_part4_ops0_p1_writes : (main_part4_ops0_p1 : List (HloOp τ sig (Elt F))).Forall fun op =>
    op.writes ⊆ (wr_main_part4_ops0_p1.map (Proc.devRef (τ := τ) .tc)).toFinset :=
  ⟨writes_sub_of rfl (by decide), writes_sub_of rfl (by decide), writes_sub_of rfl (by decide), writes_sub_of rfl (by decide)⟩
set_option maxRecDepth 16384 in
set_option maxHeartbeats 40000000 in
theorem stage_main_part4_ops0_p1 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v192 : W (Proc.devRef .tc main_v192) = Cert.ReferenceIdeal.ReadP.val_main_v192 (F := F) x2 x3)
    (h_main_v197 : W (Proc.devRef .tc main_v197) = Cert.ReferenceIdeal.ReadP.val_main_v197 (F := F) x2)
    (h_main_v20 : W (Proc.devRef .tc main_v20) = Cert.ReferenceIdeal.ReadP.val_main_v20 (F := F) x2)
    (h_main_v202 : W (Proc.devRef .tc main_v202) = Cert.ReferenceIdeal.ReadP.val_main_v202 (F := F) x2)
    (h_main_v204 : W (Proc.devRef .tc main_v204) = Cert.ReferenceIdeal.ReadP.val_main_v204 (F := F) x2)
    (h_main_v206 : W (Proc.devRef .tc main_v206) = Cert.ReferenceIdeal.ReadP.val_main_v206 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    : (after main_part4_ops0_p1 W (Proc.devRef .tc main_v1) = Cert.ReferenceIdeal.ReadP.val_main_v1 (F := F) x3)
      ∧ (after main_part4_ops0_p1 W (Proc.devRef .tc main_v15) = Cert.ReferenceIdeal.ReadP.val_main_v15 (F := F) x2)
      ∧ (after main_part4_ops0_p1 W (Proc.devRef .tc main_v192) = Cert.ReferenceIdeal.ReadP.val_main_v192 (F := F) x2 x3)
      ∧ (after main_part4_ops0_p1 W (Proc.devRef .tc main_v20) = Cert.ReferenceIdeal.ReadP.val_main_v20 (F := F) x2)
      ∧ (after main_part4_ops0_p1 W (Proc.devRef .tc main_v208) = Cert.ReferenceIdeal.ReadP.val_main_v208 (F := F) x2)
      ∧ (after main_part4_ops0_p1 W (Proc.devRef .tc main_v209) = Cert.ReferenceIdeal.ReadP.val_main_v209 (F := F) x2)
      ∧ (after main_part4_ops0_p1 W (Proc.devRef .tc main_v210) = Cert.ReferenceIdeal.ReadP.val_main_v210 (F := F) x2)
      ∧ (after main_part4_ops0_p1 W (Proc.devRef .tc main_v25) = Cert.ReferenceIdeal.ReadP.val_main_v25 (F := F) x2)
      ∧ (after main_part4_ops0_p1 W (Proc.devRef .tc main_v27) = Cert.ReferenceIdeal.ReadP.val_main_v27 (F := F) x2)
      ∧ (after main_part4_ops0_p1 W (Proc.devRef .tc main_v29) = Cert.ReferenceIdeal.ReadP.val_main_v29 (F := F) x2)
      ∧ (after main_part4_ops0_p1 W (Proc.devRef .tc main_v31) = Cert.ReferenceIdeal.ReadP.val_main_v31 (F := F) x2)
      ∧ (after main_part4_ops0_p1 W (Proc.devRef .tc main_v33) = Cert.ReferenceIdeal.ReadP.val_main_v33 (F := F) x2) := by
  refine ⟨?_, ?_, ?_, ?_, ?_, ?_, ?_, ?_, ?_, ?_, ?_, ?_⟩
  · exact (after_of_writes_sub _ W main_part4_ops0_p1_writes (by decide)).trans h_main_v1
  · exact (after_of_writes_sub _ W main_part4_ops0_p1_writes (by decide)).trans h_main_v15
  · exact (after_of_writes_sub _ W main_part4_ops0_p1_writes (by decide)).trans h_main_v192
  · exact (after_of_writes_sub _ W main_part4_ops0_p1_writes (by decide)).trans h_main_v20
  · (simp only [main_part4_ops0_p1]; read_results; (try simp only [h_main_v1, h_main_v13, h_main_v15, h_main_v192, h_main_v197, h_main_v20, h_main_v202, h_main_v204, h_main_v206, h_main_v25, h_main_v27, h_main_v29, h_main_v31, h_main_v33, TRef.ofBuf, TRef.toBuf, cast_eq]);
     (try simp only [Cert.ReferenceIdeal.ReadP.val_main_v207, Cert.ReferenceIdeal.ReadP.val_main_v208, Cert.ReferenceIdeal.ReadP.val_main_v209, Cert.ReferenceIdeal.ReadP.val_main_v210]); (try rfl))
  · (simp only [main_part4_ops0_p1]; read_results; (try simp only [h_main_v1, h_main_v13, h_main_v15, h_main_v192, h_main_v197, h_main_v20, h_main_v202, h_main_v204, h_main_v206, h_main_v25, h_main_v27, h_main_v29, h_main_v31, h_main_v33, TRef.ofBuf, TRef.toBuf, cast_eq]);
     (try simp only [Cert.ReferenceIdeal.ReadP.val_main_v207, Cert.ReferenceIdeal.ReadP.val_main_v208, Cert.ReferenceIdeal.ReadP.val_main_v209, Cert.ReferenceIdeal.ReadP.val_main_v210]); (try rfl))
  · (simp only [main_part4_ops0_p1]; read_results; (try simp only [h_main_v1, h_main_v13, h_main_v15, h_main_v192, h_main_v197, h_main_v20, h_main_v202, h_main_v204, h_main_v206, h_main_v25, h_main_v27, h_main_v29, h_main_v31, h_main_v33, TRef.ofBuf, TRef.toBuf, cast_eq]);
     (try simp only [Cert.ReferenceIdeal.ReadP.val_main_v207, Cert.ReferenceIdeal.ReadP.val_main_v208, Cert.ReferenceIdeal.ReadP.val_main_v209, Cert.ReferenceIdeal.ReadP.val_main_v210]); (try rfl))
  · exact (after_of_writes_sub _ W main_part4_ops0_p1_writes (by decide)).trans h_main_v25
  · exact (after_of_writes_sub _ W main_part4_ops0_p1_writes (by decide)).trans h_main_v27
  · exact (after_of_writes_sub _ W main_part4_ops0_p1_writes (by decide)).trans h_main_v29
  · exact (after_of_writes_sub _ W main_part4_ops0_p1_writes (by decide)).trans h_main_v31
  · exact (after_of_writes_sub _ W main_part4_ops0_p1_writes (by decide)).trans h_main_v33

/-- A piece of `main_part4_ops0`. -/
abbrev main_part4_ops0_p2 : List (HloOp τ sig (Elt F)) :=
  [ StableHlo.nary ![main_v208, main_v209, main_v210] main_v211 (fun u => concatenate S4x512x512x3 3 [⟨S4x512x512x1, u 0⟩, ⟨S4x512x512x1, u 1⟩, ⟨S4x512x512x1, u 2⟩] concatenates_S4x512x512x1_S4x512x512x1_S4x512x512x1_S4x512x512x3_d3) ]
abbrev wr_main_part4_ops0_p2 : List (Ref sig .tc) := [main_v211]
set_option maxRecDepth 16384 in
set_option maxHeartbeats 40000000 in
theorem main_part4_ops0_p2_writes : (main_part4_ops0_p2 : List (HloOp τ sig (Elt F))).Forall fun op =>
    op.writes ⊆ (wr_main_part4_ops0_p2.map (Proc.devRef (τ := τ) .tc)).toFinset :=
  by simp only [List.Forall]; exact writes_sub_of rfl (by decide)
set_option maxRecDepth 16384 in
set_option maxHeartbeats 40000000 in
theorem stage_main_part4_ops0_p2 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v15 : W (Proc.devRef .tc main_v15) = Cert.ReferenceIdeal.ReadP.val_main_v15 (F := F) x2)
    (h_main_v192 : W (Proc.devRef .tc main_v192) = Cert.ReferenceIdeal.ReadP.val_main_v192 (F := F) x2 x3)
    (h_main_v20 : W (Proc.devRef .tc main_v20) = Cert.ReferenceIdeal.ReadP.val_main_v20 (F := F) x2)
    (h_main_v208 : W (Proc.devRef .tc main_v208) = Cert.ReferenceIdeal.ReadP.val_main_v208 (F := F) x2)
    (h_main_v209 : W (Proc.devRef .tc main_v209) = Cert.ReferenceIdeal.ReadP.val_main_v209 (F := F) x2)
    (h_main_v210 : W (Proc.devRef .tc main_v210) = Cert.ReferenceIdeal.ReadP.val_main_v210 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    : (after main_part4_ops0_p2 W (Proc.devRef .tc main_v1) = Cert.ReferenceIdeal.ReadP.val_main_v1 (F := F) x3)
      ∧ (after main_part4_ops0_p2 W (Proc.devRef .tc main_v15) = Cert.ReferenceIdeal.ReadP.val_main_v15 (F := F) x2)
      ∧ (after main_part4_ops0_p2 W (Proc.devRef .tc main_v192) = Cert.ReferenceIdeal.ReadP.val_main_v192 (F := F) x2 x3)
      ∧ (after main_part4_ops0_p2 W (Proc.devRef .tc main_v20) = Cert.ReferenceIdeal.ReadP.val_main_v20 (F := F) x2)
      ∧ (after main_part4_ops0_p2 W (Proc.devRef .tc main_v211) = Cert.ReferenceIdeal.ReadP.val_main_v211 (F := F) x2)
      ∧ (after main_part4_ops0_p2 W (Proc.devRef .tc main_v25) = Cert.ReferenceIdeal.ReadP.val_main_v25 (F := F) x2)
      ∧ (after main_part4_ops0_p2 W (Proc.devRef .tc main_v27) = Cert.ReferenceIdeal.ReadP.val_main_v27 (F := F) x2)
      ∧ (after main_part4_ops0_p2 W (Proc.devRef .tc main_v29) = Cert.ReferenceIdeal.ReadP.val_main_v29 (F := F) x2)
      ∧ (after main_part4_ops0_p2 W (Proc.devRef .tc main_v31) = Cert.ReferenceIdeal.ReadP.val_main_v31 (F := F) x2)
      ∧ (after main_part4_ops0_p2 W (Proc.devRef .tc main_v33) = Cert.ReferenceIdeal.ReadP.val_main_v33 (F := F) x2) := by
  refine ⟨?_, ?_, ?_, ?_, ?_, ?_, ?_, ?_, ?_, ?_⟩
  · exact (after_of_writes_sub _ W main_part4_ops0_p2_writes (by decide)).trans h_main_v1
  · exact (after_of_writes_sub _ W main_part4_ops0_p2_writes (by decide)).trans h_main_v15
  · exact (after_of_writes_sub _ W main_part4_ops0_p2_writes (by decide)).trans h_main_v192
  · exact (after_of_writes_sub _ W main_part4_ops0_p2_writes (by decide)).trans h_main_v20
  · simp only [main_part4_ops0_p2, after_cons, after_nil]
    rw [nary_result]
    show concatenate S4x512x512x3 3 [⟨S4x512x512x1, (W (Proc.devRef .tc main_v208))⟩, ⟨S4x512x512x1, (W (Proc.devRef .tc main_v209))⟩, ⟨S4x512x512x1, (W (Proc.devRef .tc main_v210))⟩] concatenates_S4x512x512x1_S4x512x512x1_S4x512x512x1_S4x512x512x3_d3 = _
    rw [h_main_v208, h_main_v209, h_main_v210]
    (try simp only [Cert.ReferenceIdeal.ReadP.val_main_v211])
    (try rfl)
  · exact (after_of_writes_sub _ W main_part4_ops0_p2_writes (by decide)).trans h_main_v25
  · exact (after_of_writes_sub _ W main_part4_ops0_p2_writes (by decide)).trans h_main_v27
  · exact (after_of_writes_sub _ W main_part4_ops0_p2_writes (by decide)).trans h_main_v29
  · exact (after_of_writes_sub _ W main_part4_ops0_p2_writes (by decide)).trans h_main_v31
  · exact (after_of_writes_sub _ W main_part4_ops0_p2_writes (by decide)).trans h_main_v33

/-- A piece of `main_part4_ops0`. -/
abbrev main_part4_ops0_p3 : List (HloOp τ sig (Elt F)) :=
  [ StableHlo.binary main_v1 main_v211 main_v212 ((fun x i => Host.gather gather_S8x3x33x33x33_S4x512x512x3_S8x3x4x512x512_01_234_n_n_234_3_83111 x i) : (⟨S8x3x33x33x33, .f32⟩ : BufTy).Contents (Elt F) → (⟨S4x512x512x3, .i32⟩ : BufTy).Contents (Elt F) → (⟨S8x3x4x512x512, .f32⟩ : BufTy).Contents (Elt F)),
    StableHlo.binary main_v25 main_v20 main_v213 (mulf : (⟨S4x512x512, .f32⟩ : BufTy).Contents (Elt F) → (⟨S4x512x512, .f32⟩ : BufTy).Contents (Elt F) → (⟨S4x512x512, .f32⟩ : BufTy).Contents (Elt F)),
    StableHlo.binary main_v213 main_v33 main_v214 (mulf : (⟨S4x512x512, .f32⟩ : BufTy).Contents (Elt F) → (⟨S4x512x512, .f32⟩ : BufTy).Contents (Elt F) → (⟨S4x512x512, .f32⟩ : BufTy).Contents (Elt F)),
    StableHlo.unary main_v214 main_v215 (broadcastInDim S1x1x4x512x512 ![2, 3, 4] bcast_S4x512x512_S1x1x4x512x512_2_3_4 : (⟨S4x512x512, .f32⟩ : BufTy).Contents (Elt F) → (⟨S1x1x4x512x512, .f32⟩ : BufTy).Contents (Elt F)),
    StableHlo.unary main_v215 main_v216 (broadcastInDim S8x3x4x512x512 ![0, 1, 2, 3, 4] bcast_S1x1x4x512x512_S8x3x4x512x512_0_1_2_3_4 : (⟨S1x1x4x512x512, .f32⟩ : BufTy).Contents (Elt F) → (⟨S8x3x4x512x512, .f32⟩ : BufTy).Contents (Elt F)),
    StableHlo.binary main_v212 main_v216 main_v217 (mulf : (⟨S8x3x4x512x512, .f32⟩ : BufTy).Contents (Elt F) → (⟨S8x3x4x512x512, .f32⟩ : BufTy).Contents (Elt F) → (⟨S8x3x4x512x512, .f32⟩ : BufTy).Contents (Elt F)),
    StableHlo.binary main_v192 main_v217 main_v218 (addf : (⟨S8x3x4x512x512, .f32⟩ : BufTy).Contents (Elt F) → (⟨S8x3x4x512x512, .f32⟩ : BufTy).Contents (Elt F) → (⟨S8x3x4x512x512, .f32⟩ : BufTy).Contents (Elt F)),
    StableHlo.nullary main_c_55 (constantI S_ 32 0#32),
    StableHlo.unary main_c_55 main_v219 (broadcastInDim S4x512x512 ![] bcast_S_S4x512x512 : (⟨S_, .i32⟩ : BufTy).Contents (Elt F) → (⟨S4x512x512, .i32⟩ : BufTy).Contents (Elt F)),
    StableHlo.binary main_v31 main_v219 main_v220 (cmpi .slt : (⟨S4x512x512, .i32⟩ : BufTy).Contents (Elt F) → (⟨S4x512x512, .i32⟩ : BufTy).Contents (Elt F) → (⟨S4x512x512, .i1⟩ : BufTy).Contents (Elt F)),
    StableHlo.nullary main_c_56 (constantI S_ 32 33#32),
    StableHlo.unary main_c_56 main_v221 (broadcastInDim S4x512x512 ![] bcast_S_S4x512x512 : (⟨S_, .i32⟩ : BufTy).Contents (Elt F) → (⟨S4x512x512, .i32⟩ : BufTy).Contents (Elt F)),
    StableHlo.binary main_v31 main_v221 main_v222 (addi : (⟨S4x512x512, .i32⟩ : BufTy).Contents (Elt F) → (⟨S4x512x512, .i32⟩ : BufTy).Contents (Elt F) → (⟨S4x512x512, .i32⟩ : BufTy).Contents (Elt F)),
    StableHlo.ternary main_v220 main_v222 main_v31 main_v223 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    StableHlo.nullary main_c_57 (constantI S_ 32 0#32),
    StableHlo.unary main_c_57 main_v224 (broadcastInDim S4x512x512 ![] bcast_S_S4x512x512 : (⟨S_, .i32⟩ : BufTy).Contents (Elt F) → (⟨S4x512x512, .i32⟩ : BufTy).Contents (Elt F)),
    StableHlo.binary main_v29 main_v224 main_v225 (cmpi .slt : (⟨S4x512x512, .i32⟩ : BufTy).Contents (Elt F) → (⟨S4x512x512, .i32⟩ : BufTy).Contents (Elt F) → (⟨S4x512x512, .i1⟩ : BufTy).Contents (Elt F)),
    StableHlo.nullary main_c_58 (constantI S_ 32 33#32),
    StableHlo.unary main_c_58 main_v226 (broadcastInDim S4x512x512 ![] bcast_S_S4x512x512 : (⟨S_, .i32⟩ : BufTy).Contents (Elt F) → (⟨S4x512x512, .i32⟩ : BufTy).Contents (Elt F)),
    StableHlo.binary main_v29 main_v226 main_v227 (addi : (⟨S4x512x512, .i32⟩ : BufTy).Contents (Elt F) → (⟨S4x512x512, .i32⟩ : BufTy).Contents (Elt F) → (⟨S4x512x512, .i32⟩ : BufTy).Contents (Elt F)),
    StableHlo.ternary main_v225 main_v227 main_v29 main_v228 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    StableHlo.nullary main_c_59 (constantI S_ 32 0#32),
    StableHlo.unary main_c_59 main_v229 (broadcastInDim S4x512x512 ![] bcast_S_S4x512x512 : (⟨S_, .i32⟩ : BufTy).Contents (Elt F) → (⟨S4x512x512, .i32⟩ : BufTy).Contents (Elt F)),
    StableHlo.binary main_v27 main_v229 main_v230 (cmpi .slt : (⟨S4x512x512, .i32⟩ : BufTy).Contents (Elt F) → (⟨S4x512x512, .i32⟩ : BufTy).Contents (Elt F) → (⟨S4x512x512, .i1⟩ : BufTy).Contents (Elt F)) ]
abbrev wr_main_part4_ops0_p3 : List (Ref sig .tc) := [main_v212, main_v213, main_v214, main_v215, main_v216, main_v217, main_v218, main_c_55, main_v219, main_v220, main_c_56, main_v221, main_v222, main_v223, main_c_57, main_v224, main_v225, main_c_58, main_v226, main_v227, main_v228, main_c_59, main_v229, main_v230]
set_option maxRecDepth 16384 in
set_option maxHeartbeats 40000000 in
theorem main_part4_ops0_p3_writes : (main_part4_ops0_p3 : List (HloOp τ sig (Elt F))).Forall fun op =>
    op.writes ⊆ (wr_main_part4_ops0_p3.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_main_part4_ops0_p3 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v15 : W (Proc.devRef .tc main_v15) = Cert.ReferenceIdeal.ReadP.val_main_v15 (F := F) x2)
    (h_main_v192 : W (Proc.devRef .tc main_v192) = Cert.ReferenceIdeal.ReadP.val_main_v192 (F := F) x2 x3)
    (h_main_v20 : W (Proc.devRef .tc main_v20) = Cert.ReferenceIdeal.ReadP.val_main_v20 (F := F) x2)
    (h_main_v211 : W (Proc.devRef .tc main_v211) = Cert.ReferenceIdeal.ReadP.val_main_v211 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    : (after main_part4_ops0_p3 W (Proc.devRef .tc main_v1) = Cert.ReferenceIdeal.ReadP.val_main_v1 (F := F) x3)
      ∧ (after main_part4_ops0_p3 W (Proc.devRef .tc main_v15) = Cert.ReferenceIdeal.ReadP.val_main_v15 (F := F) x2)
      ∧ (after main_part4_ops0_p3 W (Proc.devRef .tc main_v20) = Cert.ReferenceIdeal.ReadP.val_main_v20 (F := F) x2)
      ∧ (after main_part4_ops0_p3 W (Proc.devRef .tc main_v218) = Cert.ReferenceIdeal.ReadP.val_main_v218 (F := F) x2 x3)
      ∧ (after main_part4_ops0_p3 W (Proc.devRef .tc main_v223) = Cert.ReferenceIdeal.ReadP.val_main_v223 (F := F) x2)
      ∧ (after main_part4_ops0_p3 W (Proc.devRef .tc main_v228) = Cert.ReferenceIdeal.ReadP.val_main_v228 (F := F) x2)
      ∧ (after main_part4_ops0_p3 W (Proc.devRef .tc main_v230) = Cert.ReferenceIdeal.ReadP.val_main_v230 (F := F) x2)
      ∧ (after main_part4_ops0_p3 W (Proc.devRef .tc main_v25) = Cert.ReferenceIdeal.ReadP.val_main_v25 (F := F) x2)
      ∧ (after main_part4_ops0_p3 W (Proc.devRef .tc main_v27) = Cert.ReferenceIdeal.ReadP.val_main_v27 (F := F) x2) := by
  refine ⟨?_, ?_, ?_, ?_, ?_, ?_, ?_, ?_, ?_⟩
  · exact (after_of_writes_sub _ W main_part4_ops0_p3_writes (by decide)).trans h_main_v1
  · exact (after_of_writes_sub _ W main_part4_ops0_p3_writes (by decide)).trans h_main_v15
  · exact (after_of_writes_sub _ W main_part4_ops0_p3_writes (by decide)).trans h_main_v20
  · (simp only [main_part4_ops0_p3]; read_results; (try simp only [h_main_v1, h_main_v15, h_main_v192, h_main_v20, h_main_v211, h_main_v25, h_main_v27, h_main_v29, h_main_v31, h_main_v33, TRef.ofBuf, TRef.toBuf, cast_eq]);
     (try simp only [Cert.ReferenceIdeal.ReadP.val_main_v212, Cert.ReferenceIdeal.ReadP.val_main_v213, Cert.ReferenceIdeal.ReadP.val_main_v214, Cert.ReferenceIdeal.ReadP.val_main_v215, Cert.ReferenceIdeal.ReadP.val_main_v216, Cert.ReferenceIdeal.ReadP.val_main_v217, Cert.ReferenceIdeal.ReadP.val_main_v218, Cert.ReferenceIdeal.ReadP.val_main_c_55, Cert.ReferenceIdeal.ReadP.val_main_v219, Cert.ReferenceIdeal.ReadP.val_main_v220, Cert.ReferenceIdeal.ReadP.val_main_c_56, Cert.ReferenceIdeal.ReadP.val_main_v221, Cert.ReferenceIdeal.ReadP.val_main_v222, Cert.ReferenceIdeal.ReadP.val_main_v223, Cert.ReferenceIdeal.ReadP.val_main_c_57, Cert.ReferenceIdeal.ReadP.val_main_v224, Cert.ReferenceIdeal.ReadP.val_main_v225, Cert.ReferenceIdeal.ReadP.val_main_c_58, Cert.ReferenceIdeal.ReadP.val_main_v226, Cert.ReferenceIdeal.ReadP.val_main_v227, Cert.ReferenceIdeal.ReadP.val_main_v228, Cert.ReferenceIdeal.ReadP.val_main_c_59, Cert.ReferenceIdeal.ReadP.val_main_v229, Cert.ReferenceIdeal.ReadP.val_main_v230]); (try rfl))
  · (simp only [main_part4_ops0_p3]; read_results; (try simp only [h_main_v1, h_main_v15, h_main_v192, h_main_v20, h_main_v211, h_main_v25, h_main_v27, h_main_v29, h_main_v31, h_main_v33, TRef.ofBuf, TRef.toBuf, cast_eq]);
     (try simp only [Cert.ReferenceIdeal.ReadP.val_main_v212, Cert.ReferenceIdeal.ReadP.val_main_v213, Cert.ReferenceIdeal.ReadP.val_main_v214, Cert.ReferenceIdeal.ReadP.val_main_v215, Cert.ReferenceIdeal.ReadP.val_main_v216, Cert.ReferenceIdeal.ReadP.val_main_v217, Cert.ReferenceIdeal.ReadP.val_main_v218, Cert.ReferenceIdeal.ReadP.val_main_c_55, Cert.ReferenceIdeal.ReadP.val_main_v219, Cert.ReferenceIdeal.ReadP.val_main_v220, Cert.ReferenceIdeal.ReadP.val_main_c_56, Cert.ReferenceIdeal.ReadP.val_main_v221, Cert.ReferenceIdeal.ReadP.val_main_v222, Cert.ReferenceIdeal.ReadP.val_main_v223, Cert.ReferenceIdeal.ReadP.val_main_c_57, Cert.ReferenceIdeal.ReadP.val_main_v224, Cert.ReferenceIdeal.ReadP.val_main_v225, Cert.ReferenceIdeal.ReadP.val_main_c_58, Cert.ReferenceIdeal.ReadP.val_main_v226, Cert.ReferenceIdeal.ReadP.val_main_v227, Cert.ReferenceIdeal.ReadP.val_main_v228, Cert.ReferenceIdeal.ReadP.val_main_c_59, Cert.ReferenceIdeal.ReadP.val_main_v229, Cert.ReferenceIdeal.ReadP.val_main_v230]); (try rfl))
  · (simp only [main_part4_ops0_p3]; read_results; (try simp only [h_main_v1, h_main_v15, h_main_v192, h_main_v20, h_main_v211, h_main_v25, h_main_v27, h_main_v29, h_main_v31, h_main_v33, TRef.ofBuf, TRef.toBuf, cast_eq]);
     (try simp only [Cert.ReferenceIdeal.ReadP.val_main_v212, Cert.ReferenceIdeal.ReadP.val_main_v213, Cert.ReferenceIdeal.ReadP.val_main_v214, Cert.ReferenceIdeal.ReadP.val_main_v215, Cert.ReferenceIdeal.ReadP.val_main_v216, Cert.ReferenceIdeal.ReadP.val_main_v217, Cert.ReferenceIdeal.ReadP.val_main_v218, Cert.ReferenceIdeal.ReadP.val_main_c_55, Cert.ReferenceIdeal.ReadP.val_main_v219, Cert.ReferenceIdeal.ReadP.val_main_v220, Cert.ReferenceIdeal.ReadP.val_main_c_56, Cert.ReferenceIdeal.ReadP.val_main_v221, Cert.ReferenceIdeal.ReadP.val_main_v222, Cert.ReferenceIdeal.ReadP.val_main_v223, Cert.ReferenceIdeal.ReadP.val_main_c_57, Cert.ReferenceIdeal.ReadP.val_main_v224, Cert.ReferenceIdeal.ReadP.val_main_v225, Cert.ReferenceIdeal.ReadP.val_main_c_58, Cert.ReferenceIdeal.ReadP.val_main_v226, Cert.ReferenceIdeal.ReadP.val_main_v227, Cert.ReferenceIdeal.ReadP.val_main_v228, Cert.ReferenceIdeal.ReadP.val_main_c_59, Cert.ReferenceIdeal.ReadP.val_main_v229, Cert.ReferenceIdeal.ReadP.val_main_v230]); (try rfl))
  · (simp only [main_part4_ops0_p3]; read_results; (try simp only [h_main_v1, h_main_v15, h_main_v192, h_main_v20, h_main_v211, h_main_v25, h_main_v27, h_main_v29, h_main_v31, h_main_v33, TRef.ofBuf, TRef.toBuf, cast_eq]);
     (try simp only [Cert.ReferenceIdeal.ReadP.val_main_v212, Cert.ReferenceIdeal.ReadP.val_main_v213, Cert.ReferenceIdeal.ReadP.val_main_v214, Cert.ReferenceIdeal.ReadP.val_main_v215, Cert.ReferenceIdeal.ReadP.val_main_v216, Cert.ReferenceIdeal.ReadP.val_main_v217, Cert.ReferenceIdeal.ReadP.val_main_v218, Cert.ReferenceIdeal.ReadP.val_main_c_55, Cert.ReferenceIdeal.ReadP.val_main_v219, Cert.ReferenceIdeal.ReadP.val_main_v220, Cert.ReferenceIdeal.ReadP.val_main_c_56, Cert.ReferenceIdeal.ReadP.val_main_v221, Cert.ReferenceIdeal.ReadP.val_main_v222, Cert.ReferenceIdeal.ReadP.val_main_v223, Cert.ReferenceIdeal.ReadP.val_main_c_57, Cert.ReferenceIdeal.ReadP.val_main_v224, Cert.ReferenceIdeal.ReadP.val_main_v225, Cert.ReferenceIdeal.ReadP.val_main_c_58, Cert.ReferenceIdeal.ReadP.val_main_v226, Cert.ReferenceIdeal.ReadP.val_main_v227, Cert.ReferenceIdeal.ReadP.val_main_v228, Cert.ReferenceIdeal.ReadP.val_main_c_59, Cert.ReferenceIdeal.ReadP.val_main_v229, Cert.ReferenceIdeal.ReadP.val_main_v230]); (try rfl))
  · exact (after_of_writes_sub _ W main_part4_ops0_p3_writes (by decide)).trans h_main_v25
  · exact (after_of_writes_sub _ W main_part4_ops0_p3_writes (by decide)).trans h_main_v27

/-- A piece of `main_part4_ops0`. -/
abbrev main_part4_ops0_p4 : List (HloOp τ sig (Elt F)) :=
  [ StableHlo.nullary main_c_60 (constantI S_ 32 33#32),
    StableHlo.unary main_c_60 main_v231 (broadcastInDim S4x512x512 ![] bcast_S_S4x512x512 : (⟨S_, .i32⟩ : BufTy).Contents (Elt F) → (⟨S4x512x512, .i32⟩ : BufTy).Contents (Elt F)),
    StableHlo.binary main_v27 main_v231 main_v232 (addi : (⟨S4x512x512, .i32⟩ : BufTy).Contents (Elt F) → (⟨S4x512x512, .i32⟩ : BufTy).Contents (Elt F) → (⟨S4x512x512, .i32⟩ : BufTy).Contents (Elt F)),
    StableHlo.ternary main_v230 main_v232 main_v27 main_v233 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    StableHlo.unary main_v223 main_v234 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    StableHlo.unary main_v228 main_v235 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    StableHlo.unary main_v233 main_v236 (broadcastInDim S4x512x512x1 ![0, 1, 2] bcast_S4x512x512_S4x512x512x1_0_1_2 : (⟨S4x512x512, .i32⟩ : BufTy).Contents (Elt F) → (⟨S4x512x512x1, .i32⟩ : BufTy).Contents (Elt F)) ]
abbrev wr_main_part4_ops0_p4 : List (Ref sig .tc) := [main_c_60, main_v231, main_v232, main_v233, main_v234, main_v235, main_v236]
set_option maxRecDepth 16384 in
set_option maxHeartbeats 40000000 in
theorem main_part4_ops0_p4_writes : (main_part4_ops0_p4 : List (HloOp τ sig (Elt F))).Forall fun op =>
    op.writes ⊆ (wr_main_part4_ops0_p4.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_main_part4_ops0_p4 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v15 : W (Proc.devRef .tc main_v15) = Cert.ReferenceIdeal.ReadP.val_main_v15 (F := F) x2)
    (h_main_v20 : W (Proc.devRef .tc main_v20) = Cert.ReferenceIdeal.ReadP.val_main_v20 (F := F) x2)
    (h_main_v218 : W (Proc.devRef .tc main_v218) = Cert.ReferenceIdeal.ReadP.val_main_v218 (F := F) x2 x3)
    (h_main_v223 : W (Proc.devRef .tc main_v223) = Cert.ReferenceIdeal.ReadP.val_main_v223 (F := F) x2)
    (h_main_v228 : W (Proc.devRef .tc main_v228) = Cert.ReferenceIdeal.ReadP.val_main_v228 (F := F) x2)
    (h_main_v230 : W (Proc.devRef .tc main_v230) = Cert.ReferenceIdeal.ReadP.val_main_v230 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    : (after main_part4_ops0_p4 W (Proc.devRef .tc main_v1) = Cert.ReferenceIdeal.ReadP.val_main_v1 (F := F) x3)
      ∧ (after main_part4_ops0_p4 W (Proc.devRef .tc main_v15) = Cert.ReferenceIdeal.ReadP.val_main_v15 (F := F) x2)
      ∧ (after main_part4_ops0_p4 W (Proc.devRef .tc main_v20) = Cert.ReferenceIdeal.ReadP.val_main_v20 (F := F) x2)
      ∧ (after main_part4_ops0_p4 W (Proc.devRef .tc main_v218) = Cert.ReferenceIdeal.ReadP.val_main_v218 (F := F) x2 x3)
      ∧ (after main_part4_ops0_p4 W (Proc.devRef .tc main_v234) = Cert.ReferenceIdeal.ReadP.val_main_v234 (F := F) x2)
      ∧ (after main_part4_ops0_p4 W (Proc.devRef .tc main_v235) = Cert.ReferenceIdeal.ReadP.val_main_v235 (F := F) x2)
      ∧ (after main_part4_ops0_p4 W (Proc.devRef .tc main_v236) = Cert.ReferenceIdeal.ReadP.val_main_v236 (F := F) x2)
      ∧ (after main_part4_ops0_p4 W (Proc.devRef .tc main_v25) = Cert.ReferenceIdeal.ReadP.val_main_v25 (F := F) x2) := by
  refine ⟨?_, ?_, ?_, ?_, ?_, ?_, ?_, ?_⟩
  · exact (after_of_writes_sub _ W main_part4_ops0_p4_writes (by decide)).trans h_main_v1
  · exact (after_of_writes_sub _ W main_part4_ops0_p4_writes (by decide)).trans h_main_v15
  · exact (after_of_writes_sub _ W main_part4_ops0_p4_writes (by decide)).trans h_main_v20
  · exact (after_of_writes_sub _ W main_part4_ops0_p4_writes (by decide)).trans h_main_v218
  · (simp only [main_part4_ops0_p4]; read_results; (try simp only [h_main_v1, h_main_v15, h_main_v20, h_main_v218, h_main_v223, h_main_v228, h_main_v230, h_main_v25, h_main_v27, TRef.ofBuf, TRef.toBuf, cast_eq]);
     (try simp only [Cert.ReferenceIdeal.ReadP.val_main_c_60, Cert.ReferenceIdeal.ReadP.val_main_v231, Cert.ReferenceIdeal.ReadP.val_main_v232, Cert.ReferenceIdeal.ReadP.val_main_v233, Cert.ReferenceIdeal.ReadP.val_main_v234, Cert.ReferenceIdeal.ReadP.val_main_v235, Cert.ReferenceIdeal.ReadP.val_main_v236]); (try rfl))
  · (simp only [main_part4_ops0_p4]; read_results; (try simp only [h_main_v1, h_main_v15, h_main_v20, h_main_v218, h_main_v223, h_main_v228, h_main_v230, h_main_v25, h_main_v27, TRef.ofBuf, TRef.toBuf, cast_eq]);
     (try simp only [Cert.ReferenceIdeal.ReadP.val_main_c_60, Cert.ReferenceIdeal.ReadP.val_main_v231, Cert.ReferenceIdeal.ReadP.val_main_v232, Cert.ReferenceIdeal.ReadP.val_main_v233, Cert.ReferenceIdeal.ReadP.val_main_v234, Cert.ReferenceIdeal.ReadP.val_main_v235, Cert.ReferenceIdeal.ReadP.val_main_v236]); (try rfl))
  · (simp only [main_part4_ops0_p4]; read_results; (try simp only [h_main_v1, h_main_v15, h_main_v20, h_main_v218, h_main_v223, h_main_v228, h_main_v230, h_main_v25, h_main_v27, TRef.ofBuf, TRef.toBuf, cast_eq]);
     (try simp only [Cert.ReferenceIdeal.ReadP.val_main_c_60, Cert.ReferenceIdeal.ReadP.val_main_v231, Cert.ReferenceIdeal.ReadP.val_main_v232, Cert.ReferenceIdeal.ReadP.val_main_v233, Cert.ReferenceIdeal.ReadP.val_main_v234, Cert.ReferenceIdeal.ReadP.val_main_v235, Cert.ReferenceIdeal.ReadP.val_main_v236]); (try rfl))
  · exact (after_of_writes_sub _ W main_part4_ops0_p4_writes (by decide)).trans h_main_v25

/-- A piece of `main_part5_ops0`. -/
abbrev main_part5_ops0_p0 : List (HloOp τ sig (Elt F)) :=
  [ StableHlo.nary ![main_v234, main_v235, main_v236] main_v237 (fun u => concatenate S4x512x512x3 3 [⟨S4x512x512x1, u 0⟩, ⟨S4x512x512x1, u 1⟩, ⟨S4x512x512x1, u 2⟩] concatenates_S4x512x512x1_S4x512x512x1_S4x512x512x1_S4x512x512x3_d3) ]
abbrev wr_main_part5_ops0_p0 : List (Ref sig .tc) := [main_v237]
set_option maxRecDepth 16384 in
set_option maxHeartbeats 40000000 in
theorem main_part5_ops0_p0_writes : (main_part5_ops0_p0 : List (HloOp τ sig (Elt F))).Forall fun op =>
    op.writes ⊆ (wr_main_part5_ops0_p0.map (Proc.devRef (τ := τ) .tc)).toFinset :=
  by simp only [List.Forall]; exact writes_sub_of rfl (by decide)
set_option maxRecDepth 16384 in
set_option maxHeartbeats 40000000 in
theorem stage_main_part5_ops0_p0 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v15 : W (Proc.devRef .tc main_v15) = Cert.ReferenceIdeal.ReadP.val_main_v15 (F := F) x2)
    (h_main_v20 : W (Proc.devRef .tc main_v20) = Cert.ReferenceIdeal.ReadP.val_main_v20 (F := F) x2)
    (h_main_v218 : W (Proc.devRef .tc main_v218) = Cert.ReferenceIdeal.ReadP.val_main_v218 (F := F) x2 x3)
    (h_main_v234 : W (Proc.devRef .tc main_v234) = Cert.ReferenceIdeal.ReadP.val_main_v234 (F := F) x2)
    (h_main_v235 : W (Proc.devRef .tc main_v235) = Cert.ReferenceIdeal.ReadP.val_main_v235 (F := F) x2)
    (h_main_v236 : W (Proc.devRef .tc main_v236) = Cert.ReferenceIdeal.ReadP.val_main_v236 (F := F) x2)
    (h_main_v25 : W (Proc.devRef .tc main_v25) = Cert.ReferenceIdeal.ReadP.val_main_v25 (F := F) x2)
    : (after main_part5_ops0_p0 W (Proc.devRef .tc main_v1) = Cert.ReferenceIdeal.ReadP.val_main_v1 (F := F) x3)
      ∧ (after main_part5_ops0_p0 W (Proc.devRef .tc main_v15) = Cert.ReferenceIdeal.ReadP.val_main_v15 (F := F) x2)
      ∧ (after main_part5_ops0_p0 W (Proc.devRef .tc main_v20) = Cert.ReferenceIdeal.ReadP.val_main_v20 (F := F) x2)
      ∧ (after main_part5_ops0_p0 W (Proc.devRef .tc main_v218) = Cert.ReferenceIdeal.ReadP.val_main_v218 (F := F) x2 x3)
      ∧ (after main_part5_ops0_p0 W (Proc.devRef .tc main_v237) = Cert.ReferenceIdeal.ReadP.val_main_v237 (F := F) x2)
      ∧ (after main_part5_ops0_p0 W (Proc.devRef .tc main_v25) = Cert.ReferenceIdeal.ReadP.val_main_v25 (F := F) x2) := by
  refine ⟨?_, ?_, ?_, ?_, ?_, ?_⟩
  · exact (after_of_writes_sub _ W main_part5_ops0_p0_writes (by decide)).trans h_main_v1
  · exact (after_of_writes_sub _ W main_part5_ops0_p0_writes (by decide)).trans h_main_v15
  · exact (after_of_writes_sub _ W main_part5_ops0_p0_writes (by decide)).trans h_main_v20
  · exact (after_of_writes_sub _ W main_part5_ops0_p0_writes (by decide)).trans h_main_v218
  · simp only [main_part5_ops0_p0, after_cons, after_nil]
    rw [nary_result]
    show concatenate S4x512x512x3 3 [⟨S4x512x512x1, (W (Proc.devRef .tc main_v234))⟩, ⟨S4x512x512x1, (W (Proc.devRef .tc main_v235))⟩, ⟨S4x512x512x1, (W (Proc.devRef .tc main_v236))⟩] concatenates_S4x512x512x1_S4x512x512x1_S4x512x512x1_S4x512x512x3_d3 = _
    rw [h_main_v234, h_main_v235, h_main_v236]
    (try simp only [Cert.ReferenceIdeal.ReadP.val_main_v237])
    (try rfl)
  · exact (after_of_writes_sub _ W main_part5_ops0_p0_writes (by decide)).trans h_main_v25

/-- A piece of `main_part5_ops0`. -/
abbrev main_part5_ops0_p1 : List (HloOp τ sig (Elt F)) :=
  [ StableHlo.binary main_v1 main_v237 main_v238 ((fun x i => Host.gather gather_S8x3x33x33x33_S4x512x512x3_S8x3x4x512x512_01_234_n_n_234_3_83111 x i) : (⟨S8x3x33x33x33, .f32⟩ : BufTy).Contents (Elt F) → (⟨S4x512x512x3, .i32⟩ : BufTy).Contents (Elt F) → (⟨S8x3x4x512x512, .f32⟩ : BufTy).Contents (Elt F)),
    StableHlo.binary main_v25 main_v20 main_v239 (mulf : (⟨S4x512x512, .f32⟩ : BufTy).Contents (Elt F) → (⟨S4x512x512, .f32⟩ : BufTy).Contents (Elt F) → (⟨S4x512x512, .f32⟩ : BufTy).Contents (Elt F)),
    StableHlo.binary main_v239 main_v15 main_v240 (mulf : (⟨S4x512x512, .f32⟩ : BufTy).Contents (Elt F) → (⟨S4x512x512, .f32⟩ : BufTy).Contents (Elt F) → (⟨S4x512x512, .f32⟩ : BufTy).Contents (Elt F)),
    StableHlo.unary main_v240 main_v241 (broadcastInDim S1x1x4x512x512 ![2, 3, 4] bcast_S4x512x512_S1x1x4x512x512_2_3_4 : (⟨S4x512x512, .f32⟩ : BufTy).Contents (Elt F) → (⟨S1x1x4x512x512, .f32⟩ : BufTy).Contents (Elt F)),
    StableHlo.unary main_v241 main_v242 (broadcastInDim S8x3x4x512x512 ![0, 1, 2, 3, 4] bcast_S1x1x4x512x512_S8x3x4x512x512_0_1_2_3_4 : (⟨S1x1x4x512x512, .f32⟩ : BufTy).Contents (Elt F) → (⟨S8x3x4x512x512, .f32⟩ : BufTy).Contents (Elt F)),
    StableHlo.binary main_v238 main_v242 main_v243 (mulf : (⟨S8x3x4x512x512, .f32⟩ : BufTy).Contents (Elt F) → (⟨S8x3x4x512x512, .f32⟩ : BufTy).Contents (Elt F) → (⟨S8x3x4x512x512, .f32⟩ : BufTy).Contents (Elt F)),
    StableHlo.binary main_v218 main_v243 main_v244 (addf : (⟨S8x3x4x512x512, .f32⟩ : BufTy).Contents (Elt F) → (⟨S8x3x4x512x512, .f32⟩ : BufTy).Contents (Elt F) → (⟨S8x3x4x512x512, .f32⟩ : BufTy).Contents (Elt F)) ]
abbrev wr_main_part5_ops0_p1 : List (Ref sig .tc) := [main_v238, main_v239, main_v240, main_v241, main_v242, main_v243, main_v244]
set_option maxRecDepth 16384 in
set_option maxHeartbeats 40000000 in
theorem main_part5_ops0_p1_writes : (main_part5_ops0_p1 : List (HloOp τ sig (Elt F))).Forall fun op =>
    op.writes ⊆ (wr_main_part5_ops0_p1.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_main_part5_ops0_p1 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v15 : W (Proc.devRef .tc main_v15) = Cert.ReferenceIdeal.ReadP.val_main_v15 (F := F) x2)
    (h_main_v20 : W (Proc.devRef .tc main_v20) = Cert.ReferenceIdeal.ReadP.val_main_v20 (F := F) x2)
    (h_main_v218 : W (Proc.devRef .tc main_v218) = Cert.ReferenceIdeal.ReadP.val_main_v218 (F := F) x2 x3)
    (h_main_v237 : W (Proc.devRef .tc main_v237) = Cert.ReferenceIdeal.ReadP.val_main_v237 (F := F) x2)
    (h_main_v25 : W (Proc.devRef .tc main_v25) = Cert.ReferenceIdeal.ReadP.val_main_v25 (F := F) x2)
    : (after main_part5_ops0_p1 W (Proc.devRef .tc main_v244) = Cert.ReferenceIdeal.ReadP.val_main_v244 (F := F) x2 x3) := by
  · (simp only [main_part5_ops0_p1]; read_results; (try simp only [h_main_v1, h_main_v15, h_main_v20, h_main_v218, h_main_v237, h_main_v25, TRef.ofBuf, TRef.toBuf, cast_eq]);
     (try simp only [Cert.ReferenceIdeal.ReadP.val_main_v238, Cert.ReferenceIdeal.ReadP.val_main_v239, Cert.ReferenceIdeal.ReadP.val_main_v240, Cert.ReferenceIdeal.ReadP.val_main_v241, Cert.ReferenceIdeal.ReadP.val_main_v242, Cert.ReferenceIdeal.ReadP.val_main_v243, Cert.ReferenceIdeal.ReadP.val_main_v244]); (try rfl))

set_option maxRecDepth 16384 in
set_option maxHeartbeats 40000000 in
/-- `main_part0_ops0` is its pieces one after the other. -/
theorem main_part0_ops0_split : (main_part0_ops0 : List (HloOp τ sig (Elt F))) = main_part0_ops0_p0 := by rfl
set_option maxRecDepth 16384 in
set_option maxHeartbeats 40000000 in
/-- After `main_part0_ops0`: 4 buffers are still read later. -/
theorem stage_main_part0_ops0 (W : Valuation τ sig (Elt F)) (x2 : (⟨S4x3x512x512, .f32⟩ : BufTy).Contents (Elt F)) (x3 : (⟨S107811x8, .f32⟩ : BufTy).Contents (Elt F))
    (h_main_arg2 : W (Proc.devRef .tc main_arg2) = x2)
    (h_main_arg3 : W (Proc.devRef .tc main_arg3) = x3)
    : (after main_part0_ops0 W (Proc.devRef .tc main_cst_0) = Cert.ReferenceIdeal.ReadP.val_main_cst_0 (F := F))
      ∧ (after main_part0_ops0 W (Proc.devRef .tc main_cst_1) = Cert.ReferenceIdeal.ReadP.val_main_cst_1 (F := F))
      ∧ (after main_part0_ops0 W (Proc.devRef .tc main_v1) = Cert.ReferenceIdeal.ReadP.val_main_v1 (F := F) x3)
      ∧ (after main_part0_ops0 W (Proc.devRef .tc main_v3) = Cert.ReferenceIdeal.ReadP.val_main_v3 (F := F) x2) := by
  rw [main_part0_ops0_split]
  try simp only [StableHlo.after_append]
  obtain ⟨k0_main_cst_0, k0_main_cst_1, k0_main_v1, k0_main_v3⟩ := stage_main_part0_ops0_p0 W x2 x3 h_main_arg2 h_main_arg3
  exact ⟨k0_main_cst_0, k0_main_cst_1, k0_main_v1, k0_main_v3⟩

set_option maxRecDepth 16384 in
set_option maxHeartbeats 40000000 in
/-- `main_part0_ops1` is its pieces one after the other. -/
theorem main_part0_ops1_split : (main_part0_ops1 : List (HloOp τ sig (Elt F))) = main_part0_ops1_p0 := by rfl
set_option maxRecDepth 16384 in
set_option maxHeartbeats 40000000 in
/-- After `main_part0_ops1`: 2 buffers are still read later. -/
theorem stage_main_part0_ops1 (W : Valuation τ sig (Elt F)) (x2 : (⟨S4x3x512x512, .f32⟩ : BufTy).Contents (Elt F)) (x3 : (⟨S107811x8, .f32⟩ : BufTy).Contents (Elt F))
    (h_main_cst_0 : W (Proc.devRef .tc main_cst_0) = Cert.ReferenceIdeal.ReadP.val_main_cst_0 (F := F))
    (h_main_cst_1 : W (Proc.devRef .tc main_cst_1) = Cert.ReferenceIdeal.ReadP.val_main_cst_1 (F := F))
    (h_main_v1 : W (Proc.devRef .tc main_v1) = Cert.ReferenceIdeal.ReadP.val_main_v1 (F := F) x3)
    (h_main_v3 : W (Proc.devRef .tc main_v3) = Cert.ReferenceIdeal.ReadP.val_main_v3 (F := F) x2)
    : (after main_part0_ops1 W (Proc.devRef .tc main_v1) = Cert.ReferenceIdeal.ReadP.val_main_v1 (F := F) x3)
      ∧ (after main_part0_ops1 W (Proc.devRef .tc main_v4) = Cert.ReferenceIdeal.ReadP.val_main_v4 (F := F) x2) := by
  rw [main_part0_ops1_split]
  try simp only [StableHlo.after_append]
  obtain ⟨k0_main_v1, k0_main_v4⟩ := stage_main_part0_ops1_p0 W x2 x3 h_main_cst_0 h_main_cst_1 h_main_v1 h_main_v3
  exact ⟨k0_main_v1, k0_main_v4⟩

set_option maxRecDepth 16384 in
set_option maxHeartbeats 40000000 in
/-- `main_part0_ops2` is its pieces one after the other. -/
theorem main_part0_ops2_split : (main_part0_ops2 : List (HloOp τ sig (Elt F))) = main_part0_ops2_p0 := by rfl
set_option maxRecDepth 16384 in
set_option maxHeartbeats 40000000 in
/-- After `main_part0_ops2`: 7 buffers are still read later. -/
theorem stage_main_part0_ops2 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v4 : W (Proc.devRef .tc main_v4) = Cert.ReferenceIdeal.ReadP.val_main_v4 (F := F) x2)
    : (after main_part0_ops2 W (Proc.devRef .tc main_c) = Cert.ReferenceIdeal.ReadP.val_main_c (F := F))
      ∧ (after main_part0_ops2 W (Proc.devRef .tc main_c_2) = Cert.ReferenceIdeal.ReadP.val_main_c_2 (F := F))
      ∧ (after main_part0_ops2 W (Proc.devRef .tc main_v1) = Cert.ReferenceIdeal.ReadP.val_main_v1 (F := F) x3)
      ∧ (after main_part0_ops2 W (Proc.devRef .tc main_v10) = Cert.ReferenceIdeal.ReadP.val_main_v10 (F := F) x2)
      ∧ (after main_part0_ops2 W (Proc.devRef .tc main_v12) = Cert.ReferenceIdeal.ReadP.val_main_v12 (F := F) x2)
      ∧ (after main_part0_ops2 W (Proc.devRef .tc main_v6) = Cert.ReferenceIdeal.ReadP.val_main_v6 (F := F) x2)
      ∧ (after main_part0_ops2 W (Proc.devRef .tc main_v8) = Cert.ReferenceIdeal.ReadP.val_main_v8 (F := F) x2) := by
  rw [main_part0_ops2_split]
  try simp only [StableHlo.after_append]
  obtain ⟨k0_main_c, k0_main_c_2, k0_main_v1, k0_main_v10, k0_main_v12, k0_main_v6, k0_main_v8⟩ := stage_main_part0_ops2_p0 W x2 x3 h_main_v1 h_main_v4
  exact ⟨k0_main_c, k0_main_c_2, k0_main_v1, k0_main_v10, k0_main_v12, k0_main_v6, k0_main_v8⟩

set_option maxRecDepth 16384 in
set_option maxHeartbeats 40000000 in
/-- `main_part0_ops3` is its pieces one after the other. -/
theorem main_part0_ops3_split : (main_part0_ops3 : List (HloOp τ sig (Elt F))) = main_part0_ops3_p0 := by rfl
set_option maxRecDepth 16384 in
set_option maxHeartbeats 40000000 in
/-- After `main_part0_ops3`: 5 buffers are still read later. -/
theorem stage_main_part0_ops3 (W : Valuation τ sig (Elt F)) (x2 : (⟨S4x3x512x512, .f32⟩ : BufTy).Contents (Elt F)) (x3 : (⟨S107811x8, .f32⟩ : BufTy).Contents (Elt F))
    (h_main_c : W (Proc.devRef .tc main_c) = Cert.ReferenceIdeal.ReadP.val_main_c (F := F))
    (h_main_c_2 : W (Proc.devRef .tc main_c_2) = Cert.ReferenceIdeal.ReadP.val_main_c_2 (F := F))
    (h_main_v1 : W (Proc.devRef .tc main_v1) = Cert.ReferenceIdeal.ReadP.val_main_v1 (F := F) x3)
    (h_main_v10 : W (Proc.devRef .tc main_v10) = Cert.ReferenceIdeal.ReadP.val_main_v10 (F := F) x2)
    (h_main_v12 : W (Proc.devRef .tc main_v12) = Cert.ReferenceIdeal.ReadP.val_main_v12 (F := F) x2)
    (h_main_v6 : W (Proc.devRef .tc main_v6) = Cert.ReferenceIdeal.ReadP.val_main_v6 (F := F) x2)
    (h_main_v8 : W (Proc.devRef .tc main_v8) = Cert.ReferenceIdeal.ReadP.val_main_v8 (F := F) x2)
    : (after main_part0_ops3 W (Proc.devRef .tc main_v1) = Cert.ReferenceIdeal.ReadP.val_main_v1 (F := F) x3)
      ∧ (after main_part0_ops3 W (Proc.devRef .tc main_v10) = Cert.ReferenceIdeal.ReadP.val_main_v10 (F := F) x2)
      ∧ (after main_part0_ops3 W (Proc.devRef .tc main_v13) = Cert.ReferenceIdeal.ReadP.val_main_v13 (F := F) x2)
      ∧ (after main_part0_ops3 W (Proc.devRef .tc main_v6) = Cert.ReferenceIdeal.ReadP.val_main_v6 (F := F) x2)
      ∧ (after main_part0_ops3 W (Proc.devRef .tc main_v8) = Cert.ReferenceIdeal.ReadP.val_main_v8 (F := F) x2) := by
  rw [main_part0_ops3_split]
  try simp only [StableHlo.after_append]
  obtain ⟨k0_main_v1, k0_main_v10, k0_main_v13, k0_main_v6, k0_main_v8⟩ := stage_main_part0_ops3_p0 W x2 x3 h_main_c h_main_c_2 h_main_v1 h_main_v10 h_main_v12 h_main_v6 h_main_v8
  exact ⟨k0_main_v1, k0_main_v10, k0_main_v13, k0_main_v6, k0_main_v8⟩

set_option maxRecDepth 16384 in
set_option maxHeartbeats 40000000 in
/-- `main_part0_ops4` is its pieces one after the other. -/
theorem main_part0_ops4_split : (main_part0_ops4 : List (HloOp τ sig (Elt F))) = main_part0_ops4_p0 := by rfl
set_option maxRecDepth 16384 in
set_option maxHeartbeats 40000000 in
/-- After `main_part0_ops4`: 8 buffers are still read later. -/
theorem stage_main_part0_ops4 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v10 : W (Proc.devRef .tc main_v10) = Cert.ReferenceIdeal.ReadP.val_main_v10 (F := F) x2)
    (h_main_v13 : W (Proc.devRef .tc main_v13) = Cert.ReferenceIdeal.ReadP.val_main_v13 (F := F) x2)
    (h_main_v6 : W (Proc.devRef .tc main_v6) = Cert.ReferenceIdeal.ReadP.val_main_v6 (F := F) x2)
    (h_main_v8 : W (Proc.devRef .tc main_v8) = Cert.ReferenceIdeal.ReadP.val_main_v8 (F := F) x2)
    : (after main_part0_ops4 W (Proc.devRef .tc main_c_3) = Cert.ReferenceIdeal.ReadP.val_main_c_3 (F := F))
      ∧ (after main_part0_ops4 W (Proc.devRef .tc main_c_4) = Cert.ReferenceIdeal.ReadP.val_main_c_4 (F := F))
      ∧ (after main_part0_ops4 W (Proc.devRef .tc main_v1) = Cert.ReferenceIdeal.ReadP.val_main_v1 (F := F) x3)
      ∧ (after main_part0_ops4 W (Proc.devRef .tc main_v10) = Cert.ReferenceIdeal.ReadP.val_main_v10 (F := F) x2)
      ∧ (after main_part0_ops4 W (Proc.devRef .tc main_v13) = Cert.ReferenceIdeal.ReadP.val_main_v13 (F := F) x2)
      ∧ (after main_part0_ops4 W (Proc.devRef .tc main_v15) = Cert.ReferenceIdeal.ReadP.val_main_v15 (F := F) x2)
      ∧ (after main_part0_ops4 W (Proc.devRef .tc main_v17) = Cert.ReferenceIdeal.ReadP.val_main_v17 (F := F) x2)
      ∧ (after main_part0_ops4 W (Proc.devRef .tc main_v8) = Cert.ReferenceIdeal.ReadP.val_main_v8 (F := F) x2) := by
  rw [main_part0_ops4_split]
  try simp only [StableHlo.after_append]
  obtain ⟨k0_main_c_3, k0_main_c_4, k0_main_v1, k0_main_v10, k0_main_v13, k0_main_v15, k0_main_v17, k0_main_v8⟩ := stage_main_part0_ops4_p0 W x2 x3 h_main_v1 h_main_v10 h_main_v13 h_main_v6 h_main_v8
  exact ⟨k0_main_c_3, k0_main_c_4, k0_main_v1, k0_main_v10, k0_main_v13, k0_main_v15, k0_main_v17, k0_main_v8⟩

set_option maxRecDepth 16384 in
set_option maxHeartbeats 40000000 in
/-- `main_part0_ops5` is its pieces one after the other. -/
theorem main_part0_ops5_split : (main_part0_ops5 : List (HloOp τ sig (Elt F))) = main_part0_ops5_p0 := by rfl
set_option maxRecDepth 16384 in
set_option maxHeartbeats 40000000 in
/-- After `main_part0_ops5`: 6 buffers are still read later. -/
theorem stage_main_part0_ops5 (W : Valuation τ sig (Elt F)) (x2 : (⟨S4x3x512x512, .f32⟩ : BufTy).Contents (Elt F)) (x3 : (⟨S107811x8, .f32⟩ : BufTy).Contents (Elt F))
    (h_main_c_3 : W (Proc.devRef .tc main_c_3) = Cert.ReferenceIdeal.ReadP.val_main_c_3 (F := F))
    (h_main_c_4 : W (Proc.devRef .tc main_c_4) = Cert.ReferenceIdeal.ReadP.val_main_c_4 (F := F))
    (h_main_v1 : W (Proc.devRef .tc main_v1) = Cert.ReferenceIdeal.ReadP.val_main_v1 (F := F) x3)
    (h_main_v10 : W (Proc.devRef .tc main_v10) = Cert.ReferenceIdeal.ReadP.val_main_v10 (F := F) x2)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v17 : W (Proc.devRef .tc main_v17) = Cert.ReferenceIdeal.ReadP.val_main_v17 (F := F) x2)
    (h_main_v8 : W (Proc.devRef .tc main_v8) = Cert.ReferenceIdeal.ReadP.val_main_v8 (F := F) x2)
    : (after main_part0_ops5 W (Proc.devRef .tc main_v1) = Cert.ReferenceIdeal.ReadP.val_main_v1 (F := F) x3)
      ∧ (after main_part0_ops5 W (Proc.devRef .tc main_v10) = Cert.ReferenceIdeal.ReadP.val_main_v10 (F := F) x2)
      ∧ (after main_part0_ops5 W (Proc.devRef .tc main_v13) = Cert.ReferenceIdeal.ReadP.val_main_v13 (F := F) x2)
      ∧ (after main_part0_ops5 W (Proc.devRef .tc main_v15) = Cert.ReferenceIdeal.ReadP.val_main_v15 (F := F) x2)
      ∧ (after main_part0_ops5 W (Proc.devRef .tc main_v18) = Cert.ReferenceIdeal.ReadP.val_main_v18 (F := F) x2)
      ∧ (after main_part0_ops5 W (Proc.devRef .tc main_v8) = Cert.ReferenceIdeal.ReadP.val_main_v8 (F := F) x2) := by
  rw [main_part0_ops5_split]
  try simp only [StableHlo.after_append]
  obtain ⟨k0_main_v1, k0_main_v10, k0_main_v13, k0_main_v15, k0_main_v18, k0_main_v8⟩ := stage_main_part0_ops5_p0 W x2 x3 h_main_c_3 h_main_c_4 h_main_v1 h_main_v10 h_main_v13 h_main_v15 h_main_v17 h_main_v8
  exact ⟨k0_main_v1, k0_main_v10, k0_main_v13, k0_main_v15, k0_main_v18, k0_main_v8⟩

set_option maxRecDepth 16384 in
set_option maxHeartbeats 40000000 in
/-- `main_part0_ops6` is its pieces one after the other. -/
theorem main_part0_ops6_split : (main_part0_ops6 : List (HloOp τ sig (Elt F))) = main_part0_ops6_p0 := by rfl
set_option maxRecDepth 16384 in
set_option maxHeartbeats 40000000 in
/-- After `main_part0_ops6`: 9 buffers are still read later. -/
theorem stage_main_part0_ops6 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v10 : W (Proc.devRef .tc main_v10) = Cert.ReferenceIdeal.ReadP.val_main_v10 (F := F) x2)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v8 : W (Proc.devRef .tc main_v8) = Cert.ReferenceIdeal.ReadP.val_main_v8 (F := F) x2)
    : (after main_part0_ops6 W (Proc.devRef .tc main_c_5) = Cert.ReferenceIdeal.ReadP.val_main_c_5 (F := F))
      ∧ (after main_part0_ops6 W (Proc.devRef .tc main_c_6) = Cert.ReferenceIdeal.ReadP.val_main_c_6 (F := F))
      ∧ (after main_part0_ops6 W (Proc.devRef .tc main_v1) = Cert.ReferenceIdeal.ReadP.val_main_v1 (F := F) x3)
      ∧ (after main_part0_ops6 W (Proc.devRef .tc main_v10) = Cert.ReferenceIdeal.ReadP.val_main_v10 (F := F) x2)
      ∧ (after main_part0_ops6 W (Proc.devRef .tc main_v13) = Cert.ReferenceIdeal.ReadP.val_main_v13 (F := F) x2)
      ∧ (after main_part0_ops6 W (Proc.devRef .tc main_v15) = Cert.ReferenceIdeal.ReadP.val_main_v15 (F := F) x2)
      ∧ (after main_part0_ops6 W (Proc.devRef .tc main_v18) = Cert.ReferenceIdeal.ReadP.val_main_v18 (F := F) x2)
      ∧ (after main_part0_ops6 W (Proc.devRef .tc main_v20) = Cert.ReferenceIdeal.ReadP.val_main_v20 (F := F) x2)
      ∧ (after main_part0_ops6 W (Proc.devRef .tc main_v22) = Cert.ReferenceIdeal.ReadP.val_main_v22 (F := F) x2) := by
  rw [main_part0_ops6_split]
  try simp only [StableHlo.after_append]
  obtain ⟨k0_main_c_5, k0_main_c_6, k0_main_v1, k0_main_v10, k0_main_v13, k0_main_v15, k0_main_v18, k0_main_v20, k0_main_v22⟩ := stage_main_part0_ops6_p0 W x2 x3 h_main_v1 h_main_v10 h_main_v13 h_main_v15 h_main_v18 h_main_v8
  exact ⟨k0_main_c_5, k0_main_c_6, k0_main_v1, k0_main_v10, k0_main_v13, k0_main_v15, k0_main_v18, k0_main_v20, k0_main_v22⟩

set_option maxRecDepth 16384 in
set_option maxHeartbeats 40000000 in
/-- `main_part0_ops7` is its pieces one after the other. -/
theorem main_part0_ops7_split : (main_part0_ops7 : List (HloOp τ sig (Elt F))) = main_part0_ops7_p0 := by rfl
set_option maxRecDepth 16384 in
set_option maxHeartbeats 40000000 in
/-- After `main_part0_ops7`: 7 buffers are still read later. -/
theorem stage_main_part0_ops7 (W : Valuation τ sig (Elt F)) (x2 : (⟨S4x3x512x512, .f32⟩ : BufTy).Contents (Elt F)) (x3 : (⟨S107811x8, .f32⟩ : BufTy).Contents (Elt F))
    (h_main_c_5 : W (Proc.devRef .tc main_c_5) = Cert.ReferenceIdeal.ReadP.val_main_c_5 (F := F))
    (h_main_c_6 : W (Proc.devRef .tc main_c_6) = Cert.ReferenceIdeal.ReadP.val_main_c_6 (F := F))
    (h_main_v1 : W (Proc.devRef .tc main_v1) = Cert.ReferenceIdeal.ReadP.val_main_v1 (F := F) x3)
    (h_main_v10 : W (Proc.devRef .tc main_v10) = Cert.ReferenceIdeal.ReadP.val_main_v10 (F := F) x2)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v22 : W (Proc.devRef .tc main_v22) = Cert.ReferenceIdeal.ReadP.val_main_v22 (F := F) x2)
    : (after main_part0_ops7 W (Proc.devRef .tc main_v1) = Cert.ReferenceIdeal.ReadP.val_main_v1 (F := F) x3)
      ∧ (after main_part0_ops7 W (Proc.devRef .tc main_v10) = Cert.ReferenceIdeal.ReadP.val_main_v10 (F := F) x2)
      ∧ (after main_part0_ops7 W (Proc.devRef .tc main_v13) = Cert.ReferenceIdeal.ReadP.val_main_v13 (F := F) x2)
      ∧ (after main_part0_ops7 W (Proc.devRef .tc main_v15) = Cert.ReferenceIdeal.ReadP.val_main_v15 (F := F) x2)
      ∧ (after main_part0_ops7 W (Proc.devRef .tc main_v18) = Cert.ReferenceIdeal.ReadP.val_main_v18 (F := F) x2)
      ∧ (after main_part0_ops7 W (Proc.devRef .tc main_v20) = Cert.ReferenceIdeal.ReadP.val_main_v20 (F := F) x2)
      ∧ (after main_part0_ops7 W (Proc.devRef .tc main_v23) = Cert.ReferenceIdeal.ReadP.val_main_v23 (F := F) x2) := by
  rw [main_part0_ops7_split]
  try simp only [StableHlo.after_append]
  obtain ⟨k0_main_v1, k0_main_v10, k0_main_v13, k0_main_v15, k0_main_v18, k0_main_v20, k0_main_v23⟩ := stage_main_part0_ops7_p0 W x2 x3 h_main_c_5 h_main_c_6 h_main_v1 h_main_v10 h_main_v13 h_main_v15 h_main_v18 h_main_v20 h_main_v22
  exact ⟨k0_main_v1, k0_main_v10, k0_main_v13, k0_main_v15, k0_main_v18, k0_main_v20, k0_main_v23⟩

set_option maxRecDepth 16384 in
set_option maxHeartbeats 40000000 in
/-- `main_part0_ops8` is its pieces one after the other. -/
theorem main_part0_ops8_split : (main_part0_ops8 : List (HloOp τ sig (Elt F))) = main_part0_ops8_p0 ++ main_part0_ops8_p1 := by rfl
set_option maxRecDepth 16384 in
set_option maxHeartbeats 40000000 in
/-- After `main_part0_ops8`: 14 buffers are still read later. -/
theorem stage_main_part0_ops8 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v10 : W (Proc.devRef .tc main_v10) = Cert.ReferenceIdeal.ReadP.val_main_v10 (F := F) x2)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v23 : W (Proc.devRef .tc main_v23) = Cert.ReferenceIdeal.ReadP.val_main_v23 (F := F) x2)
    : (after main_part0_ops8 W (Proc.devRef .tc main_v1) = Cert.ReferenceIdeal.ReadP.val_main_v1 (F := F) x3)
      ∧ (after main_part0_ops8 W (Proc.devRef .tc main_v13) = Cert.ReferenceIdeal.ReadP.val_main_v13 (F := F) x2)
      ∧ (after main_part0_ops8 W (Proc.devRef .tc main_v15) = Cert.ReferenceIdeal.ReadP.val_main_v15 (F := F) x2)
      ∧ (after main_part0_ops8 W (Proc.devRef .tc main_v18) = Cert.ReferenceIdeal.ReadP.val_main_v18 (F := F) x2)
      ∧ (after main_part0_ops8 W (Proc.devRef .tc main_v20) = Cert.ReferenceIdeal.ReadP.val_main_v20 (F := F) x2)
      ∧ (after main_part0_ops8 W (Proc.devRef .tc main_v23) = Cert.ReferenceIdeal.ReadP.val_main_v23 (F := F) x2)
      ∧ (after main_part0_ops8 W (Proc.devRef .tc main_v25) = Cert.ReferenceIdeal.ReadP.val_main_v25 (F := F) x2)
      ∧ (after main_part0_ops8 W (Proc.devRef .tc main_v27) = Cert.ReferenceIdeal.ReadP.val_main_v27 (F := F) x2)
      ∧ (after main_part0_ops8 W (Proc.devRef .tc main_v29) = Cert.ReferenceIdeal.ReadP.val_main_v29 (F := F) x2)
      ∧ (after main_part0_ops8 W (Proc.devRef .tc main_v31) = Cert.ReferenceIdeal.ReadP.val_main_v31 (F := F) x2)
      ∧ (after main_part0_ops8 W (Proc.devRef .tc main_v33) = Cert.ReferenceIdeal.ReadP.val_main_v33 (F := F) x2)
      ∧ (after main_part0_ops8 W (Proc.devRef .tc main_v35) = Cert.ReferenceIdeal.ReadP.val_main_v35 (F := F) x2)
      ∧ (after main_part0_ops8 W (Proc.devRef .tc main_v37) = Cert.ReferenceIdeal.ReadP.val_main_v37 (F := F) x2)
      ∧ (after main_part0_ops8 W (Proc.devRef .tc main_v42) = Cert.ReferenceIdeal.ReadP.val_main_v42 (F := F) x2) := by
  rw [main_part0_ops8_split]
  try simp only [StableHlo.after_append]
  obtain ⟨k0_main_c_14, k0_main_v1, k0_main_v13, k0_main_v15, k0_main_v18, k0_main_v20, k0_main_v23, k0_main_v25, k0_main_v27, k0_main_v29, k0_main_v31, k0_main_v33, k0_main_v35, k0_main_v37, k0_main_v39⟩ := stage_main_part0_ops8_p0 W x2 x3 h_main_v1 h_main_v10 h_main_v13 h_main_v15 h_main_v18 h_main_v20 h_main_v23
  obtain ⟨k1_main_v1, k1_main_v13, k1_main_v15, k1_main_v18, k1_main_v20, k1_main_v23, k1_main_v25, k1_main_v27, k1_main_v29, k1_main_v31, k1_main_v33, k1_main_v35, k1_main_v37, k1_main_v42⟩ := stage_main_part0_ops8_p1 (after main_part0_ops8_p0 W) x2 x3 k0_main_c_14 k0_main_v1 k0_main_v13 k0_main_v15 k0_main_v18 k0_main_v20 k0_main_v23 k0_main_v25 k0_main_v27 k0_main_v29 k0_main_v31 k0_main_v33 k0_main_v35 k0_main_v37 k0_main_v39
  exact ⟨k1_main_v1, k1_main_v13, k1_main_v15, k1_main_v18, k1_main_v20, k1_main_v23, k1_main_v25, k1_main_v27, k1_main_v29, k1_main_v31, k1_main_v33, k1_main_v35, k1_main_v37, k1_main_v42⟩

set_option maxRecDepth 16384 in
set_option maxHeartbeats 40000000 in
/-- `main_part1_ops0` is its pieces one after the other. -/
theorem main_part1_ops0_split : (main_part1_ops0 : List (HloOp τ sig (Elt F))) = main_part1_ops0_p0 ++ (main_part1_ops0_p1 ++ (main_part1_ops0_p2 ++ (main_part1_ops0_p3 ++ (main_part1_ops0_p4 ++ (main_part1_ops0_p5))))) := by rfl
set_option maxRecDepth 16384 in
set_option maxHeartbeats 40000000 in
/-- After `main_part1_ops0`: 16 buffers are still read later. -/
theorem stage_main_part1_ops0 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v23 : W (Proc.devRef .tc main_v23) = Cert.ReferenceIdeal.ReadP.val_main_v23 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    (h_main_v42 : W (Proc.devRef .tc main_v42) = Cert.ReferenceIdeal.ReadP.val_main_v42 (F := F) x2)
    : (after main_part1_ops0 W (Proc.devRef .tc main_c_26) = Cert.ReferenceIdeal.ReadP.val_main_c_26 (F := F))
      ∧ (after main_part1_ops0 W (Proc.devRef .tc main_v1) = Cert.ReferenceIdeal.ReadP.val_main_v1 (F := F) x3)
      ∧ (after main_part1_ops0 W (Proc.devRef .tc main_v13) = Cert.ReferenceIdeal.ReadP.val_main_v13 (F := F) x2)
      ∧ (after main_part1_ops0 W (Proc.devRef .tc main_v15) = Cert.ReferenceIdeal.ReadP.val_main_v15 (F := F) x2)
      ∧ (after main_part1_ops0 W (Proc.devRef .tc main_v18) = Cert.ReferenceIdeal.ReadP.val_main_v18 (F := F) x2)
      ∧ (after main_part1_ops0 W (Proc.devRef .tc main_v20) = Cert.ReferenceIdeal.ReadP.val_main_v20 (F := F) x2)
      ∧ (after main_part1_ops0 W (Proc.devRef .tc main_v23) = Cert.ReferenceIdeal.ReadP.val_main_v23 (F := F) x2)
      ∧ (after main_part1_ops0 W (Proc.devRef .tc main_v25) = Cert.ReferenceIdeal.ReadP.val_main_v25 (F := F) x2)
      ∧ (after main_part1_ops0 W (Proc.devRef .tc main_v27) = Cert.ReferenceIdeal.ReadP.val_main_v27 (F := F) x2)
      ∧ (after main_part1_ops0 W (Proc.devRef .tc main_v29) = Cert.ReferenceIdeal.ReadP.val_main_v29 (F := F) x2)
      ∧ (after main_part1_ops0 W (Proc.devRef .tc main_v31) = Cert.ReferenceIdeal.ReadP.val_main_v31 (F := F) x2)
      ∧ (after main_part1_ops0 W (Proc.devRef .tc main_v33) = Cert.ReferenceIdeal.ReadP.val_main_v33 (F := F) x2)
      ∧ (after main_part1_ops0 W (Proc.devRef .tc main_v35) = Cert.ReferenceIdeal.ReadP.val_main_v35 (F := F) x2)
      ∧ (after main_part1_ops0 W (Proc.devRef .tc main_v37) = Cert.ReferenceIdeal.ReadP.val_main_v37 (F := F) x2)
      ∧ (after main_part1_ops0 W (Proc.devRef .tc main_v88) = Cert.ReferenceIdeal.ReadP.val_main_v88 (F := F) x2 x3)
      ∧ (after main_part1_ops0 W (Proc.devRef .tc main_v90) = Cert.ReferenceIdeal.ReadP.val_main_v90 (F := F) x2) := by
  rw [main_part1_ops0_split]
  try simp only [StableHlo.after_append]
  obtain ⟨k0_main_v1, k0_main_v13, k0_main_v15, k0_main_v18, k0_main_v20, k0_main_v23, k0_main_v25, k0_main_v27, k0_main_v29, k0_main_v31, k0_main_v33, k0_main_v35, k0_main_v37, k0_main_v53, k0_main_v54, k0_main_v55⟩ := stage_main_part1_ops0_p0 W x2 x3 h_main_v1 h_main_v13 h_main_v15 h_main_v18 h_main_v20 h_main_v23 h_main_v25 h_main_v27 h_main_v29 h_main_v31 h_main_v33 h_main_v35 h_main_v37 h_main_v42
  obtain ⟨k1_main_v1, k1_main_v13, k1_main_v15, k1_main_v18, k1_main_v20, k1_main_v23, k1_main_v25, k1_main_v27, k1_main_v29, k1_main_v31, k1_main_v33, k1_main_v35, k1_main_v37, k1_main_v56⟩ := stage_main_part1_ops0_p1 (after main_part1_ops0_p0 W) x2 x3 k0_main_v1 k0_main_v13 k0_main_v15 k0_main_v18 k0_main_v20 k0_main_v23 k0_main_v25 k0_main_v27 k0_main_v29 k0_main_v31 k0_main_v33 k0_main_v35 k0_main_v37 k0_main_v53 k0_main_v54 k0_main_v55
  obtain ⟨k2_main_c_24, k2_main_v1, k2_main_v13, k2_main_v15, k2_main_v18, k2_main_v20, k2_main_v23, k2_main_v25, k2_main_v27, k2_main_v29, k2_main_v31, k2_main_v33, k2_main_v35, k2_main_v37, k2_main_v62, k2_main_v67, k2_main_v72, k2_main_v74⟩ := stage_main_part1_ops0_p2 (after main_part1_ops0_p1 (after main_part1_ops0_p0 W)) x2 x3 k1_main_v1 k1_main_v13 k1_main_v15 k1_main_v18 k1_main_v20 k1_main_v23 k1_main_v25 k1_main_v27 k1_main_v29 k1_main_v31 k1_main_v33 k1_main_v35 k1_main_v37 k1_main_v56
  obtain ⟨k3_main_v1, k3_main_v13, k3_main_v15, k3_main_v18, k3_main_v20, k3_main_v23, k3_main_v25, k3_main_v27, k3_main_v29, k3_main_v31, k3_main_v33, k3_main_v35, k3_main_v37, k3_main_v62, k3_main_v78, k3_main_v79, k3_main_v80⟩ := stage_main_part1_ops0_p3 (after main_part1_ops0_p2 (after main_part1_ops0_p1 (after main_part1_ops0_p0 W))) x2 x3 k2_main_c_24 k2_main_v1 k2_main_v13 k2_main_v15 k2_main_v18 k2_main_v20 k2_main_v23 k2_main_v25 k2_main_v27 k2_main_v29 k2_main_v31 k2_main_v33 k2_main_v35 k2_main_v37 k2_main_v62 k2_main_v67 k2_main_v72 k2_main_v74
  obtain ⟨k4_main_v1, k4_main_v13, k4_main_v15, k4_main_v18, k4_main_v20, k4_main_v23, k4_main_v25, k4_main_v27, k4_main_v29, k4_main_v31, k4_main_v33, k4_main_v35, k4_main_v37, k4_main_v62, k4_main_v81⟩ := stage_main_part1_ops0_p4 (after main_part1_ops0_p3 (after main_part1_ops0_p2 (after main_part1_ops0_p1 (after main_part1_ops0_p0 W)))) x2 x3 k3_main_v1 k3_main_v13 k3_main_v15 k3_main_v18 k3_main_v20 k3_main_v23 k3_main_v25 k3_main_v27 k3_main_v29 k3_main_v31 k3_main_v33 k3_main_v35 k3_main_v37 k3_main_v62 k3_main_v78 k3_main_v79 k3_main_v80
  obtain ⟨k5_main_c_26, k5_main_v1, k5_main_v13, k5_main_v15, k5_main_v18, k5_main_v20, k5_main_v23, k5_main_v25, k5_main_v27, k5_main_v29, k5_main_v31, k5_main_v33, k5_main_v35, k5_main_v37, k5_main_v88, k5_main_v90⟩ := stage_main_part1_ops0_p5 (after main_part1_ops0_p4 (after main_part1_ops0_p3 (after main_part1_ops0_p2 (after main_part1_ops0_p1 (after main_part1_ops0_p0 W))))) x2 x3 k4_main_v1 k4_main_v13 k4_main_v15 k4_main_v18 k4_main_v20 k4_main_v23 k4_main_v25 k4_main_v27 k4_main_v29 k4_main_v31 k4_main_v33 k4_main_v35 k4_main_v37 k4_main_v62 k4_main_v81
  exact ⟨k5_main_c_26, k5_main_v1, k5_main_v13, k5_main_v15, k5_main_v18, k5_main_v20, k5_main_v23, k5_main_v25, k5_main_v27, k5_main_v29, k5_main_v31, k5_main_v33, k5_main_v35, k5_main_v37, k5_main_v88, k5_main_v90⟩

set_option maxRecDepth 16384 in
set_option maxHeartbeats 40000000 in
/-- `main_part2_ops0` is its pieces one after the other. -/
theorem main_part2_ops0_split : (main_part2_ops0 : List (HloOp τ sig (Elt F))) = main_part2_ops0_p0 ++ (main_part2_ops0_p1 ++ (main_part2_ops0_p2 ++ (main_part2_ops0_p3 ++ (main_part2_ops0_p4 ++ (main_part2_ops0_p5))))) := by rfl
set_option maxRecDepth 16384 in
set_option maxHeartbeats 40000000 in
/-- After `main_part2_ops0`: 12 buffers are still read later. -/
theorem stage_main_part2_ops0 (W : Valuation τ sig (Elt F)) (x2 : (⟨S4x3x512x512, .f32⟩ : BufTy).Contents (Elt F)) (x3 : (⟨S107811x8, .f32⟩ : BufTy).Contents (Elt F))
    (h_main_c_26 : W (Proc.devRef .tc main_c_26) = Cert.ReferenceIdeal.ReadP.val_main_c_26 (F := F))
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v23 : W (Proc.devRef .tc main_v23) = Cert.ReferenceIdeal.ReadP.val_main_v23 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    (h_main_v88 : W (Proc.devRef .tc main_v88) = Cert.ReferenceIdeal.ReadP.val_main_v88 (F := F) x2 x3)
    (h_main_v90 : W (Proc.devRef .tc main_v90) = Cert.ReferenceIdeal.ReadP.val_main_v90 (F := F) x2)
    : (after main_part2_ops0 W (Proc.devRef .tc main_v1) = Cert.ReferenceIdeal.ReadP.val_main_v1 (F := F) x3)
      ∧ (after main_part2_ops0 W (Proc.devRef .tc main_v13) = Cert.ReferenceIdeal.ReadP.val_main_v13 (F := F) x2)
      ∧ (after main_part2_ops0 W (Proc.devRef .tc main_v140) = Cert.ReferenceIdeal.ReadP.val_main_v140 (F := F) x2 x3)
      ∧ (after main_part2_ops0 W (Proc.devRef .tc main_v15) = Cert.ReferenceIdeal.ReadP.val_main_v15 (F := F) x2)
      ∧ (after main_part2_ops0 W (Proc.devRef .tc main_v18) = Cert.ReferenceIdeal.ReadP.val_main_v18 (F := F) x2)
      ∧ (after main_part2_ops0 W (Proc.devRef .tc main_v20) = Cert.ReferenceIdeal.ReadP.val_main_v20 (F := F) x2)
      ∧ (after main_part2_ops0 W (Proc.devRef .tc main_v25) = Cert.ReferenceIdeal.ReadP.val_main_v25 (F := F) x2)
      ∧ (after main_part2_ops0 W (Proc.devRef .tc main_v27) = Cert.ReferenceIdeal.ReadP.val_main_v27 (F := F) x2)
      ∧ (after main_part2_ops0 W (Proc.devRef .tc main_v29) = Cert.ReferenceIdeal.ReadP.val_main_v29 (F := F) x2)
      ∧ (after main_part2_ops0 W (Proc.devRef .tc main_v31) = Cert.ReferenceIdeal.ReadP.val_main_v31 (F := F) x2)
      ∧ (after main_part2_ops0 W (Proc.devRef .tc main_v33) = Cert.ReferenceIdeal.ReadP.val_main_v33 (F := F) x2)
      ∧ (after main_part2_ops0 W (Proc.devRef .tc main_v35) = Cert.ReferenceIdeal.ReadP.val_main_v35 (F := F) x2) := by
  rw [main_part2_ops0_split]
  try simp only [StableHlo.after_append]
  obtain ⟨k0_main_v1, k0_main_v104, k0_main_v105, k0_main_v106, k0_main_v13, k0_main_v15, k0_main_v18, k0_main_v20, k0_main_v23, k0_main_v25, k0_main_v27, k0_main_v29, k0_main_v31, k0_main_v33, k0_main_v35, k0_main_v37, k0_main_v88⟩ := stage_main_part2_ops0_p0 W x2 x3 h_main_c_26 h_main_v1 h_main_v13 h_main_v15 h_main_v18 h_main_v20 h_main_v23 h_main_v25 h_main_v27 h_main_v29 h_main_v31 h_main_v33 h_main_v35 h_main_v37 h_main_v88 h_main_v90
  obtain ⟨k1_main_v1, k1_main_v107, k1_main_v13, k1_main_v15, k1_main_v18, k1_main_v20, k1_main_v23, k1_main_v25, k1_main_v27, k1_main_v29, k1_main_v31, k1_main_v33, k1_main_v35, k1_main_v37, k1_main_v88⟩ := stage_main_part2_ops0_p1 (after main_part2_ops0_p0 W) x2 x3 k0_main_v1 k0_main_v104 k0_main_v105 k0_main_v106 k0_main_v13 k0_main_v15 k0_main_v18 k0_main_v20 k0_main_v23 k0_main_v25 k0_main_v27 k0_main_v29 k0_main_v31 k0_main_v33 k0_main_v35 k0_main_v37 k0_main_v88
  obtain ⟨k2_main_v1, k2_main_v114, k2_main_v119, k2_main_v124, k2_main_v126, k2_main_v13, k2_main_v15, k2_main_v18, k2_main_v20, k2_main_v25, k2_main_v27, k2_main_v29, k2_main_v31, k2_main_v33, k2_main_v35, k2_main_v37⟩ := stage_main_part2_ops0_p2 (after main_part2_ops0_p1 (after main_part2_ops0_p0 W)) x2 x3 k1_main_v1 k1_main_v107 k1_main_v13 k1_main_v15 k1_main_v18 k1_main_v20 k1_main_v23 k1_main_v25 k1_main_v27 k1_main_v29 k1_main_v31 k1_main_v33 k1_main_v35 k1_main_v37 k1_main_v88
  obtain ⟨k3_main_v1, k3_main_v114, k3_main_v13, k3_main_v130, k3_main_v131, k3_main_v132, k3_main_v15, k3_main_v18, k3_main_v20, k3_main_v25, k3_main_v27, k3_main_v29, k3_main_v31, k3_main_v33, k3_main_v35, k3_main_v37⟩ := stage_main_part2_ops0_p3 (after main_part2_ops0_p2 (after main_part2_ops0_p1 (after main_part2_ops0_p0 W))) x2 x3 k2_main_v1 k2_main_v114 k2_main_v119 k2_main_v124 k2_main_v126 k2_main_v13 k2_main_v15 k2_main_v18 k2_main_v20 k2_main_v25 k2_main_v27 k2_main_v29 k2_main_v31 k2_main_v33 k2_main_v35 k2_main_v37
  obtain ⟨k4_main_v1, k4_main_v114, k4_main_v13, k4_main_v133, k4_main_v15, k4_main_v18, k4_main_v20, k4_main_v25, k4_main_v27, k4_main_v29, k4_main_v31, k4_main_v33, k4_main_v35, k4_main_v37⟩ := stage_main_part2_ops0_p4 (after main_part2_ops0_p3 (after main_part2_ops0_p2 (after main_part2_ops0_p1 (after main_part2_ops0_p0 W)))) x2 x3 k3_main_v1 k3_main_v114 k3_main_v13 k3_main_v130 k3_main_v131 k3_main_v132 k3_main_v15 k3_main_v18 k3_main_v20 k3_main_v25 k3_main_v27 k3_main_v29 k3_main_v31 k3_main_v33 k3_main_v35 k3_main_v37
  obtain ⟨k5_main_v1, k5_main_v13, k5_main_v140, k5_main_v15, k5_main_v18, k5_main_v20, k5_main_v25, k5_main_v27, k5_main_v29, k5_main_v31, k5_main_v33, k5_main_v35⟩ := stage_main_part2_ops0_p5 (after main_part2_ops0_p4 (after main_part2_ops0_p3 (after main_part2_ops0_p2 (after main_part2_ops0_p1 (after main_part2_ops0_p0 W))))) x2 x3 k4_main_v1 k4_main_v114 k4_main_v13 k4_main_v133 k4_main_v15 k4_main_v18 k4_main_v20 k4_main_v25 k4_main_v27 k4_main_v29 k4_main_v31 k4_main_v33 k4_main_v35 k4_main_v37
  exact ⟨k5_main_v1, k5_main_v13, k5_main_v140, k5_main_v15, k5_main_v18, k5_main_v20, k5_main_v25, k5_main_v27, k5_main_v29, k5_main_v31, k5_main_v33, k5_main_v35⟩

set_option maxRecDepth 16384 in
set_option maxHeartbeats 40000000 in
/-- `main_part3_ops0` is its pieces one after the other. -/
theorem main_part3_ops0_split : (main_part3_ops0 : List (HloOp τ sig (Elt F))) = main_part3_ops0_p0 ++ (main_part3_ops0_p1 ++ (main_part3_ops0_p2 ++ (main_part3_ops0_p3 ++ (main_part3_ops0_p4 ++ (main_part3_ops0_p5))))) := by rfl
set_option maxRecDepth 16384 in
set_option maxHeartbeats 40000000 in
/-- After `main_part3_ops0`: 12 buffers are still read later. -/
theorem stage_main_part3_ops0 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v140 : W (Proc.devRef .tc main_v140) = Cert.ReferenceIdeal.ReadP.val_main_v140 (F := F) x2 x3)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    : (after main_part3_ops0 W (Proc.devRef .tc main_v1) = Cert.ReferenceIdeal.ReadP.val_main_v1 (F := F) x3)
      ∧ (after main_part3_ops0 W (Proc.devRef .tc main_v13) = Cert.ReferenceIdeal.ReadP.val_main_v13 (F := F) x2)
      ∧ (after main_part3_ops0 W (Proc.devRef .tc main_v15) = Cert.ReferenceIdeal.ReadP.val_main_v15 (F := F) x2)
      ∧ (after main_part3_ops0 W (Proc.devRef .tc main_v166) = Cert.ReferenceIdeal.ReadP.val_main_v166 (F := F) x2 x3)
      ∧ (after main_part3_ops0 W (Proc.devRef .tc main_v186) = Cert.ReferenceIdeal.ReadP.val_main_v186 (F := F) x2 x3)
      ∧ (after main_part3_ops0 W (Proc.devRef .tc main_v188) = Cert.ReferenceIdeal.ReadP.val_main_v188 (F := F) x2)
      ∧ (after main_part3_ops0 W (Proc.devRef .tc main_v20) = Cert.ReferenceIdeal.ReadP.val_main_v20 (F := F) x2)
      ∧ (after main_part3_ops0 W (Proc.devRef .tc main_v25) = Cert.ReferenceIdeal.ReadP.val_main_v25 (F := F) x2)
      ∧ (after main_part3_ops0 W (Proc.devRef .tc main_v27) = Cert.ReferenceIdeal.ReadP.val_main_v27 (F := F) x2)
      ∧ (after main_part3_ops0 W (Proc.devRef .tc main_v29) = Cert.ReferenceIdeal.ReadP.val_main_v29 (F := F) x2)
      ∧ (after main_part3_ops0 W (Proc.devRef .tc main_v31) = Cert.ReferenceIdeal.ReadP.val_main_v31 (F := F) x2)
      ∧ (after main_part3_ops0 W (Proc.devRef .tc main_v33) = Cert.ReferenceIdeal.ReadP.val_main_v33 (F := F) x2) := by
  rw [main_part3_ops0_split]
  try simp only [StableHlo.after_append]
  obtain ⟨k0_main_v1, k0_main_v13, k0_main_v140, k0_main_v15, k0_main_v156, k0_main_v157, k0_main_v158, k0_main_v18, k0_main_v20, k0_main_v25, k0_main_v27, k0_main_v29, k0_main_v31, k0_main_v33, k0_main_v35⟩ := stage_main_part3_ops0_p0 W x2 x3 h_main_v1 h_main_v13 h_main_v140 h_main_v15 h_main_v18 h_main_v20 h_main_v25 h_main_v27 h_main_v29 h_main_v31 h_main_v33 h_main_v35
  obtain ⟨k1_main_v1, k1_main_v13, k1_main_v140, k1_main_v15, k1_main_v159, k1_main_v18, k1_main_v20, k1_main_v25, k1_main_v27, k1_main_v29, k1_main_v31, k1_main_v33, k1_main_v35⟩ := stage_main_part3_ops0_p1 (after main_part3_ops0_p0 W) x2 x3 k0_main_v1 k0_main_v13 k0_main_v140 k0_main_v15 k0_main_v156 k0_main_v157 k0_main_v158 k0_main_v18 k0_main_v20 k0_main_v25 k0_main_v27 k0_main_v29 k0_main_v31 k0_main_v33 k0_main_v35
  obtain ⟨k2_main_v1, k2_main_v13, k2_main_v15, k2_main_v166, k2_main_v171, k2_main_v176, k2_main_v178, k2_main_v20, k2_main_v25, k2_main_v27, k2_main_v29, k2_main_v31, k2_main_v33, k2_main_v35⟩ := stage_main_part3_ops0_p2 (after main_part3_ops0_p1 (after main_part3_ops0_p0 W)) x2 x3 k1_main_v1 k1_main_v13 k1_main_v140 k1_main_v15 k1_main_v159 k1_main_v18 k1_main_v20 k1_main_v25 k1_main_v27 k1_main_v29 k1_main_v31 k1_main_v33 k1_main_v35
  obtain ⟨k3_main_v1, k3_main_v13, k3_main_v15, k3_main_v166, k3_main_v182, k3_main_v183, k3_main_v184, k3_main_v20, k3_main_v25, k3_main_v27, k3_main_v29, k3_main_v31, k3_main_v33, k3_main_v35⟩ := stage_main_part3_ops0_p3 (after main_part3_ops0_p2 (after main_part3_ops0_p1 (after main_part3_ops0_p0 W))) x2 x3 k2_main_v1 k2_main_v13 k2_main_v15 k2_main_v166 k2_main_v171 k2_main_v176 k2_main_v178 k2_main_v20 k2_main_v25 k2_main_v27 k2_main_v29 k2_main_v31 k2_main_v33 k2_main_v35
  obtain ⟨k4_main_v1, k4_main_v13, k4_main_v15, k4_main_v166, k4_main_v185, k4_main_v20, k4_main_v25, k4_main_v27, k4_main_v29, k4_main_v31, k4_main_v33, k4_main_v35⟩ := stage_main_part3_ops0_p4 (after main_part3_ops0_p3 (after main_part3_ops0_p2 (after main_part3_ops0_p1 (after main_part3_ops0_p0 W)))) x2 x3 k3_main_v1 k3_main_v13 k3_main_v15 k3_main_v166 k3_main_v182 k3_main_v183 k3_main_v184 k3_main_v20 k3_main_v25 k3_main_v27 k3_main_v29 k3_main_v31 k3_main_v33 k3_main_v35
  obtain ⟨k5_main_v1, k5_main_v13, k5_main_v15, k5_main_v166, k5_main_v186, k5_main_v188, k5_main_v20, k5_main_v25, k5_main_v27, k5_main_v29, k5_main_v31, k5_main_v33⟩ := stage_main_part3_ops0_p5 (after main_part3_ops0_p4 (after main_part3_ops0_p3 (after main_part3_ops0_p2 (after main_part3_ops0_p1 (after main_part3_ops0_p0 W))))) x2 x3 k4_main_v1 k4_main_v13 k4_main_v15 k4_main_v166 k4_main_v185 k4_main_v20 k4_main_v25 k4_main_v27 k4_main_v29 k4_main_v31 k4_main_v33 k4_main_v35
  exact ⟨k5_main_v1, k5_main_v13, k5_main_v15, k5_main_v166, k5_main_v186, k5_main_v188, k5_main_v20, k5_main_v25, k5_main_v27, k5_main_v29, k5_main_v31, k5_main_v33⟩

set_option maxRecDepth 16384 in
set_option maxHeartbeats 40000000 in
/-- `main_part4_ops0` is its pieces one after the other. -/
theorem main_part4_ops0_split : (main_part4_ops0 : List (HloOp τ sig (Elt F))) = main_part4_ops0_p0 ++ (main_part4_ops0_p1 ++ (main_part4_ops0_p2 ++ (main_part4_ops0_p3 ++ (main_part4_ops0_p4)))) := by rfl
set_option maxRecDepth 16384 in
set_option maxHeartbeats 40000000 in
/-- After `main_part4_ops0`: 8 buffers are still read later. -/
theorem stage_main_part4_ops0 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v166 : W (Proc.devRef .tc main_v166) = Cert.ReferenceIdeal.ReadP.val_main_v166 (F := F) x2 x3)
    (h_main_v186 : W (Proc.devRef .tc main_v186) = Cert.ReferenceIdeal.ReadP.val_main_v186 (F := F) x2 x3)
    (h_main_v188 : W (Proc.devRef .tc main_v188) = Cert.ReferenceIdeal.ReadP.val_main_v188 (F := F) x2)
    (h_main_v20 : W (Proc.devRef .tc main_v20) = Cert.ReferenceIdeal.ReadP.val_main_v20 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    : (after main_part4_ops0 W (Proc.devRef .tc main_v1) = Cert.ReferenceIdeal.ReadP.val_main_v1 (F := F) x3)
      ∧ (after main_part4_ops0 W (Proc.devRef .tc main_v15) = Cert.ReferenceIdeal.ReadP.val_main_v15 (F := F) x2)
      ∧ (after main_part4_ops0 W (Proc.devRef .tc main_v20) = Cert.ReferenceIdeal.ReadP.val_main_v20 (F := F) x2)
      ∧ (after main_part4_ops0 W (Proc.devRef .tc main_v218) = Cert.ReferenceIdeal.ReadP.val_main_v218 (F := F) x2 x3)
      ∧ (after main_part4_ops0 W (Proc.devRef .tc main_v234) = Cert.ReferenceIdeal.ReadP.val_main_v234 (F := F) x2)
      ∧ (after main_part4_ops0 W (Proc.devRef .tc main_v235) = Cert.ReferenceIdeal.ReadP.val_main_v235 (F := F) x2)
      ∧ (after main_part4_ops0 W (Proc.devRef .tc main_v236) = Cert.ReferenceIdeal.ReadP.val_main_v236 (F := F) x2)
      ∧ (after main_part4_ops0 W (Proc.devRef .tc main_v25) = Cert.ReferenceIdeal.ReadP.val_main_v25 (F := F) x2) := by
  rw [main_part4_ops0_split]
  try simp only [StableHlo.after_append]
  obtain ⟨k0_main_v1, k0_main_v13, k0_main_v15, k0_main_v192, k0_main_v197, k0_main_v20, k0_main_v202, k0_main_v204, k0_main_v206, k0_main_v25, k0_main_v27, k0_main_v29, k0_main_v31, k0_main_v33⟩ := stage_main_part4_ops0_p0 W x2 x3 h_main_v1 h_main_v13 h_main_v15 h_main_v166 h_main_v186 h_main_v188 h_main_v20 h_main_v25 h_main_v27 h_main_v29 h_main_v31 h_main_v33
  obtain ⟨k1_main_v1, k1_main_v15, k1_main_v192, k1_main_v20, k1_main_v208, k1_main_v209, k1_main_v210, k1_main_v25, k1_main_v27, k1_main_v29, k1_main_v31, k1_main_v33⟩ := stage_main_part4_ops0_p1 (after main_part4_ops0_p0 W) x2 x3 k0_main_v1 k0_main_v13 k0_main_v15 k0_main_v192 k0_main_v197 k0_main_v20 k0_main_v202 k0_main_v204 k0_main_v206 k0_main_v25 k0_main_v27 k0_main_v29 k0_main_v31 k0_main_v33
  obtain ⟨k2_main_v1, k2_main_v15, k2_main_v192, k2_main_v20, k2_main_v211, k2_main_v25, k2_main_v27, k2_main_v29, k2_main_v31, k2_main_v33⟩ := stage_main_part4_ops0_p2 (after main_part4_ops0_p1 (after main_part4_ops0_p0 W)) x2 x3 k1_main_v1 k1_main_v15 k1_main_v192 k1_main_v20 k1_main_v208 k1_main_v209 k1_main_v210 k1_main_v25 k1_main_v27 k1_main_v29 k1_main_v31 k1_main_v33
  obtain ⟨k3_main_v1, k3_main_v15, k3_main_v20, k3_main_v218, k3_main_v223, k3_main_v228, k3_main_v230, k3_main_v25, k3_main_v27⟩ := stage_main_part4_ops0_p3 (after main_part4_ops0_p2 (after main_part4_ops0_p1 (after main_part4_ops0_p0 W))) x2 x3 k2_main_v1 k2_main_v15 k2_main_v192 k2_main_v20 k2_main_v211 k2_main_v25 k2_main_v27 k2_main_v29 k2_main_v31 k2_main_v33
  obtain ⟨k4_main_v1, k4_main_v15, k4_main_v20, k4_main_v218, k4_main_v234, k4_main_v235, k4_main_v236, k4_main_v25⟩ := stage_main_part4_ops0_p4 (after main_part4_ops0_p3 (after main_part4_ops0_p2 (after main_part4_ops0_p1 (after main_part4_ops0_p0 W)))) x2 x3 k3_main_v1 k3_main_v15 k3_main_v20 k3_main_v218 k3_main_v223 k3_main_v228 k3_main_v230 k3_main_v25 k3_main_v27
  exact ⟨k4_main_v1, k4_main_v15, k4_main_v20, k4_main_v218, k4_main_v234, k4_main_v235, k4_main_v236, k4_main_v25⟩

set_option maxRecDepth 16384 in
set_option maxHeartbeats 40000000 in
/-- `main_part5_ops0` is its pieces one after the other. -/
theorem main_part5_ops0_split : (main_part5_ops0 : List (HloOp τ sig (Elt F))) = main_part5_ops0_p0 ++ main_part5_ops0_p1 := by rfl
set_option maxRecDepth 16384 in
set_option maxHeartbeats 40000000 in
/-- After `main_part5_ops0`: 1 buffers are still read later. -/
theorem stage_main_part5_ops0 (W : Valuation τ sig (Elt F)) (x2 : (⟨S4x3x512x512, .f32⟩ : BufTy).Contents (Elt F)) (x3 : (⟨S107811x8, .f32⟩ : BufTy).Contents (Elt F))
    (h_main_v1 : W (Proc.devRef .tc main_v1) = Cert.ReferenceIdeal.ReadP.val_main_v1 (F := F) x3)
    (h_main_v15 : W (Proc.devRef .tc main_v15) = Cert.ReferenceIdeal.ReadP.val_main_v15 (F := F) x2)
    (h_main_v20 : W (Proc.devRef .tc main_v20) = Cert.ReferenceIdeal.ReadP.val_main_v20 (F := F) x2)
    (h_main_v218 : W (Proc.devRef .tc main_v218) = Cert.ReferenceIdeal.ReadP.val_main_v218 (F := F) x2 x3)
    (h_main_v234 : W (Proc.devRef .tc main_v234) = Cert.ReferenceIdeal.ReadP.val_main_v234 (F := F) x2)
    (h_main_v235 : W (Proc.devRef .tc main_v235) = Cert.ReferenceIdeal.ReadP.val_main_v235 (F := F) x2)
    (h_main_v236 : W (Proc.devRef .tc main_v236) = Cert.ReferenceIdeal.ReadP.val_main_v236 (F := F) x2)
    (h_main_v25 : W (Proc.devRef .tc main_v25) = Cert.ReferenceIdeal.ReadP.val_main_v25 (F := F) x2)
    : (after main_part5_ops0 W (Proc.devRef .tc main_v244) = Cert.ReferenceIdeal.ReadP.val_main_v244 (F := F) x2 x3) := by
  rw [main_part5_ops0_split]
  try simp only [StableHlo.after_append]
  obtain ⟨k0_main_v1, k0_main_v15, k0_main_v20, k0_main_v218, k0_main_v237, k0_main_v25⟩ := stage_main_part5_ops0_p0 W x2 x3 h_main_v1 h_main_v15 h_main_v20 h_main_v218 h_main_v234 h_main_v235 h_main_v236 h_main_v25
  have k1_main_v244 := stage_main_part5_ops0_p1 (after main_part5_ops0_p0 W) x2 x3 k0_main_v1 k0_main_v15 k0_main_v20 k0_main_v218 k0_main_v237 k0_main_v25
  exact k1_main_v244

set_option maxRecDepth 16384 in
set_option maxHeartbeats 40000000 in
/-- The whole fold at `main_v244`, over any contents holding the arguments. -/
theorem chain (W : Valuation τ sig (Elt F)) (x2 : (⟨S4x3x512x512, .f32⟩ : BufTy).Contents (Elt F)) (x3 : (⟨S107811x8, .f32⟩ : BufTy).Contents (Elt F))
    (h_main_arg2 : W (Proc.devRef .tc main_arg2) = x2)
    (h_main_arg3 : W (Proc.devRef .tc main_arg3) = x3)
    : after main_part5_ops0 (after main_part4_ops0 (after main_part3_ops0 (after main_part2_ops0 (after main_part1_ops0 (after main_part0_ops8 (after main_part0_ops7 (after main_part0_ops6 (after main_part0_ops5 (after main_part0_ops4 (after main_part0_ops3 (after main_part0_ops2 (after main_part0_ops1 (after main_part0_ops0 W))))))))))))) (Proc.devRef .tc main_v244) = Cert.ReferenceIdeal.ReadP.val_main_v244 (F := F) x2 x3 := by
  obtain ⟨k0_main_cst_0, k0_main_cst_1, k0_main_v1, k0_main_v3⟩ := stage_main_part0_ops0 W x2 x3 h_main_arg2 h_main_arg3
  obtain ⟨k1_main_v1, k1_main_v4⟩ := stage_main_part0_ops1 (after main_part0_ops0 W) x2 x3 k0_main_cst_0 k0_main_cst_1 k0_main_v1 k0_main_v3
  obtain ⟨k2_main_c, k2_main_c_2, k2_main_v1, k2_main_v10, k2_main_v12, k2_main_v6, k2_main_v8⟩ := stage_main_part0_ops2 (after main_part0_ops1 (after main_part0_ops0 W)) x2 x3 k1_main_v1 k1_main_v4
  obtain ⟨k3_main_v1, k3_main_v10, k3_main_v13, k3_main_v6, k3_main_v8⟩ := stage_main_part0_ops3 (after main_part0_ops2 (after main_part0_ops1 (after main_part0_ops0 W))) x2 x3 k2_main_c k2_main_c_2 k2_main_v1 k2_main_v10 k2_main_v12 k2_main_v6 k2_main_v8
  obtain ⟨k4_main_c_3, k4_main_c_4, k4_main_v1, k4_main_v10, k4_main_v13, k4_main_v15, k4_main_v17, k4_main_v8⟩ := stage_main_part0_ops4 (after main_part0_ops3 (after main_part0_ops2 (after main_part0_ops1 (after main_part0_ops0 W)))) x2 x3 k3_main_v1 k3_main_v10 k3_main_v13 k3_main_v6 k3_main_v8
  obtain ⟨k5_main_v1, k5_main_v10, k5_main_v13, k5_main_v15, k5_main_v18, k5_main_v8⟩ := stage_main_part0_ops5 (after main_part0_ops4 (after main_part0_ops3 (after main_part0_ops2 (after main_part0_ops1 (after main_part0_ops0 W))))) x2 x3 k4_main_c_3 k4_main_c_4 k4_main_v1 k4_main_v10 k4_main_v13 k4_main_v15 k4_main_v17 k4_main_v8
  obtain ⟨k6_main_c_5, k6_main_c_6, k6_main_v1, k6_main_v10, k6_main_v13, k6_main_v15, k6_main_v18, k6_main_v20, k6_main_v22⟩ := stage_main_part0_ops6 (after main_part0_ops5 (after main_part0_ops4 (after main_part0_ops3 (after main_part0_ops2 (after main_part0_ops1 (after main_part0_ops0 W)))))) x2 x3 k5_main_v1 k5_main_v10 k5_main_v13 k5_main_v15 k5_main_v18 k5_main_v8
  obtain ⟨k7_main_v1, k7_main_v10, k7_main_v13, k7_main_v15, k7_main_v18, k7_main_v20, k7_main_v23⟩ := stage_main_part0_ops7 (after main_part0_ops6 (after main_part0_ops5 (after main_part0_ops4 (after main_part0_ops3 (after main_part0_ops2 (after main_part0_ops1 (after main_part0_ops0 W))))))) x2 x3 k6_main_c_5 k6_main_c_6 k6_main_v1 k6_main_v10 k6_main_v13 k6_main_v15 k6_main_v18 k6_main_v20 k6_main_v22
  obtain ⟨k8_main_v1, k8_main_v13, k8_main_v15, k8_main_v18, k8_main_v20, k8_main_v23, k8_main_v25, k8_main_v27, k8_main_v29, k8_main_v31, k8_main_v33, k8_main_v35, k8_main_v37, k8_main_v42⟩ := stage_main_part0_ops8 (after main_part0_ops7 (after main_part0_ops6 (after main_part0_ops5 (after main_part0_ops4 (after main_part0_ops3 (after main_part0_ops2 (after main_part0_ops1 (after main_part0_ops0 W)))))))) x2 x3 k7_main_v1 k7_main_v10 k7_main_v13 k7_main_v15 k7_main_v18 k7_main_v20 k7_main_v23
  obtain ⟨k9_main_c_26, k9_main_v1, k9_main_v13, k9_main_v15, k9_main_v18, k9_main_v20, k9_main_v23, k9_main_v25, k9_main_v27, k9_main_v29, k9_main_v31, k9_main_v33, k9_main_v35, k9_main_v37, k9_main_v88, k9_main_v90⟩ := stage_main_part1_ops0 (after main_part0_ops8 (after main_part0_ops7 (after main_part0_ops6 (after main_part0_ops5 (after main_part0_ops4 (after main_part0_ops3 (after main_part0_ops2 (after main_part0_ops1 (after main_part0_ops0 W))))))))) x2 x3 k8_main_v1 k8_main_v13 k8_main_v15 k8_main_v18 k8_main_v20 k8_main_v23 k8_main_v25 k8_main_v27 k8_main_v29 k8_main_v31 k8_main_v33 k8_main_v35 k8_main_v37 k8_main_v42
  obtain ⟨k10_main_v1, k10_main_v13, k10_main_v140, k10_main_v15, k10_main_v18, k10_main_v20, k10_main_v25, k10_main_v27, k10_main_v29, k10_main_v31, k10_main_v33, k10_main_v35⟩ := stage_main_part2_ops0 (after main_part1_ops0 (after main_part0_ops8 (after main_part0_ops7 (after main_part0_ops6 (after main_part0_ops5 (after main_part0_ops4 (after main_part0_ops3 (after main_part0_ops2 (after main_part0_ops1 (after main_part0_ops0 W)))))))))) x2 x3 k9_main_c_26 k9_main_v1 k9_main_v13 k9_main_v15 k9_main_v18 k9_main_v20 k9_main_v23 k9_main_v25 k9_main_v27 k9_main_v29 k9_main_v31 k9_main_v33 k9_main_v35 k9_main_v37 k9_main_v88 k9_main_v90
  obtain ⟨k11_main_v1, k11_main_v13, k11_main_v15, k11_main_v166, k11_main_v186, k11_main_v188, k11_main_v20, k11_main_v25, k11_main_v27, k11_main_v29, k11_main_v31, k11_main_v33⟩ := stage_main_part3_ops0 (after main_part2_ops0 (after main_part1_ops0 (after main_part0_ops8 (after main_part0_ops7 (after main_part0_ops6 (after main_part0_ops5 (after main_part0_ops4 (after main_part0_ops3 (after main_part0_ops2 (after main_part0_ops1 (after main_part0_ops0 W))))))))))) x2 x3 k10_main_v1 k10_main_v13 k10_main_v140 k10_main_v15 k10_main_v18 k10_main_v20 k10_main_v25 k10_main_v27 k10_main_v29 k10_main_v31 k10_main_v33 k10_main_v35
  obtain ⟨k12_main_v1, k12_main_v15, k12_main_v20, k12_main_v218, k12_main_v234, k12_main_v235, k12_main_v236, k12_main_v25⟩ := stage_main_part4_ops0 (after main_part3_ops0 (after main_part2_ops0 (after main_part1_ops0 (after main_part0_ops8 (after main_part0_ops7 (after main_part0_ops6 (after main_part0_ops5 (after main_part0_ops4 (after main_part0_ops3 (after main_part0_ops2 (after main_part0_ops1 (after main_part0_ops0 W)))))))))))) x2 x3 k11_main_v1 k11_main_v13 k11_main_v15 k11_main_v166 k11_main_v186 k11_main_v188 k11_main_v20 k11_main_v25 k11_main_v27 k11_main_v29 k11_main_v31 k11_main_v33
  have k13_main_v244 := stage_main_part5_ops0 (after main_part4_ops0 (after main_part3_ops0 (after main_part2_ops0 (after main_part1_ops0 (after main_part0_ops8 (after main_part0_ops7 (after main_part0_ops6 (after main_part0_ops5 (after main_part0_ops4 (after main_part0_ops3 (after main_part0_ops2 (after main_part0_ops1 (after main_part0_ops0 W))))))))))))) x2 x3 k12_main_v1 k12_main_v15 k12_main_v20 k12_main_v218 k12_main_v234 k12_main_v235 k12_main_v236 k12_main_v25
  exact k13_main_v244

end Cert.KernelIdeal.Stages

end
-- ==== Proof.KIPrelude.lean ====
/-
  The sampled tensor the kernel's launch reads is the reference's.

  Both programs compute the sampled tensor by the same host operations, in the same order, from the image and the
  lookup table: the table transposed and reshaped to [8, 3, 33, 33, 33]; the image scaled by 32 and clipped to [0, 32]; per
  colour channel the integer corner (floor, clipped to [0, 31]) and the fractional part; for each of the eight corners the
  three corner indices joined along a last axis, the gather of the table at them, and the product of the three weights;
  the eight weighted gathers added in order. The fold of the kernel's host operations is the fold of its stretches in
  turn, and stretch by stretch every buffer that is still read later holds the reference's stage for it; so what the
  launch finds in the sampled tensor's buffer is the reference's stage of the image and the table alone.
-/
import proofs.«180827_j9612136808561_2_alg».proof.Proof.KIHost
import proofs.«180827_j9612136808561_2_alg».proof.Proof.KIStages

noncomputable section

namespace Cert.KernelIdeal.Prelude

open Cert.KernelIdeal Cert.KernelIdeal.Gen Cert.KernelIdeal.Host
open Idealize.ShloMosaic Idealize.ShloMosaic.TcCoe Idealize.SL.Sem Idealize.ShloMosaic.StableHlo

variable {F : FTy → Type} [FloatOps F]

variable (m : (ℓ : Loc nD τ sig) → Buf (Elt F) ℓ)

set_option maxRecDepth 16384 in
/-- What the launch finds in the sampled tensor's buffer is the reference's stage of the image and the table. -/
theorem sampled_eq (c : Dev nD) :
    V m c main_v244 = Cert.ReferenceIdeal.ReadP.val_main_v244 (F := F)
      (m ((c.tc : Thread nD τ).loc main_arg2)) (m ((c.tc : Thread nD τ).loc main_arg3)) := by
  show StableHlo.after (List.flatten [main_part0_ops0, main_part0_ops1, main_part0_ops2, main_part0_ops3, main_part0_ops4, main_part0_ops5, main_part0_ops6, main_part0_ops7, main_part0_ops8, main_part1_ops0, main_part2_ops0, main_part3_ops0, main_part4_ops0, main_part5_ops0]) (fun b => m (c, b)) (Proc.devRef .tc main_v244) = _
  simp only [List.flatten_cons, List.flatten_nil, List.append_nil, StableHlo.after_append]
  exact Cert.KernelIdeal.Stages.chain (fun b => m (c, b)) _ _ rfl rfl

end Cert.KernelIdeal.Prelude

end
-- ==== Proof.RefValue.lean ====
/-
  The reference's result as the weighted sum.

  The reference multiplies the two weight arrays, gives the product a unit colour axis and repeats it over the three
  colours, multiplies it with the sampled tensor transposed to [batch, rank, colour, height, width], and adds over the
  rank axis starting from zero. At (b, c, h, w) this is zero plus the sum over the ranks r of weight · weight' at
  (b, r, h, w) times the sampled tensor at (r, c, b, h, w): the weighted sum, with the sampled tensor the stage the host
  operations computed from the image and the table.
-/
import proofs.«180827_j9612136808561_2_alg».proof.Proof.RefRead
import proofs.«180827_j9612136808561_2_alg».proof.Proof.Spec

noncomputable section

open scoped BigOperators

namespace Cert.ReferenceIdeal.RefValue

open Cert.ReferenceIdeal Cert.ReferenceIdeal.ReadP Cert.Spec
open Idealize.ShloMosaic Idealize.ShloMosaic.ValueIdx

/-- The weight product's element that the sum reads at rank k for the result index (b, c, h, w). -/
theorem idxW (b : Fin 4) (c : Fin 3) (h w : Fin 512) (k : Fin 8) :
    idx_main_v247 (idx_main_v248 (idx_main_v250 (ix4 b c h w) k)) = ix4 b k h w := by
  funext a
  apply Fin.ext
  match a with
  | ⟨0, _⟩ => rfl
  | ⟨1, _⟩ => rfl
  | ⟨2, _⟩ => rfl
  | ⟨3, _⟩ => rfl

/-- The sampled tensor's element that the sum reads at rank k for the result index (b, c, h, w). -/
theorem idxX (b : Fin 4) (c : Fin 3) (h w : Fin 512) (k : Fin 8) :
    idx_main_v245 (idx_main_v250 (ix4 b c h w) k) = ix5 k c b h w := by
  funext a
  apply Fin.ext
  match a with
  | ⟨0, _⟩ => rfl
  | ⟨1, _⟩ => rfl
  | ⟨2, _⟩ => rfl
  | ⟨3, _⟩ => rfl
  | ⟨4, _⟩ => rfl

/-- The float zero the sum starts from is the extended real zero. -/
theorem zero_word : (FloatOps.ofBits (F := Ideal) .f32 0x00000000#32 : EReal) = 0 := Ideal.ofBits_zero_f32

/-- The reference's result is the weighted sum of the two weight arrays and the sampled stage. -/
theorem ref_value (x0 x1 : (⟨S4x8x512x512, .f32⟩ : BufTy).Contents (Elt Ideal)) (x2 : (⟨S4x3x512x512, .f32⟩ : BufTy).Contents (Elt Ideal))
    (x3 : (⟨S107811x8, .f32⟩ : BufTy).Contents (Elt Ideal)) :
    val_main_v250 (F := Ideal) x0 x1 x2 x3 = wsum x0 x1 (val_main_v244 (F := Ideal) x2 x3) := by
  funext i
  obtain ⟨b, c, h, w, rfl⟩ : ∃ (b : Fin 4) (c : Fin 3) (h w : Fin 512), i = ix4 b c h w := ⟨i 0, i 1, i 2, i 3, eq_ix4 i⟩
  rw [val_main_v250_apply, val_main_cst_61_apply, zero_word, zero_add, wsum_ix4]
  unfold wsumAt
  refine Finset.sum_congr rfl fun k _ => ?_
  rw [val_main_v249_apply, val_main_v248_apply, val_main_v247_apply, val_main_v246_apply, val_main_v245_apply, idxW, idxX]
  rfl

end Cert.ReferenceIdeal.RefValue

end
-- ==== Proof.RefRun.lean ====
/-
  The reference program's run.

  @main of the reference is six windows of host operations run one after the other: 335 operations in all, the four
  calls of the clip helpers standing as the six operations of the helper's body each. Every operation reads and writes
  TensorCore buffers the program already has, writes exactly one buffer, its result, which is never an argument, and
  none allocates. So every weakly fair execution terminates, and afterwards every buffer holds what the fold of the
  operations, in order, makes of the launch memory; an argument holds its launch contents. The operations are listed
  window by window so that each list stays short; the whole run is their concatenation.
-/
import proofs.«180827_j9612136808561_2_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The four argument arrays. -/
abbrev argRefs : List (Ref sig .tc) := [main_arg0, main_arg1, main_arg2, main_arg3]

/-- An operation whose written set is the one buffer `y`, not an argument, writes no argument. -/
theorem keeps_of_writes {y : Ref sig .tc} {W : Finset (DevRef τ sig)} (hW : W = {Proc.devRef .tc y}) (hy : y ∉ argRefs) :
    ∀ r ∈ argRefs, Proc.devRef (τ := τ) .tc r ∉ W := fun r hr hm => by
  rw [hW, Finset.mem_singleton] at hm
  exact hy (Proc.devRef_injective _ hm ▸ hr)

set_option maxHeartbeats 40000000 in
/-- The 80 operations of window 0 of @main, in order (a called function's operations stand in its call's place). -/
abbrev ops0 : List (HloOp τ sig (Elt F)) :=
  ( unary main_arg3 main_v0 ((transpose S8x107811 [1, 0] · transposes_S107811x8_S8x107811_1_0) : (⟨S107811x8, .f32⟩ : BufTy).Contents (Elt F) → (⟨S8x107811, .f32⟩ : BufTy).Contents (Elt F))
  :: reshape main_v0 main_v1 rfl shapeCasts_S8x107811_S8x3x33x33x33
  :: nullary main_cst (constant S_ .f32 0x42000000#32)
  :: unary main_cst main_v2 (broadcastInDim S4x3x512x512 ![] bcast_S_S4x3x512x512 : (⟨S_, .f32⟩ : BufTy).Contents (Elt F) → (⟨S4x3x512x512, .f32⟩ : BufTy).Contents (Elt F))
  :: binary main_arg2 main_v2 main_v3 (mulf : (⟨S4x3x512x512, .f32⟩ : BufTy).Contents (Elt F) → (⟨S4x3x512x512, .f32⟩ : BufTy).Contents (Elt F) → (⟨S4x3x512x512, .f32⟩ : BufTy).Contents (Elt F))
  :: nullary main_cst_0 (constant S_ .f32 0x00000000#32)
  :: nullary main_cst_1 (constant S_ .f32 0x42000000#32)
  :: TRef.unary (TRef.of (T := ⟨S_, .f32⟩) main_cst_0) (TRef.of (T := ⟨S_, .f32⟩) main_call0_v0) id
  :: TRef.unary (TRef.of (T := ⟨S_, .f32⟩) main_call0_v0) (TRef.of (T := ⟨S4x3x512x512, .f32⟩) main_call0_v1) (broadcastInDim S4x3x512x512 ![] bcast_S_S4x3x512x512)
  :: TRef.binary (TRef.of (T := ⟨S4x3x512x512, .f32⟩) main_call0_v1) (TRef.of (T := ⟨S4x3x512x512, .f32⟩) main_v3) (TRef.of (T := ⟨S4x3x512x512, .f32⟩) main_call0_v2) maximumf
  :: TRef.unary (TRef.of (T := ⟨S_, .f32⟩) main_cst_1) (TRef.of (T := ⟨S_, .f32⟩) main_call0_v3) id
  :: TRef.unary (TRef.of (T := ⟨S_, .f32⟩) main_call0_v3) (TRef.of (T := ⟨S4x3x512x512, .f32⟩) main_call0_v4) (broadcastInDim S4x3x512x512 ![] bcast_S_S4x3x512x512)
  :: TRef.binary (TRef.of (T := ⟨S4x3x512x512, .f32⟩) main_call0_v4) (TRef.of (T := ⟨S4x3x512x512, .f32⟩) main_call0_v2) (TRef.of (T := ⟨S4x3x512x512, .f32⟩) main_v4) minimumf
  :: unary main_v4 main_v5 ((extractStridedSlice S4x1x512x512 ![0, 0, 0, 0] · slices_S4x3x512x512_S4x1x512x512_0_0_0_0) : (⟨S4x3x512x512, .f32⟩ : BufTy).Contents (Elt F) → (⟨S4x1x512x512, .f32⟩ : BufTy).Contents (Elt F))
  :: reshape main_v5 main_v6 rfl shapeCasts_S4x1x512x512_S4x512x512
  :: unary main_v4 main_v7 ((extractStridedSlice S4x1x512x512 ![0, 1, 0, 0] · slices_S4x3x512x512_S4x1x512x512_0_1_0_0) : (⟨S4x3x512x512, .f32⟩ : BufTy).Contents (Elt F) → (⟨S4x1x512x512, .f32⟩ : BufTy).Contents (Elt F))
  :: reshape main_v7 main_v8 rfl shapeCasts_S4x1x512x512_S4x512x512
  :: unary main_v4 main_v9 ((extractStridedSlice S4x1x512x512 ![0, 2, 0, 0] · slices_S4x3x512x512_S4x1x512x512_0_2_0_0) : (⟨S4x3x512x512, .f32⟩ : BufTy).Contents (Elt F) → (⟨S4x1x512x512, .f32⟩ : BufTy).Contents (Elt F))
  :: reshape main_v9 main_v10 rfl shapeCasts_S4x1x512x512_S4x512x512
  :: unary main_v6 main_v11 (Host.floor : (⟨S4x512x512, .f32⟩ : BufTy).Contents (Elt F) → (⟨S4x512x512, .f32⟩ : BufTy).Contents (Elt F))
  :: unary main_v11 main_v12 (fptosi 32 : (⟨S4x512x512, .f32⟩ : BufTy).Contents (Elt F) → (⟨S4x512x512, .i32⟩ : BufTy).Contents (Elt F))
  :: nullary main_c (constantI S_ 32 0#32)
  :: nullary main_c_2 (constantI S_ 32 31#32)
  :: TRef.unary (TRef.of (T := ⟨S_, .i32⟩) main_c) (TRef.of (T := ⟨S_, .i32⟩) main_call1_v0) id
  :: TRef.unary (TRef.of (T := ⟨S_, .i32⟩) main_call1_v0) (TRef.of (T := ⟨S4x512x512, .i32⟩) main_call1_v1) (broadcastInDim S4x512x512 ![] bcast_S_S4x512x512)
  :: TRef.binary (TRef.of (T := ⟨S4x512x512, .i32⟩) main_call1_v1) (TRef.of (T := ⟨S4x512x512, .i32⟩) main_v12) (TRef.of (T := ⟨S4x512x512, .i32⟩) main_call1_v2) maxsi
  :: TRef.unary (TRef.of (T := ⟨S_, .i32⟩) main_c_2) (TRef.of (T := ⟨S_, .i32⟩) main_call1_v3) id
  :: TRef.unary (TRef.of (T := ⟨S_, .i32⟩) main_call1_v3) (TRef.of (T := ⟨S4x512x512, .i32⟩) main_call1_v4) (broadcastInDim S4x512x512 ![] bcast_S_S4x512x512)
  :: TRef.binary (TRef.of (T := ⟨S4x512x512, .i32⟩) main_call1_v4) (TRef.of (T := ⟨S4x512x512, .i32⟩) main_call1_v2) (TRef.of (T := ⟨S4x512x512, .i32⟩) main_v13) minsi
  :: unary main_v13 main_v14 (sitofp .f32 : (⟨S4x512x512, .i32⟩ : BufTy).Contents (Elt F) → (⟨S4x512x512, .f32⟩ : BufTy).Contents (Elt F))
  :: binary main_v6 main_v14 main_v15 (subf : (⟨S4x512x512, .f32⟩ : BufTy).Contents (Elt F) → (⟨S4x512x512, .f32⟩ : BufTy).Contents (Elt F) → (⟨S4x512x512, .f32⟩ : BufTy).Contents (Elt F))
  :: unary main_v8 main_v16 (Host.floor : (⟨S4x512x512, .f32⟩ : BufTy).Contents (Elt F) → (⟨S4x512x512, .f32⟩ : BufTy).Contents (Elt F))
  :: unary main_v16 main_v17 (fptosi 32 : (⟨S4x512x512, .f32⟩ : BufTy).Contents (Elt F) → (⟨S4x512x512, .i32⟩ : BufTy).Contents (Elt F))
  :: nullary main_c_3 (constantI S_ 32 0#32)
  :: nullary main_c_4 (constantI S_ 32 31#32)
  :: TRef.unary (TRef.of (T := ⟨S_, .i32⟩) main_c_3) (TRef.of (T := ⟨S_, .i32⟩) main_call2_v0) id
  :: TRef.unary (TRef.of (T := ⟨S_, .i32⟩) main_call2_v0) (TRef.of (T := ⟨S4x512x512, .i32⟩) main_call2_v1) (broadcastInDim S4x512x512 ![] bcast_S_S4x512x512)
  :: TRef.binary (TRef.of (T := ⟨S4x512x512, .i32⟩) main_call2_v1) (TRef.of (T := ⟨S4x512x512, .i32⟩) main_v17) (TRef.of (T := ⟨S4x512x512, .i32⟩) main_call2_v2) maxsi
  :: TRef.unary (TRef.of (T := ⟨S_, .i32⟩) main_c_4) (TRef.of (T := ⟨S_, .i32⟩) main_call2_v3) id
  :: TRef.unary (TRef.of (T := ⟨S_, .i32⟩) main_call2_v3) (TRef.of (T := ⟨S4x512x512, .i32⟩) main_call2_v4) (broadcastInDim S4x512x512 ![] bcast_S_S4x512x512)
  :: TRef.binary (TRef.of (T := ⟨S4x512x512, .i32⟩) main_call2_v4) (TRef.of (T := ⟨S4x512x512, .i32⟩) main_call2_v2) (TRef.of (T := ⟨S4x512x512, .i32⟩) main_v18) minsi
  :: unary main_v18 main_v19 (sitofp .f32 : (⟨S4x512x512, .i32⟩ : BufTy).Contents (Elt F) → (⟨S4x512x512, .f32⟩ : BufTy).Contents (Elt F))
  :: binary main_v8 main_v19 main_v20 (subf : (⟨S4x512x512, .f32⟩ : BufTy).Contents (Elt F) → (⟨S4x512x512, .f32⟩ : BufTy).Contents (Elt F) → (⟨S4x512x512, .f32⟩ : BufTy).Contents (Elt F))
  :: unary main_v10 main_v21 (Host.floor : (⟨S4x512x512, .f32⟩ : BufTy).Contents (Elt F) → (⟨S4x512x512, .f32⟩ : BufTy).Contents (Elt F))
  :: unary main_v21 main_v22 (fptosi 32 : (⟨S4x512x512, .f32⟩ : BufTy).Contents (Elt F) → (⟨S4x512x512, .i32⟩ : BufTy).Contents (Elt F))
  :: nullary main_c_5 (constantI S_ 32 0#32)
  :: nullary main_c_6 (constantI S_ 32 31#32)
  :: TRef.unary (TRef.of (T := ⟨S_, .i32⟩) main_c_5) (TRef.of (T := ⟨S_, .i32⟩) main_call3_v0) id
  :: TRef.unary (TRef.of (T := ⟨S_, .i32⟩) main_call3_v0) (TRef.of (T := ⟨S4x512x512, .i32⟩) main_call3_v1) (broadcastInDim S4x512x512 ![] bcast_S_S4x512x512)
  :: TRef.binary (TRef.of (T := ⟨S4x512x512, .i32⟩) main_call3_v1) (TRef.of (T := ⟨S4x512x512, .i32⟩) main_v22) (TRef.of (T := ⟨S4x512x512, .i32⟩) main_call3_v2) maxsi
  :: TRef.unary (TRef.of (T := ⟨S_, .i32⟩) main_c_6) (TRef.of (T := ⟨S_, .i32⟩) main_call3_v3) id
  :: TRef.unary (TRef.of (T := ⟨S_, .i32⟩) main_call3_v3) (TRef.of (T := ⟨S4x512x512, .i32⟩) main_call3_v4) (broadcastInDim S4x512x512 ![] bcast_S_S4x512x512)
  :: TRef.binary (TRef.of (T := ⟨S4x512x512, .i32⟩) main_call3_v4) (TRef.of (T := ⟨S4x512x512, .i32⟩) main_call3_v2) (TRef.of (T := ⟨S4x512x512, .i32⟩) main_v23) minsi
  :: unary main_v23 main_v24 (sitofp .f32 : (⟨S4x512x512, .i32⟩ : BufTy).Contents (Elt F) → (⟨S4x512x512, .f32⟩ : BufTy).Contents (Elt F))
  :: binary main_v10 main_v24 main_v25 (subf : (⟨S4x512x512, .f32⟩ : BufTy).Contents (Elt F) → (⟨S4x512x512, .f32⟩ : BufTy).Contents (Elt F) → (⟨S4x512x512, .f32⟩ : BufTy).Contents (Elt F))
  :: nullary main_c_7 (constantI S_ 32 1#32)
  :: unary main_c_7 main_v26 (broadcastInDim S4x512x512 ![] bcast_S_S4x512x512 : (⟨S_, .i32⟩ : BufTy).Contents (Elt F) → (⟨S4x512x512, .i32⟩ : BufTy).Contents (Elt F))
  :: binary main_v13 main_v26 main_v27 (addi : (⟨S4x512x512, .i32⟩ : BufTy).Contents (Elt F) → (⟨S4x512x512, .i32⟩ : BufTy).Contents (Elt F) → (⟨S4x512x512, .i32⟩ : BufTy).Contents (Elt F))
  :: nullary main_c_8 (constantI S_ 32 1#32)
  :: unary main_c_8 main_v28 (broadcastInDim S4x512x512 ![] bcast_S_S4x512x512 : (⟨S_, .i32⟩ : BufTy).Contents (Elt F) → (⟨S4x512x512, .i32⟩ : BufTy).Contents (Elt F))
  :: binary main_v18 main_v28 main_v29 (addi : (⟨S4x512x512, .i32⟩ : BufTy).Contents (Elt F) → (⟨S4x512x512, .i32⟩ : BufTy).Contents (Elt F) → (⟨S4x512x512, .i32⟩ : BufTy).Contents (Elt F))
  :: nullary main_c_9 (constantI S_ 32 1#32)
  :: unary main_c_9 main_v30 (broadcastInDim S4x512x512 ![] bcast_S_S4x512x512 : (⟨S_, .i32⟩ : BufTy).Contents (Elt F) → (⟨S4x512x512, .i32⟩ : BufTy).Contents (Elt F))
  :: binary main_v23 main_v30 main_v31 (addi : (⟨S4x512x512, .i32⟩ : BufTy).Contents (Elt F) → (⟨S4x512x512, .i32⟩ : BufTy).Contents (Elt F) → (⟨S4x512x512, .i32⟩ : BufTy).Contents (Elt F))
  :: nullary main_cst_10 (constant S_ .f32 0x3F800000#32)
  :: unary main_cst_10 main_v32 (broadcastInDim S4x512x512 ![] bcast_S_S4x512x512 : (⟨S_, .f32⟩ : BufTy).Contents (Elt F) → (⟨S4x512x512, .f32⟩ : BufTy).Contents (Elt F))
  :: binary main_v32 main_v15 main_v33 (subf : (⟨S4x512x512, .f32⟩ : BufTy).Contents (Elt F) → (⟨S4x512x512, .f32⟩ : BufTy).Contents (Elt F) → (⟨S4x512x512, .f32⟩ : BufTy).Contents (Elt F))
  :: nullary main_cst_11 (constant S_ .f32 0x3F800000#32)
  :: unary main_cst_11 main_v34 (broadcastInDim S4x512x512 ![] bcast_S_S4x512x512 : (⟨S_, .f32⟩ : BufTy).Contents (Elt F) → (⟨S4x512x512, .f32⟩ : BufTy).Contents (Elt F))
  :: binary main_v34 main_v20 main_v35 (subf : (⟨S4x512x512, .f32⟩ : BufTy).Contents (Elt F) → (⟨S4x512x512, .f32⟩ : BufTy).Contents (Elt F) → (⟨S4x512x512, .f32⟩ : BufTy).Contents (Elt F))
  :: nullary main_cst_12 (constant S_ .f32 0x3F800000#32)
  :: unary main_cst_12 main_v36 (broadcastInDim S4x512x512 ![] bcast_S_S4x512x512 : (⟨S_, .f32⟩ : BufTy).Contents (Elt F) → (⟨S4x512x512, .f32⟩ : BufTy).Contents (Elt F))
  :: binary main_v36 main_v25 main_v37 (subf : (⟨S4x512x512, .f32⟩ : BufTy).Contents (Elt F) → (⟨S4x512x512, .f32⟩ : BufTy).Contents (Elt F) → (⟨S4x512x512, .f32⟩ : BufTy).Contents (Elt F))
  :: nullary main_c_13 (constantI S_ 32 0#32)
  :: unary main_c_13 main_v38 (broadcastInDim S4x512x512 ![] bcast_S_S4x512x512 : (⟨S_, .i32⟩ : BufTy).Contents (Elt F) → (⟨S4x512x512, .i32⟩ : BufTy).Contents (Elt F))
  :: binary main_v23 main_v38 main_v39 (cmpi .slt : (⟨S4x512x512, .i32⟩ : BufTy).Contents (Elt F) → (⟨S4x512x512, .i32⟩ : BufTy).Contents (Elt F) → (⟨S4x512x512, .i1⟩ : BufTy).Contents (Elt F))
  :: nullary main_c_14 (constantI S_ 32 33#32)
  :: unary main_c_14 main_v40 (broadcastInDim S4x512x512 ![] bcast_S_S4x512x512 : (⟨S_, .i32⟩ : BufTy).Contents (Elt F) → (⟨S4x512x512, .i32⟩ : BufTy).Contents (Elt F))
  :: binary main_v23 main_v40 main_v41 (addi : (⟨S4x512x512, .i32⟩ : BufTy).Contents (Elt F) → (⟨S4x512x512, .i32⟩ : BufTy).Contents (Elt F) → (⟨S4x512x512, .i32⟩ : BufTy).Contents (Elt F))
  :: ternary main_v39 main_v41 main_v23 main_v42 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F))
  :: [] )

set_option maxRecDepth 16384 in
set_option maxHeartbeats 40000000 in
/-- Window 0 of @main is its operations run in order. -/
theorem part0_eq (d : Dev nD) : main_part0 (F := F) d = seq ops0 := rfl

set_option maxRecDepth 16384 in
set_option maxHeartbeats 40000000 in
/-- Each touches TensorCore buffers only. -/
theorem ops0_sub : (ops0 : List (HloOp τ sig (Elt F))).Forall fun op => op.bufs ⊆ tcRefs τ sig :=
  ⟨unary_bufs_sub .., reshape_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub ..⟩

set_option maxRecDepth 16384 in
set_option maxHeartbeats 40000000 in
/-- None allocates, and none writes an argument: each writes its one result buffer. -/
theorem ops0_facts : (ops0 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩

set_option maxHeartbeats 40000000 in
/-- The 60 operations of window 1 of @main, in order (a called function's operations stand in its call's place). -/
abbrev ops1 : List (HloOp τ sig (Elt F)) :=
  ( nullary main_c_15 (constantI S_ 32 0#32)
  :: unary main_c_15 main_v43 (broadcastInDim S4x512x512 ![] bcast_S_S4x512x512 : (⟨S_, .i32⟩ : BufTy).Contents (Elt F) → (⟨S4x512x512, .i32⟩ : BufTy).Contents (Elt F))
  :: binary main_v18 main_v43 main_v44 (cmpi .slt : (⟨S4x512x512, .i32⟩ : BufTy).Contents (Elt F) → (⟨S4x512x512, .i32⟩ : BufTy).Contents (Elt F) → (⟨S4x512x512, .i1⟩ : BufTy).Contents (Elt F))
  :: nullary main_c_16 (constantI S_ 32 33#32)
  :: unary main_c_16 main_v45 (broadcastInDim S4x512x512 ![] bcast_S_S4x512x512 : (⟨S_, .i32⟩ : BufTy).Contents (Elt F) → (⟨S4x512x512, .i32⟩ : BufTy).Contents (Elt F))
  :: binary main_v18 main_v45 main_v46 (addi : (⟨S4x512x512, .i32⟩ : BufTy).Contents (Elt F) → (⟨S4x512x512, .i32⟩ : BufTy).Contents (Elt F) → (⟨S4x512x512, .i32⟩ : BufTy).Contents (Elt F))
  :: ternary main_v44 main_v46 main_v18 main_v47 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F))
  :: nullary main_c_17 (constantI S_ 32 0#32)
  :: unary main_c_17 main_v48 (broadcastInDim S4x512x512 ![] bcast_S_S4x512x512 : (⟨S_, .i32⟩ : BufTy).Contents (Elt F) → (⟨S4x512x512, .i32⟩ : BufTy).Contents (Elt F))
  :: binary main_v13 main_v48 main_v49 (cmpi .slt : (⟨S4x512x512, .i32⟩ : BufTy).Contents (Elt F) → (⟨S4x512x512, .i32⟩ : BufTy).Contents (Elt F) → (⟨S4x512x512, .i1⟩ : BufTy).Contents (Elt F))
  :: nullary main_c_18 (constantI S_ 32 33#32)
  :: unary main_c_18 main_v50 (broadcastInDim S4x512x512 ![] bcast_S_S4x512x512 : (⟨S_, .i32⟩ : BufTy).Contents (Elt F) → (⟨S4x512x512, .i32⟩ : BufTy).Contents (Elt F))
  :: binary main_v13 main_v50 main_v51 (addi : (⟨S4x512x512, .i32⟩ : BufTy).Contents (Elt F) → (⟨S4x512x512, .i32⟩ : BufTy).Contents (Elt F) → (⟨S4x512x512, .i32⟩ : BufTy).Contents (Elt F))
  :: ternary main_v49 main_v51 main_v13 main_v52 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F))
  :: unary main_v42 main_v53 (broadcastInDim S4x512x512x1 ![0, 1, 2] bcast_S4x512x512_S4x512x512x1_0_1_2 : (⟨S4x512x512, .i32⟩ : BufTy).Contents (Elt F) → (⟨S4x512x512x1, .i32⟩ : BufTy).Contents (Elt F))
  :: unary main_v47 main_v54 (broadcastInDim S4x512x512x1 ![0, 1, 2] bcast_S4x512x512_S4x512x512x1_0_1_2 : (⟨S4x512x512, .i32⟩ : BufTy).Contents (Elt F) → (⟨S4x512x512x1, .i32⟩ : BufTy).Contents (Elt F))
  :: unary main_v52 main_v55 (broadcastInDim S4x512x512x1 ![0, 1, 2] bcast_S4x512x512_S4x512x512x1_0_1_2 : (⟨S4x512x512, .i32⟩ : BufTy).Contents (Elt F) → (⟨S4x512x512x1, .i32⟩ : BufTy).Contents (Elt F))
  :: nary ![main_v53, main_v54, main_v55] main_v56 (fun u => concatenate S4x512x512x3 3 [⟨S4x512x512x1, u 0⟩, ⟨S4x512x512x1, u 1⟩, ⟨S4x512x512x1, u 2⟩] concatenates_S4x512x512x1_S4x512x512x1_S4x512x512x1_S4x512x512x3_d3)
  :: binary main_v1 main_v56 main_v57 ((fun x i => Host.gather gather_S8x3x33x33x33_S4x512x512x3_S8x3x4x512x512_01_234_n_n_234_3_83111 x i) : (⟨S8x3x33x33x33, .f32⟩ : BufTy).Contents (Elt F) → (⟨S4x512x512x3, .i32⟩ : BufTy).Contents (Elt F) → (⟨S8x3x4x512x512, .f32⟩ : BufTy).Contents (Elt F))
  :: binary main_v37 main_v35 main_v58 (mulf : (⟨S4x512x512, .f32⟩ : BufTy).Contents (Elt F) → (⟨S4x512x512, .f32⟩ : BufTy).Contents (Elt F) → (⟨S4x512x512, .f32⟩ : BufTy).Contents (Elt F))
  :: binary main_v58 main_v33 main_v59 (mulf : (⟨S4x512x512, .f32⟩ : BufTy).Contents (Elt F) → (⟨S4x512x512, .f32⟩ : BufTy).Contents (Elt F) → (⟨S4x512x512, .f32⟩ : BufTy).Contents (Elt F))
  :: unary main_v59 main_v60 (broadcastInDim S1x1x4x512x512 ![2, 3, 4] bcast_S4x512x512_S1x1x4x512x512_2_3_4 : (⟨S4x512x512, .f32⟩ : BufTy).Contents (Elt F) → (⟨S1x1x4x512x512, .f32⟩ : BufTy).Contents (Elt F))
  :: unary main_v60 main_v61 (broadcastInDim S8x3x4x512x512 ![0, 1, 2, 3, 4] bcast_S1x1x4x512x512_S8x3x4x512x512_0_1_2_3_4 : (⟨S1x1x4x512x512, .f32⟩ : BufTy).Contents (Elt F) → (⟨S8x3x4x512x512, .f32⟩ : BufTy).Contents (Elt F))
  :: binary main_v57 main_v61 main_v62 (mulf : (⟨S8x3x4x512x512, .f32⟩ : BufTy).Contents (Elt F) → (⟨S8x3x4x512x512, .f32⟩ : BufTy).Contents (Elt F) → (⟨S8x3x4x512x512, .f32⟩ : BufTy).Contents (Elt F))
  :: nullary main_c_19 (constantI S_ 32 0#32)
  :: unary main_c_19 main_v63 (broadcastInDim S4x512x512 ![] bcast_S_S4x512x512 : (⟨S_, .i32⟩ : BufTy).Contents (Elt F) → (⟨S4x512x512, .i32⟩ : BufTy).Contents (Elt F))
  :: binary main_v23 main_v63 main_v64 (cmpi .slt : (⟨S4x512x512, .i32⟩ : BufTy).Contents (Elt F) → (⟨S4x512x512, .i32⟩ : BufTy).Contents (Elt F) → (⟨S4x512x512, .i1⟩ : BufTy).Contents (Elt F))
  :: nullary main_c_20 (constantI S_ 32 33#32)
  :: unary main_c_20 main_v65 (broadcastInDim S4x512x512 ![] bcast_S_S4x512x512 : (⟨S_, .i32⟩ : BufTy).Contents (Elt F) → (⟨S4x512x512, .i32⟩ : BufTy).Contents (Elt F))
  :: binary main_v23 main_v65 main_v66 (addi : (⟨S4x512x512, .i32⟩ : BufTy).Contents (Elt F) → (⟨S4x512x512, .i32⟩ : BufTy).Contents (Elt F) → (⟨S4x512x512, .i32⟩ : BufTy).Contents (Elt F))
  :: ternary main_v64 main_v66 main_v23 main_v67 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F))
  :: nullary main_c_21 (constantI S_ 32 0#32)
  :: unary main_c_21 main_v68 (broadcastInDim S4x512x512 ![] bcast_S_S4x512x512 : (⟨S_, .i32⟩ : BufTy).Contents (Elt F) → (⟨S4x512x512, .i32⟩ : BufTy).Contents (Elt F))
  :: binary main_v18 main_v68 main_v69 (cmpi .slt : (⟨S4x512x512, .i32⟩ : BufTy).Contents (Elt F) → (⟨S4x512x512, .i32⟩ : BufTy).Contents (Elt F) → (⟨S4x512x512, .i1⟩ : BufTy).Contents (Elt F))
  :: nullary main_c_22 (constantI S_ 32 33#32)
  :: unary main_c_22 main_v70 (broadcastInDim S4x512x512 ![] bcast_S_S4x512x512 : (⟨S_, .i32⟩ : BufTy).Contents (Elt F) → (⟨S4x512x512, .i32⟩ : BufTy).Contents (Elt F))
  :: binary main_v18 main_v70 main_v71 (addi : (⟨S4x512x512, .i32⟩ : BufTy).Contents (Elt F) → (⟨S4x512x512, .i32⟩ : BufTy).Contents (Elt F) → (⟨S4x512x512, .i32⟩ : BufTy).Contents (Elt F))
  :: ternary main_v69 main_v71 main_v18 main_v72 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F))
  :: nullary main_c_23 (constantI S_ 32 0#32)
  :: unary main_c_23 main_v73 (broadcastInDim S4x512x512 ![] bcast_S_S4x512x512 : (⟨S_, .i32⟩ : BufTy).Contents (Elt F) → (⟨S4x512x512, .i32⟩ : BufTy).Contents (Elt F))
  :: binary main_v27 main_v73 main_v74 (cmpi .slt : (⟨S4x512x512, .i32⟩ : BufTy).Contents (Elt F) → (⟨S4x512x512, .i32⟩ : BufTy).Contents (Elt F) → (⟨S4x512x512, .i1⟩ : BufTy).Contents (Elt F))
  :: nullary main_c_24 (constantI S_ 32 33#32)
  :: unary main_c_24 main_v75 (broadcastInDim S4x512x512 ![] bcast_S_S4x512x512 : (⟨S_, .i32⟩ : BufTy).Contents (Elt F) → (⟨S4x512x512, .i32⟩ : BufTy).Contents (Elt F))
  :: binary main_v27 main_v75 main_v76 (addi : (⟨S4x512x512, .i32⟩ : BufTy).Contents (Elt F) → (⟨S4x512x512, .i32⟩ : BufTy).Contents (Elt F) → (⟨S4x512x512, .i32⟩ : BufTy).Contents (Elt F))
  :: ternary main_v74 main_v76 main_v27 main_v77 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F))
  :: unary main_v67 main_v78 (broadcastInDim S4x512x512x1 ![0, 1, 2] bcast_S4x512x512_S4x512x512x1_0_1_2 : (⟨S4x512x512, .i32⟩ : BufTy).Contents (Elt F) → (⟨S4x512x512x1, .i32⟩ : BufTy).Contents (Elt F))
  :: unary main_v72 main_v79 (broadcastInDim S4x512x512x1 ![0, 1, 2] bcast_S4x512x512_S4x512x512x1_0_1_2 : (⟨S4x512x512, .i32⟩ : BufTy).Contents (Elt F) → (⟨S4x512x512x1, .i32⟩ : BufTy).Contents (Elt F))
  :: unary main_v77 main_v80 (broadcastInDim S4x512x512x1 ![0, 1, 2] bcast_S4x512x512_S4x512x512x1_0_1_2 : (⟨S4x512x512, .i32⟩ : BufTy).Contents (Elt F) → (⟨S4x512x512x1, .i32⟩ : BufTy).Contents (Elt F))
  :: nary ![main_v78, main_v79, main_v80] main_v81 (fun u => concatenate S4x512x512x3 3 [⟨S4x512x512x1, u 0⟩, ⟨S4x512x512x1, u 1⟩, ⟨S4x512x512x1, u 2⟩] concatenates_S4x512x512x1_S4x512x512x1_S4x512x512x1_S4x512x512x3_d3)
  :: binary main_v1 main_v81 main_v82 ((fun x i => Host.gather gather_S8x3x33x33x33_S4x512x512x3_S8x3x4x512x512_01_234_n_n_234_3_83111 x i) : (⟨S8x3x33x33x33, .f32⟩ : BufTy).Contents (Elt F) → (⟨S4x512x512x3, .i32⟩ : BufTy).Contents (Elt F) → (⟨S8x3x4x512x512, .f32⟩ : BufTy).Contents (Elt F))
  :: binary main_v37 main_v35 main_v83 (mulf : (⟨S4x512x512, .f32⟩ : BufTy).Contents (Elt F) → (⟨S4x512x512, .f32⟩ : BufTy).Contents (Elt F) → (⟨S4x512x512, .f32⟩ : BufTy).Contents (Elt F))
  :: binary main_v83 main_v15 main_v84 (mulf : (⟨S4x512x512, .f32⟩ : BufTy).Contents (Elt F) → (⟨S4x512x512, .f32⟩ : BufTy).Contents (Elt F) → (⟨S4x512x512, .f32⟩ : BufTy).Contents (Elt F))
  :: unary main_v84 main_v85 (broadcastInDim S1x1x4x512x512 ![2, 3, 4] bcast_S4x512x512_S1x1x4x512x512_2_3_4 : (⟨S4x512x512, .f32⟩ : BufTy).Contents (Elt F) → (⟨S1x1x4x512x512, .f32⟩ : BufTy).Contents (Elt F))
  :: unary main_v85 main_v86 (broadcastInDim S8x3x4x512x512 ![0, 1, 2, 3, 4] bcast_S1x1x4x512x512_S8x3x4x512x512_0_1_2_3_4 : (⟨S1x1x4x512x512, .f32⟩ : BufTy).Contents (Elt F) → (⟨S8x3x4x512x512, .f32⟩ : BufTy).Contents (Elt F))
  :: binary main_v82 main_v86 main_v87 (mulf : (⟨S8x3x4x512x512, .f32⟩ : BufTy).Contents (Elt F) → (⟨S8x3x4x512x512, .f32⟩ : BufTy).Contents (Elt F) → (⟨S8x3x4x512x512, .f32⟩ : BufTy).Contents (Elt F))
  :: binary main_v62 main_v87 main_v88 (addf : (⟨S8x3x4x512x512, .f32⟩ : BufTy).Contents (Elt F) → (⟨S8x3x4x512x512, .f32⟩ : BufTy).Contents (Elt F) → (⟨S8x3x4x512x512, .f32⟩ : BufTy).Contents (Elt F))
  :: nullary main_c_25 (constantI S_ 32 0#32)
  :: unary main_c_25 main_v89 (broadcastInDim S4x512x512 ![] bcast_S_S4x512x512 : (⟨S_, .i32⟩ : BufTy).Contents (Elt F) → (⟨S4x512x512, .i32⟩ : BufTy).Contents (Elt F))
  :: binary main_v23 main_v89 main_v90 (cmpi .slt : (⟨S4x512x512, .i32⟩ : BufTy).Contents (Elt F) → (⟨S4x512x512, .i32⟩ : BufTy).Contents (Elt F) → (⟨S4x512x512, .i1⟩ : BufTy).Contents (Elt F))
  :: nullary main_c_26 (constantI S_ 32 33#32)
  :: [] )

set_option maxRecDepth 16384 in
set_option maxHeartbeats 40000000 in
/-- Window 1 of @main is its operations run in order. -/
theorem part1_eq (d : Dev nD) : main_part1 (F := F) d = seq ops1 := rfl

set_option maxRecDepth 16384 in
set_option maxHeartbeats 40000000 in
/-- Each touches TensorCore buffers only. -/
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., binary_bufs_sub .., binary_bufs_sub .., unary_bufs_sub .., unary_bufs_sub .., binary_bufs_sub .., binary_bufs_sub .., nullary_bufs_sub .., unary_bufs_sub .., binary_bufs_sub .., nullary_bufs_sub ..⟩

set_option maxRecDepth 16384 in
set_option maxHeartbeats 40000000 in
/-- None allocates, and none writes an argument: each writes its one result buffer. -/
theorem ops1_facts : (ops1 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩

set_option maxHeartbeats 40000000 in
/-- The 60 operations of window 2 of @main, in order (a called function's operations stand in its call's place). -/
abbrev ops2 : List (HloOp τ sig (Elt F)) :=
  ( unary main_c_26 main_v91 (broadcastInDim S4x512x512 ![] bcast_S_S4x512x512 : (⟨S_, .i32⟩ : BufTy).Contents (Elt F) → (⟨S4x512x512, .i32⟩ : BufTy).Contents (Elt F))
  :: binary main_v23 main_v91 main_v92 (addi : (⟨S4x512x512, .i32⟩ : BufTy).Contents (Elt F) → (⟨S4x512x512, .i32⟩ : BufTy).Contents (Elt F) → (⟨S4x512x512, .i32⟩ : BufTy).Contents (Elt F))
  :: ternary main_v90 main_v92 main_v23 main_v93 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F))
  :: nullary main_c_27 (constantI S_ 32 0#32)
  :: unary main_c_27 main_v94 (broadcastInDim S4x512x512 ![] bcast_S_S4x512x512 : (⟨S_, .i32⟩ : BufTy).Contents (Elt F) → (⟨S4x512x512, .i32⟩ : BufTy).Contents (Elt F))
  :: binary main_v29 main_v94 main_v95 (cmpi .slt : (⟨S4x512x512, .i32⟩ : BufTy).Contents (Elt F) → (⟨S4x512x512, .i32⟩ : BufTy).Contents (Elt F) → (⟨S4x512x512, .i1⟩ : BufTy).Contents (Elt F))
  :: nullary main_c_28 (constantI S_ 32 33#32)
  :: unary main_c_28 main_v96 (broadcastInDim S4x512x512 ![] bcast_S_S4x512x512 : (⟨S_, .i32⟩ : BufTy).Contents (Elt F) → (⟨S4x512x512, .i32⟩ : BufTy).Contents (Elt F))
  :: binary main_v29 main_v96 main_v97 (addi : (⟨S4x512x512, .i32⟩ : BufTy).Contents (Elt F) → (⟨S4x512x512, .i32⟩ : BufTy).Contents (Elt F) → (⟨S4x512x512, .i32⟩ : BufTy).Contents (Elt F))
  :: ternary main_v95 main_v97 main_v29 main_v98 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F))
  :: nullary main_c_29 (constantI S_ 32 0#32)
  :: unary main_c_29 main_v99 (broadcastInDim S4x512x512 ![] bcast_S_S4x512x512 : (⟨S_, .i32⟩ : BufTy).Contents (Elt F) → (⟨S4x512x512, .i32⟩ : BufTy).Contents (Elt F))
  :: binary main_v13 main_v99 main_v100 (cmpi .slt : (⟨S4x512x512, .i32⟩ : BufTy).Contents (Elt F) → (⟨S4x512x512, .i32⟩ : BufTy).Contents (Elt F) → (⟨S4x512x512, .i1⟩ : BufTy).Contents (Elt F))
  :: nullary main_c_30 (constantI S_ 32 33#32)
  :: unary main_c_30 main_v101 (broadcastInDim S4x512x512 ![] bcast_S_S4x512x512 : (⟨S_, .i32⟩ : BufTy).Contents (Elt F) → (⟨S4x512x512, .i32⟩ : BufTy).Contents (Elt F))
  :: binary main_v13 main_v101 main_v102 (addi : (⟨S4x512x512, .i32⟩ : BufTy).Contents (Elt F) → (⟨S4x512x512, .i32⟩ : BufTy).Contents (Elt F) → (⟨S4x512x512, .i32⟩ : BufTy).Contents (Elt F))
  :: ternary main_v100 main_v102 main_v13 main_v103 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F))
  :: unary main_v93 main_v104 (broadcastInDim S4x512x512x1 ![0, 1, 2] bcast_S4x512x512_S4x512x512x1_0_1_2 : (⟨S4x512x512, .i32⟩ : BufTy).Contents (Elt F) → (⟨S4x512x512x1, .i32⟩ : BufTy).Contents (Elt F))
  :: unary main_v98 main_v105 (broadcastInDim S4x512x512x1 ![0, 1, 2] bcast_S4x512x512_S4x512x512x1_0_1_2 : (⟨S4x512x512, .i32⟩ : BufTy).Contents (Elt F) → (⟨S4x512x512x1, .i32⟩ : BufTy).Contents (Elt F))
  :: unary main_v103 main_v106 (broadcastInDim S4x512x512x1 ![0, 1, 2] bcast_S4x512x512_S4x512x512x1_0_1_2 : (⟨S4x512x512, .i32⟩ : BufTy).Contents (Elt F) → (⟨S4x512x512x1, .i32⟩ : BufTy).Contents (Elt F))
  :: nary ![main_v104, main_v105, main_v106] main_v107 (fun u => concatenate S4x512x512x3 3 [⟨S4x512x512x1, u 0⟩, ⟨S4x512x512x1, u 1⟩, ⟨S4x512x512x1, u 2⟩] concatenates_S4x512x512x1_S4x512x512x1_S4x512x512x1_S4x512x512x3_d3)
  :: binary main_v1 main_v107 main_v108 ((fun x i => Host.gather gather_S8x3x33x33x33_S4x512x512x3_S8x3x4x512x512_01_234_n_n_234_3_83111 x i) : (⟨S8x3x33x33x33, .f32⟩ : BufTy).Contents (Elt F) → (⟨S4x512x512x3, .i32⟩ : BufTy).Contents (Elt F) → (⟨S8x3x4x512x512, .f32⟩ : BufTy).Contents (Elt F))
  :: binary main_v37 main_v20 main_v109 (mulf : (⟨S4x512x512, .f32⟩ : BufTy).Contents (Elt F) → (⟨S4x512x512, .f32⟩ : BufTy).Contents (Elt F) → (⟨S4x512x512, .f32⟩ : BufTy).Contents (Elt F))
  :: binary main_v109 main_v33 main_v110 (mulf : (⟨S4x512x512, .f32⟩ : BufTy).Contents (Elt F) → (⟨S4x512x512, .f32⟩ : BufTy).Contents (Elt F) → (⟨S4x512x512, .f32⟩ : BufTy).Contents (Elt F))
  :: unary main_v110 main_v111 (broadcastInDim S1x1x4x512x512 ![2, 3, 4] bcast_S4x512x512_S1x1x4x512x512_2_3_4 : (⟨S4x512x512, .f32⟩ : BufTy).Contents (Elt F) → (⟨S1x1x4x512x512, .f32⟩ : BufTy).Contents (Elt F))
  :: unary main_v111 main_v112 (broadcastInDim S8x3x4x512x512 ![0, 1, 2, 3, 4] bcast_S1x1x4x512x512_S8x3x4x512x512_0_1_2_3_4 : (⟨S1x1x4x512x512, .f32⟩ : BufTy).Contents (Elt F) → (⟨S8x3x4x512x512, .f32⟩ : BufTy).Contents (Elt F))
  :: binary main_v108 main_v112 main_v113 (mulf : (⟨S8x3x4x512x512, .f32⟩ : BufTy).Contents (Elt F) → (⟨S8x3x4x512x512, .f32⟩ : BufTy).Contents (Elt F) → (⟨S8x3x4x512x512, .f32⟩ : BufTy).Contents (Elt F))
  :: binary main_v88 main_v113 main_v114 (addf : (⟨S8x3x4x512x512, .f32⟩ : BufTy).Contents (Elt F) → (⟨S8x3x4x512x512, .f32⟩ : BufTy).Contents (Elt F) → (⟨S8x3x4x512x512, .f32⟩ : BufTy).Contents (Elt F))
  :: nullary main_c_31 (constantI S_ 32 0#32)
  :: unary main_c_31 main_v115 (broadcastInDim S4x512x512 ![] bcast_S_S4x512x512 : (⟨S_, .i32⟩ : BufTy).Contents (Elt F) → (⟨S4x512x512, .i32⟩ : BufTy).Contents (Elt F))
  :: binary main_v23 main_v115 main_v116 (cmpi .slt : (⟨S4x512x512, .i32⟩ : BufTy).Contents (Elt F) → (⟨S4x512x512, .i32⟩ : BufTy).Contents (Elt F) → (⟨S4x512x512, .i1⟩ : BufTy).Contents (Elt F))
  :: nullary main_c_32 (constantI S_ 32 33#32)
  :: unary main_c_32 main_v117 (broadcastInDim S4x512x512 ![] bcast_S_S4x512x512 : (⟨S_, .i32⟩ : BufTy).Contents (Elt F) → (⟨S4x512x512, .i32⟩ : BufTy).Contents (Elt F))
  :: binary main_v23 main_v117 main_v118 (addi : (⟨S4x512x512, .i32⟩ : BufTy).Contents (Elt F) → (⟨S4x512x512, .i32⟩ : BufTy).Contents (Elt F) → (⟨S4x512x512, .i32⟩ : BufTy).Contents (Elt F))
  :: ternary main_v116 main_v118 main_v23 main_v119 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F))
  :: nullary main_c_33 (constantI S_ 32 0#32)
  :: unary main_c_33 main_v120 (broadcastInDim S4x512x512 ![] bcast_S_S4x512x512 : (⟨S_, .i32⟩ : BufTy).Contents (Elt F) → (⟨S4x512x512, .i32⟩ : BufTy).Contents (Elt F))
  :: binary main_v29 main_v120 main_v121 (cmpi .slt : (⟨S4x512x512, .i32⟩ : BufTy).Contents (Elt F) → (⟨S4x512x512, .i32⟩ : BufTy).Contents (Elt F) → (⟨S4x512x512, .i1⟩ : BufTy).Contents (Elt F))
  :: nullary main_c_34 (constantI S_ 32 33#32)
  :: unary main_c_34 main_v122 (broadcastInDim S4x512x512 ![] bcast_S_S4x512x512 : (⟨S_, .i32⟩ : BufTy).Contents (Elt F) → (⟨S4x512x512, .i32⟩ : BufTy).Contents (Elt F))
  :: binary main_v29 main_v122 main_v123 (addi : (⟨S4x512x512, .i32⟩ : BufTy).Contents (Elt F) → (⟨S4x512x512, .i32⟩ : BufTy).Contents (Elt F) → (⟨S4x512x512, .i32⟩ : BufTy).Contents (Elt F))
  :: ternary main_v121 main_v123 main_v29 main_v124 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F))
  :: nullary main_c_35 (constantI S_ 32 0#32)
  :: unary main_c_35 main_v125 (broadcastInDim S4x512x512 ![] bcast_S_S4x512x512 : (⟨S_, .i32⟩ : BufTy).Contents (Elt F) → (⟨S4x512x512, .i32⟩ : BufTy).Contents (Elt F))
  :: binary main_v27 main_v125 main_v126 (cmpi .slt : (⟨S4x512x512, .i32⟩ : BufTy).Contents (Elt F) → (⟨S4x512x512, .i32⟩ : BufTy).Contents (Elt F) → (⟨S4x512x512, .i1⟩ : BufTy).Contents (Elt F))
  :: nullary main_c_36 (constantI S_ 32 33#32)
  :: unary main_c_36 main_v127 (broadcastInDim S4x512x512 ![] bcast_S_S4x512x512 : (⟨S_, .i32⟩ : BufTy).Contents (Elt F) → (⟨S4x512x512, .i32⟩ : BufTy).Contents (Elt F))
  :: binary main_v27 main_v127 main_v128 (addi : (⟨S4x512x512, .i32⟩ : BufTy).Contents (Elt F) → (⟨S4x512x512, .i32⟩ : BufTy).Contents (Elt F) → (⟨S4x512x512, .i32⟩ : BufTy).Contents (Elt F))
  :: ternary main_v126 main_v128 main_v27 main_v129 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F))
  :: unary main_v119 main_v130 (broadcastInDim S4x512x512x1 ![0, 1, 2] bcast_S4x512x512_S4x512x512x1_0_1_2 : (⟨S4x512x512, .i32⟩ : BufTy).Contents (Elt F) → (⟨S4x512x512x1, .i32⟩ : BufTy).Contents (Elt F))
  :: unary main_v124 main_v131 (broadcastInDim S4x512x512x1 ![0, 1, 2] bcast_S4x512x512_S4x512x512x1_0_1_2 : (⟨S4x512x512, .i32⟩ : BufTy).Contents (Elt F) → (⟨S4x512x512x1, .i32⟩ : BufTy).Contents (Elt F))
  :: unary main_v129 main_v132 (broadcastInDim S4x512x512x1 ![0, 1, 2] bcast_S4x512x512_S4x512x512x1_0_1_2 : (⟨S4x512x512, .i32⟩ : BufTy).Contents (Elt F) → (⟨S4x512x512x1, .i32⟩ : BufTy).Contents (Elt F))
  :: nary ![main_v130, main_v131, main_v132] main_v133 (fun u => concatenate S4x512x512x3 3 [⟨S4x512x512x1, u 0⟩, ⟨S4x512x512x1, u 1⟩, ⟨S4x512x512x1, u 2⟩] concatenates_S4x512x512x1_S4x512x512x1_S4x512x512x1_S4x512x512x3_d3)
  :: binary main_v1 main_v133 main_v134 ((fun x i => Host.gather gather_S8x3x33x33x33_S4x512x512x3_S8x3x4x512x512_01_234_n_n_234_3_83111 x i) : (⟨S8x3x33x33x33, .f32⟩ : BufTy).Contents (Elt F) → (⟨S4x512x512x3, .i32⟩ : BufTy).Contents (Elt F) → (⟨S8x3x4x512x512, .f32⟩ : BufTy).Contents (Elt F))
  :: binary main_v37 main_v20 main_v135 (mulf : (⟨S4x512x512, .f32⟩ : BufTy).Contents (Elt F) → (⟨S4x512x512, .f32⟩ : BufTy).Contents (Elt F) → (⟨S4x512x512, .f32⟩ : BufTy).Contents (Elt F))
  :: binary main_v135 main_v15 main_v136 (mulf : (⟨S4x512x512, .f32⟩ : BufTy).Contents (Elt F) → (⟨S4x512x512, .f32⟩ : BufTy).Contents (Elt F) → (⟨S4x512x512, .f32⟩ : BufTy).Contents (Elt F))
  :: unary main_v136 main_v137 (broadcastInDim S1x1x4x512x512 ![2, 3, 4] bcast_S4x512x512_S1x1x4x512x512_2_3_4 : (⟨S4x512x512, .f32⟩ : BufTy).Contents (Elt F) → (⟨S1x1x4x512x512, .f32⟩ : BufTy).Contents (Elt F))
  :: unary main_v137 main_v138 (broadcastInDim S8x3x4x512x512 ![0, 1, 2, 3, 4] bcast_S1x1x4x512x512_S8x3x4x512x512_0_1_2_3_4 : (⟨S1x1x4x512x512, .f32⟩ : BufTy).Contents (Elt F) → (⟨S8x3x4x512x512, .f32⟩ : BufTy).Contents (Elt F))
  :: binary main_v134 main_v138 main_v139 (mulf : (⟨S8x3x4x512x512, .f32⟩ : BufTy).Contents (Elt F) → (⟨S8x3x4x512x512, .f32⟩ : BufTy).Contents (Elt F) → (⟨S8x3x4x512x512, .f32⟩ : BufTy).Contents (Elt F))
  :: binary main_v114 main_v139 main_v140 (addf : (⟨S8x3x4x512x512, .f32⟩ : BufTy).Contents (Elt F) → (⟨S8x3x4x512x512, .f32⟩ : BufTy).Contents (Elt F) → (⟨S8x3x4x512x512, .f32⟩ : BufTy).Contents (Elt F))
  :: [] )

set_option maxRecDepth 16384 in
set_option maxHeartbeats 40000000 in
/-- Window 2 of @main is its operations run in order. -/
theorem part2_eq (d : Dev nD) : main_part2 (F := F) d = seq ops2 := rfl

set_option maxRecDepth 16384 in
set_option maxHeartbeats 40000000 in
/-- Each touches TensorCore buffers only. -/
theorem ops2_sub : (ops2 : List (HloOp τ sig (Elt F))).Forall fun op => op.bufs ⊆ tcRefs τ sig :=
  ⟨unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., binary_bufs_sub .., binary_bufs_sub .., unary_bufs_sub .., unary_bufs_sub .., binary_bufs_sub .., binary_bufs_sub ..⟩

set_option maxRecDepth 16384 in
set_option maxHeartbeats 40000000 in
/-- None allocates, and none writes an argument: each writes its one result buffer. -/
theorem ops2_facts : (ops2 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩

set_option maxHeartbeats 40000000 in
/-- The 60 operations of window 3 of @main, in order (a called function's operations stand in its call's place). -/
abbrev ops3 : List (HloOp τ sig (Elt F)) :=
  ( nullary main_c_37 (constantI S_ 32 0#32)
  :: unary main_c_37 main_v141 (broadcastInDim S4x512x512 ![] bcast_S_S4x512x512 : (⟨S_, .i32⟩ : BufTy).Contents (Elt F) → (⟨S4x512x512, .i32⟩ : BufTy).Contents (Elt F))
  :: binary main_v31 main_v141 main_v142 (cmpi .slt : (⟨S4x512x512, .i32⟩ : BufTy).Contents (Elt F) → (⟨S4x512x512, .i32⟩ : BufTy).Contents (Elt F) → (⟨S4x512x512, .i1⟩ : BufTy).Contents (Elt F))
  :: nullary main_c_38 (constantI S_ 32 33#32)
  :: unary main_c_38 main_v143 (broadcastInDim S4x512x512 ![] bcast_S_S4x512x512 : (⟨S_, .i32⟩ : BufTy).Contents (Elt F) → (⟨S4x512x512, .i32⟩ : BufTy).Contents (Elt F))
  :: binary main_v31 main_v143 main_v144 (addi : (⟨S4x512x512, .i32⟩ : BufTy).Contents (Elt F) → (⟨S4x512x512, .i32⟩ : BufTy).Contents (Elt F) → (⟨S4x512x512, .i32⟩ : BufTy).Contents (Elt F))
  :: ternary main_v142 main_v144 main_v31 main_v145 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F))
  :: nullary main_c_39 (constantI S_ 32 0#32)
  :: unary main_c_39 main_v146 (broadcastInDim S4x512x512 ![] bcast_S_S4x512x512 : (⟨S_, .i32⟩ : BufTy).Contents (Elt F) → (⟨S4x512x512, .i32⟩ : BufTy).Contents (Elt F))
  :: binary main_v18 main_v146 main_v147 (cmpi .slt : (⟨S4x512x512, .i32⟩ : BufTy).Contents (Elt F) → (⟨S4x512x512, .i32⟩ : BufTy).Contents (Elt F) → (⟨S4x512x512, .i1⟩ : BufTy).Contents (Elt F))
  :: nullary main_c_40 (constantI S_ 32 33#32)
  :: unary main_c_40 main_v148 (broadcastInDim S4x512x512 ![] bcast_S_S4x512x512 : (⟨S_, .i32⟩ : BufTy).Contents (Elt F) → (⟨S4x512x512, .i32⟩ : BufTy).Contents (Elt F))
  :: binary main_v18 main_v148 main_v149 (addi : (⟨S4x512x512, .i32⟩ : BufTy).Contents (Elt F) → (⟨S4x512x512, .i32⟩ : BufTy).Contents (Elt F) → (⟨S4x512x512, .i32⟩ : BufTy).Contents (Elt F))
  :: ternary main_v147 main_v149 main_v18 main_v150 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F))
  :: nullary main_c_41 (constantI S_ 32 0#32)
  :: unary main_c_41 main_v151 (broadcastInDim S4x512x512 ![] bcast_S_S4x512x512 : (⟨S_, .i32⟩ : BufTy).Contents (Elt F) → (⟨S4x512x512, .i32⟩ : BufTy).Contents (Elt F))
  :: binary main_v13 main_v151 main_v152 (cmpi .slt : (⟨S4x512x512, .i32⟩ : BufTy).Contents (Elt F) → (⟨S4x512x512, .i32⟩ : BufTy).Contents (Elt F) → (⟨S4x512x512, .i1⟩ : BufTy).Contents (Elt F))
  :: nullary main_c_42 (constantI S_ 32 33#32)
  :: unary main_c_42 main_v153 (broadcastInDim S4x512x512 ![] bcast_S_S4x512x512 : (⟨S_, .i32⟩ : BufTy).Contents (Elt F) → (⟨S4x512x512, .i32⟩ : BufTy).Contents (Elt F))
  :: binary main_v13 main_v153 main_v154 (addi : (⟨S4x512x512, .i32⟩ : BufTy).Contents (Elt F) → (⟨S4x512x512, .i32⟩ : BufTy).Contents (Elt F) → (⟨S4x512x512, .i32⟩ : BufTy).Contents (Elt F))
  :: ternary main_v152 main_v154 main_v13 main_v155 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F))
  :: unary main_v145 main_v156 (broadcastInDim S4x512x512x1 ![0, 1, 2] bcast_S4x512x512_S4x512x512x1_0_1_2 : (⟨S4x512x512, .i32⟩ : BufTy).Contents (Elt F) → (⟨S4x512x512x1, .i32⟩ : BufTy).Contents (Elt F))
  :: unary main_v150 main_v157 (broadcastInDim S4x512x512x1 ![0, 1, 2] bcast_S4x512x512_S4x512x512x1_0_1_2 : (⟨S4x512x512, .i32⟩ : BufTy).Contents (Elt F) → (⟨S4x512x512x1, .i32⟩ : BufTy).Contents (Elt F))
  :: unary main_v155 main_v158 (broadcastInDim S4x512x512x1 ![0, 1, 2] bcast_S4x512x512_S4x512x512x1_0_1_2 : (⟨S4x512x512, .i32⟩ : BufTy).Contents (Elt F) → (⟨S4x512x512x1, .i32⟩ : BufTy).Contents (Elt F))
  :: nary ![main_v156, main_v157, main_v158] main_v159 (fun u => concatenate S4x512x512x3 3 [⟨S4x512x512x1, u 0⟩, ⟨S4x512x512x1, u 1⟩, ⟨S4x512x512x1, u 2⟩] concatenates_S4x512x512x1_S4x512x512x1_S4x512x512x1_S4x512x512x3_d3)
  :: binary main_v1 main_v159 main_v160 ((fun x i => Host.gather gather_S8x3x33x33x33_S4x512x512x3_S8x3x4x512x512_01_234_n_n_234_3_83111 x i) : (⟨S8x3x33x33x33, .f32⟩ : BufTy).Contents (Elt F) → (⟨S4x512x512x3, .i32⟩ : BufTy).Contents (Elt F) → (⟨S8x3x4x512x512, .f32⟩ : BufTy).Contents (Elt F))
  :: binary main_v25 main_v35 main_v161 (mulf : (⟨S4x512x512, .f32⟩ : BufTy).Contents (Elt F) → (⟨S4x512x512, .f32⟩ : BufTy).Contents (Elt F) → (⟨S4x512x512, .f32⟩ : BufTy).Contents (Elt F))
  :: binary main_v161 main_v33 main_v162 (mulf : (⟨S4x512x512, .f32⟩ : BufTy).Contents (Elt F) → (⟨S4x512x512, .f32⟩ : BufTy).Contents (Elt F) → (⟨S4x512x512, .f32⟩ : BufTy).Contents (Elt F))
  :: unary main_v162 main_v163 (broadcastInDim S1x1x4x512x512 ![2, 3, 4] bcast_S4x512x512_S1x1x4x512x512_2_3_4 : (⟨S4x512x512, .f32⟩ : BufTy).Contents (Elt F) → (⟨S1x1x4x512x512, .f32⟩ : BufTy).Contents (Elt F))
  :: unary main_v163 main_v164 (broadcastInDim S8x3x4x512x512 ![0, 1, 2, 3, 4] bcast_S1x1x4x512x512_S8x3x4x512x512_0_1_2_3_4 : (⟨S1x1x4x512x512, .f32⟩ : BufTy).Contents (Elt F) → (⟨S8x3x4x512x512, .f32⟩ : BufTy).Contents (Elt F))
  :: binary main_v160 main_v164 main_v165 (mulf : (⟨S8x3x4x512x512, .f32⟩ : BufTy).Contents (Elt F) → (⟨S8x3x4x512x512, .f32⟩ : BufTy).Contents (Elt F) → (⟨S8x3x4x512x512, .f32⟩ : BufTy).Contents (Elt F))
  :: binary main_v140 main_v165 main_v166 (addf : (⟨S8x3x4x512x512, .f32⟩ : BufTy).Contents (Elt F) → (⟨S8x3x4x512x512, .f32⟩ : BufTy).Contents (Elt F) → (⟨S8x3x4x512x512, .f32⟩ : BufTy).Contents (Elt F))
  :: nullary main_c_43 (constantI S_ 32 0#32)
  :: unary main_c_43 main_v167 (broadcastInDim S4x512x512 ![] bcast_S_S4x512x512 : (⟨S_, .i32⟩ : BufTy).Contents (Elt F) → (⟨S4x512x512, .i32⟩ : BufTy).Contents (Elt F))
  :: binary main_v31 main_v167 main_v168 (cmpi .slt : (⟨S4x512x512, .i32⟩ : BufTy).Contents (Elt F) → (⟨S4x512x512, .i32⟩ : BufTy).Contents (Elt F) → (⟨S4x512x512, .i1⟩ : BufTy).Contents (Elt F))
  :: nullary main_c_44 (constantI S_ 32 33#32)
  :: unary main_c_44 main_v169 (broadcastInDim S4x512x512 ![] bcast_S_S4x512x512 : (⟨S_, .i32⟩ : BufTy).Contents (Elt F) → (⟨S4x512x512, .i32⟩ : BufTy).Contents (Elt F))
  :: binary main_v31 main_v169 main_v170 (addi : (⟨S4x512x512, .i32⟩ : BufTy).Contents (Elt F) → (⟨S4x512x512, .i32⟩ : BufTy).Contents (Elt F) → (⟨S4x512x512, .i32⟩ : BufTy).Contents (Elt F))
  :: ternary main_v168 main_v170 main_v31 main_v171 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F))
  :: nullary main_c_45 (constantI S_ 32 0#32)
  :: unary main_c_45 main_v172 (broadcastInDim S4x512x512 ![] bcast_S_S4x512x512 : (⟨S_, .i32⟩ : BufTy).Contents (Elt F) → (⟨S4x512x512, .i32⟩ : BufTy).Contents (Elt F))
  :: binary main_v18 main_v172 main_v173 (cmpi .slt : (⟨S4x512x512, .i32⟩ : BufTy).Contents (Elt F) → (⟨S4x512x512, .i32⟩ : BufTy).Contents (Elt F) → (⟨S4x512x512, .i1⟩ : BufTy).Contents (Elt F))
  :: nullary main_c_46 (constantI S_ 32 33#32)
  :: unary main_c_46 main_v174 (broadcastInDim S4x512x512 ![] bcast_S_S4x512x512 : (⟨S_, .i32⟩ : BufTy).Contents (Elt F) → (⟨S4x512x512, .i32⟩ : BufTy).Contents (Elt F))
  :: binary main_v18 main_v174 main_v175 (addi : (⟨S4x512x512, .i32⟩ : BufTy).Contents (Elt F) → (⟨S4x512x512, .i32⟩ : BufTy).Contents (Elt F) → (⟨S4x512x512, .i32⟩ : BufTy).Contents (Elt F))
  :: ternary main_v173 main_v175 main_v18 main_v176 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F))
  :: nullary main_c_47 (constantI S_ 32 0#32)
  :: unary main_c_47 main_v177 (broadcastInDim S4x512x512 ![] bcast_S_S4x512x512 : (⟨S_, .i32⟩ : BufTy).Contents (Elt F) → (⟨S4x512x512, .i32⟩ : BufTy).Contents (Elt F))
  :: binary main_v27 main_v177 main_v178 (cmpi .slt : (⟨S4x512x512, .i32⟩ : BufTy).Contents (Elt F) → (⟨S4x512x512, .i32⟩ : BufTy).Contents (Elt F) → (⟨S4x512x512, .i1⟩ : BufTy).Contents (Elt F))
  :: nullary main_c_48 (constantI S_ 32 33#32)
  :: unary main_c_48 main_v179 (broadcastInDim S4x512x512 ![] bcast_S_S4x512x512 : (⟨S_, .i32⟩ : BufTy).Contents (Elt F) → (⟨S4x512x512, .i32⟩ : BufTy).Contents (Elt F))
  :: binary main_v27 main_v179 main_v180 (addi : (⟨S4x512x512, .i32⟩ : BufTy).Contents (Elt F) → (⟨S4x512x512, .i32⟩ : BufTy).Contents (Elt F) → (⟨S4x512x512, .i32⟩ : BufTy).Contents (Elt F))
  :: ternary main_v178 main_v180 main_v27 main_v181 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F))
  :: unary main_v171 main_v182 (broadcastInDim S4x512x512x1 ![0, 1, 2] bcast_S4x512x512_S4x512x512x1_0_1_2 : (⟨S4x512x512, .i32⟩ : BufTy).Contents (Elt F) → (⟨S4x512x512x1, .i32⟩ : BufTy).Contents (Elt F))
  :: unary main_v176 main_v183 (broadcastInDim S4x512x512x1 ![0, 1, 2] bcast_S4x512x512_S4x512x512x1_0_1_2 : (⟨S4x512x512, .i32⟩ : BufTy).Contents (Elt F) → (⟨S4x512x512x1, .i32⟩ : BufTy).Contents (Elt F))
  :: unary main_v181 main_v184 (broadcastInDim S4x512x512x1 ![0, 1, 2] bcast_S4x512x512_S4x512x512x1_0_1_2 : (⟨S4x512x512, .i32⟩ : BufTy).Contents (Elt F) → (⟨S4x512x512x1, .i32⟩ : BufTy).Contents (Elt F))
  :: nary ![main_v182, main_v183, main_v184] main_v185 (fun u => concatenate S4x512x512x3 3 [⟨S4x512x512x1, u 0⟩, ⟨S4x512x512x1, u 1⟩, ⟨S4x512x512x1, u 2⟩] concatenates_S4x512x512x1_S4x512x512x1_S4x512x512x1_S4x512x512x3_d3)
  :: binary main_v1 main_v185 main_v186 ((fun x i => Host.gather gather_S8x3x33x33x33_S4x512x512x3_S8x3x4x512x512_01_234_n_n_234_3_83111 x i) : (⟨S8x3x33x33x33, .f32⟩ : BufTy).Contents (Elt F) → (⟨S4x512x512x3, .i32⟩ : BufTy).Contents (Elt F) → (⟨S8x3x4x512x512, .f32⟩ : BufTy).Contents (Elt F))
  :: binary main_v25 main_v35 main_v187 (mulf : (⟨S4x512x512, .f32⟩ : BufTy).Contents (Elt F) → (⟨S4x512x512, .f32⟩ : BufTy).Contents (Elt F) → (⟨S4x512x512, .f32⟩ : BufTy).Contents (Elt F))
  :: binary main_v187 main_v15 main_v188 (mulf : (⟨S4x512x512, .f32⟩ : BufTy).Contents (Elt F) → (⟨S4x512x512, .f32⟩ : BufTy).Contents (Elt F) → (⟨S4x512x512, .f32⟩ : BufTy).Contents (Elt F))
  :: [] )

set_option maxRecDepth 16384 in
set_option maxHeartbeats 40000000 in
/-- Window 3 of @main is its operations run in order. -/
theorem part3_eq (d : Dev nD) : main_part3 (F := F) d = seq ops3 := rfl

set_option maxRecDepth 16384 in
set_option maxHeartbeats 40000000 in
/-- Each touches TensorCore buffers only. -/
theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., binary_bufs_sub .., binary_bufs_sub ..⟩

set_option maxRecDepth 16384 in
set_option maxHeartbeats 40000000 in
/-- None allocates, and none writes an argument: each writes its one result buffer. -/
theorem ops3_facts : (ops3 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩

set_option maxHeartbeats 40000000 in
/-- The 60 operations of window 4 of @main, in order (a called function's operations stand in its call's place). -/
abbrev ops4 : List (HloOp τ sig (Elt F)) :=
  ( unary main_v188 main_v189 (broadcastInDim S1x1x4x512x512 ![2, 3, 4] bcast_S4x512x512_S1x1x4x512x512_2_3_4 : (⟨S4x512x512, .f32⟩ : BufTy).Contents (Elt F) → (⟨S1x1x4x512x512, .f32⟩ : BufTy).Contents (Elt F))
  :: unary main_v189 main_v190 (broadcastInDim S8x3x4x512x512 ![0, 1, 2, 3, 4] bcast_S1x1x4x512x512_S8x3x4x512x512_0_1_2_3_4 : (⟨S1x1x4x512x512, .f32⟩ : BufTy).Contents (Elt F) → (⟨S8x3x4x512x512, .f32⟩ : BufTy).Contents (Elt F))
  :: binary main_v186 main_v190 main_v191 (mulf : (⟨S8x3x4x512x512, .f32⟩ : BufTy).Contents (Elt F) → (⟨S8x3x4x512x512, .f32⟩ : BufTy).Contents (Elt F) → (⟨S8x3x4x512x512, .f32⟩ : BufTy).Contents (Elt F))
  :: binary main_v166 main_v191 main_v192 (addf : (⟨S8x3x4x512x512, .f32⟩ : BufTy).Contents (Elt F) → (⟨S8x3x4x512x512, .f32⟩ : BufTy).Contents (Elt F) → (⟨S8x3x4x512x512, .f32⟩ : BufTy).Contents (Elt F))
  :: nullary main_c_49 (constantI S_ 32 0#32)
  :: unary main_c_49 main_v193 (broadcastInDim S4x512x512 ![] bcast_S_S4x512x512 : (⟨S_, .i32⟩ : BufTy).Contents (Elt F) → (⟨S4x512x512, .i32⟩ : BufTy).Contents (Elt F))
  :: binary main_v31 main_v193 main_v194 (cmpi .slt : (⟨S4x512x512, .i32⟩ : BufTy).Contents (Elt F) → (⟨S4x512x512, .i32⟩ : BufTy).Contents (Elt F) → (⟨S4x512x512, .i1⟩ : BufTy).Contents (Elt F))
  :: nullary main_c_50 (constantI S_ 32 33#32)
  :: unary main_c_50 main_v195 (broadcastInDim S4x512x512 ![] bcast_S_S4x512x512 : (⟨S_, .i32⟩ : BufTy).Contents (Elt F) → (⟨S4x512x512, .i32⟩ : BufTy).Contents (Elt F))
  :: binary main_v31 main_v195 main_v196 (addi : (⟨S4x512x512, .i32⟩ : BufTy).Contents (Elt F) → (⟨S4x512x512, .i32⟩ : BufTy).Contents (Elt F) → (⟨S4x512x512, .i32⟩ : BufTy).Contents (Elt F))
  :: ternary main_v194 main_v196 main_v31 main_v197 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F))
  :: nullary main_c_51 (constantI S_ 32 0#32)
  :: unary main_c_51 main_v198 (broadcastInDim S4x512x512 ![] bcast_S_S4x512x512 : (⟨S_, .i32⟩ : BufTy).Contents (Elt F) → (⟨S4x512x512, .i32⟩ : BufTy).Contents (Elt F))
  :: binary main_v29 main_v198 main_v199 (cmpi .slt : (⟨S4x512x512, .i32⟩ : BufTy).Contents (Elt F) → (⟨S4x512x512, .i32⟩ : BufTy).Contents (Elt F) → (⟨S4x512x512, .i1⟩ : BufTy).Contents (Elt F))
  :: nullary main_c_52 (constantI S_ 32 33#32)
  :: unary main_c_52 main_v200 (broadcastInDim S4x512x512 ![] bcast_S_S4x512x512 : (⟨S_, .i32⟩ : BufTy).Contents (Elt F) → (⟨S4x512x512, .i32⟩ : BufTy).Contents (Elt F))
  :: binary main_v29 main_v200 main_v201 (addi : (⟨S4x512x512, .i32⟩ : BufTy).Contents (Elt F) → (⟨S4x512x512, .i32⟩ : BufTy).Contents (Elt F) → (⟨S4x512x512, .i32⟩ : BufTy).Contents (Elt F))
  :: ternary main_v199 main_v201 main_v29 main_v202 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F))
  :: nullary main_c_53 (constantI S_ 32 0#32)
  :: unary main_c_53 main_v203 (broadcastInDim S4x512x512 ![] bcast_S_S4x512x512 : (⟨S_, .i32⟩ : BufTy).Contents (Elt F) → (⟨S4x512x512, .i32⟩ : BufTy).Contents (Elt F))
  :: binary main_v13 main_v203 main_v204 (cmpi .slt : (⟨S4x512x512, .i32⟩ : BufTy).Contents (Elt F) → (⟨S4x512x512, .i32⟩ : BufTy).Contents (Elt F) → (⟨S4x512x512, .i1⟩ : BufTy).Contents (Elt F))
  :: nullary main_c_54 (constantI S_ 32 33#32)
  :: unary main_c_54 main_v205 (broadcastInDim S4x512x512 ![] bcast_S_S4x512x512 : (⟨S_, .i32⟩ : BufTy).Contents (Elt F) → (⟨S4x512x512, .i32⟩ : BufTy).Contents (Elt F))
  :: binary main_v13 main_v205 main_v206 (addi : (⟨S4x512x512, .i32⟩ : BufTy).Contents (Elt F) → (⟨S4x512x512, .i32⟩ : BufTy).Contents (Elt F) → (⟨S4x512x512, .i32⟩ : BufTy).Contents (Elt F))
  :: ternary main_v204 main_v206 main_v13 main_v207 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F))
  :: unary main_v197 main_v208 (broadcastInDim S4x512x512x1 ![0, 1, 2] bcast_S4x512x512_S4x512x512x1_0_1_2 : (⟨S4x512x512, .i32⟩ : BufTy).Contents (Elt F) → (⟨S4x512x512x1, .i32⟩ : BufTy).Contents (Elt F))
  :: unary main_v202 main_v209 (broadcastInDim S4x512x512x1 ![0, 1, 2] bcast_S4x512x512_S4x512x512x1_0_1_2 : (⟨S4x512x512, .i32⟩ : BufTy).Contents (Elt F) → (⟨S4x512x512x1, .i32⟩ : BufTy).Contents (Elt F))
  :: unary main_v207 main_v210 (broadcastInDim S4x512x512x1 ![0, 1, 2] bcast_S4x512x512_S4x512x512x1_0_1_2 : (⟨S4x512x512, .i32⟩ : BufTy).Contents (Elt F) → (⟨S4x512x512x1, .i32⟩ : BufTy).Contents (Elt F))
  :: nary ![main_v208, main_v209, main_v210] main_v211 (fun u => concatenate S4x512x512x3 3 [⟨S4x512x512x1, u 0⟩, ⟨S4x512x512x1, u 1⟩, ⟨S4x512x512x1, u 2⟩] concatenates_S4x512x512x1_S4x512x512x1_S4x512x512x1_S4x512x512x3_d3)
  :: binary main_v1 main_v211 main_v212 ((fun x i => Host.gather gather_S8x3x33x33x33_S4x512x512x3_S8x3x4x512x512_01_234_n_n_234_3_83111 x i) : (⟨S8x3x33x33x33, .f32⟩ : BufTy).Contents (Elt F) → (⟨S4x512x512x3, .i32⟩ : BufTy).Contents (Elt F) → (⟨S8x3x4x512x512, .f32⟩ : BufTy).Contents (Elt F))
  :: binary main_v25 main_v20 main_v213 (mulf : (⟨S4x512x512, .f32⟩ : BufTy).Contents (Elt F) → (⟨S4x512x512, .f32⟩ : BufTy).Contents (Elt F) → (⟨S4x512x512, .f32⟩ : BufTy).Contents (Elt F))
  :: binary main_v213 main_v33 main_v214 (mulf : (⟨S4x512x512, .f32⟩ : BufTy).Contents (Elt F) → (⟨S4x512x512, .f32⟩ : BufTy).Contents (Elt F) → (⟨S4x512x512, .f32⟩ : BufTy).Contents (Elt F))
  :: unary main_v214 main_v215 (broadcastInDim S1x1x4x512x512 ![2, 3, 4] bcast_S4x512x512_S1x1x4x512x512_2_3_4 : (⟨S4x512x512, .f32⟩ : BufTy).Contents (Elt F) → (⟨S1x1x4x512x512, .f32⟩ : BufTy).Contents (Elt F))
  :: unary main_v215 main_v216 (broadcastInDim S8x3x4x512x512 ![0, 1, 2, 3, 4] bcast_S1x1x4x512x512_S8x3x4x512x512_0_1_2_3_4 : (⟨S1x1x4x512x512, .f32⟩ : BufTy).Contents (Elt F) → (⟨S8x3x4x512x512, .f32⟩ : BufTy).Contents (Elt F))
  :: binary main_v212 main_v216 main_v217 (mulf : (⟨S8x3x4x512x512, .f32⟩ : BufTy).Contents (Elt F) → (⟨S8x3x4x512x512, .f32⟩ : BufTy).Contents (Elt F) → (⟨S8x3x4x512x512, .f32⟩ : BufTy).Contents (Elt F))
  :: binary main_v192 main_v217 main_v218 (addf : (⟨S8x3x4x512x512, .f32⟩ : BufTy).Contents (Elt F) → (⟨S8x3x4x512x512, .f32⟩ : BufTy).Contents (Elt F) → (⟨S8x3x4x512x512, .f32⟩ : BufTy).Contents (Elt F))
  :: nullary main_c_55 (constantI S_ 32 0#32)
  :: unary main_c_55 main_v219 (broadcastInDim S4x512x512 ![] bcast_S_S4x512x512 : (⟨S_, .i32⟩ : BufTy).Contents (Elt F) → (⟨S4x512x512, .i32⟩ : BufTy).Contents (Elt F))
  :: binary main_v31 main_v219 main_v220 (cmpi .slt : (⟨S4x512x512, .i32⟩ : BufTy).Contents (Elt F) → (⟨S4x512x512, .i32⟩ : BufTy).Contents (Elt F) → (⟨S4x512x512, .i1⟩ : BufTy).Contents (Elt F))
  :: nullary main_c_56 (constantI S_ 32 33#32)
  :: unary main_c_56 main_v221 (broadcastInDim S4x512x512 ![] bcast_S_S4x512x512 : (⟨S_, .i32⟩ : BufTy).Contents (Elt F) → (⟨S4x512x512, .i32⟩ : BufTy).Contents (Elt F))
  :: binary main_v31 main_v221 main_v222 (addi : (⟨S4x512x512, .i32⟩ : BufTy).Contents (Elt F) → (⟨S4x512x512, .i32⟩ : BufTy).Contents (Elt F) → (⟨S4x512x512, .i32⟩ : BufTy).Contents (Elt F))
  :: ternary main_v220 main_v222 main_v31 main_v223 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F))
  :: nullary main_c_57 (constantI S_ 32 0#32)
  :: unary main_c_57 main_v224 (broadcastInDim S4x512x512 ![] bcast_S_S4x512x512 : (⟨S_, .i32⟩ : BufTy).Contents (Elt F) → (⟨S4x512x512, .i32⟩ : BufTy).Contents (Elt F))
  :: binary main_v29 main_v224 main_v225 (cmpi .slt : (⟨S4x512x512, .i32⟩ : BufTy).Contents (Elt F) → (⟨S4x512x512, .i32⟩ : BufTy).Contents (Elt F) → (⟨S4x512x512, .i1⟩ : BufTy).Contents (Elt F))
  :: nullary main_c_58 (constantI S_ 32 33#32)
  :: unary main_c_58 main_v226 (broadcastInDim S4x512x512 ![] bcast_S_S4x512x512 : (⟨S_, .i32⟩ : BufTy).Contents (Elt F) → (⟨S4x512x512, .i32⟩ : BufTy).Contents (Elt F))
  :: binary main_v29 main_v226 main_v227 (addi : (⟨S4x512x512, .i32⟩ : BufTy).Contents (Elt F) → (⟨S4x512x512, .i32⟩ : BufTy).Contents (Elt F) → (⟨S4x512x512, .i32⟩ : BufTy).Contents (Elt F))
  :: ternary main_v225 main_v227 main_v29 main_v228 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F))
  :: nullary main_c_59 (constantI S_ 32 0#32)
  :: unary main_c_59 main_v229 (broadcastInDim S4x512x512 ![] bcast_S_S4x512x512 : (⟨S_, .i32⟩ : BufTy).Contents (Elt F) → (⟨S4x512x512, .i32⟩ : BufTy).Contents (Elt F))
  :: binary main_v27 main_v229 main_v230 (cmpi .slt : (⟨S4x512x512, .i32⟩ : BufTy).Contents (Elt F) → (⟨S4x512x512, .i32⟩ : BufTy).Contents (Elt F) → (⟨S4x512x512, .i1⟩ : BufTy).Contents (Elt F))
  :: nullary main_c_60 (constantI S_ 32 33#32)
  :: unary main_c_60 main_v231 (broadcastInDim S4x512x512 ![] bcast_S_S4x512x512 : (⟨S_, .i32⟩ : BufTy).Contents (Elt F) → (⟨S4x512x512, .i32⟩ : BufTy).Contents (Elt F))
  :: binary main_v27 main_v231 main_v232 (addi : (⟨S4x512x512, .i32⟩ : BufTy).Contents (Elt F) → (⟨S4x512x512, .i32⟩ : BufTy).Contents (Elt F) → (⟨S4x512x512, .i32⟩ : BufTy).Contents (Elt F))
  :: ternary main_v230 main_v232 main_v27 main_v233 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F))
  :: unary main_v223 main_v234 (broadcastInDim S4x512x512x1 ![0, 1, 2] bcast_S4x512x512_S4x512x512x1_0_1_2 : (⟨S4x512x512, .i32⟩ : BufTy).Contents (Elt F) → (⟨S4x512x512x1, .i32⟩ : BufTy).Contents (Elt F))
  :: unary main_v228 main_v235 (broadcastInDim S4x512x512x1 ![0, 1, 2] bcast_S4x512x512_S4x512x512x1_0_1_2 : (⟨S4x512x512, .i32⟩ : BufTy).Contents (Elt F) → (⟨S4x512x512x1, .i32⟩ : BufTy).Contents (Elt F))
  :: unary main_v233 main_v236 (broadcastInDim S4x512x512x1 ![0, 1, 2] bcast_S4x512x512_S4x512x512x1_0_1_2 : (⟨S4x512x512, .i32⟩ : BufTy).Contents (Elt F) → (⟨S4x512x512x1, .i32⟩ : BufTy).Contents (Elt F))
  :: [] )

set_option maxRecDepth 16384 in
set_option maxHeartbeats 40000000 in
/-- Window 4 of @main is its operations run in order. -/
theorem part4_eq (d : Dev nD) : main_part4 (F := F) d = seq ops4 := rfl

set_option maxRecDepth 16384 in
set_option maxHeartbeats 40000000 in
/-- Each touches TensorCore buffers only. -/
theorem ops4_sub : (ops4 : List (HloOp τ sig (Elt F))).Forall fun op => op.bufs ⊆ tcRefs τ sig :=
  ⟨unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩

set_option maxRecDepth 16384 in
set_option maxHeartbeats 40000000 in
/-- None allocates, and none writes an argument: each writes its one result buffer. -/
theorem ops4_facts : (ops4 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩

set_option maxHeartbeats 40000000 in
/-- The 15 operations of window 5 of @main, in order (a called function's operations stand in its call's place). -/
abbrev ops5 : List (HloOp τ sig (Elt F)) :=
  ( nary ![main_v234, main_v235, main_v236] main_v237 (fun u => concatenate S4x512x512x3 3 [⟨S4x512x512x1, u 0⟩, ⟨S4x512x512x1, u 1⟩, ⟨S4x512x512x1, u 2⟩] concatenates_S4x512x512x1_S4x512x512x1_S4x512x512x1_S4x512x512x3_d3)
  :: binary main_v1 main_v237 main_v238 ((fun x i => Host.gather gather_S8x3x33x33x33_S4x512x512x3_S8x3x4x512x512_01_234_n_n_234_3_83111 x i) : (⟨S8x3x33x33x33, .f32⟩ : BufTy).Contents (Elt F) → (⟨S4x512x512x3, .i32⟩ : BufTy).Contents (Elt F) → (⟨S8x3x4x512x512, .f32⟩ : BufTy).Contents (Elt F))
  :: binary main_v25 main_v20 main_v239 (mulf : (⟨S4x512x512, .f32⟩ : BufTy).Contents (Elt F) → (⟨S4x512x512, .f32⟩ : BufTy).Contents (Elt F) → (⟨S4x512x512, .f32⟩ : BufTy).Contents (Elt F))
  :: binary main_v239 main_v15 main_v240 (mulf : (⟨S4x512x512, .f32⟩ : BufTy).Contents (Elt F) → (⟨S4x512x512, .f32⟩ : BufTy).Contents (Elt F) → (⟨S4x512x512, .f32⟩ : BufTy).Contents (Elt F))
  :: unary main_v240 main_v241 (broadcastInDim S1x1x4x512x512 ![2, 3, 4] bcast_S4x512x512_S1x1x4x512x512_2_3_4 : (⟨S4x512x512, .f32⟩ : BufTy).Contents (Elt F) → (⟨S1x1x4x512x512, .f32⟩ : BufTy).Contents (Elt F))
  :: unary main_v241 main_v242 (broadcastInDim S8x3x4x512x512 ![0, 1, 2, 3, 4] bcast_S1x1x4x512x512_S8x3x4x512x512_0_1_2_3_4 : (⟨S1x1x4x512x512, .f32⟩ : BufTy).Contents (Elt F) → (⟨S8x3x4x512x512, .f32⟩ : BufTy).Contents (Elt F))
  :: binary main_v238 main_v242 main_v243 (mulf : (⟨S8x3x4x512x512, .f32⟩ : BufTy).Contents (Elt F) → (⟨S8x3x4x512x512, .f32⟩ : BufTy).Contents (Elt F) → (⟨S8x3x4x512x512, .f32⟩ : BufTy).Contents (Elt F))
  :: binary main_v218 main_v243 main_v244 (addf : (⟨S8x3x4x512x512, .f32⟩ : BufTy).Contents (Elt F) → (⟨S8x3x4x512x512, .f32⟩ : BufTy).Contents (Elt F) → (⟨S8x3x4x512x512, .f32⟩ : BufTy).Contents (Elt F))
  :: unary main_v244 main_v245 ((transpose S4x8x3x512x512 [2, 0, 1, 3, 4] · transposes_S8x3x4x512x512_S4x8x3x512x512_2_0_1_3_4) : (⟨S8x3x4x512x512, .f32⟩ : BufTy).Contents (Elt F) → (⟨S4x8x3x512x512, .f32⟩ : BufTy).Contents (Elt F))
  :: binary main_arg0 main_arg1 main_v246 (mulf : (⟨S4x8x512x512, .f32⟩ : BufTy).Contents (Elt F) → (⟨S4x8x512x512, .f32⟩ : BufTy).Contents (Elt F) → (⟨S4x8x512x512, .f32⟩ : BufTy).Contents (Elt F))
  :: unary main_v246 main_v247 (broadcastInDim S4x8x1x512x512 ![0, 1, 3, 4] bcast_S4x8x512x512_S4x8x1x512x512_0_1_3_4 : (⟨S4x8x512x512, .f32⟩ : BufTy).Contents (Elt F) → (⟨S4x8x1x512x512, .f32⟩ : BufTy).Contents (Elt F))
  :: unary main_v247 main_v248 (broadcastInDim S4x8x3x512x512 ![0, 1, 2, 3, 4] bcast_S4x8x1x512x512_S4x8x3x512x512_0_1_2_3_4 : (⟨S4x8x1x512x512, .f32⟩ : BufTy).Contents (Elt F) → (⟨S4x8x3x512x512, .f32⟩ : BufTy).Contents (Elt F))
  :: binary main_v248 main_v245 main_v249 (mulf : (⟨S4x8x3x512x512, .f32⟩ : BufTy).Contents (Elt F) → (⟨S4x8x3x512x512, .f32⟩ : BufTy).Contents (Elt F) → (⟨S4x8x3x512x512, .f32⟩ : BufTy).Contents (Elt F))
  :: nullary main_cst_61 (constant S_ .f32 0x00000000#32)
  :: binary main_v249 main_cst_61 main_v250 ((fun x v => Host.reduceAdd x v reducesTo_S4x8x3x512x512_S4x3x512x512_d1 h_S_) : (⟨S4x8x3x512x512, .f32⟩ : BufTy).Contents (Elt F) → (⟨S_, .f32⟩ : BufTy).Contents (Elt F) → (⟨S4x3x512x512, .f32⟩ : BufTy).Contents (Elt F))
  :: [] )

set_option maxRecDepth 16384 in
set_option maxHeartbeats 40000000 in
/-- Window 5 of @main is its operations run in order. -/
theorem part5_eq (d : Dev nD) : main_part5 (F := F) d = seq ops5 := rfl

set_option maxRecDepth 16384 in
set_option maxHeartbeats 40000000 in
/-- Each touches TensorCore buffers only. -/
theorem ops5_sub : (ops5 : List (HloOp τ sig (Elt F))).Forall fun op => op.bufs ⊆ tcRefs τ sig :=
  ⟨nary_bufs_sub .., binary_bufs_sub .., binary_bufs_sub .., binary_bufs_sub .., unary_bufs_sub .., unary_bufs_sub .., binary_bufs_sub .., binary_bufs_sub .., unary_bufs_sub .., binary_bufs_sub .., unary_bufs_sub .., unary_bufs_sub .., binary_bufs_sub .., nullary_bufs_sub .., binary_bufs_sub ..⟩

set_option maxRecDepth 16384 in
set_option maxHeartbeats 40000000 in
/-- None allocates, and none writes an argument: each writes its one result buffer. -/
theorem ops5_facts : (ops5 : List (HloOp τ sig (Elt F))).Forall fun op =>
    op.fresh = ∅ ∧ ∀ r ∈ argRefs, Proc.devRef (τ := τ) .tc r ∉ op.writes :=
  ⟨⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩, ⟨rfl, keeps_of_writes rfl (by decide)⟩⟩

/-- All of @main's operations, in order. -/
abbrev opsAll : List (HloOp τ sig (Elt F)) := ops0 ++ (ops1 ++ (ops2 ++ (ops3 ++ (ops4 ++ ops5))))

/-- @main is its operations run in order. -/
theorem main_eq (d : Dev nD) : main (F := F) d = seq opsAll := by
  show (main_part0 (F := F) d >>= fun _ => main_part1 (F := F) d >>= fun _ => main_part2 (F := F) d >>= fun _ =>
    main_part3 (F := F) d >>= fun _ => main_part4 (F := F) d >>= fun _ => main_part5 (F := F) d) = _
  rw [part0_eq, part1_eq, part2_eq, part3_eq, part4_eq, part5_eq]
  simp only [opsAll, seq_append]

theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem opsAll_sub : (opsAll : List (HloOp τ sig (Elt F))).Forall fun op => op.bufs ⊆ tcRefs τ sig :=
  forall_append ops0_sub (forall_append ops1_sub (forall_append ops2_sub (forall_append ops3_sub (forall_append ops4_sub ops5_sub))))

theorem opsAll_facts : (opsAll : List (HloOp τ sig (Elt F))).Forall fun op =>
    op.fresh = ∅ ∧ ∀ r ∈ argRefs, Proc.devRef (τ := τ) .tc r ∉ op.writes :=
  forall_append ops0_facts (forall_append ops1_facts (forall_append ops2_facts (forall_append ops3_facts (forall_append ops4_facts ops5_facts))))

theorem opsAll_fresh : ∀ op ∈ (opsAll : List (HloOp τ sig (Elt F))), op.fresh = ∅ :=
  fun op h => (List.forall_iff_forall_mem.mp opsAll_facts op h).1

/-- No operation writes an argument, so the fold leaves an argument at its launch contents. -/
theorem after_arg (V : Valuation τ sig (Elt F)) (r : Ref sig .tc) (hr : r ∈ argRefs) :
    after (opsAll (F := F)) V (Proc.devRef .tc r) = V (Proc.devRef .tc r) :=
  after_of_forall_not_mem _ _ fun op hop => (List.forall_iff_forall_mem.mp opsAll_facts op hop).2 r hr

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates, and afterwards every buffer holds the fold of the operations
    over the launch memory. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after opsAll (launchContents m d) (Proc.devRef .tc b) :=
  run_seq scopedRefs_eq scopedSems_eq defs main (fun _ => opsAll) main_eq (fun _ => opsAll_sub) m ρ (fun _ => opsAll_fresh)

end Cert.ReferenceIdeal.RunH

end
-- ==== Proof.RefStages.lean ====
/- The reference's host operations, window by window: the result's buffer ends at the result's stage of the four arguments.
   The operations are single-assignment: each reads buffers written before it (or arguments) and writes a new one. Every list is
   cut into pieces, a concatenation always alone in its piece. For each piece, over ANY contents W before it: if every buffer still
   read later holds its stage of the arguments, then after the piece every buffer still read later does — a buffer the piece does
   not write keeps its contents; one it writes is read off the piece's operations. The table of those buffers at each cut is
   computed from the operations' operands; the lemmas are chained through the fold of a concatenation being the folds in turn. -/
import proofs.«180827_j9612136808561_2_alg».proof.Proof.RefRun
import proofs.«180827_j9612136808561_2_alg».proof.Proof.RefRead
import proofs.«180827_j9612136808561_2_alg».proof.Proof.LibNary3
import Idealize.ShloMosaic.Lib.Pipeline.Frame

noncomputable section

namespace Cert.ReferenceIdeal.Stages

open Cert.ReferenceIdeal Cert.ReferenceIdeal.Gen Cert.ReferenceIdeal.RunH Idealize.ShloMosaic Idealize.ShloMosaic.TcCoe Idealize.SL.Sem Idealize.ShloMosaic.StableHlo

variable {F : FTy → Type} [FloatOps F]

/-- One piece's fold read at a buffer: each operation's result at its own buffer, any other buffer as it was. -/
macro "read_results" : tactic =>
  `(tactic| (simp (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne']))

/-- A piece of `ops0`. -/
abbrev ops0_p0 : List (HloOp τ sig (Elt F)) :=
  [ unary main_arg3 main_v0 ((transpose S8x107811 [1, 0] · transposes_S107811x8_S8x107811_1_0) : (⟨S107811x8, .f32⟩ : BufTy).Contents (Elt F) → (⟨S8x107811, .f32⟩ : BufTy).Contents (Elt F)),
    reshape main_v0 main_v1 rfl shapeCasts_S8x107811_S8x3x33x33x33,
    nullary main_cst (constant S_ .f32 0x42000000#32),
    unary main_cst main_v2 (broadcastInDim S4x3x512x512 ![] bcast_S_S4x3x512x512 : (⟨S_, .f32⟩ : BufTy).Contents (Elt F) → (⟨S4x3x512x512, .f32⟩ : BufTy).Contents (Elt F)),
    binary main_arg2 main_v2 main_v3 (mulf : (⟨S4x3x512x512, .f32⟩ : BufTy).Contents (Elt F) → (⟨S4x3x512x512, .f32⟩ : BufTy).Contents (Elt F) → (⟨S4x3x512x512, .f32⟩ : BufTy).Contents (Elt F)),
    nullary main_cst_0 (constant S_ .f32 0x00000000#32),
    nullary main_cst_1 (constant S_ .f32 0x42000000#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S4x3x512x512, .f32⟩) main_call0_v1) (broadcastInDim S4x3x512x512 ![] bcast_S_S4x3x512x512),
    TRef.binary (TRef.of (T := ⟨S4x3x512x512, .f32⟩) main_call0_v1) (TRef.of (T := ⟨S4x3x512x512, .f32⟩) main_v3) (TRef.of (T := ⟨S4x3x512x512, .f32⟩) main_call0_v2) maximumf,
    TRef.unary (TRef.of (T := ⟨S_, .f32⟩) main_cst_1) (TRef.of (T := ⟨S_, .f32⟩) main_call0_v3) id,
    TRef.unary (TRef.of (T := ⟨S_, .f32⟩) main_call0_v3) (TRef.of (T := ⟨S4x3x512x512, .f32⟩) main_call0_v4) (broadcastInDim S4x3x512x512 ![] bcast_S_S4x3x512x512),
    TRef.binary (TRef.of (T := ⟨S4x3x512x512, .f32⟩) main_call0_v4) (TRef.of (T := ⟨S4x3x512x512, .f32⟩) main_call0_v2) (TRef.of (T := ⟨S4x3x512x512, .f32⟩) main_v4) minimumf,
    unary main_v4 main_v5 ((extractStridedSlice S4x1x512x512 ![0, 0, 0, 0] · slices_S4x3x512x512_S4x1x512x512_0_0_0_0) : (⟨S4x3x512x512, .f32⟩ : BufTy).Contents (Elt F) → (⟨S4x1x512x512, .f32⟩ : BufTy).Contents (Elt F)),
    reshape main_v5 main_v6 rfl shapeCasts_S4x1x512x512_S4x512x512,
    unary main_v4 main_v7 ((extractStridedSlice S4x1x512x512 ![0, 1, 0, 0] · slices_S4x3x512x512_S4x1x512x512_0_1_0_0) : (⟨S4x3x512x512, .f32⟩ : BufTy).Contents (Elt F) → (⟨S4x1x512x512, .f32⟩ : BufTy).Contents (Elt F)),
    reshape main_v7 main_v8 rfl shapeCasts_S4x1x512x512_S4x512x512,
    unary main_v4 main_v9 ((extractStridedSlice S4x1x512x512 ![0, 2, 0, 0] · slices_S4x3x512x512_S4x1x512x512_0_2_0_0) : (⟨S4x3x512x512, .f32⟩ : BufTy).Contents (Elt F) → (⟨S4x1x512x512, .f32⟩ : BufTy).Contents (Elt F)),
    reshape main_v9 main_v10 rfl shapeCasts_S4x1x512x512_S4x512x512,
    unary main_v6 main_v11 (Host.floor : (⟨S4x512x512, .f32⟩ : BufTy).Contents (Elt F) → (⟨S4x512x512, .f32⟩ : BufTy).Contents (Elt F)),
    unary main_v11 main_v12 (fptosi 32 : (⟨S4x512x512, .f32⟩ : BufTy).Contents (Elt F) → (⟨S4x512x512, .i32⟩ : BufTy).Contents (Elt F)),
    nullary main_c (constantI S_ 32 0#32),
    nullary main_c_2 (constantI S_ 32 31#32),
    TRef.unary (TRef.of (T := ⟨S_, .i32⟩) main_c) (TRef.of (T := ⟨S_, .i32⟩) main_call1_v0) id ]
abbrev wr_ops0_p0 : List (Ref sig .tc) := [main_v0, main_v1, main_cst, main_v2, main_v3, main_cst_0, main_cst_1, main_call0_v0, main_call0_v1, main_call0_v2, main_call0_v3, main_call0_v4, main_v4, main_v5, main_v6, main_v7, main_v8, main_v9, main_v10, main_v11, main_v12, main_c, main_c_2, main_call1_v0]
set_option maxRecDepth 16384 in
set_option maxHeartbeats 40000000 in
theorem ops0_p0_writes : (ops0_p0 : List (HloOp τ sig (Elt F))).Forall fun op =>
    op.writes ⊆ (wr_ops0_p0.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_ops0_p0 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    : (after ops0_p0 W (Proc.devRef .tc main_arg0) = x0)
      ∧ (after ops0_p0 W (Proc.devRef .tc main_arg1) = x1)
      ∧ (after ops0_p0 W (Proc.devRef .tc main_c_2) = Cert.ReferenceIdeal.ReadP.val_main_c_2 (F := F))
      ∧ (after ops0_p0 W (Proc.devRef .tc main_call1_v0) = Cert.ReferenceIdeal.ReadP.val_main_call1_v0 (F := F))
      ∧ (after ops0_p0 W (Proc.devRef .tc main_v1) = Cert.ReferenceIdeal.ReadP.val_main_v1 (F := F) x3)
      ∧ (after ops0_p0 W (Proc.devRef .tc main_v10) = Cert.ReferenceIdeal.ReadP.val_main_v10 (F := F) x2)
      ∧ (after ops0_p0 W (Proc.devRef .tc main_v12) = Cert.ReferenceIdeal.ReadP.val_main_v12 (F := F) x2)
      ∧ (after ops0_p0 W (Proc.devRef .tc main_v6) = Cert.ReferenceIdeal.ReadP.val_main_v6 (F := F) x2)
      ∧ (after ops0_p0 W (Proc.devRef .tc main_v8) = Cert.ReferenceIdeal.ReadP.val_main_v8 (F := F) x2) := by
  refine ⟨?_, ?_, ?_, ?_, ?_, ?_, ?_, ?_, ?_⟩
  · exact (after_of_writes_sub _ W ops0_p0_writes (by decide)).trans h_main_arg0
  · exact (after_of_writes_sub _ W ops0_p0_writes (by decide)).trans h_main_arg1
  · (simp only [ops0_p0]; read_results; (try simp only [h_main_arg0, h_main_arg1, h_main_arg2, h_main_arg3, TRef.ofBuf, TRef.toBuf, cast_eq]);
     (try simp only [Cert.ReferenceIdeal.ReadP.val_main_v0, Cert.ReferenceIdeal.ReadP.val_main_v1, Cert.ReferenceIdeal.ReadP.val_main_cst, Cert.ReferenceIdeal.ReadP.val_main_v2, Cert.ReferenceIdeal.ReadP.val_main_v3, Cert.ReferenceIdeal.ReadP.val_main_cst_0, Cert.ReferenceIdeal.ReadP.val_main_cst_1, Cert.ReferenceIdeal.ReadP.val_main_call0_v0, Cert.ReferenceIdeal.ReadP.val_main_call0_v1, Cert.ReferenceIdeal.ReadP.val_main_call0_v2, Cert.ReferenceIdeal.ReadP.val_main_call0_v3, Cert.ReferenceIdeal.ReadP.val_main_call0_v4, Cert.ReferenceIdeal.ReadP.val_main_v4, Cert.ReferenceIdeal.ReadP.val_main_v5, Cert.ReferenceIdeal.ReadP.val_main_v6, Cert.ReferenceIdeal.ReadP.val_main_v7, Cert.ReferenceIdeal.ReadP.val_main_v8, Cert.ReferenceIdeal.ReadP.val_main_v9, Cert.ReferenceIdeal.ReadP.val_main_v10, Cert.ReferenceIdeal.ReadP.val_main_v11, Cert.ReferenceIdeal.ReadP.val_main_v12, Cert.ReferenceIdeal.ReadP.val_main_c, Cert.ReferenceIdeal.ReadP.val_main_c_2, Cert.ReferenceIdeal.ReadP.val_main_call1_v0]); (try rfl))
  · (simp only [ops0_p0]; read_results; (try simp only [h_main_arg0, h_main_arg1, h_main_arg2, h_main_arg3, TRef.ofBuf, TRef.toBuf, cast_eq]);
     (try simp only [Cert.ReferenceIdeal.ReadP.val_main_v0, Cert.ReferenceIdeal.ReadP.val_main_v1, Cert.ReferenceIdeal.ReadP.val_main_cst, Cert.ReferenceIdeal.ReadP.val_main_v2, Cert.ReferenceIdeal.ReadP.val_main_v3, Cert.ReferenceIdeal.ReadP.val_main_cst_0, Cert.ReferenceIdeal.ReadP.val_main_cst_1, Cert.ReferenceIdeal.ReadP.val_main_call0_v0, Cert.ReferenceIdeal.ReadP.val_main_call0_v1, Cert.ReferenceIdeal.ReadP.val_main_call0_v2, Cert.ReferenceIdeal.ReadP.val_main_call0_v3, Cert.ReferenceIdeal.ReadP.val_main_call0_v4, Cert.ReferenceIdeal.ReadP.val_main_v4, Cert.ReferenceIdeal.ReadP.val_main_v5, Cert.ReferenceIdeal.ReadP.val_main_v6, Cert.ReferenceIdeal.ReadP.val_main_v7, Cert.ReferenceIdeal.ReadP.val_main_v8, Cert.ReferenceIdeal.ReadP.val_main_v9, Cert.ReferenceIdeal.ReadP.val_main_v10, Cert.ReferenceIdeal.ReadP.val_main_v11, Cert.ReferenceIdeal.ReadP.val_main_v12, Cert.ReferenceIdeal.ReadP.val_main_c, Cert.ReferenceIdeal.ReadP.val_main_c_2, Cert.ReferenceIdeal.ReadP.val_main_call1_v0]); (try rfl))
  · (simp only [ops0_p0]; read_results; (try simp only [h_main_arg0, h_main_arg1, h_main_arg2, h_main_arg3, TRef.ofBuf, TRef.toBuf, cast_eq]);
     (try simp only [Cert.ReferenceIdeal.ReadP.val_main_v0, Cert.ReferenceIdeal.ReadP.val_main_v1, Cert.ReferenceIdeal.ReadP.val_main_cst, Cert.ReferenceIdeal.ReadP.val_main_v2, Cert.ReferenceIdeal.ReadP.val_main_v3, Cert.ReferenceIdeal.ReadP.val_main_cst_0, Cert.ReferenceIdeal.ReadP.val_main_cst_1, Cert.ReferenceIdeal.ReadP.val_main_call0_v0, Cert.ReferenceIdeal.ReadP.val_main_call0_v1, Cert.ReferenceIdeal.ReadP.val_main_call0_v2, Cert.ReferenceIdeal.ReadP.val_main_call0_v3, Cert.ReferenceIdeal.ReadP.val_main_call0_v4, Cert.ReferenceIdeal.ReadP.val_main_v4, Cert.ReferenceIdeal.ReadP.val_main_v5, Cert.ReferenceIdeal.ReadP.val_main_v6, Cert.ReferenceIdeal.ReadP.val_main_v7, Cert.ReferenceIdeal.ReadP.val_main_v8, Cert.ReferenceIdeal.ReadP.val_main_v9, Cert.ReferenceIdeal.ReadP.val_main_v10, Cert.ReferenceIdeal.ReadP.val_main_v11, Cert.ReferenceIdeal.ReadP.val_main_v12, Cert.ReferenceIdeal.ReadP.val_main_c, Cert.ReferenceIdeal.ReadP.val_main_c_2, Cert.ReferenceIdeal.ReadP.val_main_call1_v0]); (try rfl))
  · (simp only [ops0_p0]; read_results; (try simp only [h_main_arg0, h_main_arg1, h_main_arg2, h_main_arg3, TRef.ofBuf, TRef.toBuf, cast_eq]);
     (try simp only [Cert.ReferenceIdeal.ReadP.val_main_v0, Cert.ReferenceIdeal.ReadP.val_main_v1, Cert.ReferenceIdeal.ReadP.val_main_cst, Cert.ReferenceIdeal.ReadP.val_main_v2, Cert.ReferenceIdeal.ReadP.val_main_v3, Cert.ReferenceIdeal.ReadP.val_main_cst_0, Cert.ReferenceIdeal.ReadP.val_main_cst_1, Cert.ReferenceIdeal.ReadP.val_main_call0_v0, Cert.ReferenceIdeal.ReadP.val_main_call0_v1, Cert.ReferenceIdeal.ReadP.val_main_call0_v2, Cert.ReferenceIdeal.ReadP.val_main_call0_v3, Cert.ReferenceIdeal.ReadP.val_main_call0_v4, Cert.ReferenceIdeal.ReadP.val_main_v4, Cert.ReferenceIdeal.ReadP.val_main_v5, Cert.ReferenceIdeal.ReadP.val_main_v6, Cert.ReferenceIdeal.ReadP.val_main_v7, Cert.ReferenceIdeal.ReadP.val_main_v8, Cert.ReferenceIdeal.ReadP.val_main_v9, Cert.ReferenceIdeal.ReadP.val_main_v10, Cert.ReferenceIdeal.ReadP.val_main_v11, Cert.ReferenceIdeal.ReadP.val_main_v12, Cert.ReferenceIdeal.ReadP.val_main_c, Cert.ReferenceIdeal.ReadP.val_main_c_2, Cert.ReferenceIdeal.ReadP.val_main_call1_v0]); (try rfl))
  · (simp only [ops0_p0]; read_results; (try simp only [h_main_arg0, h_main_arg1, h_main_arg2, h_main_arg3, TRef.ofBuf, TRef.toBuf, cast_eq]);
     (try simp only [Cert.ReferenceIdeal.ReadP.val_main_v0, Cert.ReferenceIdeal.ReadP.val_main_v1, Cert.ReferenceIdeal.ReadP.val_main_cst, Cert.ReferenceIdeal.ReadP.val_main_v2, Cert.ReferenceIdeal.ReadP.val_main_v3, Cert.ReferenceIdeal.ReadP.val_main_cst_0, Cert.ReferenceIdeal.ReadP.val_main_cst_1, Cert.ReferenceIdeal.ReadP.val_main_call0_v0, Cert.ReferenceIdeal.ReadP.val_main_call0_v1, Cert.ReferenceIdeal.ReadP.val_main_call0_v2, Cert.ReferenceIdeal.ReadP.val_main_call0_v3, Cert.ReferenceIdeal.ReadP.val_main_call0_v4, Cert.ReferenceIdeal.ReadP.val_main_v4, Cert.ReferenceIdeal.ReadP.val_main_v5, Cert.ReferenceIdeal.ReadP.val_main_v6, Cert.ReferenceIdeal.ReadP.val_main_v7, Cert.ReferenceIdeal.ReadP.val_main_v8, Cert.ReferenceIdeal.ReadP.val_main_v9, Cert.ReferenceIdeal.ReadP.val_main_v10, Cert.ReferenceIdeal.ReadP.val_main_v11, Cert.ReferenceIdeal.ReadP.val_main_v12, Cert.ReferenceIdeal.ReadP.val_main_c, Cert.ReferenceIdeal.ReadP.val_main_c_2, Cert.ReferenceIdeal.ReadP.val_main_call1_v0]); (try rfl))
  · (simp only [ops0_p0]; read_results; (try simp only [h_main_arg0, h_main_arg1, h_main_arg2, h_main_arg3, TRef.ofBuf, TRef.toBuf, cast_eq]);
     (try simp only [Cert.ReferenceIdeal.ReadP.val_main_v0, Cert.ReferenceIdeal.ReadP.val_main_v1, Cert.ReferenceIdeal.ReadP.val_main_cst, Cert.ReferenceIdeal.ReadP.val_main_v2, Cert.ReferenceIdeal.ReadP.val_main_v3, Cert.ReferenceIdeal.ReadP.val_main_cst_0, Cert.ReferenceIdeal.ReadP.val_main_cst_1, Cert.ReferenceIdeal.ReadP.val_main_call0_v0, Cert.ReferenceIdeal.ReadP.val_main_call0_v1, Cert.ReferenceIdeal.ReadP.val_main_call0_v2, Cert.ReferenceIdeal.ReadP.val_main_call0_v3, Cert.ReferenceIdeal.ReadP.val_main_call0_v4, Cert.ReferenceIdeal.ReadP.val_main_v4, Cert.ReferenceIdeal.ReadP.val_main_v5, Cert.ReferenceIdeal.ReadP.val_main_v6, Cert.ReferenceIdeal.ReadP.val_main_v7, Cert.ReferenceIdeal.ReadP.val_main_v8, Cert.ReferenceIdeal.ReadP.val_main_v9, Cert.ReferenceIdeal.ReadP.val_main_v10, Cert.ReferenceIdeal.ReadP.val_main_v11, Cert.ReferenceIdeal.ReadP.val_main_v12, Cert.ReferenceIdeal.ReadP.val_main_c, Cert.ReferenceIdeal.ReadP.val_main_c_2, Cert.ReferenceIdeal.ReadP.val_main_call1_v0]); (try rfl))
  · (simp only [ops0_p0]; read_results; (try simp only [h_main_arg0, h_main_arg1, h_main_arg2, h_main_arg3, TRef.ofBuf, TRef.toBuf, cast_eq]);
     (try simp only [Cert.ReferenceIdeal.ReadP.val_main_v0, Cert.ReferenceIdeal.ReadP.val_main_v1, Cert.ReferenceIdeal.ReadP.val_main_cst, Cert.ReferenceIdeal.ReadP.val_main_v2, Cert.ReferenceIdeal.ReadP.val_main_v3, Cert.ReferenceIdeal.ReadP.val_main_cst_0, Cert.ReferenceIdeal.ReadP.val_main_cst_1, Cert.ReferenceIdeal.ReadP.val_main_call0_v0, Cert.ReferenceIdeal.ReadP.val_main_call0_v1, Cert.ReferenceIdeal.ReadP.val_main_call0_v2, Cert.ReferenceIdeal.ReadP.val_main_call0_v3, Cert.ReferenceIdeal.ReadP.val_main_call0_v4, Cert.ReferenceIdeal.ReadP.val_main_v4, Cert.ReferenceIdeal.ReadP.val_main_v5, Cert.ReferenceIdeal.ReadP.val_main_v6, Cert.ReferenceIdeal.ReadP.val_main_v7, Cert.ReferenceIdeal.ReadP.val_main_v8, Cert.ReferenceIdeal.ReadP.val_main_v9, Cert.ReferenceIdeal.ReadP.val_main_v10, Cert.ReferenceIdeal.ReadP.val_main_v11, Cert.ReferenceIdeal.ReadP.val_main_v12, Cert.ReferenceIdeal.ReadP.val_main_c, Cert.ReferenceIdeal.ReadP.val_main_c_2, Cert.ReferenceIdeal.ReadP.val_main_call1_v0]); (try rfl))

/-- A piece of `ops0`. -/
abbrev ops0_p1 : List (HloOp τ sig (Elt F)) :=
  [ TRef.unary (TRef.of (T := ⟨S_, .i32⟩) main_call1_v0) (TRef.of (T := ⟨S4x512x512, .i32⟩) main_call1_v1) (broadcastInDim S4x512x512 ![] bcast_S_S4x512x512),
    TRef.binary (TRef.of (T := ⟨S4x512x512, .i32⟩) main_call1_v1) (TRef.of (T := ⟨S4x512x512, .i32⟩) main_v12) (TRef.of (T := ⟨S4x512x512, .i32⟩) main_call1_v2) maxsi,
    TRef.unary (TRef.of (T := ⟨S_, .i32⟩) main_c_2) (TRef.of (T := ⟨S_, .i32⟩) main_call1_v3) id,
    TRef.unary (TRef.of (T := ⟨S_, .i32⟩) main_call1_v3) (TRef.of (T := ⟨S4x512x512, .i32⟩) main_call1_v4) (broadcastInDim S4x512x512 ![] bcast_S_S4x512x512),
    TRef.binary (TRef.of (T := ⟨S4x512x512, .i32⟩) main_call1_v4) (TRef.of (T := ⟨S4x512x512, .i32⟩) main_call1_v2) (TRef.of (T := ⟨S4x512x512, .i32⟩) main_v13) minsi,
    unary main_v13 main_v14 (sitofp .f32 : (⟨S4x512x512, .i32⟩ : BufTy).Contents (Elt F) → (⟨S4x512x512, .f32⟩ : BufTy).Contents (Elt F)),
    binary main_v6 main_v14 main_v15 (subf : (⟨S4x512x512, .f32⟩ : BufTy).Contents (Elt F) → (⟨S4x512x512, .f32⟩ : BufTy).Contents (Elt F) → (⟨S4x512x512, .f32⟩ : BufTy).Contents (Elt F)),
    unary main_v8 main_v16 (Host.floor : (⟨S4x512x512, .f32⟩ : BufTy).Contents (Elt F) → (⟨S4x512x512, .f32⟩ : BufTy).Contents (Elt F)),
    unary main_v16 main_v17 (fptosi 32 : (⟨S4x512x512, .f32⟩ : BufTy).Contents (Elt F) → (⟨S4x512x512, .i32⟩ : BufTy).Contents (Elt F)),
    nullary main_c_3 (constantI S_ 32 0#32),
    nullary main_c_4 (constantI S_ 32 31#32),
    TRef.unary (TRef.of (T := ⟨S_, .i32⟩) main_c_3) (TRef.of (T := ⟨S_, .i32⟩) main_call2_v0) id,
    TRef.unary (TRef.of (T := ⟨S_, .i32⟩) main_call2_v0) (TRef.of (T := ⟨S4x512x512, .i32⟩) main_call2_v1) (broadcastInDim S4x512x512 ![] bcast_S_S4x512x512),
    TRef.binary (TRef.of (T := ⟨S4x512x512, .i32⟩) main_call2_v1) (TRef.of (T := ⟨S4x512x512, .i32⟩) main_v17) (TRef.of (T := ⟨S4x512x512, .i32⟩) main_call2_v2) maxsi,
    TRef.unary (TRef.of (T := ⟨S_, .i32⟩) main_c_4) (TRef.of (T := ⟨S_, .i32⟩) main_call2_v3) id,
    TRef.unary (TRef.of (T := ⟨S_, .i32⟩) main_call2_v3) (TRef.of (T := ⟨S4x512x512, .i32⟩) main_call2_v4) (broadcastInDim S4x512x512 ![] bcast_S_S4x512x512),
    TRef.binary (TRef.of (T := ⟨S4x512x512, .i32⟩) main_call2_v4) (TRef.of (T := ⟨S4x512x512, .i32⟩) main_call2_v2) (TRef.of (T := ⟨S4x512x512, .i32⟩) main_v18) minsi,
    unary main_v18 main_v19 (sitofp .f32 : (⟨S4x512x512, .i32⟩ : BufTy).Contents (Elt F) → (⟨S4x512x512, .f32⟩ : BufTy).Contents (Elt F)),
    binary main_v8 main_v19 main_v20 (subf : (⟨S4x512x512, .f32⟩ : BufTy).Contents (Elt F) → (⟨S4x512x512, .f32⟩ : BufTy).Contents (Elt F) → (⟨S4x512x512, .f32⟩ : BufTy).Contents (Elt F)),
    unary main_v10 main_v21 (Host.floor : (⟨S4x512x512, .f32⟩ : BufTy).Contents (Elt F) → (⟨S4x512x512, .f32⟩ : BufTy).Contents (Elt F)),
    unary main_v21 main_v22 (fptosi 32 : (⟨S4x512x512, .f32⟩ : BufTy).Contents (Elt F) → (⟨S4x512x512, .i32⟩ : BufTy).Contents (Elt F)),
    nullary main_c_5 (constantI S_ 32 0#32),
    nullary main_c_6 (constantI S_ 32 31#32),
    TRef.unary (TRef.of (T := ⟨S_, .i32⟩) main_c_5) (TRef.of (T := ⟨S_, .i32⟩) main_call3_v0) id ]
abbrev wr_ops0_p1 : List (Ref sig .tc) := [main_call1_v1, main_call1_v2, main_call1_v3, main_call1_v4, main_v13, main_v14, main_v15, main_v16, main_v17, main_c_3, main_c_4, main_call2_v0, main_call2_v1, main_call2_v2, main_call2_v3, main_call2_v4, main_v18, main_v19, main_v20, main_v21, main_v22, main_c_5, main_c_6, main_call3_v0]
set_option maxRecDepth 16384 in
set_option maxHeartbeats 40000000 in
theorem ops0_p1_writes : (ops0_p1 : List (HloOp τ sig (Elt F))).Forall fun op =>
    op.writes ⊆ (wr_ops0_p1.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_ops0_p1 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_c_2 : W (Proc.devRef .tc main_c_2) = Cert.ReferenceIdeal.ReadP.val_main_c_2 (F := F))
    (h_main_call1_v0 : W (Proc.devRef .tc main_call1_v0) = Cert.ReferenceIdeal.ReadP.val_main_call1_v0 (F := F))
    (h_main_v1 : W (Proc.devRef .tc main_v1) = Cert.ReferenceIdeal.ReadP.val_main_v1 (F := F) x3)
    (h_main_v10 : W (Proc.devRef .tc main_v10) = Cert.ReferenceIdeal.ReadP.val_main_v10 (F := F) x2)
    (h_main_v12 : W (Proc.devRef .tc main_v12) = Cert.ReferenceIdeal.ReadP.val_main_v12 (F := F) x2)
    (h_main_v6 : W (Proc.devRef .tc main_v6) = Cert.ReferenceIdeal.ReadP.val_main_v6 (F := F) x2)
    (h_main_v8 : W (Proc.devRef .tc main_v8) = Cert.ReferenceIdeal.ReadP.val_main_v8 (F := F) x2)
    : (after ops0_p1 W (Proc.devRef .tc main_arg0) = x0)
      ∧ (after ops0_p1 W (Proc.devRef .tc main_arg1) = x1)
      ∧ (after ops0_p1 W (Proc.devRef .tc main_c_6) = Cert.ReferenceIdeal.ReadP.val_main_c_6 (F := F))
      ∧ (after ops0_p1 W (Proc.devRef .tc main_call3_v0) = Cert.ReferenceIdeal.ReadP.val_main_call3_v0 (F := F))
      ∧ (after ops0_p1 W (Proc.devRef .tc main_v1) = Cert.ReferenceIdeal.ReadP.val_main_v1 (F := F) x3)
      ∧ (after ops0_p1 W (Proc.devRef .tc main_v10) = Cert.ReferenceIdeal.ReadP.val_main_v10 (F := F) x2)
      ∧ (after ops0_p1 W (Proc.devRef .tc main_v13) = Cert.ReferenceIdeal.ReadP.val_main_v13 (F := F) x2)
      ∧ (after ops0_p1 W (Proc.devRef .tc main_v15) = Cert.ReferenceIdeal.ReadP.val_main_v15 (F := F) x2)
      ∧ (after ops0_p1 W (Proc.devRef .tc main_v18) = Cert.ReferenceIdeal.ReadP.val_main_v18 (F := F) x2)
      ∧ (after ops0_p1 W (Proc.devRef .tc main_v20) = Cert.ReferenceIdeal.ReadP.val_main_v20 (F := F) x2)
      ∧ (after ops0_p1 W (Proc.devRef .tc main_v22) = Cert.ReferenceIdeal.ReadP.val_main_v22 (F := F) x2) := by
  refine ⟨?_, ?_, ?_, ?_, ?_, ?_, ?_, ?_, ?_, ?_, ?_⟩
  · exact (after_of_writes_sub _ W ops0_p1_writes (by decide)).trans h_main_arg0
  · exact (after_of_writes_sub _ W ops0_p1_writes (by decide)).trans h_main_arg1
  · (simp only [ops0_p1]; read_results; (try simp only [h_main_arg0, h_main_arg1, h_main_c_2, h_main_call1_v0, h_main_v1, h_main_v10, h_main_v12, h_main_v6, h_main_v8, TRef.ofBuf, TRef.toBuf, cast_eq]);
     (try simp only [Cert.ReferenceIdeal.ReadP.val_main_call1_v1, Cert.ReferenceIdeal.ReadP.val_main_call1_v2, Cert.ReferenceIdeal.ReadP.val_main_call1_v3, Cert.ReferenceIdeal.ReadP.val_main_call1_v4, Cert.ReferenceIdeal.ReadP.val_main_v13, Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_c_3, Cert.ReferenceIdeal.ReadP.val_main_c_4, Cert.ReferenceIdeal.ReadP.val_main_call2_v0, Cert.ReferenceIdeal.ReadP.val_main_call2_v1, Cert.ReferenceIdeal.ReadP.val_main_call2_v2, Cert.ReferenceIdeal.ReadP.val_main_call2_v3, Cert.ReferenceIdeal.ReadP.val_main_call2_v4, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_c_5, Cert.ReferenceIdeal.ReadP.val_main_c_6, Cert.ReferenceIdeal.ReadP.val_main_call3_v0]); (try rfl))
  · (simp only [ops0_p1]; read_results; (try simp only [h_main_arg0, h_main_arg1, h_main_c_2, h_main_call1_v0, h_main_v1, h_main_v10, h_main_v12, h_main_v6, h_main_v8, TRef.ofBuf, TRef.toBuf, cast_eq]);
     (try simp only [Cert.ReferenceIdeal.ReadP.val_main_call1_v1, Cert.ReferenceIdeal.ReadP.val_main_call1_v2, Cert.ReferenceIdeal.ReadP.val_main_call1_v3, Cert.ReferenceIdeal.ReadP.val_main_call1_v4, Cert.ReferenceIdeal.ReadP.val_main_v13, Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_c_3, Cert.ReferenceIdeal.ReadP.val_main_c_4, Cert.ReferenceIdeal.ReadP.val_main_call2_v0, Cert.ReferenceIdeal.ReadP.val_main_call2_v1, Cert.ReferenceIdeal.ReadP.val_main_call2_v2, Cert.ReferenceIdeal.ReadP.val_main_call2_v3, Cert.ReferenceIdeal.ReadP.val_main_call2_v4, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_c_5, Cert.ReferenceIdeal.ReadP.val_main_c_6, Cert.ReferenceIdeal.ReadP.val_main_call3_v0]); (try rfl))
  · exact (after_of_writes_sub _ W ops0_p1_writes (by decide)).trans h_main_v1
  · exact (after_of_writes_sub _ W ops0_p1_writes (by decide)).trans h_main_v10
  · (simp only [ops0_p1]; read_results; (try simp only [h_main_arg0, h_main_arg1, h_main_c_2, h_main_call1_v0, h_main_v1, h_main_v10, h_main_v12, h_main_v6, h_main_v8, TRef.ofBuf, TRef.toBuf, cast_eq]);
     (try simp only [Cert.ReferenceIdeal.ReadP.val_main_call1_v1, Cert.ReferenceIdeal.ReadP.val_main_call1_v2, Cert.ReferenceIdeal.ReadP.val_main_call1_v3, Cert.ReferenceIdeal.ReadP.val_main_call1_v4, Cert.ReferenceIdeal.ReadP.val_main_v13, Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_c_3, Cert.ReferenceIdeal.ReadP.val_main_c_4, Cert.ReferenceIdeal.ReadP.val_main_call2_v0, Cert.ReferenceIdeal.ReadP.val_main_call2_v1, Cert.ReferenceIdeal.ReadP.val_main_call2_v2, Cert.ReferenceIdeal.ReadP.val_main_call2_v3, Cert.ReferenceIdeal.ReadP.val_main_call2_v4, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_c_5, Cert.ReferenceIdeal.ReadP.val_main_c_6, Cert.ReferenceIdeal.ReadP.val_main_call3_v0]); (try rfl))
  · (simp only [ops0_p1]; read_results; (try simp only [h_main_arg0, h_main_arg1, h_main_c_2, h_main_call1_v0, h_main_v1, h_main_v10, h_main_v12, h_main_v6, h_main_v8, TRef.ofBuf, TRef.toBuf, cast_eq]);
     (try simp only [Cert.ReferenceIdeal.ReadP.val_main_call1_v1, Cert.ReferenceIdeal.ReadP.val_main_call1_v2, Cert.ReferenceIdeal.ReadP.val_main_call1_v3, Cert.ReferenceIdeal.ReadP.val_main_call1_v4, Cert.ReferenceIdeal.ReadP.val_main_v13, Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_c_3, Cert.ReferenceIdeal.ReadP.val_main_c_4, Cert.ReferenceIdeal.ReadP.val_main_call2_v0, Cert.ReferenceIdeal.ReadP.val_main_call2_v1, Cert.ReferenceIdeal.ReadP.val_main_call2_v2, Cert.ReferenceIdeal.ReadP.val_main_call2_v3, Cert.ReferenceIdeal.ReadP.val_main_call2_v4, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_c_5, Cert.ReferenceIdeal.ReadP.val_main_c_6, Cert.ReferenceIdeal.ReadP.val_main_call3_v0]); (try rfl))
  · (simp only [ops0_p1]; read_results; (try simp only [h_main_arg0, h_main_arg1, h_main_c_2, h_main_call1_v0, h_main_v1, h_main_v10, h_main_v12, h_main_v6, h_main_v8, TRef.ofBuf, TRef.toBuf, cast_eq]);
     (try simp only [Cert.ReferenceIdeal.ReadP.val_main_call1_v1, Cert.ReferenceIdeal.ReadP.val_main_call1_v2, Cert.ReferenceIdeal.ReadP.val_main_call1_v3, Cert.ReferenceIdeal.ReadP.val_main_call1_v4, Cert.ReferenceIdeal.ReadP.val_main_v13, Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_c_3, Cert.ReferenceIdeal.ReadP.val_main_c_4, Cert.ReferenceIdeal.ReadP.val_main_call2_v0, Cert.ReferenceIdeal.ReadP.val_main_call2_v1, Cert.ReferenceIdeal.ReadP.val_main_call2_v2, Cert.ReferenceIdeal.ReadP.val_main_call2_v3, Cert.ReferenceIdeal.ReadP.val_main_call2_v4, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_c_5, Cert.ReferenceIdeal.ReadP.val_main_c_6, Cert.ReferenceIdeal.ReadP.val_main_call3_v0]); (try rfl))
  · (simp only [ops0_p1]; read_results; (try simp only [h_main_arg0, h_main_arg1, h_main_c_2, h_main_call1_v0, h_main_v1, h_main_v10, h_main_v12, h_main_v6, h_main_v8, TRef.ofBuf, TRef.toBuf, cast_eq]);
     (try simp only [Cert.ReferenceIdeal.ReadP.val_main_call1_v1, Cert.ReferenceIdeal.ReadP.val_main_call1_v2, Cert.ReferenceIdeal.ReadP.val_main_call1_v3, Cert.ReferenceIdeal.ReadP.val_main_call1_v4, Cert.ReferenceIdeal.ReadP.val_main_v13, Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_c_3, Cert.ReferenceIdeal.ReadP.val_main_c_4, Cert.ReferenceIdeal.ReadP.val_main_call2_v0, Cert.ReferenceIdeal.ReadP.val_main_call2_v1, Cert.ReferenceIdeal.ReadP.val_main_call2_v2, Cert.ReferenceIdeal.ReadP.val_main_call2_v3, Cert.ReferenceIdeal.ReadP.val_main_call2_v4, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_c_5, Cert.ReferenceIdeal.ReadP.val_main_c_6, Cert.ReferenceIdeal.ReadP.val_main_call3_v0]); (try rfl))
  · (simp only [ops0_p1]; read_results; (try simp only [h_main_arg0, h_main_arg1, h_main_c_2, h_main_call1_v0, h_main_v1, h_main_v10, h_main_v12, h_main_v6, h_main_v8, TRef.ofBuf, TRef.toBuf, cast_eq]);
     (try simp only [Cert.ReferenceIdeal.ReadP.val_main_call1_v1, Cert.ReferenceIdeal.ReadP.val_main_call1_v2, Cert.ReferenceIdeal.ReadP.val_main_call1_v3, Cert.ReferenceIdeal.ReadP.val_main_call1_v4, Cert.ReferenceIdeal.ReadP.val_main_v13, Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_c_3, Cert.ReferenceIdeal.ReadP.val_main_c_4, Cert.ReferenceIdeal.ReadP.val_main_call2_v0, Cert.ReferenceIdeal.ReadP.val_main_call2_v1, Cert.ReferenceIdeal.ReadP.val_main_call2_v2, Cert.ReferenceIdeal.ReadP.val_main_call2_v3, Cert.ReferenceIdeal.ReadP.val_main_call2_v4, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_c_5, Cert.ReferenceIdeal.ReadP.val_main_c_6, Cert.ReferenceIdeal.ReadP.val_main_call3_v0]); (try rfl))

/-- A piece of `ops0`. -/
abbrev ops0_p2 : List (HloOp τ sig (Elt F)) :=
  [ TRef.unary (TRef.of (T := ⟨S_, .i32⟩) main_call3_v0) (TRef.of (T := ⟨S4x512x512, .i32⟩) main_call3_v1) (broadcastInDim S4x512x512 ![] bcast_S_S4x512x512),
    TRef.binary (TRef.of (T := ⟨S4x512x512, .i32⟩) main_call3_v1) (TRef.of (T := ⟨S4x512x512, .i32⟩) main_v22) (TRef.of (T := ⟨S4x512x512, .i32⟩) main_call3_v2) maxsi,
    TRef.unary (TRef.of (T := ⟨S_, .i32⟩) main_c_6) (TRef.of (T := ⟨S_, .i32⟩) main_call3_v3) id,
    TRef.unary (TRef.of (T := ⟨S_, .i32⟩) main_call3_v3) (TRef.of (T := ⟨S4x512x512, .i32⟩) main_call3_v4) (broadcastInDim S4x512x512 ![] bcast_S_S4x512x512),
    TRef.binary (TRef.of (T := ⟨S4x512x512, .i32⟩) main_call3_v4) (TRef.of (T := ⟨S4x512x512, .i32⟩) main_call3_v2) (TRef.of (T := ⟨S4x512x512, .i32⟩) main_v23) minsi,
    unary main_v23 main_v24 (sitofp .f32 : (⟨S4x512x512, .i32⟩ : BufTy).Contents (Elt F) → (⟨S4x512x512, .f32⟩ : BufTy).Contents (Elt F)),
    binary main_v10 main_v24 main_v25 (subf : (⟨S4x512x512, .f32⟩ : BufTy).Contents (Elt F) → (⟨S4x512x512, .f32⟩ : BufTy).Contents (Elt F) → (⟨S4x512x512, .f32⟩ : BufTy).Contents (Elt F)),
    nullary main_c_7 (constantI S_ 32 1#32),
    unary main_c_7 main_v26 (broadcastInDim S4x512x512 ![] bcast_S_S4x512x512 : (⟨S_, .i32⟩ : BufTy).Contents (Elt F) → (⟨S4x512x512, .i32⟩ : BufTy).Contents (Elt F)),
    binary main_v13 main_v26 main_v27 (addi : (⟨S4x512x512, .i32⟩ : BufTy).Contents (Elt F) → (⟨S4x512x512, .i32⟩ : BufTy).Contents (Elt F) → (⟨S4x512x512, .i32⟩ : BufTy).Contents (Elt F)),
    nullary main_c_8 (constantI S_ 32 1#32),
    unary main_c_8 main_v28 (broadcastInDim S4x512x512 ![] bcast_S_S4x512x512 : (⟨S_, .i32⟩ : BufTy).Contents (Elt F) → (⟨S4x512x512, .i32⟩ : BufTy).Contents (Elt F)),
    binary main_v18 main_v28 main_v29 (addi : (⟨S4x512x512, .i32⟩ : BufTy).Contents (Elt F) → (⟨S4x512x512, .i32⟩ : BufTy).Contents (Elt F) → (⟨S4x512x512, .i32⟩ : BufTy).Contents (Elt F)),
    nullary main_c_9 (constantI S_ 32 1#32),
    unary main_c_9 main_v30 (broadcastInDim S4x512x512 ![] bcast_S_S4x512x512 : (⟨S_, .i32⟩ : BufTy).Contents (Elt F) → (⟨S4x512x512, .i32⟩ : BufTy).Contents (Elt F)),
    binary main_v23 main_v30 main_v31 (addi : (⟨S4x512x512, .i32⟩ : BufTy).Contents (Elt F) → (⟨S4x512x512, .i32⟩ : BufTy).Contents (Elt F) → (⟨S4x512x512, .i32⟩ : BufTy).Contents (Elt F)),
    nullary main_cst_10 (constant S_ .f32 0x3F800000#32),
    unary main_cst_10 main_v32 (broadcastInDim S4x512x512 ![] bcast_S_S4x512x512 : (⟨S_, .f32⟩ : BufTy).Contents (Elt F) → (⟨S4x512x512, .f32⟩ : BufTy).Contents (Elt F)),
    binary main_v32 main_v15 main_v33 (subf : (⟨S4x512x512, .f32⟩ : BufTy).Contents (Elt F) → (⟨S4x512x512, .f32⟩ : BufTy).Contents (Elt F) → (⟨S4x512x512, .f32⟩ : BufTy).Contents (Elt F)),
    nullary main_cst_11 (constant S_ .f32 0x3F800000#32),
    unary main_cst_11 main_v34 (broadcastInDim S4x512x512 ![] bcast_S_S4x512x512 : (⟨S_, .f32⟩ : BufTy).Contents (Elt F) → (⟨S4x512x512, .f32⟩ : BufTy).Contents (Elt F)),
    binary main_v34 main_v20 main_v35 (subf : (⟨S4x512x512, .f32⟩ : BufTy).Contents (Elt F) → (⟨S4x512x512, .f32⟩ : BufTy).Contents (Elt F) → (⟨S4x512x512, .f32⟩ : BufTy).Contents (Elt F)),
    nullary main_cst_12 (constant S_ .f32 0x3F800000#32),
    unary main_cst_12 main_v36 (broadcastInDim S4x512x512 ![] bcast_S_S4x512x512 : (⟨S_, .f32⟩ : BufTy).Contents (Elt F) → (⟨S4x512x512, .f32⟩ : BufTy).Contents (Elt F)) ]
abbrev wr_ops0_p2 : List (Ref sig .tc) := [main_call3_v1, main_call3_v2, main_call3_v3, main_call3_v4, main_v23, main_v24, main_v25, main_c_7, main_v26, main_v27, main_c_8, main_v28, main_v29, main_c_9, main_v30, main_v31, main_cst_10, main_v32, main_v33, main_cst_11, main_v34, main_v35, main_cst_12, main_v36]
set_option maxRecDepth 16384 in
set_option maxHeartbeats 40000000 in
theorem ops0_p2_writes : (ops0_p2 : List (HloOp τ sig (Elt F))).Forall fun op =>
    op.writes ⊆ (wr_ops0_p2.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_ops0_p2 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_c_6 : W (Proc.devRef .tc main_c_6) = Cert.ReferenceIdeal.ReadP.val_main_c_6 (F := F))
    (h_main_call3_v0 : W (Proc.devRef .tc main_call3_v0) = Cert.ReferenceIdeal.ReadP.val_main_call3_v0 (F := F))
    (h_main_v1 : W (Proc.devRef .tc main_v1) = Cert.ReferenceIdeal.ReadP.val_main_v1 (F := F) x3)
    (h_main_v10 : W (Proc.devRef .tc main_v10) = Cert.ReferenceIdeal.ReadP.val_main_v10 (F := F) x2)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v22 : W (Proc.devRef .tc main_v22) = Cert.ReferenceIdeal.ReadP.val_main_v22 (F := F) x2)
    : (after ops0_p2 W (Proc.devRef .tc main_arg0) = x0)
      ∧ (after ops0_p2 W (Proc.devRef .tc main_arg1) = x1)
      ∧ (after ops0_p2 W (Proc.devRef .tc main_v1) = Cert.ReferenceIdeal.ReadP.val_main_v1 (F := F) x3)
      ∧ (after ops0_p2 W (Proc.devRef .tc main_v13) = Cert.ReferenceIdeal.ReadP.val_main_v13 (F := F) x2)
      ∧ (after ops0_p2 W (Proc.devRef .tc main_v15) = Cert.ReferenceIdeal.ReadP.val_main_v15 (F := F) x2)
      ∧ (after ops0_p2 W (Proc.devRef .tc main_v18) = Cert.ReferenceIdeal.ReadP.val_main_v18 (F := F) x2)
      ∧ (after ops0_p2 W (Proc.devRef .tc main_v20) = Cert.ReferenceIdeal.ReadP.val_main_v20 (F := F) x2)
      ∧ (after ops0_p2 W (Proc.devRef .tc main_v23) = Cert.ReferenceIdeal.ReadP.val_main_v23 (F := F) x2)
      ∧ (after ops0_p2 W (Proc.devRef .tc main_v25) = Cert.ReferenceIdeal.ReadP.val_main_v25 (F := F) x2)
      ∧ (after ops0_p2 W (Proc.devRef .tc main_v27) = Cert.ReferenceIdeal.ReadP.val_main_v27 (F := F) x2)
      ∧ (after ops0_p2 W (Proc.devRef .tc main_v29) = Cert.ReferenceIdeal.ReadP.val_main_v29 (F := F) x2)
      ∧ (after ops0_p2 W (Proc.devRef .tc main_v31) = Cert.ReferenceIdeal.ReadP.val_main_v31 (F := F) x2)
      ∧ (after ops0_p2 W (Proc.devRef .tc main_v33) = Cert.ReferenceIdeal.ReadP.val_main_v33 (F := F) x2)
      ∧ (after ops0_p2 W (Proc.devRef .tc main_v35) = Cert.ReferenceIdeal.ReadP.val_main_v35 (F := F) x2)
      ∧ (after ops0_p2 W (Proc.devRef .tc main_v36) = Cert.ReferenceIdeal.ReadP.val_main_v36 (F := F)) := by
  refine ⟨?_, ?_, ?_, ?_, ?_, ?_, ?_, ?_, ?_, ?_, ?_, ?_, ?_, ?_, ?_⟩
  · exact (after_of_writes_sub _ W ops0_p2_writes (by decide)).trans h_main_arg0
  · exact (after_of_writes_sub _ W ops0_p2_writes (by decide)).trans h_main_arg1
  · exact (after_of_writes_sub _ W ops0_p2_writes (by decide)).trans h_main_v1
  · exact (after_of_writes_sub _ W ops0_p2_writes (by decide)).trans h_main_v13
  · exact (after_of_writes_sub _ W ops0_p2_writes (by decide)).trans h_main_v15
  · exact (after_of_writes_sub _ W ops0_p2_writes (by decide)).trans h_main_v18
  · exact (after_of_writes_sub _ W ops0_p2_writes (by decide)).trans h_main_v20
  · (simp only [ops0_p2]; read_results; (try simp only [h_main_arg0, h_main_arg1, h_main_c_6, h_main_call3_v0, h_main_v1, h_main_v10, h_main_v13, h_main_v15, h_main_v18, h_main_v20, h_main_v22, TRef.ofBuf, TRef.toBuf, cast_eq]);
     (try simp only [Cert.ReferenceIdeal.ReadP.val_main_call3_v1, Cert.ReferenceIdeal.ReadP.val_main_call3_v2, Cert.ReferenceIdeal.ReadP.val_main_call3_v3, Cert.ReferenceIdeal.ReadP.val_main_call3_v4, Cert.ReferenceIdeal.ReadP.val_main_v23, Cert.ReferenceIdeal.ReadP.val_main_v24, Cert.ReferenceIdeal.ReadP.val_main_v25, Cert.ReferenceIdeal.ReadP.val_main_c_7, Cert.ReferenceIdeal.ReadP.val_main_v26, Cert.ReferenceIdeal.ReadP.val_main_v27, Cert.ReferenceIdeal.ReadP.val_main_c_8, Cert.ReferenceIdeal.ReadP.val_main_v28, Cert.ReferenceIdeal.ReadP.val_main_v29, Cert.ReferenceIdeal.ReadP.val_main_c_9, Cert.ReferenceIdeal.ReadP.val_main_v30, Cert.ReferenceIdeal.ReadP.val_main_v31, Cert.ReferenceIdeal.ReadP.val_main_cst_10, Cert.ReferenceIdeal.ReadP.val_main_v32, Cert.ReferenceIdeal.ReadP.val_main_v33, Cert.ReferenceIdeal.ReadP.val_main_cst_11, Cert.ReferenceIdeal.ReadP.val_main_v34, Cert.ReferenceIdeal.ReadP.val_main_v35, Cert.ReferenceIdeal.ReadP.val_main_cst_12, Cert.ReferenceIdeal.ReadP.val_main_v36]); (try rfl))
  · (simp only [ops0_p2]; read_results; (try simp only [h_main_arg0, h_main_arg1, h_main_c_6, h_main_call3_v0, h_main_v1, h_main_v10, h_main_v13, h_main_v15, h_main_v18, h_main_v20, h_main_v22, TRef.ofBuf, TRef.toBuf, cast_eq]);
     (try simp only [Cert.ReferenceIdeal.ReadP.val_main_call3_v1, Cert.ReferenceIdeal.ReadP.val_main_call3_v2, Cert.ReferenceIdeal.ReadP.val_main_call3_v3, Cert.ReferenceIdeal.ReadP.val_main_call3_v4, Cert.ReferenceIdeal.ReadP.val_main_v23, Cert.ReferenceIdeal.ReadP.val_main_v24, Cert.ReferenceIdeal.ReadP.val_main_v25, Cert.ReferenceIdeal.ReadP.val_main_c_7, Cert.ReferenceIdeal.ReadP.val_main_v26, Cert.ReferenceIdeal.ReadP.val_main_v27, Cert.ReferenceIdeal.ReadP.val_main_c_8, Cert.ReferenceIdeal.ReadP.val_main_v28, Cert.ReferenceIdeal.ReadP.val_main_v29, Cert.ReferenceIdeal.ReadP.val_main_c_9, Cert.ReferenceIdeal.ReadP.val_main_v30, Cert.ReferenceIdeal.ReadP.val_main_v31, Cert.ReferenceIdeal.ReadP.val_main_cst_10, Cert.ReferenceIdeal.ReadP.val_main_v32, Cert.ReferenceIdeal.ReadP.val_main_v33, Cert.ReferenceIdeal.ReadP.val_main_cst_11, Cert.ReferenceIdeal.ReadP.val_main_v34, Cert.ReferenceIdeal.ReadP.val_main_v35, Cert.ReferenceIdeal.ReadP.val_main_cst_12, Cert.ReferenceIdeal.ReadP.val_main_v36]); (try rfl))
  · (simp only [ops0_p2]; read_results; (try simp only [h_main_arg0, h_main_arg1, h_main_c_6, h_main_call3_v0, h_main_v1, h_main_v10, h_main_v13, h_main_v15, h_main_v18, h_main_v20, h_main_v22, TRef.ofBuf, TRef.toBuf, cast_eq]);
     (try simp only [Cert.ReferenceIdeal.ReadP.val_main_call3_v1, Cert.ReferenceIdeal.ReadP.val_main_call3_v2, Cert.ReferenceIdeal.ReadP.val_main_call3_v3, Cert.ReferenceIdeal.ReadP.val_main_call3_v4, Cert.ReferenceIdeal.ReadP.val_main_v23, Cert.ReferenceIdeal.ReadP.val_main_v24, Cert.ReferenceIdeal.ReadP.val_main_v25, Cert.ReferenceIdeal.ReadP.val_main_c_7, Cert.ReferenceIdeal.ReadP.val_main_v26, Cert.ReferenceIdeal.ReadP.val_main_v27, Cert.ReferenceIdeal.ReadP.val_main_c_8, Cert.ReferenceIdeal.ReadP.val_main_v28, Cert.ReferenceIdeal.ReadP.val_main_v29, Cert.ReferenceIdeal.ReadP.val_main_c_9, Cert.ReferenceIdeal.ReadP.val_main_v30, Cert.ReferenceIdeal.ReadP.val_main_v31, Cert.ReferenceIdeal.ReadP.val_main_cst_10, Cert.ReferenceIdeal.ReadP.val_main_v32, Cert.ReferenceIdeal.ReadP.val_main_v33, Cert.ReferenceIdeal.ReadP.val_main_cst_11, Cert.ReferenceIdeal.ReadP.val_main_v34, Cert.ReferenceIdeal.ReadP.val_main_v35, Cert.ReferenceIdeal.ReadP.val_main_cst_12, Cert.ReferenceIdeal.ReadP.val_main_v36]); (try rfl))
  · (simp only [ops0_p2]; read_results; (try simp only [h_main_arg0, h_main_arg1, h_main_c_6, h_main_call3_v0, h_main_v1, h_main_v10, h_main_v13, h_main_v15, h_main_v18, h_main_v20, h_main_v22, TRef.ofBuf, TRef.toBuf, cast_eq]);
     (try simp only [Cert.ReferenceIdeal.ReadP.val_main_call3_v1, Cert.ReferenceIdeal.ReadP.val_main_call3_v2, Cert.ReferenceIdeal.ReadP.val_main_call3_v3, Cert.ReferenceIdeal.ReadP.val_main_call3_v4, Cert.ReferenceIdeal.ReadP.val_main_v23, Cert.ReferenceIdeal.ReadP.val_main_v24, Cert.ReferenceIdeal.ReadP.val_main_v25, Cert.ReferenceIdeal.ReadP.val_main_c_7, Cert.ReferenceIdeal.ReadP.val_main_v26, Cert.ReferenceIdeal.ReadP.val_main_v27, Cert.ReferenceIdeal.ReadP.val_main_c_8, Cert.ReferenceIdeal.ReadP.val_main_v28, Cert.ReferenceIdeal.ReadP.val_main_v29, Cert.ReferenceIdeal.ReadP.val_main_c_9, Cert.ReferenceIdeal.ReadP.val_main_v30, Cert.ReferenceIdeal.ReadP.val_main_v31, Cert.ReferenceIdeal.ReadP.val_main_cst_10, Cert.ReferenceIdeal.ReadP.val_main_v32, Cert.ReferenceIdeal.ReadP.val_main_v33, Cert.ReferenceIdeal.ReadP.val_main_cst_11, Cert.ReferenceIdeal.ReadP.val_main_v34, Cert.ReferenceIdeal.ReadP.val_main_v35, Cert.ReferenceIdeal.ReadP.val_main_cst_12, Cert.ReferenceIdeal.ReadP.val_main_v36]); (try rfl))
  · (simp only [ops0_p2]; read_results; (try simp only [h_main_arg0, h_main_arg1, h_main_c_6, h_main_call3_v0, h_main_v1, h_main_v10, h_main_v13, h_main_v15, h_main_v18, h_main_v20, h_main_v22, TRef.ofBuf, TRef.toBuf, cast_eq]);
     (try simp only [Cert.ReferenceIdeal.ReadP.val_main_call3_v1, Cert.ReferenceIdeal.ReadP.val_main_call3_v2, Cert.ReferenceIdeal.ReadP.val_main_call3_v3, Cert.ReferenceIdeal.ReadP.val_main_call3_v4, Cert.ReferenceIdeal.ReadP.val_main_v23, Cert.ReferenceIdeal.ReadP.val_main_v24, Cert.ReferenceIdeal.ReadP.val_main_v25, Cert.ReferenceIdeal.ReadP.val_main_c_7, Cert.ReferenceIdeal.ReadP.val_main_v26, Cert.ReferenceIdeal.ReadP.val_main_v27, Cert.ReferenceIdeal.ReadP.val_main_c_8, Cert.ReferenceIdeal.ReadP.val_main_v28, Cert.ReferenceIdeal.ReadP.val_main_v29, Cert.ReferenceIdeal.ReadP.val_main_c_9, Cert.ReferenceIdeal.ReadP.val_main_v30, Cert.ReferenceIdeal.ReadP.val_main_v31, Cert.ReferenceIdeal.ReadP.val_main_cst_10, Cert.ReferenceIdeal.ReadP.val_main_v32, Cert.ReferenceIdeal.ReadP.val_main_v33, Cert.ReferenceIdeal.ReadP.val_main_cst_11, Cert.ReferenceIdeal.ReadP.val_main_v34, Cert.ReferenceIdeal.ReadP.val_main_v35, Cert.ReferenceIdeal.ReadP.val_main_cst_12, Cert.ReferenceIdeal.ReadP.val_main_v36]); (try rfl))
  · (simp only [ops0_p2]; read_results; (try simp only [h_main_arg0, h_main_arg1, h_main_c_6, h_main_call3_v0, h_main_v1, h_main_v10, h_main_v13, h_main_v15, h_main_v18, h_main_v20, h_main_v22, TRef.ofBuf, TRef.toBuf, cast_eq]);
     (try simp only [Cert.ReferenceIdeal.ReadP.val_main_call3_v1, Cert.ReferenceIdeal.ReadP.val_main_call3_v2, Cert.ReferenceIdeal.ReadP.val_main_call3_v3, Cert.ReferenceIdeal.ReadP.val_main_call3_v4, Cert.ReferenceIdeal.ReadP.val_main_v23, Cert.ReferenceIdeal.ReadP.val_main_v24, Cert.ReferenceIdeal.ReadP.val_main_v25, Cert.ReferenceIdeal.ReadP.val_main_c_7, Cert.ReferenceIdeal.ReadP.val_main_v26, Cert.ReferenceIdeal.ReadP.val_main_v27, Cert.ReferenceIdeal.ReadP.val_main_c_8, Cert.ReferenceIdeal.ReadP.val_main_v28, Cert.ReferenceIdeal.ReadP.val_main_v29, Cert.ReferenceIdeal.ReadP.val_main_c_9, Cert.ReferenceIdeal.ReadP.val_main_v30, Cert.ReferenceIdeal.ReadP.val_main_v31, Cert.ReferenceIdeal.ReadP.val_main_cst_10, Cert.ReferenceIdeal.ReadP.val_main_v32, Cert.ReferenceIdeal.ReadP.val_main_v33, Cert.ReferenceIdeal.ReadP.val_main_cst_11, Cert.ReferenceIdeal.ReadP.val_main_v34, Cert.ReferenceIdeal.ReadP.val_main_v35, Cert.ReferenceIdeal.ReadP.val_main_cst_12, Cert.ReferenceIdeal.ReadP.val_main_v36]); (try rfl))
  · (simp only [ops0_p2]; read_results; (try simp only [h_main_arg0, h_main_arg1, h_main_c_6, h_main_call3_v0, h_main_v1, h_main_v10, h_main_v13, h_main_v15, h_main_v18, h_main_v20, h_main_v22, TRef.ofBuf, TRef.toBuf, cast_eq]);
     (try simp only [Cert.ReferenceIdeal.ReadP.val_main_call3_v1, Cert.ReferenceIdeal.ReadP.val_main_call3_v2, Cert.ReferenceIdeal.ReadP.val_main_call3_v3, Cert.ReferenceIdeal.ReadP.val_main_call3_v4, Cert.ReferenceIdeal.ReadP.val_main_v23, Cert.ReferenceIdeal.ReadP.val_main_v24, Cert.ReferenceIdeal.ReadP.val_main_v25, Cert.ReferenceIdeal.ReadP.val_main_c_7, Cert.ReferenceIdeal.ReadP.val_main_v26, Cert.ReferenceIdeal.ReadP.val_main_v27, Cert.ReferenceIdeal.ReadP.val_main_c_8, Cert.ReferenceIdeal.ReadP.val_main_v28, Cert.ReferenceIdeal.ReadP.val_main_v29, Cert.ReferenceIdeal.ReadP.val_main_c_9, Cert.ReferenceIdeal.ReadP.val_main_v30, Cert.ReferenceIdeal.ReadP.val_main_v31, Cert.ReferenceIdeal.ReadP.val_main_cst_10, Cert.ReferenceIdeal.ReadP.val_main_v32, Cert.ReferenceIdeal.ReadP.val_main_v33, Cert.ReferenceIdeal.ReadP.val_main_cst_11, Cert.ReferenceIdeal.ReadP.val_main_v34, Cert.ReferenceIdeal.ReadP.val_main_v35, Cert.ReferenceIdeal.ReadP.val_main_cst_12, Cert.ReferenceIdeal.ReadP.val_main_v36]); (try rfl))
  · (simp only [ops0_p2]; read_results; (try simp only [h_main_arg0, h_main_arg1, h_main_c_6, h_main_call3_v0, h_main_v1, h_main_v10, h_main_v13, h_main_v15, h_main_v18, h_main_v20, h_main_v22, TRef.ofBuf, TRef.toBuf, cast_eq]);
     (try simp only [Cert.ReferenceIdeal.ReadP.val_main_call3_v1, Cert.ReferenceIdeal.ReadP.val_main_call3_v2, Cert.ReferenceIdeal.ReadP.val_main_call3_v3, Cert.ReferenceIdeal.ReadP.val_main_call3_v4, Cert.ReferenceIdeal.ReadP.val_main_v23, Cert.ReferenceIdeal.ReadP.val_main_v24, Cert.ReferenceIdeal.ReadP.val_main_v25, Cert.ReferenceIdeal.ReadP.val_main_c_7, Cert.ReferenceIdeal.ReadP.val_main_v26, Cert.ReferenceIdeal.ReadP.val_main_v27, Cert.ReferenceIdeal.ReadP.val_main_c_8, Cert.ReferenceIdeal.ReadP.val_main_v28, Cert.ReferenceIdeal.ReadP.val_main_v29, Cert.ReferenceIdeal.ReadP.val_main_c_9, Cert.ReferenceIdeal.ReadP.val_main_v30, Cert.ReferenceIdeal.ReadP.val_main_v31, Cert.ReferenceIdeal.ReadP.val_main_cst_10, Cert.ReferenceIdeal.ReadP.val_main_v32, Cert.ReferenceIdeal.ReadP.val_main_v33, Cert.ReferenceIdeal.ReadP.val_main_cst_11, Cert.ReferenceIdeal.ReadP.val_main_v34, Cert.ReferenceIdeal.ReadP.val_main_v35, Cert.ReferenceIdeal.ReadP.val_main_cst_12, Cert.ReferenceIdeal.ReadP.val_main_v36]); (try rfl))

/-- A piece of `ops0`. -/
abbrev ops0_p3 : List (HloOp τ sig (Elt F)) :=
  [ binary main_v36 main_v25 main_v37 (subf : (⟨S4x512x512, .f32⟩ : BufTy).Contents (Elt F) → (⟨S4x512x512, .f32⟩ : BufTy).Contents (Elt F) → (⟨S4x512x512, .f32⟩ : BufTy).Contents (Elt F)),
    nullary main_c_13 (constantI S_ 32 0#32),
    unary main_c_13 main_v38 (broadcastInDim S4x512x512 ![] bcast_S_S4x512x512 : (⟨S_, .i32⟩ : BufTy).Contents (Elt F) → (⟨S4x512x512, .i32⟩ : BufTy).Contents (Elt F)),
    binary main_v23 main_v38 main_v39 (cmpi .slt : (⟨S4x512x512, .i32⟩ : BufTy).Contents (Elt F) → (⟨S4x512x512, .i32⟩ : BufTy).Contents (Elt F) → (⟨S4x512x512, .i1⟩ : BufTy).Contents (Elt F)),
    nullary main_c_14 (constantI S_ 32 33#32),
    unary main_c_14 main_v40 (broadcastInDim S4x512x512 ![] bcast_S_S4x512x512 : (⟨S_, .i32⟩ : BufTy).Contents (Elt F) → (⟨S4x512x512, .i32⟩ : BufTy).Contents (Elt F)),
    binary main_v23 main_v40 main_v41 (addi : (⟨S4x512x512, .i32⟩ : BufTy).Contents (Elt F) → (⟨S4x512x512, .i32⟩ : BufTy).Contents (Elt F) → (⟨S4x512x512, .i32⟩ : BufTy).Contents (Elt F)),
    ternary main_v39 main_v41 main_v23 main_v42 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)) ]
abbrev wr_ops0_p3 : List (Ref sig .tc) := [main_v37, main_c_13, main_v38, main_v39, main_c_14, main_v40, main_v41, main_v42]
set_option maxRecDepth 16384 in
set_option maxHeartbeats 40000000 in
theorem ops0_p3_writes : (ops0_p3 : List (HloOp τ sig (Elt F))).Forall fun op =>
    op.writes ⊆ (wr_ops0_p3.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_ops0_p3 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v23 : W (Proc.devRef .tc main_v23) = Cert.ReferenceIdeal.ReadP.val_main_v23 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v36 : W (Proc.devRef .tc main_v36) = Cert.ReferenceIdeal.ReadP.val_main_v36 (F := F))
    : (after ops0_p3 W (Proc.devRef .tc main_arg0) = x0)
      ∧ (after ops0_p3 W (Proc.devRef .tc main_arg1) = x1)
      ∧ (after ops0_p3 W (Proc.devRef .tc main_v1) = Cert.ReferenceIdeal.ReadP.val_main_v1 (F := F) x3)
      ∧ (after ops0_p3 W (Proc.devRef .tc main_v13) = Cert.ReferenceIdeal.ReadP.val_main_v13 (F := F) x2)
      ∧ (after ops0_p3 W (Proc.devRef .tc main_v15) = Cert.ReferenceIdeal.ReadP.val_main_v15 (F := F) x2)
      ∧ (after ops0_p3 W (Proc.devRef .tc main_v18) = Cert.ReferenceIdeal.ReadP.val_main_v18 (F := F) x2)
      ∧ (after ops0_p3 W (Proc.devRef .tc main_v20) = Cert.ReferenceIdeal.ReadP.val_main_v20 (F := F) x2)
      ∧ (after ops0_p3 W (Proc.devRef .tc main_v23) = Cert.ReferenceIdeal.ReadP.val_main_v23 (F := F) x2)
      ∧ (after ops0_p3 W (Proc.devRef .tc main_v25) = Cert.ReferenceIdeal.ReadP.val_main_v25 (F := F) x2)
      ∧ (after ops0_p3 W (Proc.devRef .tc main_v27) = Cert.ReferenceIdeal.ReadP.val_main_v27 (F := F) x2)
      ∧ (after ops0_p3 W (Proc.devRef .tc main_v29) = Cert.ReferenceIdeal.ReadP.val_main_v29 (F := F) x2)
      ∧ (after ops0_p3 W (Proc.devRef .tc main_v31) = Cert.ReferenceIdeal.ReadP.val_main_v31 (F := F) x2)
      ∧ (after ops0_p3 W (Proc.devRef .tc main_v33) = Cert.ReferenceIdeal.ReadP.val_main_v33 (F := F) x2)
      ∧ (after ops0_p3 W (Proc.devRef .tc main_v35) = Cert.ReferenceIdeal.ReadP.val_main_v35 (F := F) x2)
      ∧ (after ops0_p3 W (Proc.devRef .tc main_v37) = Cert.ReferenceIdeal.ReadP.val_main_v37 (F := F) x2)
      ∧ (after ops0_p3 W (Proc.devRef .tc main_v42) = Cert.ReferenceIdeal.ReadP.val_main_v42 (F := F) x2) := by
  refine ⟨?_, ?_, ?_, ?_, ?_, ?_, ?_, ?_, ?_, ?_, ?_, ?_, ?_, ?_, ?_, ?_⟩
  · exact (after_of_writes_sub _ W ops0_p3_writes (by decide)).trans h_main_arg0
  · exact (after_of_writes_sub _ W ops0_p3_writes (by decide)).trans h_main_arg1
  · exact (after_of_writes_sub _ W ops0_p3_writes (by decide)).trans h_main_v1
  · exact (after_of_writes_sub _ W ops0_p3_writes (by decide)).trans h_main_v13
  · exact (after_of_writes_sub _ W ops0_p3_writes (by decide)).trans h_main_v15
  · exact (after_of_writes_sub _ W ops0_p3_writes (by decide)).trans h_main_v18
  · exact (after_of_writes_sub _ W ops0_p3_writes (by decide)).trans h_main_v20
  · exact (after_of_writes_sub _ W ops0_p3_writes (by decide)).trans h_main_v23
  · exact (after_of_writes_sub _ W ops0_p3_writes (by decide)).trans h_main_v25
  · exact (after_of_writes_sub _ W ops0_p3_writes (by decide)).trans h_main_v27
  · exact (after_of_writes_sub _ W ops0_p3_writes (by decide)).trans h_main_v29
  · exact (after_of_writes_sub _ W ops0_p3_writes (by decide)).trans h_main_v31
  · exact (after_of_writes_sub _ W ops0_p3_writes (by decide)).trans h_main_v33
  · exact (after_of_writes_sub _ W ops0_p3_writes (by decide)).trans h_main_v35
  · (simp only [ops0_p3]; read_results; (try simp only [h_main_arg0, h_main_arg1, h_main_v1, h_main_v13, h_main_v15, h_main_v18, h_main_v20, h_main_v23, h_main_v25, h_main_v27, h_main_v29, h_main_v31, h_main_v33, h_main_v35, h_main_v36, TRef.ofBuf, TRef.toBuf, cast_eq]);
     (try simp only [Cert.ReferenceIdeal.ReadP.val_main_v37, Cert.ReferenceIdeal.ReadP.val_main_c_13, Cert.ReferenceIdeal.ReadP.val_main_v38, Cert.ReferenceIdeal.ReadP.val_main_v39, Cert.ReferenceIdeal.ReadP.val_main_c_14, Cert.ReferenceIdeal.ReadP.val_main_v40, Cert.ReferenceIdeal.ReadP.val_main_v41, Cert.ReferenceIdeal.ReadP.val_main_v42]); (try rfl))
  · (simp only [ops0_p3]; read_results; (try simp only [h_main_arg0, h_main_arg1, h_main_v1, h_main_v13, h_main_v15, h_main_v18, h_main_v20, h_main_v23, h_main_v25, h_main_v27, h_main_v29, h_main_v31, h_main_v33, h_main_v35, h_main_v36, TRef.ofBuf, TRef.toBuf, cast_eq]);
     (try simp only [Cert.ReferenceIdeal.ReadP.val_main_v37, Cert.ReferenceIdeal.ReadP.val_main_c_13, Cert.ReferenceIdeal.ReadP.val_main_v38, Cert.ReferenceIdeal.ReadP.val_main_v39, Cert.ReferenceIdeal.ReadP.val_main_c_14, Cert.ReferenceIdeal.ReadP.val_main_v40, Cert.ReferenceIdeal.ReadP.val_main_v41, Cert.ReferenceIdeal.ReadP.val_main_v42]); (try rfl))

/-- A piece of `ops1`. -/
abbrev ops1_p0 : List (HloOp τ sig (Elt F)) :=
  [ nullary main_c_15 (constantI S_ 32 0#32),
    unary main_c_15 main_v43 (broadcastInDim S4x512x512 ![] bcast_S_S4x512x512 : (⟨S_, .i32⟩ : BufTy).Contents (Elt F) → (⟨S4x512x512, .i32⟩ : BufTy).Contents (Elt F)),
    binary main_v18 main_v43 main_v44 (cmpi .slt : (⟨S4x512x512, .i32⟩ : BufTy).Contents (Elt F) → (⟨S4x512x512, .i32⟩ : BufTy).Contents (Elt F) → (⟨S4x512x512, .i1⟩ : BufTy).Contents (Elt F)),
    nullary main_c_16 (constantI S_ 32 33#32),
    unary main_c_16 main_v45 (broadcastInDim S4x512x512 ![] bcast_S_S4x512x512 : (⟨S_, .i32⟩ : BufTy).Contents (Elt F) → (⟨S4x512x512, .i32⟩ : BufTy).Contents (Elt F)),
    binary main_v18 main_v45 main_v46 (addi : (⟨S4x512x512, .i32⟩ : BufTy).Contents (Elt F) → (⟨S4x512x512, .i32⟩ : BufTy).Contents (Elt F) → (⟨S4x512x512, .i32⟩ : BufTy).Contents (Elt F)),
    ternary main_v44 main_v46 main_v18 main_v47 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_17 (constantI S_ 32 0#32),
    unary main_c_17 main_v48 (broadcastInDim S4x512x512 ![] bcast_S_S4x512x512 : (⟨S_, .i32⟩ : BufTy).Contents (Elt F) → (⟨S4x512x512, .i32⟩ : BufTy).Contents (Elt F)),
    binary main_v13 main_v48 main_v49 (cmpi .slt : (⟨S4x512x512, .i32⟩ : BufTy).Contents (Elt F) → (⟨S4x512x512, .i32⟩ : BufTy).Contents (Elt F) → (⟨S4x512x512, .i1⟩ : BufTy).Contents (Elt F)),
    nullary main_c_18 (constantI S_ 32 33#32),
    unary main_c_18 main_v50 (broadcastInDim S4x512x512 ![] bcast_S_S4x512x512 : (⟨S_, .i32⟩ : BufTy).Contents (Elt F) → (⟨S4x512x512, .i32⟩ : BufTy).Contents (Elt F)),
    binary main_v13 main_v50 main_v51 (addi : (⟨S4x512x512, .i32⟩ : BufTy).Contents (Elt F) → (⟨S4x512x512, .i32⟩ : BufTy).Contents (Elt F) → (⟨S4x512x512, .i32⟩ : BufTy).Contents (Elt F)),
    ternary main_v49 main_v51 main_v13 main_v52 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    unary main_v42 main_v53 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v47 main_v54 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v52 main_v55 (broadcastInDim S4x512x512x1 ![0, 1, 2] bcast_S4x512x512_S4x512x512x1_0_1_2 : (⟨S4x512x512, .i32⟩ : BufTy).Contents (Elt F) → (⟨S4x512x512x1, .i32⟩ : BufTy).Contents (Elt F)) ]
abbrev wr_ops1_p0 : List (Ref sig .tc) := [main_c_15, main_v43, main_v44, main_c_16, main_v45, main_v46, main_v47, main_c_17, main_v48, main_v49, main_c_18, main_v50, main_v51, main_v52, main_v53, main_v54, main_v55]
set_option maxRecDepth 16384 in
set_option maxHeartbeats 40000000 in
theorem ops1_p0_writes : (ops1_p0 : List (HloOp τ sig (Elt F))).Forall fun op =>
    op.writes ⊆ (wr_ops1_p0.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_ops1_p0 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v23 : W (Proc.devRef .tc main_v23) = Cert.ReferenceIdeal.ReadP.val_main_v23 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    (h_main_v42 : W (Proc.devRef .tc main_v42) = Cert.ReferenceIdeal.ReadP.val_main_v42 (F := F) x2)
    : (after ops1_p0 W (Proc.devRef .tc main_arg0) = x0)
      ∧ (after ops1_p0 W (Proc.devRef .tc main_arg1) = x1)
      ∧ (after ops1_p0 W (Proc.devRef .tc main_v1) = Cert.ReferenceIdeal.ReadP.val_main_v1 (F := F) x3)
      ∧ (after ops1_p0 W (Proc.devRef .tc main_v13) = Cert.ReferenceIdeal.ReadP.val_main_v13 (F := F) x2)
      ∧ (after ops1_p0 W (Proc.devRef .tc main_v15) = Cert.ReferenceIdeal.ReadP.val_main_v15 (F := F) x2)
      ∧ (after ops1_p0 W (Proc.devRef .tc main_v18) = Cert.ReferenceIdeal.ReadP.val_main_v18 (F := F) x2)
      ∧ (after ops1_p0 W (Proc.devRef .tc main_v20) = Cert.ReferenceIdeal.ReadP.val_main_v20 (F := F) x2)
      ∧ (after ops1_p0 W (Proc.devRef .tc main_v23) = Cert.ReferenceIdeal.ReadP.val_main_v23 (F := F) x2)
      ∧ (after ops1_p0 W (Proc.devRef .tc main_v25) = Cert.ReferenceIdeal.ReadP.val_main_v25 (F := F) x2)
      ∧ (after ops1_p0 W (Proc.devRef .tc main_v27) = Cert.ReferenceIdeal.ReadP.val_main_v27 (F := F) x2)
      ∧ (after ops1_p0 W (Proc.devRef .tc main_v29) = Cert.ReferenceIdeal.ReadP.val_main_v29 (F := F) x2)
      ∧ (after ops1_p0 W (Proc.devRef .tc main_v31) = Cert.ReferenceIdeal.ReadP.val_main_v31 (F := F) x2)
      ∧ (after ops1_p0 W (Proc.devRef .tc main_v33) = Cert.ReferenceIdeal.ReadP.val_main_v33 (F := F) x2)
      ∧ (after ops1_p0 W (Proc.devRef .tc main_v35) = Cert.ReferenceIdeal.ReadP.val_main_v35 (F := F) x2)
      ∧ (after ops1_p0 W (Proc.devRef .tc main_v37) = Cert.ReferenceIdeal.ReadP.val_main_v37 (F := F) x2)
      ∧ (after ops1_p0 W (Proc.devRef .tc main_v53) = Cert.ReferenceIdeal.ReadP.val_main_v53 (F := F) x2)
      ∧ (after ops1_p0 W (Proc.devRef .tc main_v54) = Cert.ReferenceIdeal.ReadP.val_main_v54 (F := F) x2)
      ∧ (after ops1_p0 W (Proc.devRef .tc main_v55) = Cert.ReferenceIdeal.ReadP.val_main_v55 (F := F) x2) := by
  refine ⟨?_, ?_, ?_, ?_, ?_, ?_, ?_, ?_, ?_, ?_, ?_, ?_, ?_, ?_, ?_, ?_, ?_, ?_⟩
  · exact (after_of_writes_sub _ W ops1_p0_writes (by decide)).trans h_main_arg0
  · exact (after_of_writes_sub _ W ops1_p0_writes (by decide)).trans h_main_arg1
  · exact (after_of_writes_sub _ W ops1_p0_writes (by decide)).trans h_main_v1
  · exact (after_of_writes_sub _ W ops1_p0_writes (by decide)).trans h_main_v13
  · exact (after_of_writes_sub _ W ops1_p0_writes (by decide)).trans h_main_v15
  · exact (after_of_writes_sub _ W ops1_p0_writes (by decide)).trans h_main_v18
  · exact (after_of_writes_sub _ W ops1_p0_writes (by decide)).trans h_main_v20
  · exact (after_of_writes_sub _ W ops1_p0_writes (by decide)).trans h_main_v23
  · exact (after_of_writes_sub _ W ops1_p0_writes (by decide)).trans h_main_v25
  · exact (after_of_writes_sub _ W ops1_p0_writes (by decide)).trans h_main_v27
  · exact (after_of_writes_sub _ W ops1_p0_writes (by decide)).trans h_main_v29
  · exact (after_of_writes_sub _ W ops1_p0_writes (by decide)).trans h_main_v31
  · exact (after_of_writes_sub _ W ops1_p0_writes (by decide)).trans h_main_v33
  · exact (after_of_writes_sub _ W ops1_p0_writes (by decide)).trans h_main_v35
  · exact (after_of_writes_sub _ W ops1_p0_writes (by decide)).trans h_main_v37
  · (simp only [ops1_p0]; read_results; (try simp only [h_main_arg0, h_main_arg1, h_main_v1, h_main_v13, h_main_v15, h_main_v18, h_main_v20, h_main_v23, h_main_v25, h_main_v27, h_main_v29, h_main_v31, h_main_v33, h_main_v35, h_main_v37, h_main_v42, TRef.ofBuf, TRef.toBuf, cast_eq]);
     (try simp only [Cert.ReferenceIdeal.ReadP.val_main_c_15, Cert.ReferenceIdeal.ReadP.val_main_v43, Cert.ReferenceIdeal.ReadP.val_main_v44, Cert.ReferenceIdeal.ReadP.val_main_c_16, Cert.ReferenceIdeal.ReadP.val_main_v45, Cert.ReferenceIdeal.ReadP.val_main_v46, Cert.ReferenceIdeal.ReadP.val_main_v47, Cert.ReferenceIdeal.ReadP.val_main_c_17, Cert.ReferenceIdeal.ReadP.val_main_v48, Cert.ReferenceIdeal.ReadP.val_main_v49, Cert.ReferenceIdeal.ReadP.val_main_c_18, Cert.ReferenceIdeal.ReadP.val_main_v50, Cert.ReferenceIdeal.ReadP.val_main_v51, Cert.ReferenceIdeal.ReadP.val_main_v52, Cert.ReferenceIdeal.ReadP.val_main_v53, Cert.ReferenceIdeal.ReadP.val_main_v54, Cert.ReferenceIdeal.ReadP.val_main_v55]); (try rfl))
  · (simp only [ops1_p0]; read_results; (try simp only [h_main_arg0, h_main_arg1, h_main_v1, h_main_v13, h_main_v15, h_main_v18, h_main_v20, h_main_v23, h_main_v25, h_main_v27, h_main_v29, h_main_v31, h_main_v33, h_main_v35, h_main_v37, h_main_v42, TRef.ofBuf, TRef.toBuf, cast_eq]);
     (try simp only [Cert.ReferenceIdeal.ReadP.val_main_c_15, Cert.ReferenceIdeal.ReadP.val_main_v43, Cert.ReferenceIdeal.ReadP.val_main_v44, Cert.ReferenceIdeal.ReadP.val_main_c_16, Cert.ReferenceIdeal.ReadP.val_main_v45, Cert.ReferenceIdeal.ReadP.val_main_v46, Cert.ReferenceIdeal.ReadP.val_main_v47, Cert.ReferenceIdeal.ReadP.val_main_c_17, Cert.ReferenceIdeal.ReadP.val_main_v48, Cert.ReferenceIdeal.ReadP.val_main_v49, Cert.ReferenceIdeal.ReadP.val_main_c_18, Cert.ReferenceIdeal.ReadP.val_main_v50, Cert.ReferenceIdeal.ReadP.val_main_v51, Cert.ReferenceIdeal.ReadP.val_main_v52, Cert.ReferenceIdeal.ReadP.val_main_v53, Cert.ReferenceIdeal.ReadP.val_main_v54, Cert.ReferenceIdeal.ReadP.val_main_v55]); (try rfl))
  · (simp only [ops1_p0]; read_results; (try simp only [h_main_arg0, h_main_arg1, h_main_v1, h_main_v13, h_main_v15, h_main_v18, h_main_v20, h_main_v23, h_main_v25, h_main_v27, h_main_v29, h_main_v31, h_main_v33, h_main_v35, h_main_v37, h_main_v42, TRef.ofBuf, TRef.toBuf, cast_eq]);
     (try simp only [Cert.ReferenceIdeal.ReadP.val_main_c_15, Cert.ReferenceIdeal.ReadP.val_main_v43, Cert.ReferenceIdeal.ReadP.val_main_v44, Cert.ReferenceIdeal.ReadP.val_main_c_16, Cert.ReferenceIdeal.ReadP.val_main_v45, Cert.ReferenceIdeal.ReadP.val_main_v46, Cert.ReferenceIdeal.ReadP.val_main_v47, Cert.ReferenceIdeal.ReadP.val_main_c_17, Cert.ReferenceIdeal.ReadP.val_main_v48, Cert.ReferenceIdeal.ReadP.val_main_v49, Cert.ReferenceIdeal.ReadP.val_main_c_18, Cert.ReferenceIdeal.ReadP.val_main_v50, Cert.ReferenceIdeal.ReadP.val_main_v51, Cert.ReferenceIdeal.ReadP.val_main_v52, Cert.ReferenceIdeal.ReadP.val_main_v53, Cert.ReferenceIdeal.ReadP.val_main_v54, Cert.ReferenceIdeal.ReadP.val_main_v55]); (try rfl))

/-- A piece of `ops1`. -/
abbrev ops1_p1 : List (HloOp τ sig (Elt F)) :=
  [ nary ![main_v53, main_v54, main_v55] main_v56 (fun u => concatenate S4x512x512x3 3 [⟨S4x512x512x1, u 0⟩, ⟨S4x512x512x1, u 1⟩, ⟨S4x512x512x1, u 2⟩] concatenates_S4x512x512x1_S4x512x512x1_S4x512x512x1_S4x512x512x3_d3) ]
abbrev wr_ops1_p1 : List (Ref sig .tc) := [main_v56]
set_option maxRecDepth 16384 in
set_option maxHeartbeats 40000000 in
theorem ops1_p1_writes : (ops1_p1 : List (HloOp τ sig (Elt F))).Forall fun op =>
    op.writes ⊆ (wr_ops1_p1.map (Proc.devRef (τ := τ) .tc)).toFinset :=
  by simp only [List.Forall]; exact writes_sub_of rfl (by decide)
set_option maxRecDepth 16384 in
set_option maxHeartbeats 40000000 in
theorem stage_ops1_p1 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v23 : W (Proc.devRef .tc main_v23) = Cert.ReferenceIdeal.ReadP.val_main_v23 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    (h_main_v53 : W (Proc.devRef .tc main_v53) = Cert.ReferenceIdeal.ReadP.val_main_v53 (F := F) x2)
    (h_main_v54 : W (Proc.devRef .tc main_v54) = Cert.ReferenceIdeal.ReadP.val_main_v54 (F := F) x2)
    (h_main_v55 : W (Proc.devRef .tc main_v55) = Cert.ReferenceIdeal.ReadP.val_main_v55 (F := F) x2)
    : (after ops1_p1 W (Proc.devRef .tc main_arg0) = x0)
      ∧ (after ops1_p1 W (Proc.devRef .tc main_arg1) = x1)
      ∧ (after ops1_p1 W (Proc.devRef .tc main_v1) = Cert.ReferenceIdeal.ReadP.val_main_v1 (F := F) x3)
      ∧ (after ops1_p1 W (Proc.devRef .tc main_v13) = Cert.ReferenceIdeal.ReadP.val_main_v13 (F := F) x2)
      ∧ (after ops1_p1 W (Proc.devRef .tc main_v15) = Cert.ReferenceIdeal.ReadP.val_main_v15 (F := F) x2)
      ∧ (after ops1_p1 W (Proc.devRef .tc main_v18) = Cert.ReferenceIdeal.ReadP.val_main_v18 (F := F) x2)
      ∧ (after ops1_p1 W (Proc.devRef .tc main_v20) = Cert.ReferenceIdeal.ReadP.val_main_v20 (F := F) x2)
      ∧ (after ops1_p1 W (Proc.devRef .tc main_v23) = Cert.ReferenceIdeal.ReadP.val_main_v23 (F := F) x2)
      ∧ (after ops1_p1 W (Proc.devRef .tc main_v25) = Cert.ReferenceIdeal.ReadP.val_main_v25 (F := F) x2)
      ∧ (after ops1_p1 W (Proc.devRef .tc main_v27) = Cert.ReferenceIdeal.ReadP.val_main_v27 (F := F) x2)
      ∧ (after ops1_p1 W (Proc.devRef .tc main_v29) = Cert.ReferenceIdeal.ReadP.val_main_v29 (F := F) x2)
      ∧ (after ops1_p1 W (Proc.devRef .tc main_v31) = Cert.ReferenceIdeal.ReadP.val_main_v31 (F := F) x2)
      ∧ (after ops1_p1 W (Proc.devRef .tc main_v33) = Cert.ReferenceIdeal.ReadP.val_main_v33 (F := F) x2)
      ∧ (after ops1_p1 W (Proc.devRef .tc main_v35) = Cert.ReferenceIdeal.ReadP.val_main_v35 (F := F) x2)
      ∧ (after ops1_p1 W (Proc.devRef .tc main_v37) = Cert.ReferenceIdeal.ReadP.val_main_v37 (F := F) x2)
      ∧ (after ops1_p1 W (Proc.devRef .tc main_v56) = Cert.ReferenceIdeal.ReadP.val_main_v56 (F := F) x2) := by
  refine ⟨?_, ?_, ?_, ?_, ?_, ?_, ?_, ?_, ?_, ?_, ?_, ?_, ?_, ?_, ?_, ?_⟩
  · exact (after_of_writes_sub _ W ops1_p1_writes (by decide)).trans h_main_arg0
  · exact (after_of_writes_sub _ W ops1_p1_writes (by decide)).trans h_main_arg1
  · exact (after_of_writes_sub _ W ops1_p1_writes (by decide)).trans h_main_v1
  · exact (after_of_writes_sub _ W ops1_p1_writes (by decide)).trans h_main_v13
  · exact (after_of_writes_sub _ W ops1_p1_writes (by decide)).trans h_main_v15
  · exact (after_of_writes_sub _ W ops1_p1_writes (by decide)).trans h_main_v18
  · exact (after_of_writes_sub _ W ops1_p1_writes (by decide)).trans h_main_v20
  · exact (after_of_writes_sub _ W ops1_p1_writes (by decide)).trans h_main_v23
  · exact (after_of_writes_sub _ W ops1_p1_writes (by decide)).trans h_main_v25
  · exact (after_of_writes_sub _ W ops1_p1_writes (by decide)).trans h_main_v27
  · exact (after_of_writes_sub _ W ops1_p1_writes (by decide)).trans h_main_v29
  · exact (after_of_writes_sub _ W ops1_p1_writes (by decide)).trans h_main_v31
  · exact (after_of_writes_sub _ W ops1_p1_writes (by decide)).trans h_main_v33
  · exact (after_of_writes_sub _ W ops1_p1_writes (by decide)).trans h_main_v35
  · exact (after_of_writes_sub _ W ops1_p1_writes (by decide)).trans h_main_v37
  · simp only [ops1_p1, after_cons, after_nil]
    rw [nary_result]
    show concatenate S4x512x512x3 3 [⟨S4x512x512x1, (W (Proc.devRef .tc main_v53))⟩, ⟨S4x512x512x1, (W (Proc.devRef .tc main_v54))⟩, ⟨S4x512x512x1, (W (Proc.devRef .tc main_v55))⟩] concatenates_S4x512x512x1_S4x512x512x1_S4x512x512x1_S4x512x512x3_d3 = _
    rw [h_main_v53, h_main_v54, h_main_v55]
    (try simp only [Cert.ReferenceIdeal.ReadP.val_main_v56])
    (try rfl)

/-- A piece of `ops1`. -/
abbrev ops1_p2 : List (HloOp τ sig (Elt F)) :=
  [ binary main_v1 main_v56 main_v57 ((fun x i => Host.gather gather_S8x3x33x33x33_S4x512x512x3_S8x3x4x512x512_01_234_n_n_234_3_83111 x i) : (⟨S8x3x33x33x33, .f32⟩ : BufTy).Contents (Elt F) → (⟨S4x512x512x3, .i32⟩ : BufTy).Contents (Elt F) → (⟨S8x3x4x512x512, .f32⟩ : BufTy).Contents (Elt F)),
    binary main_v37 main_v35 main_v58 (mulf : (⟨S4x512x512, .f32⟩ : BufTy).Contents (Elt F) → (⟨S4x512x512, .f32⟩ : BufTy).Contents (Elt F) → (⟨S4x512x512, .f32⟩ : BufTy).Contents (Elt F)),
    binary main_v58 main_v33 main_v59 (mulf : (⟨S4x512x512, .f32⟩ : BufTy).Contents (Elt F) → (⟨S4x512x512, .f32⟩ : BufTy).Contents (Elt F) → (⟨S4x512x512, .f32⟩ : BufTy).Contents (Elt F)),
    unary main_v59 main_v60 (broadcastInDim S1x1x4x512x512 ![2, 3, 4] bcast_S4x512x512_S1x1x4x512x512_2_3_4 : (⟨S4x512x512, .f32⟩ : BufTy).Contents (Elt F) → (⟨S1x1x4x512x512, .f32⟩ : BufTy).Contents (Elt F)),
    unary main_v60 main_v61 (broadcastInDim S8x3x4x512x512 ![0, 1, 2, 3, 4] bcast_S1x1x4x512x512_S8x3x4x512x512_0_1_2_3_4 : (⟨S1x1x4x512x512, .f32⟩ : BufTy).Contents (Elt F) → (⟨S8x3x4x512x512, .f32⟩ : BufTy).Contents (Elt F)),
    binary main_v57 main_v61 main_v62 (mulf : (⟨S8x3x4x512x512, .f32⟩ : BufTy).Contents (Elt F) → (⟨S8x3x4x512x512, .f32⟩ : BufTy).Contents (Elt F) → (⟨S8x3x4x512x512, .f32⟩ : BufTy).Contents (Elt F)),
    nullary main_c_19 (constantI S_ 32 0#32),
    unary main_c_19 main_v63 (broadcastInDim S4x512x512 ![] bcast_S_S4x512x512 : (⟨S_, .i32⟩ : BufTy).Contents (Elt F) → (⟨S4x512x512, .i32⟩ : BufTy).Contents (Elt F)),
    binary main_v23 main_v63 main_v64 (cmpi .slt : (⟨S4x512x512, .i32⟩ : BufTy).Contents (Elt F) → (⟨S4x512x512, .i32⟩ : BufTy).Contents (Elt F) → (⟨S4x512x512, .i1⟩ : BufTy).Contents (Elt F)),
    nullary main_c_20 (constantI S_ 32 33#32),
    unary main_c_20 main_v65 (broadcastInDim S4x512x512 ![] bcast_S_S4x512x512 : (⟨S_, .i32⟩ : BufTy).Contents (Elt F) → (⟨S4x512x512, .i32⟩ : BufTy).Contents (Elt F)),
    binary main_v23 main_v65 main_v66 (addi : (⟨S4x512x512, .i32⟩ : BufTy).Contents (Elt F) → (⟨S4x512x512, .i32⟩ : BufTy).Contents (Elt F) → (⟨S4x512x512, .i32⟩ : BufTy).Contents (Elt F)),
    ternary main_v64 main_v66 main_v23 main_v67 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_21 (constantI S_ 32 0#32),
    unary main_c_21 main_v68 (broadcastInDim S4x512x512 ![] bcast_S_S4x512x512 : (⟨S_, .i32⟩ : BufTy).Contents (Elt F) → (⟨S4x512x512, .i32⟩ : BufTy).Contents (Elt F)),
    binary main_v18 main_v68 main_v69 (cmpi .slt : (⟨S4x512x512, .i32⟩ : BufTy).Contents (Elt F) → (⟨S4x512x512, .i32⟩ : BufTy).Contents (Elt F) → (⟨S4x512x512, .i1⟩ : BufTy).Contents (Elt F)),
    nullary main_c_22 (constantI S_ 32 33#32),
    unary main_c_22 main_v70 (broadcastInDim S4x512x512 ![] bcast_S_S4x512x512 : (⟨S_, .i32⟩ : BufTy).Contents (Elt F) → (⟨S4x512x512, .i32⟩ : BufTy).Contents (Elt F)),
    binary main_v18 main_v70 main_v71 (addi : (⟨S4x512x512, .i32⟩ : BufTy).Contents (Elt F) → (⟨S4x512x512, .i32⟩ : BufTy).Contents (Elt F) → (⟨S4x512x512, .i32⟩ : BufTy).Contents (Elt F)),
    ternary main_v69 main_v71 main_v18 main_v72 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_23 (constantI S_ 32 0#32),
    unary main_c_23 main_v73 (broadcastInDim S4x512x512 ![] bcast_S_S4x512x512 : (⟨S_, .i32⟩ : BufTy).Contents (Elt F) → (⟨S4x512x512, .i32⟩ : BufTy).Contents (Elt F)),
    binary main_v27 main_v73 main_v74 (cmpi .slt : (⟨S4x512x512, .i32⟩ : BufTy).Contents (Elt F) → (⟨S4x512x512, .i32⟩ : BufTy).Contents (Elt F) → (⟨S4x512x512, .i1⟩ : BufTy).Contents (Elt F)),
    nullary main_c_24 (constantI S_ 32 33#32) ]
abbrev wr_ops1_p2 : List (Ref sig .tc) := [main_v57, main_v58, main_v59, main_v60, main_v61, main_v62, main_c_19, main_v63, main_v64, main_c_20, main_v65, main_v66, main_v67, main_c_21, main_v68, main_v69, main_c_22, main_v70, main_v71, main_v72, main_c_23, main_v73, main_v74, main_c_24]
set_option maxRecDepth 16384 in
set_option maxHeartbeats 40000000 in
theorem ops1_p2_writes : (ops1_p2 : List (HloOp τ sig (Elt F))).Forall fun op =>
    op.writes ⊆ (wr_ops1_p2.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_ops1_p2 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v23 : W (Proc.devRef .tc main_v23) = Cert.ReferenceIdeal.ReadP.val_main_v23 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    (h_main_v56 : W (Proc.devRef .tc main_v56) = Cert.ReferenceIdeal.ReadP.val_main_v56 (F := F) x2)
    : (after ops1_p2 W (Proc.devRef .tc main_arg0) = x0)
      ∧ (after ops1_p2 W (Proc.devRef .tc main_arg1) = x1)
      ∧ (after ops1_p2 W (Proc.devRef .tc main_c_24) = Cert.ReferenceIdeal.ReadP.val_main_c_24 (F := F))
      ∧ (after ops1_p2 W (Proc.devRef .tc main_v1) = Cert.ReferenceIdeal.ReadP.val_main_v1 (F := F) x3)
      ∧ (after ops1_p2 W (Proc.devRef .tc main_v13) = Cert.ReferenceIdeal.ReadP.val_main_v13 (F := F) x2)
      ∧ (after ops1_p2 W (Proc.devRef .tc main_v15) = Cert.ReferenceIdeal.ReadP.val_main_v15 (F := F) x2)
      ∧ (after ops1_p2 W (Proc.devRef .tc main_v18) = Cert.ReferenceIdeal.ReadP.val_main_v18 (F := F) x2)
      ∧ (after ops1_p2 W (Proc.devRef .tc main_v20) = Cert.ReferenceIdeal.ReadP.val_main_v20 (F := F) x2)
      ∧ (after ops1_p2 W (Proc.devRef .tc main_v23) = Cert.ReferenceIdeal.ReadP.val_main_v23 (F := F) x2)
      ∧ (after ops1_p2 W (Proc.devRef .tc main_v25) = Cert.ReferenceIdeal.ReadP.val_main_v25 (F := F) x2)
      ∧ (after ops1_p2 W (Proc.devRef .tc main_v27) = Cert.ReferenceIdeal.ReadP.val_main_v27 (F := F) x2)
      ∧ (after ops1_p2 W (Proc.devRef .tc main_v29) = Cert.ReferenceIdeal.ReadP.val_main_v29 (F := F) x2)
      ∧ (after ops1_p2 W (Proc.devRef .tc main_v31) = Cert.ReferenceIdeal.ReadP.val_main_v31 (F := F) x2)
      ∧ (after ops1_p2 W (Proc.devRef .tc main_v33) = Cert.ReferenceIdeal.ReadP.val_main_v33 (F := F) x2)
      ∧ (after ops1_p2 W (Proc.devRef .tc main_v35) = Cert.ReferenceIdeal.ReadP.val_main_v35 (F := F) x2)
      ∧ (after ops1_p2 W (Proc.devRef .tc main_v37) = Cert.ReferenceIdeal.ReadP.val_main_v37 (F := F) x2)
      ∧ (after ops1_p2 W (Proc.devRef .tc main_v62) = Cert.ReferenceIdeal.ReadP.val_main_v62 (F := F) x2 x3)
      ∧ (after ops1_p2 W (Proc.devRef .tc main_v67) = Cert.ReferenceIdeal.ReadP.val_main_v67 (F := F) x2)
      ∧ (after ops1_p2 W (Proc.devRef .tc main_v72) = Cert.ReferenceIdeal.ReadP.val_main_v72 (F := F) x2)
      ∧ (after ops1_p2 W (Proc.devRef .tc main_v74) = Cert.ReferenceIdeal.ReadP.val_main_v74 (F := F) x2) := by
  refine ⟨?_, ?_, ?_, ?_, ?_, ?_, ?_, ?_, ?_, ?_, ?_, ?_, ?_, ?_, ?_, ?_, ?_, ?_, ?_, ?_⟩
  · exact (after_of_writes_sub _ W ops1_p2_writes (by decide)).trans h_main_arg0
  · exact (after_of_writes_sub _ W ops1_p2_writes (by decide)).trans h_main_arg1
  · (simp only [ops1_p2]; read_results; (try simp only [h_main_arg0, h_main_arg1, h_main_v1, h_main_v13, h_main_v15, h_main_v18, h_main_v20, h_main_v23, h_main_v25, h_main_v27, h_main_v29, h_main_v31, h_main_v33, h_main_v35, h_main_v37, h_main_v56, TRef.ofBuf, TRef.toBuf, cast_eq]);
     (try simp only [Cert.ReferenceIdeal.ReadP.val_main_v57, Cert.ReferenceIdeal.ReadP.val_main_v58, Cert.ReferenceIdeal.ReadP.val_main_v59, Cert.ReferenceIdeal.ReadP.val_main_v60, Cert.ReferenceIdeal.ReadP.val_main_v61, Cert.ReferenceIdeal.ReadP.val_main_v62, Cert.ReferenceIdeal.ReadP.val_main_c_19, Cert.ReferenceIdeal.ReadP.val_main_v63, Cert.ReferenceIdeal.ReadP.val_main_v64, Cert.ReferenceIdeal.ReadP.val_main_c_20, Cert.ReferenceIdeal.ReadP.val_main_v65, Cert.ReferenceIdeal.ReadP.val_main_v66, Cert.ReferenceIdeal.ReadP.val_main_v67, Cert.ReferenceIdeal.ReadP.val_main_c_21, Cert.ReferenceIdeal.ReadP.val_main_v68, Cert.ReferenceIdeal.ReadP.val_main_v69, Cert.ReferenceIdeal.ReadP.val_main_c_22, Cert.ReferenceIdeal.ReadP.val_main_v70, Cert.ReferenceIdeal.ReadP.val_main_v71, Cert.ReferenceIdeal.ReadP.val_main_v72, Cert.ReferenceIdeal.ReadP.val_main_c_23, Cert.ReferenceIdeal.ReadP.val_main_v73, Cert.ReferenceIdeal.ReadP.val_main_v74, Cert.ReferenceIdeal.ReadP.val_main_c_24]); (try rfl))
  · exact (after_of_writes_sub _ W ops1_p2_writes (by decide)).trans h_main_v1
  · exact (after_of_writes_sub _ W ops1_p2_writes (by decide)).trans h_main_v13
  · exact (after_of_writes_sub _ W ops1_p2_writes (by decide)).trans h_main_v15
  · exact (after_of_writes_sub _ W ops1_p2_writes (by decide)).trans h_main_v18
  · exact (after_of_writes_sub _ W ops1_p2_writes (by decide)).trans h_main_v20
  · exact (after_of_writes_sub _ W ops1_p2_writes (by decide)).trans h_main_v23
  · exact (after_of_writes_sub _ W ops1_p2_writes (by decide)).trans h_main_v25
  · exact (after_of_writes_sub _ W ops1_p2_writes (by decide)).trans h_main_v27
  · exact (after_of_writes_sub _ W ops1_p2_writes (by decide)).trans h_main_v29
  · exact (after_of_writes_sub _ W ops1_p2_writes (by decide)).trans h_main_v31
  · exact (after_of_writes_sub _ W ops1_p2_writes (by decide)).trans h_main_v33
  · exact (after_of_writes_sub _ W ops1_p2_writes (by decide)).trans h_main_v35
  · exact (after_of_writes_sub _ W ops1_p2_writes (by decide)).trans h_main_v37
  · (simp only [ops1_p2]; read_results; (try simp only [h_main_arg0, h_main_arg1, h_main_v1, h_main_v13, h_main_v15, h_main_v18, h_main_v20, h_main_v23, h_main_v25, h_main_v27, h_main_v29, h_main_v31, h_main_v33, h_main_v35, h_main_v37, h_main_v56, TRef.ofBuf, TRef.toBuf, cast_eq]);
     (try simp only [Cert.ReferenceIdeal.ReadP.val_main_v57, Cert.ReferenceIdeal.ReadP.val_main_v58, Cert.ReferenceIdeal.ReadP.val_main_v59, Cert.ReferenceIdeal.ReadP.val_main_v60, Cert.ReferenceIdeal.ReadP.val_main_v61, Cert.ReferenceIdeal.ReadP.val_main_v62, Cert.ReferenceIdeal.ReadP.val_main_c_19, Cert.ReferenceIdeal.ReadP.val_main_v63, Cert.ReferenceIdeal.ReadP.val_main_v64, Cert.ReferenceIdeal.ReadP.val_main_c_20, Cert.ReferenceIdeal.ReadP.val_main_v65, Cert.ReferenceIdeal.ReadP.val_main_v66, Cert.ReferenceIdeal.ReadP.val_main_v67, Cert.ReferenceIdeal.ReadP.val_main_c_21, Cert.ReferenceIdeal.ReadP.val_main_v68, Cert.ReferenceIdeal.ReadP.val_main_v69, Cert.ReferenceIdeal.ReadP.val_main_c_22, Cert.ReferenceIdeal.ReadP.val_main_v70, Cert.ReferenceIdeal.ReadP.val_main_v71, Cert.ReferenceIdeal.ReadP.val_main_v72, Cert.ReferenceIdeal.ReadP.val_main_c_23, Cert.ReferenceIdeal.ReadP.val_main_v73, Cert.ReferenceIdeal.ReadP.val_main_v74, Cert.ReferenceIdeal.ReadP.val_main_c_24]); (try rfl))
  · (simp only [ops1_p2]; read_results; (try simp only [h_main_arg0, h_main_arg1, h_main_v1, h_main_v13, h_main_v15, h_main_v18, h_main_v20, h_main_v23, h_main_v25, h_main_v27, h_main_v29, h_main_v31, h_main_v33, h_main_v35, h_main_v37, h_main_v56, TRef.ofBuf, TRef.toBuf, cast_eq]);
     (try simp only [Cert.ReferenceIdeal.ReadP.val_main_v57, Cert.ReferenceIdeal.ReadP.val_main_v58, Cert.ReferenceIdeal.ReadP.val_main_v59, Cert.ReferenceIdeal.ReadP.val_main_v60, Cert.ReferenceIdeal.ReadP.val_main_v61, Cert.ReferenceIdeal.ReadP.val_main_v62, Cert.ReferenceIdeal.ReadP.val_main_c_19, Cert.ReferenceIdeal.ReadP.val_main_v63, Cert.ReferenceIdeal.ReadP.val_main_v64, Cert.ReferenceIdeal.ReadP.val_main_c_20, Cert.ReferenceIdeal.ReadP.val_main_v65, Cert.ReferenceIdeal.ReadP.val_main_v66, Cert.ReferenceIdeal.ReadP.val_main_v67, Cert.ReferenceIdeal.ReadP.val_main_c_21, Cert.ReferenceIdeal.ReadP.val_main_v68, Cert.ReferenceIdeal.ReadP.val_main_v69, Cert.ReferenceIdeal.ReadP.val_main_c_22, Cert.ReferenceIdeal.ReadP.val_main_v70, Cert.ReferenceIdeal.ReadP.val_main_v71, Cert.ReferenceIdeal.ReadP.val_main_v72, Cert.ReferenceIdeal.ReadP.val_main_c_23, Cert.ReferenceIdeal.ReadP.val_main_v73, Cert.ReferenceIdeal.ReadP.val_main_v74, Cert.ReferenceIdeal.ReadP.val_main_c_24]); (try rfl))
  · (simp only [ops1_p2]; read_results; (try simp only [h_main_arg0, h_main_arg1, h_main_v1, h_main_v13, h_main_v15, h_main_v18, h_main_v20, h_main_v23, h_main_v25, h_main_v27, h_main_v29, h_main_v31, h_main_v33, h_main_v35, h_main_v37, h_main_v56, TRef.ofBuf, TRef.toBuf, cast_eq]);
     (try simp only [Cert.ReferenceIdeal.ReadP.val_main_v57, Cert.ReferenceIdeal.ReadP.val_main_v58, Cert.ReferenceIdeal.ReadP.val_main_v59, Cert.ReferenceIdeal.ReadP.val_main_v60, Cert.ReferenceIdeal.ReadP.val_main_v61, Cert.ReferenceIdeal.ReadP.val_main_v62, Cert.ReferenceIdeal.ReadP.val_main_c_19, Cert.ReferenceIdeal.ReadP.val_main_v63, Cert.ReferenceIdeal.ReadP.val_main_v64, Cert.ReferenceIdeal.ReadP.val_main_c_20, Cert.ReferenceIdeal.ReadP.val_main_v65, Cert.ReferenceIdeal.ReadP.val_main_v66, Cert.ReferenceIdeal.ReadP.val_main_v67, Cert.ReferenceIdeal.ReadP.val_main_c_21, Cert.ReferenceIdeal.ReadP.val_main_v68, Cert.ReferenceIdeal.ReadP.val_main_v69, Cert.ReferenceIdeal.ReadP.val_main_c_22, Cert.ReferenceIdeal.ReadP.val_main_v70, Cert.ReferenceIdeal.ReadP.val_main_v71, Cert.ReferenceIdeal.ReadP.val_main_v72, Cert.ReferenceIdeal.ReadP.val_main_c_23, Cert.ReferenceIdeal.ReadP.val_main_v73, Cert.ReferenceIdeal.ReadP.val_main_v74, Cert.ReferenceIdeal.ReadP.val_main_c_24]); (try rfl))
  · (simp only [ops1_p2]; read_results; (try simp only [h_main_arg0, h_main_arg1, h_main_v1, h_main_v13, h_main_v15, h_main_v18, h_main_v20, h_main_v23, h_main_v25, h_main_v27, h_main_v29, h_main_v31, h_main_v33, h_main_v35, h_main_v37, h_main_v56, TRef.ofBuf, TRef.toBuf, cast_eq]);
     (try simp only [Cert.ReferenceIdeal.ReadP.val_main_v57, Cert.ReferenceIdeal.ReadP.val_main_v58, Cert.ReferenceIdeal.ReadP.val_main_v59, Cert.ReferenceIdeal.ReadP.val_main_v60, Cert.ReferenceIdeal.ReadP.val_main_v61, Cert.ReferenceIdeal.ReadP.val_main_v62, Cert.ReferenceIdeal.ReadP.val_main_c_19, Cert.ReferenceIdeal.ReadP.val_main_v63, Cert.ReferenceIdeal.ReadP.val_main_v64, Cert.ReferenceIdeal.ReadP.val_main_c_20, Cert.ReferenceIdeal.ReadP.val_main_v65, Cert.ReferenceIdeal.ReadP.val_main_v66, Cert.ReferenceIdeal.ReadP.val_main_v67, Cert.ReferenceIdeal.ReadP.val_main_c_21, Cert.ReferenceIdeal.ReadP.val_main_v68, Cert.ReferenceIdeal.ReadP.val_main_v69, Cert.ReferenceIdeal.ReadP.val_main_c_22, Cert.ReferenceIdeal.ReadP.val_main_v70, Cert.ReferenceIdeal.ReadP.val_main_v71, Cert.ReferenceIdeal.ReadP.val_main_v72, Cert.ReferenceIdeal.ReadP.val_main_c_23, Cert.ReferenceIdeal.ReadP.val_main_v73, Cert.ReferenceIdeal.ReadP.val_main_v74, Cert.ReferenceIdeal.ReadP.val_main_c_24]); (try rfl))

/-- A piece of `ops1`. -/
abbrev ops1_p3 : List (HloOp τ sig (Elt F)) :=
  [ unary main_c_24 main_v75 (broadcastInDim S4x512x512 ![] bcast_S_S4x512x512 : (⟨S_, .i32⟩ : BufTy).Contents (Elt F) → (⟨S4x512x512, .i32⟩ : BufTy).Contents (Elt F)),
    binary main_v27 main_v75 main_v76 (addi : (⟨S4x512x512, .i32⟩ : BufTy).Contents (Elt F) → (⟨S4x512x512, .i32⟩ : BufTy).Contents (Elt F) → (⟨S4x512x512, .i32⟩ : BufTy).Contents (Elt F)),
    ternary main_v74 main_v76 main_v27 main_v77 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    unary main_v67 main_v78 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v72 main_v79 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v77 main_v80 (broadcastInDim S4x512x512x1 ![0, 1, 2] bcast_S4x512x512_S4x512x512x1_0_1_2 : (⟨S4x512x512, .i32⟩ : BufTy).Contents (Elt F) → (⟨S4x512x512x1, .i32⟩ : BufTy).Contents (Elt F)) ]
abbrev wr_ops1_p3 : List (Ref sig .tc) := [main_v75, main_v76, main_v77, main_v78, main_v79, main_v80]
set_option maxRecDepth 16384 in
set_option maxHeartbeats 40000000 in
theorem ops1_p3_writes : (ops1_p3 : List (HloOp τ sig (Elt F))).Forall fun op =>
    op.writes ⊆ (wr_ops1_p3.map (Proc.devRef (τ := τ) .tc)).toFinset :=
  ⟨writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_ops1_p3 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_c_24 : W (Proc.devRef .tc main_c_24) = Cert.ReferenceIdeal.ReadP.val_main_c_24 (F := F))
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v23 : W (Proc.devRef .tc main_v23) = Cert.ReferenceIdeal.ReadP.val_main_v23 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    (h_main_v62 : W (Proc.devRef .tc main_v62) = Cert.ReferenceIdeal.ReadP.val_main_v62 (F := F) x2 x3)
    (h_main_v67 : W (Proc.devRef .tc main_v67) = Cert.ReferenceIdeal.ReadP.val_main_v67 (F := F) x2)
    (h_main_v72 : W (Proc.devRef .tc main_v72) = Cert.ReferenceIdeal.ReadP.val_main_v72 (F := F) x2)
    (h_main_v74 : W (Proc.devRef .tc main_v74) = Cert.ReferenceIdeal.ReadP.val_main_v74 (F := F) x2)
    : (after ops1_p3 W (Proc.devRef .tc main_arg0) = x0)
      ∧ (after ops1_p3 W (Proc.devRef .tc main_arg1) = x1)
      ∧ (after ops1_p3 W (Proc.devRef .tc main_v1) = Cert.ReferenceIdeal.ReadP.val_main_v1 (F := F) x3)
      ∧ (after ops1_p3 W (Proc.devRef .tc main_v13) = Cert.ReferenceIdeal.ReadP.val_main_v13 (F := F) x2)
      ∧ (after ops1_p3 W (Proc.devRef .tc main_v15) = Cert.ReferenceIdeal.ReadP.val_main_v15 (F := F) x2)
      ∧ (after ops1_p3 W (Proc.devRef .tc main_v18) = Cert.ReferenceIdeal.ReadP.val_main_v18 (F := F) x2)
      ∧ (after ops1_p3 W (Proc.devRef .tc main_v20) = Cert.ReferenceIdeal.ReadP.val_main_v20 (F := F) x2)
      ∧ (after ops1_p3 W (Proc.devRef .tc main_v23) = Cert.ReferenceIdeal.ReadP.val_main_v23 (F := F) x2)
      ∧ (after ops1_p3 W (Proc.devRef .tc main_v25) = Cert.ReferenceIdeal.ReadP.val_main_v25 (F := F) x2)
      ∧ (after ops1_p3 W (Proc.devRef .tc main_v27) = Cert.ReferenceIdeal.ReadP.val_main_v27 (F := F) x2)
      ∧ (after ops1_p3 W (Proc.devRef .tc main_v29) = Cert.ReferenceIdeal.ReadP.val_main_v29 (F := F) x2)
      ∧ (after ops1_p3 W (Proc.devRef .tc main_v31) = Cert.ReferenceIdeal.ReadP.val_main_v31 (F := F) x2)
      ∧ (after ops1_p3 W (Proc.devRef .tc main_v33) = Cert.ReferenceIdeal.ReadP.val_main_v33 (F := F) x2)
      ∧ (after ops1_p3 W (Proc.devRef .tc main_v35) = Cert.ReferenceIdeal.ReadP.val_main_v35 (F := F) x2)
      ∧ (after ops1_p3 W (Proc.devRef .tc main_v37) = Cert.ReferenceIdeal.ReadP.val_main_v37 (F := F) x2)
      ∧ (after ops1_p3 W (Proc.devRef .tc main_v62) = Cert.ReferenceIdeal.ReadP.val_main_v62 (F := F) x2 x3)
      ∧ (after ops1_p3 W (Proc.devRef .tc main_v78) = Cert.ReferenceIdeal.ReadP.val_main_v78 (F := F) x2)
      ∧ (after ops1_p3 W (Proc.devRef .tc main_v79) = Cert.ReferenceIdeal.ReadP.val_main_v79 (F := F) x2)
      ∧ (after ops1_p3 W (Proc.devRef .tc main_v80) = Cert.ReferenceIdeal.ReadP.val_main_v80 (F := F) x2) := by
  refine ⟨?_, ?_, ?_, ?_, ?_, ?_, ?_, ?_, ?_, ?_, ?_, ?_, ?_, ?_, ?_, ?_, ?_, ?_, ?_⟩
  · exact (after_of_writes_sub _ W ops1_p3_writes (by decide)).trans h_main_arg0
  · exact (after_of_writes_sub _ W ops1_p3_writes (by decide)).trans h_main_arg1
  · exact (after_of_writes_sub _ W ops1_p3_writes (by decide)).trans h_main_v1
  · exact (after_of_writes_sub _ W ops1_p3_writes (by decide)).trans h_main_v13
  · exact (after_of_writes_sub _ W ops1_p3_writes (by decide)).trans h_main_v15
  · exact (after_of_writes_sub _ W ops1_p3_writes (by decide)).trans h_main_v18
  · exact (after_of_writes_sub _ W ops1_p3_writes (by decide)).trans h_main_v20
  · exact (after_of_writes_sub _ W ops1_p3_writes (by decide)).trans h_main_v23
  · exact (after_of_writes_sub _ W ops1_p3_writes (by decide)).trans h_main_v25
  · exact (after_of_writes_sub _ W ops1_p3_writes (by decide)).trans h_main_v27
  · exact (after_of_writes_sub _ W ops1_p3_writes (by decide)).trans h_main_v29
  · exact (after_of_writes_sub _ W ops1_p3_writes (by decide)).trans h_main_v31
  · exact (after_of_writes_sub _ W ops1_p3_writes (by decide)).trans h_main_v33
  · exact (after_of_writes_sub _ W ops1_p3_writes (by decide)).trans h_main_v35
  · exact (after_of_writes_sub _ W ops1_p3_writes (by decide)).trans h_main_v37
  · exact (after_of_writes_sub _ W ops1_p3_writes (by decide)).trans h_main_v62
  · (simp only [ops1_p3]; read_results; (try simp only [h_main_arg0, h_main_arg1, h_main_c_24, h_main_v1, h_main_v13, h_main_v15, h_main_v18, h_main_v20, h_main_v23, h_main_v25, h_main_v27, h_main_v29, h_main_v31, h_main_v33, h_main_v35, h_main_v37, h_main_v62, h_main_v67, h_main_v72, h_main_v74, TRef.ofBuf, TRef.toBuf, cast_eq]);
     (try simp only [Cert.ReferenceIdeal.ReadP.val_main_v75, Cert.ReferenceIdeal.ReadP.val_main_v76, Cert.ReferenceIdeal.ReadP.val_main_v77, Cert.ReferenceIdeal.ReadP.val_main_v78, Cert.ReferenceIdeal.ReadP.val_main_v79, Cert.ReferenceIdeal.ReadP.val_main_v80]); (try rfl))
  · (simp only [ops1_p3]; read_results; (try simp only [h_main_arg0, h_main_arg1, h_main_c_24, h_main_v1, h_main_v13, h_main_v15, h_main_v18, h_main_v20, h_main_v23, h_main_v25, h_main_v27, h_main_v29, h_main_v31, h_main_v33, h_main_v35, h_main_v37, h_main_v62, h_main_v67, h_main_v72, h_main_v74, TRef.ofBuf, TRef.toBuf, cast_eq]);
     (try simp only [Cert.ReferenceIdeal.ReadP.val_main_v75, Cert.ReferenceIdeal.ReadP.val_main_v76, Cert.ReferenceIdeal.ReadP.val_main_v77, Cert.ReferenceIdeal.ReadP.val_main_v78, Cert.ReferenceIdeal.ReadP.val_main_v79, Cert.ReferenceIdeal.ReadP.val_main_v80]); (try rfl))
  · (simp only [ops1_p3]; read_results; (try simp only [h_main_arg0, h_main_arg1, h_main_c_24, h_main_v1, h_main_v13, h_main_v15, h_main_v18, h_main_v20, h_main_v23, h_main_v25, h_main_v27, h_main_v29, h_main_v31, h_main_v33, h_main_v35, h_main_v37, h_main_v62, h_main_v67, h_main_v72, h_main_v74, TRef.ofBuf, TRef.toBuf, cast_eq]);
     (try simp only [Cert.ReferenceIdeal.ReadP.val_main_v75, Cert.ReferenceIdeal.ReadP.val_main_v76, Cert.ReferenceIdeal.ReadP.val_main_v77, Cert.ReferenceIdeal.ReadP.val_main_v78, Cert.ReferenceIdeal.ReadP.val_main_v79, Cert.ReferenceIdeal.ReadP.val_main_v80]); (try rfl))

/-- A piece of `ops1`. -/
abbrev ops1_p4 : List (HloOp τ sig (Elt F)) :=
  [ nary ![main_v78, main_v79, main_v80] main_v81 (fun u => concatenate S4x512x512x3 3 [⟨S4x512x512x1, u 0⟩, ⟨S4x512x512x1, u 1⟩, ⟨S4x512x512x1, u 2⟩] concatenates_S4x512x512x1_S4x512x512x1_S4x512x512x1_S4x512x512x3_d3) ]
abbrev wr_ops1_p4 : List (Ref sig .tc) := [main_v81]
set_option maxRecDepth 16384 in
set_option maxHeartbeats 40000000 in
theorem ops1_p4_writes : (ops1_p4 : List (HloOp τ sig (Elt F))).Forall fun op =>
    op.writes ⊆ (wr_ops1_p4.map (Proc.devRef (τ := τ) .tc)).toFinset :=
  by simp only [List.Forall]; exact writes_sub_of rfl (by decide)
set_option maxRecDepth 16384 in
set_option maxHeartbeats 40000000 in
theorem stage_ops1_p4 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v23 : W (Proc.devRef .tc main_v23) = Cert.ReferenceIdeal.ReadP.val_main_v23 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    (h_main_v62 : W (Proc.devRef .tc main_v62) = Cert.ReferenceIdeal.ReadP.val_main_v62 (F := F) x2 x3)
    (h_main_v78 : W (Proc.devRef .tc main_v78) = Cert.ReferenceIdeal.ReadP.val_main_v78 (F := F) x2)
    (h_main_v79 : W (Proc.devRef .tc main_v79) = Cert.ReferenceIdeal.ReadP.val_main_v79 (F := F) x2)
    (h_main_v80 : W (Proc.devRef .tc main_v80) = Cert.ReferenceIdeal.ReadP.val_main_v80 (F := F) x2)
    : (after ops1_p4 W (Proc.devRef .tc main_arg0) = x0)
      ∧ (after ops1_p4 W (Proc.devRef .tc main_arg1) = x1)
      ∧ (after ops1_p4 W (Proc.devRef .tc main_v1) = Cert.ReferenceIdeal.ReadP.val_main_v1 (F := F) x3)
      ∧ (after ops1_p4 W (Proc.devRef .tc main_v13) = Cert.ReferenceIdeal.ReadP.val_main_v13 (F := F) x2)
      ∧ (after ops1_p4 W (Proc.devRef .tc main_v15) = Cert.ReferenceIdeal.ReadP.val_main_v15 (F := F) x2)
      ∧ (after ops1_p4 W (Proc.devRef .tc main_v18) = Cert.ReferenceIdeal.ReadP.val_main_v18 (F := F) x2)
      ∧ (after ops1_p4 W (Proc.devRef .tc main_v20) = Cert.ReferenceIdeal.ReadP.val_main_v20 (F := F) x2)
      ∧ (after ops1_p4 W (Proc.devRef .tc main_v23) = Cert.ReferenceIdeal.ReadP.val_main_v23 (F := F) x2)
      ∧ (after ops1_p4 W (Proc.devRef .tc main_v25) = Cert.ReferenceIdeal.ReadP.val_main_v25 (F := F) x2)
      ∧ (after ops1_p4 W (Proc.devRef .tc main_v27) = Cert.ReferenceIdeal.ReadP.val_main_v27 (F := F) x2)
      ∧ (after ops1_p4 W (Proc.devRef .tc main_v29) = Cert.ReferenceIdeal.ReadP.val_main_v29 (F := F) x2)
      ∧ (after ops1_p4 W (Proc.devRef .tc main_v31) = Cert.ReferenceIdeal.ReadP.val_main_v31 (F := F) x2)
      ∧ (after ops1_p4 W (Proc.devRef .tc main_v33) = Cert.ReferenceIdeal.ReadP.val_main_v33 (F := F) x2)
      ∧ (after ops1_p4 W (Proc.devRef .tc main_v35) = Cert.ReferenceIdeal.ReadP.val_main_v35 (F := F) x2)
      ∧ (after ops1_p4 W (Proc.devRef .tc main_v37) = Cert.ReferenceIdeal.ReadP.val_main_v37 (F := F) x2)
      ∧ (after ops1_p4 W (Proc.devRef .tc main_v62) = Cert.ReferenceIdeal.ReadP.val_main_v62 (F := F) x2 x3)
      ∧ (after ops1_p4 W (Proc.devRef .tc main_v81) = Cert.ReferenceIdeal.ReadP.val_main_v81 (F := F) x2) := by
  refine ⟨?_, ?_, ?_, ?_, ?_, ?_, ?_, ?_, ?_, ?_, ?_, ?_, ?_, ?_, ?_, ?_, ?_⟩
  · exact (after_of_writes_sub _ W ops1_p4_writes (by decide)).trans h_main_arg0
  · exact (after_of_writes_sub _ W ops1_p4_writes (by decide)).trans h_main_arg1
  · exact (after_of_writes_sub _ W ops1_p4_writes (by decide)).trans h_main_v1
  · exact (after_of_writes_sub _ W ops1_p4_writes (by decide)).trans h_main_v13
  · exact (after_of_writes_sub _ W ops1_p4_writes (by decide)).trans h_main_v15
  · exact (after_of_writes_sub _ W ops1_p4_writes (by decide)).trans h_main_v18
  · exact (after_of_writes_sub _ W ops1_p4_writes (by decide)).trans h_main_v20
  · exact (after_of_writes_sub _ W ops1_p4_writes (by decide)).trans h_main_v23
  · exact (after_of_writes_sub _ W ops1_p4_writes (by decide)).trans h_main_v25
  · exact (after_of_writes_sub _ W ops1_p4_writes (by decide)).trans h_main_v27
  · exact (after_of_writes_sub _ W ops1_p4_writes (by decide)).trans h_main_v29
  · exact (after_of_writes_sub _ W ops1_p4_writes (by decide)).trans h_main_v31
  · exact (after_of_writes_sub _ W ops1_p4_writes (by decide)).trans h_main_v33
  · exact (after_of_writes_sub _ W ops1_p4_writes (by decide)).trans h_main_v35
  · exact (after_of_writes_sub _ W ops1_p4_writes (by decide)).trans h_main_v37
  · exact (after_of_writes_sub _ W ops1_p4_writes (by decide)).trans h_main_v62
  · simp only [ops1_p4, after_cons, after_nil]
    rw [nary_result]
    show concatenate S4x512x512x3 3 [⟨S4x512x512x1, (W (Proc.devRef .tc main_v78))⟩, ⟨S4x512x512x1, (W (Proc.devRef .tc main_v79))⟩, ⟨S4x512x512x1, (W (Proc.devRef .tc main_v80))⟩] concatenates_S4x512x512x1_S4x512x512x1_S4x512x512x1_S4x512x512x3_d3 = _
    rw [h_main_v78, h_main_v79, h_main_v80]
    (try simp only [Cert.ReferenceIdeal.ReadP.val_main_v81])
    (try rfl)

/-- A piece of `ops1`. -/
abbrev ops1_p5 : List (HloOp τ sig (Elt F)) :=
  [ binary main_v1 main_v81 main_v82 ((fun x i => Host.gather gather_S8x3x33x33x33_S4x512x512x3_S8x3x4x512x512_01_234_n_n_234_3_83111 x i) : (⟨S8x3x33x33x33, .f32⟩ : BufTy).Contents (Elt F) → (⟨S4x512x512x3, .i32⟩ : BufTy).Contents (Elt F) → (⟨S8x3x4x512x512, .f32⟩ : BufTy).Contents (Elt F)),
    binary main_v37 main_v35 main_v83 (mulf : (⟨S4x512x512, .f32⟩ : BufTy).Contents (Elt F) → (⟨S4x512x512, .f32⟩ : BufTy).Contents (Elt F) → (⟨S4x512x512, .f32⟩ : BufTy).Contents (Elt F)),
    binary main_v83 main_v15 main_v84 (mulf : (⟨S4x512x512, .f32⟩ : BufTy).Contents (Elt F) → (⟨S4x512x512, .f32⟩ : BufTy).Contents (Elt F) → (⟨S4x512x512, .f32⟩ : BufTy).Contents (Elt F)),
    unary main_v84 main_v85 (broadcastInDim S1x1x4x512x512 ![2, 3, 4] bcast_S4x512x512_S1x1x4x512x512_2_3_4 : (⟨S4x512x512, .f32⟩ : BufTy).Contents (Elt F) → (⟨S1x1x4x512x512, .f32⟩ : BufTy).Contents (Elt F)),
    unary main_v85 main_v86 (broadcastInDim S8x3x4x512x512 ![0, 1, 2, 3, 4] bcast_S1x1x4x512x512_S8x3x4x512x512_0_1_2_3_4 : (⟨S1x1x4x512x512, .f32⟩ : BufTy).Contents (Elt F) → (⟨S8x3x4x512x512, .f32⟩ : BufTy).Contents (Elt F)),
    binary main_v82 main_v86 main_v87 (mulf : (⟨S8x3x4x512x512, .f32⟩ : BufTy).Contents (Elt F) → (⟨S8x3x4x512x512, .f32⟩ : BufTy).Contents (Elt F) → (⟨S8x3x4x512x512, .f32⟩ : BufTy).Contents (Elt F)),
    binary main_v62 main_v87 main_v88 (addf : (⟨S8x3x4x512x512, .f32⟩ : BufTy).Contents (Elt F) → (⟨S8x3x4x512x512, .f32⟩ : BufTy).Contents (Elt F) → (⟨S8x3x4x512x512, .f32⟩ : BufTy).Contents (Elt F)),
    nullary main_c_25 (constantI S_ 32 0#32),
    unary main_c_25 main_v89 (broadcastInDim S4x512x512 ![] bcast_S_S4x512x512 : (⟨S_, .i32⟩ : BufTy).Contents (Elt F) → (⟨S4x512x512, .i32⟩ : BufTy).Contents (Elt F)),
    binary main_v23 main_v89 main_v90 (cmpi .slt : (⟨S4x512x512, .i32⟩ : BufTy).Contents (Elt F) → (⟨S4x512x512, .i32⟩ : BufTy).Contents (Elt F) → (⟨S4x512x512, .i1⟩ : BufTy).Contents (Elt F)),
    nullary main_c_26 (constantI S_ 32 33#32) ]
abbrev wr_ops1_p5 : List (Ref sig .tc) := [main_v82, main_v83, main_v84, main_v85, main_v86, main_v87, main_v88, main_c_25, main_v89, main_v90, main_c_26]
set_option maxRecDepth 16384 in
set_option maxHeartbeats 40000000 in
theorem ops1_p5_writes : (ops1_p5 : List (HloOp τ sig (Elt F))).Forall fun op =>
    op.writes ⊆ (wr_ops1_p5.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_ops1_p5 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v23 : W (Proc.devRef .tc main_v23) = Cert.ReferenceIdeal.ReadP.val_main_v23 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    (h_main_v62 : W (Proc.devRef .tc main_v62) = Cert.ReferenceIdeal.ReadP.val_main_v62 (F := F) x2 x3)
    (h_main_v81 : W (Proc.devRef .tc main_v81) = Cert.ReferenceIdeal.ReadP.val_main_v81 (F := F) x2)
    : (after ops1_p5 W (Proc.devRef .tc main_arg0) = x0)
      ∧ (after ops1_p5 W (Proc.devRef .tc main_arg1) = x1)
      ∧ (after ops1_p5 W (Proc.devRef .tc main_c_26) = Cert.ReferenceIdeal.ReadP.val_main_c_26 (F := F))
      ∧ (after ops1_p5 W (Proc.devRef .tc main_v1) = Cert.ReferenceIdeal.ReadP.val_main_v1 (F := F) x3)
      ∧ (after ops1_p5 W (Proc.devRef .tc main_v13) = Cert.ReferenceIdeal.ReadP.val_main_v13 (F := F) x2)
      ∧ (after ops1_p5 W (Proc.devRef .tc main_v15) = Cert.ReferenceIdeal.ReadP.val_main_v15 (F := F) x2)
      ∧ (after ops1_p5 W (Proc.devRef .tc main_v18) = Cert.ReferenceIdeal.ReadP.val_main_v18 (F := F) x2)
      ∧ (after ops1_p5 W (Proc.devRef .tc main_v20) = Cert.ReferenceIdeal.ReadP.val_main_v20 (F := F) x2)
      ∧ (after ops1_p5 W (Proc.devRef .tc main_v23) = Cert.ReferenceIdeal.ReadP.val_main_v23 (F := F) x2)
      ∧ (after ops1_p5 W (Proc.devRef .tc main_v25) = Cert.ReferenceIdeal.ReadP.val_main_v25 (F := F) x2)
      ∧ (after ops1_p5 W (Proc.devRef .tc main_v27) = Cert.ReferenceIdeal.ReadP.val_main_v27 (F := F) x2)
      ∧ (after ops1_p5 W (Proc.devRef .tc main_v29) = Cert.ReferenceIdeal.ReadP.val_main_v29 (F := F) x2)
      ∧ (after ops1_p5 W (Proc.devRef .tc main_v31) = Cert.ReferenceIdeal.ReadP.val_main_v31 (F := F) x2)
      ∧ (after ops1_p5 W (Proc.devRef .tc main_v33) = Cert.ReferenceIdeal.ReadP.val_main_v33 (F := F) x2)
      ∧ (after ops1_p5 W (Proc.devRef .tc main_v35) = Cert.ReferenceIdeal.ReadP.val_main_v35 (F := F) x2)
      ∧ (after ops1_p5 W (Proc.devRef .tc main_v37) = Cert.ReferenceIdeal.ReadP.val_main_v37 (F := F) x2)
      ∧ (after ops1_p5 W (Proc.devRef .tc main_v88) = Cert.ReferenceIdeal.ReadP.val_main_v88 (F := F) x2 x3)
      ∧ (after ops1_p5 W (Proc.devRef .tc main_v90) = Cert.ReferenceIdeal.ReadP.val_main_v90 (F := F) x2) := by
  refine ⟨?_, ?_, ?_, ?_, ?_, ?_, ?_, ?_, ?_, ?_, ?_, ?_, ?_, ?_, ?_, ?_, ?_, ?_⟩
  · exact (after_of_writes_sub _ W ops1_p5_writes (by decide)).trans h_main_arg0
  · exact (after_of_writes_sub _ W ops1_p5_writes (by decide)).trans h_main_arg1
  · (simp only [ops1_p5]; read_results; (try simp only [h_main_arg0, h_main_arg1, h_main_v1, h_main_v13, h_main_v15, h_main_v18, h_main_v20, h_main_v23, h_main_v25, h_main_v27, h_main_v29, h_main_v31, h_main_v33, h_main_v35, h_main_v37, h_main_v62, h_main_v81, TRef.ofBuf, TRef.toBuf, cast_eq]);
     (try simp only [Cert.ReferenceIdeal.ReadP.val_main_v82, Cert.ReferenceIdeal.ReadP.val_main_v83, Cert.ReferenceIdeal.ReadP.val_main_v84, Cert.ReferenceIdeal.ReadP.val_main_v85, Cert.ReferenceIdeal.ReadP.val_main_v86, Cert.ReferenceIdeal.ReadP.val_main_v87, Cert.ReferenceIdeal.ReadP.val_main_v88, Cert.ReferenceIdeal.ReadP.val_main_c_25, Cert.ReferenceIdeal.ReadP.val_main_v89, Cert.ReferenceIdeal.ReadP.val_main_v90, Cert.ReferenceIdeal.ReadP.val_main_c_26]); (try rfl))
  · exact (after_of_writes_sub _ W ops1_p5_writes (by decide)).trans h_main_v1
  · exact (after_of_writes_sub _ W ops1_p5_writes (by decide)).trans h_main_v13
  · exact (after_of_writes_sub _ W ops1_p5_writes (by decide)).trans h_main_v15
  · exact (after_of_writes_sub _ W ops1_p5_writes (by decide)).trans h_main_v18
  · exact (after_of_writes_sub _ W ops1_p5_writes (by decide)).trans h_main_v20
  · exact (after_of_writes_sub _ W ops1_p5_writes (by decide)).trans h_main_v23
  · exact (after_of_writes_sub _ W ops1_p5_writes (by decide)).trans h_main_v25
  · exact (after_of_writes_sub _ W ops1_p5_writes (by decide)).trans h_main_v27
  · exact (after_of_writes_sub _ W ops1_p5_writes (by decide)).trans h_main_v29
  · exact (after_of_writes_sub _ W ops1_p5_writes (by decide)).trans h_main_v31
  · exact (after_of_writes_sub _ W ops1_p5_writes (by decide)).trans h_main_v33
  · exact (after_of_writes_sub _ W ops1_p5_writes (by decide)).trans h_main_v35
  · exact (after_of_writes_sub _ W ops1_p5_writes (by decide)).trans h_main_v37
  · (simp only [ops1_p5]; read_results; (try simp only [h_main_arg0, h_main_arg1, h_main_v1, h_main_v13, h_main_v15, h_main_v18, h_main_v20, h_main_v23, h_main_v25, h_main_v27, h_main_v29, h_main_v31, h_main_v33, h_main_v35, h_main_v37, h_main_v62, h_main_v81, TRef.ofBuf, TRef.toBuf, cast_eq]);
     (try simp only [Cert.ReferenceIdeal.ReadP.val_main_v82, Cert.ReferenceIdeal.ReadP.val_main_v83, Cert.ReferenceIdeal.ReadP.val_main_v84, Cert.ReferenceIdeal.ReadP.val_main_v85, Cert.ReferenceIdeal.ReadP.val_main_v86, Cert.ReferenceIdeal.ReadP.val_main_v87, Cert.ReferenceIdeal.ReadP.val_main_v88, Cert.ReferenceIdeal.ReadP.val_main_c_25, Cert.ReferenceIdeal.ReadP.val_main_v89, Cert.ReferenceIdeal.ReadP.val_main_v90, Cert.ReferenceIdeal.ReadP.val_main_c_26]); (try rfl))
  · (simp only [ops1_p5]; read_results; (try simp only [h_main_arg0, h_main_arg1, h_main_v1, h_main_v13, h_main_v15, h_main_v18, h_main_v20, h_main_v23, h_main_v25, h_main_v27, h_main_v29, h_main_v31, h_main_v33, h_main_v35, h_main_v37, h_main_v62, h_main_v81, TRef.ofBuf, TRef.toBuf, cast_eq]);
     (try simp only [Cert.ReferenceIdeal.ReadP.val_main_v82, Cert.ReferenceIdeal.ReadP.val_main_v83, Cert.ReferenceIdeal.ReadP.val_main_v84, Cert.ReferenceIdeal.ReadP.val_main_v85, Cert.ReferenceIdeal.ReadP.val_main_v86, Cert.ReferenceIdeal.ReadP.val_main_v87, Cert.ReferenceIdeal.ReadP.val_main_v88, Cert.ReferenceIdeal.ReadP.val_main_c_25, Cert.ReferenceIdeal.ReadP.val_main_v89, Cert.ReferenceIdeal.ReadP.val_main_v90, Cert.ReferenceIdeal.ReadP.val_main_c_26]); (try rfl))

/-- A piece of `ops2`. -/
abbrev ops2_p0 : List (HloOp τ sig (Elt F)) :=
  [ unary main_c_26 main_v91 (broadcastInDim S4x512x512 ![] bcast_S_S4x512x512 : (⟨S_, .i32⟩ : BufTy).Contents (Elt F) → (⟨S4x512x512, .i32⟩ : BufTy).Contents (Elt F)),
    binary main_v23 main_v91 main_v92 (addi : (⟨S4x512x512, .i32⟩ : BufTy).Contents (Elt F) → (⟨S4x512x512, .i32⟩ : BufTy).Contents (Elt F) → (⟨S4x512x512, .i32⟩ : BufTy).Contents (Elt F)),
    ternary main_v90 main_v92 main_v23 main_v93 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_27 (constantI S_ 32 0#32),
    unary main_c_27 main_v94 (broadcastInDim S4x512x512 ![] bcast_S_S4x512x512 : (⟨S_, .i32⟩ : BufTy).Contents (Elt F) → (⟨S4x512x512, .i32⟩ : BufTy).Contents (Elt F)),
    binary main_v29 main_v94 main_v95 (cmpi .slt : (⟨S4x512x512, .i32⟩ : BufTy).Contents (Elt F) → (⟨S4x512x512, .i32⟩ : BufTy).Contents (Elt F) → (⟨S4x512x512, .i1⟩ : BufTy).Contents (Elt F)),
    nullary main_c_28 (constantI S_ 32 33#32),
    unary main_c_28 main_v96 (broadcastInDim S4x512x512 ![] bcast_S_S4x512x512 : (⟨S_, .i32⟩ : BufTy).Contents (Elt F) → (⟨S4x512x512, .i32⟩ : BufTy).Contents (Elt F)),
    binary main_v29 main_v96 main_v97 (addi : (⟨S4x512x512, .i32⟩ : BufTy).Contents (Elt F) → (⟨S4x512x512, .i32⟩ : BufTy).Contents (Elt F) → (⟨S4x512x512, .i32⟩ : BufTy).Contents (Elt F)),
    ternary main_v95 main_v97 main_v29 main_v98 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_29 (constantI S_ 32 0#32),
    unary main_c_29 main_v99 (broadcastInDim S4x512x512 ![] bcast_S_S4x512x512 : (⟨S_, .i32⟩ : BufTy).Contents (Elt F) → (⟨S4x512x512, .i32⟩ : BufTy).Contents (Elt F)),
    binary main_v13 main_v99 main_v100 (cmpi .slt : (⟨S4x512x512, .i32⟩ : BufTy).Contents (Elt F) → (⟨S4x512x512, .i32⟩ : BufTy).Contents (Elt F) → (⟨S4x512x512, .i1⟩ : BufTy).Contents (Elt F)),
    nullary main_c_30 (constantI S_ 32 33#32),
    unary main_c_30 main_v101 (broadcastInDim S4x512x512 ![] bcast_S_S4x512x512 : (⟨S_, .i32⟩ : BufTy).Contents (Elt F) → (⟨S4x512x512, .i32⟩ : BufTy).Contents (Elt F)),
    binary main_v13 main_v101 main_v102 (addi : (⟨S4x512x512, .i32⟩ : BufTy).Contents (Elt F) → (⟨S4x512x512, .i32⟩ : BufTy).Contents (Elt F) → (⟨S4x512x512, .i32⟩ : BufTy).Contents (Elt F)),
    ternary main_v100 main_v102 main_v13 main_v103 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    unary main_v93 main_v104 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v98 main_v105 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v103 main_v106 (broadcastInDim S4x512x512x1 ![0, 1, 2] bcast_S4x512x512_S4x512x512x1_0_1_2 : (⟨S4x512x512, .i32⟩ : BufTy).Contents (Elt F) → (⟨S4x512x512x1, .i32⟩ : BufTy).Contents (Elt F)) ]
abbrev wr_ops2_p0 : List (Ref sig .tc) := [main_v91, main_v92, main_v93, main_c_27, main_v94, main_v95, main_c_28, main_v96, main_v97, main_v98, main_c_29, main_v99, main_v100, main_c_30, main_v101, main_v102, main_v103, main_v104, main_v105, main_v106]
set_option maxRecDepth 16384 in
set_option maxHeartbeats 40000000 in
theorem ops2_p0_writes : (ops2_p0 : List (HloOp τ sig (Elt F))).Forall fun op =>
    op.writes ⊆ (wr_ops2_p0.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_ops2_p0 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_c_26 : W (Proc.devRef .tc main_c_26) = Cert.ReferenceIdeal.ReadP.val_main_c_26 (F := F))
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v23 : W (Proc.devRef .tc main_v23) = Cert.ReferenceIdeal.ReadP.val_main_v23 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    (h_main_v88 : W (Proc.devRef .tc main_v88) = Cert.ReferenceIdeal.ReadP.val_main_v88 (F := F) x2 x3)
    (h_main_v90 : W (Proc.devRef .tc main_v90) = Cert.ReferenceIdeal.ReadP.val_main_v90 (F := F) x2)
    : (after ops2_p0 W (Proc.devRef .tc main_arg0) = x0)
      ∧ (after ops2_p0 W (Proc.devRef .tc main_arg1) = x1)
      ∧ (after ops2_p0 W (Proc.devRef .tc main_v1) = Cert.ReferenceIdeal.ReadP.val_main_v1 (F := F) x3)
      ∧ (after ops2_p0 W (Proc.devRef .tc main_v104) = Cert.ReferenceIdeal.ReadP.val_main_v104 (F := F) x2)
      ∧ (after ops2_p0 W (Proc.devRef .tc main_v105) = Cert.ReferenceIdeal.ReadP.val_main_v105 (F := F) x2)
      ∧ (after ops2_p0 W (Proc.devRef .tc main_v106) = Cert.ReferenceIdeal.ReadP.val_main_v106 (F := F) x2)
      ∧ (after ops2_p0 W (Proc.devRef .tc main_v13) = Cert.ReferenceIdeal.ReadP.val_main_v13 (F := F) x2)
      ∧ (after ops2_p0 W (Proc.devRef .tc main_v15) = Cert.ReferenceIdeal.ReadP.val_main_v15 (F := F) x2)
      ∧ (after ops2_p0 W (Proc.devRef .tc main_v18) = Cert.ReferenceIdeal.ReadP.val_main_v18 (F := F) x2)
      ∧ (after ops2_p0 W (Proc.devRef .tc main_v20) = Cert.ReferenceIdeal.ReadP.val_main_v20 (F := F) x2)
      ∧ (after ops2_p0 W (Proc.devRef .tc main_v23) = Cert.ReferenceIdeal.ReadP.val_main_v23 (F := F) x2)
      ∧ (after ops2_p0 W (Proc.devRef .tc main_v25) = Cert.ReferenceIdeal.ReadP.val_main_v25 (F := F) x2)
      ∧ (after ops2_p0 W (Proc.devRef .tc main_v27) = Cert.ReferenceIdeal.ReadP.val_main_v27 (F := F) x2)
      ∧ (after ops2_p0 W (Proc.devRef .tc main_v29) = Cert.ReferenceIdeal.ReadP.val_main_v29 (F := F) x2)
      ∧ (after ops2_p0 W (Proc.devRef .tc main_v31) = Cert.ReferenceIdeal.ReadP.val_main_v31 (F := F) x2)
      ∧ (after ops2_p0 W (Proc.devRef .tc main_v33) = Cert.ReferenceIdeal.ReadP.val_main_v33 (F := F) x2)
      ∧ (after ops2_p0 W (Proc.devRef .tc main_v35) = Cert.ReferenceIdeal.ReadP.val_main_v35 (F := F) x2)
      ∧ (after ops2_p0 W (Proc.devRef .tc main_v37) = Cert.ReferenceIdeal.ReadP.val_main_v37 (F := F) x2)
      ∧ (after ops2_p0 W (Proc.devRef .tc main_v88) = Cert.ReferenceIdeal.ReadP.val_main_v88 (F := F) x2 x3) := by
  refine ⟨?_, ?_, ?_, ?_, ?_, ?_, ?_, ?_, ?_, ?_, ?_, ?_, ?_, ?_, ?_, ?_, ?_, ?_, ?_⟩
  · exact (after_of_writes_sub _ W ops2_p0_writes (by decide)).trans h_main_arg0
  · exact (after_of_writes_sub _ W ops2_p0_writes (by decide)).trans h_main_arg1
  · exact (after_of_writes_sub _ W ops2_p0_writes (by decide)).trans h_main_v1
  · (simp only [ops2_p0]; read_results; (try simp only [h_main_arg0, h_main_arg1, h_main_c_26, h_main_v1, h_main_v13, h_main_v15, h_main_v18, h_main_v20, h_main_v23, h_main_v25, h_main_v27, h_main_v29, h_main_v31, h_main_v33, h_main_v35, h_main_v37, h_main_v88, h_main_v90, TRef.ofBuf, TRef.toBuf, cast_eq]);
     (try simp only [Cert.ReferenceIdeal.ReadP.val_main_v91, Cert.ReferenceIdeal.ReadP.val_main_v92, Cert.ReferenceIdeal.ReadP.val_main_v93, Cert.ReferenceIdeal.ReadP.val_main_c_27, Cert.ReferenceIdeal.ReadP.val_main_v94, Cert.ReferenceIdeal.ReadP.val_main_v95, Cert.ReferenceIdeal.ReadP.val_main_c_28, Cert.ReferenceIdeal.ReadP.val_main_v96, Cert.ReferenceIdeal.ReadP.val_main_v97, Cert.ReferenceIdeal.ReadP.val_main_v98, Cert.ReferenceIdeal.ReadP.val_main_c_29, Cert.ReferenceIdeal.ReadP.val_main_v99, Cert.ReferenceIdeal.ReadP.val_main_v100, Cert.ReferenceIdeal.ReadP.val_main_c_30, Cert.ReferenceIdeal.ReadP.val_main_v101, Cert.ReferenceIdeal.ReadP.val_main_v102, Cert.ReferenceIdeal.ReadP.val_main_v103, Cert.ReferenceIdeal.ReadP.val_main_v104, Cert.ReferenceIdeal.ReadP.val_main_v105, Cert.ReferenceIdeal.ReadP.val_main_v106]); (try rfl))
  · (simp only [ops2_p0]; read_results; (try simp only [h_main_arg0, h_main_arg1, h_main_c_26, h_main_v1, h_main_v13, h_main_v15, h_main_v18, h_main_v20, h_main_v23, h_main_v25, h_main_v27, h_main_v29, h_main_v31, h_main_v33, h_main_v35, h_main_v37, h_main_v88, h_main_v90, TRef.ofBuf, TRef.toBuf, cast_eq]);
     (try simp only [Cert.ReferenceIdeal.ReadP.val_main_v91, Cert.ReferenceIdeal.ReadP.val_main_v92, Cert.ReferenceIdeal.ReadP.val_main_v93, Cert.ReferenceIdeal.ReadP.val_main_c_27, Cert.ReferenceIdeal.ReadP.val_main_v94, Cert.ReferenceIdeal.ReadP.val_main_v95, Cert.ReferenceIdeal.ReadP.val_main_c_28, Cert.ReferenceIdeal.ReadP.val_main_v96, Cert.ReferenceIdeal.ReadP.val_main_v97, Cert.ReferenceIdeal.ReadP.val_main_v98, Cert.ReferenceIdeal.ReadP.val_main_c_29, Cert.ReferenceIdeal.ReadP.val_main_v99, Cert.ReferenceIdeal.ReadP.val_main_v100, Cert.ReferenceIdeal.ReadP.val_main_c_30, Cert.ReferenceIdeal.ReadP.val_main_v101, Cert.ReferenceIdeal.ReadP.val_main_v102, Cert.ReferenceIdeal.ReadP.val_main_v103, Cert.ReferenceIdeal.ReadP.val_main_v104, Cert.ReferenceIdeal.ReadP.val_main_v105, Cert.ReferenceIdeal.ReadP.val_main_v106]); (try rfl))
  · (simp only [ops2_p0]; read_results; (try simp only [h_main_arg0, h_main_arg1, h_main_c_26, h_main_v1, h_main_v13, h_main_v15, h_main_v18, h_main_v20, h_main_v23, h_main_v25, h_main_v27, h_main_v29, h_main_v31, h_main_v33, h_main_v35, h_main_v37, h_main_v88, h_main_v90, TRef.ofBuf, TRef.toBuf, cast_eq]);
     (try simp only [Cert.ReferenceIdeal.ReadP.val_main_v91, Cert.ReferenceIdeal.ReadP.val_main_v92, Cert.ReferenceIdeal.ReadP.val_main_v93, Cert.ReferenceIdeal.ReadP.val_main_c_27, Cert.ReferenceIdeal.ReadP.val_main_v94, Cert.ReferenceIdeal.ReadP.val_main_v95, Cert.ReferenceIdeal.ReadP.val_main_c_28, Cert.ReferenceIdeal.ReadP.val_main_v96, Cert.ReferenceIdeal.ReadP.val_main_v97, Cert.ReferenceIdeal.ReadP.val_main_v98, Cert.ReferenceIdeal.ReadP.val_main_c_29, Cert.ReferenceIdeal.ReadP.val_main_v99, Cert.ReferenceIdeal.ReadP.val_main_v100, Cert.ReferenceIdeal.ReadP.val_main_c_30, Cert.ReferenceIdeal.ReadP.val_main_v101, Cert.ReferenceIdeal.ReadP.val_main_v102, Cert.ReferenceIdeal.ReadP.val_main_v103, Cert.ReferenceIdeal.ReadP.val_main_v104, Cert.ReferenceIdeal.ReadP.val_main_v105, Cert.ReferenceIdeal.ReadP.val_main_v106]); (try rfl))
  · exact (after_of_writes_sub _ W ops2_p0_writes (by decide)).trans h_main_v13
  · exact (after_of_writes_sub _ W ops2_p0_writes (by decide)).trans h_main_v15
  · exact (after_of_writes_sub _ W ops2_p0_writes (by decide)).trans h_main_v18
  · exact (after_of_writes_sub _ W ops2_p0_writes (by decide)).trans h_main_v20
  · exact (after_of_writes_sub _ W ops2_p0_writes (by decide)).trans h_main_v23
  · exact (after_of_writes_sub _ W ops2_p0_writes (by decide)).trans h_main_v25
  · exact (after_of_writes_sub _ W ops2_p0_writes (by decide)).trans h_main_v27
  · exact (after_of_writes_sub _ W ops2_p0_writes (by decide)).trans h_main_v29
  · exact (after_of_writes_sub _ W ops2_p0_writes (by decide)).trans h_main_v31
  · exact (after_of_writes_sub _ W ops2_p0_writes (by decide)).trans h_main_v33
  · exact (after_of_writes_sub _ W ops2_p0_writes (by decide)).trans h_main_v35
  · exact (after_of_writes_sub _ W ops2_p0_writes (by decide)).trans h_main_v37
  · exact (after_of_writes_sub _ W ops2_p0_writes (by decide)).trans h_main_v88

/-- A piece of `ops2`. -/
abbrev ops2_p1 : List (HloOp τ sig (Elt F)) :=
  [ nary ![main_v104, main_v105, main_v106] main_v107 (fun u => concatenate S4x512x512x3 3 [⟨S4x512x512x1, u 0⟩, ⟨S4x512x512x1, u 1⟩, ⟨S4x512x512x1, u 2⟩] concatenates_S4x512x512x1_S4x512x512x1_S4x512x512x1_S4x512x512x3_d3) ]
abbrev wr_ops2_p1 : List (Ref sig .tc) := [main_v107]
set_option maxRecDepth 16384 in
set_option maxHeartbeats 40000000 in
theorem ops2_p1_writes : (ops2_p1 : List (HloOp τ sig (Elt F))).Forall fun op =>
    op.writes ⊆ (wr_ops2_p1.map (Proc.devRef (τ := τ) .tc)).toFinset :=
  by simp only [List.Forall]; exact writes_sub_of rfl (by decide)
set_option maxRecDepth 16384 in
set_option maxHeartbeats 40000000 in
theorem stage_ops2_p1 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_v1 : W (Proc.devRef .tc main_v1) = Cert.ReferenceIdeal.ReadP.val_main_v1 (F := F) x3)
    (h_main_v104 : W (Proc.devRef .tc main_v104) = Cert.ReferenceIdeal.ReadP.val_main_v104 (F := F) x2)
    (h_main_v105 : W (Proc.devRef .tc main_v105) = Cert.ReferenceIdeal.ReadP.val_main_v105 (F := F) x2)
    (h_main_v106 : W (Proc.devRef .tc main_v106) = Cert.ReferenceIdeal.ReadP.val_main_v106 (F := F) x2)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v23 : W (Proc.devRef .tc main_v23) = Cert.ReferenceIdeal.ReadP.val_main_v23 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    (h_main_v88 : W (Proc.devRef .tc main_v88) = Cert.ReferenceIdeal.ReadP.val_main_v88 (F := F) x2 x3)
    : (after ops2_p1 W (Proc.devRef .tc main_arg0) = x0)
      ∧ (after ops2_p1 W (Proc.devRef .tc main_arg1) = x1)
      ∧ (after ops2_p1 W (Proc.devRef .tc main_v1) = Cert.ReferenceIdeal.ReadP.val_main_v1 (F := F) x3)
      ∧ (after ops2_p1 W (Proc.devRef .tc main_v107) = Cert.ReferenceIdeal.ReadP.val_main_v107 (F := F) x2)
      ∧ (after ops2_p1 W (Proc.devRef .tc main_v13) = Cert.ReferenceIdeal.ReadP.val_main_v13 (F := F) x2)
      ∧ (after ops2_p1 W (Proc.devRef .tc main_v15) = Cert.ReferenceIdeal.ReadP.val_main_v15 (F := F) x2)
      ∧ (after ops2_p1 W (Proc.devRef .tc main_v18) = Cert.ReferenceIdeal.ReadP.val_main_v18 (F := F) x2)
      ∧ (after ops2_p1 W (Proc.devRef .tc main_v20) = Cert.ReferenceIdeal.ReadP.val_main_v20 (F := F) x2)
      ∧ (after ops2_p1 W (Proc.devRef .tc main_v23) = Cert.ReferenceIdeal.ReadP.val_main_v23 (F := F) x2)
      ∧ (after ops2_p1 W (Proc.devRef .tc main_v25) = Cert.ReferenceIdeal.ReadP.val_main_v25 (F := F) x2)
      ∧ (after ops2_p1 W (Proc.devRef .tc main_v27) = Cert.ReferenceIdeal.ReadP.val_main_v27 (F := F) x2)
      ∧ (after ops2_p1 W (Proc.devRef .tc main_v29) = Cert.ReferenceIdeal.ReadP.val_main_v29 (F := F) x2)
      ∧ (after ops2_p1 W (Proc.devRef .tc main_v31) = Cert.ReferenceIdeal.ReadP.val_main_v31 (F := F) x2)
      ∧ (after ops2_p1 W (Proc.devRef .tc main_v33) = Cert.ReferenceIdeal.ReadP.val_main_v33 (F := F) x2)
      ∧ (after ops2_p1 W (Proc.devRef .tc main_v35) = Cert.ReferenceIdeal.ReadP.val_main_v35 (F := F) x2)
      ∧ (after ops2_p1 W (Proc.devRef .tc main_v37) = Cert.ReferenceIdeal.ReadP.val_main_v37 (F := F) x2)
      ∧ (after ops2_p1 W (Proc.devRef .tc main_v88) = Cert.ReferenceIdeal.ReadP.val_main_v88 (F := F) x2 x3) := by
  refine ⟨?_, ?_, ?_, ?_, ?_, ?_, ?_, ?_, ?_, ?_, ?_, ?_, ?_, ?_, ?_, ?_, ?_⟩
  · exact (after_of_writes_sub _ W ops2_p1_writes (by decide)).trans h_main_arg0
  · exact (after_of_writes_sub _ W ops2_p1_writes (by decide)).trans h_main_arg1
  · exact (after_of_writes_sub _ W ops2_p1_writes (by decide)).trans h_main_v1
  · simp only [ops2_p1, after_cons, after_nil]
    rw [nary_result]
    show concatenate S4x512x512x3 3 [⟨S4x512x512x1, (W (Proc.devRef .tc main_v104))⟩, ⟨S4x512x512x1, (W (Proc.devRef .tc main_v105))⟩, ⟨S4x512x512x1, (W (Proc.devRef .tc main_v106))⟩] concatenates_S4x512x512x1_S4x512x512x1_S4x512x512x1_S4x512x512x3_d3 = _
    rw [h_main_v104, h_main_v105, h_main_v106]
    (try simp only [Cert.ReferenceIdeal.ReadP.val_main_v107])
    (try rfl)
  · exact (after_of_writes_sub _ W ops2_p1_writes (by decide)).trans h_main_v13
  · exact (after_of_writes_sub _ W ops2_p1_writes (by decide)).trans h_main_v15
  · exact (after_of_writes_sub _ W ops2_p1_writes (by decide)).trans h_main_v18
  · exact (after_of_writes_sub _ W ops2_p1_writes (by decide)).trans h_main_v20
  · exact (after_of_writes_sub _ W ops2_p1_writes (by decide)).trans h_main_v23
  · exact (after_of_writes_sub _ W ops2_p1_writes (by decide)).trans h_main_v25
  · exact (after_of_writes_sub _ W ops2_p1_writes (by decide)).trans h_main_v27
  · exact (after_of_writes_sub _ W ops2_p1_writes (by decide)).trans h_main_v29
  · exact (after_of_writes_sub _ W ops2_p1_writes (by decide)).trans h_main_v31
  · exact (after_of_writes_sub _ W ops2_p1_writes (by decide)).trans h_main_v33
  · exact (after_of_writes_sub _ W ops2_p1_writes (by decide)).trans h_main_v35
  · exact (after_of_writes_sub _ W ops2_p1_writes (by decide)).trans h_main_v37
  · exact (after_of_writes_sub _ W ops2_p1_writes (by decide)).trans h_main_v88

/-- A piece of `ops2`. -/
abbrev ops2_p2 : List (HloOp τ sig (Elt F)) :=
  [ binary main_v1 main_v107 main_v108 ((fun x i => Host.gather gather_S8x3x33x33x33_S4x512x512x3_S8x3x4x512x512_01_234_n_n_234_3_83111 x i) : (⟨S8x3x33x33x33, .f32⟩ : BufTy).Contents (Elt F) → (⟨S4x512x512x3, .i32⟩ : BufTy).Contents (Elt F) → (⟨S8x3x4x512x512, .f32⟩ : BufTy).Contents (Elt F)),
    binary main_v37 main_v20 main_v109 (mulf : (⟨S4x512x512, .f32⟩ : BufTy).Contents (Elt F) → (⟨S4x512x512, .f32⟩ : BufTy).Contents (Elt F) → (⟨S4x512x512, .f32⟩ : BufTy).Contents (Elt F)),
    binary main_v109 main_v33 main_v110 (mulf : (⟨S4x512x512, .f32⟩ : BufTy).Contents (Elt F) → (⟨S4x512x512, .f32⟩ : BufTy).Contents (Elt F) → (⟨S4x512x512, .f32⟩ : BufTy).Contents (Elt F)),
    unary main_v110 main_v111 (broadcastInDim S1x1x4x512x512 ![2, 3, 4] bcast_S4x512x512_S1x1x4x512x512_2_3_4 : (⟨S4x512x512, .f32⟩ : BufTy).Contents (Elt F) → (⟨S1x1x4x512x512, .f32⟩ : BufTy).Contents (Elt F)),
    unary main_v111 main_v112 (broadcastInDim S8x3x4x512x512 ![0, 1, 2, 3, 4] bcast_S1x1x4x512x512_S8x3x4x512x512_0_1_2_3_4 : (⟨S1x1x4x512x512, .f32⟩ : BufTy).Contents (Elt F) → (⟨S8x3x4x512x512, .f32⟩ : BufTy).Contents (Elt F)),
    binary main_v108 main_v112 main_v113 (mulf : (⟨S8x3x4x512x512, .f32⟩ : BufTy).Contents (Elt F) → (⟨S8x3x4x512x512, .f32⟩ : BufTy).Contents (Elt F) → (⟨S8x3x4x512x512, .f32⟩ : BufTy).Contents (Elt F)),
    binary main_v88 main_v113 main_v114 (addf : (⟨S8x3x4x512x512, .f32⟩ : BufTy).Contents (Elt F) → (⟨S8x3x4x512x512, .f32⟩ : BufTy).Contents (Elt F) → (⟨S8x3x4x512x512, .f32⟩ : BufTy).Contents (Elt F)),
    nullary main_c_31 (constantI S_ 32 0#32),
    unary main_c_31 main_v115 (broadcastInDim S4x512x512 ![] bcast_S_S4x512x512 : (⟨S_, .i32⟩ : BufTy).Contents (Elt F) → (⟨S4x512x512, .i32⟩ : BufTy).Contents (Elt F)),
    binary main_v23 main_v115 main_v116 (cmpi .slt : (⟨S4x512x512, .i32⟩ : BufTy).Contents (Elt F) → (⟨S4x512x512, .i32⟩ : BufTy).Contents (Elt F) → (⟨S4x512x512, .i1⟩ : BufTy).Contents (Elt F)),
    nullary main_c_32 (constantI S_ 32 33#32),
    unary main_c_32 main_v117 (broadcastInDim S4x512x512 ![] bcast_S_S4x512x512 : (⟨S_, .i32⟩ : BufTy).Contents (Elt F) → (⟨S4x512x512, .i32⟩ : BufTy).Contents (Elt F)),
    binary main_v23 main_v117 main_v118 (addi : (⟨S4x512x512, .i32⟩ : BufTy).Contents (Elt F) → (⟨S4x512x512, .i32⟩ : BufTy).Contents (Elt F) → (⟨S4x512x512, .i32⟩ : BufTy).Contents (Elt F)),
    ternary main_v116 main_v118 main_v23 main_v119 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_33 (constantI S_ 32 0#32),
    unary main_c_33 main_v120 (broadcastInDim S4x512x512 ![] bcast_S_S4x512x512 : (⟨S_, .i32⟩ : BufTy).Contents (Elt F) → (⟨S4x512x512, .i32⟩ : BufTy).Contents (Elt F)),
    binary main_v29 main_v120 main_v121 (cmpi .slt : (⟨S4x512x512, .i32⟩ : BufTy).Contents (Elt F) → (⟨S4x512x512, .i32⟩ : BufTy).Contents (Elt F) → (⟨S4x512x512, .i1⟩ : BufTy).Contents (Elt F)),
    nullary main_c_34 (constantI S_ 32 33#32),
    unary main_c_34 main_v122 (broadcastInDim S4x512x512 ![] bcast_S_S4x512x512 : (⟨S_, .i32⟩ : BufTy).Contents (Elt F) → (⟨S4x512x512, .i32⟩ : BufTy).Contents (Elt F)),
    binary main_v29 main_v122 main_v123 (addi : (⟨S4x512x512, .i32⟩ : BufTy).Contents (Elt F) → (⟨S4x512x512, .i32⟩ : BufTy).Contents (Elt F) → (⟨S4x512x512, .i32⟩ : BufTy).Contents (Elt F)),
    ternary main_v121 main_v123 main_v29 main_v124 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_35 (constantI S_ 32 0#32),
    unary main_c_35 main_v125 (broadcastInDim S4x512x512 ![] bcast_S_S4x512x512 : (⟨S_, .i32⟩ : BufTy).Contents (Elt F) → (⟨S4x512x512, .i32⟩ : BufTy).Contents (Elt F)),
    binary main_v27 main_v125 main_v126 (cmpi .slt : (⟨S4x512x512, .i32⟩ : BufTy).Contents (Elt F) → (⟨S4x512x512, .i32⟩ : BufTy).Contents (Elt F) → (⟨S4x512x512, .i1⟩ : BufTy).Contents (Elt F)) ]
abbrev wr_ops2_p2 : List (Ref sig .tc) := [main_v108, main_v109, main_v110, main_v111, main_v112, main_v113, main_v114, main_c_31, main_v115, main_v116, main_c_32, main_v117, main_v118, main_v119, main_c_33, main_v120, main_v121, main_c_34, main_v122, main_v123, main_v124, main_c_35, main_v125, main_v126]
set_option maxRecDepth 16384 in
set_option maxHeartbeats 40000000 in
theorem ops2_p2_writes : (ops2_p2 : List (HloOp τ sig (Elt F))).Forall fun op =>
    op.writes ⊆ (wr_ops2_p2.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_ops2_p2 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_v1 : W (Proc.devRef .tc main_v1) = Cert.ReferenceIdeal.ReadP.val_main_v1 (F := F) x3)
    (h_main_v107 : W (Proc.devRef .tc main_v107) = Cert.ReferenceIdeal.ReadP.val_main_v107 (F := F) x2)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v23 : W (Proc.devRef .tc main_v23) = Cert.ReferenceIdeal.ReadP.val_main_v23 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    (h_main_v88 : W (Proc.devRef .tc main_v88) = Cert.ReferenceIdeal.ReadP.val_main_v88 (F := F) x2 x3)
    : (after ops2_p2 W (Proc.devRef .tc main_arg0) = x0)
      ∧ (after ops2_p2 W (Proc.devRef .tc main_arg1) = x1)
      ∧ (after ops2_p2 W (Proc.devRef .tc main_v1) = Cert.ReferenceIdeal.ReadP.val_main_v1 (F := F) x3)
      ∧ (after ops2_p2 W (Proc.devRef .tc main_v114) = Cert.ReferenceIdeal.ReadP.val_main_v114 (F := F) x2 x3)
      ∧ (after ops2_p2 W (Proc.devRef .tc main_v119) = Cert.ReferenceIdeal.ReadP.val_main_v119 (F := F) x2)
      ∧ (after ops2_p2 W (Proc.devRef .tc main_v124) = Cert.ReferenceIdeal.ReadP.val_main_v124 (F := F) x2)
      ∧ (after ops2_p2 W (Proc.devRef .tc main_v126) = Cert.ReferenceIdeal.ReadP.val_main_v126 (F := F) x2)
      ∧ (after ops2_p2 W (Proc.devRef .tc main_v13) = Cert.ReferenceIdeal.ReadP.val_main_v13 (F := F) x2)
      ∧ (after ops2_p2 W (Proc.devRef .tc main_v15) = Cert.ReferenceIdeal.ReadP.val_main_v15 (F := F) x2)
      ∧ (after ops2_p2 W (Proc.devRef .tc main_v18) = Cert.ReferenceIdeal.ReadP.val_main_v18 (F := F) x2)
      ∧ (after ops2_p2 W (Proc.devRef .tc main_v20) = Cert.ReferenceIdeal.ReadP.val_main_v20 (F := F) x2)
      ∧ (after ops2_p2 W (Proc.devRef .tc main_v25) = Cert.ReferenceIdeal.ReadP.val_main_v25 (F := F) x2)
      ∧ (after ops2_p2 W (Proc.devRef .tc main_v27) = Cert.ReferenceIdeal.ReadP.val_main_v27 (F := F) x2)
      ∧ (after ops2_p2 W (Proc.devRef .tc main_v29) = Cert.ReferenceIdeal.ReadP.val_main_v29 (F := F) x2)
      ∧ (after ops2_p2 W (Proc.devRef .tc main_v31) = Cert.ReferenceIdeal.ReadP.val_main_v31 (F := F) x2)
      ∧ (after ops2_p2 W (Proc.devRef .tc main_v33) = Cert.ReferenceIdeal.ReadP.val_main_v33 (F := F) x2)
      ∧ (after ops2_p2 W (Proc.devRef .tc main_v35) = Cert.ReferenceIdeal.ReadP.val_main_v35 (F := F) x2)
      ∧ (after ops2_p2 W (Proc.devRef .tc main_v37) = Cert.ReferenceIdeal.ReadP.val_main_v37 (F := F) x2) := by
  refine ⟨?_, ?_, ?_, ?_, ?_, ?_, ?_, ?_, ?_, ?_, ?_, ?_, ?_, ?_, ?_, ?_, ?_, ?_⟩
  · exact (after_of_writes_sub _ W ops2_p2_writes (by decide)).trans h_main_arg0
  · exact (after_of_writes_sub _ W ops2_p2_writes (by decide)).trans h_main_arg1
  · exact (after_of_writes_sub _ W ops2_p2_writes (by decide)).trans h_main_v1
  · (simp only [ops2_p2]; read_results; (try simp only [h_main_arg0, h_main_arg1, h_main_v1, h_main_v107, h_main_v13, h_main_v15, h_main_v18, h_main_v20, h_main_v23, h_main_v25, h_main_v27, h_main_v29, h_main_v31, h_main_v33, h_main_v35, h_main_v37, h_main_v88, TRef.ofBuf, TRef.toBuf, cast_eq]);
     (try simp only [Cert.ReferenceIdeal.ReadP.val_main_v108, Cert.ReferenceIdeal.ReadP.val_main_v109, Cert.ReferenceIdeal.ReadP.val_main_v110, Cert.ReferenceIdeal.ReadP.val_main_v111, Cert.ReferenceIdeal.ReadP.val_main_v112, Cert.ReferenceIdeal.ReadP.val_main_v113, Cert.ReferenceIdeal.ReadP.val_main_v114, Cert.ReferenceIdeal.ReadP.val_main_c_31, Cert.ReferenceIdeal.ReadP.val_main_v115, Cert.ReferenceIdeal.ReadP.val_main_v116, Cert.ReferenceIdeal.ReadP.val_main_c_32, Cert.ReferenceIdeal.ReadP.val_main_v117, Cert.ReferenceIdeal.ReadP.val_main_v118, Cert.ReferenceIdeal.ReadP.val_main_v119, Cert.ReferenceIdeal.ReadP.val_main_c_33, Cert.ReferenceIdeal.ReadP.val_main_v120, Cert.ReferenceIdeal.ReadP.val_main_v121, Cert.ReferenceIdeal.ReadP.val_main_c_34, Cert.ReferenceIdeal.ReadP.val_main_v122, Cert.ReferenceIdeal.ReadP.val_main_v123, Cert.ReferenceIdeal.ReadP.val_main_v124, Cert.ReferenceIdeal.ReadP.val_main_c_35, Cert.ReferenceIdeal.ReadP.val_main_v125, Cert.ReferenceIdeal.ReadP.val_main_v126]); (try rfl))
  · (simp only [ops2_p2]; read_results; (try simp only [h_main_arg0, h_main_arg1, h_main_v1, h_main_v107, h_main_v13, h_main_v15, h_main_v18, h_main_v20, h_main_v23, h_main_v25, h_main_v27, h_main_v29, h_main_v31, h_main_v33, h_main_v35, h_main_v37, h_main_v88, TRef.ofBuf, TRef.toBuf, cast_eq]);
     (try simp only [Cert.ReferenceIdeal.ReadP.val_main_v108, Cert.ReferenceIdeal.ReadP.val_main_v109, Cert.ReferenceIdeal.ReadP.val_main_v110, Cert.ReferenceIdeal.ReadP.val_main_v111, Cert.ReferenceIdeal.ReadP.val_main_v112, Cert.ReferenceIdeal.ReadP.val_main_v113, Cert.ReferenceIdeal.ReadP.val_main_v114, Cert.ReferenceIdeal.ReadP.val_main_c_31, Cert.ReferenceIdeal.ReadP.val_main_v115, Cert.ReferenceIdeal.ReadP.val_main_v116, Cert.ReferenceIdeal.ReadP.val_main_c_32, Cert.ReferenceIdeal.ReadP.val_main_v117, Cert.ReferenceIdeal.ReadP.val_main_v118, Cert.ReferenceIdeal.ReadP.val_main_v119, Cert.ReferenceIdeal.ReadP.val_main_c_33, Cert.ReferenceIdeal.ReadP.val_main_v120, Cert.ReferenceIdeal.ReadP.val_main_v121, Cert.ReferenceIdeal.ReadP.val_main_c_34, Cert.ReferenceIdeal.ReadP.val_main_v122, Cert.ReferenceIdeal.ReadP.val_main_v123, Cert.ReferenceIdeal.ReadP.val_main_v124, Cert.ReferenceIdeal.ReadP.val_main_c_35, Cert.ReferenceIdeal.ReadP.val_main_v125, Cert.ReferenceIdeal.ReadP.val_main_v126]); (try rfl))
  · (simp only [ops2_p2]; read_results; (try simp only [h_main_arg0, h_main_arg1, h_main_v1, h_main_v107, h_main_v13, h_main_v15, h_main_v18, h_main_v20, h_main_v23, h_main_v25, h_main_v27, h_main_v29, h_main_v31, h_main_v33, h_main_v35, h_main_v37, h_main_v88, TRef.ofBuf, TRef.toBuf, cast_eq]);
     (try simp only [Cert.ReferenceIdeal.ReadP.val_main_v108, Cert.ReferenceIdeal.ReadP.val_main_v109, Cert.ReferenceIdeal.ReadP.val_main_v110, Cert.ReferenceIdeal.ReadP.val_main_v111, Cert.ReferenceIdeal.ReadP.val_main_v112, Cert.ReferenceIdeal.ReadP.val_main_v113, Cert.ReferenceIdeal.ReadP.val_main_v114, Cert.ReferenceIdeal.ReadP.val_main_c_31, Cert.ReferenceIdeal.ReadP.val_main_v115, Cert.ReferenceIdeal.ReadP.val_main_v116, Cert.ReferenceIdeal.ReadP.val_main_c_32, Cert.ReferenceIdeal.ReadP.val_main_v117, Cert.ReferenceIdeal.ReadP.val_main_v118, Cert.ReferenceIdeal.ReadP.val_main_v119, Cert.ReferenceIdeal.ReadP.val_main_c_33, Cert.ReferenceIdeal.ReadP.val_main_v120, Cert.ReferenceIdeal.ReadP.val_main_v121, Cert.ReferenceIdeal.ReadP.val_main_c_34, Cert.ReferenceIdeal.ReadP.val_main_v122, Cert.ReferenceIdeal.ReadP.val_main_v123, Cert.ReferenceIdeal.ReadP.val_main_v124, Cert.ReferenceIdeal.ReadP.val_main_c_35, Cert.ReferenceIdeal.ReadP.val_main_v125, Cert.ReferenceIdeal.ReadP.val_main_v126]); (try rfl))
  · (simp only [ops2_p2]; read_results; (try simp only [h_main_arg0, h_main_arg1, h_main_v1, h_main_v107, h_main_v13, h_main_v15, h_main_v18, h_main_v20, h_main_v23, h_main_v25, h_main_v27, h_main_v29, h_main_v31, h_main_v33, h_main_v35, h_main_v37, h_main_v88, TRef.ofBuf, TRef.toBuf, cast_eq]);
     (try simp only [Cert.ReferenceIdeal.ReadP.val_main_v108, Cert.ReferenceIdeal.ReadP.val_main_v109, Cert.ReferenceIdeal.ReadP.val_main_v110, Cert.ReferenceIdeal.ReadP.val_main_v111, Cert.ReferenceIdeal.ReadP.val_main_v112, Cert.ReferenceIdeal.ReadP.val_main_v113, Cert.ReferenceIdeal.ReadP.val_main_v114, Cert.ReferenceIdeal.ReadP.val_main_c_31, Cert.ReferenceIdeal.ReadP.val_main_v115, Cert.ReferenceIdeal.ReadP.val_main_v116, Cert.ReferenceIdeal.ReadP.val_main_c_32, Cert.ReferenceIdeal.ReadP.val_main_v117, Cert.ReferenceIdeal.ReadP.val_main_v118, Cert.ReferenceIdeal.ReadP.val_main_v119, Cert.ReferenceIdeal.ReadP.val_main_c_33, Cert.ReferenceIdeal.ReadP.val_main_v120, Cert.ReferenceIdeal.ReadP.val_main_v121, Cert.ReferenceIdeal.ReadP.val_main_c_34, Cert.ReferenceIdeal.ReadP.val_main_v122, Cert.ReferenceIdeal.ReadP.val_main_v123, Cert.ReferenceIdeal.ReadP.val_main_v124, Cert.ReferenceIdeal.ReadP.val_main_c_35, Cert.ReferenceIdeal.ReadP.val_main_v125, Cert.ReferenceIdeal.ReadP.val_main_v126]); (try rfl))
  · exact (after_of_writes_sub _ W ops2_p2_writes (by decide)).trans h_main_v13
  · exact (after_of_writes_sub _ W ops2_p2_writes (by decide)).trans h_main_v15
  · exact (after_of_writes_sub _ W ops2_p2_writes (by decide)).trans h_main_v18
  · exact (after_of_writes_sub _ W ops2_p2_writes (by decide)).trans h_main_v20
  · exact (after_of_writes_sub _ W ops2_p2_writes (by decide)).trans h_main_v25
  · exact (after_of_writes_sub _ W ops2_p2_writes (by decide)).trans h_main_v27
  · exact (after_of_writes_sub _ W ops2_p2_writes (by decide)).trans h_main_v29
  · exact (after_of_writes_sub _ W ops2_p2_writes (by decide)).trans h_main_v31
  · exact (after_of_writes_sub _ W ops2_p2_writes (by decide)).trans h_main_v33
  · exact (after_of_writes_sub _ W ops2_p2_writes (by decide)).trans h_main_v35
  · exact (after_of_writes_sub _ W ops2_p2_writes (by decide)).trans h_main_v37

/-- A piece of `ops2`. -/
abbrev ops2_p3 : List (HloOp τ sig (Elt F)) :=
  [ nullary main_c_36 (constantI S_ 32 33#32),
    unary main_c_36 main_v127 (broadcastInDim S4x512x512 ![] bcast_S_S4x512x512 : (⟨S_, .i32⟩ : BufTy).Contents (Elt F) → (⟨S4x512x512, .i32⟩ : BufTy).Contents (Elt F)),
    binary main_v27 main_v127 main_v128 (addi : (⟨S4x512x512, .i32⟩ : BufTy).Contents (Elt F) → (⟨S4x512x512, .i32⟩ : BufTy).Contents (Elt F) → (⟨S4x512x512, .i32⟩ : BufTy).Contents (Elt F)),
    ternary main_v126 main_v128 main_v27 main_v129 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    unary main_v119 main_v130 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v124 main_v131 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v129 main_v132 (broadcastInDim S4x512x512x1 ![0, 1, 2] bcast_S4x512x512_S4x512x512x1_0_1_2 : (⟨S4x512x512, .i32⟩ : BufTy).Contents (Elt F) → (⟨S4x512x512x1, .i32⟩ : BufTy).Contents (Elt F)) ]
abbrev wr_ops2_p3 : List (Ref sig .tc) := [main_c_36, main_v127, main_v128, main_v129, main_v130, main_v131, main_v132]
set_option maxRecDepth 16384 in
set_option maxHeartbeats 40000000 in
theorem ops2_p3_writes : (ops2_p3 : List (HloOp τ sig (Elt F))).Forall fun op =>
    op.writes ⊆ (wr_ops2_p3.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_ops2_p3 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_v1 : W (Proc.devRef .tc main_v1) = Cert.ReferenceIdeal.ReadP.val_main_v1 (F := F) x3)
    (h_main_v114 : W (Proc.devRef .tc main_v114) = Cert.ReferenceIdeal.ReadP.val_main_v114 (F := F) x2 x3)
    (h_main_v119 : W (Proc.devRef .tc main_v119) = Cert.ReferenceIdeal.ReadP.val_main_v119 (F := F) x2)
    (h_main_v124 : W (Proc.devRef .tc main_v124) = Cert.ReferenceIdeal.ReadP.val_main_v124 (F := F) x2)
    (h_main_v126 : W (Proc.devRef .tc main_v126) = Cert.ReferenceIdeal.ReadP.val_main_v126 (F := F) x2)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    : (after ops2_p3 W (Proc.devRef .tc main_arg0) = x0)
      ∧ (after ops2_p3 W (Proc.devRef .tc main_arg1) = x1)
      ∧ (after ops2_p3 W (Proc.devRef .tc main_v1) = Cert.ReferenceIdeal.ReadP.val_main_v1 (F := F) x3)
      ∧ (after ops2_p3 W (Proc.devRef .tc main_v114) = Cert.ReferenceIdeal.ReadP.val_main_v114 (F := F) x2 x3)
      ∧ (after ops2_p3 W (Proc.devRef .tc main_v13) = Cert.ReferenceIdeal.ReadP.val_main_v13 (F := F) x2)
      ∧ (after ops2_p3 W (Proc.devRef .tc main_v130) = Cert.ReferenceIdeal.ReadP.val_main_v130 (F := F) x2)
      ∧ (after ops2_p3 W (Proc.devRef .tc main_v131) = Cert.ReferenceIdeal.ReadP.val_main_v131 (F := F) x2)
      ∧ (after ops2_p3 W (Proc.devRef .tc main_v132) = Cert.ReferenceIdeal.ReadP.val_main_v132 (F := F) x2)
      ∧ (after ops2_p3 W (Proc.devRef .tc main_v15) = Cert.ReferenceIdeal.ReadP.val_main_v15 (F := F) x2)
      ∧ (after ops2_p3 W (Proc.devRef .tc main_v18) = Cert.ReferenceIdeal.ReadP.val_main_v18 (F := F) x2)
      ∧ (after ops2_p3 W (Proc.devRef .tc main_v20) = Cert.ReferenceIdeal.ReadP.val_main_v20 (F := F) x2)
      ∧ (after ops2_p3 W (Proc.devRef .tc main_v25) = Cert.ReferenceIdeal.ReadP.val_main_v25 (F := F) x2)
      ∧ (after ops2_p3 W (Proc.devRef .tc main_v27) = Cert.ReferenceIdeal.ReadP.val_main_v27 (F := F) x2)
      ∧ (after ops2_p3 W (Proc.devRef .tc main_v29) = Cert.ReferenceIdeal.ReadP.val_main_v29 (F := F) x2)
      ∧ (after ops2_p3 W (Proc.devRef .tc main_v31) = Cert.ReferenceIdeal.ReadP.val_main_v31 (F := F) x2)
      ∧ (after ops2_p3 W (Proc.devRef .tc main_v33) = Cert.ReferenceIdeal.ReadP.val_main_v33 (F := F) x2)
      ∧ (after ops2_p3 W (Proc.devRef .tc main_v35) = Cert.ReferenceIdeal.ReadP.val_main_v35 (F := F) x2)
      ∧ (after ops2_p3 W (Proc.devRef .tc main_v37) = Cert.ReferenceIdeal.ReadP.val_main_v37 (F := F) x2) := by
  refine ⟨?_, ?_, ?_, ?_, ?_, ?_, ?_, ?_, ?_, ?_, ?_, ?_, ?_, ?_, ?_, ?_, ?_, ?_⟩
  · exact (after_of_writes_sub _ W ops2_p3_writes (by decide)).trans h_main_arg0
  · exact (after_of_writes_sub _ W ops2_p3_writes (by decide)).trans h_main_arg1
  · exact (after_of_writes_sub _ W ops2_p3_writes (by decide)).trans h_main_v1
  · exact (after_of_writes_sub _ W ops2_p3_writes (by decide)).trans h_main_v114
  · exact (after_of_writes_sub _ W ops2_p3_writes (by decide)).trans h_main_v13
  · (simp only [ops2_p3]; read_results; (try simp only [h_main_arg0, h_main_arg1, h_main_v1, h_main_v114, h_main_v119, h_main_v124, h_main_v126, h_main_v13, h_main_v15, h_main_v18, h_main_v20, h_main_v25, h_main_v27, h_main_v29, h_main_v31, h_main_v33, h_main_v35, h_main_v37, TRef.ofBuf, TRef.toBuf, cast_eq]);
     (try simp only [Cert.ReferenceIdeal.ReadP.val_main_c_36, Cert.ReferenceIdeal.ReadP.val_main_v127, Cert.ReferenceIdeal.ReadP.val_main_v128, Cert.ReferenceIdeal.ReadP.val_main_v129, Cert.ReferenceIdeal.ReadP.val_main_v130, Cert.ReferenceIdeal.ReadP.val_main_v131, Cert.ReferenceIdeal.ReadP.val_main_v132]); (try rfl))
  · (simp only [ops2_p3]; read_results; (try simp only [h_main_arg0, h_main_arg1, h_main_v1, h_main_v114, h_main_v119, h_main_v124, h_main_v126, h_main_v13, h_main_v15, h_main_v18, h_main_v20, h_main_v25, h_main_v27, h_main_v29, h_main_v31, h_main_v33, h_main_v35, h_main_v37, TRef.ofBuf, TRef.toBuf, cast_eq]);
     (try simp only [Cert.ReferenceIdeal.ReadP.val_main_c_36, Cert.ReferenceIdeal.ReadP.val_main_v127, Cert.ReferenceIdeal.ReadP.val_main_v128, Cert.ReferenceIdeal.ReadP.val_main_v129, Cert.ReferenceIdeal.ReadP.val_main_v130, Cert.ReferenceIdeal.ReadP.val_main_v131, Cert.ReferenceIdeal.ReadP.val_main_v132]); (try rfl))
  · (simp only [ops2_p3]; read_results; (try simp only [h_main_arg0, h_main_arg1, h_main_v1, h_main_v114, h_main_v119, h_main_v124, h_main_v126, h_main_v13, h_main_v15, h_main_v18, h_main_v20, h_main_v25, h_main_v27, h_main_v29, h_main_v31, h_main_v33, h_main_v35, h_main_v37, TRef.ofBuf, TRef.toBuf, cast_eq]);
     (try simp only [Cert.ReferenceIdeal.ReadP.val_main_c_36, Cert.ReferenceIdeal.ReadP.val_main_v127, Cert.ReferenceIdeal.ReadP.val_main_v128, Cert.ReferenceIdeal.ReadP.val_main_v129, Cert.ReferenceIdeal.ReadP.val_main_v130, Cert.ReferenceIdeal.ReadP.val_main_v131, Cert.ReferenceIdeal.ReadP.val_main_v132]); (try rfl))
  · exact (after_of_writes_sub _ W ops2_p3_writes (by decide)).trans h_main_v15
  · exact (after_of_writes_sub _ W ops2_p3_writes (by decide)).trans h_main_v18
  · exact (after_of_writes_sub _ W ops2_p3_writes (by decide)).trans h_main_v20
  · exact (after_of_writes_sub _ W ops2_p3_writes (by decide)).trans h_main_v25
  · exact (after_of_writes_sub _ W ops2_p3_writes (by decide)).trans h_main_v27
  · exact (after_of_writes_sub _ W ops2_p3_writes (by decide)).trans h_main_v29
  · exact (after_of_writes_sub _ W ops2_p3_writes (by decide)).trans h_main_v31
  · exact (after_of_writes_sub _ W ops2_p3_writes (by decide)).trans h_main_v33
  · exact (after_of_writes_sub _ W ops2_p3_writes (by decide)).trans h_main_v35
  · exact (after_of_writes_sub _ W ops2_p3_writes (by decide)).trans h_main_v37

/-- A piece of `ops2`. -/
abbrev ops2_p4 : List (HloOp τ sig (Elt F)) :=
  [ nary ![main_v130, main_v131, main_v132] main_v133 (fun u => concatenate S4x512x512x3 3 [⟨S4x512x512x1, u 0⟩, ⟨S4x512x512x1, u 1⟩, ⟨S4x512x512x1, u 2⟩] concatenates_S4x512x512x1_S4x512x512x1_S4x512x512x1_S4x512x512x3_d3) ]
abbrev wr_ops2_p4 : List (Ref sig .tc) := [main_v133]
set_option maxRecDepth 16384 in
set_option maxHeartbeats 40000000 in
theorem ops2_p4_writes : (ops2_p4 : List (HloOp τ sig (Elt F))).Forall fun op =>
    op.writes ⊆ (wr_ops2_p4.map (Proc.devRef (τ := τ) .tc)).toFinset :=
  by simp only [List.Forall]; exact writes_sub_of rfl (by decide)
set_option maxRecDepth 16384 in
set_option maxHeartbeats 40000000 in
theorem stage_ops2_p4 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_v1 : W (Proc.devRef .tc main_v1) = Cert.ReferenceIdeal.ReadP.val_main_v1 (F := F) x3)
    (h_main_v114 : W (Proc.devRef .tc main_v114) = Cert.ReferenceIdeal.ReadP.val_main_v114 (F := F) x2 x3)
    (h_main_v13 : W (Proc.devRef .tc main_v13) = Cert.ReferenceIdeal.ReadP.val_main_v13 (F := F) x2)
    (h_main_v130 : W (Proc.devRef .tc main_v130) = Cert.ReferenceIdeal.ReadP.val_main_v130 (F := F) x2)
    (h_main_v131 : W (Proc.devRef .tc main_v131) = Cert.ReferenceIdeal.ReadP.val_main_v131 (F := F) x2)
    (h_main_v132 : W (Proc.devRef .tc main_v132) = Cert.ReferenceIdeal.ReadP.val_main_v132 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    : (after ops2_p4 W (Proc.devRef .tc main_arg0) = x0)
      ∧ (after ops2_p4 W (Proc.devRef .tc main_arg1) = x1)
      ∧ (after ops2_p4 W (Proc.devRef .tc main_v1) = Cert.ReferenceIdeal.ReadP.val_main_v1 (F := F) x3)
      ∧ (after ops2_p4 W (Proc.devRef .tc main_v114) = Cert.ReferenceIdeal.ReadP.val_main_v114 (F := F) x2 x3)
      ∧ (after ops2_p4 W (Proc.devRef .tc main_v13) = Cert.ReferenceIdeal.ReadP.val_main_v13 (F := F) x2)
      ∧ (after ops2_p4 W (Proc.devRef .tc main_v133) = Cert.ReferenceIdeal.ReadP.val_main_v133 (F := F) x2)
      ∧ (after ops2_p4 W (Proc.devRef .tc main_v15) = Cert.ReferenceIdeal.ReadP.val_main_v15 (F := F) x2)
      ∧ (after ops2_p4 W (Proc.devRef .tc main_v18) = Cert.ReferenceIdeal.ReadP.val_main_v18 (F := F) x2)
      ∧ (after ops2_p4 W (Proc.devRef .tc main_v20) = Cert.ReferenceIdeal.ReadP.val_main_v20 (F := F) x2)
      ∧ (after ops2_p4 W (Proc.devRef .tc main_v25) = Cert.ReferenceIdeal.ReadP.val_main_v25 (F := F) x2)
      ∧ (after ops2_p4 W (Proc.devRef .tc main_v27) = Cert.ReferenceIdeal.ReadP.val_main_v27 (F := F) x2)
      ∧ (after ops2_p4 W (Proc.devRef .tc main_v29) = Cert.ReferenceIdeal.ReadP.val_main_v29 (F := F) x2)
      ∧ (after ops2_p4 W (Proc.devRef .tc main_v31) = Cert.ReferenceIdeal.ReadP.val_main_v31 (F := F) x2)
      ∧ (after ops2_p4 W (Proc.devRef .tc main_v33) = Cert.ReferenceIdeal.ReadP.val_main_v33 (F := F) x2)
      ∧ (after ops2_p4 W (Proc.devRef .tc main_v35) = Cert.ReferenceIdeal.ReadP.val_main_v35 (F := F) x2)
      ∧ (after ops2_p4 W (Proc.devRef .tc main_v37) = Cert.ReferenceIdeal.ReadP.val_main_v37 (F := F) x2) := by
  refine ⟨?_, ?_, ?_, ?_, ?_, ?_, ?_, ?_, ?_, ?_, ?_, ?_, ?_, ?_, ?_, ?_⟩
  · exact (after_of_writes_sub _ W ops2_p4_writes (by decide)).trans h_main_arg0
  · exact (after_of_writes_sub _ W ops2_p4_writes (by decide)).trans h_main_arg1
  · exact (after_of_writes_sub _ W ops2_p4_writes (by decide)).trans h_main_v1
  · exact (after_of_writes_sub _ W ops2_p4_writes (by decide)).trans h_main_v114
  · exact (after_of_writes_sub _ W ops2_p4_writes (by decide)).trans h_main_v13
  · simp only [ops2_p4, after_cons, after_nil]
    rw [nary_result]
    show concatenate S4x512x512x3 3 [⟨S4x512x512x1, (W (Proc.devRef .tc main_v130))⟩, ⟨S4x512x512x1, (W (Proc.devRef .tc main_v131))⟩, ⟨S4x512x512x1, (W (Proc.devRef .tc main_v132))⟩] concatenates_S4x512x512x1_S4x512x512x1_S4x512x512x1_S4x512x512x3_d3 = _
    rw [h_main_v130, h_main_v131, h_main_v132]
    (try simp only [Cert.ReferenceIdeal.ReadP.val_main_v133])
    (try rfl)
  · exact (after_of_writes_sub _ W ops2_p4_writes (by decide)).trans h_main_v15
  · exact (after_of_writes_sub _ W ops2_p4_writes (by decide)).trans h_main_v18
  · exact (after_of_writes_sub _ W ops2_p4_writes (by decide)).trans h_main_v20
  · exact (after_of_writes_sub _ W ops2_p4_writes (by decide)).trans h_main_v25
  · exact (after_of_writes_sub _ W ops2_p4_writes (by decide)).trans h_main_v27
  · exact (after_of_writes_sub _ W ops2_p4_writes (by decide)).trans h_main_v29
  · exact (after_of_writes_sub _ W ops2_p4_writes (by decide)).trans h_main_v31
  · exact (after_of_writes_sub _ W ops2_p4_writes (by decide)).trans h_main_v33
  · exact (after_of_writes_sub _ W ops2_p4_writes (by decide)).trans h_main_v35
  · exact (after_of_writes_sub _ W ops2_p4_writes (by decide)).trans h_main_v37

/-- A piece of `ops2`. -/
abbrev ops2_p5 : List (HloOp τ sig (Elt F)) :=
  [ binary main_v1 main_v133 main_v134 ((fun x i => Host.gather gather_S8x3x33x33x33_S4x512x512x3_S8x3x4x512x512_01_234_n_n_234_3_83111 x i) : (⟨S8x3x33x33x33, .f32⟩ : BufTy).Contents (Elt F) → (⟨S4x512x512x3, .i32⟩ : BufTy).Contents (Elt F) → (⟨S8x3x4x512x512, .f32⟩ : BufTy).Contents (Elt F)),
    binary main_v37 main_v20 main_v135 (mulf : (⟨S4x512x512, .f32⟩ : BufTy).Contents (Elt F) → (⟨S4x512x512, .f32⟩ : BufTy).Contents (Elt F) → (⟨S4x512x512, .f32⟩ : BufTy).Contents (Elt F)),
    binary main_v135 main_v15 main_v136 (mulf : (⟨S4x512x512, .f32⟩ : BufTy).Contents (Elt F) → (⟨S4x512x512, .f32⟩ : BufTy).Contents (Elt F) → (⟨S4x512x512, .f32⟩ : BufTy).Contents (Elt F)),
    unary main_v136 main_v137 (broadcastInDim S1x1x4x512x512 ![2, 3, 4] bcast_S4x512x512_S1x1x4x512x512_2_3_4 : (⟨S4x512x512, .f32⟩ : BufTy).Contents (Elt F) → (⟨S1x1x4x512x512, .f32⟩ : BufTy).Contents (Elt F)),
    unary main_v137 main_v138 (broadcastInDim S8x3x4x512x512 ![0, 1, 2, 3, 4] bcast_S1x1x4x512x512_S8x3x4x512x512_0_1_2_3_4 : (⟨S1x1x4x512x512, .f32⟩ : BufTy).Contents (Elt F) → (⟨S8x3x4x512x512, .f32⟩ : BufTy).Contents (Elt F)),
    binary main_v134 main_v138 main_v139 (mulf : (⟨S8x3x4x512x512, .f32⟩ : BufTy).Contents (Elt F) → (⟨S8x3x4x512x512, .f32⟩ : BufTy).Contents (Elt F) → (⟨S8x3x4x512x512, .f32⟩ : BufTy).Contents (Elt F)),
    binary main_v114 main_v139 main_v140 (addf : (⟨S8x3x4x512x512, .f32⟩ : BufTy).Contents (Elt F) → (⟨S8x3x4x512x512, .f32⟩ : BufTy).Contents (Elt F) → (⟨S8x3x4x512x512, .f32⟩ : BufTy).Contents (Elt F)) ]
abbrev wr_ops2_p5 : List (Ref sig .tc) := [main_v134, main_v135, main_v136, main_v137, main_v138, main_v139, main_v140]
set_option maxRecDepth 16384 in
set_option maxHeartbeats 40000000 in
theorem ops2_p5_writes : (ops2_p5 : List (HloOp τ sig (Elt F))).Forall fun op =>
    op.writes ⊆ (wr_ops2_p5.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_ops2_p5 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_v1 : W (Proc.devRef .tc main_v1) = Cert.ReferenceIdeal.ReadP.val_main_v1 (F := F) x3)
    (h_main_v114 : W (Proc.devRef .tc main_v114) = Cert.ReferenceIdeal.ReadP.val_main_v114 (F := F) x2 x3)
    (h_main_v13 : W (Proc.devRef .tc main_v13) = Cert.ReferenceIdeal.ReadP.val_main_v13 (F := F) x2)
    (h_main_v133 : W (Proc.devRef .tc main_v133) = Cert.ReferenceIdeal.ReadP.val_main_v133 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    : (after ops2_p5 W (Proc.devRef .tc main_arg0) = x0)
      ∧ (after ops2_p5 W (Proc.devRef .tc main_arg1) = x1)
      ∧ (after ops2_p5 W (Proc.devRef .tc main_v1) = Cert.ReferenceIdeal.ReadP.val_main_v1 (F := F) x3)
      ∧ (after ops2_p5 W (Proc.devRef .tc main_v13) = Cert.ReferenceIdeal.ReadP.val_main_v13 (F := F) x2)
      ∧ (after ops2_p5 W (Proc.devRef .tc main_v140) = Cert.ReferenceIdeal.ReadP.val_main_v140 (F := F) x2 x3)
      ∧ (after ops2_p5 W (Proc.devRef .tc main_v15) = Cert.ReferenceIdeal.ReadP.val_main_v15 (F := F) x2)
      ∧ (after ops2_p5 W (Proc.devRef .tc main_v18) = Cert.ReferenceIdeal.ReadP.val_main_v18 (F := F) x2)
      ∧ (after ops2_p5 W (Proc.devRef .tc main_v20) = Cert.ReferenceIdeal.ReadP.val_main_v20 (F := F) x2)
      ∧ (after ops2_p5 W (Proc.devRef .tc main_v25) = Cert.ReferenceIdeal.ReadP.val_main_v25 (F := F) x2)
      ∧ (after ops2_p5 W (Proc.devRef .tc main_v27) = Cert.ReferenceIdeal.ReadP.val_main_v27 (F := F) x2)
      ∧ (after ops2_p5 W (Proc.devRef .tc main_v29) = Cert.ReferenceIdeal.ReadP.val_main_v29 (F := F) x2)
      ∧ (after ops2_p5 W (Proc.devRef .tc main_v31) = Cert.ReferenceIdeal.ReadP.val_main_v31 (F := F) x2)
      ∧ (after ops2_p5 W (Proc.devRef .tc main_v33) = Cert.ReferenceIdeal.ReadP.val_main_v33 (F := F) x2)
      ∧ (after ops2_p5 W (Proc.devRef .tc main_v35) = Cert.ReferenceIdeal.ReadP.val_main_v35 (F := F) x2) := by
  refine ⟨?_, ?_, ?_, ?_, ?_, ?_, ?_, ?_, ?_, ?_, ?_, ?_, ?_, ?_⟩
  · exact (after_of_writes_sub _ W ops2_p5_writes (by decide)).trans h_main_arg0
  · exact (after_of_writes_sub _ W ops2_p5_writes (by decide)).trans h_main_arg1
  · exact (after_of_writes_sub _ W ops2_p5_writes (by decide)).trans h_main_v1
  · exact (after_of_writes_sub _ W ops2_p5_writes (by decide)).trans h_main_v13
  · (simp only [ops2_p5]; read_results; (try simp only [h_main_arg0, h_main_arg1, h_main_v1, h_main_v114, h_main_v13, h_main_v133, h_main_v15, h_main_v18, h_main_v20, h_main_v25, h_main_v27, h_main_v29, h_main_v31, h_main_v33, h_main_v35, h_main_v37, TRef.ofBuf, TRef.toBuf, cast_eq]);
     (try simp only [Cert.ReferenceIdeal.ReadP.val_main_v134, Cert.ReferenceIdeal.ReadP.val_main_v135, Cert.ReferenceIdeal.ReadP.val_main_v136, Cert.ReferenceIdeal.ReadP.val_main_v137, Cert.ReferenceIdeal.ReadP.val_main_v138, Cert.ReferenceIdeal.ReadP.val_main_v139, Cert.ReferenceIdeal.ReadP.val_main_v140]); (try rfl))
  · exact (after_of_writes_sub _ W ops2_p5_writes (by decide)).trans h_main_v15
  · exact (after_of_writes_sub _ W ops2_p5_writes (by decide)).trans h_main_v18
  · exact (after_of_writes_sub _ W ops2_p5_writes (by decide)).trans h_main_v20
  · exact (after_of_writes_sub _ W ops2_p5_writes (by decide)).trans h_main_v25
  · exact (after_of_writes_sub _ W ops2_p5_writes (by decide)).trans h_main_v27
  · exact (after_of_writes_sub _ W ops2_p5_writes (by decide)).trans h_main_v29
  · exact (after_of_writes_sub _ W ops2_p5_writes (by decide)).trans h_main_v31
  · exact (after_of_writes_sub _ W ops2_p5_writes (by decide)).trans h_main_v33
  · exact (after_of_writes_sub _ W ops2_p5_writes (by decide)).trans h_main_v35

/-- A piece of `ops3`. -/
abbrev ops3_p0 : List (HloOp τ sig (Elt F)) :=
  [ nullary main_c_37 (constantI S_ 32 0#32),
    unary main_c_37 main_v141 (broadcastInDim S4x512x512 ![] bcast_S_S4x512x512 : (⟨S_, .i32⟩ : BufTy).Contents (Elt F) → (⟨S4x512x512, .i32⟩ : BufTy).Contents (Elt F)),
    binary main_v31 main_v141 main_v142 (cmpi .slt : (⟨S4x512x512, .i32⟩ : BufTy).Contents (Elt F) → (⟨S4x512x512, .i32⟩ : BufTy).Contents (Elt F) → (⟨S4x512x512, .i1⟩ : BufTy).Contents (Elt F)),
    nullary main_c_38 (constantI S_ 32 33#32),
    unary main_c_38 main_v143 (broadcastInDim S4x512x512 ![] bcast_S_S4x512x512 : (⟨S_, .i32⟩ : BufTy).Contents (Elt F) → (⟨S4x512x512, .i32⟩ : BufTy).Contents (Elt F)),
    binary main_v31 main_v143 main_v144 (addi : (⟨S4x512x512, .i32⟩ : BufTy).Contents (Elt F) → (⟨S4x512x512, .i32⟩ : BufTy).Contents (Elt F) → (⟨S4x512x512, .i32⟩ : BufTy).Contents (Elt F)),
    ternary main_v142 main_v144 main_v31 main_v145 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_39 (constantI S_ 32 0#32),
    unary main_c_39 main_v146 (broadcastInDim S4x512x512 ![] bcast_S_S4x512x512 : (⟨S_, .i32⟩ : BufTy).Contents (Elt F) → (⟨S4x512x512, .i32⟩ : BufTy).Contents (Elt F)),
    binary main_v18 main_v146 main_v147 (cmpi .slt : (⟨S4x512x512, .i32⟩ : BufTy).Contents (Elt F) → (⟨S4x512x512, .i32⟩ : BufTy).Contents (Elt F) → (⟨S4x512x512, .i1⟩ : BufTy).Contents (Elt F)),
    nullary main_c_40 (constantI S_ 32 33#32),
    unary main_c_40 main_v148 (broadcastInDim S4x512x512 ![] bcast_S_S4x512x512 : (⟨S_, .i32⟩ : BufTy).Contents (Elt F) → (⟨S4x512x512, .i32⟩ : BufTy).Contents (Elt F)),
    binary main_v18 main_v148 main_v149 (addi : (⟨S4x512x512, .i32⟩ : BufTy).Contents (Elt F) → (⟨S4x512x512, .i32⟩ : BufTy).Contents (Elt F) → (⟨S4x512x512, .i32⟩ : BufTy).Contents (Elt F)),
    ternary main_v147 main_v149 main_v18 main_v150 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_41 (constantI S_ 32 0#32),
    unary main_c_41 main_v151 (broadcastInDim S4x512x512 ![] bcast_S_S4x512x512 : (⟨S_, .i32⟩ : BufTy).Contents (Elt F) → (⟨S4x512x512, .i32⟩ : BufTy).Contents (Elt F)),
    binary main_v13 main_v151 main_v152 (cmpi .slt : (⟨S4x512x512, .i32⟩ : BufTy).Contents (Elt F) → (⟨S4x512x512, .i32⟩ : BufTy).Contents (Elt F) → (⟨S4x512x512, .i1⟩ : BufTy).Contents (Elt F)),
    nullary main_c_42 (constantI S_ 32 33#32),
    unary main_c_42 main_v153 (broadcastInDim S4x512x512 ![] bcast_S_S4x512x512 : (⟨S_, .i32⟩ : BufTy).Contents (Elt F) → (⟨S4x512x512, .i32⟩ : BufTy).Contents (Elt F)),
    binary main_v13 main_v153 main_v154 (addi : (⟨S4x512x512, .i32⟩ : BufTy).Contents (Elt F) → (⟨S4x512x512, .i32⟩ : BufTy).Contents (Elt F) → (⟨S4x512x512, .i32⟩ : BufTy).Contents (Elt F)),
    ternary main_v152 main_v154 main_v13 main_v155 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    unary main_v145 main_v156 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v150 main_v157 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v155 main_v158 (broadcastInDim S4x512x512x1 ![0, 1, 2] bcast_S4x512x512_S4x512x512x1_0_1_2 : (⟨S4x512x512, .i32⟩ : BufTy).Contents (Elt F) → (⟨S4x512x512x1, .i32⟩ : BufTy).Contents (Elt F)) ]
abbrev wr_ops3_p0 : List (Ref sig .tc) := [main_c_37, main_v141, main_v142, main_c_38, main_v143, main_v144, main_v145, main_c_39, main_v146, main_v147, main_c_40, main_v148, main_v149, main_v150, main_c_41, main_v151, main_v152, main_c_42, main_v153, main_v154, main_v155, main_v156, main_v157, main_v158]
set_option maxRecDepth 16384 in
set_option maxHeartbeats 40000000 in
theorem ops3_p0_writes : (ops3_p0 : List (HloOp τ sig (Elt F))).Forall fun op =>
    op.writes ⊆ (wr_ops3_p0.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_ops3_p0 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v140 : W (Proc.devRef .tc main_v140) = Cert.ReferenceIdeal.ReadP.val_main_v140 (F := F) x2 x3)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    : (after ops3_p0 W (Proc.devRef .tc main_arg0) = x0)
      ∧ (after ops3_p0 W (Proc.devRef .tc main_arg1) = x1)
      ∧ (after ops3_p0 W (Proc.devRef .tc main_v1) = Cert.ReferenceIdeal.ReadP.val_main_v1 (F := F) x3)
      ∧ (after ops3_p0 W (Proc.devRef .tc main_v13) = Cert.ReferenceIdeal.ReadP.val_main_v13 (F := F) x2)
      ∧ (after ops3_p0 W (Proc.devRef .tc main_v140) = Cert.ReferenceIdeal.ReadP.val_main_v140 (F := F) x2 x3)
      ∧ (after ops3_p0 W (Proc.devRef .tc main_v15) = Cert.ReferenceIdeal.ReadP.val_main_v15 (F := F) x2)
      ∧ (after ops3_p0 W (Proc.devRef .tc main_v156) = Cert.ReferenceIdeal.ReadP.val_main_v156 (F := F) x2)
      ∧ (after ops3_p0 W (Proc.devRef .tc main_v157) = Cert.ReferenceIdeal.ReadP.val_main_v157 (F := F) x2)
      ∧ (after ops3_p0 W (Proc.devRef .tc main_v158) = Cert.ReferenceIdeal.ReadP.val_main_v158 (F := F) x2)
      ∧ (after ops3_p0 W (Proc.devRef .tc main_v18) = Cert.ReferenceIdeal.ReadP.val_main_v18 (F := F) x2)
      ∧ (after ops3_p0 W (Proc.devRef .tc main_v20) = Cert.ReferenceIdeal.ReadP.val_main_v20 (F := F) x2)
      ∧ (after ops3_p0 W (Proc.devRef .tc main_v25) = Cert.ReferenceIdeal.ReadP.val_main_v25 (F := F) x2)
      ∧ (after ops3_p0 W (Proc.devRef .tc main_v27) = Cert.ReferenceIdeal.ReadP.val_main_v27 (F := F) x2)
      ∧ (after ops3_p0 W (Proc.devRef .tc main_v29) = Cert.ReferenceIdeal.ReadP.val_main_v29 (F := F) x2)
      ∧ (after ops3_p0 W (Proc.devRef .tc main_v31) = Cert.ReferenceIdeal.ReadP.val_main_v31 (F := F) x2)
      ∧ (after ops3_p0 W (Proc.devRef .tc main_v33) = Cert.ReferenceIdeal.ReadP.val_main_v33 (F := F) x2)
      ∧ (after ops3_p0 W (Proc.devRef .tc main_v35) = Cert.ReferenceIdeal.ReadP.val_main_v35 (F := F) x2) := by
  refine ⟨?_, ?_, ?_, ?_, ?_, ?_, ?_, ?_, ?_, ?_, ?_, ?_, ?_, ?_, ?_, ?_, ?_⟩
  · exact (after_of_writes_sub _ W ops3_p0_writes (by decide)).trans h_main_arg0
  · exact (after_of_writes_sub _ W ops3_p0_writes (by decide)).trans h_main_arg1
  · exact (after_of_writes_sub _ W ops3_p0_writes (by decide)).trans h_main_v1
  · exact (after_of_writes_sub _ W ops3_p0_writes (by decide)).trans h_main_v13
  · exact (after_of_writes_sub _ W ops3_p0_writes (by decide)).trans h_main_v140
  · exact (after_of_writes_sub _ W ops3_p0_writes (by decide)).trans h_main_v15
  · (simp only [ops3_p0]; read_results; (try simp only [h_main_arg0, h_main_arg1, h_main_v1, h_main_v13, h_main_v140, h_main_v15, h_main_v18, h_main_v20, h_main_v25, h_main_v27, h_main_v29, h_main_v31, h_main_v33, h_main_v35, TRef.ofBuf, TRef.toBuf, cast_eq]);
     (try simp only [Cert.ReferenceIdeal.ReadP.val_main_c_37, Cert.ReferenceIdeal.ReadP.val_main_v141, Cert.ReferenceIdeal.ReadP.val_main_v142, Cert.ReferenceIdeal.ReadP.val_main_c_38, Cert.ReferenceIdeal.ReadP.val_main_v143, Cert.ReferenceIdeal.ReadP.val_main_v144, Cert.ReferenceIdeal.ReadP.val_main_v145, Cert.ReferenceIdeal.ReadP.val_main_c_39, Cert.ReferenceIdeal.ReadP.val_main_v146, Cert.ReferenceIdeal.ReadP.val_main_v147, Cert.ReferenceIdeal.ReadP.val_main_c_40, Cert.ReferenceIdeal.ReadP.val_main_v148, Cert.ReferenceIdeal.ReadP.val_main_v149, Cert.ReferenceIdeal.ReadP.val_main_v150, Cert.ReferenceIdeal.ReadP.val_main_c_41, Cert.ReferenceIdeal.ReadP.val_main_v151, Cert.ReferenceIdeal.ReadP.val_main_v152, Cert.ReferenceIdeal.ReadP.val_main_c_42, Cert.ReferenceIdeal.ReadP.val_main_v153, Cert.ReferenceIdeal.ReadP.val_main_v154, Cert.ReferenceIdeal.ReadP.val_main_v155, Cert.ReferenceIdeal.ReadP.val_main_v156, Cert.ReferenceIdeal.ReadP.val_main_v157, Cert.ReferenceIdeal.ReadP.val_main_v158]); (try rfl))
  · (simp only [ops3_p0]; read_results; (try simp only [h_main_arg0, h_main_arg1, h_main_v1, h_main_v13, h_main_v140, h_main_v15, h_main_v18, h_main_v20, h_main_v25, h_main_v27, h_main_v29, h_main_v31, h_main_v33, h_main_v35, TRef.ofBuf, TRef.toBuf, cast_eq]);
     (try simp only [Cert.ReferenceIdeal.ReadP.val_main_c_37, Cert.ReferenceIdeal.ReadP.val_main_v141, Cert.ReferenceIdeal.ReadP.val_main_v142, Cert.ReferenceIdeal.ReadP.val_main_c_38, Cert.ReferenceIdeal.ReadP.val_main_v143, Cert.ReferenceIdeal.ReadP.val_main_v144, Cert.ReferenceIdeal.ReadP.val_main_v145, Cert.ReferenceIdeal.ReadP.val_main_c_39, Cert.ReferenceIdeal.ReadP.val_main_v146, Cert.ReferenceIdeal.ReadP.val_main_v147, Cert.ReferenceIdeal.ReadP.val_main_c_40, Cert.ReferenceIdeal.ReadP.val_main_v148, Cert.ReferenceIdeal.ReadP.val_main_v149, Cert.ReferenceIdeal.ReadP.val_main_v150, Cert.ReferenceIdeal.ReadP.val_main_c_41, Cert.ReferenceIdeal.ReadP.val_main_v151, Cert.ReferenceIdeal.ReadP.val_main_v152, Cert.ReferenceIdeal.ReadP.val_main_c_42, Cert.ReferenceIdeal.ReadP.val_main_v153, Cert.ReferenceIdeal.ReadP.val_main_v154, Cert.ReferenceIdeal.ReadP.val_main_v155, Cert.ReferenceIdeal.ReadP.val_main_v156, Cert.ReferenceIdeal.ReadP.val_main_v157, Cert.ReferenceIdeal.ReadP.val_main_v158]); (try rfl))
  · (simp only [ops3_p0]; read_results; (try simp only [h_main_arg0, h_main_arg1, h_main_v1, h_main_v13, h_main_v140, h_main_v15, h_main_v18, h_main_v20, h_main_v25, h_main_v27, h_main_v29, h_main_v31, h_main_v33, h_main_v35, TRef.ofBuf, TRef.toBuf, cast_eq]);
     (try simp only [Cert.ReferenceIdeal.ReadP.val_main_c_37, Cert.ReferenceIdeal.ReadP.val_main_v141, Cert.ReferenceIdeal.ReadP.val_main_v142, Cert.ReferenceIdeal.ReadP.val_main_c_38, Cert.ReferenceIdeal.ReadP.val_main_v143, Cert.ReferenceIdeal.ReadP.val_main_v144, Cert.ReferenceIdeal.ReadP.val_main_v145, Cert.ReferenceIdeal.ReadP.val_main_c_39, Cert.ReferenceIdeal.ReadP.val_main_v146, Cert.ReferenceIdeal.ReadP.val_main_v147, Cert.ReferenceIdeal.ReadP.val_main_c_40, Cert.ReferenceIdeal.ReadP.val_main_v148, Cert.ReferenceIdeal.ReadP.val_main_v149, Cert.ReferenceIdeal.ReadP.val_main_v150, Cert.ReferenceIdeal.ReadP.val_main_c_41, Cert.ReferenceIdeal.ReadP.val_main_v151, Cert.ReferenceIdeal.ReadP.val_main_v152, Cert.ReferenceIdeal.ReadP.val_main_c_42, Cert.ReferenceIdeal.ReadP.val_main_v153, Cert.ReferenceIdeal.ReadP.val_main_v154, Cert.ReferenceIdeal.ReadP.val_main_v155, Cert.ReferenceIdeal.ReadP.val_main_v156, Cert.ReferenceIdeal.ReadP.val_main_v157, Cert.ReferenceIdeal.ReadP.val_main_v158]); (try rfl))
  · exact (after_of_writes_sub _ W ops3_p0_writes (by decide)).trans h_main_v18
  · exact (after_of_writes_sub _ W ops3_p0_writes (by decide)).trans h_main_v20
  · exact (after_of_writes_sub _ W ops3_p0_writes (by decide)).trans h_main_v25
  · exact (after_of_writes_sub _ W ops3_p0_writes (by decide)).trans h_main_v27
  · exact (after_of_writes_sub _ W ops3_p0_writes (by decide)).trans h_main_v29
  · exact (after_of_writes_sub _ W ops3_p0_writes (by decide)).trans h_main_v31
  · exact (after_of_writes_sub _ W ops3_p0_writes (by decide)).trans h_main_v33
  · exact (after_of_writes_sub _ W ops3_p0_writes (by decide)).trans h_main_v35

/-- A piece of `ops3`. -/
abbrev ops3_p1 : List (HloOp τ sig (Elt F)) :=
  [ nary ![main_v156, main_v157, main_v158] main_v159 (fun u => concatenate S4x512x512x3 3 [⟨S4x512x512x1, u 0⟩, ⟨S4x512x512x1, u 1⟩, ⟨S4x512x512x1, u 2⟩] concatenates_S4x512x512x1_S4x512x512x1_S4x512x512x1_S4x512x512x3_d3) ]
abbrev wr_ops3_p1 : List (Ref sig .tc) := [main_v159]
set_option maxRecDepth 16384 in
set_option maxHeartbeats 40000000 in
theorem ops3_p1_writes : (ops3_p1 : List (HloOp τ sig (Elt F))).Forall fun op =>
    op.writes ⊆ (wr_ops3_p1.map (Proc.devRef (τ := τ) .tc)).toFinset :=
  by simp only [List.Forall]; exact writes_sub_of rfl (by decide)
set_option maxRecDepth 16384 in
set_option maxHeartbeats 40000000 in
theorem stage_ops3_p1 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v140 : W (Proc.devRef .tc main_v140) = Cert.ReferenceIdeal.ReadP.val_main_v140 (F := F) x2 x3)
    (h_main_v15 : W (Proc.devRef .tc main_v15) = Cert.ReferenceIdeal.ReadP.val_main_v15 (F := F) x2)
    (h_main_v156 : W (Proc.devRef .tc main_v156) = Cert.ReferenceIdeal.ReadP.val_main_v156 (F := F) x2)
    (h_main_v157 : W (Proc.devRef .tc main_v157) = Cert.ReferenceIdeal.ReadP.val_main_v157 (F := F) x2)
    (h_main_v158 : W (Proc.devRef .tc main_v158) = Cert.ReferenceIdeal.ReadP.val_main_v158 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    : (after ops3_p1 W (Proc.devRef .tc main_arg0) = x0)
      ∧ (after ops3_p1 W (Proc.devRef .tc main_arg1) = x1)
      ∧ (after ops3_p1 W (Proc.devRef .tc main_v1) = Cert.ReferenceIdeal.ReadP.val_main_v1 (F := F) x3)
      ∧ (after ops3_p1 W (Proc.devRef .tc main_v13) = Cert.ReferenceIdeal.ReadP.val_main_v13 (F := F) x2)
      ∧ (after ops3_p1 W (Proc.devRef .tc main_v140) = Cert.ReferenceIdeal.ReadP.val_main_v140 (F := F) x2 x3)
      ∧ (after ops3_p1 W (Proc.devRef .tc main_v15) = Cert.ReferenceIdeal.ReadP.val_main_v15 (F := F) x2)
      ∧ (after ops3_p1 W (Proc.devRef .tc main_v159) = Cert.ReferenceIdeal.ReadP.val_main_v159 (F := F) x2)
      ∧ (after ops3_p1 W (Proc.devRef .tc main_v18) = Cert.ReferenceIdeal.ReadP.val_main_v18 (F := F) x2)
      ∧ (after ops3_p1 W (Proc.devRef .tc main_v20) = Cert.ReferenceIdeal.ReadP.val_main_v20 (F := F) x2)
      ∧ (after ops3_p1 W (Proc.devRef .tc main_v25) = Cert.ReferenceIdeal.ReadP.val_main_v25 (F := F) x2)
      ∧ (after ops3_p1 W (Proc.devRef .tc main_v27) = Cert.ReferenceIdeal.ReadP.val_main_v27 (F := F) x2)
      ∧ (after ops3_p1 W (Proc.devRef .tc main_v29) = Cert.ReferenceIdeal.ReadP.val_main_v29 (F := F) x2)
      ∧ (after ops3_p1 W (Proc.devRef .tc main_v31) = Cert.ReferenceIdeal.ReadP.val_main_v31 (F := F) x2)
      ∧ (after ops3_p1 W (Proc.devRef .tc main_v33) = Cert.ReferenceIdeal.ReadP.val_main_v33 (F := F) x2)
      ∧ (after ops3_p1 W (Proc.devRef .tc main_v35) = Cert.ReferenceIdeal.ReadP.val_main_v35 (F := F) x2) := by
  refine ⟨?_, ?_, ?_, ?_, ?_, ?_, ?_, ?_, ?_, ?_, ?_, ?_, ?_, ?_, ?_⟩
  · exact (after_of_writes_sub _ W ops3_p1_writes (by decide)).trans h_main_arg0
  · exact (after_of_writes_sub _ W ops3_p1_writes (by decide)).trans h_main_arg1
  · exact (after_of_writes_sub _ W ops3_p1_writes (by decide)).trans h_main_v1
  · exact (after_of_writes_sub _ W ops3_p1_writes (by decide)).trans h_main_v13
  · exact (after_of_writes_sub _ W ops3_p1_writes (by decide)).trans h_main_v140
  · exact (after_of_writes_sub _ W ops3_p1_writes (by decide)).trans h_main_v15
  · simp only [ops3_p1, after_cons, after_nil]
    rw [nary_result]
    show concatenate S4x512x512x3 3 [⟨S4x512x512x1, (W (Proc.devRef .tc main_v156))⟩, ⟨S4x512x512x1, (W (Proc.devRef .tc main_v157))⟩, ⟨S4x512x512x1, (W (Proc.devRef .tc main_v158))⟩] concatenates_S4x512x512x1_S4x512x512x1_S4x512x512x1_S4x512x512x3_d3 = _
    rw [h_main_v156, h_main_v157, h_main_v158]
    (try simp only [Cert.ReferenceIdeal.ReadP.val_main_v159])
    (try rfl)
  · exact (after_of_writes_sub _ W ops3_p1_writes (by decide)).trans h_main_v18
  · exact (after_of_writes_sub _ W ops3_p1_writes (by decide)).trans h_main_v20
  · exact (after_of_writes_sub _ W ops3_p1_writes (by decide)).trans h_main_v25
  · exact (after_of_writes_sub _ W ops3_p1_writes (by decide)).trans h_main_v27
  · exact (after_of_writes_sub _ W ops3_p1_writes (by decide)).trans h_main_v29
  · exact (after_of_writes_sub _ W ops3_p1_writes (by decide)).trans h_main_v31
  · exact (after_of_writes_sub _ W ops3_p1_writes (by decide)).trans h_main_v33
  · exact (after_of_writes_sub _ W ops3_p1_writes (by decide)).trans h_main_v35

/-- A piece of `ops3`. -/
abbrev ops3_p2 : List (HloOp τ sig (Elt F)) :=
  [ binary main_v1 main_v159 main_v160 ((fun x i => Host.gather gather_S8x3x33x33x33_S4x512x512x3_S8x3x4x512x512_01_234_n_n_234_3_83111 x i) : (⟨S8x3x33x33x33, .f32⟩ : BufTy).Contents (Elt F) → (⟨S4x512x512x3, .i32⟩ : BufTy).Contents (Elt F) → (⟨S8x3x4x512x512, .f32⟩ : BufTy).Contents (Elt F)),
    binary main_v25 main_v35 main_v161 (mulf : (⟨S4x512x512, .f32⟩ : BufTy).Contents (Elt F) → (⟨S4x512x512, .f32⟩ : BufTy).Contents (Elt F) → (⟨S4x512x512, .f32⟩ : BufTy).Contents (Elt F)),
    binary main_v161 main_v33 main_v162 (mulf : (⟨S4x512x512, .f32⟩ : BufTy).Contents (Elt F) → (⟨S4x512x512, .f32⟩ : BufTy).Contents (Elt F) → (⟨S4x512x512, .f32⟩ : BufTy).Contents (Elt F)),
    unary main_v162 main_v163 (broadcastInDim S1x1x4x512x512 ![2, 3, 4] bcast_S4x512x512_S1x1x4x512x512_2_3_4 : (⟨S4x512x512, .f32⟩ : BufTy).Contents (Elt F) → (⟨S1x1x4x512x512, .f32⟩ : BufTy).Contents (Elt F)),
    unary main_v163 main_v164 (broadcastInDim S8x3x4x512x512 ![0, 1, 2, 3, 4] bcast_S1x1x4x512x512_S8x3x4x512x512_0_1_2_3_4 : (⟨S1x1x4x512x512, .f32⟩ : BufTy).Contents (Elt F) → (⟨S8x3x4x512x512, .f32⟩ : BufTy).Contents (Elt F)),
    binary main_v160 main_v164 main_v165 (mulf : (⟨S8x3x4x512x512, .f32⟩ : BufTy).Contents (Elt F) → (⟨S8x3x4x512x512, .f32⟩ : BufTy).Contents (Elt F) → (⟨S8x3x4x512x512, .f32⟩ : BufTy).Contents (Elt F)),
    binary main_v140 main_v165 main_v166 (addf : (⟨S8x3x4x512x512, .f32⟩ : BufTy).Contents (Elt F) → (⟨S8x3x4x512x512, .f32⟩ : BufTy).Contents (Elt F) → (⟨S8x3x4x512x512, .f32⟩ : BufTy).Contents (Elt F)),
    nullary main_c_43 (constantI S_ 32 0#32),
    unary main_c_43 main_v167 (broadcastInDim S4x512x512 ![] bcast_S_S4x512x512 : (⟨S_, .i32⟩ : BufTy).Contents (Elt F) → (⟨S4x512x512, .i32⟩ : BufTy).Contents (Elt F)),
    binary main_v31 main_v167 main_v168 (cmpi .slt : (⟨S4x512x512, .i32⟩ : BufTy).Contents (Elt F) → (⟨S4x512x512, .i32⟩ : BufTy).Contents (Elt F) → (⟨S4x512x512, .i1⟩ : BufTy).Contents (Elt F)),
    nullary main_c_44 (constantI S_ 32 33#32),
    unary main_c_44 main_v169 (broadcastInDim S4x512x512 ![] bcast_S_S4x512x512 : (⟨S_, .i32⟩ : BufTy).Contents (Elt F) → (⟨S4x512x512, .i32⟩ : BufTy).Contents (Elt F)),
    binary main_v31 main_v169 main_v170 (addi : (⟨S4x512x512, .i32⟩ : BufTy).Contents (Elt F) → (⟨S4x512x512, .i32⟩ : BufTy).Contents (Elt F) → (⟨S4x512x512, .i32⟩ : BufTy).Contents (Elt F)),
    ternary main_v168 main_v170 main_v31 main_v171 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_45 (constantI S_ 32 0#32),
    unary main_c_45 main_v172 (broadcastInDim S4x512x512 ![] bcast_S_S4x512x512 : (⟨S_, .i32⟩ : BufTy).Contents (Elt F) → (⟨S4x512x512, .i32⟩ : BufTy).Contents (Elt F)),
    binary main_v18 main_v172 main_v173 (cmpi .slt : (⟨S4x512x512, .i32⟩ : BufTy).Contents (Elt F) → (⟨S4x512x512, .i32⟩ : BufTy).Contents (Elt F) → (⟨S4x512x512, .i1⟩ : BufTy).Contents (Elt F)),
    nullary main_c_46 (constantI S_ 32 33#32),
    unary main_c_46 main_v174 (broadcastInDim S4x512x512 ![] bcast_S_S4x512x512 : (⟨S_, .i32⟩ : BufTy).Contents (Elt F) → (⟨S4x512x512, .i32⟩ : BufTy).Contents (Elt F)),
    binary main_v18 main_v174 main_v175 (addi : (⟨S4x512x512, .i32⟩ : BufTy).Contents (Elt F) → (⟨S4x512x512, .i32⟩ : BufTy).Contents (Elt F) → (⟨S4x512x512, .i32⟩ : BufTy).Contents (Elt F)),
    ternary main_v173 main_v175 main_v18 main_v176 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_47 (constantI S_ 32 0#32),
    unary main_c_47 main_v177 (broadcastInDim S4x512x512 ![] bcast_S_S4x512x512 : (⟨S_, .i32⟩ : BufTy).Contents (Elt F) → (⟨S4x512x512, .i32⟩ : BufTy).Contents (Elt F)),
    binary main_v27 main_v177 main_v178 (cmpi .slt : (⟨S4x512x512, .i32⟩ : BufTy).Contents (Elt F) → (⟨S4x512x512, .i32⟩ : BufTy).Contents (Elt F) → (⟨S4x512x512, .i1⟩ : BufTy).Contents (Elt F)) ]
abbrev wr_ops3_p2 : List (Ref sig .tc) := [main_v160, main_v161, main_v162, main_v163, main_v164, main_v165, main_v166, main_c_43, main_v167, main_v168, main_c_44, main_v169, main_v170, main_v171, main_c_45, main_v172, main_v173, main_c_46, main_v174, main_v175, main_v176, main_c_47, main_v177, main_v178]
set_option maxRecDepth 16384 in
set_option maxHeartbeats 40000000 in
theorem ops3_p2_writes : (ops3_p2 : List (HloOp τ sig (Elt F))).Forall fun op =>
    op.writes ⊆ (wr_ops3_p2.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_ops3_p2 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v140 : W (Proc.devRef .tc main_v140) = Cert.ReferenceIdeal.ReadP.val_main_v140 (F := F) x2 x3)
    (h_main_v15 : W (Proc.devRef .tc main_v15) = Cert.ReferenceIdeal.ReadP.val_main_v15 (F := F) x2)
    (h_main_v159 : W (Proc.devRef .tc main_v159) = Cert.ReferenceIdeal.ReadP.val_main_v159 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    : (after ops3_p2 W (Proc.devRef .tc main_arg0) = x0)
      ∧ (after ops3_p2 W (Proc.devRef .tc main_arg1) = x1)
      ∧ (after ops3_p2 W (Proc.devRef .tc main_v1) = Cert.ReferenceIdeal.ReadP.val_main_v1 (F := F) x3)
      ∧ (after ops3_p2 W (Proc.devRef .tc main_v13) = Cert.ReferenceIdeal.ReadP.val_main_v13 (F := F) x2)
      ∧ (after ops3_p2 W (Proc.devRef .tc main_v15) = Cert.ReferenceIdeal.ReadP.val_main_v15 (F := F) x2)
      ∧ (after ops3_p2 W (Proc.devRef .tc main_v166) = Cert.ReferenceIdeal.ReadP.val_main_v166 (F := F) x2 x3)
      ∧ (after ops3_p2 W (Proc.devRef .tc main_v171) = Cert.ReferenceIdeal.ReadP.val_main_v171 (F := F) x2)
      ∧ (after ops3_p2 W (Proc.devRef .tc main_v176) = Cert.ReferenceIdeal.ReadP.val_main_v176 (F := F) x2)
      ∧ (after ops3_p2 W (Proc.devRef .tc main_v178) = Cert.ReferenceIdeal.ReadP.val_main_v178 (F := F) x2)
      ∧ (after ops3_p2 W (Proc.devRef .tc main_v20) = Cert.ReferenceIdeal.ReadP.val_main_v20 (F := F) x2)
      ∧ (after ops3_p2 W (Proc.devRef .tc main_v25) = Cert.ReferenceIdeal.ReadP.val_main_v25 (F := F) x2)
      ∧ (after ops3_p2 W (Proc.devRef .tc main_v27) = Cert.ReferenceIdeal.ReadP.val_main_v27 (F := F) x2)
      ∧ (after ops3_p2 W (Proc.devRef .tc main_v29) = Cert.ReferenceIdeal.ReadP.val_main_v29 (F := F) x2)
      ∧ (after ops3_p2 W (Proc.devRef .tc main_v31) = Cert.ReferenceIdeal.ReadP.val_main_v31 (F := F) x2)
      ∧ (after ops3_p2 W (Proc.devRef .tc main_v33) = Cert.ReferenceIdeal.ReadP.val_main_v33 (F := F) x2)
      ∧ (after ops3_p2 W (Proc.devRef .tc main_v35) = Cert.ReferenceIdeal.ReadP.val_main_v35 (F := F) x2) := by
  refine ⟨?_, ?_, ?_, ?_, ?_, ?_, ?_, ?_, ?_, ?_, ?_, ?_, ?_, ?_, ?_, ?_⟩
  · exact (after_of_writes_sub _ W ops3_p2_writes (by decide)).trans h_main_arg0
  · exact (after_of_writes_sub _ W ops3_p2_writes (by decide)).trans h_main_arg1
  · exact (after_of_writes_sub _ W ops3_p2_writes (by decide)).trans h_main_v1
  · exact (after_of_writes_sub _ W ops3_p2_writes (by decide)).trans h_main_v13
  · exact (after_of_writes_sub _ W ops3_p2_writes (by decide)).trans h_main_v15
  · (simp only [ops3_p2]; read_results; (try simp only [h_main_arg0, h_main_arg1, h_main_v1, h_main_v13, h_main_v140, h_main_v15, h_main_v159, h_main_v18, h_main_v20, h_main_v25, h_main_v27, h_main_v29, h_main_v31, h_main_v33, h_main_v35, TRef.ofBuf, TRef.toBuf, cast_eq]);
     (try simp only [Cert.ReferenceIdeal.ReadP.val_main_v160, Cert.ReferenceIdeal.ReadP.val_main_v161, Cert.ReferenceIdeal.ReadP.val_main_v162, Cert.ReferenceIdeal.ReadP.val_main_v163, Cert.ReferenceIdeal.ReadP.val_main_v164, Cert.ReferenceIdeal.ReadP.val_main_v165, Cert.ReferenceIdeal.ReadP.val_main_v166, Cert.ReferenceIdeal.ReadP.val_main_c_43, Cert.ReferenceIdeal.ReadP.val_main_v167, Cert.ReferenceIdeal.ReadP.val_main_v168, Cert.ReferenceIdeal.ReadP.val_main_c_44, Cert.ReferenceIdeal.ReadP.val_main_v169, Cert.ReferenceIdeal.ReadP.val_main_v170, Cert.ReferenceIdeal.ReadP.val_main_v171, Cert.ReferenceIdeal.ReadP.val_main_c_45, Cert.ReferenceIdeal.ReadP.val_main_v172, Cert.ReferenceIdeal.ReadP.val_main_v173, Cert.ReferenceIdeal.ReadP.val_main_c_46, Cert.ReferenceIdeal.ReadP.val_main_v174, Cert.ReferenceIdeal.ReadP.val_main_v175, Cert.ReferenceIdeal.ReadP.val_main_v176, Cert.ReferenceIdeal.ReadP.val_main_c_47, Cert.ReferenceIdeal.ReadP.val_main_v177, Cert.ReferenceIdeal.ReadP.val_main_v178]); (try rfl))
  · (simp only [ops3_p2]; read_results; (try simp only [h_main_arg0, h_main_arg1, h_main_v1, h_main_v13, h_main_v140, h_main_v15, h_main_v159, h_main_v18, h_main_v20, h_main_v25, h_main_v27, h_main_v29, h_main_v31, h_main_v33, h_main_v35, TRef.ofBuf, TRef.toBuf, cast_eq]);
     (try simp only [Cert.ReferenceIdeal.ReadP.val_main_v160, Cert.ReferenceIdeal.ReadP.val_main_v161, Cert.ReferenceIdeal.ReadP.val_main_v162, Cert.ReferenceIdeal.ReadP.val_main_v163, Cert.ReferenceIdeal.ReadP.val_main_v164, Cert.ReferenceIdeal.ReadP.val_main_v165, Cert.ReferenceIdeal.ReadP.val_main_v166, Cert.ReferenceIdeal.ReadP.val_main_c_43, Cert.ReferenceIdeal.ReadP.val_main_v167, Cert.ReferenceIdeal.ReadP.val_main_v168, Cert.ReferenceIdeal.ReadP.val_main_c_44, Cert.ReferenceIdeal.ReadP.val_main_v169, Cert.ReferenceIdeal.ReadP.val_main_v170, Cert.ReferenceIdeal.ReadP.val_main_v171, Cert.ReferenceIdeal.ReadP.val_main_c_45, Cert.ReferenceIdeal.ReadP.val_main_v172, Cert.ReferenceIdeal.ReadP.val_main_v173, Cert.ReferenceIdeal.ReadP.val_main_c_46, Cert.ReferenceIdeal.ReadP.val_main_v174, Cert.ReferenceIdeal.ReadP.val_main_v175, Cert.ReferenceIdeal.ReadP.val_main_v176, Cert.ReferenceIdeal.ReadP.val_main_c_47, Cert.ReferenceIdeal.ReadP.val_main_v177, Cert.ReferenceIdeal.ReadP.val_main_v178]); (try rfl))
  · (simp only [ops3_p2]; read_results; (try simp only [h_main_arg0, h_main_arg1, h_main_v1, h_main_v13, h_main_v140, h_main_v15, h_main_v159, h_main_v18, h_main_v20, h_main_v25, h_main_v27, h_main_v29, h_main_v31, h_main_v33, h_main_v35, TRef.ofBuf, TRef.toBuf, cast_eq]);
     (try simp only [Cert.ReferenceIdeal.ReadP.val_main_v160, Cert.ReferenceIdeal.ReadP.val_main_v161, Cert.ReferenceIdeal.ReadP.val_main_v162, Cert.ReferenceIdeal.ReadP.val_main_v163, Cert.ReferenceIdeal.ReadP.val_main_v164, Cert.ReferenceIdeal.ReadP.val_main_v165, Cert.ReferenceIdeal.ReadP.val_main_v166, Cert.ReferenceIdeal.ReadP.val_main_c_43, Cert.ReferenceIdeal.ReadP.val_main_v167, Cert.ReferenceIdeal.ReadP.val_main_v168, Cert.ReferenceIdeal.ReadP.val_main_c_44, Cert.ReferenceIdeal.ReadP.val_main_v169, Cert.ReferenceIdeal.ReadP.val_main_v170, Cert.ReferenceIdeal.ReadP.val_main_v171, Cert.ReferenceIdeal.ReadP.val_main_c_45, Cert.ReferenceIdeal.ReadP.val_main_v172, Cert.ReferenceIdeal.ReadP.val_main_v173, Cert.ReferenceIdeal.ReadP.val_main_c_46, Cert.ReferenceIdeal.ReadP.val_main_v174, Cert.ReferenceIdeal.ReadP.val_main_v175, Cert.ReferenceIdeal.ReadP.val_main_v176, Cert.ReferenceIdeal.ReadP.val_main_c_47, Cert.ReferenceIdeal.ReadP.val_main_v177, Cert.ReferenceIdeal.ReadP.val_main_v178]); (try rfl))
  · (simp only [ops3_p2]; read_results; (try simp only [h_main_arg0, h_main_arg1, h_main_v1, h_main_v13, h_main_v140, h_main_v15, h_main_v159, h_main_v18, h_main_v20, h_main_v25, h_main_v27, h_main_v29, h_main_v31, h_main_v33, h_main_v35, TRef.ofBuf, TRef.toBuf, cast_eq]);
     (try simp only [Cert.ReferenceIdeal.ReadP.val_main_v160, Cert.ReferenceIdeal.ReadP.val_main_v161, Cert.ReferenceIdeal.ReadP.val_main_v162, Cert.ReferenceIdeal.ReadP.val_main_v163, Cert.ReferenceIdeal.ReadP.val_main_v164, Cert.ReferenceIdeal.ReadP.val_main_v165, Cert.ReferenceIdeal.ReadP.val_main_v166, Cert.ReferenceIdeal.ReadP.val_main_c_43, Cert.ReferenceIdeal.ReadP.val_main_v167, Cert.ReferenceIdeal.ReadP.val_main_v168, Cert.ReferenceIdeal.ReadP.val_main_c_44, Cert.ReferenceIdeal.ReadP.val_main_v169, Cert.ReferenceIdeal.ReadP.val_main_v170, Cert.ReferenceIdeal.ReadP.val_main_v171, Cert.ReferenceIdeal.ReadP.val_main_c_45, Cert.ReferenceIdeal.ReadP.val_main_v172, Cert.ReferenceIdeal.ReadP.val_main_v173, Cert.ReferenceIdeal.ReadP.val_main_c_46, Cert.ReferenceIdeal.ReadP.val_main_v174, Cert.ReferenceIdeal.ReadP.val_main_v175, Cert.ReferenceIdeal.ReadP.val_main_v176, Cert.ReferenceIdeal.ReadP.val_main_c_47, Cert.ReferenceIdeal.ReadP.val_main_v177, Cert.ReferenceIdeal.ReadP.val_main_v178]); (try rfl))
  · exact (after_of_writes_sub _ W ops3_p2_writes (by decide)).trans h_main_v20
  · exact (after_of_writes_sub _ W ops3_p2_writes (by decide)).trans h_main_v25
  · exact (after_of_writes_sub _ W ops3_p2_writes (by decide)).trans h_main_v27
  · exact (after_of_writes_sub _ W ops3_p2_writes (by decide)).trans h_main_v29
  · exact (after_of_writes_sub _ W ops3_p2_writes (by decide)).trans h_main_v31
  · exact (after_of_writes_sub _ W ops3_p2_writes (by decide)).trans h_main_v33
  · exact (after_of_writes_sub _ W ops3_p2_writes (by decide)).trans h_main_v35

/-- A piece of `ops3`. -/
abbrev ops3_p3 : List (HloOp τ sig (Elt F)) :=
  [ nullary main_c_48 (constantI S_ 32 33#32),
    unary main_c_48 main_v179 (broadcastInDim S4x512x512 ![] bcast_S_S4x512x512 : (⟨S_, .i32⟩ : BufTy).Contents (Elt F) → (⟨S4x512x512, .i32⟩ : BufTy).Contents (Elt F)),
    binary main_v27 main_v179 main_v180 (addi : (⟨S4x512x512, .i32⟩ : BufTy).Contents (Elt F) → (⟨S4x512x512, .i32⟩ : BufTy).Contents (Elt F) → (⟨S4x512x512, .i32⟩ : BufTy).Contents (Elt F)),
    ternary main_v178 main_v180 main_v27 main_v181 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    unary main_v171 main_v182 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v176 main_v183 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v181 main_v184 (broadcastInDim S4x512x512x1 ![0, 1, 2] bcast_S4x512x512_S4x512x512x1_0_1_2 : (⟨S4x512x512, .i32⟩ : BufTy).Contents (Elt F) → (⟨S4x512x512x1, .i32⟩ : BufTy).Contents (Elt F)) ]
abbrev wr_ops3_p3 : List (Ref sig .tc) := [main_c_48, main_v179, main_v180, main_v181, main_v182, main_v183, main_v184]
set_option maxRecDepth 16384 in
set_option maxHeartbeats 40000000 in
theorem ops3_p3_writes : (ops3_p3 : List (HloOp τ sig (Elt F))).Forall fun op =>
    op.writes ⊆ (wr_ops3_p3.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_ops3_p3 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v166 : W (Proc.devRef .tc main_v166) = Cert.ReferenceIdeal.ReadP.val_main_v166 (F := F) x2 x3)
    (h_main_v171 : W (Proc.devRef .tc main_v171) = Cert.ReferenceIdeal.ReadP.val_main_v171 (F := F) x2)
    (h_main_v176 : W (Proc.devRef .tc main_v176) = Cert.ReferenceIdeal.ReadP.val_main_v176 (F := F) x2)
    (h_main_v178 : W (Proc.devRef .tc main_v178) = Cert.ReferenceIdeal.ReadP.val_main_v178 (F := F) x2)
    (h_main_v20 : W (Proc.devRef .tc main_v20) = Cert.ReferenceIdeal.ReadP.val_main_v20 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    : (after ops3_p3 W (Proc.devRef .tc main_arg0) = x0)
      ∧ (after ops3_p3 W (Proc.devRef .tc main_arg1) = x1)
      ∧ (after ops3_p3 W (Proc.devRef .tc main_v1) = Cert.ReferenceIdeal.ReadP.val_main_v1 (F := F) x3)
      ∧ (after ops3_p3 W (Proc.devRef .tc main_v13) = Cert.ReferenceIdeal.ReadP.val_main_v13 (F := F) x2)
      ∧ (after ops3_p3 W (Proc.devRef .tc main_v15) = Cert.ReferenceIdeal.ReadP.val_main_v15 (F := F) x2)
      ∧ (after ops3_p3 W (Proc.devRef .tc main_v166) = Cert.ReferenceIdeal.ReadP.val_main_v166 (F := F) x2 x3)
      ∧ (after ops3_p3 W (Proc.devRef .tc main_v182) = Cert.ReferenceIdeal.ReadP.val_main_v182 (F := F) x2)
      ∧ (after ops3_p3 W (Proc.devRef .tc main_v183) = Cert.ReferenceIdeal.ReadP.val_main_v183 (F := F) x2)
      ∧ (after ops3_p3 W (Proc.devRef .tc main_v184) = Cert.ReferenceIdeal.ReadP.val_main_v184 (F := F) x2)
      ∧ (after ops3_p3 W (Proc.devRef .tc main_v20) = Cert.ReferenceIdeal.ReadP.val_main_v20 (F := F) x2)
      ∧ (after ops3_p3 W (Proc.devRef .tc main_v25) = Cert.ReferenceIdeal.ReadP.val_main_v25 (F := F) x2)
      ∧ (after ops3_p3 W (Proc.devRef .tc main_v27) = Cert.ReferenceIdeal.ReadP.val_main_v27 (F := F) x2)
      ∧ (after ops3_p3 W (Proc.devRef .tc main_v29) = Cert.ReferenceIdeal.ReadP.val_main_v29 (F := F) x2)
      ∧ (after ops3_p3 W (Proc.devRef .tc main_v31) = Cert.ReferenceIdeal.ReadP.val_main_v31 (F := F) x2)
      ∧ (after ops3_p3 W (Proc.devRef .tc main_v33) = Cert.ReferenceIdeal.ReadP.val_main_v33 (F := F) x2)
      ∧ (after ops3_p3 W (Proc.devRef .tc main_v35) = Cert.ReferenceIdeal.ReadP.val_main_v35 (F := F) x2) := by
  refine ⟨?_, ?_, ?_, ?_, ?_, ?_, ?_, ?_, ?_, ?_, ?_, ?_, ?_, ?_, ?_, ?_⟩
  · exact (after_of_writes_sub _ W ops3_p3_writes (by decide)).trans h_main_arg0
  · exact (after_of_writes_sub _ W ops3_p3_writes (by decide)).trans h_main_arg1
  · exact (after_of_writes_sub _ W ops3_p3_writes (by decide)).trans h_main_v1
  · exact (after_of_writes_sub _ W ops3_p3_writes (by decide)).trans h_main_v13
  · exact (after_of_writes_sub _ W ops3_p3_writes (by decide)).trans h_main_v15
  · exact (after_of_writes_sub _ W ops3_p3_writes (by decide)).trans h_main_v166
  · (simp only [ops3_p3]; read_results; (try simp only [h_main_arg0, h_main_arg1, h_main_v1, h_main_v13, h_main_v15, h_main_v166, h_main_v171, h_main_v176, h_main_v178, h_main_v20, h_main_v25, h_main_v27, h_main_v29, h_main_v31, h_main_v33, h_main_v35, TRef.ofBuf, TRef.toBuf, cast_eq]);
     (try simp only [Cert.ReferenceIdeal.ReadP.val_main_c_48, Cert.ReferenceIdeal.ReadP.val_main_v179, Cert.ReferenceIdeal.ReadP.val_main_v180, Cert.ReferenceIdeal.ReadP.val_main_v181, Cert.ReferenceIdeal.ReadP.val_main_v182, Cert.ReferenceIdeal.ReadP.val_main_v183, Cert.ReferenceIdeal.ReadP.val_main_v184]); (try rfl))
  · (simp only [ops3_p3]; read_results; (try simp only [h_main_arg0, h_main_arg1, h_main_v1, h_main_v13, h_main_v15, h_main_v166, h_main_v171, h_main_v176, h_main_v178, h_main_v20, h_main_v25, h_main_v27, h_main_v29, h_main_v31, h_main_v33, h_main_v35, TRef.ofBuf, TRef.toBuf, cast_eq]);
     (try simp only [Cert.ReferenceIdeal.ReadP.val_main_c_48, Cert.ReferenceIdeal.ReadP.val_main_v179, Cert.ReferenceIdeal.ReadP.val_main_v180, Cert.ReferenceIdeal.ReadP.val_main_v181, Cert.ReferenceIdeal.ReadP.val_main_v182, Cert.ReferenceIdeal.ReadP.val_main_v183, Cert.ReferenceIdeal.ReadP.val_main_v184]); (try rfl))
  · (simp only [ops3_p3]; read_results; (try simp only [h_main_arg0, h_main_arg1, h_main_v1, h_main_v13, h_main_v15, h_main_v166, h_main_v171, h_main_v176, h_main_v178, h_main_v20, h_main_v25, h_main_v27, h_main_v29, h_main_v31, h_main_v33, h_main_v35, TRef.ofBuf, TRef.toBuf, cast_eq]);
     (try simp only [Cert.ReferenceIdeal.ReadP.val_main_c_48, Cert.ReferenceIdeal.ReadP.val_main_v179, Cert.ReferenceIdeal.ReadP.val_main_v180, Cert.ReferenceIdeal.ReadP.val_main_v181, Cert.ReferenceIdeal.ReadP.val_main_v182, Cert.ReferenceIdeal.ReadP.val_main_v183, Cert.ReferenceIdeal.ReadP.val_main_v184]); (try rfl))
  · exact (after_of_writes_sub _ W ops3_p3_writes (by decide)).trans h_main_v20
  · exact (after_of_writes_sub _ W ops3_p3_writes (by decide)).trans h_main_v25
  · exact (after_of_writes_sub _ W ops3_p3_writes (by decide)).trans h_main_v27
  · exact (after_of_writes_sub _ W ops3_p3_writes (by decide)).trans h_main_v29
  · exact (after_of_writes_sub _ W ops3_p3_writes (by decide)).trans h_main_v31
  · exact (after_of_writes_sub _ W ops3_p3_writes (by decide)).trans h_main_v33
  · exact (after_of_writes_sub _ W ops3_p3_writes (by decide)).trans h_main_v35

/-- A piece of `ops3`. -/
abbrev ops3_p4 : List (HloOp τ sig (Elt F)) :=
  [ nary ![main_v182, main_v183, main_v184] main_v185 (fun u => concatenate S4x512x512x3 3 [⟨S4x512x512x1, u 0⟩, ⟨S4x512x512x1, u 1⟩, ⟨S4x512x512x1, u 2⟩] concatenates_S4x512x512x1_S4x512x512x1_S4x512x512x1_S4x512x512x3_d3) ]
abbrev wr_ops3_p4 : List (Ref sig .tc) := [main_v185]
set_option maxRecDepth 16384 in
set_option maxHeartbeats 40000000 in
theorem ops3_p4_writes : (ops3_p4 : List (HloOp τ sig (Elt F))).Forall fun op =>
    op.writes ⊆ (wr_ops3_p4.map (Proc.devRef (τ := τ) .tc)).toFinset :=
  by simp only [List.Forall]; exact writes_sub_of rfl (by decide)
set_option maxRecDepth 16384 in
set_option maxHeartbeats 40000000 in
theorem stage_ops3_p4 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v166 : W (Proc.devRef .tc main_v166) = Cert.ReferenceIdeal.ReadP.val_main_v166 (F := F) x2 x3)
    (h_main_v182 : W (Proc.devRef .tc main_v182) = Cert.ReferenceIdeal.ReadP.val_main_v182 (F := F) x2)
    (h_main_v183 : W (Proc.devRef .tc main_v183) = Cert.ReferenceIdeal.ReadP.val_main_v183 (F := F) x2)
    (h_main_v184 : W (Proc.devRef .tc main_v184) = Cert.ReferenceIdeal.ReadP.val_main_v184 (F := F) x2)
    (h_main_v20 : W (Proc.devRef .tc main_v20) = Cert.ReferenceIdeal.ReadP.val_main_v20 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    : (after ops3_p4 W (Proc.devRef .tc main_arg0) = x0)
      ∧ (after ops3_p4 W (Proc.devRef .tc main_arg1) = x1)
      ∧ (after ops3_p4 W (Proc.devRef .tc main_v1) = Cert.ReferenceIdeal.ReadP.val_main_v1 (F := F) x3)
      ∧ (after ops3_p4 W (Proc.devRef .tc main_v13) = Cert.ReferenceIdeal.ReadP.val_main_v13 (F := F) x2)
      ∧ (after ops3_p4 W (Proc.devRef .tc main_v15) = Cert.ReferenceIdeal.ReadP.val_main_v15 (F := F) x2)
      ∧ (after ops3_p4 W (Proc.devRef .tc main_v166) = Cert.ReferenceIdeal.ReadP.val_main_v166 (F := F) x2 x3)
      ∧ (after ops3_p4 W (Proc.devRef .tc main_v185) = Cert.ReferenceIdeal.ReadP.val_main_v185 (F := F) x2)
      ∧ (after ops3_p4 W (Proc.devRef .tc main_v20) = Cert.ReferenceIdeal.ReadP.val_main_v20 (F := F) x2)
      ∧ (after ops3_p4 W (Proc.devRef .tc main_v25) = Cert.ReferenceIdeal.ReadP.val_main_v25 (F := F) x2)
      ∧ (after ops3_p4 W (Proc.devRef .tc main_v27) = Cert.ReferenceIdeal.ReadP.val_main_v27 (F := F) x2)
      ∧ (after ops3_p4 W (Proc.devRef .tc main_v29) = Cert.ReferenceIdeal.ReadP.val_main_v29 (F := F) x2)
      ∧ (after ops3_p4 W (Proc.devRef .tc main_v31) = Cert.ReferenceIdeal.ReadP.val_main_v31 (F := F) x2)
      ∧ (after ops3_p4 W (Proc.devRef .tc main_v33) = Cert.ReferenceIdeal.ReadP.val_main_v33 (F := F) x2)
      ∧ (after ops3_p4 W (Proc.devRef .tc main_v35) = Cert.ReferenceIdeal.ReadP.val_main_v35 (F := F) x2) := by
  refine ⟨?_, ?_, ?_, ?_, ?_, ?_, ?_, ?_, ?_, ?_, ?_, ?_, ?_, ?_⟩
  · exact (after_of_writes_sub _ W ops3_p4_writes (by decide)).trans h_main_arg0
  · exact (after_of_writes_sub _ W ops3_p4_writes (by decide)).trans h_main_arg1
  · exact (after_of_writes_sub _ W ops3_p4_writes (by decide)).trans h_main_v1
  · exact (after_of_writes_sub _ W ops3_p4_writes (by decide)).trans h_main_v13
  · exact (after_of_writes_sub _ W ops3_p4_writes (by decide)).trans h_main_v15
  · exact (after_of_writes_sub _ W ops3_p4_writes (by decide)).trans h_main_v166
  · simp only [ops3_p4, after_cons, after_nil]
    rw [nary_result]
    show concatenate S4x512x512x3 3 [⟨S4x512x512x1, (W (Proc.devRef .tc main_v182))⟩, ⟨S4x512x512x1, (W (Proc.devRef .tc main_v183))⟩, ⟨S4x512x512x1, (W (Proc.devRef .tc main_v184))⟩] concatenates_S4x512x512x1_S4x512x512x1_S4x512x512x1_S4x512x512x3_d3 = _
    rw [h_main_v182, h_main_v183, h_main_v184]
    (try simp only [Cert.ReferenceIdeal.ReadP.val_main_v185])
    (try rfl)
  · exact (after_of_writes_sub _ W ops3_p4_writes (by decide)).trans h_main_v20
  · exact (after_of_writes_sub _ W ops3_p4_writes (by decide)).trans h_main_v25
  · exact (after_of_writes_sub _ W ops3_p4_writes (by decide)).trans h_main_v27
  · exact (after_of_writes_sub _ W ops3_p4_writes (by decide)).trans h_main_v29
  · exact (after_of_writes_sub _ W ops3_p4_writes (by decide)).trans h_main_v31
  · exact (after_of_writes_sub _ W ops3_p4_writes (by decide)).trans h_main_v33
  · exact (after_of_writes_sub _ W ops3_p4_writes (by decide)).trans h_main_v35

/-- A piece of `ops3`. -/
abbrev ops3_p5 : List (HloOp τ sig (Elt F)) :=
  [ binary main_v1 main_v185 main_v186 ((fun x i => Host.gather gather_S8x3x33x33x33_S4x512x512x3_S8x3x4x512x512_01_234_n_n_234_3_83111 x i) : (⟨S8x3x33x33x33, .f32⟩ : BufTy).Contents (Elt F) → (⟨S4x512x512x3, .i32⟩ : BufTy).Contents (Elt F) → (⟨S8x3x4x512x512, .f32⟩ : BufTy).Contents (Elt F)),
    binary main_v25 main_v35 main_v187 (mulf : (⟨S4x512x512, .f32⟩ : BufTy).Contents (Elt F) → (⟨S4x512x512, .f32⟩ : BufTy).Contents (Elt F) → (⟨S4x512x512, .f32⟩ : BufTy).Contents (Elt F)),
    binary main_v187 main_v15 main_v188 (mulf : (⟨S4x512x512, .f32⟩ : BufTy).Contents (Elt F) → (⟨S4x512x512, .f32⟩ : BufTy).Contents (Elt F) → (⟨S4x512x512, .f32⟩ : BufTy).Contents (Elt F)) ]
abbrev wr_ops3_p5 : List (Ref sig .tc) := [main_v186, main_v187, main_v188]
set_option maxRecDepth 16384 in
set_option maxHeartbeats 40000000 in
theorem ops3_p5_writes : (ops3_p5 : List (HloOp τ sig (Elt F))).Forall fun op =>
    op.writes ⊆ (wr_ops3_p5.map (Proc.devRef (τ := τ) .tc)).toFinset :=
  ⟨writes_sub_of rfl (by decide), writes_sub_of rfl (by decide), writes_sub_of rfl (by decide)⟩
set_option maxRecDepth 16384 in
set_option maxHeartbeats 40000000 in
theorem stage_ops3_p5 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v166 : W (Proc.devRef .tc main_v166) = Cert.ReferenceIdeal.ReadP.val_main_v166 (F := F) x2 x3)
    (h_main_v185 : W (Proc.devRef .tc main_v185) = Cert.ReferenceIdeal.ReadP.val_main_v185 (F := F) x2)
    (h_main_v20 : W (Proc.devRef .tc main_v20) = Cert.ReferenceIdeal.ReadP.val_main_v20 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    : (after ops3_p5 W (Proc.devRef .tc main_arg0) = x0)
      ∧ (after ops3_p5 W (Proc.devRef .tc main_arg1) = x1)
      ∧ (after ops3_p5 W (Proc.devRef .tc main_v1) = Cert.ReferenceIdeal.ReadP.val_main_v1 (F := F) x3)
      ∧ (after ops3_p5 W (Proc.devRef .tc main_v13) = Cert.ReferenceIdeal.ReadP.val_main_v13 (F := F) x2)
      ∧ (after ops3_p5 W (Proc.devRef .tc main_v15) = Cert.ReferenceIdeal.ReadP.val_main_v15 (F := F) x2)
      ∧ (after ops3_p5 W (Proc.devRef .tc main_v166) = Cert.ReferenceIdeal.ReadP.val_main_v166 (F := F) x2 x3)
      ∧ (after ops3_p5 W (Proc.devRef .tc main_v186) = Cert.ReferenceIdeal.ReadP.val_main_v186 (F := F) x2 x3)
      ∧ (after ops3_p5 W (Proc.devRef .tc main_v188) = Cert.ReferenceIdeal.ReadP.val_main_v188 (F := F) x2)
      ∧ (after ops3_p5 W (Proc.devRef .tc main_v20) = Cert.ReferenceIdeal.ReadP.val_main_v20 (F := F) x2)
      ∧ (after ops3_p5 W (Proc.devRef .tc main_v25) = Cert.ReferenceIdeal.ReadP.val_main_v25 (F := F) x2)
      ∧ (after ops3_p5 W (Proc.devRef .tc main_v27) = Cert.ReferenceIdeal.ReadP.val_main_v27 (F := F) x2)
      ∧ (after ops3_p5 W (Proc.devRef .tc main_v29) = Cert.ReferenceIdeal.ReadP.val_main_v29 (F := F) x2)
      ∧ (after ops3_p5 W (Proc.devRef .tc main_v31) = Cert.ReferenceIdeal.ReadP.val_main_v31 (F := F) x2)
      ∧ (after ops3_p5 W (Proc.devRef .tc main_v33) = Cert.ReferenceIdeal.ReadP.val_main_v33 (F := F) x2) := by
  refine ⟨?_, ?_, ?_, ?_, ?_, ?_, ?_, ?_, ?_, ?_, ?_, ?_, ?_, ?_⟩
  · exact (after_of_writes_sub _ W ops3_p5_writes (by decide)).trans h_main_arg0
  · exact (after_of_writes_sub _ W ops3_p5_writes (by decide)).trans h_main_arg1
  · exact (after_of_writes_sub _ W ops3_p5_writes (by decide)).trans h_main_v1
  · exact (after_of_writes_sub _ W ops3_p5_writes (by decide)).trans h_main_v13
  · exact (after_of_writes_sub _ W ops3_p5_writes (by decide)).trans h_main_v15
  · exact (after_of_writes_sub _ W ops3_p5_writes (by decide)).trans h_main_v166
  · (simp only [ops3_p5]; read_results; (try simp only [h_main_arg0, h_main_arg1, h_main_v1, h_main_v13, h_main_v15, h_main_v166, h_main_v185, h_main_v20, h_main_v25, h_main_v27, h_main_v29, h_main_v31, h_main_v33, h_main_v35, TRef.ofBuf, TRef.toBuf, cast_eq]);
     (try simp only [Cert.ReferenceIdeal.ReadP.val_main_v186, Cert.ReferenceIdeal.ReadP.val_main_v187, Cert.ReferenceIdeal.ReadP.val_main_v188]); (try rfl))
  · (simp only [ops3_p5]; read_results; (try simp only [h_main_arg0, h_main_arg1, h_main_v1, h_main_v13, h_main_v15, h_main_v166, h_main_v185, h_main_v20, h_main_v25, h_main_v27, h_main_v29, h_main_v31, h_main_v33, h_main_v35, TRef.ofBuf, TRef.toBuf, cast_eq]);
     (try simp only [Cert.ReferenceIdeal.ReadP.val_main_v186, Cert.ReferenceIdeal.ReadP.val_main_v187, Cert.ReferenceIdeal.ReadP.val_main_v188]); (try rfl))
  · exact (after_of_writes_sub _ W ops3_p5_writes (by decide)).trans h_main_v20
  · exact (after_of_writes_sub _ W ops3_p5_writes (by decide)).trans h_main_v25
  · exact (after_of_writes_sub _ W ops3_p5_writes (by decide)).trans h_main_v27
  · exact (after_of_writes_sub _ W ops3_p5_writes (by decide)).trans h_main_v29
  · exact (after_of_writes_sub _ W ops3_p5_writes (by decide)).trans h_main_v31
  · exact (after_of_writes_sub _ W ops3_p5_writes (by decide)).trans h_main_v33

/-- A piece of `ops4`. -/
abbrev ops4_p0 : List (HloOp τ sig (Elt F)) :=
  [ unary main_v188 main_v189 (broadcastInDim S1x1x4x512x512 ![2, 3, 4] bcast_S4x512x512_S1x1x4x512x512_2_3_4 : (⟨S4x512x512, .f32⟩ : BufTy).Contents (Elt F) → (⟨S1x1x4x512x512, .f32⟩ : BufTy).Contents (Elt F)),
    unary main_v189 main_v190 (broadcastInDim S8x3x4x512x512 ![0, 1, 2, 3, 4] bcast_S1x1x4x512x512_S8x3x4x512x512_0_1_2_3_4 : (⟨S1x1x4x512x512, .f32⟩ : BufTy).Contents (Elt F) → (⟨S8x3x4x512x512, .f32⟩ : BufTy).Contents (Elt F)),
    binary main_v186 main_v190 main_v191 (mulf : (⟨S8x3x4x512x512, .f32⟩ : BufTy).Contents (Elt F) → (⟨S8x3x4x512x512, .f32⟩ : BufTy).Contents (Elt F) → (⟨S8x3x4x512x512, .f32⟩ : BufTy).Contents (Elt F)),
    binary main_v166 main_v191 main_v192 (addf : (⟨S8x3x4x512x512, .f32⟩ : BufTy).Contents (Elt F) → (⟨S8x3x4x512x512, .f32⟩ : BufTy).Contents (Elt F) → (⟨S8x3x4x512x512, .f32⟩ : BufTy).Contents (Elt F)),
    nullary main_c_49 (constantI S_ 32 0#32),
    unary main_c_49 main_v193 (broadcastInDim S4x512x512 ![] bcast_S_S4x512x512 : (⟨S_, .i32⟩ : BufTy).Contents (Elt F) → (⟨S4x512x512, .i32⟩ : BufTy).Contents (Elt F)),
    binary main_v31 main_v193 main_v194 (cmpi .slt : (⟨S4x512x512, .i32⟩ : BufTy).Contents (Elt F) → (⟨S4x512x512, .i32⟩ : BufTy).Contents (Elt F) → (⟨S4x512x512, .i1⟩ : BufTy).Contents (Elt F)),
    nullary main_c_50 (constantI S_ 32 33#32),
    unary main_c_50 main_v195 (broadcastInDim S4x512x512 ![] bcast_S_S4x512x512 : (⟨S_, .i32⟩ : BufTy).Contents (Elt F) → (⟨S4x512x512, .i32⟩ : BufTy).Contents (Elt F)),
    binary main_v31 main_v195 main_v196 (addi : (⟨S4x512x512, .i32⟩ : BufTy).Contents (Elt F) → (⟨S4x512x512, .i32⟩ : BufTy).Contents (Elt F) → (⟨S4x512x512, .i32⟩ : BufTy).Contents (Elt F)),
    ternary main_v194 main_v196 main_v31 main_v197 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_51 (constantI S_ 32 0#32),
    unary main_c_51 main_v198 (broadcastInDim S4x512x512 ![] bcast_S_S4x512x512 : (⟨S_, .i32⟩ : BufTy).Contents (Elt F) → (⟨S4x512x512, .i32⟩ : BufTy).Contents (Elt F)),
    binary main_v29 main_v198 main_v199 (cmpi .slt : (⟨S4x512x512, .i32⟩ : BufTy).Contents (Elt F) → (⟨S4x512x512, .i32⟩ : BufTy).Contents (Elt F) → (⟨S4x512x512, .i1⟩ : BufTy).Contents (Elt F)),
    nullary main_c_52 (constantI S_ 32 33#32),
    unary main_c_52 main_v200 (broadcastInDim S4x512x512 ![] bcast_S_S4x512x512 : (⟨S_, .i32⟩ : BufTy).Contents (Elt F) → (⟨S4x512x512, .i32⟩ : BufTy).Contents (Elt F)),
    binary main_v29 main_v200 main_v201 (addi : (⟨S4x512x512, .i32⟩ : BufTy).Contents (Elt F) → (⟨S4x512x512, .i32⟩ : BufTy).Contents (Elt F) → (⟨S4x512x512, .i32⟩ : BufTy).Contents (Elt F)),
    ternary main_v199 main_v201 main_v29 main_v202 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_53 (constantI S_ 32 0#32),
    unary main_c_53 main_v203 (broadcastInDim S4x512x512 ![] bcast_S_S4x512x512 : (⟨S_, .i32⟩ : BufTy).Contents (Elt F) → (⟨S4x512x512, .i32⟩ : BufTy).Contents (Elt F)),
    binary main_v13 main_v203 main_v204 (cmpi .slt : (⟨S4x512x512, .i32⟩ : BufTy).Contents (Elt F) → (⟨S4x512x512, .i32⟩ : BufTy).Contents (Elt F) → (⟨S4x512x512, .i1⟩ : BufTy).Contents (Elt F)),
    nullary main_c_54 (constantI S_ 32 33#32),
    unary main_c_54 main_v205 (broadcastInDim S4x512x512 ![] bcast_S_S4x512x512 : (⟨S_, .i32⟩ : BufTy).Contents (Elt F) → (⟨S4x512x512, .i32⟩ : BufTy).Contents (Elt F)),
    binary main_v13 main_v205 main_v206 (addi : (⟨S4x512x512, .i32⟩ : BufTy).Contents (Elt F) → (⟨S4x512x512, .i32⟩ : BufTy).Contents (Elt F) → (⟨S4x512x512, .i32⟩ : BufTy).Contents (Elt F)) ]
abbrev wr_ops4_p0 : List (Ref sig .tc) := [main_v189, main_v190, main_v191, main_v192, main_c_49, main_v193, main_v194, main_c_50, main_v195, main_v196, main_v197, main_c_51, main_v198, main_v199, main_c_52, main_v200, main_v201, main_v202, main_c_53, main_v203, main_v204, main_c_54, main_v205, main_v206]
set_option maxRecDepth 16384 in
set_option maxHeartbeats 40000000 in
theorem ops4_p0_writes : (ops4_p0 : List (HloOp τ sig (Elt F))).Forall fun op =>
    op.writes ⊆ (wr_ops4_p0.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_ops4_p0 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v166 : W (Proc.devRef .tc main_v166) = Cert.ReferenceIdeal.ReadP.val_main_v166 (F := F) x2 x3)
    (h_main_v186 : W (Proc.devRef .tc main_v186) = Cert.ReferenceIdeal.ReadP.val_main_v186 (F := F) x2 x3)
    (h_main_v188 : W (Proc.devRef .tc main_v188) = Cert.ReferenceIdeal.ReadP.val_main_v188 (F := F) x2)
    (h_main_v20 : W (Proc.devRef .tc main_v20) = Cert.ReferenceIdeal.ReadP.val_main_v20 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    : (after ops4_p0 W (Proc.devRef .tc main_arg0) = x0)
      ∧ (after ops4_p0 W (Proc.devRef .tc main_arg1) = x1)
      ∧ (after ops4_p0 W (Proc.devRef .tc main_v1) = Cert.ReferenceIdeal.ReadP.val_main_v1 (F := F) x3)
      ∧ (after ops4_p0 W (Proc.devRef .tc main_v13) = Cert.ReferenceIdeal.ReadP.val_main_v13 (F := F) x2)
      ∧ (after ops4_p0 W (Proc.devRef .tc main_v15) = Cert.ReferenceIdeal.ReadP.val_main_v15 (F := F) x2)
      ∧ (after ops4_p0 W (Proc.devRef .tc main_v192) = Cert.ReferenceIdeal.ReadP.val_main_v192 (F := F) x2 x3)
      ∧ (after ops4_p0 W (Proc.devRef .tc main_v197) = Cert.ReferenceIdeal.ReadP.val_main_v197 (F := F) x2)
      ∧ (after ops4_p0 W (Proc.devRef .tc main_v20) = Cert.ReferenceIdeal.ReadP.val_main_v20 (F := F) x2)
      ∧ (after ops4_p0 W (Proc.devRef .tc main_v202) = Cert.ReferenceIdeal.ReadP.val_main_v202 (F := F) x2)
      ∧ (after ops4_p0 W (Proc.devRef .tc main_v204) = Cert.ReferenceIdeal.ReadP.val_main_v204 (F := F) x2)
      ∧ (after ops4_p0 W (Proc.devRef .tc main_v206) = Cert.ReferenceIdeal.ReadP.val_main_v206 (F := F) x2)
      ∧ (after ops4_p0 W (Proc.devRef .tc main_v25) = Cert.ReferenceIdeal.ReadP.val_main_v25 (F := F) x2)
      ∧ (after ops4_p0 W (Proc.devRef .tc main_v27) = Cert.ReferenceIdeal.ReadP.val_main_v27 (F := F) x2)
      ∧ (after ops4_p0 W (Proc.devRef .tc main_v29) = Cert.ReferenceIdeal.ReadP.val_main_v29 (F := F) x2)
      ∧ (after ops4_p0 W (Proc.devRef .tc main_v31) = Cert.ReferenceIdeal.ReadP.val_main_v31 (F := F) x2)
      ∧ (after ops4_p0 W (Proc.devRef .tc main_v33) = Cert.ReferenceIdeal.ReadP.val_main_v33 (F := F) x2) := by
  refine ⟨?_, ?_, ?_, ?_, ?_, ?_, ?_, ?_, ?_, ?_, ?_, ?_, ?_, ?_, ?_, ?_⟩
  · exact (after_of_writes_sub _ W ops4_p0_writes (by decide)).trans h_main_arg0
  · exact (after_of_writes_sub _ W ops4_p0_writes (by decide)).trans h_main_arg1
  · exact (after_of_writes_sub _ W ops4_p0_writes (by decide)).trans h_main_v1
  · exact (after_of_writes_sub _ W ops4_p0_writes (by decide)).trans h_main_v13
  · exact (after_of_writes_sub _ W ops4_p0_writes (by decide)).trans h_main_v15
  · (simp only [ops4_p0]; read_results; (try simp only [h_main_arg0, h_main_arg1, h_main_v1, h_main_v13, h_main_v15, h_main_v166, h_main_v186, h_main_v188, h_main_v20, h_main_v25, h_main_v27, h_main_v29, h_main_v31, h_main_v33, TRef.ofBuf, TRef.toBuf, cast_eq]);
     (try simp only [Cert.ReferenceIdeal.ReadP.val_main_v189, Cert.ReferenceIdeal.ReadP.val_main_v190, Cert.ReferenceIdeal.ReadP.val_main_v191, Cert.ReferenceIdeal.ReadP.val_main_v192, Cert.ReferenceIdeal.ReadP.val_main_c_49, Cert.ReferenceIdeal.ReadP.val_main_v193, Cert.ReferenceIdeal.ReadP.val_main_v194, Cert.ReferenceIdeal.ReadP.val_main_c_50, Cert.ReferenceIdeal.ReadP.val_main_v195, Cert.ReferenceIdeal.ReadP.val_main_v196, Cert.ReferenceIdeal.ReadP.val_main_v197, Cert.ReferenceIdeal.ReadP.val_main_c_51, Cert.ReferenceIdeal.ReadP.val_main_v198, Cert.ReferenceIdeal.ReadP.val_main_v199, Cert.ReferenceIdeal.ReadP.val_main_c_52, Cert.ReferenceIdeal.ReadP.val_main_v200, Cert.ReferenceIdeal.ReadP.val_main_v201, Cert.ReferenceIdeal.ReadP.val_main_v202, Cert.ReferenceIdeal.ReadP.val_main_c_53, Cert.ReferenceIdeal.ReadP.val_main_v203, Cert.ReferenceIdeal.ReadP.val_main_v204, Cert.ReferenceIdeal.ReadP.val_main_c_54, Cert.ReferenceIdeal.ReadP.val_main_v205, Cert.ReferenceIdeal.ReadP.val_main_v206]); (try rfl))
  · (simp only [ops4_p0]; read_results; (try simp only [h_main_arg0, h_main_arg1, h_main_v1, h_main_v13, h_main_v15, h_main_v166, h_main_v186, h_main_v188, h_main_v20, h_main_v25, h_main_v27, h_main_v29, h_main_v31, h_main_v33, TRef.ofBuf, TRef.toBuf, cast_eq]);
     (try simp only [Cert.ReferenceIdeal.ReadP.val_main_v189, Cert.ReferenceIdeal.ReadP.val_main_v190, Cert.ReferenceIdeal.ReadP.val_main_v191, Cert.ReferenceIdeal.ReadP.val_main_v192, Cert.ReferenceIdeal.ReadP.val_main_c_49, Cert.ReferenceIdeal.ReadP.val_main_v193, Cert.ReferenceIdeal.ReadP.val_main_v194, Cert.ReferenceIdeal.ReadP.val_main_c_50, Cert.ReferenceIdeal.ReadP.val_main_v195, Cert.ReferenceIdeal.ReadP.val_main_v196, Cert.ReferenceIdeal.ReadP.val_main_v197, Cert.ReferenceIdeal.ReadP.val_main_c_51, Cert.ReferenceIdeal.ReadP.val_main_v198, Cert.ReferenceIdeal.ReadP.val_main_v199, Cert.ReferenceIdeal.ReadP.val_main_c_52, Cert.ReferenceIdeal.ReadP.val_main_v200, Cert.ReferenceIdeal.ReadP.val_main_v201, Cert.ReferenceIdeal.ReadP.val_main_v202, Cert.ReferenceIdeal.ReadP.val_main_c_53, Cert.ReferenceIdeal.ReadP.val_main_v203, Cert.ReferenceIdeal.ReadP.val_main_v204, Cert.ReferenceIdeal.ReadP.val_main_c_54, Cert.ReferenceIdeal.ReadP.val_main_v205, Cert.ReferenceIdeal.ReadP.val_main_v206]); (try rfl))
  · exact (after_of_writes_sub _ W ops4_p0_writes (by decide)).trans h_main_v20
  · (simp only [ops4_p0]; read_results; (try simp only [h_main_arg0, h_main_arg1, h_main_v1, h_main_v13, h_main_v15, h_main_v166, h_main_v186, h_main_v188, h_main_v20, h_main_v25, h_main_v27, h_main_v29, h_main_v31, h_main_v33, TRef.ofBuf, TRef.toBuf, cast_eq]);
     (try simp only [Cert.ReferenceIdeal.ReadP.val_main_v189, Cert.ReferenceIdeal.ReadP.val_main_v190, Cert.ReferenceIdeal.ReadP.val_main_v191, Cert.ReferenceIdeal.ReadP.val_main_v192, Cert.ReferenceIdeal.ReadP.val_main_c_49, Cert.ReferenceIdeal.ReadP.val_main_v193, Cert.ReferenceIdeal.ReadP.val_main_v194, Cert.ReferenceIdeal.ReadP.val_main_c_50, Cert.ReferenceIdeal.ReadP.val_main_v195, Cert.ReferenceIdeal.ReadP.val_main_v196, Cert.ReferenceIdeal.ReadP.val_main_v197, Cert.ReferenceIdeal.ReadP.val_main_c_51, Cert.ReferenceIdeal.ReadP.val_main_v198, Cert.ReferenceIdeal.ReadP.val_main_v199, Cert.ReferenceIdeal.ReadP.val_main_c_52, Cert.ReferenceIdeal.ReadP.val_main_v200, Cert.ReferenceIdeal.ReadP.val_main_v201, Cert.ReferenceIdeal.ReadP.val_main_v202, Cert.ReferenceIdeal.ReadP.val_main_c_53, Cert.ReferenceIdeal.ReadP.val_main_v203, Cert.ReferenceIdeal.ReadP.val_main_v204, Cert.ReferenceIdeal.ReadP.val_main_c_54, Cert.ReferenceIdeal.ReadP.val_main_v205, Cert.ReferenceIdeal.ReadP.val_main_v206]); (try rfl))
  · (simp only [ops4_p0]; read_results; (try simp only [h_main_arg0, h_main_arg1, h_main_v1, h_main_v13, h_main_v15, h_main_v166, h_main_v186, h_main_v188, h_main_v20, h_main_v25, h_main_v27, h_main_v29, h_main_v31, h_main_v33, TRef.ofBuf, TRef.toBuf, cast_eq]);
     (try simp only [Cert.ReferenceIdeal.ReadP.val_main_v189, Cert.ReferenceIdeal.ReadP.val_main_v190, Cert.ReferenceIdeal.ReadP.val_main_v191, Cert.ReferenceIdeal.ReadP.val_main_v192, Cert.ReferenceIdeal.ReadP.val_main_c_49, Cert.ReferenceIdeal.ReadP.val_main_v193, Cert.ReferenceIdeal.ReadP.val_main_v194, Cert.ReferenceIdeal.ReadP.val_main_c_50, Cert.ReferenceIdeal.ReadP.val_main_v195, Cert.ReferenceIdeal.ReadP.val_main_v196, Cert.ReferenceIdeal.ReadP.val_main_v197, Cert.ReferenceIdeal.ReadP.val_main_c_51, Cert.ReferenceIdeal.ReadP.val_main_v198, Cert.ReferenceIdeal.ReadP.val_main_v199, Cert.ReferenceIdeal.ReadP.val_main_c_52, Cert.ReferenceIdeal.ReadP.val_main_v200, Cert.ReferenceIdeal.ReadP.val_main_v201, Cert.ReferenceIdeal.ReadP.val_main_v202, Cert.ReferenceIdeal.ReadP.val_main_c_53, Cert.ReferenceIdeal.ReadP.val_main_v203, Cert.ReferenceIdeal.ReadP.val_main_v204, Cert.ReferenceIdeal.ReadP.val_main_c_54, Cert.ReferenceIdeal.ReadP.val_main_v205, Cert.ReferenceIdeal.ReadP.val_main_v206]); (try rfl))
  · (simp only [ops4_p0]; read_results; (try simp only [h_main_arg0, h_main_arg1, h_main_v1, h_main_v13, h_main_v15, h_main_v166, h_main_v186, h_main_v188, h_main_v20, h_main_v25, h_main_v27, h_main_v29, h_main_v31, h_main_v33, TRef.ofBuf, TRef.toBuf, cast_eq]);
     (try simp only [Cert.ReferenceIdeal.ReadP.val_main_v189, Cert.ReferenceIdeal.ReadP.val_main_v190, Cert.ReferenceIdeal.ReadP.val_main_v191, Cert.ReferenceIdeal.ReadP.val_main_v192, Cert.ReferenceIdeal.ReadP.val_main_c_49, Cert.ReferenceIdeal.ReadP.val_main_v193, Cert.ReferenceIdeal.ReadP.val_main_v194, Cert.ReferenceIdeal.ReadP.val_main_c_50, Cert.ReferenceIdeal.ReadP.val_main_v195, Cert.ReferenceIdeal.ReadP.val_main_v196, Cert.ReferenceIdeal.ReadP.val_main_v197, Cert.ReferenceIdeal.ReadP.val_main_c_51, Cert.ReferenceIdeal.ReadP.val_main_v198, Cert.ReferenceIdeal.ReadP.val_main_v199, Cert.ReferenceIdeal.ReadP.val_main_c_52, Cert.ReferenceIdeal.ReadP.val_main_v200, Cert.ReferenceIdeal.ReadP.val_main_v201, Cert.ReferenceIdeal.ReadP.val_main_v202, Cert.ReferenceIdeal.ReadP.val_main_c_53, Cert.ReferenceIdeal.ReadP.val_main_v203, Cert.ReferenceIdeal.ReadP.val_main_v204, Cert.ReferenceIdeal.ReadP.val_main_c_54, Cert.ReferenceIdeal.ReadP.val_main_v205, Cert.ReferenceIdeal.ReadP.val_main_v206]); (try rfl))
  · exact (after_of_writes_sub _ W ops4_p0_writes (by decide)).trans h_main_v25
  · exact (after_of_writes_sub _ W ops4_p0_writes (by decide)).trans h_main_v27
  · exact (after_of_writes_sub _ W ops4_p0_writes (by decide)).trans h_main_v29
  · exact (after_of_writes_sub _ W ops4_p0_writes (by decide)).trans h_main_v31
  · exact (after_of_writes_sub _ W ops4_p0_writes (by decide)).trans h_main_v33

/-- A piece of `ops4`. -/
abbrev ops4_p1 : List (HloOp τ sig (Elt F)) :=
  [ ternary main_v204 main_v206 main_v13 main_v207 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    unary main_v197 main_v208 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v202 main_v209 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v207 main_v210 (broadcastInDim S4x512x512x1 ![0, 1, 2] bcast_S4x512x512_S4x512x512x1_0_1_2 : (⟨S4x512x512, .i32⟩ : BufTy).Contents (Elt F) → (⟨S4x512x512x1, .i32⟩ : BufTy).Contents (Elt F)) ]
abbrev wr_ops4_p1 : List (Ref sig .tc) := [main_v207, main_v208, main_v209, main_v210]
set_option maxRecDepth 16384 in
set_option maxHeartbeats 40000000 in
theorem ops4_p1_writes : (ops4_p1 : List (HloOp τ sig (Elt F))).Forall fun op =>
    op.writes ⊆ (wr_ops4_p1.map (Proc.devRef (τ := τ) .tc)).toFinset :=
  ⟨writes_sub_of rfl (by decide), writes_sub_of rfl (by decide), writes_sub_of rfl (by decide), writes_sub_of rfl (by decide)⟩
set_option maxRecDepth 16384 in
set_option maxHeartbeats 40000000 in
theorem stage_ops4_p1 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v192 : W (Proc.devRef .tc main_v192) = Cert.ReferenceIdeal.ReadP.val_main_v192 (F := F) x2 x3)
    (h_main_v197 : W (Proc.devRef .tc main_v197) = Cert.ReferenceIdeal.ReadP.val_main_v197 (F := F) x2)
    (h_main_v20 : W (Proc.devRef .tc main_v20) = Cert.ReferenceIdeal.ReadP.val_main_v20 (F := F) x2)
    (h_main_v202 : W (Proc.devRef .tc main_v202) = Cert.ReferenceIdeal.ReadP.val_main_v202 (F := F) x2)
    (h_main_v204 : W (Proc.devRef .tc main_v204) = Cert.ReferenceIdeal.ReadP.val_main_v204 (F := F) x2)
    (h_main_v206 : W (Proc.devRef .tc main_v206) = Cert.ReferenceIdeal.ReadP.val_main_v206 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    : (after ops4_p1 W (Proc.devRef .tc main_arg0) = x0)
      ∧ (after ops4_p1 W (Proc.devRef .tc main_arg1) = x1)
      ∧ (after ops4_p1 W (Proc.devRef .tc main_v1) = Cert.ReferenceIdeal.ReadP.val_main_v1 (F := F) x3)
      ∧ (after ops4_p1 W (Proc.devRef .tc main_v15) = Cert.ReferenceIdeal.ReadP.val_main_v15 (F := F) x2)
      ∧ (after ops4_p1 W (Proc.devRef .tc main_v192) = Cert.ReferenceIdeal.ReadP.val_main_v192 (F := F) x2 x3)
      ∧ (after ops4_p1 W (Proc.devRef .tc main_v20) = Cert.ReferenceIdeal.ReadP.val_main_v20 (F := F) x2)
      ∧ (after ops4_p1 W (Proc.devRef .tc main_v208) = Cert.ReferenceIdeal.ReadP.val_main_v208 (F := F) x2)
      ∧ (after ops4_p1 W (Proc.devRef .tc main_v209) = Cert.ReferenceIdeal.ReadP.val_main_v209 (F := F) x2)
      ∧ (after ops4_p1 W (Proc.devRef .tc main_v210) = Cert.ReferenceIdeal.ReadP.val_main_v210 (F := F) x2)
      ∧ (after ops4_p1 W (Proc.devRef .tc main_v25) = Cert.ReferenceIdeal.ReadP.val_main_v25 (F := F) x2)
      ∧ (after ops4_p1 W (Proc.devRef .tc main_v27) = Cert.ReferenceIdeal.ReadP.val_main_v27 (F := F) x2)
      ∧ (after ops4_p1 W (Proc.devRef .tc main_v29) = Cert.ReferenceIdeal.ReadP.val_main_v29 (F := F) x2)
      ∧ (after ops4_p1 W (Proc.devRef .tc main_v31) = Cert.ReferenceIdeal.ReadP.val_main_v31 (F := F) x2)
      ∧ (after ops4_p1 W (Proc.devRef .tc main_v33) = Cert.ReferenceIdeal.ReadP.val_main_v33 (F := F) x2) := by
  refine ⟨?_, ?_, ?_, ?_, ?_, ?_, ?_, ?_, ?_, ?_, ?_, ?_, ?_, ?_⟩
  · exact (after_of_writes_sub _ W ops4_p1_writes (by decide)).trans h_main_arg0
  · exact (after_of_writes_sub _ W ops4_p1_writes (by decide)).trans h_main_arg1
  · exact (after_of_writes_sub _ W ops4_p1_writes (by decide)).trans h_main_v1
  · exact (after_of_writes_sub _ W ops4_p1_writes (by decide)).trans h_main_v15
  · exact (after_of_writes_sub _ W ops4_p1_writes (by decide)).trans h_main_v192
  · exact (after_of_writes_sub _ W ops4_p1_writes (by decide)).trans h_main_v20
  · (simp only [ops4_p1]; read_results; (try simp only [h_main_arg0, h_main_arg1, h_main_v1, h_main_v13, h_main_v15, h_main_v192, h_main_v197, h_main_v20, h_main_v202, h_main_v204, h_main_v206, h_main_v25, h_main_v27, h_main_v29, h_main_v31, h_main_v33, TRef.ofBuf, TRef.toBuf, cast_eq]);
     (try simp only [Cert.ReferenceIdeal.ReadP.val_main_v207, Cert.ReferenceIdeal.ReadP.val_main_v208, Cert.ReferenceIdeal.ReadP.val_main_v209, Cert.ReferenceIdeal.ReadP.val_main_v210]); (try rfl))
  · (simp only [ops4_p1]; read_results; (try simp only [h_main_arg0, h_main_arg1, h_main_v1, h_main_v13, h_main_v15, h_main_v192, h_main_v197, h_main_v20, h_main_v202, h_main_v204, h_main_v206, h_main_v25, h_main_v27, h_main_v29, h_main_v31, h_main_v33, TRef.ofBuf, TRef.toBuf, cast_eq]);
     (try simp only [Cert.ReferenceIdeal.ReadP.val_main_v207, Cert.ReferenceIdeal.ReadP.val_main_v208, Cert.ReferenceIdeal.ReadP.val_main_v209, Cert.ReferenceIdeal.ReadP.val_main_v210]); (try rfl))
  · (simp only [ops4_p1]; read_results; (try simp only [h_main_arg0, h_main_arg1, h_main_v1, h_main_v13, h_main_v15, h_main_v192, h_main_v197, h_main_v20, h_main_v202, h_main_v204, h_main_v206, h_main_v25, h_main_v27, h_main_v29, h_main_v31, h_main_v33, TRef.ofBuf, TRef.toBuf, cast_eq]);
     (try simp only [Cert.ReferenceIdeal.ReadP.val_main_v207, Cert.ReferenceIdeal.ReadP.val_main_v208, Cert.ReferenceIdeal.ReadP.val_main_v209, Cert.ReferenceIdeal.ReadP.val_main_v210]); (try rfl))
  · exact (after_of_writes_sub _ W ops4_p1_writes (by decide)).trans h_main_v25
  · exact (after_of_writes_sub _ W ops4_p1_writes (by decide)).trans h_main_v27
  · exact (after_of_writes_sub _ W ops4_p1_writes (by decide)).trans h_main_v29
  · exact (after_of_writes_sub _ W ops4_p1_writes (by decide)).trans h_main_v31
  · exact (after_of_writes_sub _ W ops4_p1_writes (by decide)).trans h_main_v33

/-- A piece of `ops4`. -/
abbrev ops4_p2 : List (HloOp τ sig (Elt F)) :=
  [ nary ![main_v208, main_v209, main_v210] main_v211 (fun u => concatenate S4x512x512x3 3 [⟨S4x512x512x1, u 0⟩, ⟨S4x512x512x1, u 1⟩, ⟨S4x512x512x1, u 2⟩] concatenates_S4x512x512x1_S4x512x512x1_S4x512x512x1_S4x512x512x3_d3) ]
abbrev wr_ops4_p2 : List (Ref sig .tc) := [main_v211]
set_option maxRecDepth 16384 in
set_option maxHeartbeats 40000000 in
theorem ops4_p2_writes : (ops4_p2 : List (HloOp τ sig (Elt F))).Forall fun op =>
    op.writes ⊆ (wr_ops4_p2.map (Proc.devRef (τ := τ) .tc)).toFinset :=
  by simp only [List.Forall]; exact writes_sub_of rfl (by decide)
set_option maxRecDepth 16384 in
set_option maxHeartbeats 40000000 in
theorem stage_ops4_p2 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_v1 : W (Proc.devRef .tc main_v1) = Cert.ReferenceIdeal.ReadP.val_main_v1 (F := F) x3)
    (h_main_v15 : W (Proc.devRef .tc main_v15) = Cert.ReferenceIdeal.ReadP.val_main_v15 (F := F) x2)
    (h_main_v192 : W (Proc.devRef .tc main_v192) = Cert.ReferenceIdeal.ReadP.val_main_v192 (F := F) x2 x3)
    (h_main_v20 : W (Proc.devRef .tc main_v20) = Cert.ReferenceIdeal.ReadP.val_main_v20 (F := F) x2)
    (h_main_v208 : W (Proc.devRef .tc main_v208) = Cert.ReferenceIdeal.ReadP.val_main_v208 (F := F) x2)
    (h_main_v209 : W (Proc.devRef .tc main_v209) = Cert.ReferenceIdeal.ReadP.val_main_v209 (F := F) x2)
    (h_main_v210 : W (Proc.devRef .tc main_v210) = Cert.ReferenceIdeal.ReadP.val_main_v210 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    : (after ops4_p2 W (Proc.devRef .tc main_arg0) = x0)
      ∧ (after ops4_p2 W (Proc.devRef .tc main_arg1) = x1)
      ∧ (after ops4_p2 W (Proc.devRef .tc main_v1) = Cert.ReferenceIdeal.ReadP.val_main_v1 (F := F) x3)
      ∧ (after ops4_p2 W (Proc.devRef .tc main_v15) = Cert.ReferenceIdeal.ReadP.val_main_v15 (F := F) x2)
      ∧ (after ops4_p2 W (Proc.devRef .tc main_v192) = Cert.ReferenceIdeal.ReadP.val_main_v192 (F := F) x2 x3)
      ∧ (after ops4_p2 W (Proc.devRef .tc main_v20) = Cert.ReferenceIdeal.ReadP.val_main_v20 (F := F) x2)
      ∧ (after ops4_p2 W (Proc.devRef .tc main_v211) = Cert.ReferenceIdeal.ReadP.val_main_v211 (F := F) x2)
      ∧ (after ops4_p2 W (Proc.devRef .tc main_v25) = Cert.ReferenceIdeal.ReadP.val_main_v25 (F := F) x2)
      ∧ (after ops4_p2 W (Proc.devRef .tc main_v27) = Cert.ReferenceIdeal.ReadP.val_main_v27 (F := F) x2)
      ∧ (after ops4_p2 W (Proc.devRef .tc main_v29) = Cert.ReferenceIdeal.ReadP.val_main_v29 (F := F) x2)
      ∧ (after ops4_p2 W (Proc.devRef .tc main_v31) = Cert.ReferenceIdeal.ReadP.val_main_v31 (F := F) x2)
      ∧ (after ops4_p2 W (Proc.devRef .tc main_v33) = Cert.ReferenceIdeal.ReadP.val_main_v33 (F := F) x2) := by
  refine ⟨?_, ?_, ?_, ?_, ?_, ?_, ?_, ?_, ?_, ?_, ?_, ?_⟩
  · exact (after_of_writes_sub _ W ops4_p2_writes (by decide)).trans h_main_arg0
  · exact (after_of_writes_sub _ W ops4_p2_writes (by decide)).trans h_main_arg1
  · exact (after_of_writes_sub _ W ops4_p2_writes (by decide)).trans h_main_v1
  · exact (after_of_writes_sub _ W ops4_p2_writes (by decide)).trans h_main_v15
  · exact (after_of_writes_sub _ W ops4_p2_writes (by decide)).trans h_main_v192
  · exact (after_of_writes_sub _ W ops4_p2_writes (by decide)).trans h_main_v20
  · simp only [ops4_p2, after_cons, after_nil]
    rw [nary_result]
    show concatenate S4x512x512x3 3 [⟨S4x512x512x1, (W (Proc.devRef .tc main_v208))⟩, ⟨S4x512x512x1, (W (Proc.devRef .tc main_v209))⟩, ⟨S4x512x512x1, (W (Proc.devRef .tc main_v210))⟩] concatenates_S4x512x512x1_S4x512x512x1_S4x512x512x1_S4x512x512x3_d3 = _
    rw [h_main_v208, h_main_v209, h_main_v210]
    (try simp only [Cert.ReferenceIdeal.ReadP.val_main_v211])
    (try rfl)
  · exact (after_of_writes_sub _ W ops4_p2_writes (by decide)).trans h_main_v25
  · exact (after_of_writes_sub _ W ops4_p2_writes (by decide)).trans h_main_v27
  · exact (after_of_writes_sub _ W ops4_p2_writes (by decide)).trans h_main_v29
  · exact (after_of_writes_sub _ W ops4_p2_writes (by decide)).trans h_main_v31
  · exact (after_of_writes_sub _ W ops4_p2_writes (by decide)).trans h_main_v33

/-- A piece of `ops4`. -/
abbrev ops4_p3 : List (HloOp τ sig (Elt F)) :=
  [ binary main_v1 main_v211 main_v212 ((fun x i => Host.gather gather_S8x3x33x33x33_S4x512x512x3_S8x3x4x512x512_01_234_n_n_234_3_83111 x i) : (⟨S8x3x33x33x33, .f32⟩ : BufTy).Contents (Elt F) → (⟨S4x512x512x3, .i32⟩ : BufTy).Contents (Elt F) → (⟨S8x3x4x512x512, .f32⟩ : BufTy).Contents (Elt F)),
    binary main_v25 main_v20 main_v213 (mulf : (⟨S4x512x512, .f32⟩ : BufTy).Contents (Elt F) → (⟨S4x512x512, .f32⟩ : BufTy).Contents (Elt F) → (⟨S4x512x512, .f32⟩ : BufTy).Contents (Elt F)),
    binary main_v213 main_v33 main_v214 (mulf : (⟨S4x512x512, .f32⟩ : BufTy).Contents (Elt F) → (⟨S4x512x512, .f32⟩ : BufTy).Contents (Elt F) → (⟨S4x512x512, .f32⟩ : BufTy).Contents (Elt F)),
    unary main_v214 main_v215 (broadcastInDim S1x1x4x512x512 ![2, 3, 4] bcast_S4x512x512_S1x1x4x512x512_2_3_4 : (⟨S4x512x512, .f32⟩ : BufTy).Contents (Elt F) → (⟨S1x1x4x512x512, .f32⟩ : BufTy).Contents (Elt F)),
    unary main_v215 main_v216 (broadcastInDim S8x3x4x512x512 ![0, 1, 2, 3, 4] bcast_S1x1x4x512x512_S8x3x4x512x512_0_1_2_3_4 : (⟨S1x1x4x512x512, .f32⟩ : BufTy).Contents (Elt F) → (⟨S8x3x4x512x512, .f32⟩ : BufTy).Contents (Elt F)),
    binary main_v212 main_v216 main_v217 (mulf : (⟨S8x3x4x512x512, .f32⟩ : BufTy).Contents (Elt F) → (⟨S8x3x4x512x512, .f32⟩ : BufTy).Contents (Elt F) → (⟨S8x3x4x512x512, .f32⟩ : BufTy).Contents (Elt F)),
    binary main_v192 main_v217 main_v218 (addf : (⟨S8x3x4x512x512, .f32⟩ : BufTy).Contents (Elt F) → (⟨S8x3x4x512x512, .f32⟩ : BufTy).Contents (Elt F) → (⟨S8x3x4x512x512, .f32⟩ : BufTy).Contents (Elt F)),
    nullary main_c_55 (constantI S_ 32 0#32),
    unary main_c_55 main_v219 (broadcastInDim S4x512x512 ![] bcast_S_S4x512x512 : (⟨S_, .i32⟩ : BufTy).Contents (Elt F) → (⟨S4x512x512, .i32⟩ : BufTy).Contents (Elt F)),
    binary main_v31 main_v219 main_v220 (cmpi .slt : (⟨S4x512x512, .i32⟩ : BufTy).Contents (Elt F) → (⟨S4x512x512, .i32⟩ : BufTy).Contents (Elt F) → (⟨S4x512x512, .i1⟩ : BufTy).Contents (Elt F)),
    nullary main_c_56 (constantI S_ 32 33#32),
    unary main_c_56 main_v221 (broadcastInDim S4x512x512 ![] bcast_S_S4x512x512 : (⟨S_, .i32⟩ : BufTy).Contents (Elt F) → (⟨S4x512x512, .i32⟩ : BufTy).Contents (Elt F)),
    binary main_v31 main_v221 main_v222 (addi : (⟨S4x512x512, .i32⟩ : BufTy).Contents (Elt F) → (⟨S4x512x512, .i32⟩ : BufTy).Contents (Elt F) → (⟨S4x512x512, .i32⟩ : BufTy).Contents (Elt F)),
    ternary main_v220 main_v222 main_v31 main_v223 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_57 (constantI S_ 32 0#32),
    unary main_c_57 main_v224 (broadcastInDim S4x512x512 ![] bcast_S_S4x512x512 : (⟨S_, .i32⟩ : BufTy).Contents (Elt F) → (⟨S4x512x512, .i32⟩ : BufTy).Contents (Elt F)),
    binary main_v29 main_v224 main_v225 (cmpi .slt : (⟨S4x512x512, .i32⟩ : BufTy).Contents (Elt F) → (⟨S4x512x512, .i32⟩ : BufTy).Contents (Elt F) → (⟨S4x512x512, .i1⟩ : BufTy).Contents (Elt F)),
    nullary main_c_58 (constantI S_ 32 33#32),
    unary main_c_58 main_v226 (broadcastInDim S4x512x512 ![] bcast_S_S4x512x512 : (⟨S_, .i32⟩ : BufTy).Contents (Elt F) → (⟨S4x512x512, .i32⟩ : BufTy).Contents (Elt F)),
    binary main_v29 main_v226 main_v227 (addi : (⟨S4x512x512, .i32⟩ : BufTy).Contents (Elt F) → (⟨S4x512x512, .i32⟩ : BufTy).Contents (Elt F) → (⟨S4x512x512, .i32⟩ : BufTy).Contents (Elt F)),
    ternary main_v225 main_v227 main_v29 main_v228 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_59 (constantI S_ 32 0#32),
    unary main_c_59 main_v229 (broadcastInDim S4x512x512 ![] bcast_S_S4x512x512 : (⟨S_, .i32⟩ : BufTy).Contents (Elt F) → (⟨S4x512x512, .i32⟩ : BufTy).Contents (Elt F)),
    binary main_v27 main_v229 main_v230 (cmpi .slt : (⟨S4x512x512, .i32⟩ : BufTy).Contents (Elt F) → (⟨S4x512x512, .i32⟩ : BufTy).Contents (Elt F) → (⟨S4x512x512, .i1⟩ : BufTy).Contents (Elt F)) ]
abbrev wr_ops4_p3 : List (Ref sig .tc) := [main_v212, main_v213, main_v214, main_v215, main_v216, main_v217, main_v218, main_c_55, main_v219, main_v220, main_c_56, main_v221, main_v222, main_v223, main_c_57, main_v224, main_v225, main_c_58, main_v226, main_v227, main_v228, main_c_59, main_v229, main_v230]
set_option maxRecDepth 16384 in
set_option maxHeartbeats 40000000 in
theorem ops4_p3_writes : (ops4_p3 : List (HloOp τ sig (Elt F))).Forall fun op =>
    op.writes ⊆ (wr_ops4_p3.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_ops4_p3 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_v1 : W (Proc.devRef .tc main_v1) = Cert.ReferenceIdeal.ReadP.val_main_v1 (F := F) x3)
    (h_main_v15 : W (Proc.devRef .tc main_v15) = Cert.ReferenceIdeal.ReadP.val_main_v15 (F := F) x2)
    (h_main_v192 : W (Proc.devRef .tc main_v192) = Cert.ReferenceIdeal.ReadP.val_main_v192 (F := F) x2 x3)
    (h_main_v20 : W (Proc.devRef .tc main_v20) = Cert.ReferenceIdeal.ReadP.val_main_v20 (F := F) x2)
    (h_main_v211 : W (Proc.devRef .tc main_v211) = Cert.ReferenceIdeal.ReadP.val_main_v211 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    : (after ops4_p3 W (Proc.devRef .tc main_arg0) = x0)
      ∧ (after ops4_p3 W (Proc.devRef .tc main_arg1) = x1)
      ∧ (after ops4_p3 W (Proc.devRef .tc main_v1) = Cert.ReferenceIdeal.ReadP.val_main_v1 (F := F) x3)
      ∧ (after ops4_p3 W (Proc.devRef .tc main_v15) = Cert.ReferenceIdeal.ReadP.val_main_v15 (F := F) x2)
      ∧ (after ops4_p3 W (Proc.devRef .tc main_v20) = Cert.ReferenceIdeal.ReadP.val_main_v20 (F := F) x2)
      ∧ (after ops4_p3 W (Proc.devRef .tc main_v218) = Cert.ReferenceIdeal.ReadP.val_main_v218 (F := F) x2 x3)
      ∧ (after ops4_p3 W (Proc.devRef .tc main_v223) = Cert.ReferenceIdeal.ReadP.val_main_v223 (F := F) x2)
      ∧ (after ops4_p3 W (Proc.devRef .tc main_v228) = Cert.ReferenceIdeal.ReadP.val_main_v228 (F := F) x2)
      ∧ (after ops4_p3 W (Proc.devRef .tc main_v230) = Cert.ReferenceIdeal.ReadP.val_main_v230 (F := F) x2)
      ∧ (after ops4_p3 W (Proc.devRef .tc main_v25) = Cert.ReferenceIdeal.ReadP.val_main_v25 (F := F) x2)
      ∧ (after ops4_p3 W (Proc.devRef .tc main_v27) = Cert.ReferenceIdeal.ReadP.val_main_v27 (F := F) x2) := by
  refine ⟨?_, ?_, ?_, ?_, ?_, ?_, ?_, ?_, ?_, ?_, ?_⟩
  · exact (after_of_writes_sub _ W ops4_p3_writes (by decide)).trans h_main_arg0
  · exact (after_of_writes_sub _ W ops4_p3_writes (by decide)).trans h_main_arg1
  · exact (after_of_writes_sub _ W ops4_p3_writes (by decide)).trans h_main_v1
  · exact (after_of_writes_sub _ W ops4_p3_writes (by decide)).trans h_main_v15
  · exact (after_of_writes_sub _ W ops4_p3_writes (by decide)).trans h_main_v20
  · (simp only [ops4_p3]; read_results; (try simp only [h_main_arg0, h_main_arg1, h_main_v1, h_main_v15, h_main_v192, h_main_v20, h_main_v211, h_main_v25, h_main_v27, h_main_v29, h_main_v31, h_main_v33, TRef.ofBuf, TRef.toBuf, cast_eq]);
     (try simp only [Cert.ReferenceIdeal.ReadP.val_main_v212, Cert.ReferenceIdeal.ReadP.val_main_v213, Cert.ReferenceIdeal.ReadP.val_main_v214, Cert.ReferenceIdeal.ReadP.val_main_v215, Cert.ReferenceIdeal.ReadP.val_main_v216, Cert.ReferenceIdeal.ReadP.val_main_v217, Cert.ReferenceIdeal.ReadP.val_main_v218, Cert.ReferenceIdeal.ReadP.val_main_c_55, Cert.ReferenceIdeal.ReadP.val_main_v219, Cert.ReferenceIdeal.ReadP.val_main_v220, Cert.ReferenceIdeal.ReadP.val_main_c_56, Cert.ReferenceIdeal.ReadP.val_main_v221, Cert.ReferenceIdeal.ReadP.val_main_v222, Cert.ReferenceIdeal.ReadP.val_main_v223, Cert.ReferenceIdeal.ReadP.val_main_c_57, Cert.ReferenceIdeal.ReadP.val_main_v224, Cert.ReferenceIdeal.ReadP.val_main_v225, Cert.ReferenceIdeal.ReadP.val_main_c_58, Cert.ReferenceIdeal.ReadP.val_main_v226, Cert.ReferenceIdeal.ReadP.val_main_v227, Cert.ReferenceIdeal.ReadP.val_main_v228, Cert.ReferenceIdeal.ReadP.val_main_c_59, Cert.ReferenceIdeal.ReadP.val_main_v229, Cert.ReferenceIdeal.ReadP.val_main_v230]); (try rfl))
  · (simp only [ops4_p3]; read_results; (try simp only [h_main_arg0, h_main_arg1, h_main_v1, h_main_v15, h_main_v192, h_main_v20, h_main_v211, h_main_v25, h_main_v27, h_main_v29, h_main_v31, h_main_v33, TRef.ofBuf, TRef.toBuf, cast_eq]);
     (try simp only [Cert.ReferenceIdeal.ReadP.val_main_v212, Cert.ReferenceIdeal.ReadP.val_main_v213, Cert.ReferenceIdeal.ReadP.val_main_v214, Cert.ReferenceIdeal.ReadP.val_main_v215, Cert.ReferenceIdeal.ReadP.val_main_v216, Cert.ReferenceIdeal.ReadP.val_main_v217, Cert.ReferenceIdeal.ReadP.val_main_v218, Cert.ReferenceIdeal.ReadP.val_main_c_55, Cert.ReferenceIdeal.ReadP.val_main_v219, Cert.ReferenceIdeal.ReadP.val_main_v220, Cert.ReferenceIdeal.ReadP.val_main_c_56, Cert.ReferenceIdeal.ReadP.val_main_v221, Cert.ReferenceIdeal.ReadP.val_main_v222, Cert.ReferenceIdeal.ReadP.val_main_v223, Cert.ReferenceIdeal.ReadP.val_main_c_57, Cert.ReferenceIdeal.ReadP.val_main_v224, Cert.ReferenceIdeal.ReadP.val_main_v225, Cert.ReferenceIdeal.ReadP.val_main_c_58, Cert.ReferenceIdeal.ReadP.val_main_v226, Cert.ReferenceIdeal.ReadP.val_main_v227, Cert.ReferenceIdeal.ReadP.val_main_v228, Cert.ReferenceIdeal.ReadP.val_main_c_59, Cert.ReferenceIdeal.ReadP.val_main_v229, Cert.ReferenceIdeal.ReadP.val_main_v230]); (try rfl))
  · (simp only [ops4_p3]; read_results; (try simp only [h_main_arg0, h_main_arg1, h_main_v1, h_main_v15, h_main_v192, h_main_v20, h_main_v211, h_main_v25, h_main_v27, h_main_v29, h_main_v31, h_main_v33, TRef.ofBuf, TRef.toBuf, cast_eq]);
     (try simp only [Cert.ReferenceIdeal.ReadP.val_main_v212, Cert.ReferenceIdeal.ReadP.val_main_v213, Cert.ReferenceIdeal.ReadP.val_main_v214, Cert.ReferenceIdeal.ReadP.val_main_v215, Cert.ReferenceIdeal.ReadP.val_main_v216, Cert.ReferenceIdeal.ReadP.val_main_v217, Cert.ReferenceIdeal.ReadP.val_main_v218, Cert.ReferenceIdeal.ReadP.val_main_c_55, Cert.ReferenceIdeal.ReadP.val_main_v219, Cert.ReferenceIdeal.ReadP.val_main_v220, Cert.ReferenceIdeal.ReadP.val_main_c_56, Cert.ReferenceIdeal.ReadP.val_main_v221, Cert.ReferenceIdeal.ReadP.val_main_v222, Cert.ReferenceIdeal.ReadP.val_main_v223, Cert.ReferenceIdeal.ReadP.val_main_c_57, Cert.ReferenceIdeal.ReadP.val_main_v224, Cert.ReferenceIdeal.ReadP.val_main_v225, Cert.ReferenceIdeal.ReadP.val_main_c_58, Cert.ReferenceIdeal.ReadP.val_main_v226, Cert.ReferenceIdeal.ReadP.val_main_v227, Cert.ReferenceIdeal.ReadP.val_main_v228, Cert.ReferenceIdeal.ReadP.val_main_c_59, Cert.ReferenceIdeal.ReadP.val_main_v229, Cert.ReferenceIdeal.ReadP.val_main_v230]); (try rfl))
  · (simp only [ops4_p3]; read_results; (try simp only [h_main_arg0, h_main_arg1, h_main_v1, h_main_v15, h_main_v192, h_main_v20, h_main_v211, h_main_v25, h_main_v27, h_main_v29, h_main_v31, h_main_v33, TRef.ofBuf, TRef.toBuf, cast_eq]);
     (try simp only [Cert.ReferenceIdeal.ReadP.val_main_v212, Cert.ReferenceIdeal.ReadP.val_main_v213, Cert.ReferenceIdeal.ReadP.val_main_v214, Cert.ReferenceIdeal.ReadP.val_main_v215, Cert.ReferenceIdeal.ReadP.val_main_v216, Cert.ReferenceIdeal.ReadP.val_main_v217, Cert.ReferenceIdeal.ReadP.val_main_v218, Cert.ReferenceIdeal.ReadP.val_main_c_55, Cert.ReferenceIdeal.ReadP.val_main_v219, Cert.ReferenceIdeal.ReadP.val_main_v220, Cert.ReferenceIdeal.ReadP.val_main_c_56, Cert.ReferenceIdeal.ReadP.val_main_v221, Cert.ReferenceIdeal.ReadP.val_main_v222, Cert.ReferenceIdeal.ReadP.val_main_v223, Cert.ReferenceIdeal.ReadP.val_main_c_57, Cert.ReferenceIdeal.ReadP.val_main_v224, Cert.ReferenceIdeal.ReadP.val_main_v225, Cert.ReferenceIdeal.ReadP.val_main_c_58, Cert.ReferenceIdeal.ReadP.val_main_v226, Cert.ReferenceIdeal.ReadP.val_main_v227, Cert.ReferenceIdeal.ReadP.val_main_v228, Cert.ReferenceIdeal.ReadP.val_main_c_59, Cert.ReferenceIdeal.ReadP.val_main_v229, Cert.ReferenceIdeal.ReadP.val_main_v230]); (try rfl))
  · exact (after_of_writes_sub _ W ops4_p3_writes (by decide)).trans h_main_v25
  · exact (after_of_writes_sub _ W ops4_p3_writes (by decide)).trans h_main_v27

/-- A piece of `ops4`. -/
abbrev ops4_p4 : List (HloOp τ sig (Elt F)) :=
  [ nullary main_c_60 (constantI S_ 32 33#32),
    unary main_c_60 main_v231 (broadcastInDim S4x512x512 ![] bcast_S_S4x512x512 : (⟨S_, .i32⟩ : BufTy).Contents (Elt F) → (⟨S4x512x512, .i32⟩ : BufTy).Contents (Elt F)),
    binary main_v27 main_v231 main_v232 (addi : (⟨S4x512x512, .i32⟩ : BufTy).Contents (Elt F) → (⟨S4x512x512, .i32⟩ : BufTy).Contents (Elt F) → (⟨S4x512x512, .i32⟩ : BufTy).Contents (Elt F)),
    ternary main_v230 main_v232 main_v27 main_v233 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    unary main_v223 main_v234 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v228 main_v235 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v233 main_v236 (broadcastInDim S4x512x512x1 ![0, 1, 2] bcast_S4x512x512_S4x512x512x1_0_1_2 : (⟨S4x512x512, .i32⟩ : BufTy).Contents (Elt F) → (⟨S4x512x512x1, .i32⟩ : BufTy).Contents (Elt F)) ]
abbrev wr_ops4_p4 : List (Ref sig .tc) := [main_c_60, main_v231, main_v232, main_v233, main_v234, main_v235, main_v236]
set_option maxRecDepth 16384 in
set_option maxHeartbeats 40000000 in
theorem ops4_p4_writes : (ops4_p4 : List (HloOp τ sig (Elt F))).Forall fun op =>
    op.writes ⊆ (wr_ops4_p4.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_ops4_p4 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_v1 : W (Proc.devRef .tc main_v1) = Cert.ReferenceIdeal.ReadP.val_main_v1 (F := F) x3)
    (h_main_v15 : W (Proc.devRef .tc main_v15) = Cert.ReferenceIdeal.ReadP.val_main_v15 (F := F) x2)
    (h_main_v20 : W (Proc.devRef .tc main_v20) = Cert.ReferenceIdeal.ReadP.val_main_v20 (F := F) x2)
    (h_main_v218 : W (Proc.devRef .tc main_v218) = Cert.ReferenceIdeal.ReadP.val_main_v218 (F := F) x2 x3)
    (h_main_v223 : W (Proc.devRef .tc main_v223) = Cert.ReferenceIdeal.ReadP.val_main_v223 (F := F) x2)
    (h_main_v228 : W (Proc.devRef .tc main_v228) = Cert.ReferenceIdeal.ReadP.val_main_v228 (F := F) x2)
    (h_main_v230 : W (Proc.devRef .tc main_v230) = Cert.ReferenceIdeal.ReadP.val_main_v230 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    : (after ops4_p4 W (Proc.devRef .tc main_arg0) = x0)
      ∧ (after ops4_p4 W (Proc.devRef .tc main_arg1) = x1)
      ∧ (after ops4_p4 W (Proc.devRef .tc main_v1) = Cert.ReferenceIdeal.ReadP.val_main_v1 (F := F) x3)
      ∧ (after ops4_p4 W (Proc.devRef .tc main_v15) = Cert.ReferenceIdeal.ReadP.val_main_v15 (F := F) x2)
      ∧ (after ops4_p4 W (Proc.devRef .tc main_v20) = Cert.ReferenceIdeal.ReadP.val_main_v20 (F := F) x2)
      ∧ (after ops4_p4 W (Proc.devRef .tc main_v218) = Cert.ReferenceIdeal.ReadP.val_main_v218 (F := F) x2 x3)
      ∧ (after ops4_p4 W (Proc.devRef .tc main_v234) = Cert.ReferenceIdeal.ReadP.val_main_v234 (F := F) x2)
      ∧ (after ops4_p4 W (Proc.devRef .tc main_v235) = Cert.ReferenceIdeal.ReadP.val_main_v235 (F := F) x2)
      ∧ (after ops4_p4 W (Proc.devRef .tc main_v236) = Cert.ReferenceIdeal.ReadP.val_main_v236 (F := F) x2)
      ∧ (after ops4_p4 W (Proc.devRef .tc main_v25) = Cert.ReferenceIdeal.ReadP.val_main_v25 (F := F) x2) := by
  refine ⟨?_, ?_, ?_, ?_, ?_, ?_, ?_, ?_, ?_, ?_⟩
  · exact (after_of_writes_sub _ W ops4_p4_writes (by decide)).trans h_main_arg0
  · exact (after_of_writes_sub _ W ops4_p4_writes (by decide)).trans h_main_arg1
  · exact (after_of_writes_sub _ W ops4_p4_writes (by decide)).trans h_main_v1
  · exact (after_of_writes_sub _ W ops4_p4_writes (by decide)).trans h_main_v15
  · exact (after_of_writes_sub _ W ops4_p4_writes (by decide)).trans h_main_v20
  · exact (after_of_writes_sub _ W ops4_p4_writes (by decide)).trans h_main_v218
  · (simp only [ops4_p4]; read_results; (try simp only [h_main_arg0, h_main_arg1, h_main_v1, h_main_v15, h_main_v20, h_main_v218, h_main_v223, h_main_v228, h_main_v230, h_main_v25, h_main_v27, TRef.ofBuf, TRef.toBuf, cast_eq]);
     (try simp only [Cert.ReferenceIdeal.ReadP.val_main_c_60, Cert.ReferenceIdeal.ReadP.val_main_v231, Cert.ReferenceIdeal.ReadP.val_main_v232, Cert.ReferenceIdeal.ReadP.val_main_v233, Cert.ReferenceIdeal.ReadP.val_main_v234, Cert.ReferenceIdeal.ReadP.val_main_v235, Cert.ReferenceIdeal.ReadP.val_main_v236]); (try rfl))
  · (simp only [ops4_p4]; read_results; (try simp only [h_main_arg0, h_main_arg1, h_main_v1, h_main_v15, h_main_v20, h_main_v218, h_main_v223, h_main_v228, h_main_v230, h_main_v25, h_main_v27, TRef.ofBuf, TRef.toBuf, cast_eq]);
     (try simp only [Cert.ReferenceIdeal.ReadP.val_main_c_60, Cert.ReferenceIdeal.ReadP.val_main_v231, Cert.ReferenceIdeal.ReadP.val_main_v232, Cert.ReferenceIdeal.ReadP.val_main_v233, Cert.ReferenceIdeal.ReadP.val_main_v234, Cert.ReferenceIdeal.ReadP.val_main_v235, Cert.ReferenceIdeal.ReadP.val_main_v236]); (try rfl))
  · (simp only [ops4_p4]; read_results; (try simp only [h_main_arg0, h_main_arg1, h_main_v1, h_main_v15, h_main_v20, h_main_v218, h_main_v223, h_main_v228, h_main_v230, h_main_v25, h_main_v27, TRef.ofBuf, TRef.toBuf, cast_eq]);
     (try simp only [Cert.ReferenceIdeal.ReadP.val_main_c_60, Cert.ReferenceIdeal.ReadP.val_main_v231, Cert.ReferenceIdeal.ReadP.val_main_v232, Cert.ReferenceIdeal.ReadP.val_main_v233, Cert.ReferenceIdeal.ReadP.val_main_v234, Cert.ReferenceIdeal.ReadP.val_main_v235, Cert.ReferenceIdeal.ReadP.val_main_v236]); (try rfl))
  · exact (after_of_writes_sub _ W ops4_p4_writes (by decide)).trans h_main_v25

/-- A piece of `ops5`. -/
abbrev ops5_p0 : List (HloOp τ sig (Elt F)) :=
  [ nary ![main_v234, main_v235, main_v236] main_v237 (fun u => concatenate S4x512x512x3 3 [⟨S4x512x512x1, u 0⟩, ⟨S4x512x512x1, u 1⟩, ⟨S4x512x512x1, u 2⟩] concatenates_S4x512x512x1_S4x512x512x1_S4x512x512x1_S4x512x512x3_d3) ]
abbrev wr_ops5_p0 : List (Ref sig .tc) := [main_v237]
set_option maxRecDepth 16384 in
set_option maxHeartbeats 40000000 in
theorem ops5_p0_writes : (ops5_p0 : List (HloOp τ sig (Elt F))).Forall fun op =>
    op.writes ⊆ (wr_ops5_p0.map (Proc.devRef (τ := τ) .tc)).toFinset :=
  by simp only [List.Forall]; exact writes_sub_of rfl (by decide)
set_option maxRecDepth 16384 in
set_option maxHeartbeats 40000000 in
theorem stage_ops5_p0 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_v1 : W (Proc.devRef .tc main_v1) = Cert.ReferenceIdeal.ReadP.val_main_v1 (F := F) x3)
    (h_main_v15 : W (Proc.devRef .tc main_v15) = Cert.ReferenceIdeal.ReadP.val_main_v15 (F := F) x2)
    (h_main_v20 : W (Proc.devRef .tc main_v20) = Cert.ReferenceIdeal.ReadP.val_main_v20 (F := F) x2)
    (h_main_v218 : W (Proc.devRef .tc main_v218) = Cert.ReferenceIdeal.ReadP.val_main_v218 (F := F) x2 x3)
    (h_main_v234 : W (Proc.devRef .tc main_v234) = Cert.ReferenceIdeal.ReadP.val_main_v234 (F := F) x2)
    (h_main_v235 : W (Proc.devRef .tc main_v235) = Cert.ReferenceIdeal.ReadP.val_main_v235 (F := F) x2)
    (h_main_v236 : W (Proc.devRef .tc main_v236) = Cert.ReferenceIdeal.ReadP.val_main_v236 (F := F) x2)
    (h_main_v25 : W (Proc.devRef .tc main_v25) = Cert.ReferenceIdeal.ReadP.val_main_v25 (F := F) x2)
    : (after ops5_p0 W (Proc.devRef .tc main_arg0) = x0)
      ∧ (after ops5_p0 W (Proc.devRef .tc main_arg1) = x1)
      ∧ (after ops5_p0 W (Proc.devRef .tc main_v1) = Cert.ReferenceIdeal.ReadP.val_main_v1 (F := F) x3)
      ∧ (after ops5_p0 W (Proc.devRef .tc main_v15) = Cert.ReferenceIdeal.ReadP.val_main_v15 (F := F) x2)
      ∧ (after ops5_p0 W (Proc.devRef .tc main_v20) = Cert.ReferenceIdeal.ReadP.val_main_v20 (F := F) x2)
      ∧ (after ops5_p0 W (Proc.devRef .tc main_v218) = Cert.ReferenceIdeal.ReadP.val_main_v218 (F := F) x2 x3)
      ∧ (after ops5_p0 W (Proc.devRef .tc main_v237) = Cert.ReferenceIdeal.ReadP.val_main_v237 (F := F) x2)
      ∧ (after ops5_p0 W (Proc.devRef .tc main_v25) = Cert.ReferenceIdeal.ReadP.val_main_v25 (F := F) x2) := by
  refine ⟨?_, ?_, ?_, ?_, ?_, ?_, ?_, ?_⟩
  · exact (after_of_writes_sub _ W ops5_p0_writes (by decide)).trans h_main_arg0
  · exact (after_of_writes_sub _ W ops5_p0_writes (by decide)).trans h_main_arg1
  · exact (after_of_writes_sub _ W ops5_p0_writes (by decide)).trans h_main_v1
  · exact (after_of_writes_sub _ W ops5_p0_writes (by decide)).trans h_main_v15
  · exact (after_of_writes_sub _ W ops5_p0_writes (by decide)).trans h_main_v20
  · exact (after_of_writes_sub _ W ops5_p0_writes (by decide)).trans h_main_v218
  · simp only [ops5_p0, after_cons, after_nil]
    rw [nary_result]
    show concatenate S4x512x512x3 3 [⟨S4x512x512x1, (W (Proc.devRef .tc main_v234))⟩, ⟨S4x512x512x1, (W (Proc.devRef .tc main_v235))⟩, ⟨S4x512x512x1, (W (Proc.devRef .tc main_v236))⟩] concatenates_S4x512x512x1_S4x512x512x1_S4x512x512x1_S4x512x512x3_d3 = _
    rw [h_main_v234, h_main_v235, h_main_v236]
    (try simp only [Cert.ReferenceIdeal.ReadP.val_main_v237])
    (try rfl)
  · exact (after_of_writes_sub _ W ops5_p0_writes (by decide)).trans h_main_v25

/-- A piece of `ops5`. -/
abbrev ops5_p1 : List (HloOp τ sig (Elt F)) :=
  [ binary main_v1 main_v237 main_v238 ((fun x i => Host.gather gather_S8x3x33x33x33_S4x512x512x3_S8x3x4x512x512_01_234_n_n_234_3_83111 x i) : (⟨S8x3x33x33x33, .f32⟩ : BufTy).Contents (Elt F) → (⟨S4x512x512x3, .i32⟩ : BufTy).Contents (Elt F) → (⟨S8x3x4x512x512, .f32⟩ : BufTy).Contents (Elt F)),
    binary main_v25 main_v20 main_v239 (mulf : (⟨S4x512x512, .f32⟩ : BufTy).Contents (Elt F) → (⟨S4x512x512, .f32⟩ : BufTy).Contents (Elt F) → (⟨S4x512x512, .f32⟩ : BufTy).Contents (Elt F)),
    binary main_v239 main_v15 main_v240 (mulf : (⟨S4x512x512, .f32⟩ : BufTy).Contents (Elt F) → (⟨S4x512x512, .f32⟩ : BufTy).Contents (Elt F) → (⟨S4x512x512, .f32⟩ : BufTy).Contents (Elt F)),
    unary main_v240 main_v241 (broadcastInDim S1x1x4x512x512 ![2, 3, 4] bcast_S4x512x512_S1x1x4x512x512_2_3_4 : (⟨S4x512x512, .f32⟩ : BufTy).Contents (Elt F) → (⟨S1x1x4x512x512, .f32⟩ : BufTy).Contents (Elt F)),
    unary main_v241 main_v242 (broadcastInDim S8x3x4x512x512 ![0, 1, 2, 3, 4] bcast_S1x1x4x512x512_S8x3x4x512x512_0_1_2_3_4 : (⟨S1x1x4x512x512, .f32⟩ : BufTy).Contents (Elt F) → (⟨S8x3x4x512x512, .f32⟩ : BufTy).Contents (Elt F)),
    binary main_v238 main_v242 main_v243 (mulf : (⟨S8x3x4x512x512, .f32⟩ : BufTy).Contents (Elt F) → (⟨S8x3x4x512x512, .f32⟩ : BufTy).Contents (Elt F) → (⟨S8x3x4x512x512, .f32⟩ : BufTy).Contents (Elt F)),
    binary main_v218 main_v243 main_v244 (addf : (⟨S8x3x4x512x512, .f32⟩ : BufTy).Contents (Elt F) → (⟨S8x3x4x512x512, .f32⟩ : BufTy).Contents (Elt F) → (⟨S8x3x4x512x512, .f32⟩ : BufTy).Contents (Elt F)),
    unary main_v244 main_v245 ((transpose S4x8x3x512x512 [2, 0, 1, 3, 4] · transposes_S8x3x4x512x512_S4x8x3x512x512_2_0_1_3_4) : (⟨S8x3x4x512x512, .f32⟩ : BufTy).Contents (Elt F) → (⟨S4x8x3x512x512, .f32⟩ : BufTy).Contents (Elt F)),
    binary main_arg0 main_arg1 main_v246 (mulf : (⟨S4x8x512x512, .f32⟩ : BufTy).Contents (Elt F) → (⟨S4x8x512x512, .f32⟩ : BufTy).Contents (Elt F) → (⟨S4x8x512x512, .f32⟩ : BufTy).Contents (Elt F)),
    unary main_v246 main_v247 (broadcastInDim S4x8x1x512x512 ![0, 1, 3, 4] bcast_S4x8x512x512_S4x8x1x512x512_0_1_3_4 : (⟨S4x8x512x512, .f32⟩ : BufTy).Contents (Elt F) → (⟨S4x8x1x512x512, .f32⟩ : BufTy).Contents (Elt F)),
    unary main_v247 main_v248 (broadcastInDim S4x8x3x512x512 ![0, 1, 2, 3, 4] bcast_S4x8x1x512x512_S4x8x3x512x512_0_1_2_3_4 : (⟨S4x8x1x512x512, .f32⟩ : BufTy).Contents (Elt F) → (⟨S4x8x3x512x512, .f32⟩ : BufTy).Contents (Elt F)),
    binary main_v248 main_v245 main_v249 (mulf : (⟨S4x8x3x512x512, .f32⟩ : BufTy).Contents (Elt F) → (⟨S4x8x3x512x512, .f32⟩ : BufTy).Contents (Elt F) → (⟨S4x8x3x512x512, .f32⟩ : BufTy).Contents (Elt F)),
    nullary main_cst_61 (constant S_ .f32 0x00000000#32),
    binary main_v249 main_cst_61 main_v250 ((fun x v => Host.reduceAdd x v reducesTo_S4x8x3x512x512_S4x3x512x512_d1 h_S_) : (⟨S4x8x3x512x512, .f32⟩ : BufTy).Contents (Elt F) → (⟨S_, .f32⟩ : BufTy).Contents (Elt F) → (⟨S4x3x512x512, .f32⟩ : BufTy).Contents (Elt F)) ]
abbrev wr_ops5_p1 : List (Ref sig .tc) := [main_v238, main_v239, main_v240, main_v241, main_v242, main_v243, main_v244, main_v245, main_v246, main_v247, main_v248, main_v249, main_cst_61, main_v250]
set_option maxRecDepth 16384 in
set_option maxHeartbeats 40000000 in
theorem ops5_p1_writes : (ops5_p1 : List (HloOp τ sig (Elt F))).Forall fun op =>
    op.writes ⊆ (wr_ops5_p1.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
set_option maxRecDepth 16384 in
set_option maxHeartbeats 40000000 in
theorem stage_ops5_p1 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_v1 : W (Proc.devRef .tc main_v1) = Cert.ReferenceIdeal.ReadP.val_main_v1 (F := F) x3)
    (h_main_v15 : W (Proc.devRef .tc main_v15) = Cert.ReferenceIdeal.ReadP.val_main_v15 (F := F) x2)
    (h_main_v20 : W (Proc.devRef .tc main_v20) = Cert.ReferenceIdeal.ReadP.val_main_v20 (F := F) x2)
    (h_main_v218 : W (Proc.devRef .tc main_v218) = Cert.ReferenceIdeal.ReadP.val_main_v218 (F := F) x2 x3)
    (h_main_v237 : W (Proc.devRef .tc main_v237) = Cert.ReferenceIdeal.ReadP.val_main_v237 (F := F) x2)
    (h_main_v25 : W (Proc.devRef .tc main_v25) = Cert.ReferenceIdeal.ReadP.val_main_v25 (F := F) x2)
    : (after ops5_p1 W (Proc.devRef .tc main_v250) = Cert.ReferenceIdeal.ReadP.val_main_v250 (F := F) x0 x1 x2 x3) := by
  · (simp only [ops5_p1]; read_results; (try simp only [h_main_arg0, h_main_arg1, h_main_v1, h_main_v15, h_main_v20, h_main_v218, h_main_v237, h_main_v25, TRef.ofBuf, TRef.toBuf, cast_eq]);
     (try simp only [Cert.ReferenceIdeal.ReadP.val_main_v238, Cert.ReferenceIdeal.ReadP.val_main_v239, Cert.ReferenceIdeal.ReadP.val_main_v240, Cert.ReferenceIdeal.ReadP.val_main_v241, Cert.ReferenceIdeal.ReadP.val_main_v242, Cert.ReferenceIdeal.ReadP.val_main_v243, Cert.ReferenceIdeal.ReadP.val_main_v244, Cert.ReferenceIdeal.ReadP.val_main_v245, Cert.ReferenceIdeal.ReadP.val_main_v246, Cert.ReferenceIdeal.ReadP.val_main_v247, Cert.ReferenceIdeal.ReadP.val_main_v248, Cert.ReferenceIdeal.ReadP.val_main_v249, Cert.ReferenceIdeal.ReadP.val_main_cst_61, Cert.ReferenceIdeal.ReadP.val_main_v250]); (try rfl))

set_option maxRecDepth 16384 in
set_option maxHeartbeats 40000000 in
/-- `ops0` is its pieces one after the other. -/
theorem ops0_split : (ops0 : List (HloOp τ sig (Elt F))) = ops0_p0 ++ (ops0_p1 ++ (ops0_p2 ++ (ops0_p3))) := by rfl
set_option maxRecDepth 16384 in
set_option maxHeartbeats 40000000 in
/-- After `ops0`: 16 buffers are still read later. -/
theorem stage_ops0 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    : (after ops0 W (Proc.devRef .tc main_arg0) = x0)
      ∧ (after ops0 W (Proc.devRef .tc main_arg1) = x1)
      ∧ (after ops0 W (Proc.devRef .tc main_v1) = Cert.ReferenceIdeal.ReadP.val_main_v1 (F := F) x3)
      ∧ (after ops0 W (Proc.devRef .tc main_v13) = Cert.ReferenceIdeal.ReadP.val_main_v13 (F := F) x2)
      ∧ (after ops0 W (Proc.devRef .tc main_v15) = Cert.ReferenceIdeal.ReadP.val_main_v15 (F := F) x2)
      ∧ (after ops0 W (Proc.devRef .tc main_v18) = Cert.ReferenceIdeal.ReadP.val_main_v18 (F := F) x2)
      ∧ (after ops0 W (Proc.devRef .tc main_v20) = Cert.ReferenceIdeal.ReadP.val_main_v20 (F := F) x2)
      ∧ (after ops0 W (Proc.devRef .tc main_v23) = Cert.ReferenceIdeal.ReadP.val_main_v23 (F := F) x2)
      ∧ (after ops0 W (Proc.devRef .tc main_v25) = Cert.ReferenceIdeal.ReadP.val_main_v25 (F := F) x2)
      ∧ (after ops0 W (Proc.devRef .tc main_v27) = Cert.ReferenceIdeal.ReadP.val_main_v27 (F := F) x2)
      ∧ (after ops0 W (Proc.devRef .tc main_v29) = Cert.ReferenceIdeal.ReadP.val_main_v29 (F := F) x2)
      ∧ (after ops0 W (Proc.devRef .tc main_v31) = Cert.ReferenceIdeal.ReadP.val_main_v31 (F := F) x2)
      ∧ (after ops0 W (Proc.devRef .tc main_v33) = Cert.ReferenceIdeal.ReadP.val_main_v33 (F := F) x2)
      ∧ (after ops0 W (Proc.devRef .tc main_v35) = Cert.ReferenceIdeal.ReadP.val_main_v35 (F := F) x2)
      ∧ (after ops0 W (Proc.devRef .tc main_v37) = Cert.ReferenceIdeal.ReadP.val_main_v37 (F := F) x2)
      ∧ (after ops0 W (Proc.devRef .tc main_v42) = Cert.ReferenceIdeal.ReadP.val_main_v42 (F := F) x2) := by
  rw [ops0_split]
  try simp only [StableHlo.after_append]
  obtain ⟨k0_main_arg0, k0_main_arg1, k0_main_c_2, k0_main_call1_v0, k0_main_v1, k0_main_v10, k0_main_v12, k0_main_v6, k0_main_v8⟩ := stage_ops0_p0 W x0 x1 x2 x3 h_main_arg0 h_main_arg1 h_main_arg2 h_main_arg3
  obtain ⟨k1_main_arg0, k1_main_arg1, k1_main_c_6, k1_main_call3_v0, k1_main_v1, k1_main_v10, k1_main_v13, k1_main_v15, k1_main_v18, k1_main_v20, k1_main_v22⟩ := stage_ops0_p1 (after ops0_p0 W) x0 x1 x2 x3 k0_main_arg0 k0_main_arg1 k0_main_c_2 k0_main_call1_v0 k0_main_v1 k0_main_v10 k0_main_v12 k0_main_v6 k0_main_v8
  obtain ⟨k2_main_arg0, k2_main_arg1, k2_main_v1, k2_main_v13, k2_main_v15, k2_main_v18, k2_main_v20, k2_main_v23, k2_main_v25, k2_main_v27, k2_main_v29, k2_main_v31, k2_main_v33, k2_main_v35, k2_main_v36⟩ := stage_ops0_p2 (after ops0_p1 (after ops0_p0 W)) x0 x1 x2 x3 k1_main_arg0 k1_main_arg1 k1_main_c_6 k1_main_call3_v0 k1_main_v1 k1_main_v10 k1_main_v13 k1_main_v15 k1_main_v18 k1_main_v20 k1_main_v22
  obtain ⟨k3_main_arg0, k3_main_arg1, k3_main_v1, k3_main_v13, k3_main_v15, k3_main_v18, k3_main_v20, k3_main_v23, k3_main_v25, k3_main_v27, k3_main_v29, k3_main_v31, k3_main_v33, k3_main_v35, k3_main_v37, k3_main_v42⟩ := stage_ops0_p3 (after ops0_p2 (after ops0_p1 (after ops0_p0 W))) x0 x1 x2 x3 k2_main_arg0 k2_main_arg1 k2_main_v1 k2_main_v13 k2_main_v15 k2_main_v18 k2_main_v20 k2_main_v23 k2_main_v25 k2_main_v27 k2_main_v29 k2_main_v31 k2_main_v33 k2_main_v35 k2_main_v36
  exact ⟨k3_main_arg0, k3_main_arg1, k3_main_v1, k3_main_v13, k3_main_v15, k3_main_v18, k3_main_v20, k3_main_v23, k3_main_v25, k3_main_v27, k3_main_v29, k3_main_v31, k3_main_v33, k3_main_v35, k3_main_v37, k3_main_v42⟩

set_option maxRecDepth 16384 in
set_option maxHeartbeats 40000000 in
/-- `ops1` is its pieces one after the other. -/
theorem ops1_split : (ops1 : List (HloOp τ sig (Elt F))) = ops1_p0 ++ (ops1_p1 ++ (ops1_p2 ++ (ops1_p3 ++ (ops1_p4 ++ (ops1_p5))))) := by rfl
set_option maxRecDepth 16384 in
set_option maxHeartbeats 40000000 in
/-- After `ops1`: 18 buffers are still read later. -/
theorem stage_ops1 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v23 : W (Proc.devRef .tc main_v23) = Cert.ReferenceIdeal.ReadP.val_main_v23 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    (h_main_v42 : W (Proc.devRef .tc main_v42) = Cert.ReferenceIdeal.ReadP.val_main_v42 (F := F) x2)
    : (after ops1 W (Proc.devRef .tc main_arg0) = x0)
      ∧ (after ops1 W (Proc.devRef .tc main_arg1) = x1)
      ∧ (after ops1 W (Proc.devRef .tc main_c_26) = Cert.ReferenceIdeal.ReadP.val_main_c_26 (F := F))
      ∧ (after ops1 W (Proc.devRef .tc main_v1) = Cert.ReferenceIdeal.ReadP.val_main_v1 (F := F) x3)
      ∧ (after ops1 W (Proc.devRef .tc main_v13) = Cert.ReferenceIdeal.ReadP.val_main_v13 (F := F) x2)
      ∧ (after ops1 W (Proc.devRef .tc main_v15) = Cert.ReferenceIdeal.ReadP.val_main_v15 (F := F) x2)
      ∧ (after ops1 W (Proc.devRef .tc main_v18) = Cert.ReferenceIdeal.ReadP.val_main_v18 (F := F) x2)
      ∧ (after ops1 W (Proc.devRef .tc main_v20) = Cert.ReferenceIdeal.ReadP.val_main_v20 (F := F) x2)
      ∧ (after ops1 W (Proc.devRef .tc main_v23) = Cert.ReferenceIdeal.ReadP.val_main_v23 (F := F) x2)
      ∧ (after ops1 W (Proc.devRef .tc main_v25) = Cert.ReferenceIdeal.ReadP.val_main_v25 (F := F) x2)
      ∧ (after ops1 W (Proc.devRef .tc main_v27) = Cert.ReferenceIdeal.ReadP.val_main_v27 (F := F) x2)
      ∧ (after ops1 W (Proc.devRef .tc main_v29) = Cert.ReferenceIdeal.ReadP.val_main_v29 (F := F) x2)
      ∧ (after ops1 W (Proc.devRef .tc main_v31) = Cert.ReferenceIdeal.ReadP.val_main_v31 (F := F) x2)
      ∧ (after ops1 W (Proc.devRef .tc main_v33) = Cert.ReferenceIdeal.ReadP.val_main_v33 (F := F) x2)
      ∧ (after ops1 W (Proc.devRef .tc main_v35) = Cert.ReferenceIdeal.ReadP.val_main_v35 (F := F) x2)
      ∧ (after ops1 W (Proc.devRef .tc main_v37) = Cert.ReferenceIdeal.ReadP.val_main_v37 (F := F) x2)
      ∧ (after ops1 W (Proc.devRef .tc main_v88) = Cert.ReferenceIdeal.ReadP.val_main_v88 (F := F) x2 x3)
      ∧ (after ops1 W (Proc.devRef .tc main_v90) = Cert.ReferenceIdeal.ReadP.val_main_v90 (F := F) x2) := by
  rw [ops1_split]
  try simp only [StableHlo.after_append]
  obtain ⟨k0_main_arg0, k0_main_arg1, k0_main_v1, k0_main_v13, k0_main_v15, k0_main_v18, k0_main_v20, k0_main_v23, k0_main_v25, k0_main_v27, k0_main_v29, k0_main_v31, k0_main_v33, k0_main_v35, k0_main_v37, k0_main_v53, k0_main_v54, k0_main_v55⟩ := stage_ops1_p0 W x0 x1 x2 x3 h_main_arg0 h_main_arg1 h_main_v1 h_main_v13 h_main_v15 h_main_v18 h_main_v20 h_main_v23 h_main_v25 h_main_v27 h_main_v29 h_main_v31 h_main_v33 h_main_v35 h_main_v37 h_main_v42
  obtain ⟨k1_main_arg0, k1_main_arg1, k1_main_v1, k1_main_v13, k1_main_v15, k1_main_v18, k1_main_v20, k1_main_v23, k1_main_v25, k1_main_v27, k1_main_v29, k1_main_v31, k1_main_v33, k1_main_v35, k1_main_v37, k1_main_v56⟩ := stage_ops1_p1 (after ops1_p0 W) x0 x1 x2 x3 k0_main_arg0 k0_main_arg1 k0_main_v1 k0_main_v13 k0_main_v15 k0_main_v18 k0_main_v20 k0_main_v23 k0_main_v25 k0_main_v27 k0_main_v29 k0_main_v31 k0_main_v33 k0_main_v35 k0_main_v37 k0_main_v53 k0_main_v54 k0_main_v55
  obtain ⟨k2_main_arg0, k2_main_arg1, k2_main_c_24, k2_main_v1, k2_main_v13, k2_main_v15, k2_main_v18, k2_main_v20, k2_main_v23, k2_main_v25, k2_main_v27, k2_main_v29, k2_main_v31, k2_main_v33, k2_main_v35, k2_main_v37, k2_main_v62, k2_main_v67, k2_main_v72, k2_main_v74⟩ := stage_ops1_p2 (after ops1_p1 (after ops1_p0 W)) x0 x1 x2 x3 k1_main_arg0 k1_main_arg1 k1_main_v1 k1_main_v13 k1_main_v15 k1_main_v18 k1_main_v20 k1_main_v23 k1_main_v25 k1_main_v27 k1_main_v29 k1_main_v31 k1_main_v33 k1_main_v35 k1_main_v37 k1_main_v56
  obtain ⟨k3_main_arg0, k3_main_arg1, k3_main_v1, k3_main_v13, k3_main_v15, k3_main_v18, k3_main_v20, k3_main_v23, k3_main_v25, k3_main_v27, k3_main_v29, k3_main_v31, k3_main_v33, k3_main_v35, k3_main_v37, k3_main_v62, k3_main_v78, k3_main_v79, k3_main_v80⟩ := stage_ops1_p3 (after ops1_p2 (after ops1_p1 (after ops1_p0 W))) x0 x1 x2 x3 k2_main_arg0 k2_main_arg1 k2_main_c_24 k2_main_v1 k2_main_v13 k2_main_v15 k2_main_v18 k2_main_v20 k2_main_v23 k2_main_v25 k2_main_v27 k2_main_v29 k2_main_v31 k2_main_v33 k2_main_v35 k2_main_v37 k2_main_v62 k2_main_v67 k2_main_v72 k2_main_v74
  obtain ⟨k4_main_arg0, k4_main_arg1, k4_main_v1, k4_main_v13, k4_main_v15, k4_main_v18, k4_main_v20, k4_main_v23, k4_main_v25, k4_main_v27, k4_main_v29, k4_main_v31, k4_main_v33, k4_main_v35, k4_main_v37, k4_main_v62, k4_main_v81⟩ := stage_ops1_p4 (after ops1_p3 (after ops1_p2 (after ops1_p1 (after ops1_p0 W)))) x0 x1 x2 x3 k3_main_arg0 k3_main_arg1 k3_main_v1 k3_main_v13 k3_main_v15 k3_main_v18 k3_main_v20 k3_main_v23 k3_main_v25 k3_main_v27 k3_main_v29 k3_main_v31 k3_main_v33 k3_main_v35 k3_main_v37 k3_main_v62 k3_main_v78 k3_main_v79 k3_main_v80
  obtain ⟨k5_main_arg0, k5_main_arg1, k5_main_c_26, k5_main_v1, k5_main_v13, k5_main_v15, k5_main_v18, k5_main_v20, k5_main_v23, k5_main_v25, k5_main_v27, k5_main_v29, k5_main_v31, k5_main_v33, k5_main_v35, k5_main_v37, k5_main_v88, k5_main_v90⟩ := stage_ops1_p5 (after ops1_p4 (after ops1_p3 (after ops1_p2 (after ops1_p1 (after ops1_p0 W))))) x0 x1 x2 x3 k4_main_arg0 k4_main_arg1 k4_main_v1 k4_main_v13 k4_main_v15 k4_main_v18 k4_main_v20 k4_main_v23 k4_main_v25 k4_main_v27 k4_main_v29 k4_main_v31 k4_main_v33 k4_main_v35 k4_main_v37 k4_main_v62 k4_main_v81
  exact ⟨k5_main_arg0, k5_main_arg1, k5_main_c_26, k5_main_v1, k5_main_v13, k5_main_v15, k5_main_v18, k5_main_v20, k5_main_v23, k5_main_v25, k5_main_v27, k5_main_v29, k5_main_v31, k5_main_v33, k5_main_v35, k5_main_v37, k5_main_v88, k5_main_v90⟩

set_option maxRecDepth 16384 in
set_option maxHeartbeats 40000000 in
/-- `ops2` is its pieces one after the other. -/
theorem ops2_split : (ops2 : List (HloOp τ sig (Elt F))) = ops2_p0 ++ (ops2_p1 ++ (ops2_p2 ++ (ops2_p3 ++ (ops2_p4 ++ (ops2_p5))))) := by rfl
set_option maxRecDepth 16384 in
set_option maxHeartbeats 40000000 in
/-- After `ops2`: 14 buffers are still read later. -/
theorem stage_ops2 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_c_26 : W (Proc.devRef .tc main_c_26) = Cert.ReferenceIdeal.ReadP.val_main_c_26 (F := F))
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v23 : W (Proc.devRef .tc main_v23) = Cert.ReferenceIdeal.ReadP.val_main_v23 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    (h_main_v37 : W (Proc.devRef .tc main_v37) = Cert.ReferenceIdeal.ReadP.val_main_v37 (F := F) x2)
    (h_main_v88 : W (Proc.devRef .tc main_v88) = Cert.ReferenceIdeal.ReadP.val_main_v88 (F := F) x2 x3)
    (h_main_v90 : W (Proc.devRef .tc main_v90) = Cert.ReferenceIdeal.ReadP.val_main_v90 (F := F) x2)
    : (after ops2 W (Proc.devRef .tc main_arg0) = x0)
      ∧ (after ops2 W (Proc.devRef .tc main_arg1) = x1)
      ∧ (after ops2 W (Proc.devRef .tc main_v1) = Cert.ReferenceIdeal.ReadP.val_main_v1 (F := F) x3)
      ∧ (after ops2 W (Proc.devRef .tc main_v13) = Cert.ReferenceIdeal.ReadP.val_main_v13 (F := F) x2)
      ∧ (after ops2 W (Proc.devRef .tc main_v140) = Cert.ReferenceIdeal.ReadP.val_main_v140 (F := F) x2 x3)
      ∧ (after ops2 W (Proc.devRef .tc main_v15) = Cert.ReferenceIdeal.ReadP.val_main_v15 (F := F) x2)
      ∧ (after ops2 W (Proc.devRef .tc main_v18) = Cert.ReferenceIdeal.ReadP.val_main_v18 (F := F) x2)
      ∧ (after ops2 W (Proc.devRef .tc main_v20) = Cert.ReferenceIdeal.ReadP.val_main_v20 (F := F) x2)
      ∧ (after ops2 W (Proc.devRef .tc main_v25) = Cert.ReferenceIdeal.ReadP.val_main_v25 (F := F) x2)
      ∧ (after ops2 W (Proc.devRef .tc main_v27) = Cert.ReferenceIdeal.ReadP.val_main_v27 (F := F) x2)
      ∧ (after ops2 W (Proc.devRef .tc main_v29) = Cert.ReferenceIdeal.ReadP.val_main_v29 (F := F) x2)
      ∧ (after ops2 W (Proc.devRef .tc main_v31) = Cert.ReferenceIdeal.ReadP.val_main_v31 (F := F) x2)
      ∧ (after ops2 W (Proc.devRef .tc main_v33) = Cert.ReferenceIdeal.ReadP.val_main_v33 (F := F) x2)
      ∧ (after ops2 W (Proc.devRef .tc main_v35) = Cert.ReferenceIdeal.ReadP.val_main_v35 (F := F) x2) := by
  rw [ops2_split]
  try simp only [StableHlo.after_append]
  obtain ⟨k0_main_arg0, k0_main_arg1, k0_main_v1, k0_main_v104, k0_main_v105, k0_main_v106, k0_main_v13, k0_main_v15, k0_main_v18, k0_main_v20, k0_main_v23, k0_main_v25, k0_main_v27, k0_main_v29, k0_main_v31, k0_main_v33, k0_main_v35, k0_main_v37, k0_main_v88⟩ := stage_ops2_p0 W x0 x1 x2 x3 h_main_arg0 h_main_arg1 h_main_c_26 h_main_v1 h_main_v13 h_main_v15 h_main_v18 h_main_v20 h_main_v23 h_main_v25 h_main_v27 h_main_v29 h_main_v31 h_main_v33 h_main_v35 h_main_v37 h_main_v88 h_main_v90
  obtain ⟨k1_main_arg0, k1_main_arg1, k1_main_v1, k1_main_v107, k1_main_v13, k1_main_v15, k1_main_v18, k1_main_v20, k1_main_v23, k1_main_v25, k1_main_v27, k1_main_v29, k1_main_v31, k1_main_v33, k1_main_v35, k1_main_v37, k1_main_v88⟩ := stage_ops2_p1 (after ops2_p0 W) x0 x1 x2 x3 k0_main_arg0 k0_main_arg1 k0_main_v1 k0_main_v104 k0_main_v105 k0_main_v106 k0_main_v13 k0_main_v15 k0_main_v18 k0_main_v20 k0_main_v23 k0_main_v25 k0_main_v27 k0_main_v29 k0_main_v31 k0_main_v33 k0_main_v35 k0_main_v37 k0_main_v88
  obtain ⟨k2_main_arg0, k2_main_arg1, k2_main_v1, k2_main_v114, k2_main_v119, k2_main_v124, k2_main_v126, k2_main_v13, k2_main_v15, k2_main_v18, k2_main_v20, k2_main_v25, k2_main_v27, k2_main_v29, k2_main_v31, k2_main_v33, k2_main_v35, k2_main_v37⟩ := stage_ops2_p2 (after ops2_p1 (after ops2_p0 W)) x0 x1 x2 x3 k1_main_arg0 k1_main_arg1 k1_main_v1 k1_main_v107 k1_main_v13 k1_main_v15 k1_main_v18 k1_main_v20 k1_main_v23 k1_main_v25 k1_main_v27 k1_main_v29 k1_main_v31 k1_main_v33 k1_main_v35 k1_main_v37 k1_main_v88
  obtain ⟨k3_main_arg0, k3_main_arg1, k3_main_v1, k3_main_v114, k3_main_v13, k3_main_v130, k3_main_v131, k3_main_v132, k3_main_v15, k3_main_v18, k3_main_v20, k3_main_v25, k3_main_v27, k3_main_v29, k3_main_v31, k3_main_v33, k3_main_v35, k3_main_v37⟩ := stage_ops2_p3 (after ops2_p2 (after ops2_p1 (after ops2_p0 W))) x0 x1 x2 x3 k2_main_arg0 k2_main_arg1 k2_main_v1 k2_main_v114 k2_main_v119 k2_main_v124 k2_main_v126 k2_main_v13 k2_main_v15 k2_main_v18 k2_main_v20 k2_main_v25 k2_main_v27 k2_main_v29 k2_main_v31 k2_main_v33 k2_main_v35 k2_main_v37
  obtain ⟨k4_main_arg0, k4_main_arg1, k4_main_v1, k4_main_v114, k4_main_v13, k4_main_v133, k4_main_v15, k4_main_v18, k4_main_v20, k4_main_v25, k4_main_v27, k4_main_v29, k4_main_v31, k4_main_v33, k4_main_v35, k4_main_v37⟩ := stage_ops2_p4 (after ops2_p3 (after ops2_p2 (after ops2_p1 (after ops2_p0 W)))) x0 x1 x2 x3 k3_main_arg0 k3_main_arg1 k3_main_v1 k3_main_v114 k3_main_v13 k3_main_v130 k3_main_v131 k3_main_v132 k3_main_v15 k3_main_v18 k3_main_v20 k3_main_v25 k3_main_v27 k3_main_v29 k3_main_v31 k3_main_v33 k3_main_v35 k3_main_v37
  obtain ⟨k5_main_arg0, k5_main_arg1, k5_main_v1, k5_main_v13, k5_main_v140, k5_main_v15, k5_main_v18, k5_main_v20, k5_main_v25, k5_main_v27, k5_main_v29, k5_main_v31, k5_main_v33, k5_main_v35⟩ := stage_ops2_p5 (after ops2_p4 (after ops2_p3 (after ops2_p2 (after ops2_p1 (after ops2_p0 W))))) x0 x1 x2 x3 k4_main_arg0 k4_main_arg1 k4_main_v1 k4_main_v114 k4_main_v13 k4_main_v133 k4_main_v15 k4_main_v18 k4_main_v20 k4_main_v25 k4_main_v27 k4_main_v29 k4_main_v31 k4_main_v33 k4_main_v35 k4_main_v37
  exact ⟨k5_main_arg0, k5_main_arg1, k5_main_v1, k5_main_v13, k5_main_v140, k5_main_v15, k5_main_v18, k5_main_v20, k5_main_v25, k5_main_v27, k5_main_v29, k5_main_v31, k5_main_v33, k5_main_v35⟩

set_option maxRecDepth 16384 in
set_option maxHeartbeats 40000000 in
/-- `ops3` is its pieces one after the other. -/
theorem ops3_split : (ops3 : List (HloOp τ sig (Elt F))) = ops3_p0 ++ (ops3_p1 ++ (ops3_p2 ++ (ops3_p3 ++ (ops3_p4 ++ (ops3_p5))))) := by rfl
set_option maxRecDepth 16384 in
set_option maxHeartbeats 40000000 in
/-- After `ops3`: 14 buffers are still read later. -/
theorem stage_ops3 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v140 : W (Proc.devRef .tc main_v140) = Cert.ReferenceIdeal.ReadP.val_main_v140 (F := F) x2 x3)
    (h_main_v15 : W (Proc.devRef .tc main_v15) = Cert.ReferenceIdeal.ReadP.val_main_v15 (F := F) x2)
    (h_main_v18 : W (Proc.devRef .tc main_v18) = Cert.ReferenceIdeal.ReadP.val_main_v18 (F := F) x2)
    (h_main_v20 : W (Proc.devRef .tc main_v20) = Cert.ReferenceIdeal.ReadP.val_main_v20 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    (h_main_v35 : W (Proc.devRef .tc main_v35) = Cert.ReferenceIdeal.ReadP.val_main_v35 (F := F) x2)
    : (after ops3 W (Proc.devRef .tc main_arg0) = x0)
      ∧ (after ops3 W (Proc.devRef .tc main_arg1) = x1)
      ∧ (after ops3 W (Proc.devRef .tc main_v1) = Cert.ReferenceIdeal.ReadP.val_main_v1 (F := F) x3)
      ∧ (after ops3 W (Proc.devRef .tc main_v13) = Cert.ReferenceIdeal.ReadP.val_main_v13 (F := F) x2)
      ∧ (after ops3 W (Proc.devRef .tc main_v15) = Cert.ReferenceIdeal.ReadP.val_main_v15 (F := F) x2)
      ∧ (after ops3 W (Proc.devRef .tc main_v166) = Cert.ReferenceIdeal.ReadP.val_main_v166 (F := F) x2 x3)
      ∧ (after ops3 W (Proc.devRef .tc main_v186) = Cert.ReferenceIdeal.ReadP.val_main_v186 (F := F) x2 x3)
      ∧ (after ops3 W (Proc.devRef .tc main_v188) = Cert.ReferenceIdeal.ReadP.val_main_v188 (F := F) x2)
      ∧ (after ops3 W (Proc.devRef .tc main_v20) = Cert.ReferenceIdeal.ReadP.val_main_v20 (F := F) x2)
      ∧ (after ops3 W (Proc.devRef .tc main_v25) = Cert.ReferenceIdeal.ReadP.val_main_v25 (F := F) x2)
      ∧ (after ops3 W (Proc.devRef .tc main_v27) = Cert.ReferenceIdeal.ReadP.val_main_v27 (F := F) x2)
      ∧ (after ops3 W (Proc.devRef .tc main_v29) = Cert.ReferenceIdeal.ReadP.val_main_v29 (F := F) x2)
      ∧ (after ops3 W (Proc.devRef .tc main_v31) = Cert.ReferenceIdeal.ReadP.val_main_v31 (F := F) x2)
      ∧ (after ops3 W (Proc.devRef .tc main_v33) = Cert.ReferenceIdeal.ReadP.val_main_v33 (F := F) x2) := by
  rw [ops3_split]
  try simp only [StableHlo.after_append]
  obtain ⟨k0_main_arg0, k0_main_arg1, k0_main_v1, k0_main_v13, k0_main_v140, k0_main_v15, k0_main_v156, k0_main_v157, k0_main_v158, k0_main_v18, k0_main_v20, k0_main_v25, k0_main_v27, k0_main_v29, k0_main_v31, k0_main_v33, k0_main_v35⟩ := stage_ops3_p0 W x0 x1 x2 x3 h_main_arg0 h_main_arg1 h_main_v1 h_main_v13 h_main_v140 h_main_v15 h_main_v18 h_main_v20 h_main_v25 h_main_v27 h_main_v29 h_main_v31 h_main_v33 h_main_v35
  obtain ⟨k1_main_arg0, k1_main_arg1, k1_main_v1, k1_main_v13, k1_main_v140, k1_main_v15, k1_main_v159, k1_main_v18, k1_main_v20, k1_main_v25, k1_main_v27, k1_main_v29, k1_main_v31, k1_main_v33, k1_main_v35⟩ := stage_ops3_p1 (after ops3_p0 W) x0 x1 x2 x3 k0_main_arg0 k0_main_arg1 k0_main_v1 k0_main_v13 k0_main_v140 k0_main_v15 k0_main_v156 k0_main_v157 k0_main_v158 k0_main_v18 k0_main_v20 k0_main_v25 k0_main_v27 k0_main_v29 k0_main_v31 k0_main_v33 k0_main_v35
  obtain ⟨k2_main_arg0, k2_main_arg1, k2_main_v1, k2_main_v13, k2_main_v15, k2_main_v166, k2_main_v171, k2_main_v176, k2_main_v178, k2_main_v20, k2_main_v25, k2_main_v27, k2_main_v29, k2_main_v31, k2_main_v33, k2_main_v35⟩ := stage_ops3_p2 (after ops3_p1 (after ops3_p0 W)) x0 x1 x2 x3 k1_main_arg0 k1_main_arg1 k1_main_v1 k1_main_v13 k1_main_v140 k1_main_v15 k1_main_v159 k1_main_v18 k1_main_v20 k1_main_v25 k1_main_v27 k1_main_v29 k1_main_v31 k1_main_v33 k1_main_v35
  obtain ⟨k3_main_arg0, k3_main_arg1, k3_main_v1, k3_main_v13, k3_main_v15, k3_main_v166, k3_main_v182, k3_main_v183, k3_main_v184, k3_main_v20, k3_main_v25, k3_main_v27, k3_main_v29, k3_main_v31, k3_main_v33, k3_main_v35⟩ := stage_ops3_p3 (after ops3_p2 (after ops3_p1 (after ops3_p0 W))) x0 x1 x2 x3 k2_main_arg0 k2_main_arg1 k2_main_v1 k2_main_v13 k2_main_v15 k2_main_v166 k2_main_v171 k2_main_v176 k2_main_v178 k2_main_v20 k2_main_v25 k2_main_v27 k2_main_v29 k2_main_v31 k2_main_v33 k2_main_v35
  obtain ⟨k4_main_arg0, k4_main_arg1, k4_main_v1, k4_main_v13, k4_main_v15, k4_main_v166, k4_main_v185, k4_main_v20, k4_main_v25, k4_main_v27, k4_main_v29, k4_main_v31, k4_main_v33, k4_main_v35⟩ := stage_ops3_p4 (after ops3_p3 (after ops3_p2 (after ops3_p1 (after ops3_p0 W)))) x0 x1 x2 x3 k3_main_arg0 k3_main_arg1 k3_main_v1 k3_main_v13 k3_main_v15 k3_main_v166 k3_main_v182 k3_main_v183 k3_main_v184 k3_main_v20 k3_main_v25 k3_main_v27 k3_main_v29 k3_main_v31 k3_main_v33 k3_main_v35
  obtain ⟨k5_main_arg0, k5_main_arg1, k5_main_v1, k5_main_v13, k5_main_v15, k5_main_v166, k5_main_v186, k5_main_v188, k5_main_v20, k5_main_v25, k5_main_v27, k5_main_v29, k5_main_v31, k5_main_v33⟩ := stage_ops3_p5 (after ops3_p4 (after ops3_p3 (after ops3_p2 (after ops3_p1 (after ops3_p0 W))))) x0 x1 x2 x3 k4_main_arg0 k4_main_arg1 k4_main_v1 k4_main_v13 k4_main_v15 k4_main_v166 k4_main_v185 k4_main_v20 k4_main_v25 k4_main_v27 k4_main_v29 k4_main_v31 k4_main_v33 k4_main_v35
  exact ⟨k5_main_arg0, k5_main_arg1, k5_main_v1, k5_main_v13, k5_main_v15, k5_main_v166, k5_main_v186, k5_main_v188, k5_main_v20, k5_main_v25, k5_main_v27, k5_main_v29, k5_main_v31, k5_main_v33⟩

set_option maxRecDepth 16384 in
set_option maxHeartbeats 40000000 in
/-- `ops4` is its pieces one after the other. -/
theorem ops4_split : (ops4 : List (HloOp τ sig (Elt F))) = ops4_p0 ++ (ops4_p1 ++ (ops4_p2 ++ (ops4_p3 ++ (ops4_p4)))) := by rfl
set_option maxRecDepth 16384 in
set_option maxHeartbeats 40000000 in
/-- After `ops4`: 10 buffers are still read later. -/
theorem stage_ops4 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_v1 : W (Proc.devRef .tc main_v1) = Cert.ReferenceIdeal.ReadP.val_main_v1 (F := F) x3)
    (h_main_v13 : W (Proc.devRef .tc main_v13) = Cert.ReferenceIdeal.ReadP.val_main_v13 (F := F) x2)
    (h_main_v15 : W (Proc.devRef .tc main_v15) = Cert.ReferenceIdeal.ReadP.val_main_v15 (F := F) x2)
    (h_main_v166 : W (Proc.devRef .tc main_v166) = Cert.ReferenceIdeal.ReadP.val_main_v166 (F := F) x2 x3)
    (h_main_v186 : W (Proc.devRef .tc main_v186) = Cert.ReferenceIdeal.ReadP.val_main_v186 (F := F) x2 x3)
    (h_main_v188 : W (Proc.devRef .tc main_v188) = Cert.ReferenceIdeal.ReadP.val_main_v188 (F := F) x2)
    (h_main_v20 : W (Proc.devRef .tc main_v20) = Cert.ReferenceIdeal.ReadP.val_main_v20 (F := F) x2)
    (h_main_v25 : W (Proc.devRef .tc main_v25) = Cert.ReferenceIdeal.ReadP.val_main_v25 (F := F) x2)
    (h_main_v27 : W (Proc.devRef .tc main_v27) = Cert.ReferenceIdeal.ReadP.val_main_v27 (F := F) x2)
    (h_main_v29 : W (Proc.devRef .tc main_v29) = Cert.ReferenceIdeal.ReadP.val_main_v29 (F := F) x2)
    (h_main_v31 : W (Proc.devRef .tc main_v31) = Cert.ReferenceIdeal.ReadP.val_main_v31 (F := F) x2)
    (h_main_v33 : W (Proc.devRef .tc main_v33) = Cert.ReferenceIdeal.ReadP.val_main_v33 (F := F) x2)
    : (after ops4 W (Proc.devRef .tc main_arg0) = x0)
      ∧ (after ops4 W (Proc.devRef .tc main_arg1) = x1)
      ∧ (after ops4 W (Proc.devRef .tc main_v1) = Cert.ReferenceIdeal.ReadP.val_main_v1 (F := F) x3)
      ∧ (after ops4 W (Proc.devRef .tc main_v15) = Cert.ReferenceIdeal.ReadP.val_main_v15 (F := F) x2)
      ∧ (after ops4 W (Proc.devRef .tc main_v20) = Cert.ReferenceIdeal.ReadP.val_main_v20 (F := F) x2)
      ∧ (after ops4 W (Proc.devRef .tc main_v218) = Cert.ReferenceIdeal.ReadP.val_main_v218 (F := F) x2 x3)
      ∧ (after ops4 W (Proc.devRef .tc main_v234) = Cert.ReferenceIdeal.ReadP.val_main_v234 (F := F) x2)
      ∧ (after ops4 W (Proc.devRef .tc main_v235) = Cert.ReferenceIdeal.ReadP.val_main_v235 (F := F) x2)
      ∧ (after ops4 W (Proc.devRef .tc main_v236) = Cert.ReferenceIdeal.ReadP.val_main_v236 (F := F) x2)
      ∧ (after ops4 W (Proc.devRef .tc main_v25) = Cert.ReferenceIdeal.ReadP.val_main_v25 (F := F) x2) := by
  rw [ops4_split]
  try simp only [StableHlo.after_append]
  obtain ⟨k0_main_arg0, k0_main_arg1, k0_main_v1, k0_main_v13, k0_main_v15, k0_main_v192, k0_main_v197, k0_main_v20, k0_main_v202, k0_main_v204, k0_main_v206, k0_main_v25, k0_main_v27, k0_main_v29, k0_main_v31, k0_main_v33⟩ := stage_ops4_p0 W x0 x1 x2 x3 h_main_arg0 h_main_arg1 h_main_v1 h_main_v13 h_main_v15 h_main_v166 h_main_v186 h_main_v188 h_main_v20 h_main_v25 h_main_v27 h_main_v29 h_main_v31 h_main_v33
  obtain ⟨k1_main_arg0, k1_main_arg1, k1_main_v1, k1_main_v15, k1_main_v192, k1_main_v20, k1_main_v208, k1_main_v209, k1_main_v210, k1_main_v25, k1_main_v27, k1_main_v29, k1_main_v31, k1_main_v33⟩ := stage_ops4_p1 (after ops4_p0 W) x0 x1 x2 x3 k0_main_arg0 k0_main_arg1 k0_main_v1 k0_main_v13 k0_main_v15 k0_main_v192 k0_main_v197 k0_main_v20 k0_main_v202 k0_main_v204 k0_main_v206 k0_main_v25 k0_main_v27 k0_main_v29 k0_main_v31 k0_main_v33
  obtain ⟨k2_main_arg0, k2_main_arg1, k2_main_v1, k2_main_v15, k2_main_v192, k2_main_v20, k2_main_v211, k2_main_v25, k2_main_v27, k2_main_v29, k2_main_v31, k2_main_v33⟩ := stage_ops4_p2 (after ops4_p1 (after ops4_p0 W)) x0 x1 x2 x3 k1_main_arg0 k1_main_arg1 k1_main_v1 k1_main_v15 k1_main_v192 k1_main_v20 k1_main_v208 k1_main_v209 k1_main_v210 k1_main_v25 k1_main_v27 k1_main_v29 k1_main_v31 k1_main_v33
  obtain ⟨k3_main_arg0, k3_main_arg1, k3_main_v1, k3_main_v15, k3_main_v20, k3_main_v218, k3_main_v223, k3_main_v228, k3_main_v230, k3_main_v25, k3_main_v27⟩ := stage_ops4_p3 (after ops4_p2 (after ops4_p1 (after ops4_p0 W))) x0 x1 x2 x3 k2_main_arg0 k2_main_arg1 k2_main_v1 k2_main_v15 k2_main_v192 k2_main_v20 k2_main_v211 k2_main_v25 k2_main_v27 k2_main_v29 k2_main_v31 k2_main_v33
  obtain ⟨k4_main_arg0, k4_main_arg1, k4_main_v1, k4_main_v15, k4_main_v20, k4_main_v218, k4_main_v234, k4_main_v235, k4_main_v236, k4_main_v25⟩ := stage_ops4_p4 (after ops4_p3 (after ops4_p2 (after ops4_p1 (after ops4_p0 W)))) x0 x1 x2 x3 k3_main_arg0 k3_main_arg1 k3_main_v1 k3_main_v15 k3_main_v20 k3_main_v218 k3_main_v223 k3_main_v228 k3_main_v230 k3_main_v25 k3_main_v27
  exact ⟨k4_main_arg0, k4_main_arg1, k4_main_v1, k4_main_v15, k4_main_v20, k4_main_v218, k4_main_v234, k4_main_v235, k4_main_v236, k4_main_v25⟩

set_option maxRecDepth 16384 in
set_option maxHeartbeats 40000000 in
/-- `ops5` is its pieces one after the other. -/
theorem ops5_split : (ops5 : List (HloOp τ sig (Elt F))) = ops5_p0 ++ ops5_p1 := by rfl
set_option maxRecDepth 16384 in
set_option maxHeartbeats 40000000 in
/-- After `ops5`: 1 buffers are still read later. -/
theorem stage_ops5 (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_v1 : W (Proc.devRef .tc main_v1) = Cert.ReferenceIdeal.ReadP.val_main_v1 (F := F) x3)
    (h_main_v15 : W (Proc.devRef .tc main_v15) = Cert.ReferenceIdeal.ReadP.val_main_v15 (F := F) x2)
    (h_main_v20 : W (Proc.devRef .tc main_v20) = Cert.ReferenceIdeal.ReadP.val_main_v20 (F := F) x2)
    (h_main_v218 : W (Proc.devRef .tc main_v218) = Cert.ReferenceIdeal.ReadP.val_main_v218 (F := F) x2 x3)
    (h_main_v234 : W (Proc.devRef .tc main_v234) = Cert.ReferenceIdeal.ReadP.val_main_v234 (F := F) x2)
    (h_main_v235 : W (Proc.devRef .tc main_v235) = Cert.ReferenceIdeal.ReadP.val_main_v235 (F := F) x2)
    (h_main_v236 : W (Proc.devRef .tc main_v236) = Cert.ReferenceIdeal.ReadP.val_main_v236 (F := F) x2)
    (h_main_v25 : W (Proc.devRef .tc main_v25) = Cert.ReferenceIdeal.ReadP.val_main_v25 (F := F) x2)
    : (after ops5 W (Proc.devRef .tc main_v250) = Cert.ReferenceIdeal.ReadP.val_main_v250 (F := F) x0 x1 x2 x3) := by
  rw [ops5_split]
  try simp only [StableHlo.after_append]
  obtain ⟨k0_main_arg0, k0_main_arg1, k0_main_v1, k0_main_v15, k0_main_v20, k0_main_v218, k0_main_v237, k0_main_v25⟩ := stage_ops5_p0 W x0 x1 x2 x3 h_main_arg0 h_main_arg1 h_main_v1 h_main_v15 h_main_v20 h_main_v218 h_main_v234 h_main_v235 h_main_v236 h_main_v25
  have k1_main_v250 := stage_ops5_p1 (after ops5_p0 W) x0 x1 x2 x3 k0_main_arg0 k0_main_arg1 k0_main_v1 k0_main_v15 k0_main_v20 k0_main_v218 k0_main_v237 k0_main_v25
  exact k1_main_v250

set_option maxRecDepth 16384 in
set_option maxHeartbeats 40000000 in
/-- The whole fold at `main_v250`, over any contents holding the arguments. -/
theorem chain (W : Valuation τ sig (Elt F)) (x0 : (⟨S4x8x512x512, .f32⟩ : BufTy).Contents (Elt F)) (x1 : (⟨S4x8x512x512, .f32⟩ : BufTy).Contents (Elt F)) (x2 : (⟨S4x3x512x512, .f32⟩ : BufTy).Contents (Elt F)) (x3 : (⟨S107811x8, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    : after ops5 (after ops4 (after ops3 (after ops2 (after ops1 (after ops0 W))))) (Proc.devRef .tc main_v250) = Cert.ReferenceIdeal.ReadP.val_main_v250 (F := F) x0 x1 x2 x3 := by
  obtain ⟨k0_main_arg0, k0_main_arg1, k0_main_v1, k0_main_v13, k0_main_v15, k0_main_v18, k0_main_v20, k0_main_v23, k0_main_v25, k0_main_v27, k0_main_v29, k0_main_v31, k0_main_v33, k0_main_v35, k0_main_v37, k0_main_v42⟩ := stage_ops0 W x0 x1 x2 x3 h_main_arg0 h_main_arg1 h_main_arg2 h_main_arg3
  obtain ⟨k1_main_arg0, k1_main_arg1, k1_main_c_26, k1_main_v1, k1_main_v13, k1_main_v15, k1_main_v18, k1_main_v20, k1_main_v23, k1_main_v25, k1_main_v27, k1_main_v29, k1_main_v31, k1_main_v33, k1_main_v35, k1_main_v37, k1_main_v88, k1_main_v90⟩ := stage_ops1 (after ops0 W) x0 x1 x2 x3 k0_main_arg0 k0_main_arg1 k0_main_v1 k0_main_v13 k0_main_v15 k0_main_v18 k0_main_v20 k0_main_v23 k0_main_v25 k0_main_v27 k0_main_v29 k0_main_v31 k0_main_v33 k0_main_v35 k0_main_v37 k0_main_v42
  obtain ⟨k2_main_arg0, k2_main_arg1, k2_main_v1, k2_main_v13, k2_main_v140, k2_main_v15, k2_main_v18, k2_main_v20, k2_main_v25, k2_main_v27, k2_main_v29, k2_main_v31, k2_main_v33, k2_main_v35⟩ := stage_ops2 (after ops1 (after ops0 W)) x0 x1 x2 x3 k1_main_arg0 k1_main_arg1 k1_main_c_26 k1_main_v1 k1_main_v13 k1_main_v15 k1_main_v18 k1_main_v20 k1_main_v23 k1_main_v25 k1_main_v27 k1_main_v29 k1_main_v31 k1_main_v33 k1_main_v35 k1_main_v37 k1_main_v88 k1_main_v90
  obtain ⟨k3_main_arg0, k3_main_arg1, k3_main_v1, k3_main_v13, k3_main_v15, k3_main_v166, k3_main_v186, k3_main_v188, k3_main_v20, k3_main_v25, k3_main_v27, k3_main_v29, k3_main_v31, k3_main_v33⟩ := stage_ops3 (after ops2 (after ops1 (after ops0 W))) x0 x1 x2 x3 k2_main_arg0 k2_main_arg1 k2_main_v1 k2_main_v13 k2_main_v140 k2_main_v15 k2_main_v18 k2_main_v20 k2_main_v25 k2_main_v27 k2_main_v29 k2_main_v31 k2_main_v33 k2_main_v35
  obtain ⟨k4_main_arg0, k4_main_arg1, k4_main_v1, k4_main_v15, k4_main_v20, k4_main_v218, k4_main_v234, k4_main_v235, k4_main_v236, k4_main_v25⟩ := stage_ops4 (after ops3 (after ops2 (after ops1 (after ops0 W)))) x0 x1 x2 x3 k3_main_arg0 k3_main_arg1 k3_main_v1 k3_main_v13 k3_main_v15 k3_main_v166 k3_main_v186 k3_main_v188 k3_main_v20 k3_main_v25 k3_main_v27 k3_main_v29 k3_main_v31 k3_main_v33
  have k5_main_v250 := stage_ops5 (after ops4 (after ops3 (after ops2 (after ops1 (after ops0 W))))) x0 x1 x2 x3 k4_main_arg0 k4_main_arg1 k4_main_v1 k4_main_v15 k4_main_v20 k4_main_v218 k4_main_v234 k4_main_v235 k4_main_v236 k4_main_v25
  exact k5_main_v250

end Cert.ReferenceIdeal.Stages

end
-- ==== Proof.RefEval.lean ====
/-
  What the reference's run leaves in its result and in its arguments.

  The reference's operations are single-assignment: each writes its own result buffer once and reads buffers written
  before it or the arguments. The fold of all of them is the fold of the six windows in turn, and window by window every
  buffer that is still read later holds its stage of the arguments; so the fold, read at the result buffer, is the stage
  `val_main_v250` of the four arguments. Read at an argument it is the launch contents, since no operation writes one.
-/
import proofs.«180827_j9612136808561_2_alg».proof.Proof.RefRun
import proofs.«180827_j9612136808561_2_alg».proof.Proof.RefStages
import Idealize.ShloMosaic.Lib.Pipeline.Frame

noncomputable section

namespace Cert.ReferenceIdeal.Eval

open Cert.ReferenceIdeal Cert.ReferenceIdeal.Gen Cert.ReferenceIdeal.RunH
open Idealize.ShloMosaic Idealize.ShloMosaic.TcCoe Idealize.SL.Sem Idealize.ShloMosaic.StableHlo

variable {F : FTy → Type} [FloatOps F]

variable (m : (ℓ : Loc nD τ sig) → Buf (Elt F) ℓ)

set_option maxRecDepth 16384 in
/-- The fold at the result buffer is the result's stage of the four arguments. -/
theorem result_eq (d : Dev nD) :
    after (opsAll (F := F)) (launchContents m d) (Proc.devRef .tc main_v250)
      = Cert.ReferenceIdeal.ReadP.val_main_v250 (F := F) (m ((d.tc : Thread nD τ).loc main_arg0)) (m ((d.tc : Thread nD τ).loc main_arg1))
          (m ((d.tc : Thread nD τ).loc main_arg2)) (m ((d.tc : Thread nD τ).loc main_arg3)) := by
  show after (ops0 ++ (ops1 ++ (ops2 ++ (ops3 ++ (ops4 ++ ops5))))) (launchContents m d) (Proc.devRef .tc main_v250) = _
  simp only [StableHlo.after_append]
  exact Cert.ReferenceIdeal.Stages.chain (launchContents m d) _ _ _ _ rfl rfl rfl rfl

/-- No operation writes argument 0. -/
theorem arg0_eq (d : Dev nD) :
    after (opsAll (F := F)) (launchContents m d) (Proc.devRef .tc main_arg0) = m ((d.tc : Thread nD τ).loc main_arg0) :=
  (after_arg _ main_arg0 (by decide)).trans rfl

/-- No operation writes argument 1. -/
theorem arg1_eq (d : Dev nD) :
    after (opsAll (F := F)) (launchContents m d) (Proc.devRef .tc main_arg1) = m ((d.tc : Thread nD τ).loc main_arg1) :=
  (after_arg _ main_arg1 (by decide)).trans rfl

/-- No operation writes argument 2. -/
theorem arg2_eq (d : Dev nD) :
    after (opsAll (F := F)) (launchContents m d) (Proc.devRef .tc main_arg2) = m ((d.tc : Thread nD τ).loc main_arg2) :=
  (after_arg _ main_arg2 (by decide)).trans rfl

/-- No operation writes argument 3. -/
theorem arg3_eq (d : Dev nD) :
    after (opsAll (F := F)) (launchContents m d) (Proc.devRef .tc main_arg3) = m ((d.tc : Thread nD τ).loc main_arg3) :=
  (after_arg _ main_arg3 (by decide)).trans rfl

/-- The reference's run, read: the result at its stage of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v250)
        = Cert.ReferenceIdeal.ReadP.val_main_v250 (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v250).trans (result_eq m c),
      (h c main_arg0).trans (arg0_eq m c), (h c main_arg1).trans (arg1_eq m c),
      (h c main_arg2).trans (arg2_eq m c), (h c main_arg3).trans (arg3_eq m c)⟩) (run_all m ρ)

end Cert.ReferenceIdeal.Eval

end
-- ==== Proof.lean ====
/-
  The kernel computes, for every batch b, colour c and pixel (h, w), the sum over the eight ranks r of
  weight(b, r, h, w) · weight'(b, r, h, w) · sampled(r, c, b, h, w), where `sampled` is the trilinear lookup of the image in
  the table, computed by host operations before the launch and consumed in its [rank, colour, batch, height, width] layout.
  The reference computes the same sampled tensor by the same host operations, transposes it to
  [batch, rank, colour, height, width], multiplies it with the weight product repeated over the colours, and adds over the
  rank axis from zero.

  Over the extended reals both results are the same finite sum, term by term: a transpose, a reshape and a repetition
  each read one element of their operand, the kernel's addition over the rank axis and the host's are the sum over that
  axis's eight coordinates, and zero plus a sum is the sum. No law that needs finite operands is used, so the
  precondition is not opened.

  The three frames: each program runs to its end, faults nowhere and leaves its four arguments unchanged. For the two
  kernel programs this is the launch's frame over the proof data of the weighted-sum body (the host operations before
  the launch write no argument); for the reference it is its run with the result dropped. Nothing was rewritten by the
  idealization, so there is nothing to preserve.
-/
import proofs.«180827_j9612136808561_2_alg».proof.Defs
import proofs.«180827_j9612136808561_2_alg».proof.Proof.Gen.Kernel
import proofs.«180827_j9612136808561_2_alg».proof.Proof.Gen.KernelIdeal
import proofs.«180827_j9612136808561_2_alg».proof.Proof.Gen.ReferenceIdeal
import proofs.«180827_j9612136808561_2_alg».proof.Proof.Gen.Pre_finite_inputs
import proofs.«180827_j9612136808561_2_alg».proof.Proof.KFrame
import proofs.«180827_j9612136808561_2_alg».proof.Proof.KIValue
import proofs.«180827_j9612136808561_2_alg».proof.Proof.KIPrelude
import proofs.«180827_j9612136808561_2_alg».proof.Proof.RefValue
import proofs.«180827_j9612136808561_2_alg».proof.Proof.RefEval
import Idealize.ShloMosaic.Adequacy
import Idealize.ShloMosaic.Init

noncomputable section

namespace Cert.Proof

open Idealize.ShloMosaic Idealize.ShloMosaic.TcCoe Idealize.SL.Sem

namespace Claims

/-- The kernel as printed runs and leaves its arguments unchanged. -/
theorem frame_k : Cert.frame_Kernel := fun m ρ _ => Cert.Kernel.Fr.frame m ρ

/-- So does the kernel read over the extended reals. -/
theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Eval.run (F := Ideal) m ρ)

/-- The idealization rewrote nothing. -/
theorem preserves : Cert.preserves_Kernel_KernelIdeal := trivial

/-- Both programs end with the weighted sum of the two weight arguments and of the sampled tensor, and the sampled
    tensor the kernel's launch finds is the reference's stage of the image and the table. -/
theorem algebraic : Cert.algebraic_KernelIdeal_ReferenceIdeal := by
  intro m ρ m' ρ' _ hagree
  refine ⟨fun c => Cert.Spec.wsum (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (Cert.KernelIdeal.Host.V m c Cert.KernelIdeal.main_v244), Cert.KernelIdeal.Val.run_value m ρ, ?_⟩
  refine (θ_run Cert.ReferenceIdeal.defs _ _).mono (fun _ h c => ⟨(h c).1.trans ?_, (h c).2⟩)
    (Cert.ReferenceIdeal.Eval.run (F := Ideal) m' ρ')
  rw [Cert.ReferenceIdeal.RefValue.ref_value,
    (hagree c).1, (hagree c).2.1, (hagree c).2.2.1, (hagree c).2.2.2, ← Cert.KernelIdeal.Prelude.sampled_eq m c]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
